-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S80000 : Shape := ⟨1, ![80000]⟩
abbrev S2000000 : Shape := ⟨1, ![2000000]⟩
abbrev S2x2000000 : Shape := ⟨2, ![2, 2000000]⟩
abbrev S_ : Shape := ⟨0, ![]⟩

class Facts : Prop where
  bcast_S_S80000 : S_.BroadcastsInDim S80000 (![] : Fin 0 → Fin S80000.rank)
  reducesTo_S80000_S_d0 : S80000.ReducesTo [0] S_
  h_S_ : 0 < S_.numel
  bcast_S_S2000000 : S_.BroadcastsInDim S2000000 (![] : Fin 0 → Fin S2000000.rank)
  reducesTo_S2000000_S_d0 : S2000000.ReducesTo [0] S_
  bcast_S_S2x2000000 : S_.BroadcastsInDim S2x2000000 (![] : Fin 0 → Fin S2x2000000.rank)
  reducesTo_S2x2000000_S_d0_1 : S2x2000000.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S80000 .f32) (main_arg1 : FVec F S2000000 .f32) (main_arg2 : IVec S2x2000000 32) : IVec S_ 1 :=
  let main_v0 : FVec F S80000 .f32 := Host.absf main_arg0
  let main_cst : FVec F S_ .f32 := constant S_ .f32 0x7F800000#32
  let main_v1 : FVec F S80000 .f32 := broadcastInDim S80000 ![] bcast_S_S80000 main_cst
  let main_v2 : IVec S80000 1 := cmpf .olt main_v0 main_v1
  let main_c : IVec S_ 1 := constantI S_ 1 1#1
  let main_v3 : IVec S_ 1 := (fun x v => Host.reduce IntOp.andi x v reducesTo_S80000_S_d0 h_S_) main_v2 main_c
  let main_v4 : FVec F S2000000 .f32 := Host.absf main_arg1
  let main_cst_0 : FVec F S_ .f32 := constant S_ .f32 0x7F800000#32
  let main_v5 : FVec F S2000000 .f32 := broadcastInDim S2000000 ![] bcast_S_S2000000 main_cst_0
  let main_v6 : IVec S2000000 1 := cmpf .olt main_v4 main_v5
  let main_c_1 : IVec S_ 1 := constantI S_ 1 1#1
  let main_v7 : IVec S_ 1 := (fun x v => Host.reduce IntOp.andi x v reducesTo_S2000000_S_d0 h_S_) main_v6 main_c_1
  let main_v8 : IVec S_ 1 := andi main_v3 main_v7
  let main_c_2 : IVec S_ 32 := constantI S_ 32 0#32
  let main_v9 : IVec S2x2000000 32 := broadcastInDim S2x2000000 ![] bcast_S_S2x2000000 main_c_2
  let main_v10 : IVec S2x2000000 1 := cmpi .sge main_arg2 main_v9
  let main_c_3 : IVec S_ 1 := constantI S_ 1 1#1
  let main_v11 : IVec S_ 1 := (fun x v => Host.reduce IntOp.andi x v reducesTo_S2x2000000_S_d0_1 h_S_) main_v10 main_c_3
  let main_v12 : IVec S_ 1 := andi main_v8 main_v11
  let main_c_4 : IVec S_ 32 := constantI S_ 32 10000#32
  let main_v13 : IVec S2x2000000 32 := broadcastInDim S2x2000000 ![] bcast_S_S2x2000000 main_c_4
  let main_v14 : IVec S2x2000000 1 := cmpi .slt main_arg2 main_v13
  let main_c_5 : IVec S_ 1 := constantI S_ 1 1#1
  let main_v15 : IVec S_ 1 := (fun x v => Host.reduce IntOp.andi x v reducesTo_S2x2000000_S_d0_1 h_S_) main_v14 main_c_5
  fn_part1 (F := F) main_v12 main_v15
-- ==== Kernel.lean ====
abbrev S80000 : Shape := ⟨1, ![80000]⟩
abbrev S2000000 : Shape := ⟨1, ![2000000]⟩
abbrev S2x2000000 : Shape := ⟨2, ![2, 2000000]⟩
abbrev S8x10000 : Shape := ⟨2, ![8, 10000]⟩
abbrev S_ : Shape := ⟨0, ![]⟩
abbrev S1x2000000 : Shape := ⟨2, ![1, 2000000]⟩
abbrev S2944 : Shape := ⟨1, ![2944]⟩
abbrev S2002944 : Shape := ⟨1, ![2002944]⟩
abbrev S2002944x1 : Shape := ⟨2, ![2002944, 1]⟩
abbrev S489x4096 : Shape := ⟨2, ![489, 4096]⟩
abbrev S489x1 : Shape := ⟨2, ![489, 1]⟩
abbrev S489 : Shape := ⟨1, ![489]⟩
abbrev S10000x8 : Shape := ⟨2, ![10000, 8]⟩
abbrev S4096 : Shape := ⟨1, ![4096]⟩
abbrev S1000x4096 : Shape := ⟨2, ![1000, 4096]⟩
abbrev S4096x8 : Shape := ⟨2, ![4096, 8]⟩
abbrev S1000x1 : Shape := ⟨2, ![1000, 1]⟩
abbrev S1x4096 : Shape := ⟨2, ![1, 4096]⟩
abbrev S1000x8 : Shape := ⟨2, ![1000, 8]⟩
abbrev S4096x1 : Shape := ⟨2, ![4096, 1]⟩
abbrev S1 : Shape := ⟨1, ![1]⟩
abbrev S1x80000 : Shape := ⟨2, ![1, 80000]⟩
abbrev S3x80000 : Shape := ⟨2, ![3, 80000]⟩

abbrev nBuf : Space → Nat
  | .hbm => 185
  | .vmem => 20
  | .smem => 4
  | _ => 0

abbrev hbmTy0_0 (i : Nat) : BufTy := match i % 128 with
  | 0 => ⟨S80000, .f32⟩
  | 1 => ⟨S2000000, .f32⟩
  | 2 => ⟨S2x2000000, .i32⟩
  | 3 => ⟨S8x10000, .f32⟩
  | 4 => ⟨S8x10000, .f32⟩
  | 5 => ⟨S8x10000, .f32⟩
  | 6 => ⟨S_, .f32⟩
  | 7 => ⟨S8x10000, .f32⟩
  | 8 => ⟨S8x10000, .f32⟩
  | 9 => ⟨S1x2000000, .i32⟩
  | 10 => ⟨S2000000, .i32⟩
  | 11 => ⟨S1x2000000, .i32⟩
  | 12 => ⟨S2000000, .i32⟩
  | 13 => ⟨S_, .i32⟩
  | 14 => ⟨S2944, .i32⟩
  | 15 => ⟨S_, .i32⟩
  | 16 => ⟨S2944, .i32⟩
  | 17 => ⟨S_, .f32⟩
  | 18 => ⟨S2944, .f32⟩
  | 19 => ⟨S2002944, .i32⟩
  | 20 => ⟨S2002944, .i32⟩
  | 21 => ⟨S2002944, .f32⟩
  | 22 => ⟨S2002944, .i32⟩
  | 23 => ⟨S2002944, .i32⟩
  | 24 => ⟨S2002944, .i32⟩
  | 25 => ⟨S_, .i32⟩
  | 26 => ⟨S2002944, .i32⟩
  | 27 => ⟨S2002944, .i1⟩
  | 28 => ⟨S_, .i32⟩
  | 29 => ⟨S2002944, .i32⟩
  | 30 => ⟨S2002944, .i32⟩
  | 31 => ⟨S2002944, .i32⟩
  | 32 => ⟨S2002944x1, .i32⟩
  | 33 => ⟨S2002944, .i32⟩
  | 34 => ⟨S_, .i32⟩
  | 35 => ⟨S2002944, .i32⟩
  | 36 => ⟨S2002944, .i1⟩
  | 37 => ⟨S_, .i32⟩
  | 38 => ⟨S2002944, .i32⟩
  | 39 => ⟨S2002944, .i32⟩
  | 40 => ⟨S2002944, .i32⟩
  | 41 => ⟨S2002944x1, .i32⟩
  | 42 => ⟨S2002944, .i32⟩
  | 43 => ⟨S_, .i32⟩
  | 44 => ⟨S2002944, .i32⟩
  | 45 => ⟨S2002944, .i1⟩
  | 46 => ⟨S_, .i32⟩
  | 47 => ⟨S2002944, .i32⟩
  | 48 => ⟨S2002944, .i32⟩
  | 49 => ⟨S2002944, .i32⟩
  | 50 => ⟨S2002944x1, .i32⟩
  | 51 => ⟨S2002944, .f32⟩
  | 52 => ⟨S489x4096, .i32⟩
  | 53 => ⟨S489x1, .i32⟩
  | 54 => ⟨S489, .i32⟩
  | 55 => ⟨S_, .i32⟩
  | 56 => ⟨S_, .i32⟩
  | 57 => ⟨S489, .i32⟩
  | 58 => ⟨S489, .i32⟩
  | 59 => ⟨S489, .i32⟩
  | 60 => ⟨S_, .i32⟩
  | 61 => ⟨S489, .i32⟩
  | 62 => ⟨S489, .i1⟩
  | 63 => ⟨S489, .i32⟩
  | 64 => ⟨S489, .i32⟩
  | 65 => ⟨S_, .i32⟩
  | 66 => ⟨S489, .i32⟩
  | 67 => ⟨S489, .i1⟩
  | 68 => ⟨S489, .i1⟩
  | 69 => ⟨S_, .i32⟩
  | 70 => ⟨S489, .i32⟩
  | 71 => ⟨S489, .i32⟩
  | 72 => ⟨S489x1, .i32⟩
  | 73 => ⟨S489, .i32⟩
  | 74 => ⟨S_, .i32⟩
  | 75 => ⟨S_, .i32⟩
  | 76 => ⟨S489, .i32⟩
  | 77 => ⟨S489, .i32⟩
  | 78 => ⟨S489, .i32⟩
  | 79 => ⟨S_, .i32⟩
  | 80 => ⟨S489, .i32⟩
  | 81 => ⟨S489, .i1⟩
  | 82 => ⟨S489, .i32⟩
  | 83 => ⟨S489, .i32⟩
  | 84 => ⟨S_, .i32⟩
  | 85 => ⟨S489, .i32⟩
  | 86 => ⟨S489, .i1⟩
  | 87 => ⟨S489, .i1⟩
  | 88 => ⟨S_, .i32⟩
  | 89 => ⟨S489, .i32⟩
  | 90 => ⟨S489, .i32⟩
  | 91 => ⟨S_, .i32⟩
  | 92 => ⟨S2944, .i32⟩
  | 93 => ⟨S_, .i32⟩
  | 94 => ⟨S2944, .i32⟩
  | 95 => ⟨S_, .f32⟩
  | 96 => ⟨S2944, .f32⟩
  | 97 => ⟨S2002944, .i32⟩
  | 98 => ⟨S2002944, .i32⟩
  | 99 => ⟨S2002944, .f32⟩
  | 100 => ⟨S2002944, .i32⟩
  | 101 => ⟨S2002944, .i32⟩
  | 102 => ⟨S2002944, .i32⟩
  | 103 => ⟨S_, .i32⟩
  | 104 => ⟨S2002944, .i32⟩
  | 105 => ⟨S2002944, .i1⟩
  | 106 => ⟨S_, .i32⟩
  | 107 => ⟨S2002944, .i32⟩
  | 108 => ⟨S2002944, .i32⟩
  | 109 => ⟨S2002944, .i32⟩
  | 110 => ⟨S2002944x1, .i32⟩
  | 111 => ⟨S2002944, .i32⟩
  | 112 => ⟨S_, .i32⟩
  | 113 => ⟨S2002944, .i32⟩
  | 114 => ⟨S2002944, .i1⟩
  | 115 => ⟨S_, .i32⟩
  | 116 => ⟨S2002944, .i32⟩
  | 117 => ⟨S2002944, .i32⟩
  | 118 => ⟨S2002944, .i32⟩
  | 119 => ⟨S2002944x1, .i32⟩
  | 120 => ⟨S2002944, .i32⟩
  | 121 => ⟨S_, .i32⟩
  | 122 => ⟨S2002944, .i32⟩
  | 123 => ⟨S2002944, .i1⟩
  | 124 => ⟨S_, .i32⟩
  | 125 => ⟨S2002944, .i32⟩
  | 126 => ⟨S2002944, .i32⟩
  | 127 => ⟨S2002944, .i32⟩
  | _ => ⟨S80000, .f32⟩

abbrev hbmTy0_1 (i : Nat) : BufTy := match i % 128 with
  | 0 => ⟨S2002944x1, .i32⟩
  | 1 => ⟨S2002944, .f32⟩
  | 2 => ⟨S489x4096, .i32⟩
  | 3 => ⟨S489x1, .i32⟩
  | 4 => ⟨S489, .i32⟩
  | 5 => ⟨S_, .i32⟩
  | 6 => ⟨S_, .i32⟩
  | 7 => ⟨S489, .i32⟩
  | 8 => ⟨S489, .i32⟩
  | 9 => ⟨S489, .i32⟩
  | 10 => ⟨S_, .i32⟩
  | 11 => ⟨S489, .i32⟩
  | 12 => ⟨S489, .i1⟩
  | 13 => ⟨S489, .i32⟩
  | 14 => ⟨S489, .i32⟩
  | 15 => ⟨S_, .i32⟩
  | 16 => ⟨S489, .i32⟩
  | 17 => ⟨S489, .i1⟩
  | 18 => ⟨S489, .i1⟩
  | 19 => ⟨S_, .i32⟩
  | 20 => ⟨S489, .i32⟩
  | 21 => ⟨S489, .i32⟩
  | 22 => ⟨S489x1, .i32⟩
  | 23 => ⟨S489, .i32⟩
  | 24 => ⟨S_, .i32⟩
  | 25 => ⟨S_, .i32⟩
  | 26 => ⟨S489, .i32⟩
  | 27 => ⟨S489, .i32⟩
  | 28 => ⟨S489, .i32⟩
  | 29 => ⟨S_, .i32⟩
  | 30 => ⟨S489, .i32⟩
  | 31 => ⟨S489, .i1⟩
  | 32 => ⟨S489, .i32⟩
  | 33 => ⟨S489, .i32⟩
  | 34 => ⟨S_, .i32⟩
  | 35 => ⟨S489, .i32⟩
  | 36 => ⟨S489, .i1⟩
  | 37 => ⟨S489, .i1⟩
  | 38 => ⟨S_, .i32⟩
  | 39 => ⟨S489, .i32⟩
  | 40 => ⟨S489, .i32⟩
  | 41 => ⟨S10000x8, .f32⟩
  | 42 => ⟨S10000x8, .f32⟩
  | 43 => ⟨S8x10000, .f32⟩
  | 44 => ⟨S8x10000, .f32⟩
  | 45 => ⟨S10000x8, .f32⟩
  | 46 => ⟨S10000x8, .f32⟩
  | 47 => ⟨S8x10000, .f32⟩
  | 48 => ⟨S8x10000, .f32⟩
  | 49 => ⟨S8x10000, .f32⟩
  | 50 => ⟨S80000, .f32⟩
  | 51 => ⟨S80000, .f32⟩
  | 52 => ⟨S80000, .f32⟩
  | 53 => ⟨S1x80000, .f32⟩
  | 54 => ⟨S1x80000, .f32⟩
  | 55 => ⟨S1x80000, .f32⟩
  | 56 => ⟨S3x80000, .f32⟩
  | _ => ⟨S80000, .f32⟩

abbrev hbmTy (i : Nat) : BufTy := match i / 128 with
  | 0 => hbmTy0_0 i
  | 1 => hbmTy0_1 i
  | _ => ⟨S80000, .f32⟩

abbrev bufTy : (tb : Table) → Fin (tcTables nBuf tb) → BufTy
  | .hbm, ⟨i, _⟩ => hbmTy i
  | .local _ .vmem, ⟨0, _⟩ => ⟨S10000x8, .f32⟩
  | .local _ .vmem, ⟨1, _⟩ => ⟨S4096, .i32⟩
  | .local _ .vmem, ⟨2, _⟩ => ⟨S4096, .i32⟩
  | .local _ .vmem, ⟨3, _⟩ => ⟨S4096, .i32⟩
  | .local _ .vmem, ⟨4, _⟩ => ⟨S4096, .i32⟩
  | .local _ .vmem, ⟨5, _⟩ => ⟨S4096, .f32⟩
  | .local _ .vmem, ⟨6, _⟩ => ⟨S4096, .f32⟩
  | .local _ .vmem, ⟨7, _⟩ => ⟨S10000x8, .f32⟩
  | .local _ .vmem, ⟨8, _⟩ => ⟨S10000x8, .f32⟩
  | .local _ .vmem, ⟨9, _⟩ => ⟨S1000x4096, .f32⟩
  | .local _ .vmem, ⟨10, _⟩ => ⟨S10000x8, .f32⟩
  | .local _ .vmem, ⟨11, _⟩ => ⟨S4096, .i32⟩
  | .local _ .vmem, ⟨12, _⟩ => ⟨S4096, .i32⟩
  | .local _ .vmem, ⟨13, _⟩ => ⟨S4096, .i32⟩
  | .local _ .vmem, ⟨14, _⟩ => ⟨S4096, .i32⟩
  | .local _ .vmem, ⟨15, _⟩ => ⟨S4096, .f32⟩
  | .local _ .vmem, ⟨16, _⟩ => ⟨S4096, .f32⟩
  | .local _ .vmem, ⟨17, _⟩ => ⟨S10000x8, .f32⟩
  | .local _ .vmem, ⟨18, _⟩ => ⟨S10000x8, .f32⟩
  | .local _ .vmem, ⟨19, _⟩ => ⟨S1000x4096, .f32⟩
  | .local _ .smem, ⟨0, _⟩ => ⟨S489, .i32⟩
  | .local _ .smem, ⟨1, _⟩ => ⟨S489, .i32⟩
  | .local _ .smem, ⟨2, _⟩ => ⟨S489, .i32⟩
  | .local _ .smem, ⟨3, _⟩ => ⟨S489, .i32⟩
  | _, _ => ⟨S80000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1_0 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_c_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_6 : Ref sig .tc := ⟨.hbm, 43, rfl⟩
abbrev main_v30 : Ref sig .tc := ⟨.hbm, 44, rfl⟩
abbrev main_v31 : Ref sig .tc := ⟨.hbm, 45, rfl⟩
abbrev main_c_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_8 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_c : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_0 : Ref sig .tc := ⟨.hbm, 69, rfl⟩
abbrev main_call1_v12 : Ref sig .tc := ⟨.hbm, 70, rfl⟩
abbrev main_call1_v13 : Ref sig .tc := ⟨.hbm, 71, rfl⟩
abbrev main_v41 : Ref sig .tc := ⟨.hbm, 72, rfl⟩
abbrev main_v42 : Ref sig .tc := ⟨.hbm, 73, rfl⟩
abbrev main_c_9 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_v6 : Ref sig .tc := ⟨.hbm, 81, rfl⟩
abbrev main_call2_v7 : Ref sig .tc := ⟨.hbm, 82, rfl⟩
abbrev main_call2_v8 : Ref sig .tc := ⟨.hbm, 83, rfl⟩
abbrev main_call2_c : Ref sig .tc := ⟨.hbm, 84, rfl⟩
abbrev main_call2_v9 : Ref sig .tc := ⟨.hbm, 85, rfl⟩
abbrev main_call2_v10 : Ref sig .tc := ⟨.hbm, 86, rfl⟩
abbrev main_call2_v11 : Ref sig .tc := ⟨.hbm, 87, rfl⟩
abbrev main_call2_c_0 : Ref sig .tc := ⟨.hbm, 88, rfl⟩
abbrev main_call2_v12 : Ref sig .tc := ⟨.hbm, 89, rfl⟩
abbrev main_call2_v13 : Ref sig .tc := ⟨.hbm, 90, rfl⟩
abbrev main_c_10 : Ref sig .tc := ⟨.hbm, 91, rfl⟩
abbrev main_v44 : Ref sig .tc := ⟨.hbm, 92, rfl⟩
abbrev main_c_11 : Ref sig .tc := ⟨.hbm, 93, rfl⟩
abbrev main_v45 : Ref sig .tc := ⟨.hbm, 94, rfl⟩
abbrev main_cst_12 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_call3_v0 : Ref sig .tc := ⟨.hbm, 100, rfl⟩
abbrev main_call3_v1_0 : Ref sig .tc := ⟨.hbm, 101, rfl⟩
abbrev main_v50 : Ref sig .tc := ⟨.hbm, 102, rfl⟩
abbrev main_c_13 : Ref sig .tc := ⟨.hbm, 103, rfl⟩
abbrev main_v51 : Ref sig .tc := ⟨.hbm, 104, rfl⟩
abbrev main_v52 : Ref sig .tc := ⟨.hbm, 105, rfl⟩
abbrev main_c_14 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_c_15 : Ref sig .tc := ⟨.hbm, 112, rfl⟩
abbrev main_v58 : Ref sig .tc := ⟨.hbm, 113, rfl⟩
abbrev main_v59 : Ref sig .tc := ⟨.hbm, 114, rfl⟩
abbrev main_c_16 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_c_17 : Ref sig .tc := ⟨.hbm, 121, rfl⟩
abbrev main_v65 : Ref sig .tc := ⟨.hbm, 122, rfl⟩
abbrev main_v66 : Ref sig .tc := ⟨.hbm, 123, rfl⟩
abbrev main_c_18 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_c_19 : Ref sig .tc := ⟨.hbm, 133, rfl⟩
abbrev main_call4_v0 : Ref sig .tc := ⟨.hbm, 134, rfl⟩
abbrev main_call4_v1 : Ref sig .tc := ⟨.hbm, 135, rfl⟩
abbrev main_call4_v2 : Ref sig .tc := ⟨.hbm, 136, rfl⟩
abbrev main_call4_v3 : Ref sig .tc := ⟨.hbm, 137, rfl⟩
abbrev main_call4_v4 : Ref sig .tc := ⟨.hbm, 138, rfl⟩
abbrev main_call4_v5 : Ref sig .tc := ⟨.hbm, 139, rfl⟩
abbrev main_call4_v6 : Ref sig .tc := ⟨.hbm, 140, rfl⟩
abbrev main_call4_v7 : Ref sig .tc := ⟨.hbm, 141, rfl⟩
abbrev main_call4_v8 : Ref sig .tc := ⟨.hbm, 142, rfl⟩
abbrev main_call4_c : Ref sig .tc := ⟨.hbm, 143, rfl⟩
abbrev main_call4_v9 : Ref sig .tc := ⟨.hbm, 144, rfl⟩
abbrev main_call4_v10 : Ref sig .tc := ⟨.hbm, 145, rfl⟩
abbrev main_call4_v11 : Ref sig .tc := ⟨.hbm, 146, rfl⟩
abbrev main_call4_c_0 : Ref sig .tc := ⟨.hbm, 147, rfl⟩
abbrev main_call4_v12 : Ref sig .tc := ⟨.hbm, 148, rfl⟩
abbrev main_call4_v13 : Ref sig .tc := ⟨.hbm, 149, rfl⟩
abbrev main_v76 : Ref sig .tc := ⟨.hbm, 150, rfl⟩
abbrev main_v77 : Ref sig .tc := ⟨.hbm, 151, rfl⟩
abbrev main_c_20 : Ref sig .tc := ⟨.hbm, 152, rfl⟩
abbrev main_call5_v0 : Ref sig .tc := ⟨.hbm, 153, rfl⟩
abbrev main_call5_v1 : Ref sig .tc := ⟨.hbm, 154, rfl⟩
abbrev main_call5_v2 : Ref sig .tc := ⟨.hbm, 155, rfl⟩
abbrev main_call5_v3 : Ref sig .tc := ⟨.hbm, 156, rfl⟩
abbrev main_call5_v4 : Ref sig .tc := ⟨.hbm, 157, rfl⟩
abbrev main_call5_v5 : Ref sig .tc := ⟨.hbm, 158, rfl⟩
abbrev main_call5_v6 : Ref sig .tc := ⟨.hbm, 159, rfl⟩
abbrev main_call5_v7 : Ref sig .tc := ⟨.hbm, 160, rfl⟩
abbrev main_call5_v8 : Ref sig .tc := ⟨.hbm, 161, rfl⟩
abbrev main_call5_c : Ref sig .tc := ⟨.hbm, 162, rfl⟩
abbrev main_call5_v9 : Ref sig .tc := ⟨.hbm, 163, rfl⟩
abbrev main_call5_v10 : Ref sig .tc := ⟨.hbm, 164, rfl⟩
abbrev main_call5_v11 : Ref sig .tc := ⟨.hbm, 165, rfl⟩
abbrev main_call5_c_0 : Ref sig .tc := ⟨.hbm, 166, rfl⟩
abbrev main_call5_v12 : Ref sig .tc := ⟨.hbm, 167, rfl⟩
abbrev main_call5_v13 : Ref sig .tc := ⟨.hbm, 168, rfl⟩
abbrev main_v79 : Ref sig .tc := ⟨.hbm, 169, rfl⟩
abbrev main_v80 : Ref sig .tc := ⟨.hbm, 170, rfl⟩
abbrev main_v81 : Ref sig .tc := ⟨.hbm, 171, rfl⟩
abbrev main_v82 : Ref sig .tc := ⟨.hbm, 172, rfl⟩
abbrev main_v83 : Ref sig .tc := ⟨.hbm, 173, rfl⟩
abbrev main_v84 : Ref sig .tc := ⟨.hbm, 174, rfl⟩
abbrev main_v85 : Ref sig .tc := ⟨.hbm, 175, rfl⟩
abbrev main_v86 : Ref sig .tc := ⟨.hbm, 176, rfl⟩
abbrev main_v87 : Ref sig .tc := ⟨.hbm, 177, rfl⟩
abbrev main_v88 : Ref sig .tc := ⟨.hbm, 178, rfl⟩
abbrev main_v89 : Ref sig .tc := ⟨.hbm, 179, rfl⟩
abbrev main_v90 : Ref sig .tc := ⟨.hbm, 180, rfl⟩
abbrev main_v91 : Ref sig .tc := ⟨.hbm, 181, rfl⟩
abbrev main_v92 : Ref sig .tc := ⟨.hbm, 182, rfl⟩
abbrev main_v93 : Ref sig .tc := ⟨.hbm, 183, rfl⟩
abbrev main_v94 : Ref sig .tc := ⟨.hbm, 184, rfl⟩
abbrev main_v40 : Ref sig .tc := ⟨.smem, 0, rfl⟩
abbrev main_v43 : Ref sig .tc := ⟨.smem, 1, rfl⟩
abbrev main_v75 : Ref sig .tc := ⟨.smem, 2, rfl⟩
abbrev main_v78 : Ref sig .tc := ⟨.smem, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_scratch0 : Ref sig .tc := ⟨.vmem, 18, rfl⟩
abbrev cc1_scratch1 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15

abbrev nD : Nat := 1
abbrev τ : Topo := Topo.v7x

variable {F : FTy → Type} [FloatOps F]

abbrev grid0 : Pipeline.Grid := ⟨1, ![489], ![false]⟩

abbrev pre0 : Pipeline.Prefetch sig := ⟨2, ![main_v40.idx, main_v43.idx], fun | 0 => main_v40.names | 1 => main_v43.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v183 : Index := Scalar.indexCast arg0
  ![v183.toNat]
def k0_cond12 (i : grid0.Coords) : BitVec 1 :=
  let arg0 : BitVec 32 := BitVec.ofNat 32 (i 0).val
  let c488_i32 : BitVec 32 := 488#32
  let v237 : BitVec 1 := Scalar.cmpi .eq arg0 c488_i32
  let v238 : BitVec 32 := Scalar.extui v237
  let c0_i32_86 : BitVec 32 := 0#32
  let v239 : BitVec 1 := Scalar.cmpi .ne v238 c0_i32_86
  v239

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S10000x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![489], ![false]⟩

abbrev pre1 : Pipeline.Prefetch sig := ⟨2, ![main_v75.idx, main_v78.idx], fun | 0 => main_v75.names | 1 => main_v78.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let v183 : Index := Scalar.indexCast arg0
  ![v183.toNat]
def k1_cond12 (i : grid1.Coords) : BitVec 1 :=
  let arg0 : BitVec 32 := BitVec.ofNat 32 (i 0).val
  let c488_i32 : BitVec 32 := 488#32
  let v237 : BitVec 1 := Scalar.cmpi .eq arg0 c488_i32
  let v238 : BitVec 32 := Scalar.extui v237
  let c0_i32_86 : BitVec 32 := 0#32
  let v239 : BitVec 1 := Scalar.cmpi .ne v238 c0_i32_86
  v239

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 1 → Nat :=
  let arg0 : BitVec 32 := BitVec.ofNat 32 (i 0).val
  let c0_i32 : BitVec 32 := 0#32
  ![arg0.toNat]

def cc1_transform_2 (i : grid1.Coords) : Fin 1 → Nat :=
  let arg0 : BitVec 32 := BitVec.ofNat 32 (i 0).val
  let c0_i32 : BitVec 32 := 0#32
  ![arg0.toNat]

def cc1_transform_3 (i : grid1.Coords) : Fin 1 → Nat :=
  let arg0 : BitVec 32 := BitVec.ofNat 32 (i 0).val
  let c0_i32 : BitVec 32 := 0#32
  ![arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S10000x8 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S4096 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S10000x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  shapeCasts_S80000_S8x10000 : S80000.ShapeCasts S8x10000
  bcast_S_S8x10000 : S_.BroadcastsInDim S8x10000 (![] : Fin 0 → Fin S8x10000.rank)
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2944 : S_.BroadcastsInDim S2944 (![] : Fin 0 → Fin S2944.rank)
  concatenates_S2000000_S2944_S2002944_d0 : Shape.Concatenates [S2000000, S2944] S2002944 0
  bcast_S_S2002944 : S_.BroadcastsInDim S2002944 (![] : Fin 0 → Fin S2002944.rank)
  bcast_S2002944_S2002944x1_0 : S2002944.BroadcastsInDim S2002944x1 (![0] : Fin 1 → Fin S2002944x1.rank)
  shapeCasts_S2002944_S489x4096 : S2002944.ShapeCasts S489x4096
  slices_S489x4096_S489x1_0_0 : S489x4096.Slices ![0, 0] S489x1
  shapeCasts_S489x1_S489 : S489x1.ShapeCasts S489
  bcast_S_S489 : S_.BroadcastsInDim S489 (![] : Fin 0 → Fin S489.rank)
  slices_S489x4096_S489x1_0_4095 : S489x4096.Slices ![0, 4095] S489x1
  transposes_S8x10000_S10000x8_1_0 : S8x10000.Transposes [1, 0] S10000x8
  inb_S10000x8_S10000x8_0_0 : ∀ a, (![0, 0] : Fin 2 → Nat) a + S10000x8.size a ≤ S10000x8.size a
  h_S10000x8 : 0 < S10000x8.numel
  shapeCasts_S10000x8_S10000x8 : S10000x8.ShapeCasts S10000x8
  inb_S4096_S4096_0 : ∀ a, (![0] : Fin 1 → Nat) a + S4096.size a ≤ S4096.size a
  h_S4096 : 0 < S4096.numel
  shapeCasts_S4096_S4096 : S4096.ShapeCasts S4096
  iota_S1000x1_d0_w32 : S1000x1.Iotas .tc 32 [0]
  shapeCasts_S4096_S1x4096 : S4096.ShapeCasts S1x4096
  broadcasts_S1000x1_S1000x4096 : S1000x1.Broadcasts S1000x4096
  broadcasts_S1x4096_S1000x4096 : S1x4096.Broadcasts S1000x4096
  natLt_1_32 : 1 < 32
  inb_S1000x4096_S1000x4096_0_0 : ∀ a, (![0, 0] : Fin 2 → Nat) a + S1000x4096.size a ≤ S1000x4096.size a
  h_S1000x4096 : 0 < S1000x4096.numel
  shapeCasts_S1000x4096_S1000x4096 : S1000x4096.ShapeCasts S1000x4096
  inb_S10000x8_S1000x8_0_0 : ∀ a, (![0, 0] : Fin 2 → Nat) a + S1000x8.size a ≤ S10000x8.size a
  h_S1000x8 : 0 < S1000x8.numel
  shapeCasts_S1000x8_S1000x8 : S1000x8.ShapeCasts S1000x8
  inb_S10000x8_S1000x8_1000_0 : ∀ a, (![1000, 0] : Fin 2 → Nat) a + S1000x8.size a ≤ S10000x8.size a
  inb_S10000x8_S1000x8_2000_0 : ∀ a, (![2000, 0] : Fin 2 → Nat) a + S1000x8.size a ≤ S10000x8.size a
  inb_S10000x8_S1000x8_3000_0 : ∀ a, (![3000, 0] : Fin 2 → Nat) a + S1000x8.size a ≤ S10000x8.size a
  inb_S10000x8_S1000x8_4000_0 : ∀ a, (![4000, 0] : Fin 2 → Nat) a + S1000x8.size a ≤ S10000x8.size a
  inb_S10000x8_S1000x8_5000_0 : ∀ a, (![5000, 0] : Fin 2 → Nat) a + S1000x8.size a ≤ S10000x8.size a
  inb_S10000x8_S1000x8_6000_0 : ∀ a, (![6000, 0] : Fin 2 → Nat) a + S1000x8.size a ≤ S10000x8.size a
  inb_S10000x8_S1000x8_7000_0 : ∀ a, (![7000, 0] : Fin 2 → Nat) a + S1000x8.size a ≤ S10000x8.size a
  inb_S10000x8_S1000x8_8000_0 : ∀ a, (![8000, 0] : Fin 2 → Nat) a + S1000x8.size a ≤ S10000x8.size a
  inb_S10000x8_S1000x8_9000_0 : ∀ a, (![9000, 0] : Fin 2 → Nat) a + S1000x8.size a ≤ S10000x8.size a
  shapeCasts_S4096_S4096x1 : S4096.ShapeCasts S4096x1
  broadcasts_S4096x1_S4096x8 : S4096x1.Broadcasts S4096x8
  numel1_S1 : S1.numel = 1
  transposes_S10000x8_S8x10000_1_0 : S10000x8.Transposes [1, 0] S8x10000
  shapeCasts_S8x10000_S80000 : S8x10000.ShapeCasts S80000
  bcast_S80000_S1x80000_1 : S80000.BroadcastsInDim S1x80000 (![1] : Fin 1 → Fin S1x80000.rank)
  concatenates_S1x80000_S1x80000_S1x80000_S3x80000_d0 : Shape.Concatenates [S1x80000, S1x80000, S1x80000] S3x80000 0
  gather_S2002944_S2002944x1_S2002944_n_0_n_n_0_1_1_wf : GatherDims.WF S2002944 S2002944x1 S2002944 [] [0] [] [0] [] 1 ![1]
  dot_S1000x4096_S1000x8_S4096x8_0_0_1_1_n_n_wf : DotDims.WF S1000x4096 S1000x8 S4096x8 [0] [0] [1] [1] [] []
  dot_S1000x4096_S4096x8_S1000x8_1_0_0_1_n_n_wf : DotDims.WF S1000x4096 S4096x8 S1000x8 [1] [0] [0] [1] [] []
  hrank0 : 0 < grid0.rank
  k0_off1_inb : ∀ i : grid0.Coords, ∀ a, (k0_off1 i) a + S1.size a ≤ S489.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x8.size a ≤ S10000x8.size a
  hwx0_0 : ∀ i : grid0.Coords, EltTy.bits .f32 = 32 ∨ (Rect.block (s := S10000x8) S10000x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S2002944.size a
  hwx0_1 : ∀ i : grid0.Coords, EltTy.bits .i32 = 32 ∨ (Rect.block (s := S2002944) S4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S2002944.size a
  hwx0_2 : ∀ i : grid0.Coords, EltTy.bits .i32 = 32 ∨ (Rect.block (s := S2002944) S4096.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096.size a ≤ S2002944.size a
  hwx0_3 : ∀ i : grid0.Coords, EltTy.bits .f32 = 32 ∨ (Rect.block (s := S2002944) S4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10000x8.size a ≤ S10000x8.size a
  hwx0_4 : ∀ i : grid0.Coords, EltTy.bits .f32 = 32 ∨ (Rect.block (s := S10000x8) S10000x8.size (cc0_transform_4 i) (hinb0_4 i)).WholeWords (EltTy.packing .f32)
  hrank1 : 0 < grid1.rank
  k1_off1_inb : ∀ i : grid1.Coords, ∀ a, (k1_off1 i) a + S1.size a ≤ S489.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S10000x8.size a ≤ S10000x8.size a
  hwx1_0 : ∀ i : grid1.Coords, EltTy.bits .f32 = 32 ∨ (Rect.block (s := S10000x8) S10000x8.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096.size a ≤ S2002944.size a
  hwx1_1 : ∀ i : grid1.Coords, EltTy.bits .i32 = 32 ∨ (Rect.block (s := S2002944) S4096.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096.size a ≤ S2002944.size a
  hwx1_2 : ∀ i : grid1.Coords, EltTy.bits .i32 = 32 ∨ (Rect.block (s := S2002944) S4096.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096.size a ≤ S2002944.size a
  hwx1_3 : ∀ i : grid1.Coords, EltTy.bits .f32 = 32 ∨ (Rect.block (s := S2002944) S4096.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S10000x8.size a ≤ S10000x8.size a
  hwx1_4 : ∀ i : grid1.Coords, EltTy.bits .f32 = 32 ∨ (Rect.block (s := S10000x8) S10000x8.size (cc1_transform_4 i) (hinb1_4 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S2002944_S2002944x1_S2002944_n_0_n_n_0_1_1 : GatherDims S2002944 S2002944x1 S2002944 where
  offsetDims := []
  collapsedSliceDims := [0]
  operandBatchingDims := []
  startIndicesBatchingDims := []
  startIndexMap := [0]
  indexVectorDim := 1
  sliceSizes := ![1]
  wf := gather_S2002944_S2002944x1_S2002944_n_0_n_n_0_1_1_wf
def dot_S1000x4096_S1000x8_S4096x8_0_0_1_1_n_n : DotDims S1000x4096 S1000x8 S4096x8 where
  lhsContracting := [0]
  rhsContracting := [0]
  lhsNonContracting := [1]
  rhsNonContracting := [1]
  lhsBatch := []
  rhsBatch := []
  wf := dot_S1000x4096_S1000x8_S4096x8_0_0_1_1_n_n_wf
def dot_S1000x4096_S4096x8_S1000x8_1_0_0_1_n_n : DotDims S1000x4096 S4096x8 S1000x8 where
  lhsContracting := [1]
  rhsContracting := [0]
  lhsNonContracting := [0]
  rhsNonContracting := [1]
  lhsBatch := []
  rhsBatch := []
  wf := dot_S1000x4096_S4096x8_S1000x8_1_0_0_1_n_n_wf

abbrev spec0_0 : Pipeline.WinSpec sig grid0.rank :=
  Pipeline.WinSpec.ofSpec (Memref.whole main_v79) S10000x8.size reads0_0 false true 1 stage0_0 sem0_0 nbuf0_0 hstage0_0

abbrev spec0_1 : Pipeline.WinSpec sig grid0.rank :=
  Pipeline.WinSpec.ofSpec (Memref.whole main_v22) S4096.size reads0_1 false false 2 stage0_1 sem0_1 nbuf0_1 hstage0_1

abbrev spec0_2 : Pipeline.WinSpec sig grid0.rank :=
  Pipeline.WinSpec.ofSpec (Memref.whole main_v29) S4096.size reads0_2 false false 2 stage0_2 sem0_2 nbuf0_2 hstage0_2

abbrev spec0_3 : Pipeline.WinSpec sig grid0.rank :=
  Pipeline.WinSpec.ofSpec (Memref.whole main_v36) S4096.size reads0_3 false false 2 stage0_3 sem0_3 nbuf0_3 hstage0_3

abbrev spec0_4 : Pipeline.WinSpec sig grid0.rank :=
  Pipeline.WinSpec.ofSpec (Memref.whole main_v80) S10000x8.size reads0_4 true true 1 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_0 | 1 => cc0_transform_1 | 2 => cc0_transform_2 | 3 => cc0_transform_3 | 4 => cc0_transform_4 | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | ⟨_ + 5, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | ⟨_ + 5, h⟩ => absurd h (Nat.not_lt.2 (Nat.le_add_left _ _))
abbrev idle0 : Fin 5 → grid0.Coords → Bool := fun | 0 => fun _ => false | 1 => fun _ => false | 2 => fun _ => false | 3 => fun _ => false | 4 => fun i => !(k0_cond12 i == 1#1) | ⟨_ + 5, h⟩ => absurd h (Nat.not_lt.2 (Nat.le_add_left _ _))

abbrev spec1_0 : Pipeline.WinSpec sig grid1.rank :=
  Pipeline.WinSpec.ofSpec (Memref.whole main_v83) S10000x8.size reads1_0 false true 1 stage1_0 sem1_0 nbuf1_0 hstage1_0

abbrev spec1_1 : Pipeline.WinSpec sig grid1.rank :=
  Pipeline.WinSpec.ofSpec (Memref.whole main_v57) S4096.size reads1_1 false false 2 stage1_1 sem1_1 nbuf1_1 hstage1_1

abbrev spec1_2 : Pipeline.WinSpec sig grid1.rank :=
  Pipeline.WinSpec.ofSpec (Memref.whole main_v64) S4096.size reads1_2 false false 2 stage1_2 sem1_2 nbuf1_2 hstage1_2

abbrev spec1_3 : Pipeline.WinSpec sig grid1.rank :=
  Pipeline.WinSpec.ofSpec (Memref.whole main_v71) S4096.size reads1_3 false false 2 stage1_3 sem1_3 nbuf1_3 hstage1_3

abbrev spec1_4 : Pipeline.WinSpec sig grid1.rank :=
  Pipeline.WinSpec.ofSpec (Memref.whole main_v84) S10000x8.size reads1_4 true true 1 stage1_4 sem1_4 nbuf1_4 hstage1_4

abbrev spec1 : Fin 5 → Pipeline.WinSpec sig grid1.rank := fun | 0 => spec1_0 | 1 => spec1_1 | 2 => spec1_2 | 3 => spec1_3 | 4 => spec1_4 | ⟨_ + 5, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | 4 => nbuf1_4 | ⟨_ + 5, h⟩ => absurd h (Nat.not_lt.2 (Nat.le_add_left _ _))
abbrev ix1 (pf : pre1.Contents (Elt F)) : (w : Fin 5) → grid1.Coords → Fin (spec1 w).shape.rank → Nat := fun | 0 => cc1_transform_0 | 1 => cc1_transform_1 | 2 => cc1_transform_2 | 3 => cc1_transform_3 | 4 => cc1_transform_4 | ⟨_ + 5, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | 2 => hreads1_2 | 3 => hreads1_3 | 4 => hreads1_4 | ⟨_ + 5, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | 1 => hinb1_1 | 2 => hinb1_2 | 3 => hinb1_3 | 4 => hinb1_4 | ⟨_ + 5, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | 1 => hwx1_1 | 2 => hwx1_2 | 3 => hwx1_3 | 4 => hwx1_4 | ⟨_ + 5, h⟩ => absurd h (Nat.not_lt.2 (Nat.le_add_left _ _))
abbrev idle1 : Fin 5 → grid1.Coords → Bool := fun | 0 => fun _ => false | 1 => fun _ => false | 2 => fun _ => false | 3 => fun _ => false | 4 => fun i => !(k1_cond12 i == 1#1) | ⟨_ + 5, h⟩ => absurd h (Nat.not_lt.2 (Nat.le_add_left _ _))

class Facts : Prop extends Facts₀ where
  harr0 : ∀ w, (spec0 w).arr.IsWhole
  harr1 : ∀ w, (spec1 w).arr.IsWhole

variable [Facts]
-- ==== ReferenceIdeal.lean ====
abbrev S80000 : Shape := ⟨1, ![80000]⟩
abbrev S2000000 : Shape := ⟨1, ![2000000]⟩
abbrev S2x2000000 : Shape := ⟨2, ![2, 2000000]⟩
abbrev S8x10000 : Shape := ⟨2, ![8, 10000]⟩
abbrev S1x2000000 : Shape := ⟨2, ![1, 2000000]⟩
abbrev S_ : Shape := ⟨0, ![]⟩
abbrev S2000000x1 : Shape := ⟨2, ![2000000, 1]⟩
abbrev S8x2000000 : Shape := ⟨2, ![8, 2000000]⟩
abbrev S10000 : Shape := ⟨1, ![10000]⟩
abbrev S1x80000 : Shape := ⟨2, ![1, 80000]⟩
abbrev S3x80000 : Shape := ⟨2, ![3, 80000]⟩

abbrev nBuf : Space → Nat
  | .hbm => 57
  | .vmem => 0
  | .smem => 0
  | _ => 0

abbrev bufTy : (tb : Table) → Fin (tcTables nBuf tb) → BufTy
  | .hbm, ⟨0, _⟩ => ⟨S80000, .f32⟩
  | .hbm, ⟨1, _⟩ => ⟨S2000000, .f32⟩
  | .hbm, ⟨2, _⟩ => ⟨S2x2000000, .i32⟩
  | .hbm, ⟨3, _⟩ => ⟨S8x10000, .f32⟩
  | .hbm, ⟨4, _⟩ => ⟨S1x2000000, .i32⟩
  | .hbm, ⟨5, _⟩ => ⟨S2000000, .i32⟩
  | .hbm, ⟨6, _⟩ => ⟨S1x2000000, .i32⟩
  | .hbm, ⟨7, _⟩ => ⟨S2000000, .i32⟩
  | .hbm, ⟨8, _⟩ => ⟨S8x10000, .f32⟩
  | .hbm, ⟨9, _⟩ => ⟨S8x10000, .f32⟩
  | .hbm, ⟨10, _⟩ => ⟨S_, .f32⟩
  | .hbm, ⟨11, _⟩ => ⟨S8x10000, .f32⟩
  | .hbm, ⟨12, _⟩ => ⟨S8x10000, .f32⟩
  | .hbm, ⟨13, _⟩ => ⟨S1x2000000, .f32⟩
  | .hbm, ⟨14, _⟩ => ⟨S_, .i32⟩
  | .hbm, ⟨15, _⟩ => ⟨S2000000, .i32⟩
  | .hbm, ⟨16, _⟩ => ⟨S2000000, .i1⟩
  | .hbm, ⟨17, _⟩ => ⟨S_, .i32⟩
  | .hbm, ⟨18, _⟩ => ⟨S2000000, .i32⟩
  | .hbm, ⟨19, _⟩ => ⟨S2000000, .i32⟩
  | .hbm, ⟨20, _⟩ => ⟨S2000000, .i32⟩
  | .hbm, ⟨21, _⟩ => ⟨S2000000x1, .i32⟩
  | .hbm, ⟨22, _⟩ => ⟨S8x2000000, .f32⟩
  | .hbm, ⟨23, _⟩ => ⟨S8x2000000, .f32⟩
  | .hbm, ⟨24, _⟩ => ⟨S8x2000000, .f32⟩
  | .hbm, ⟨25, _⟩ => ⟨S_, .f32⟩
  | .hbm, ⟨26, _⟩ => ⟨S10000, .f32⟩
  | .hbm, ⟨27, _⟩ => ⟨S2000000x1, .i32⟩
  | .hbm, ⟨28, _⟩ => ⟨S8x10000, .f32⟩
  | .hbm, ⟨29, _⟩ => ⟨S8x10000, .f32⟩
  | .hbm, ⟨30, _⟩ => ⟨S8x10000, .f32⟩
  | .hbm, ⟨31, _⟩ => ⟨S1x2000000, .f32⟩
  | .hbm, ⟨32, _⟩ => ⟨S_, .i32⟩
  | .hbm, ⟨33, _⟩ => ⟨S2000000, .i32⟩
  | .hbm, ⟨34, _⟩ => ⟨S2000000, .i1⟩
  | .hbm, ⟨35, _⟩ => ⟨S_, .i32⟩
  | .hbm, ⟨36, _⟩ => ⟨S2000000, .i32⟩
  | .hbm, ⟨37, _⟩ => ⟨S2000000, .i32⟩
  | .hbm, ⟨38, _⟩ => ⟨S2000000, .i32⟩
  | .hbm, ⟨39, _⟩ => ⟨S2000000x1, .i32⟩
  | .hbm, ⟨40, _⟩ => ⟨S8x2000000, .f32⟩
  | .hbm, ⟨41, _⟩ => ⟨S8x2000000, .f32⟩
  | .hbm, ⟨42, _⟩ => ⟨S8x2000000, .f32⟩
  | .hbm, ⟨43, _⟩ => ⟨S_, .f32⟩
  | .hbm, ⟨44, _⟩ => ⟨S10000, .f32⟩
  | .hbm, ⟨45, _⟩ => ⟨S2000000x1, .i32⟩
  | .hbm, ⟨46, _⟩ => ⟨S8x10000, .f32⟩
  | .hbm, ⟨47, _⟩ => ⟨S8x10000, .f32⟩
  | .hbm, ⟨48, _⟩ => ⟨S8x10000, .f32⟩
  | .hbm, ⟨49, _⟩ => ⟨S8x10000, .f32⟩
  | .hbm, ⟨50, _⟩ => ⟨S80000, .f32⟩
  | .hbm, ⟨51, _⟩ => ⟨S80000, .f32⟩
  | .hbm, ⟨52, _⟩ => ⟨S80000, .f32⟩
  | .hbm, ⟨53, _⟩ => ⟨S1x80000, .f32⟩
  | .hbm, ⟨54, _⟩ => ⟨S1x80000, .f32⟩
  | .hbm, ⟨55, _⟩ => ⟨S1x80000, .f32⟩
  | .hbm, ⟨56, _⟩ => ⟨S3x80000, .f32⟩
  | _, _ => ⟨S80000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_2 : Ref sig .tc := ⟨.hbm, 32, rfl⟩
abbrev main_v25 : Ref sig .tc := ⟨.hbm, 33, rfl⟩
abbrev main_v26 : Ref sig .tc := ⟨.hbm, 34, rfl⟩
abbrev main_c_3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩

abbrev nD : Nat := 1
abbrev τ : Topo := Topo.v7x

variable {F : FTy → Type} [FloatOps F]

class Facts₀ : Prop where
  shapeCasts_S80000_S8x10000 : S80000.ShapeCasts S8x10000
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S8x10000 : S_.BroadcastsInDim S8x10000 (![] : Fin 0 → Fin S8x10000.rank)
  bcast_S2000000_S1x2000000_1 : S2000000.BroadcastsInDim S1x2000000 (![1] : Fin 1 → Fin S1x2000000.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S1x2000000_S8x2000000_0_1 : S1x2000000.BroadcastsInDim S8x2000000 (![0, 1] : Fin 2 → Fin S8x2000000.rank)
  bcast_S_S10000 : S_.BroadcastsInDim S10000 (![] : Fin 0 → Fin S10000.rank)
  bcast_S10000_S8x10000_1 : S10000.BroadcastsInDim S8x10000 (![1] : Fin 1 → Fin S8x10000.rank)
  shapeCasts_S8x10000_S80000 : S8x10000.ShapeCasts S80000
  bcast_S80000_S1x80000_1 : S80000.BroadcastsInDim S1x80000 (![1] : Fin 1 → Fin S1x80000.rank)
  concatenates_S1x80000_S1x80000_S1x80000_S3x80000_d0 : Shape.Concatenates [S1x80000, S1x80000, S1x80000] S3x80000 0
  gather_S8x10000_S2000000x1_S8x2000000_0_1_n_n_1_1_81_wf : GatherDims.WF S8x10000 S2000000x1 S8x2000000 [0] [1] [] [1] [] 1 ![8, 1]
  scatter_S8x10000_S2000000x1_S8x2000000_0_1_1_1_wf : ScatterDims.WF S8x10000 S2000000x1 S8x2000000 [0] [1] [1] 1

variable [Facts₀]

def gather_S8x10000_S2000000x1_S8x2000000_0_1_n_n_1_1_81 : GatherDims S8x10000 S2000000x1 S8x2000000 where
  offsetDims := [0]
  collapsedSliceDims := [1]
  operandBatchingDims := []
  startIndicesBatchingDims := []
  startIndexMap := [1]
  indexVectorDim := 1
  sliceSizes := ![8, 1]
  wf := gather_S8x10000_S2000000x1_S8x2000000_0_1_n_n_1_1_81_wf
def scatter_S8x10000_S2000000x1_S8x2000000_0_1_1_1 : ScatterDims S8x10000 S2000000x1 S8x2000000 where
  updateWindowDims := [0]
  insertedWindowDims := [1]
  scatterDimsToOperandDims := [1]
  indexVectorDim := 1
  wf := scatter_S8x10000_S2000000x1_S8x2000000_0_1_1_1_wf

class Facts : Prop extends Facts₀ where

variable [Facts]
-- ==== Proof.Spec.lean ====
/-
  The mathematics both programs compute, stated once over literal index types and importing no program.

  A graph of 10000 nodes carries 8 batched node states `x b n`; 2000000 weighted edges `e` run from `src e` to `tgt e`.
  With `fx = tanh x`:
    pred b i = ∑ over the edges e with tgt e = i of  w e * fx b (src e)        (messages gathered at the source, summed at the target)
    err  b i = x b i - pred b i
    aggr b j = ∑ over the edges e with src e = j of  w e * err b (tgt e)       (the same pass with the two roles exchanged)
    dx   b j = err b j - (1 - fx b j * fx b j) * aggr b j
  and the result stacks pred, err, dx, each flattened batch-major, as the three rows of a 3 × 80000 array.
  One pass is `pass w ga sc v`: gather `v` at `ga e`, weight by `w e`, add into node `sc e`. A sum over the edges that
  land on a node is written as the sum over ALL edges of a term that is zero off that node, so that any regrouping,
  reordering or padding of the edge list is an identity of finite sums in a commutative monoid where `0 * a = 0`.
-/
import Idealize.ShloMosaic.PureOps.Ideal
import Idealize.ShloMosaic.Lib.ValueIdx

noncomputable section

open scoped BigOperators

namespace Cert.Spec

open Idealize.ShloMosaic Idealize.ShloMosaic.ValueIdx

/-- The node a 32-bit index word names (the word's value when it is below 10000, which the precondition says of every word). -/
def nodeOf (wd : BitVec 32) : Fin 10000 := ⟨wd.toNat % 10000, Nat.mod_lt _ (by decide)⟩

/-- Every edge endpoint is a node: each word of the 2 × 2000000 edge table, read signed, lies in [0, 10000). -/
def InRange (ei : (⟨2, ![2, 2000000]⟩ : Shape).Idx → BitVec 32) : Prop :=
  ∀ j, 0 ≤ (ei j).toInt ∧ (ei j).toInt < 10000

/-- An in-range word's unsigned value is its signed value, below 10000. -/
theorem InRange.toNat_lt {ei : (⟨2, ![2, 2000000]⟩ : Shape).Idx → BitVec 32} (h : InRange ei) (j) : (ei j).toNat < 10000 := by
  have h1 := (h j).1; have h2 := (h j).2
  rw [BitVec.toInt_eq_toNat_cond] at h1 h2
  have := (ei j).isLt
  split at h1 <;> omega

theorem InRange.nodeOf_val {ei : (⟨2, ![2, 2000000]⟩ : Shape).Idx → BitVec 32} (h : InRange ei) (j) : (nodeOf (ei j)).val = (ei j).toNat := by
  unfold nodeOf; exact Nat.mod_eq_of_lt (h.toNat_lt j)

/-- Edge `e`'s source node (row 0 of the edge table) and target node (row 1). -/
def srcOf (ei : (⟨2, ![2, 2000000]⟩ : Shape).Idx → BitVec 32) (e : Fin 2000000) : Fin 10000 := nodeOf (ei (ix2 (0 : Fin 2) e))
def tgtOf (ei : (⟨2, ![2, 2000000]⟩ : Shape).Idx → BitVec 32) (e : Fin 2000000) : Fin 10000 := nodeOf (ei (ix2 (1 : Fin 2) e))

/-- One message pass: node `i` of batch row `b` receives, from every edge `e` scattered to it (`sc e = i`), the weight
    times the state gathered at the edge's other end (`ga e`). -/
def pass (w : Fin 2000000 → EReal) (ga sc : Fin 2000000 → Fin 10000) (v : Fin 8 → Fin 10000 → EReal) (b : Fin 8) (i : Fin 10000) : EReal :=
  ∑ e : Fin 2000000, if sc e = i then w e * v b (ga e) else 0

/-- The prediction errors. -/
def err (w : Fin 2000000 → EReal) (src tgt : Fin 2000000 → Fin 10000) (x fx : Fin 8 → Fin 10000 → EReal) (b : Fin 8) (i : Fin 10000) : EReal :=
  x b i - pass w src tgt fx b i

/-- The value-update direction; `one` is the constant 1 as the programs spell it. -/
def dx (one : EReal) (w : Fin 2000000 → EReal) (src tgt : Fin 2000000 → Fin 10000) (x fx : Fin 8 → Fin 10000 → EReal) (b : Fin 8) (i : Fin 10000) : EReal :=
  err w src tgt x fx b i - (one - fx b i * fx b i) * pass w tgt src (err w src tgt x fx) b i

/-- Position `k` of a flattened 8 × 10000 array: batch row `k / 10000`, node `k % 10000`. -/
def rowOf (k : Fin 80000) : Fin 8 := ⟨k.val / 10000, by have := k.isLt; omega⟩
def colOf (k : Fin 80000) : Fin 10000 := ⟨k.val % 10000, Nat.mod_lt _ (by decide)⟩

/-- The stacked result: row 0 the predictions, row 1 the errors, row 2 the update direction. -/
def result (one : EReal) (w : Fin 2000000 → EReal) (src tgt : Fin 2000000 → Fin 10000) (x fx : Fin 8 → Fin 10000 → EReal)
    (r : Fin 3) (k : Fin 80000) : EReal :=
  match r with
  | ⟨0, _⟩ => pass w src tgt fx (rowOf k) (colOf k)
  | ⟨1, _⟩ => err w src tgt x fx (rowOf k) (colOf k)
  | ⟨2, _⟩ => dx one w src tgt x fx (rowOf k) (colOf k)

/-! ## The specification over the programs' three argument arrays -/

/-- Node state `x b n`: the flat `values` array read batch-major. -/
def xOf (x0 : (⟨1, ![80000]⟩ : Shape).Idx → EReal) (b : Fin 8) (n : Fin 10000) : EReal :=
  x0 (ix1 (⟨b.val * 10000 + n.val, by have := b.isLt; have := n.isLt; omega⟩ : Fin 80000))
/-- The activation `tanh x`, the extended reals' (`tanh (±∞) = ±1`). -/
def fxOf (x0 : (⟨1, ![80000]⟩ : Shape).Idx → EReal) (b : Fin 8) (n : Fin 10000) : EReal := Ideal.tanh (xOf x0 b n)
/-- Edge weight `w e`. -/
def wOf (x1 : (⟨1, ![2000000]⟩ : Shape).Idx → EReal) (e : Fin 2000000) : EReal := x1 (ix1 e)
/-- The constant 1, as both programs spell it (the f32 word of 1.0). -/
def one : EReal := Ideal.ofBits .f32 0x3F800000#32

/-- What both programs return, as one function of the three argument arrays. -/
def G (x0 : (⟨1, ![80000]⟩ : Shape).Idx → EReal) (x1 : (⟨1, ![2000000]⟩ : Shape).Idx → EReal)
    (x2 : (⟨2, ![2, 2000000]⟩ : Shape).Idx → BitVec 32) : (⟨2, ![3, 80000]⟩ : Shape).Idx → EReal :=
  fun j => result one (wOf x1) (srcOf x2) (tgtOf x2) (xOf x0) (fxOf x0) (j 0) (j 1)

end Cert.Spec

end
-- ==== Proof.LibScatterAddAt.lean ====
/-
  A StableHLO gather and an accumulating (add-bodied) scatter whose index table is ONE column of E
  indices into the second axis of a B × N array, read at one result index.

  * The gather (offset axis 0, collapsed axis 1, start index map [1], slice sizes B × 1) produces the
    B × E array whose entry (b, e) is the operand's entry (b, idx e), the index read as a signed
    integer and clamped into [0, N − 1].
  * The scatter (update window axis 0, inserted window axis 1, scatter axis 1) sends entry (b, e) of a
    B × E array of updates to entry (b, idx e) of the operand, the index read as a signed integer and
    not clamped: an update whose index is outside [0, N) lands nowhere.  With an add body, entry (b, i)
    of the result is the operand's entry plus the sum of the updates (b, e) over the e with idx e = i.

  The dimension numbers are written as records over variable sizes, their side conditions an argument.
-/
import Idealize.ShloMosaic.PureOps.ShapeOps
import Idealize.ShloMosaic.PureOps.Dims
import Idealize.ShloMosaic.PureOps.Ideal
import Idealize.ShloMosaic.Lib.ValueIdx

noncomputable section

open scoped BigOperators

namespace Cert.LibColumns

open Idealize.ShloMosaic Idealize.ShloMosaic.ValueIdx

/-- Axis 0 of a rank-2 array is not in the one-element list holding axis 1. -/
private theorem zero_not_mem_one : (0 : Fin 2) ∉ ([1] : List (Fin 2)) := by decide
/-- Axis 0 is among the axes of a rank-2 array left when axis 1 is taken out. -/
private theorem zero_mem_kept : (0 : Fin 2) ∈ (List.finRange 2).filter (· ∉ ([1] : List (Fin 2))) := by
  first | decide | exact List.mem_filter.mpr ⟨List.mem_finRange _, by decide⟩
/-- Axis 1 is not among them. -/
private theorem one_not_mem_kept : (1 : Fin 2) ∉ (List.finRange 2).filter (· ∉ ([1] : List (Fin 2))) := by
  first | decide | exact fun h => absurd (List.mem_filter.mp h).2 (by decide)

variable {B N E w : Nat}

/-! ## The gather -/

/-- The gather's dimension numbers: the result's axis 0 is the offset axis (a whole column of the
    operand is sliced), the operand's axis 1 is collapsed and is the one the start index names. -/
abbrev gatherColsDims (B N E : Nat)
    (wf : GatherDims.WF ⟨2, ![B, N]⟩ ⟨2, ![E, 1]⟩ ⟨2, ![B, E]⟩ [0] [1] [] [1] [] 1 ![B, 1]) :
    GatherDims ⟨2, ![B, N]⟩ ⟨2, ![E, 1]⟩ ⟨2, ![B, E]⟩ where
  offsetDims := [0]
  collapsedSliceDims := [1]
  operandBatchingDims := []
  startIndicesBatchingDims := []
  startIndexMap := [1]
  indexVectorDim := 1
  sliceSizes := ![B, 1]
  wf := wf

/-- THE GATHER READ AT (b, e): the operand at row b and at the column n that the e-th start index,
    read signed and clamped into [0, N − 1], names. -/
theorem gather_cols_apply {α : Type}
    (wf : GatherDims.WF ⟨2, ![B, N]⟩ ⟨2, ![E, 1]⟩ ⟨2, ![B, E]⟩ [0] [1] [] [1] [] 1 ![B, 1])
    (x : (⟨2, ![B, N]⟩ : Shape).Idx → α) (idx : IVec ⟨2, ![E, 1]⟩ w) (b : Fin B) (e : Fin E) (n : Fin N)
    (hn : min (idx (ix2 e (0 : Fin 1))).toInt.toNat (N - 1) = n.val) :
    Host.gather (gatherColsDims B N E wf) x idx (ix2 b e) = x (ix2 b n) := by
  unfold Host.gather
  refine congrArg x (funext fun a => Fin.ext ?_)
  match a with
  | ⟨0, h0⟩ =>
    -- the row axis: kept, not named by the start index map, read at the result's offset coordinate
    show (gatherColsDims B N E wf).start (ix2 b e) idx ⟨0, h0⟩ + (gatherColsDims B N E wf).batchCoord (ix2 b e) ⟨0, h0⟩
        + (gatherColsDims B N E wf).offCoord (ix2 b e) ⟨0, h0⟩ = b.val
    have hs : (gatherColsDims B N E wf).start (ix2 b e) idx ⟨0, h0⟩ = 0 := by
      unfold GatherDims.start
      exact dif_neg zero_not_mem_one
    have ho : (gatherColsDims B N E wf).offCoord (ix2 b e) ⟨0, h0⟩ = b.val := by
      unfold GatherDims.offCoord
      rw [dif_pos ((GatherDims.mem_sKept (gatherColsDims B N E wf) ⟨0, h0⟩).mpr ⟨zero_not_mem_one, List.not_mem_nil⟩)]
      rfl
    have hb := GatherDims.batchCoord_eq_zero (gatherColsDims B N E wf) (ix2 b e) ⟨0, h0⟩ List.not_mem_nil
    omega
  | ⟨1, h1⟩ =>
    -- the column axis: collapsed, the start index's one component, clamped so that a slice of size 1 fits
    show (gatherColsDims B N E wf).start (ix2 b e) idx ⟨1, h1⟩ + (gatherColsDims B N E wf).batchCoord (ix2 b e) ⟨1, h1⟩
        + (gatherColsDims B N E wf).offCoord (ix2 b e) ⟨1, h1⟩ = n.val
    have hm : (⟨1, h1⟩ : Fin 2) ∈ (gatherColsDims B N E wf).startIndexMap := List.mem_singleton.mpr rfl
    have hsi : (gatherColsDims B N E wf).siIdx (ix2 b e) ⟨List.idxOf (⟨1, h1⟩ : Fin 2) (gatherColsDims B N E wf).startIndexMap,
        List.idxOf_lt_length_iff.2 hm⟩ = ix2 e (0 : Fin 1) := by
      funext c; refine Fin.ext ?_
      match c with
      | ⟨0, _⟩ => rfl
      | ⟨1, _⟩ => rfl
    have hs : (gatherColsDims B N E wf).start (ix2 b e) idx ⟨1, h1⟩ = n.val := by
      unfold GatherDims.start
      rw [dif_pos hm, hsi]
      exact hn
    have hb := GatherDims.batchCoord_eq_zero (gatherColsDims B N E wf) (ix2 b e) ⟨1, h1⟩ List.not_mem_nil
    have ho := GatherDims.offCoord_eq_zero (gatherColsDims B N E wf) (ix2 b e) ⟨1, h1⟩
      (fun h => ((GatherDims.mem_sKept _ _).mp h).1 (List.mem_singleton.mpr rfl))
    omega

/-! ## The accumulating scatter -/

/-- The scatter's dimension numbers: the updates' axis 0 is the window axis (a whole column is
    written), the operand's axis 1 is inserted and is the one the scatter index names. -/
abbrev scatterColsDims (B N E : Nat)
    (wf : ScatterDims.WF ⟨2, ![B, N]⟩ ⟨2, ![E, 1]⟩ ⟨2, ![B, E]⟩ [0] [1] [1] 1) :
    ScatterDims ⟨2, ![B, N]⟩ ⟨2, ![E, 1]⟩ ⟨2, ![B, E]⟩ where
  updateWindowDims := [0]
  insertedWindowDims := [1]
  scatterDimsToOperandDims := [1]
  indexVectorDim := 1
  wf := wf

/-- On the row axis an update's position is its own row: the window starts at 0 there. -/
theorem scatterCols_pos0 (wf : ScatterDims.WF ⟨2, ![B, N]⟩ ⟨2, ![E, 1]⟩ ⟨2, ![B, E]⟩ [0] [1] [1] 1)
    (idx : IVec ⟨2, ![E, 1]⟩ w) (b : Fin B) (e : Fin E) (h0 : 0 < 2) :
    (scatterColsDims B N E wf).start (ix2 b e) idx ⟨0, h0⟩ + (((scatterColsDims B N E wf).window (ix2 b e) ⟨0, h0⟩ : Nat) : Int)
      = (b.val : Int) := by
  have hs : (scatterColsDims B N E wf).start (ix2 b e) idx ⟨0, h0⟩ = 0 := by
    unfold ScatterDims.start
    exact dif_neg zero_not_mem_one
  have hw : (scatterColsDims B N E wf).window (ix2 b e) ⟨0, h0⟩ = b.val := by
    unfold ScatterDims.window
    rw [dif_pos (show (⟨0, h0⟩ : Fin 2) ∈ (scatterColsDims B N E wf).sKept from zero_mem_kept)]
    rfl
  omega

/-- On the column axis an update's position is its scatter index, read signed: there is no window
    coordinate there. -/
theorem scatterCols_pos1 (wf : ScatterDims.WF ⟨2, ![B, N]⟩ ⟨2, ![E, 1]⟩ ⟨2, ![B, E]⟩ [0] [1] [1] 1)
    (idx : IVec ⟨2, ![E, 1]⟩ w) (b : Fin B) (e : Fin E) (h1 : 1 < 2) :
    (scatterColsDims B N E wf).start (ix2 b e) idx ⟨1, h1⟩ + (((scatterColsDims B N E wf).window (ix2 b e) ⟨1, h1⟩ : Nat) : Int)
      = (idx (ix2 e (0 : Fin 1))).toInt := by
  have hm : (⟨1, h1⟩ : Fin 2) ∈ (scatterColsDims B N E wf).scatterDimsToOperandDims := List.mem_singleton.mpr rfl
  have hsi : (scatterColsDims B N E wf).siIdx (ix2 b e) ⟨List.idxOf (⟨1, h1⟩ : Fin 2) (scatterColsDims B N E wf).scatterDimsToOperandDims,
      List.idxOf_lt_length_iff.2 hm⟩ = ix2 e (0 : Fin 1) := by
    funext c; refine Fin.ext ?_
    match c with
    | ⟨0, _⟩ => rfl
    | ⟨1, _⟩ => rfl
  have hs : (scatterColsDims B N E wf).start (ix2 b e) idx ⟨1, h1⟩ = (idx (ix2 e (0 : Fin 1))).toInt := by
    unfold ScatterDims.start
    rw [dif_pos hm, hsi]
  have hw : (scatterColsDims B N E wf).window (ix2 b e) ⟨1, h1⟩ = 0 := by
    unfold ScatterDims.window
    exact dif_neg one_not_mem_kept
  omega

/-- WHERE AN UPDATE LANDS: update (b, e) lands on entry (b', i) exactly when b = b' and the e-th
    scatter index, read signed, is i. -/
theorem resultIdx?_cols (wf : ScatterDims.WF ⟨2, ![B, N]⟩ ⟨2, ![E, 1]⟩ ⟨2, ![B, E]⟩ [0] [1] [1] 1)
    (idx : IVec ⟨2, ![E, 1]⟩ w) (b b' : Fin B) (e : Fin E) (i : Fin N) :
    (scatterColsDims B N E wf).resultIdx? (ix2 b e) idx = some (ix2 b' i)
      ↔ b = b' ∧ (idx (ix2 e (0 : Fin 1))).toInt = (i.val : Int) := by
  have p0 := scatterCols_pos0 (N := N) wf idx b e
  have p1 := scatterCols_pos1 (N := N) wf idx b e
  unfold ScatterDims.resultIdx?
  split
  · next h =>
    constructor
    · intro heq
      have heq' := Option.some.inj heq
      have e0 : ((scatterColsDims B N E wf).start (ix2 b e) idx ⟨0, Nat.zero_lt_two⟩
          + (((scatterColsDims B N E wf).window (ix2 b e) ⟨0, Nat.zero_lt_two⟩ : Nat) : Int)).toNat = b'.val :=
        congrArg Fin.val (congrFun heq' ⟨0, Nat.zero_lt_two⟩)
      have e1 : ((scatterColsDims B N E wf).start (ix2 b e) idx ⟨1, Nat.one_lt_two⟩
          + (((scatterColsDims B N E wf).window (ix2 b e) ⟨1, Nat.one_lt_two⟩ : Nat) : Int)).toNat = i.val :=
        congrArg Fin.val (congrFun heq' ⟨1, Nat.one_lt_two⟩)
      have g1 := (h ⟨1, Nat.one_lt_two⟩).1
      rw [p0] at e0
      rw [p1] at e1 g1
      exact ⟨Fin.ext (by omega), by omega⟩
    · rintro ⟨hb, hi⟩
      refine congrArg some (funext fun a => Fin.ext ?_)
      match a with
      | ⟨0, h0⟩ =>
        show ((scatterColsDims B N E wf).start (ix2 b e) idx ⟨0, h0⟩
          + (((scatterColsDims B N E wf).window (ix2 b e) ⟨0, h0⟩ : Nat) : Int)).toNat = b'.val
        rw [p0, ← hb]; omega
      | ⟨1, h1⟩ =>
        show ((scatterColsDims B N E wf).start (ix2 b e) idx ⟨1, h1⟩
          + (((scatterColsDims B N E wf).window (ix2 b e) ⟨1, h1⟩ : Nat) : Int)).toNat = i.val
        rw [p1, hi]; omega
  · next h =>
    constructor
    · intro heq; cases heq
    · rintro ⟨_, hi⟩
      refine (h fun a => ?_).elim
      match a with
      | ⟨0, h0⟩ =>
        rw [p0]
        show 0 ≤ (b.val : Int) ∧ (b.val : Int) < (B : Int)
        have := b.isLt
        omega
      | ⟨1, h1⟩ =>
        rw [p1, hi]
        show 0 ≤ (i.val : Int) ∧ (i.val : Int) < (N : Int)
        have := i.isLt
        omega

/-- THE ACCUMULATING SCATTER READ AT (b, i): the operand's entry plus the sum, over the positions e
    of the index column whose index read signed is i, of the update (b, e). -/
theorem hostScatterAdd_cols_apply (wf : ScatterDims.WF ⟨2, ![B, N]⟩ ⟨2, ![E, 1]⟩ ⟨2, ![B, E]⟩ [0] [1] [1] 1)
    (x : (⟨2, ![B, N]⟩ : Shape).Idx → EReal) (idx : IVec ⟨2, ![E, 1]⟩ w) (upd : (⟨2, ![B, E]⟩ : Shape).Idx → EReal)
    (b : Fin B) (i : Fin N) :
    Ideal.hostScatterAdd (scatterColsDims B N E wf) x idx upd (ix2 b i)
      = x (ix2 b i) + ∑ e : Fin E, if (idx (ix2 e (0 : Fin 1))).toInt = (i.val : Int) then upd (ix2 b e) else 0 := by
  unfold Ideal.hostScatterAdd
  refine congrArg (fun t => x (ix2 b i) + t) ?_
  rw [Finset.sum_filter, sum_idx2, Finset.sum_eq_single b]
  · refine Finset.sum_congr rfl fun e _ => ?_
    exact if_congr ((resultIdx?_cols wf idx b b e i).trans (and_iff_right rfl)) rfl rfl
  · intro b' _ hb'
    refine Finset.sum_eq_zero fun e _ => ?_
    exact if_neg fun h => hb' ((resultIdx?_cols wf idx b' b e i).mp h).1
  · intro h
    exact absurd (Finset.mem_univ b) h

end Cert.LibColumns

end
-- ==== Proof.RefValue.lean ====
/-
  The reference program's result, read at an index, is the specification's `result` (Spec.lean) of the arguments.

  The program gathers the activations at the edges' sources, weights them, and adds them into the edges'
  targets; subtracts; runs the same pass with the two roles exchanged on the errors; and stacks the three
  flattened arrays.  Under the range hypothesis every index word is its own node: the index normalisation
  (add 10000 to a negative index) takes the index itself, the gather's clamp is the identity, and every
  update of a scatter lands.  A scatter-add into a zero array is then the sum, over ALL edges, of the update
  where the edge's index is the node and zero elsewhere — the specification's `pass`.
-/
import proofs.«400082_j83537113907851_4_alg».proof.Proof.Gen.ReferenceIdeal.Run
import proofs.«400082_j83537113907851_4_alg».proof.Proof.Gen.ReferenceIdeal.Read
import proofs.«400082_j83537113907851_4_alg».proof.Proof.Spec
import proofs.«400082_j83537113907851_4_alg».proof.Proof.LibScatterAddAt
import Idealize.ShloMosaic.PureOps.Ideal.Laws
import Idealize.ShloMosaic.Lib.Affine

noncomputable section

open scoped BigOperators

namespace Cert.ReferenceIdeal.RefValue

open Cert.ReferenceIdeal Cert.ReferenceIdeal.Gen Cert.ReferenceIdeal.Read
open Idealize.ShloMosaic Idealize.ShloMosaic.ValueIdx Idealize.ShloMosaic.StableHlo

/-! ## Index words in range -/

/-- A word whose signed value is in [0, 10000) has that value unsigned too. -/
private theorem word_facts (wd : BitVec 32) (h : 0 ≤ wd.toInt ∧ wd.toInt < 10000) :
    wd.toInt = (wd.toNat : Int) ∧ wd.toNat < 10000 := by
  have hc := BitVec.toInt_eq_toNat_cond wd
  have hw := wd.isLt
  have h1 := h.1
  have h2 := h.2
  split at hc <;> omega

/-- Clamping such a word's signed value into [0, 9999] gives the node it names. -/
private theorem clamp_val (wd : BitVec 32) (h : 0 ≤ wd.toInt ∧ wd.toInt < 10000) :
    min wd.toInt.toNat (10000 - 1) = (Spec.nodeOf wd).val := by
  obtain ⟨hti, hlt⟩ := word_facts wd h
  show min wd.toInt.toNat (10000 - 1) = wd.toNat % 10000
  omega

/-- Such a word's signed value is `i` exactly when the node it names is `i`. -/
private theorem word_eq_iff (wd : BitVec 32) (h : 0 ≤ wd.toInt ∧ wd.toInt < 10000) (i : Fin 10000) :
    wd.toInt = (i.val : Int) ↔ Spec.nodeOf wd = i := by
  obtain ⟨hti, hlt⟩ := word_facts wd h
  constructor
  · intro hh
    refine Fin.ext ?_
    show wd.toNat % 10000 = i.val
    omega
  · intro hh
    have hv : wd.toNat % 10000 = i.val := congrArg Fin.val hh
    omega

/-- The index normalisation `select (idx < 0) (idx + 10000) idx` of a word that is not negative is the word. -/
private theorem norm_word (wd alt : BitVec 32) (h0 : 0 ≤ wd.toInt) :
    Scalar.select (IntOp.cmpi .slt wd 0#32) alt wd = wd := by
  unfold Scalar.select
  refine if_neg fun hh => ?_
  have hlt := IntOp.cmpi_slt.mp hh
  rw [BitVec.toInt_zero] at hlt
  omega

/-! ## The two library operations at this program's dimension numbers -/

/-- The program's gather at (b, e): the operand at row b and at the node the e-th index word, clamped, names. -/
theorem gather_at (x : S8x10000.Idx → EReal) (idx : S2000000x1.Idx → BitVec 32) (b : Fin 8) (e : Fin 2000000)
    (n : Fin 10000) (hn : min (idx (ix2 e (0 : Fin 1))).toInt.toNat (10000 - 1) = n.val) :
    Host.gather gather_S8x10000_S2000000x1_S8x2000000_0_1_n_n_1_1_81 x idx (ix2 b e) = x (ix2 b n) :=
  Cert.LibColumns.gather_cols_apply Gen.gather_S8x10000_S2000000x1_S8x2000000_0_1_n_n_1_1_81_wf x idx b e n hn

/-- The program's scatter-add at (b, i): the operand there plus the sum over the edges whose index word is i. -/
theorem scatter_at (x : S8x10000.Idx → EReal) (idx : S2000000x1.Idx → BitVec 32) (upd : S8x2000000.Idx → EReal)
    (b : Fin 8) (i : Fin 10000) :
    Host.scatterAdd (F := Ideal) (φ := .f32) scatter_S8x10000_S2000000x1_S8x2000000_0_1_1_1 x idx upd (ix2 b i)
      = x (ix2 b i) + ∑ e : Fin 2000000, if (idx (ix2 e (0 : Fin 1))).toInt = (i.val : Int) then upd (ix2 b e) else 0 :=
  Cert.LibColumns.hostScatterAdd_cols_apply Gen.scatter_S8x10000_S2000000x1_S8x2000000_0_1_1_1_wf x idx upd b i

section Chain

variable (x0 : (⟨S80000, .f32⟩ : BufTy).Contents (Elt Ideal)) (x1 : (⟨S2000000, .f32⟩ : BufTy).Contents (Elt Ideal))
  (x2 : (⟨S2x2000000, .i32⟩ : BufTy).Contents (Elt Ideal))

/-! ## The arguments at an index -/

/-- The reshaped node states at (b, n). -/
theorem v0_at (b : Fin 8) (n : Fin 10000) : val_main_v0 (F := Ideal) x0 (ix2 b n) = Spec.xOf x0 b n := by
  rw [val_main_v0_apply]
  unfold Spec.xOf
  exact congrArg x0 (funext fun a => match a with | ⟨0, _⟩ => rfl)

/-- The activations at (b, n). -/
theorem v5_at (b : Fin 8) (n : Fin 10000) : val_main_v5 (F := Ideal) x0 (ix2 b n) = Spec.fxOf x0 b n := by
  rw [val_main_v5_apply, v0_at] <;> rfl

/-- The weights broadcast over the batch, at (b, e): first pass. -/
theorem v17_at (b : Fin 8) (e : Fin 2000000) : val_main_v17 (F := Ideal) x1 (ix2 b e) = Spec.wOf x1 e := by
  rw [val_main_v17_apply, val_main_v9_apply]
  unfold Spec.wOf
  exact congrArg x1 (funext fun a => match a with | ⟨0, _⟩ => rfl)

/-- The weights broadcast over the batch, at (b, e): second pass. -/
theorem v32_at (b : Fin 8) (e : Fin 2000000) : val_main_v32 (F := Ideal) x1 (ix2 b e) = Spec.wOf x1 e := by
  rw [val_main_v32_apply, val_main_v24_apply]
  unfold Spec.wOf
  exact congrArg x1 (funext fun a => match a with | ⟨0, _⟩ => rfl)

/-- Row 0 of the edge table, flattened: the source words. -/
theorem v2_at (e : Fin 2000000) : val_main_v2 (F := Ideal) x2 (ix1 e) = x2 (ix2 (0 : Fin 2) e) := by
  rw [val_main_v2_apply, val_main_v1_apply]
  refine congrArg x2 (funext fun a => ?_)
  match a with
  | ⟨0, _⟩ => rfl
  | ⟨1, _⟩ => exact Fin.ext (Nat.mod_eq_of_lt e.isLt)

/-- Row 1 of the edge table, flattened: the target words. -/
theorem v4_at (e : Fin 2000000) : val_main_v4 (F := Ideal) x2 (ix1 e) = x2 (ix2 (1 : Fin 2) e) := by
  rw [val_main_v4_apply, val_main_v3_apply]
  refine congrArg x2 (funext fun a => ?_)
  match a with
  | ⟨0, _⟩ => rfl
  | ⟨1, _⟩ => exact Fin.ext (Nat.mod_eq_of_lt e.isLt)

/-- The normalised source index is the source word. -/
theorem v14_at (hr : Spec.InRange x2) (e : Fin 2000000) :
    val_main_v14 (F := Ideal) x2 (ix1 e) = x2 (ix2 (0 : Fin 2) e) := by
  rw [val_main_v14_apply, val_main_v11_apply, val_main_v10_apply, val_main_c_apply, v2_at]
  exact norm_word _ _ (hr (ix2 (0 : Fin 2) e)).1

/-- The normalised target index is the target word. -/
theorem v29_at (hr : Spec.InRange x2) (e : Fin 2000000) :
    val_main_v29 (F := Ideal) x2 (ix1 e) = x2 (ix2 (1 : Fin 2) e) := by
  rw [val_main_v29_apply, val_main_v26_apply, val_main_v25_apply, val_main_c_2_apply, v4_at]
  exact norm_word _ _ (hr (ix2 (1 : Fin 2) e)).1

/-- The four index columns at (e, 0). -/
theorem v15_at (hr : Spec.InRange x2) (e : Fin 2000000) :
    val_main_v15 (F := Ideal) x2 (ix2 e (0 : Fin 1)) = x2 (ix2 (0 : Fin 2) e) := by
  have hi : idx_main_v15 (ix2 e (0 : Fin 1)) = ix1 e := funext fun a => match a with | ⟨0, _⟩ => rfl
  rw [val_main_v15_apply, hi]
  exact v14_at x2 hr e

theorem v30_at (hr : Spec.InRange x2) (e : Fin 2000000) :
    val_main_v30 (F := Ideal) x2 (ix2 e (0 : Fin 1)) = x2 (ix2 (1 : Fin 2) e) := by
  have hi : idx_main_v30 (ix2 e (0 : Fin 1)) = ix1 e := funext fun a => match a with | ⟨0, _⟩ => rfl
  rw [val_main_v30_apply, hi]
  exact v29_at x2 hr e

theorem v20_at (e : Fin 2000000) : val_main_v20 (F := Ideal) x2 (ix2 e (0 : Fin 1)) = x2 (ix2 (1 : Fin 2) e) := by
  have hi : idx_main_v20 (ix2 e (0 : Fin 1)) = ix1 e := funext fun a => match a with | ⟨0, _⟩ => rfl
  rw [val_main_v20_apply, hi]
  exact v4_at x2 e

theorem v35_at (e : Fin 2000000) : val_main_v35 (F := Ideal) x2 (ix2 e (0 : Fin 1)) = x2 (ix2 (0 : Fin 2) e) := by
  have hi : idx_main_v35 (ix2 e (0 : Fin 1)) = ix1 e := funext fun a => match a with | ⟨0, _⟩ => rfl
  rw [val_main_v35_apply, hi]
  exact v2_at x2 e

/-- The two zero arrays the scatters add into. -/
theorem v21_at (b : Fin 8) (i : Fin 10000) : val_main_v21 (F := Ideal) (ix2 b i) = (0 : EReal) := by
  rw [val_main_v21_apply, val_main_v19_apply, val_main_cst_1_apply]
  exact Ideal.ofBits_zero_f32

theorem v36_at (b : Fin 8) (i : Fin 10000) : val_main_v36 (F := Ideal) (ix2 b i) = (0 : EReal) := by
  rw [val_main_v36_apply, val_main_v34_apply, val_main_cst_4_apply]
  exact Ideal.ofBits_zero_f32

/-! ## The first pass: predictions and errors -/

/-- The gathered activations at (b, e): the activation at the edge's source. -/
theorem v16_at (hr : Spec.InRange x2) (b : Fin 8) (e : Fin 2000000) :
    val_main_v16 (F := Ideal) x0 x2 (ix2 b e) = Spec.fxOf x0 b (Spec.srcOf x2 e) := by
  unfold val_main_v16
  refine (gather_at _ _ b e (Spec.srcOf x2 e) ?_).trans (v5_at x0 b _)
  rw [v15_at x2 hr e]
  exact clamp_val _ (hr _)

/-- The messages at (b, e). -/
theorem v18_at (hr : Spec.InRange x2) (b : Fin 8) (e : Fin 2000000) :
    val_main_v18 (F := Ideal) x0 x1 x2 (ix2 b e) = Spec.wOf x1 e * Spec.fxOf x0 b (Spec.srcOf x2 e) := by
  rw [val_main_v18_apply, v17_at, v16_at x0 x2 hr] <;> rfl

/-- The predictions at (b, i). -/
theorem v22_at (hr : Spec.InRange x2) (b : Fin 8) (i : Fin 10000) :
    val_main_v22 (F := Ideal) x0 x1 x2 (ix2 b i)
      = Spec.pass (Spec.wOf x1) (Spec.srcOf x2) (Spec.tgtOf x2) (Spec.fxOf x0) b i := by
  unfold val_main_v22
  refine (scatter_at _ _ _ b i).trans ?_
  rw [v21_at, zero_add]
  unfold Spec.pass
  refine Finset.sum_congr rfl fun e _ => ?_
  rw [v20_at, v18_at x0 x1 x2 hr]
  exact if_congr (word_eq_iff _ (hr _) i) rfl rfl

/-- The errors at (b, i). -/
theorem v23_at (hr : Spec.InRange x2) (b : Fin 8) (i : Fin 10000) :
    val_main_v23 (F := Ideal) x0 x1 x2 (ix2 b i)
      = Spec.err (Spec.wOf x1) (Spec.srcOf x2) (Spec.tgtOf x2) (Spec.xOf x0) (Spec.fxOf x0) b i := by
  rw [val_main_v23_apply, v0_at, v22_at x0 x1 x2 hr] <;> rfl

/-! ## The second pass: the update direction -/

/-- The gathered errors at (b, e): the error at the edge's target. -/
theorem v31_at (hr : Spec.InRange x2) (b : Fin 8) (e : Fin 2000000) :
    val_main_v31 (F := Ideal) x0 x1 x2 (ix2 b e)
      = Spec.err (Spec.wOf x1) (Spec.srcOf x2) (Spec.tgtOf x2) (Spec.xOf x0) (Spec.fxOf x0) b (Spec.tgtOf x2 e) := by
  unfold val_main_v31
  refine (gather_at _ _ b e (Spec.tgtOf x2 e) ?_).trans (v23_at x0 x1 x2 hr b _)
  rw [v30_at x2 hr e]
  exact clamp_val _ (hr _)

/-- The back messages at (b, e). -/
theorem v33_at (hr : Spec.InRange x2) (b : Fin 8) (e : Fin 2000000) :
    val_main_v33 (F := Ideal) x0 x1 x2 (ix2 b e)
      = Spec.wOf x1 e * Spec.err (Spec.wOf x1) (Spec.srcOf x2) (Spec.tgtOf x2) (Spec.xOf x0) (Spec.fxOf x0) b (Spec.tgtOf x2 e) := by
  rw [val_main_v33_apply, v32_at, v31_at x0 x1 x2 hr] <;> rfl

/-- The aggregated back messages at (b, j). -/
theorem v37_at (hr : Spec.InRange x2) (b : Fin 8) (j : Fin 10000) :
    val_main_v37 (F := Ideal) x0 x1 x2 (ix2 b j)
      = Spec.pass (Spec.wOf x1) (Spec.tgtOf x2) (Spec.srcOf x2)
          (Spec.err (Spec.wOf x1) (Spec.srcOf x2) (Spec.tgtOf x2) (Spec.xOf x0) (Spec.fxOf x0)) b j := by
  unfold val_main_v37
  refine (scatter_at _ _ _ b j).trans ?_
  rw [v36_at, zero_add]
  unfold Spec.pass
  refine Finset.sum_congr rfl fun e _ => ?_
  rw [v35_at, v33_at x0 x1 x2 hr]
  exact if_congr (word_eq_iff _ (hr _) j) rfl rfl

/-- The activation's derivative at (b, j). -/
theorem v8_at (b : Fin 8) (j : Fin 10000) :
    val_main_v8 (F := Ideal) x0 (ix2 b j) = Spec.one - Spec.fxOf x0 b j * Spec.fxOf x0 b j := by
  rw [val_main_v8_apply, val_main_v7_apply, val_main_cst_apply, val_main_v6_apply, v5_at] <;> rfl

/-- The update direction at (b, j). -/
theorem v39_at (hr : Spec.InRange x2) (b : Fin 8) (j : Fin 10000) :
    val_main_v39 (F := Ideal) x0 x1 x2 (ix2 b j)
      = Spec.dx Spec.one (Spec.wOf x1) (Spec.srcOf x2) (Spec.tgtOf x2) (Spec.xOf x0) (Spec.fxOf x0) b j := by
  rw [val_main_v39_apply, val_main_v38_apply, v23_at x0 x1 x2 hr, v8_at, v37_at x0 x1 x2 hr] <;> rfl

/-! ## Flattening and stacking -/

/-- The three rows before stacking, at (0, k). -/
theorem v43_at (hr : Spec.InRange x2) (k : Fin 80000) :
    val_main_v43 (F := Ideal) x0 x1 x2 (ix2 (0 : Fin 1) k)
      = Spec.pass (Spec.wOf x1) (Spec.srcOf x2) (Spec.tgtOf x2) (Spec.fxOf x0) (Spec.rowOf k) (Spec.colOf k) := by
  have hi : idx_main_v43 (ix2 (0 : Fin 1) k) = ix1 k := funext fun a => match a with | ⟨0, _⟩ => rfl
  have hj : idx_main_v40 (ix1 k) = ix2 (Spec.rowOf k) (Spec.colOf k) :=
    funext fun a => match a with | ⟨0, _⟩ => rfl | ⟨1, _⟩ => rfl
  rw [val_main_v43_apply, hi, val_main_v40_apply, hj]
  exact v22_at x0 x1 x2 hr _ _

theorem v44_at (hr : Spec.InRange x2) (k : Fin 80000) :
    val_main_v44 (F := Ideal) x0 x1 x2 (ix2 (0 : Fin 1) k)
      = Spec.err (Spec.wOf x1) (Spec.srcOf x2) (Spec.tgtOf x2) (Spec.xOf x0) (Spec.fxOf x0) (Spec.rowOf k) (Spec.colOf k) := by
  have hi : idx_main_v44 (ix2 (0 : Fin 1) k) = ix1 k := funext fun a => match a with | ⟨0, _⟩ => rfl
  have hj : idx_main_v41 (ix1 k) = ix2 (Spec.rowOf k) (Spec.colOf k) :=
    funext fun a => match a with | ⟨0, _⟩ => rfl | ⟨1, _⟩ => rfl
  rw [val_main_v44_apply, hi, val_main_v41_apply, hj]
  exact v23_at x0 x1 x2 hr _ _

theorem v45_at (hr : Spec.InRange x2) (k : Fin 80000) :
    val_main_v45 (F := Ideal) x0 x1 x2 (ix2 (0 : Fin 1) k)
      = Spec.dx Spec.one (Spec.wOf x1) (Spec.srcOf x2) (Spec.tgtOf x2) (Spec.xOf x0) (Spec.fxOf x0) (Spec.rowOf k) (Spec.colOf k) := by
  have hi : idx_main_v45 (ix2 (0 : Fin 1) k) = ix1 k := funext fun a => match a with | ⟨0, _⟩ => rfl
  have hj : idx_main_v42 (ix1 k) = ix2 (Spec.rowOf k) (Spec.colOf k) :=
    funext fun a => match a with | ⟨0, _⟩ => rfl | ⟨1, _⟩ => rfl
  rw [val_main_v45_apply, hi, val_main_v42_apply, hj]
  exact v39_at x0 x1 x2 hr _ _

/-- The three pieces the program stacks, each with its shape. -/
abbrev pieces : List ((s : Shape) × (s.Idx → EReal)) :=
  [⟨S1x80000, val_main_v43 (F := Ideal) x0 x1 x2⟩, ⟨S1x80000, val_main_v44 (F := Ideal) x0 x1 x2⟩,
    ⟨S1x80000, val_main_v45 (F := Ideal) x0 x1 x2⟩]

/-- Row p of the stacked result is the p-th piece: the piece's one row, read at the same column. -/
theorem v46_piece (p : Nat) (hp : p < 3) (k : Fin 80000) (x : S1x80000.Idx → EReal)
    (hxk : (pieces x0 x1 x2)[p]'hp = ⟨S1x80000, x⟩)
    (hpre : ((((pieces x0 x1 x2).take p).map (·.1)).map
        (fun s => if h : s.rank = S3x80000.rank then s.size ((0 : Fin S3x80000.rank).cast h.symm) else 0)).sum = p) :
    val_main_v46 (F := Ideal) x0 x1 x2 (ix2 (⟨p, hp⟩ : Fin 3) k) = x (ix2 (0 : Fin 1) k) := by
  unfold val_main_v46
  exact concatenate_apply_piece (0 : Fin S3x80000.rank) (pieces x0 x1 x2) concatenates_S1x80000_S1x80000_S1x80000_S3x80000_d0
    (ix2 (⟨p, hp⟩ : Fin 3) k) p hp S1x80000 x hxk rfl p hpre (ix2 (0 : Fin 1) k)
    (fun b hb => match b, hb with
      | ⟨0, _⟩, hb => (hb rfl).elim
      | ⟨1, _⟩, _ => rfl)
    (Nat.add_zero p)

end Chain

/-! ## The result -/

/-- THE REFERENCE'S VALUE: under the range hypothesis the program returns the specification's stacked result. -/
theorem ref_eq (x0 : (⟨S80000, .f32⟩ : BufTy).Contents (Elt Ideal)) (x1 : (⟨S2000000, .f32⟩ : BufTy).Contents (Elt Ideal))
    (x2 : (⟨S2x2000000, .i32⟩ : BufTy).Contents (Elt Ideal)) (h : Cert.Spec.InRange x2) :
    Cert.ReferenceIdeal.Read.val_main_v46 (F := Ideal) x0 x1 x2 = Cert.Spec.G x0 x1 x2 := by
  funext j
  obtain ⟨r, k, rfl⟩ : ∃ (r : Fin 3) (k : Fin 80000), j = ix2 r k := ⟨j 0, j 1, eq_ix2 (n0 := 3) (n1 := 80000) j⟩
  show val_main_v46 (F := Ideal) x0 x1 x2 (ix2 r k)
    = Spec.result Spec.one (Spec.wOf x1) (Spec.srcOf x2) (Spec.tgtOf x2) (Spec.xOf x0) (Spec.fxOf x0) r k
  match r with
  | ⟨0, h0⟩ => exact (v46_piece x0 x1 x2 0 h0 k _ rfl rfl).trans (v43_at x0 x1 x2 h k)
  | ⟨1, h1⟩ => exact (v46_piece x0 x1 x2 1 h1 k _ rfl rfl).trans (v44_at x0 x1 x2 h k)
  | ⟨2, h2⟩ => exact (v46_piece x0 x1 x2 2 h2 k _ rfl rfl).trans (v45_at x0 x1 x2 h k)

end Cert.ReferenceIdeal.RefValue

end
-- ==== Proof.PreDecode.lean ====
/-
  The precondition, read back as a fact about the edge table.

  The printed precondition is a conjunction of four "for all elements" tests, each a reduction by `and` from the constant 1
  into a single word: two on the float arrays, then "every word of the edge table is at least 0" and "every word of the
  edge table is below 10000", both comparisons signed. If the conjunction is 1 then each of the four words is 1; a
  reduction by `and` that came out 1 met only 1s, so each comparison holds at every index of the table; and the constants
  compared against, read at any index of the table, are the words 0 and 10000, whose signed values are 0 and 10000. Hence
  every word of the table, read signed, lies in [0, 10000). Nothing here looks at the float arrays, so the statement
  holds for every float instance.
-/
import proofs.«400082_j83537113907851_4_alg».proof.Pre_finite_inputs
import proofs.«400082_j83537113907851_4_alg».proof.Proof.Spec
import Idealize.ShloMosaic.Lib.ReduceAll
import Idealize.ShloMosaic.Lib.ValueIdx

noncomputable section

namespace Cert.PreDecode

open Idealize.ShloMosaic

/-- The scalar shape has exactly one index. -/
instance subsingleton_scalar_idx : Subsingleton Cert.Pre_finite_inputs.S_.Idx :=
  ⟨fun _ _ => funext fun d => d.elim0⟩

/-- A word that tests "at least the word 0" signed is nonnegative read signed. -/
theorem nonneg_of_sge_zero {a : BitVec 32} (h : IntOp.cmpi .sge a 0#32 = 1#1) : 0 ≤ a.toInt := by
  have h0 : (0#32 : BitVec 32).toInt = 0 := by decide
  rw [IntOp.cmpi_sge, h0] at h
  exact h

/-- A word that tests "below the word 10000" signed is below 10000 read signed. -/
theorem lt_of_slt_bound {a : BitVec 32} (h : IntOp.cmpi .slt a 10000#32 = 1#1) : a.toInt < 10000 := by
  have hb : (10000#32 : BitVec 32).toInt = 10000 := by decide
  rw [IntOp.cmpi_slt, hb] at h
  exact h

/-- THE PRECONDITION DECODED: if the printed precondition of the three arrays is the word 1, every word of the edge
    table, read signed, lies in [0, 10000). -/
theorem inRange_of_pre [Cert.Pre_finite_inputs.Facts] {F : FTy → Type} [FloatOps F]
    (x0 : FVec F Cert.Pre_finite_inputs.S80000 .f32) (x1 : FVec F Cert.Pre_finite_inputs.S2000000 .f32)
    (x2 : IVec Cert.Pre_finite_inputs.S2x2000000 32)
    (h : Cert.Pre_finite_inputs.fn (F := F) x0 x1 x2 = fun _ => 1#1) : Cert.Spec.InRange x2 := by
  -- the one word of the result
  have e := congrFun h ValueIdx.ix0
  dsimp only [Cert.Pre_finite_inputs.fn, Cert.Pre_finite_inputs.fn_part1] at e
  -- the conjunction of four words is 1: each is
  simp only [andi] at e
  rw [IntOp.andi_eq_one, IntOp.andi_eq_one, IntOp.andi_eq_one] at e
  obtain ⟨⟨-, hge⟩, hlt⟩ := e
  intro j
  -- each "for all" reduction that is 1 met a 1 at index j
  have h1 := Host.reduce_andi_all _ _ _ _ _ hge j
  have h2 := Host.reduce_andi_all _ _ _ _ _ hlt j
  -- the comparison at j compares the table's word with the constant's one word
  exact ⟨nonneg_of_sge_zero h1, lt_of_slt_bound h2⟩

end Cert.PreDecode

end
-- ==== Proof.RunK0.lean ====
/-
  The message-passing kernel's body at one grid point (custom_call 0), generic in the float instance.

  From the two table buffers, the node-state block, the chunk's gather indices, scatter indices and weights, the output
  block's buffer and the accumulator at given contents (the one-hot scratch at anything), the body runs to its end leaving
  the inputs as they were, the one-hot scratch at something, the accumulator at `acc8` of what it found and the output
  buffer at `out7`: the accumulator is reset at the first point and then updated tile by tile under the table words'
  guards; the output buffer is overwritten by the accumulator at the last point and untouched before.
-/
import proofs.«400082_j83537113907851_4_alg».proof.Proof.Gen.KernelIdeal.Skeleton
import proofs.«400082_j83537113907851_4_alg».proof.Proof.Gen.KernelIdeal.Launch
import Idealize.ShloMosaic.Lib.Pipeline.Frame
import Idealize.ShloMosaic.Lib.Pipeline.FrameBody
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output block's staging buffer, the accumulator and the one-hot scratch, as the body table calls the kernel. -/
abbrev m7_0 : Memref sig .tc .vmem S10000x8 .f32 := Memref.whole cc0_stg4_0
abbrev m8_0 : Memref sig .tc .vmem S10000x8 .f32 := Memref.whole cc0_scratch0
abbrev m9_0 : Memref sig .tc .vmem S1000x4096 .f32 := Memref.whole cc0_scratch1

set_option maxHeartbeats 4000000 in
/-- The body's run at a grid point: the raw contents it leaves in the output block's buffer (`F7`) and in the accumulator
    (`F8`) are what the run itself computes, with the proof that the body reaches its end there. -/
noncomputable def kernelRun0 (c : Dev nD) (i : grid0.Coords)
    (arg1 : Memref sig .tc .smem S489 .i32) (harg1 : arg1.IsWhole) (arg2 : Memref sig .tc .smem S489 .i32) (harg2 : arg2.IsWhole)
    (arg3 : Memref sig .tc .vmem S10000x8 .f32) (harg3 : arg3.IsWhole) (arg4 : Memref sig .tc .vmem S4096 .i32) (harg4 : arg4.IsWhole)
    (arg5 : Memref sig .tc .vmem S4096 .i32) (harg5 : arg5.IsWhole) (arg6 : Memref sig .tc .vmem S4096 .f32) (harg6 : arg6.IsWhole)
    (x1 x2 : Vec F S489 .i32) (x3 : Vec F S10000x8 .f32) (x4 x5 : Vec F S4096 .i32) (x6 : Vec F S4096 .f32) (xi7 a8 : Vec F S10000x8 .f32) :
    Σ' (F7 : (m7_0).view.ty.Contents (Elt F)), { F8 : (m8_0).view.ty.Contents (Elt F) //
      ∀ (E : Set ℕ) (K : PUnit → sProp 𝕄),
        iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) m7_0 fullShare xi7 ∗ owns (c : Thread nD τ) m8_0 fullShare a8 ∗ (∃ d, owns (c : Thread nD τ) m9_0 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ ((m7_0).view.loc (c : Thread nD τ) ↦[(m7_0).view.set]{fullShare} F7)
            ∗ ((m8_0).view.loc (c : Thread nD τ) ↦[(m8_0).view.set]{fullShare} F8)
            ∗ (∃ f, (m9_0).view.loc (c : Thread nD τ) ↦[(m9_0).view.set]{fullShare} f)) -∗ K ⟨⟩))
      ⊢ wp frame (wpE (defs₀ (F := F)) Variants.none c none) E
          (cc0__mp_kernel i arg1 harg1 arg2 harg2 arg3 harg3 arg4 harg4 arg5 harg5 arg6 harg6
            m7_0 (Memref.isWhole_whole _) m8_0 (Memref.isWhole_whole _) m9_0 (Memref.isWhole_whole _)) K } := by
  refine ⟨?_, ?_, fun E K => ?run⟩
  case run =>
    simp only [cc0__mp_kernel_eq_skeleton]; unfold cc0__mp_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := (Memref.isWhole_whole cc0_stg4_0).eq_unread hf7; obtain rfl := (Memref.isWhole_whole cc0_scratch0).eq_unread hf8
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexact H7
    isplitl [H8]; · iexact H8
    iexists _; iexact H9

end Cert.KernelIdeal.Body

end
-- ==== Proof.Run0.lean ====
/-
  The message-passing kernel's body at one grid point (custom_call 0), generic in the float instance.

  From the two table buffers, the node-state block, the chunk's gather indices, scatter indices and weights, the output
  block's buffer and the accumulator at given contents (the one-hot scratch at anything), the body runs to its end leaving
  the inputs as they were, the one-hot scratch at something, the accumulator at `acc8` of what it found and the output
  buffer at `out7`: the accumulator is reset at the first point and then updated tile by tile under the table words'
  guards; the output buffer is overwritten by the accumulator at the last point and untouched before.
-/
import proofs.«400082_j83537113907851_4_alg».proof.Proof.RunK0
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator after the body at grid point `i` (run on core `c` through the memrefs `arg1 … arg6`), from the two
    tables `x1 x2`, the node states `x3`, the chunk's gather indices `x4`, scatter indices `x5`, weights `x6`, and the
    accumulator `a8` the point found: what the run leaves in the accumulator's buffer, read back. -/
def acc8_0 (c : Dev nD) (i : grid0.Coords)
    (arg1 : Memref sig .tc .smem S489 .i32) (harg1 : arg1.IsWhole) (arg2 : Memref sig .tc .smem S489 .i32) (harg2 : arg2.IsWhole)
    (arg3 : Memref sig .tc .vmem S10000x8 .f32) (harg3 : arg3.IsWhole) (arg4 : Memref sig .tc .vmem S4096 .i32) (harg4 : arg4.IsWhole)
    (arg5 : Memref sig .tc .vmem S4096 .i32) (harg5 : arg5.IsWhole) (arg6 : Memref sig .tc .vmem S4096 .f32) (harg6 : arg6.IsWhole)
    (x1 x2 : Vec F S489 .i32) (x3 : Vec F S10000x8 .f32) (x4 x5 : Vec F S4096 .i32) (x6 : Vec F S4096 .f32) (a8 : Vec F S10000x8 .f32) : Vec F S10000x8 .f32 :=
  (m8_0).view.read (Elt F) (kernelRun0 c i arg1 harg1 arg2 harg2 arg3 harg3 arg4 harg4 arg5 harg5 arg6 harg6 x1 x2 x3 x4 x5 x6 a8 a8).2.1

/-- The output block's buffer after the body at grid point `i`, having held `xi7`. -/
def out7_0 (c : Dev nD) (i : grid0.Coords)
    (arg1 : Memref sig .tc .smem S489 .i32) (harg1 : arg1.IsWhole) (arg2 : Memref sig .tc .smem S489 .i32) (harg2 : arg2.IsWhole)
    (arg3 : Memref sig .tc .vmem S10000x8 .f32) (harg3 : arg3.IsWhole) (arg4 : Memref sig .tc .vmem S4096 .i32) (harg4 : arg4.IsWhole)
    (arg5 : Memref sig .tc .vmem S4096 .i32) (harg5 : arg5.IsWhole) (arg6 : Memref sig .tc .vmem S4096 .f32) (harg6 : arg6.IsWhole)
    (x1 x2 : Vec F S489 .i32) (x3 : Vec F S10000x8 .f32) (x4 x5 : Vec F S4096 .i32) (x6 : Vec F S4096 .f32) (xi7 a8 : Vec F S10000x8 .f32) : Vec F S10000x8 .f32 :=
  (m7_0).view.read (Elt F) (kernelRun0 c i arg1 harg1 arg2 harg2 arg3 harg3 arg4 harg4 arg5 harg5 arg6 harg6 x1 x2 x3 x4 x5 x6 xi7 a8).1

/-- What the run leaves in the accumulator does not look at what the output block's buffer held. -/
theorem F8_xi0 (c : Dev nD) (i : grid0.Coords)
    (arg1 : Memref sig .tc .smem S489 .i32) (harg1 : arg1.IsWhole) (arg2 : Memref sig .tc .smem S489 .i32) (harg2 : arg2.IsWhole)
    (arg3 : Memref sig .tc .vmem S10000x8 .f32) (harg3 : arg3.IsWhole) (arg4 : Memref sig .tc .vmem S4096 .i32) (harg4 : arg4.IsWhole)
    (arg5 : Memref sig .tc .vmem S4096 .i32) (harg5 : arg5.IsWhole) (arg6 : Memref sig .tc .vmem S4096 .f32) (harg6 : arg6.IsWhole)
    (x1 x2 : Vec F S489 .i32) (x3 : Vec F S10000x8 .f32) (x4 x5 : Vec F S4096 .i32) (x6 : Vec F S4096 .f32) (xi7 a8 : Vec F S10000x8 .f32) :
    (kernelRun0 c i arg1 harg1 arg2 harg2 arg3 harg3 arg4 harg4 arg5 harg5 arg6 harg6 x1 x2 x3 x4 x5 x6 xi7 a8).2.1 = (kernelRun0 c i arg1 harg1 arg2 harg2 arg3 harg3 arg4 harg4 arg5 harg5 arg6 harg6 x1 x2 x3 x4 x5 x6 a8 a8).2.1 := by
  unfold kernelRun0
  rfl

/-- The body's triple at any grid point. -/
theorem sound_kernel0 (c : Dev nD) (E : Set ℕ) (i : grid0.Coords)
    (arg1 : Memref sig .tc .smem S489 .i32) (harg1 : arg1.IsWhole) (arg2 : Memref sig .tc .smem S489 .i32) (harg2 : arg2.IsWhole)
    (arg3 : Memref sig .tc .vmem S10000x8 .f32) (harg3 : arg3.IsWhole) (arg4 : Memref sig .tc .vmem S4096 .i32) (harg4 : arg4.IsWhole)
    (arg5 : Memref sig .tc .vmem S4096 .i32) (harg5 : arg5.IsWhole) (arg6 : Memref sig .tc .vmem S4096 .f32) (harg6 : arg6.IsWhole)
    (x1 x2 : Vec F S489 .i32) (x3 : Vec F S10000x8 .f32) (x4 x5 : Vec F S4096 .i32) (x6 : Vec F S4096 .f32) (xi7 a8 : Vec F S10000x8 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) m7_0 fullShare xi7 ∗ owns (c : Thread nD τ) m8_0 fullShare a8 ∗ (∃ d, owns (c : Thread nD τ) m9_0 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) m7_0 fullShare (out7_0 c i arg1 harg1 arg2 harg2 arg3 harg3 arg4 harg4 arg5 harg5 arg6 harg6 x1 x2 x3 x4 x5 x6 xi7 a8)
            ∗ owns (c : Thread nD τ) m8_0 fullShare (acc8_0 c i arg1 harg1 arg2 harg2 arg3 harg3 arg4 harg4 arg5 harg5 arg6 harg6 x1 x2 x3 x4 x5 x6 a8)
            ∗ (∃ d, owns (c : Thread nD τ) m9_0 fullShare d)) -∗ K ⟨⟩))
      ⊢ wp frame (wpE (defs₀ (F := F)) Variants.none c none) E
          (cc0__mp_kernel i arg1 harg1 arg2 harg2 arg3 harg3 arg4 harg4 arg5 harg5 arg6 harg6
            m7_0 (Memref.isWhole_whole _) m8_0 (Memref.isWhole_whole _) m9_0 (Memref.isWhole_whole _)) K := by
  refine .trans ?_ ((kernelRun0 c i arg1 harg1 arg2 harg2 arg3 harg3 arg4 harg4 arg5 harg5 arg6 harg6 x1 x2 x3 x4 x5 x6 xi7 a8).2.2 E K)
  iintro ⟨H1, H2, H3, H4, H5, H6, H7, H8, H9, Hk⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H1, H2, H3, H4, H5, H6, H7, H8, H9⟩
  iapply Hk
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr; · ipureintro; rfl
    iexact H7
  isplitl [H8]
  · unfold owns; iexists _; isplitr; · ipureintro; exact congrArg ((m8_0).view.read (Elt F)) (F8_xi0 c i arg1 harg1 arg2 harg2 arg3 harg3 arg4 harg4 arg5 harg5 arg6 harg6 x1 x2 x3 x4 x5 x6 xi7 a8)
    iexact H8
  icases H9 with ⟨%f, H9⟩
  iexists _; unfold owns; iexists f; isplitr; · ipureintro; rfl
  iexact H9

/-- Before the last point the body leaves the output block's buffer as it found it. -/
theorem out7_0_idle (c : Dev nD) (i : grid0.Coords)
    (arg1 : Memref sig .tc .smem S489 .i32) (harg1 : arg1.IsWhole) (arg2 : Memref sig .tc .smem S489 .i32) (harg2 : arg2.IsWhole)
    (arg3 : Memref sig .tc .vmem S10000x8 .f32) (harg3 : arg3.IsWhole) (arg4 : Memref sig .tc .vmem S4096 .i32) (harg4 : arg4.IsWhole)
    (arg5 : Memref sig .tc .vmem S4096 .i32) (harg5 : arg5.IsWhole) (arg6 : Memref sig .tc .vmem S4096 .f32) (harg6 : arg6.IsWhole)
    (x1 x2 : Vec F S489 .i32) (x3 : Vec F S10000x8 .f32) (x4 x5 : Vec F S4096 .i32) (x6 : Vec F S4096 .f32) (xi7 a8 : Vec F S10000x8 .f32) (h : ¬ k0_cond12 i = 1#1) :
    out7_0 c i arg1 harg1 arg2 harg2 arg3 harg3 arg4 harg4 arg5 harg5 arg6 harg6 x1 x2 x3 x4 x5 x6 xi7 a8 = xi7 := by
  unfold out7_0 kernelRun0
  dsimp only
  rw [dif_neg h]
  exact (Memref.isWhole_whole cc0_stg4_0).read_unread xi7

set_option maxHeartbeats 2000000 in
/-- At the last point the body copies the updated accumulator into the output block's buffer. -/
theorem out7_0_last (c : Dev nD) (i : grid0.Coords)
    (arg1 : Memref sig .tc .smem S489 .i32) (harg1 : arg1.IsWhole) (arg2 : Memref sig .tc .smem S489 .i32) (harg2 : arg2.IsWhole)
    (arg3 : Memref sig .tc .vmem S10000x8 .f32) (harg3 : arg3.IsWhole) (arg4 : Memref sig .tc .vmem S4096 .i32) (harg4 : arg4.IsWhole)
    (arg5 : Memref sig .tc .vmem S4096 .i32) (harg5 : arg5.IsWhole) (arg6 : Memref sig .tc .vmem S4096 .f32) (harg6 : arg6.IsWhole)
    (x1 x2 : Vec F S489 .i32) (x3 : Vec F S10000x8 .f32) (x4 x5 : Vec F S4096 .i32) (x6 : Vec F S4096 .f32) (xi7 a8 : Vec F S10000x8 .f32) (h : k0_cond12 i = 1#1) :
    out7_0 c i arg1 harg1 arg2 harg2 arg3 harg3 arg4 harg4 arg5 harg5 arg6 harg6 x1 x2 x3 x4 x5 x6 xi7 a8 = acc8_0 c i arg1 harg1 arg2 harg2 arg3 harg3 arg4 harg4 arg5 harg5 arg6 harg6 x1 x2 x3 x4 x5 x6 a8 := by
  have hz : (![0, 0] : Fin S10000x8.rank → Nat) = fun _ => 0 := by
    funext a; match a with | ⟨0, _⟩ => rfl | ⟨1, _⟩ => rfl
  unfold out7_0 acc8_0 kernelRun0
  dsimp only
  rw [dif_pos h]
  rw [View.read_writes_eq_canon _ _ _ (fun y => ⟨_, List.mem_singleton_self _, View.mem_set_unit_zero hz Facts₀.inb_S10000x8_S10000x8_0_0 y⟩)]
  rw [View.canon_unit_zero hz]
  sl_unfold_words
  simp only [View.readAt_eq_ld, View.ld_unit_zero (S := S10000x8) hz]

end Cert.KernelIdeal.Body

end
-- ==== Proof.AccRead.lean ====
/-
  The accumulator's buffer read back at a node, one guarded tile store at a time.

  The accumulator holds 10000 rows of 8 columns. A tile store writes rows [o, o + 1000); under a guard it is made or
  not. Read at node n, column k: a row inside the tile reads the stored tile's row n - o when the guard holds and what
  was there when it does not; a row outside the tile reads what was there either way. The guard of tile t is the bracket
  lo ≤ t ≤ hi of the chunk's two table words read signed; the reset's guard is the grid coordinate being zero.
  Everything is stated for any view of the accumulator's shape and any contents.
-/
import proofs.«400082_j83537113907851_4_alg».proof.KernelIdeal
import Idealize.ShloMosaic.Lib.WritesUnit
import Idealize.ShloMosaic.Lib.ValueIdx

noncomputable section

namespace Cert.KernelIdeal.AccRead

open Idealize.ShloMosaic

/-! ## A tile of rows written into the accumulator, read back at a node -/

section Layer
variable {sig : RefSig} {κ : Kind} {sp : Space} {Val : EltTy → Type}
  (v : View sig κ sp S10000x8 .f32) (f : v.ty.Contents Val)

/-- Row o + r of the accumulator, after rows [o, o + 1000) were written, reads row r of what was written. -/
theorem read_tile_of_mem (o : Nat) (inb : ∀ a, (![o, 0] : Fin 2 → Nat) a + S1000x8.size a ≤ S10000x8.size a)
    (P : S1000x8.Idx → Val .f32) (n : Fin 10000) (k : Fin 8) (r : Fin 1000) (h : n.val = o + r.val) :
    v.read Val (v.writes Val f [⟨Rect.unit ![o, 0] S1000x8.size inb, P⟩]) (ValueIdx.ix2 n k) = P (ValueIdx.ix2 r k) :=
  View.read_writes_cons_rows_of_mem v f inb P [] (ValueIdx.ix2 n k) (ValueIdx.ix2 r k) rfl h rfl

/-- A row outside [o, o + 1000) reads what was there. -/
theorem read_tile_of_not_mem (o : Nat) (inb : ∀ a, (![o, 0] : Fin 2 → Nat) a + S1000x8.size a ≤ S10000x8.size a)
    (P : S1000x8.Idx → Val .f32) (n : Fin 10000) (k : Fin 8) (h : n.val < o ∨ o + 1000 ≤ n.val) :
    v.read Val (v.writes Val f [⟨Rect.unit ![o, 0] S1000x8.size inb, P⟩]) (ValueIdx.ix2 n k) = v.read Val f (ValueIdx.ix2 n k) :=
  View.read_writes_cons_rows_of_not_mem v f inb P [] (ValueIdx.ix2 n k) rfl rfl h

/-- The two readings under a guard: the tile is written only when the guard holds. -/
theorem read_guarded_tile_of_not_mem (g : Prop) [Decidable g] (o : Nat)
    (inb : ∀ a, (![o, 0] : Fin 2 → Nat) a + S1000x8.size a ≤ S10000x8.size a)
    (P : S1000x8.Idx → Val .f32) (n : Fin 10000) (k : Fin 8) (h : n.val < o ∨ o + 1000 ≤ n.val) :
    v.read Val (if g then v.writes Val f [⟨Rect.unit ![o, 0] S1000x8.size inb, P⟩] else f) (ValueIdx.ix2 n k)
      = v.read Val f (ValueIdx.ix2 n k) := by
  by_cases hg : g
  · rw [if_pos hg]; exact read_tile_of_not_mem v f o inb P n k h
  · rw [if_neg hg]

theorem read_guarded_tile_of_mem (g : Prop) [Decidable g] (o : Nat)
    (inb : ∀ a, (![o, 0] : Fin 2 → Nat) a + S1000x8.size a ≤ S10000x8.size a)
    (P : S1000x8.Idx → Val .f32) (n : Fin 10000) (k : Fin 8) (r : Fin 1000) (h : n.val = o + r.val) :
    v.read Val (if g then v.writes Val f [⟨Rect.unit ![o, 0] S1000x8.size inb, P⟩] else f) (ValueIdx.ix2 n k)
      = if g then P (ValueIdx.ix2 r k) else v.read Val f (ValueIdx.ix2 n k) := by
  by_cases hg : g
  · rw [if_pos hg, if_pos hg]; exact read_tile_of_mem v f o inb P n k r h
  · rw [if_neg hg, if_neg hg]

/-- The same when the written tile is given with the guard's evidence in hand. -/
theorem read_dguarded_tile_of_not_mem (g : Prop) [Decidable g] (o : Nat)
    (inb : ∀ a, (![o, 0] : Fin 2 → Nat) a + S1000x8.size a ≤ S10000x8.size a)
    (P : g → S1000x8.Idx → Val .f32) (n : Fin 10000) (k : Fin 8) (h : n.val < o ∨ o + 1000 ≤ n.val) :
    v.read Val (if hg : g then v.writes Val f [⟨Rect.unit ![o, 0] S1000x8.size inb, P hg⟩] else f) (ValueIdx.ix2 n k)
      = v.read Val f (ValueIdx.ix2 n k) := by
  by_cases hg : g
  · rw [dif_pos hg]; exact read_tile_of_not_mem v f o inb (P hg) n k h
  · rw [dif_neg hg]

theorem read_dguarded_tile_of_mem (g : Prop) [Decidable g] (o : Nat)
    (inb : ∀ a, (![o, 0] : Fin 2 → Nat) a + S1000x8.size a ≤ S10000x8.size a)
    (P : g → S1000x8.Idx → Val .f32) (n : Fin 10000) (k : Fin 8) (r : Fin 1000) (h : n.val = o + r.val) :
    v.read Val (if hg : g then v.writes Val f [⟨Rect.unit ![o, 0] S1000x8.size inb, P hg⟩] else f) (ValueIdx.ix2 n k)
      = if hg : g then P hg (ValueIdx.ix2 r k) else v.read Val f (ValueIdx.ix2 n k) := by
  by_cases hg : g
  · rw [dif_pos hg, dif_pos hg]; exact read_tile_of_mem v f o inb (P hg) n k r h
  · rw [dif_neg hg, dif_neg hg]

end Layer

/-! ## The guards -/

/-- The tile's guard as the kernel computes it — both signed comparisons hold — is the bracket lo ≤ t ≤ hi. -/
theorem visit_iff (lo hi w : BitVec 32) (t : Int) (hw : w.toInt = t) :
    Scalar.cmpi .ne (Scalar.extui (Scalar.andi (Scalar.cmpi .sle lo w) (Scalar.cmpi .sge hi w))) 0#32 = 1#1
      ↔ lo.toInt ≤ t ∧ t ≤ hi.toInt := by
  have key : ∀ p q : Bool, (BitVec.ofBool (((BitVec.ofBool p &&& BitVec.ofBool q).setWidth 32) != 0#32) = 1#1)
      ↔ (p = true ∧ q = true) := by decide
  show BitVec.ofBool (((BitVec.ofBool (lo.sle w) &&& BitVec.ofBool (w.sle hi)).setWidth 32) != 0#32) = 1#1 ↔ _
  rw [key, BitVec.sle_iff_toInt_le, BitVec.sle_iff_toInt_le, hw]

/-- The first point's test: the grid coordinate's word is zero exactly at coordinate 0. -/
theorem first_iff (c : Nat) (hc : c < 489) :
    Scalar.cmpi .ne (Scalar.extui (Scalar.cmpi .eq (BitVec.ofNat 32 c) 0#32)) 0#32 = 1#1 ↔ c = 0 := by
  have key : ∀ p : Bool, (BitVec.ofBool (((BitVec.ofBool p).setWidth 32) != 0#32) = 1#1) ↔ p = true := by decide
  show BitVec.ofBool (((BitVec.ofBool (BitVec.ofNat 32 c == 0#32)).setWidth 32) != 0#32) = 1#1 ↔ _
  rw [key, beq_iff_eq]
  constructor
  · intro h
    have := congrArg BitVec.toNat h
    rw [BitVec.toNat_ofNat, Nat.mod_eq_of_lt (by omega)] at this
    exact this
  · rintro rfl; rfl

end Cert.KernelIdeal.AccRead

end
-- ==== Proof.AccEval0.lean ====
/-
  The accumulator update of one grid point read tile by tile, generic in the float instance.

  The point first resets the accumulator (at the first grid point) or keeps what it found: the base. Then each of the ten
  node tiles is, under its own guard, overwritten by a value computed from the chunk and from the tile as loaded. The
  tiles are disjoint row ranges, so the tile loaded is the base's tile, and node 1000 t + r reads, after the point, tile
  t's new value at row r when tile t's guard holds and the base otherwise. What the point found enters only through the
  base; at the first grid point the base is zero, so what the accumulator held there does not matter.
-/
import proofs.«400082_j83537113907851_4_alg».proof.Proof.Run0
import proofs.«400082_j83537113907851_4_alg».proof.Proof.AccRead
import Idealize.ShloMosaic.Lib.ValueIdx

set_option maxRecDepth 16384

noncomputable section

namespace Cert.KernelIdeal.AccEval

open Cert.KernelIdeal Cert.KernelIdeal.Gen
open Idealize.ShloMosaic Idealize.ShloMosaic.TcCoe
open Idealize.SL.Sem

variable {F : FTy → Type} [FloatOps F]

/-! ## What the point starts from, and a tile of it -/

/-- The accumulator as the tile updates find it: zero everywhere at the first grid point, what the point found at
    every later one. -/
def base (i : grid0.Coords) (a8 : Vec F S10000x8 .f32) : Vec F S10000x8 .f32 :=
  fun y => if Body.kernelRun0.sl.v2 i = 1#1 then k0_pay5 (F := F) y else a8 y

/-- At the first point what the point found does not enter. -/
theorem base_first (i : grid0.Coords) (a a' : Vec F S10000x8 .f32) (h : Body.kernelRun0.sl.v2 i = 1#1) :
    base i a = base i a' := by
  funext y; unfold base; rw [if_pos h, if_pos h]

/-- Rows [o, o + 1000) of an accumulator-shaped array, as a tile. -/
def tileOf (B : Vec F S10000x8 .f32) (o : Nat) (ho : o + 1000 ≤ 10000) : FVec F S1000x8 .f32 :=
  fun x => B (ValueIdx.ix2 (⟨o + (x 0).val, by have h : (x 0).val < 1000 := (x 0).isLt; omega⟩ : Fin 10000) (x 1))

theorem tileOf_apply (B : Vec F S10000x8 .f32) (o : Nat) (ho : o + 1000 ≤ 10000) (r : Fin 1000) (k : Fin 8)
    (n : Fin 10000) (hn : n.val = o + r.val) : tileOf B o ho (ValueIdx.ix2 r k) = B (ValueIdx.ix2 n k) := by
  have e : (⟨o + r.val, by omega⟩ : Fin 10000) = n := Fin.ext hn.symm
  show B (ValueIdx.ix2 (⟨o + r.val, _⟩ : Fin 10000) k) = _
  rw [e]

section Generic
variable {sig' : RefSig} {κ : Kind} {sp : Space} {Val : EltTy → Type}

/-- Entry (r, k) of the tile of rows [o, o + 1000) sits at row o + r, column k of the accumulator. -/
theorem tile_idx (o : Nat) (inb : ∀ a, (![o, 0] : Fin 2 → Nat) a + S1000x8.size a ≤ S10000x8.size a)
    (r : Fin 1000) (k : Fin 8) (n : Fin 10000) (hn : n.val = o + r.val) :
    (Rect.unit (s := S10000x8) ![o, 0] S1000x8.size inb).toLoadRect.idx (ValueIdx.ix2 r k) = ValueIdx.ix2 n k :=
  funext fun a => Fin.ext (by
    match a with
    | ⟨0, _⟩ => show o + 1 * r.val = n.val; omega
    | ⟨1, _⟩ => show 0 + 1 * k.val = k.val; omega)

/-- A load of that tile reads the contents at those places. -/
theorem readAt_tile (v : View sig' κ sp S10000x8 .f32) (f : v.ty.Contents Val) (o : Nat)
    (inb : ∀ a, (![o, 0] : Fin 2 → Nat) a + S1000x8.size a ≤ S10000x8.size a)
    (r : Fin 1000) (k : Fin 8) (n : Fin 10000) (hn : n.val = o + r.val) :
    v.readAt Val (Rect.unit (s := S10000x8) ![o, 0] S1000x8.size inb).toLoadRect f (ValueIdx.ix2 r k)
      = v.read Val f (ValueIdx.ix2 n k) :=
  congrArg (v.read Val f) (tile_idx o inb r k n hn)

/-- A choice made with the guard's evidence in hand between values that do not use it is the plain choice. -/
theorem dite_ite_congr {α : Type} (g : Prop) [Decidable g] {a a' b b' : α} (ha : a = a') (hb : b = b') :
    (if _hg : g then a else b) = if g then a' else b' := by
  subst ha hb; exact dite_eq_ite

end Generic

/-- The reset, read back: the whole accumulator overwritten under the guard, else what the point found. -/
theorem read_reset {sp : Space} (m : Memref sig .tc sp S10000x8 .f32) (hw : m.IsWhole) (g : Prop) [Decidable g]
    (inb : ∀ a, (![0, 0] : Fin 2 → Nat) a + S10000x8.size a ≤ S10000x8.size a)
    (P : S10000x8.Idx → Elt F .f32) (a8 : Vec F S10000x8 .f32) (y : S10000x8.Idx) :
    m.view.read (Elt F) (if _hc : g then m.view.writes (Elt F) (hw.unread a8) [⟨Rect.unit ![0, 0] S10000x8.size inb, P⟩]
        else hw.unread a8) y = if g then P y else a8 y := by
  by_cases hg : g
  · rw [dif_pos hg, if_pos hg]
    exact View.read_writes_cons_unit_of_mem m.view (hw.unread a8) inb P [] y y rfl
      (Fin.forall_fin_two.mpr ⟨(Nat.zero_add _).symm, (Nat.zero_add _).symm⟩)
  · rw [dif_neg hg, if_neg hg]
    exact congrFun (hw.read_unread a8) y

/-! ## The ten tile updates

Tile t of the accumulator is stored under its guard from a value computed from the chunk and from the tile as it was
loaded; the loaded tile is the base's tile, because the updates of the tiles before it write other rows. Read at node
1000 t + r: the later tiles' stores miss the row, tile t's store holds it when its guard holds, the earlier tiles'
stores miss it, and the reset is read last. -/

section Tiles
variable (c : Dev nD) (i : grid0.Coords)
  (arg1 : Memref sig .tc .smem S489 .i32) (harg1 : arg1.IsWhole) (arg2 : Memref sig .tc .smem S489 .i32) (harg2 : arg2.IsWhole)
  (arg3 : Memref sig .tc .vmem S10000x8 .f32) (harg3 : arg3.IsWhole) (arg4 : Memref sig .tc .vmem S4096 .i32) (harg4 : arg4.IsWhole)
  (arg5 : Memref sig .tc .vmem S4096 .i32) (harg5 : arg5.IsWhole) (arg6 : Memref sig .tc .vmem S4096 .f32) (harg6 : arg6.IsWhole)
  (x1 x2 : Vec F S489 .i32) (x3 : Vec F S10000x8 .f32) (x4 x5 : Vec F S4096 .i32) (x6 : Vec F S4096 .f32)

/-- The guard of tile t, as the run names it. -/
def guardW (t : Fin 10) : BitVec 1 :=
  match t with
  | ⟨0, _⟩ => Body.kernelRun0.sl.v191 c i arg1 harg1 arg2 harg2 x1 x2
  | ⟨1, _⟩ => Body.kernelRun0.sl.v196 c i arg1 harg1 arg2 harg2 x1 x2
  | ⟨2, _⟩ => Body.kernelRun0.sl.v201 c i arg1 harg1 arg2 harg2 x1 x2
  | ⟨3, _⟩ => Body.kernelRun0.sl.v206 c i arg1 harg1 arg2 harg2 x1 x2
  | ⟨4, _⟩ => Body.kernelRun0.sl.v211 c i arg1 harg1 arg2 harg2 x1 x2
  | ⟨5, _⟩ => Body.kernelRun0.sl.v216 c i arg1 harg1 arg2 harg2 x1 x2
  | ⟨6, _⟩ => Body.kernelRun0.sl.v221 c i arg1 harg1 arg2 harg2 x1 x2
  | ⟨7, _⟩ => Body.kernelRun0.sl.v226 c i arg1 harg1 arg2 harg2 x1 x2
  | ⟨8, _⟩ => Body.kernelRun0.sl.v231 c i arg1 harg1 arg2 harg2 x1 x2
  | ⟨9, _⟩ => Body.kernelRun0.sl.v236 c i arg1 harg1 arg2 harg2 x1 x2

/-- What tile t stores, as a function of the tile it loaded. -/
def upd (t : Fin 10) (ld : FVec F S1000x8 .f32) : FVec F S1000x8 .f32 :=
  match t with
  | ⟨0, _⟩ => k0_pay29 (Body.kernelRun0.sl.r_2 c arg6 harg6 x6) (Body.kernelRun0.sl.r_8 c arg3 harg3 arg4 harg4 x3 x4)
      (Body.kernelRun0.sl.v158 c arg4 harg4 x4)
      (View.readAt (Elt F) arg3.view (Rect.unit (s := S10000x8) ![8000, 0] S1000x8.size inb_S10000x8_S1000x8_8000_0).toLoadRect (harg3.unread x3))
      (Body.kernelRun0.sl.v175 c arg4 harg4 x4)
      (View.readAt (Elt F) arg3.view (Rect.unit (s := S10000x8) ![9000, 0] S1000x8.size inb_S10000x8_S1000x8_9000_0).toLoadRect (harg3.unread x3))
      (Body.kernelRun0.sl.v252 c arg4 harg4 arg5 harg5 x4 x5) ld
  | ⟨1, _⟩ => k0_pay31 (Body.kernelRun0.sl.r_12 c arg3 harg3 arg4 harg4 arg6 harg6 x3 x4 x6) (Body.kernelRun0.sl.v252_1 c arg5 harg5 x5) ld
  | ⟨2, _⟩ => k0_pay33 (Body.kernelRun0.sl.r_12 c arg3 harg3 arg4 harg4 arg6 harg6 x3 x4 x6) (Body.kernelRun0.sl.v252_2 c arg5 harg5 x5) ld
  | ⟨3, _⟩ => k0_pay35 (Body.kernelRun0.sl.r_12 c arg3 harg3 arg4 harg4 arg6 harg6 x3 x4 x6) (Body.kernelRun0.sl.v252_3 c arg5 harg5 x5) ld
  | ⟨4, _⟩ => k0_pay37 (Body.kernelRun0.sl.r_12 c arg3 harg3 arg4 harg4 arg6 harg6 x3 x4 x6) (Body.kernelRun0.sl.v252_4 c arg5 harg5 x5) ld
  | ⟨5, _⟩ => k0_pay39 (Body.kernelRun0.sl.r_12 c arg3 harg3 arg4 harg4 arg6 harg6 x3 x4 x6) (Body.kernelRun0.sl.v252_5 c arg5 harg5 x5) ld
  | ⟨6, _⟩ => k0_pay41 (Body.kernelRun0.sl.r_12 c arg3 harg3 arg4 harg4 arg6 harg6 x3 x4 x6) (Body.kernelRun0.sl.v252_6 c arg5 harg5 x5) ld
  | ⟨7, _⟩ => k0_pay43 (Body.kernelRun0.sl.r_12 c arg3 harg3 arg4 harg4 arg6 harg6 x3 x4 x6) (Body.kernelRun0.sl.v252_7 c arg5 harg5 x5) ld
  | ⟨8, _⟩ => k0_pay2 (Body.kernelRun0.sl.r_12 c arg3 harg3 arg4 harg4 arg6 harg6 x3 x4 x6) (Body.kernelRun0.sl.v252_8 c arg5 harg5 x5) ld
  | ⟨9, _⟩ => k0_pay4 (Body.kernelRun0.sl.r_12 c arg3 harg3 arg4 harg4 arg6 harg6 x3 x4 x6) (Body.kernelRun0.sl.v252_9 c arg5 harg5 x5) ld

/-- Tile 0's load is the base's tile 0. -/
theorem ld0 (a8 : Vec F S10000x8 .f32) :
    Body.kernelRun0.sl.v254 (F := F) c i a8 = tileOf (base i a8) 0 (by omega) := by
  funext x
  obtain ⟨r, k, rfl⟩ : ∃ (r : Fin 1000) (k : Fin 8), x = ValueIdx.ix2 r k := ⟨x 0, x 1, ValueIdx.eq_ix2 x⟩
  obtain ⟨n, hn⟩ : ∃ n : Fin 10000, n.val = 0 + r.val := ⟨⟨0 + r.val, by omega⟩, rfl⟩
  rw [tileOf_apply _ 0 _ r k n hn]
  unfold Body.kernelRun0.sl.v254
  refine (readAt_tile _ _ 0 _ r k n hn).trans ?_
  exact read_reset _ _ _ _ _ a8 _

/-- Tile 1's load is the base's tile 1. -/
theorem ld1 (a8 : Vec F S10000x8 .f32) :
    Body.kernelRun0.sl.v254_1 (F := F) c i arg1 harg1 arg2 harg2 arg3 harg3 arg4 harg4 arg5 harg5 arg6 harg6 x1 x2 x3 x4 x5 x6 a8 = tileOf (base i a8) 1000 (by omega) := by
  funext x
  obtain ⟨r, k, rfl⟩ : ∃ (r : Fin 1000) (k : Fin 8), x = ValueIdx.ix2 r k := ⟨x 0, x 1, ValueIdx.eq_ix2 x⟩
  obtain ⟨n, hn⟩ : ∃ n : Fin 10000, n.val = 1000 + r.val := ⟨⟨1000 + r.val, by omega⟩, rfl⟩
  rw [tileOf_apply _ 1000 _ r k n hn]
  unfold Body.kernelRun0.sl.v254_1
  refine (readAt_tile _ _ 1000 _ r k n hn).trans ?_
  refine (AccRead.read_dguarded_tile_of_not_mem _ _ _ 0 _ _ n k (by omega)).trans ?_
  exact read_reset _ _ _ _ _ a8 _

/-- Tile 2's load is the base's tile 2. -/
theorem ld2 (a8 : Vec F S10000x8 .f32) :
    Body.kernelRun0.sl.v254_2 (F := F) c i arg1 harg1 arg2 harg2 arg3 harg3 arg4 harg4 arg5 harg5 arg6 harg6 x1 x2 x3 x4 x5 x6 a8 = tileOf (base i a8) 2000 (by omega) := by
  funext x
  obtain ⟨r, k, rfl⟩ : ∃ (r : Fin 1000) (k : Fin 8), x = ValueIdx.ix2 r k := ⟨x 0, x 1, ValueIdx.eq_ix2 x⟩
  obtain ⟨n, hn⟩ : ∃ n : Fin 10000, n.val = 2000 + r.val := ⟨⟨2000 + r.val, by omega⟩, rfl⟩
  rw [tileOf_apply _ 2000 _ r k n hn]
  unfold Body.kernelRun0.sl.v254_2
  refine (readAt_tile _ _ 2000 _ r k n hn).trans ?_
  refine (AccRead.read_dguarded_tile_of_not_mem _ _ _ 1000 _ _ n k (by omega)).trans ?_
  refine (AccRead.read_dguarded_tile_of_not_mem _ _ _ 0 _ _ n k (by omega)).trans ?_
  exact read_reset _ _ _ _ _ a8 _

/-- Tile 3's load is the base's tile 3. -/
theorem ld3 (a8 : Vec F S10000x8 .f32) :
    Body.kernelRun0.sl.v254_3 (F := F) c i arg1 harg1 arg2 harg2 arg3 harg3 arg4 harg4 arg5 harg5 arg6 harg6 x1 x2 x3 x4 x5 x6 a8 = tileOf (base i a8) 3000 (by omega) := by
  funext x
  obtain ⟨r, k, rfl⟩ : ∃ (r : Fin 1000) (k : Fin 8), x = ValueIdx.ix2 r k := ⟨x 0, x 1, ValueIdx.eq_ix2 x⟩
  obtain ⟨n, hn⟩ : ∃ n : Fin 10000, n.val = 3000 + r.val := ⟨⟨3000 + r.val, by omega⟩, rfl⟩
  rw [tileOf_apply _ 3000 _ r k n hn]
  unfold Body.kernelRun0.sl.v254_3
  refine (readAt_tile _ _ 3000 _ r k n hn).trans ?_
  refine (AccRead.read_dguarded_tile_of_not_mem _ _ _ 2000 _ _ n k (by omega)).trans ?_
  refine (AccRead.read_dguarded_tile_of_not_mem _ _ _ 1000 _ _ n k (by omega)).trans ?_
  refine (AccRead.read_dguarded_tile_of_not_mem _ _ _ 0 _ _ n k (by omega)).trans ?_
  exact read_reset _ _ _ _ _ a8 _

/-- Tile 4's load is the base's tile 4. -/
theorem ld4 (a8 : Vec F S10000x8 .f32) :
    Body.kernelRun0.sl.v254_4 (F := F) c i arg1 harg1 arg2 harg2 arg3 harg3 arg4 harg4 arg5 harg5 arg6 harg6 x1 x2 x3 x4 x5 x6 a8 = tileOf (base i a8) 4000 (by omega) := by
  funext x
  obtain ⟨r, k, rfl⟩ : ∃ (r : Fin 1000) (k : Fin 8), x = ValueIdx.ix2 r k := ⟨x 0, x 1, ValueIdx.eq_ix2 x⟩
  obtain ⟨n, hn⟩ : ∃ n : Fin 10000, n.val = 4000 + r.val := ⟨⟨4000 + r.val, by omega⟩, rfl⟩
  rw [tileOf_apply _ 4000 _ r k n hn]
  unfold Body.kernelRun0.sl.v254_4
  refine (readAt_tile _ _ 4000 _ r k n hn).trans ?_
  refine (AccRead.read_dguarded_tile_of_not_mem _ _ _ 3000 _ _ n k (by omega)).trans ?_
  refine (AccRead.read_dguarded_tile_of_not_mem _ _ _ 2000 _ _ n k (by omega)).trans ?_
  refine (AccRead.read_dguarded_tile_of_not_mem _ _ _ 1000 _ _ n k (by omega)).trans ?_
  refine (AccRead.read_dguarded_tile_of_not_mem _ _ _ 0 _ _ n k (by omega)).trans ?_
  exact read_reset _ _ _ _ _ a8 _

/-- Tile 5's load is the base's tile 5. -/
theorem ld5 (a8 : Vec F S10000x8 .f32) :
    Body.kernelRun0.sl.v254_5 (F := F) c i arg1 harg1 arg2 harg2 arg3 harg3 arg4 harg4 arg5 harg5 arg6 harg6 x1 x2 x3 x4 x5 x6 a8 = tileOf (base i a8) 5000 (by omega) := by
  funext x
  obtain ⟨r, k, rfl⟩ : ∃ (r : Fin 1000) (k : Fin 8), x = ValueIdx.ix2 r k := ⟨x 0, x 1, ValueIdx.eq_ix2 x⟩
  obtain ⟨n, hn⟩ : ∃ n : Fin 10000, n.val = 5000 + r.val := ⟨⟨5000 + r.val, by omega⟩, rfl⟩
  rw [tileOf_apply _ 5000 _ r k n hn]
  unfold Body.kernelRun0.sl.v254_5
  refine (readAt_tile _ _ 5000 _ r k n hn).trans ?_
  refine (AccRead.read_dguarded_tile_of_not_mem _ _ _ 4000 _ _ n k (by omega)).trans ?_
  refine (AccRead.read_dguarded_tile_of_not_mem _ _ _ 3000 _ _ n k (by omega)).trans ?_
  refine (AccRead.read_dguarded_tile_of_not_mem _ _ _ 2000 _ _ n k (by omega)).trans ?_
  refine (AccRead.read_dguarded_tile_of_not_mem _ _ _ 1000 _ _ n k (by omega)).trans ?_
  refine (AccRead.read_dguarded_tile_of_not_mem _ _ _ 0 _ _ n k (by omega)).trans ?_
  exact read_reset _ _ _ _ _ a8 _

/-- Tile 6's load is the base's tile 6. -/
theorem ld6 (a8 : Vec F S10000x8 .f32) :
    Body.kernelRun0.sl.v254_6 (F := F) c i arg1 harg1 arg2 harg2 arg3 harg3 arg4 harg4 arg5 harg5 arg6 harg6 x1 x2 x3 x4 x5 x6 a8 = tileOf (base i a8) 6000 (by omega) := by
  funext x
  obtain ⟨r, k, rfl⟩ : ∃ (r : Fin 1000) (k : Fin 8), x = ValueIdx.ix2 r k := ⟨x 0, x 1, ValueIdx.eq_ix2 x⟩
  obtain ⟨n, hn⟩ : ∃ n : Fin 10000, n.val = 6000 + r.val := ⟨⟨6000 + r.val, by omega⟩, rfl⟩
  rw [tileOf_apply _ 6000 _ r k n hn]
  unfold Body.kernelRun0.sl.v254_6
  refine (readAt_tile _ _ 6000 _ r k n hn).trans ?_
  refine (AccRead.read_dguarded_tile_of_not_mem _ _ _ 5000 _ _ n k (by omega)).trans ?_
  refine (AccRead.read_dguarded_tile_of_not_mem _ _ _ 4000 _ _ n k (by omega)).trans ?_
  refine (AccRead.read_dguarded_tile_of_not_mem _ _ _ 3000 _ _ n k (by omega)).trans ?_
  refine (AccRead.read_dguarded_tile_of_not_mem _ _ _ 2000 _ _ n k (by omega)).trans ?_
  refine (AccRead.read_dguarded_tile_of_not_mem _ _ _ 1000 _ _ n k (by omega)).trans ?_
  refine (AccRead.read_dguarded_tile_of_not_mem _ _ _ 0 _ _ n k (by omega)).trans ?_
  exact read_reset _ _ _ _ _ a8 _

/-- Tile 7's load is the base's tile 7. -/
theorem ld7 (a8 : Vec F S10000x8 .f32) :
    Body.kernelRun0.sl.v254_7 (F := F) c i arg1 harg1 arg2 harg2 arg3 harg3 arg4 harg4 arg5 harg5 arg6 harg6 x1 x2 x3 x4 x5 x6 a8 = tileOf (base i a8) 7000 (by omega) := by
  funext x
  obtain ⟨r, k, rfl⟩ : ∃ (r : Fin 1000) (k : Fin 8), x = ValueIdx.ix2 r k := ⟨x 0, x 1, ValueIdx.eq_ix2 x⟩
  obtain ⟨n, hn⟩ : ∃ n : Fin 10000, n.val = 7000 + r.val := ⟨⟨7000 + r.val, by omega⟩, rfl⟩
  rw [tileOf_apply _ 7000 _ r k n hn]
  unfold Body.kernelRun0.sl.v254_7
  refine (readAt_tile _ _ 7000 _ r k n hn).trans ?_
  refine (AccRead.read_dguarded_tile_of_not_mem _ _ _ 6000 _ _ n k (by omega)).trans ?_
  refine (AccRead.read_dguarded_tile_of_not_mem _ _ _ 5000 _ _ n k (by omega)).trans ?_
  refine (AccRead.read_dguarded_tile_of_not_mem _ _ _ 4000 _ _ n k (by omega)).trans ?_
  refine (AccRead.read_dguarded_tile_of_not_mem _ _ _ 3000 _ _ n k (by omega)).trans ?_
  refine (AccRead.read_dguarded_tile_of_not_mem _ _ _ 2000 _ _ n k (by omega)).trans ?_
  refine (AccRead.read_dguarded_tile_of_not_mem _ _ _ 1000 _ _ n k (by omega)).trans ?_
  refine (AccRead.read_dguarded_tile_of_not_mem _ _ _ 0 _ _ n k (by omega)).trans ?_
  exact read_reset _ _ _ _ _ a8 _

/-- Tile 8's load is the base's tile 8. -/
theorem ld8 (a8 : Vec F S10000x8 .f32) :
    Body.kernelRun0.sl.v254_8 (F := F) c i arg1 harg1 arg2 harg2 arg3 harg3 arg4 harg4 arg5 harg5 arg6 harg6 x1 x2 x3 x4 x5 x6 a8 = tileOf (base i a8) 8000 (by omega) := by
  funext x
  obtain ⟨r, k, rfl⟩ : ∃ (r : Fin 1000) (k : Fin 8), x = ValueIdx.ix2 r k := ⟨x 0, x 1, ValueIdx.eq_ix2 x⟩
  obtain ⟨n, hn⟩ : ∃ n : Fin 10000, n.val = 8000 + r.val := ⟨⟨8000 + r.val, by omega⟩, rfl⟩
  rw [tileOf_apply _ 8000 _ r k n hn]
  unfold Body.kernelRun0.sl.v254_8
  refine (readAt_tile _ _ 8000 _ r k n hn).trans ?_
  refine (AccRead.read_dguarded_tile_of_not_mem _ _ _ 7000 _ _ n k (by omega)).trans ?_
  refine (AccRead.read_dguarded_tile_of_not_mem _ _ _ 6000 _ _ n k (by omega)).trans ?_
  refine (AccRead.read_dguarded_tile_of_not_mem _ _ _ 5000 _ _ n k (by omega)).trans ?_
  refine (AccRead.read_dguarded_tile_of_not_mem _ _ _ 4000 _ _ n k (by omega)).trans ?_
  refine (AccRead.read_dguarded_tile_of_not_mem _ _ _ 3000 _ _ n k (by omega)).trans ?_
  refine (AccRead.read_dguarded_tile_of_not_mem _ _ _ 2000 _ _ n k (by omega)).trans ?_
  refine (AccRead.read_dguarded_tile_of_not_mem _ _ _ 1000 _ _ n k (by omega)).trans ?_
  refine (AccRead.read_dguarded_tile_of_not_mem _ _ _ 0 _ _ n k (by omega)).trans ?_
  exact read_reset _ _ _ _ _ a8 _

/-- Tile 9's load is the base's tile 9. -/
theorem ld9 (a8 : Vec F S10000x8 .f32) :
    Body.kernelRun0.sl.v254_9 (F := F) c i arg1 harg1 arg2 harg2 arg3 harg3 arg4 harg4 arg5 harg5 arg6 harg6 x1 x2 x3 x4 x5 x6 a8 = tileOf (base i a8) 9000 (by omega) := by
  funext x
  obtain ⟨r, k, rfl⟩ : ∃ (r : Fin 1000) (k : Fin 8), x = ValueIdx.ix2 r k := ⟨x 0, x 1, ValueIdx.eq_ix2 x⟩
  obtain ⟨n, hn⟩ : ∃ n : Fin 10000, n.val = 9000 + r.val := ⟨⟨9000 + r.val, by omega⟩, rfl⟩
  rw [tileOf_apply _ 9000 _ r k n hn]
  unfold Body.kernelRun0.sl.v254_9
  refine (readAt_tile _ _ 9000 _ r k n hn).trans ?_
  refine (AccRead.read_dguarded_tile_of_not_mem _ _ _ 8000 _ _ n k (by omega)).trans ?_
  refine (AccRead.read_dguarded_tile_of_not_mem _ _ _ 7000 _ _ n k (by omega)).trans ?_
  refine (AccRead.read_dguarded_tile_of_not_mem _ _ _ 6000 _ _ n k (by omega)).trans ?_
  refine (AccRead.read_dguarded_tile_of_not_mem _ _ _ 5000 _ _ n k (by omega)).trans ?_
  refine (AccRead.read_dguarded_tile_of_not_mem _ _ _ 4000 _ _ n k (by omega)).trans ?_
  refine (AccRead.read_dguarded_tile_of_not_mem _ _ _ 3000 _ _ n k (by omega)).trans ?_
  refine (AccRead.read_dguarded_tile_of_not_mem _ _ _ 2000 _ _ n k (by omega)).trans ?_
  refine (AccRead.read_dguarded_tile_of_not_mem _ _ _ 1000 _ _ n k (by omega)).trans ?_
  refine (AccRead.read_dguarded_tile_of_not_mem _ _ _ 0 _ _ n k (by omega)).trans ?_
  exact read_reset _ _ _ _ _ a8 _

/-- Node 0 + r, column k after the point. -/
theorem acc_tile0 (xi7 a8 : Vec F S10000x8 .f32) (r : Fin 1000) (k : Fin 8) (n : Fin 10000) (hn : n.val = 0 + r.val) :
    (Body.m8_0).view.read (Elt F)
        (Body.kernelRun0 c i arg1 harg1 arg2 harg2 arg3 harg3 arg4 harg4 arg5 harg5 arg6 harg6 x1 x2 x3 x4 x5 x6 xi7 a8).2.1 (ValueIdx.ix2 n k)
      = if Body.kernelRun0.sl.v191 c i arg1 harg1 arg2 harg2 x1 x2 = 1#1 then
          upd c arg3 harg3 arg4 harg4 arg5 harg5 arg6 harg6 x3 x4 x5 x6 ⟨0, by omega⟩ (tileOf (base i a8) 0 (by omega)) (ValueIdx.ix2 r k)
        else base i a8 (ValueIdx.ix2 n k) := by
  unfold Body.kernelRun0
  dsimp only
  refine (AccRead.read_dguarded_tile_of_not_mem _ _ _ 9000 _ _ n k (by omega)).trans ?_
  refine (AccRead.read_dguarded_tile_of_not_mem _ _ _ 8000 _ _ n k (by omega)).trans ?_
  refine (AccRead.read_dguarded_tile_of_not_mem _ _ _ 7000 _ _ n k (by omega)).trans ?_
  refine (AccRead.read_dguarded_tile_of_not_mem _ _ _ 6000 _ _ n k (by omega)).trans ?_
  refine (AccRead.read_dguarded_tile_of_not_mem _ _ _ 5000 _ _ n k (by omega)).trans ?_
  refine (AccRead.read_dguarded_tile_of_not_mem _ _ _ 4000 _ _ n k (by omega)).trans ?_
  refine (AccRead.read_dguarded_tile_of_not_mem _ _ _ 3000 _ _ n k (by omega)).trans ?_
  refine (AccRead.read_dguarded_tile_of_not_mem _ _ _ 2000 _ _ n k (by omega)).trans ?_
  refine (AccRead.read_dguarded_tile_of_not_mem _ _ _ 1000 _ _ n k (by omega)).trans ?_
  refine (AccRead.read_dguarded_tile_of_mem _ _ _ 0 _ _ n k r hn).trans ?_
  refine dite_ite_congr _ ?_ ?_
  · rw [ld0]; rfl
  · exact read_reset _ _ _ _ _ a8 _

/-- Node 1000 + r, column k after the point. -/
theorem acc_tile1 (xi7 a8 : Vec F S10000x8 .f32) (r : Fin 1000) (k : Fin 8) (n : Fin 10000) (hn : n.val = 1000 + r.val) :
    (Body.m8_0).view.read (Elt F)
        (Body.kernelRun0 c i arg1 harg1 arg2 harg2 arg3 harg3 arg4 harg4 arg5 harg5 arg6 harg6 x1 x2 x3 x4 x5 x6 xi7 a8).2.1 (ValueIdx.ix2 n k)
      = if Body.kernelRun0.sl.v196 c i arg1 harg1 arg2 harg2 x1 x2 = 1#1 then
          upd c arg3 harg3 arg4 harg4 arg5 harg5 arg6 harg6 x3 x4 x5 x6 ⟨1, by omega⟩ (tileOf (base i a8) 1000 (by omega)) (ValueIdx.ix2 r k)
        else base i a8 (ValueIdx.ix2 n k) := by
  unfold Body.kernelRun0
  dsimp only
  refine (AccRead.read_dguarded_tile_of_not_mem _ _ _ 9000 _ _ n k (by omega)).trans ?_
  refine (AccRead.read_dguarded_tile_of_not_mem _ _ _ 8000 _ _ n k (by omega)).trans ?_
  refine (AccRead.read_dguarded_tile_of_not_mem _ _ _ 7000 _ _ n k (by omega)).trans ?_
  refine (AccRead.read_dguarded_tile_of_not_mem _ _ _ 6000 _ _ n k (by omega)).trans ?_
  refine (AccRead.read_dguarded_tile_of_not_mem _ _ _ 5000 _ _ n k (by omega)).trans ?_
  refine (AccRead.read_dguarded_tile_of_not_mem _ _ _ 4000 _ _ n k (by omega)).trans ?_
  refine (AccRead.read_dguarded_tile_of_not_mem _ _ _ 3000 _ _ n k (by omega)).trans ?_
  refine (AccRead.read_dguarded_tile_of_not_mem _ _ _ 2000 _ _ n k (by omega)).trans ?_
  refine (AccRead.read_dguarded_tile_of_mem _ _ _ 1000 _ _ n k r hn).trans ?_
  refine dite_ite_congr _ ?_ ?_
  · rw [ld1]; rfl
  · refine (AccRead.read_dguarded_tile_of_not_mem _ _ _ 0 _ _ n k (by omega)).trans ?_
    exact read_reset _ _ _ _ _ a8 _

/-- Node 2000 + r, column k after the point. -/
theorem acc_tile2 (xi7 a8 : Vec F S10000x8 .f32) (r : Fin 1000) (k : Fin 8) (n : Fin 10000) (hn : n.val = 2000 + r.val) :
    (Body.m8_0).view.read (Elt F)
        (Body.kernelRun0 c i arg1 harg1 arg2 harg2 arg3 harg3 arg4 harg4 arg5 harg5 arg6 harg6 x1 x2 x3 x4 x5 x6 xi7 a8).2.1 (ValueIdx.ix2 n k)
      = if Body.kernelRun0.sl.v201 c i arg1 harg1 arg2 harg2 x1 x2 = 1#1 then
          upd c arg3 harg3 arg4 harg4 arg5 harg5 arg6 harg6 x3 x4 x5 x6 ⟨2, by omega⟩ (tileOf (base i a8) 2000 (by omega)) (ValueIdx.ix2 r k)
        else base i a8 (ValueIdx.ix2 n k) := by
  unfold Body.kernelRun0
  dsimp only
  refine (AccRead.read_dguarded_tile_of_not_mem _ _ _ 9000 _ _ n k (by omega)).trans ?_
  refine (AccRead.read_dguarded_tile_of_not_mem _ _ _ 8000 _ _ n k (by omega)).trans ?_
  refine (AccRead.read_dguarded_tile_of_not_mem _ _ _ 7000 _ _ n k (by omega)).trans ?_
  refine (AccRead.read_dguarded_tile_of_not_mem _ _ _ 6000 _ _ n k (by omega)).trans ?_
  refine (AccRead.read_dguarded_tile_of_not_mem _ _ _ 5000 _ _ n k (by omega)).trans ?_
  refine (AccRead.read_dguarded_tile_of_not_mem _ _ _ 4000 _ _ n k (by omega)).trans ?_
  refine (AccRead.read_dguarded_tile_of_not_mem _ _ _ 3000 _ _ n k (by omega)).trans ?_
  refine (AccRead.read_dguarded_tile_of_mem _ _ _ 2000 _ _ n k r hn).trans ?_
  refine dite_ite_congr _ ?_ ?_
  · rw [ld2]; rfl
  · refine (AccRead.read_dguarded_tile_of_not_mem _ _ _ 1000 _ _ n k (by omega)).trans ?_
    refine (AccRead.read_dguarded_tile_of_not_mem _ _ _ 0 _ _ n k (by omega)).trans ?_
    exact read_reset _ _ _ _ _ a8 _

/-- Node 3000 + r, column k after the point. -/
theorem acc_tile3 (xi7 a8 : Vec F S10000x8 .f32) (r : Fin 1000) (k : Fin 8) (n : Fin 10000) (hn : n.val = 3000 + r.val) :
    (Body.m8_0).view.read (Elt F)
        (Body.kernelRun0 c i arg1 harg1 arg2 harg2 arg3 harg3 arg4 harg4 arg5 harg5 arg6 harg6 x1 x2 x3 x4 x5 x6 xi7 a8).2.1 (ValueIdx.ix2 n k)
      = if Body.kernelRun0.sl.v206 c i arg1 harg1 arg2 harg2 x1 x2 = 1#1 then
          upd c arg3 harg3 arg4 harg4 arg5 harg5 arg6 harg6 x3 x4 x5 x6 ⟨3, by omega⟩ (tileOf (base i a8) 3000 (by omega)) (ValueIdx.ix2 r k)
        else base i a8 (ValueIdx.ix2 n k) := by
  unfold Body.kernelRun0
  dsimp only
  refine (AccRead.read_dguarded_tile_of_not_mem _ _ _ 9000 _ _ n k (by omega)).trans ?_
  refine (AccRead.read_dguarded_tile_of_not_mem _ _ _ 8000 _ _ n k (by omega)).trans ?_
  refine (AccRead.read_dguarded_tile_of_not_mem _ _ _ 7000 _ _ n k (by omega)).trans ?_
  refine (AccRead.read_dguarded_tile_of_not_mem _ _ _ 6000 _ _ n k (by omega)).trans ?_
  refine (AccRead.read_dguarded_tile_of_not_mem _ _ _ 5000 _ _ n k (by omega)).trans ?_
  refine (AccRead.read_dguarded_tile_of_not_mem _ _ _ 4000 _ _ n k (by omega)).trans ?_
  refine (AccRead.read_dguarded_tile_of_mem _ _ _ 3000 _ _ n k r hn).trans ?_
  refine dite_ite_congr _ ?_ ?_
  · rw [ld3]; rfl
  · refine (AccRead.read_dguarded_tile_of_not_mem _ _ _ 2000 _ _ n k (by omega)).trans ?_
    refine (AccRead.read_dguarded_tile_of_not_mem _ _ _ 1000 _ _ n k (by omega)).trans ?_
    refine (AccRead.read_dguarded_tile_of_not_mem _ _ _ 0 _ _ n k (by omega)).trans ?_
    exact read_reset _ _ _ _ _ a8 _

/-- Node 4000 + r, column k after the point. -/
theorem acc_tile4 (xi7 a8 : Vec F S10000x8 .f32) (r : Fin 1000) (k : Fin 8) (n : Fin 10000) (hn : n.val = 4000 + r.val) :
    (Body.m8_0).view.read (Elt F)
        (Body.kernelRun0 c i arg1 harg1 arg2 harg2 arg3 harg3 arg4 harg4 arg5 harg5 arg6 harg6 x1 x2 x3 x4 x5 x6 xi7 a8).2.1 (ValueIdx.ix2 n k)
      = if Body.kernelRun0.sl.v211 c i arg1 harg1 arg2 harg2 x1 x2 = 1#1 then
          upd c arg3 harg3 arg4 harg4 arg5 harg5 arg6 harg6 x3 x4 x5 x6 ⟨4, by omega⟩ (tileOf (base i a8) 4000 (by omega)) (ValueIdx.ix2 r k)
        else base i a8 (ValueIdx.ix2 n k) := by
  unfold Body.kernelRun0
  dsimp only
  refine (AccRead.read_dguarded_tile_of_not_mem _ _ _ 9000 _ _ n k (by omega)).trans ?_
  refine (AccRead.read_dguarded_tile_of_not_mem _ _ _ 8000 _ _ n k (by omega)).trans ?_
  refine (AccRead.read_dguarded_tile_of_not_mem _ _ _ 7000 _ _ n k (by omega)).trans ?_
  refine (AccRead.read_dguarded_tile_of_not_mem _ _ _ 6000 _ _ n k (by omega)).trans ?_
  refine (AccRead.read_dguarded_tile_of_not_mem _ _ _ 5000 _ _ n k (by omega)).trans ?_
  refine (AccRead.read_dguarded_tile_of_mem _ _ _ 4000 _ _ n k r hn).trans ?_
  refine dite_ite_congr _ ?_ ?_
  · rw [ld4]; rfl
  · refine (AccRead.read_dguarded_tile_of_not_mem _ _ _ 3000 _ _ n k (by omega)).trans ?_
    refine (AccRead.read_dguarded_tile_of_not_mem _ _ _ 2000 _ _ n k (by omega)).trans ?_
    refine (AccRead.read_dguarded_tile_of_not_mem _ _ _ 1000 _ _ n k (by omega)).trans ?_
    refine (AccRead.read_dguarded_tile_of_not_mem _ _ _ 0 _ _ n k (by omega)).trans ?_
    exact read_reset _ _ _ _ _ a8 _

/-- Node 5000 + r, column k after the point. -/
theorem acc_tile5 (xi7 a8 : Vec F S10000x8 .f32) (r : Fin 1000) (k : Fin 8) (n : Fin 10000) (hn : n.val = 5000 + r.val) :
    (Body.m8_0).view.read (Elt F)
        (Body.kernelRun0 c i arg1 harg1 arg2 harg2 arg3 harg3 arg4 harg4 arg5 harg5 arg6 harg6 x1 x2 x3 x4 x5 x6 xi7 a8).2.1 (ValueIdx.ix2 n k)
      = if Body.kernelRun0.sl.v216 c i arg1 harg1 arg2 harg2 x1 x2 = 1#1 then
          upd c arg3 harg3 arg4 harg4 arg5 harg5 arg6 harg6 x3 x4 x5 x6 ⟨5, by omega⟩ (tileOf (base i a8) 5000 (by omega)) (ValueIdx.ix2 r k)
        else base i a8 (ValueIdx.ix2 n k) := by
  unfold Body.kernelRun0
  dsimp only
  refine (AccRead.read_dguarded_tile_of_not_mem _ _ _ 9000 _ _ n k (by omega)).trans ?_
  refine (AccRead.read_dguarded_tile_of_not_mem _ _ _ 8000 _ _ n k (by omega)).trans ?_
  refine (AccRead.read_dguarded_tile_of_not_mem _ _ _ 7000 _ _ n k (by omega)).trans ?_
  refine (AccRead.read_dguarded_tile_of_not_mem _ _ _ 6000 _ _ n k (by omega)).trans ?_
  refine (AccRead.read_dguarded_tile_of_mem _ _ _ 5000 _ _ n k r hn).trans ?_
  refine dite_ite_congr _ ?_ ?_
  · rw [ld5]; rfl
  · refine (AccRead.read_dguarded_tile_of_not_mem _ _ _ 4000 _ _ n k (by omega)).trans ?_
    refine (AccRead.read_dguarded_tile_of_not_mem _ _ _ 3000 _ _ n k (by omega)).trans ?_
    refine (AccRead.read_dguarded_tile_of_not_mem _ _ _ 2000 _ _ n k (by omega)).trans ?_
    refine (AccRead.read_dguarded_tile_of_not_mem _ _ _ 1000 _ _ n k (by omega)).trans ?_
    refine (AccRead.read_dguarded_tile_of_not_mem _ _ _ 0 _ _ n k (by omega)).trans ?_
    exact read_reset _ _ _ _ _ a8 _

/-- Node 6000 + r, column k after the point. -/
theorem acc_tile6 (xi7 a8 : Vec F S10000x8 .f32) (r : Fin 1000) (k : Fin 8) (n : Fin 10000) (hn : n.val = 6000 + r.val) :
    (Body.m8_0).view.read (Elt F)
        (Body.kernelRun0 c i arg1 harg1 arg2 harg2 arg3 harg3 arg4 harg4 arg5 harg5 arg6 harg6 x1 x2 x3 x4 x5 x6 xi7 a8).2.1 (ValueIdx.ix2 n k)
      = if Body.kernelRun0.sl.v221 c i arg1 harg1 arg2 harg2 x1 x2 = 1#1 then
          upd c arg3 harg3 arg4 harg4 arg5 harg5 arg6 harg6 x3 x4 x5 x6 ⟨6, by omega⟩ (tileOf (base i a8) 6000 (by omega)) (ValueIdx.ix2 r k)
        else base i a8 (ValueIdx.ix2 n k) := by
  unfold Body.kernelRun0
  dsimp only
  refine (AccRead.read_dguarded_tile_of_not_mem _ _ _ 9000 _ _ n k (by omega)).trans ?_
  refine (AccRead.read_dguarded_tile_of_not_mem _ _ _ 8000 _ _ n k (by omega)).trans ?_
  refine (AccRead.read_dguarded_tile_of_not_mem _ _ _ 7000 _ _ n k (by omega)).trans ?_
  refine (AccRead.read_dguarded_tile_of_mem _ _ _ 6000 _ _ n k r hn).trans ?_
  refine dite_ite_congr _ ?_ ?_
  · rw [ld6]; rfl
  · refine (AccRead.read_dguarded_tile_of_not_mem _ _ _ 5000 _ _ n k (by omega)).trans ?_
    refine (AccRead.read_dguarded_tile_of_not_mem _ _ _ 4000 _ _ n k (by omega)).trans ?_
    refine (AccRead.read_dguarded_tile_of_not_mem _ _ _ 3000 _ _ n k (by omega)).trans ?_
    refine (AccRead.read_dguarded_tile_of_not_mem _ _ _ 2000 _ _ n k (by omega)).trans ?_
    refine (AccRead.read_dguarded_tile_of_not_mem _ _ _ 1000 _ _ n k (by omega)).trans ?_
    refine (AccRead.read_dguarded_tile_of_not_mem _ _ _ 0 _ _ n k (by omega)).trans ?_
    exact read_reset _ _ _ _ _ a8 _

/-- Node 7000 + r, column k after the point. -/
theorem acc_tile7 (xi7 a8 : Vec F S10000x8 .f32) (r : Fin 1000) (k : Fin 8) (n : Fin 10000) (hn : n.val = 7000 + r.val) :
    (Body.m8_0).view.read (Elt F)
        (Body.kernelRun0 c i arg1 harg1 arg2 harg2 arg3 harg3 arg4 harg4 arg5 harg5 arg6 harg6 x1 x2 x3 x4 x5 x6 xi7 a8).2.1 (ValueIdx.ix2 n k)
      = if Body.kernelRun0.sl.v226 c i arg1 harg1 arg2 harg2 x1 x2 = 1#1 then
          upd c arg3 harg3 arg4 harg4 arg5 harg5 arg6 harg6 x3 x4 x5 x6 ⟨7, by omega⟩ (tileOf (base i a8) 7000 (by omega)) (ValueIdx.ix2 r k)
        else base i a8 (ValueIdx.ix2 n k) := by
  unfold Body.kernelRun0
  dsimp only
  refine (AccRead.read_dguarded_tile_of_not_mem _ _ _ 9000 _ _ n k (by omega)).trans ?_
  refine (AccRead.read_dguarded_tile_of_not_mem _ _ _ 8000 _ _ n k (by omega)).trans ?_
  refine (AccRead.read_dguarded_tile_of_mem _ _ _ 7000 _ _ n k r hn).trans ?_
  refine dite_ite_congr _ ?_ ?_
  · rw [ld7]; rfl
  · refine (AccRead.read_dguarded_tile_of_not_mem _ _ _ 6000 _ _ n k (by omega)).trans ?_
    refine (AccRead.read_dguarded_tile_of_not_mem _ _ _ 5000 _ _ n k (by omega)).trans ?_
    refine (AccRead.read_dguarded_tile_of_not_mem _ _ _ 4000 _ _ n k (by omega)).trans ?_
    refine (AccRead.read_dguarded_tile_of_not_mem _ _ _ 3000 _ _ n k (by omega)).trans ?_
    refine (AccRead.read_dguarded_tile_of_not_mem _ _ _ 2000 _ _ n k (by omega)).trans ?_
    refine (AccRead.read_dguarded_tile_of_not_mem _ _ _ 1000 _ _ n k (by omega)).trans ?_
    refine (AccRead.read_dguarded_tile_of_not_mem _ _ _ 0 _ _ n k (by omega)).trans ?_
    exact read_reset _ _ _ _ _ a8 _

/-- Node 8000 + r, column k after the point. -/
theorem acc_tile8 (xi7 a8 : Vec F S10000x8 .f32) (r : Fin 1000) (k : Fin 8) (n : Fin 10000) (hn : n.val = 8000 + r.val) :
    (Body.m8_0).view.read (Elt F)
        (Body.kernelRun0 c i arg1 harg1 arg2 harg2 arg3 harg3 arg4 harg4 arg5 harg5 arg6 harg6 x1 x2 x3 x4 x5 x6 xi7 a8).2.1 (ValueIdx.ix2 n k)
      = if Body.kernelRun0.sl.v231 c i arg1 harg1 arg2 harg2 x1 x2 = 1#1 then
          upd c arg3 harg3 arg4 harg4 arg5 harg5 arg6 harg6 x3 x4 x5 x6 ⟨8, by omega⟩ (tileOf (base i a8) 8000 (by omega)) (ValueIdx.ix2 r k)
        else base i a8 (ValueIdx.ix2 n k) := by
  unfold Body.kernelRun0
  dsimp only
  refine (AccRead.read_dguarded_tile_of_not_mem _ _ _ 9000 _ _ n k (by omega)).trans ?_
  refine (AccRead.read_dguarded_tile_of_mem _ _ _ 8000 _ _ n k r hn).trans ?_
  refine dite_ite_congr _ ?_ ?_
  · rw [ld8]; rfl
  · refine (AccRead.read_dguarded_tile_of_not_mem _ _ _ 7000 _ _ n k (by omega)).trans ?_
    refine (AccRead.read_dguarded_tile_of_not_mem _ _ _ 6000 _ _ n k (by omega)).trans ?_
    refine (AccRead.read_dguarded_tile_of_not_mem _ _ _ 5000 _ _ n k (by omega)).trans ?_
    refine (AccRead.read_dguarded_tile_of_not_mem _ _ _ 4000 _ _ n k (by omega)).trans ?_
    refine (AccRead.read_dguarded_tile_of_not_mem _ _ _ 3000 _ _ n k (by omega)).trans ?_
    refine (AccRead.read_dguarded_tile_of_not_mem _ _ _ 2000 _ _ n k (by omega)).trans ?_
    refine (AccRead.read_dguarded_tile_of_not_mem _ _ _ 1000 _ _ n k (by omega)).trans ?_
    refine (AccRead.read_dguarded_tile_of_not_mem _ _ _ 0 _ _ n k (by omega)).trans ?_
    exact read_reset _ _ _ _ _ a8 _

/-- Node 9000 + r, column k after the point. -/
theorem acc_tile9 (xi7 a8 : Vec F S10000x8 .f32) (r : Fin 1000) (k : Fin 8) (n : Fin 10000) (hn : n.val = 9000 + r.val) :
    (Body.m8_0).view.read (Elt F)
        (Body.kernelRun0 c i arg1 harg1 arg2 harg2 arg3 harg3 arg4 harg4 arg5 harg5 arg6 harg6 x1 x2 x3 x4 x5 x6 xi7 a8).2.1 (ValueIdx.ix2 n k)
      = if Body.kernelRun0.sl.v236 c i arg1 harg1 arg2 harg2 x1 x2 = 1#1 then
          upd c arg3 harg3 arg4 harg4 arg5 harg5 arg6 harg6 x3 x4 x5 x6 ⟨9, by omega⟩ (tileOf (base i a8) 9000 (by omega)) (ValueIdx.ix2 r k)
        else base i a8 (ValueIdx.ix2 n k) := by
  unfold Body.kernelRun0
  dsimp only
  refine (AccRead.read_dguarded_tile_of_mem _ _ _ 9000 _ _ n k r hn).trans ?_
  refine dite_ite_congr _ ?_ ?_
  · rw [ld9]; rfl
  · refine (AccRead.read_dguarded_tile_of_not_mem _ _ _ 8000 _ _ n k (by omega)).trans ?_
    refine (AccRead.read_dguarded_tile_of_not_mem _ _ _ 7000 _ _ n k (by omega)).trans ?_
    refine (AccRead.read_dguarded_tile_of_not_mem _ _ _ 6000 _ _ n k (by omega)).trans ?_
    refine (AccRead.read_dguarded_tile_of_not_mem _ _ _ 5000 _ _ n k (by omega)).trans ?_
    refine (AccRead.read_dguarded_tile_of_not_mem _ _ _ 4000 _ _ n k (by omega)).trans ?_
    refine (AccRead.read_dguarded_tile_of_not_mem _ _ _ 3000 _ _ n k (by omega)).trans ?_
    refine (AccRead.read_dguarded_tile_of_not_mem _ _ _ 2000 _ _ n k (by omega)).trans ?_
    refine (AccRead.read_dguarded_tile_of_not_mem _ _ _ 1000 _ _ n k (by omega)).trans ?_
    refine (AccRead.read_dguarded_tile_of_not_mem _ _ _ 0 _ _ n k (by omega)).trans ?_
    exact read_reset _ _ _ _ _ a8 _

/-- Every node at once: node 1000 t + r reads tile t's update of the base's tile under tile t's guard, else the base. -/
theorem acc_tile (t : Fin 10) (xi7 a8 : Vec F S10000x8 .f32) (r : Fin 1000) (k : Fin 8) (n : Fin 10000)
    (hn : n.val = 1000 * t.val + r.val) :
    (Body.m8_0).view.read (Elt F)
        (Body.kernelRun0 c i arg1 harg1 arg2 harg2 arg3 harg3 arg4 harg4 arg5 harg5 arg6 harg6 x1 x2 x3 x4 x5 x6 xi7 a8).2.1 (ValueIdx.ix2 n k)
      = if guardW c i arg1 harg1 arg2 harg2 x1 x2 t = 1#1 then
          upd c arg3 harg3 arg4 harg4 arg5 harg5 arg6 harg6 x3 x4 x5 x6 t (tileOf (base i a8) (1000 * t.val) (by have := t.isLt; omega)) (ValueIdx.ix2 r k)
        else base i a8 (ValueIdx.ix2 n k) := by
  match t with
  | ⟨0, _⟩ => exact acc_tile0 c i arg1 harg1 arg2 harg2 arg3 harg3 arg4 harg4 arg5 harg5 arg6 harg6 x1 x2 x3 x4 x5 x6 xi7 a8 r k n hn
  | ⟨1, _⟩ => exact acc_tile1 c i arg1 harg1 arg2 harg2 arg3 harg3 arg4 harg4 arg5 harg5 arg6 harg6 x1 x2 x3 x4 x5 x6 xi7 a8 r k n hn
  | ⟨2, _⟩ => exact acc_tile2 c i arg1 harg1 arg2 harg2 arg3 harg3 arg4 harg4 arg5 harg5 arg6 harg6 x1 x2 x3 x4 x5 x6 xi7 a8 r k n hn
  | ⟨3, _⟩ => exact acc_tile3 c i arg1 harg1 arg2 harg2 arg3 harg3 arg4 harg4 arg5 harg5 arg6 harg6 x1 x2 x3 x4 x5 x6 xi7 a8 r k n hn
  | ⟨4, _⟩ => exact acc_tile4 c i arg1 harg1 arg2 harg2 arg3 harg3 arg4 harg4 arg5 harg5 arg6 harg6 x1 x2 x3 x4 x5 x6 xi7 a8 r k n hn
  | ⟨5, _⟩ => exact acc_tile5 c i arg1 harg1 arg2 harg2 arg3 harg3 arg4 harg4 arg5 harg5 arg6 harg6 x1 x2 x3 x4 x5 x6 xi7 a8 r k n hn
  | ⟨6, _⟩ => exact acc_tile6 c i arg1 harg1 arg2 harg2 arg3 harg3 arg4 harg4 arg5 harg5 arg6 harg6 x1 x2 x3 x4 x5 x6 xi7 a8 r k n hn
  | ⟨7, _⟩ => exact acc_tile7 c i arg1 harg1 arg2 harg2 arg3 harg3 arg4 harg4 arg5 harg5 arg6 harg6 x1 x2 x3 x4 x5 x6 xi7 a8 r k n hn
  | ⟨8, _⟩ => exact acc_tile8 c i arg1 harg1 arg2 harg2 arg3 harg3 arg4 harg4 arg5 harg5 arg6 harg6 x1 x2 x3 x4 x5 x6 xi7 a8 r k n hn
  | ⟨9, _⟩ => exact acc_tile9 c i arg1 harg1 arg2 harg2 arg3 harg3 arg4 harg4 arg5 harg5 arg6 harg6 x1 x2 x3 x4 x5 x6 xi7 a8 r k n hn

/-- What the point found enters only through the base: at a point whose base is the same for two accumulators the
    whole result is the same. -/
theorem acc_congr_base (xi7 xi7' a a' : Vec F S10000x8 .f32) (h : base i a = base i a') :
    (Body.m8_0).view.read (Elt F) (Body.kernelRun0 c i arg1 harg1 arg2 harg2 arg3 harg3 arg4 harg4 arg5 harg5 arg6 harg6 x1 x2 x3 x4 x5 x6 xi7 a).2.1
      = (Body.m8_0).view.read (Elt F) (Body.kernelRun0 c i arg1 harg1 arg2 harg2 arg3 harg3 arg4 harg4 arg5 harg5 arg6 harg6 x1 x2 x3 x4 x5 x6 xi7' a').2.1 := by
  funext y
  obtain ⟨n, k, rfl⟩ : ∃ (n : Fin 10000) (k : Fin 8), y = ValueIdx.ix2 n k := ⟨y 0, y 1, ValueIdx.eq_ix2 y⟩
  have hn : n.val = 1000 * (⟨n.val / 1000, by have := n.isLt; omega⟩ : Fin 10).val + (⟨n.val % 1000, Nat.mod_lt _ (by omega)⟩ : Fin 1000).val :=
    (Nat.div_add_mod n.val 1000).symm
  rw [acc_tile c i arg1 harg1 arg2 harg2 arg3 harg3 arg4 harg4 arg5 harg5 arg6 harg6 x1 x2 x3 x4 x5 x6 _ xi7 a _ k n hn, acc_tile c i arg1 harg1 arg2 harg2 arg3 harg3 arg4 harg4 arg5 harg5 arg6 harg6 x1 x2 x3 x4 x5 x6 _ xi7' a' _ k n hn, h]

end Tiles

/-! ## The first grid point -/

/-- The reset's guard, as the run names it, is the grid coordinate being zero. -/
theorem first_eq (i : grid0.Coords) : Body.kernelRun0.sl.v2 i = 1#1 ↔ (i 0).val = 0 := by
  sl_unfold_run_names
  exact AccRead.first_iff (i 0).val (i 0).isLt

/-! ## The accumulator the point leaves -/

section Final
variable (c : Dev nD) (i : grid0.Coords)
  (arg1 : Memref sig .tc .smem S489 .i32) (harg1 : arg1.IsWhole) (arg2 : Memref sig .tc .smem S489 .i32) (harg2 : arg2.IsWhole)
  (arg3 : Memref sig .tc .vmem S10000x8 .f32) (harg3 : arg3.IsWhole) (arg4 : Memref sig .tc .vmem S4096 .i32) (harg4 : arg4.IsWhole)
  (arg5 : Memref sig .tc .vmem S4096 .i32) (harg5 : arg5.IsWhole) (arg6 : Memref sig .tc .vmem S4096 .f32) (harg6 : arg6.IsWhole)
  (x1 x2 : Vec F S489 .i32) (x3 : Vec F S10000x8 .f32) (x4 x5 : Vec F S4096 .i32) (x6 : Vec F S4096 .f32)

/-- Node 1000 t + r, column k of the accumulator the point leaves: tile t's update of the base's tile under tile t's
    guard, else the base. -/
theorem acc8_0_tile (a8 : Vec F S10000x8 .f32) (t : Fin 10) (r : Fin 1000) (k : Fin 8) (n : Fin 10000)
    (hn : n.val = 1000 * t.val + r.val) :
    Body.acc8_0 c i arg1 harg1 arg2 harg2 arg3 harg3 arg4 harg4 arg5 harg5 arg6 harg6 x1 x2 x3 x4 x5 x6 a8 (ValueIdx.ix2 n k)
      = if guardW c i arg1 harg1 arg2 harg2 x1 x2 t = 1#1 then
          upd c arg3 harg3 arg4 harg4 arg5 harg5 arg6 harg6 x3 x4 x5 x6 t (tileOf (base i a8) (1000 * t.val) (by have := t.isLt; omega)) (ValueIdx.ix2 r k)
        else base i a8 (ValueIdx.ix2 n k) := by
  show (Body.m8_0).view.read (Elt F) (Body.kernelRun0 c i arg1 harg1 arg2 harg2 arg3 harg3 arg4 harg4 arg5 harg5 arg6 harg6 x1 x2 x3 x4 x5 x6 a8 a8).2.1 (ValueIdx.ix2 n k) = _
  exact acc_tile c i arg1 harg1 arg2 harg2 arg3 harg3 arg4 harg4 arg5 harg5 arg6 harg6 x1 x2 x3 x4 x5 x6 t a8 a8 r k n hn

/-- At the first point the accumulator is reset before it is read: what it held does not matter. -/
theorem acc8_0_first (a a' : Vec F S10000x8 .f32) (h : (i 0).val = 0) :
    Body.acc8_0 c i arg1 harg1 arg2 harg2 arg3 harg3 arg4 harg4 arg5 harg5 arg6 harg6 x1 x2 x3 x4 x5 x6 a = Body.acc8_0 c i arg1 harg1 arg2 harg2 arg3 harg3 arg4 harg4 arg5 harg5 arg6 harg6 x1 x2 x3 x4 x5 x6 a' := by
  show (Body.m8_0).view.read (Elt F) (Body.kernelRun0 c i arg1 harg1 arg2 harg2 arg3 harg3 arg4 harg4 arg5 harg5 arg6 harg6 x1 x2 x3 x4 x5 x6 a a).2.1
    = (Body.m8_0).view.read (Elt F) (Body.kernelRun0 c i arg1 harg1 arg2 harg2 arg3 harg3 arg4 harg4 arg5 harg5 arg6 harg6 x1 x2 x3 x4 x5 x6 a' a').2.1
  exact acc_congr_base c i arg1 harg1 arg2 harg2 arg3 harg3 arg4 harg4 arg5 harg5 arg6 harg6 x1 x2 x3 x4 x5 x6 a a' a a' (base_first i a a' ((first_eq i).mpr h))

end Final

end Cert.KernelIdeal.AccEval

end
-- ==== Proof.Dat0.lean ====
/-
  The first message pass (custom_call 0) as a pipeline on one core: its proof data at the contents `V` the region
  finds in the core's unscoped buffers, and the body obligation.

  The two prefetched tables are read off `V` and held whole through every point. The node states (window 0) are one
  block fetched once; the gather indices, scatter indices and weights (windows 1 to 3) move to a new block of 4096
  entries at every point; each input's buffer holds its block at every point, fetched there or not. The accumulator
  is a scoped buffer carried between points: before point `t + 1` it holds `accAt0 (t + 1)`, the body's update at
  point `t` of `accAt0 t`; before point 0 it holds anything, and the body resets it there before reading it. The
  output block (window 4) is written by the body at the last point only, where it receives the updated accumulator,
  and is written back only there: before, the body hands its buffer back as it found it. So the output array ends
  holding `accAt0 489`, and the input arrays are never written.
-/
import proofs.«400082_j83537113907851_4_alg».proof.Proof.Run0
import proofs.«400082_j83537113907851_4_alg».proof.Proof.AccEval0
import proofs.«400082_j83537113907851_4_alg».proof.Proof.Gen.KernelIdeal.Launch
import Idealize.ShloMosaic.Lib.Pipeline.Frame
import Idealize.ShloMosaic.Lib.Pipeline.FrameBody
import Idealize.ShloMosaic.Lib.Pipeline.Kit
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- core `c`'s unscoped buffers as the region finds them
variable (V : (c : Dev nD) → (b : Ref sig .tc) → Buf (Elt F) ((c : Thread nD τ).loc b))

/-! ## The tables, the grid's points, the windows' blocks -/

/-- The admissible table contents the region runs at: the two tables as core 0 (the only core) holds them at entry.
    The side condition on them is empty. -/
abbrev adm0 : (pcfg0 (F := F)).Adm :=
  ⟨fun | 0 => V 0 main_v40 | 1 => V 0 main_v43 | ⟨_ + 2, h⟩ => absurd h (Nat.not_lt.2 (Nat.le_add_left _ _)), trivial⟩

/-- The two tables at their literal type. -/
abbrev tabA0 : Vec F S489 .i32 := (adm0 V).1 0
abbrev tabB0 : Vec F S489 .i32 := (adm0 V).1 1

/-- The grid has 489 points at any table contents. -/
theorem N0_eq (a : (pcfg0 (F := F)).Adm) : (cfg0 a).N = 489 := N_0

/-- Point number `t` of the grid. -/
abbrev pt0 (t : Nat) (h : t < 489) : Fin (cfg0 (adm0 V)).N := ⟨t, Nat.lt_of_lt_of_eq h (N0_eq (adm0 V)).symm⟩

/-- Window `w`'s block at point `t`, read off its array as the region finds it (`V`). -/
def iblk0 (c : Dev nD) (w : Fin (cfg0 (adm0 V)).W) (t : Fin (cfg0 (adm0 V)).N) :
    (((cfg0 (adm0 V)).win w).xblock ((cfg0 (adm0 V)).grid.coords t)).Idx → Elt F ((cfg0 (adm0 V)).win w).elt :=
  (((cfg0 (adm0 V)).win w).blk t).view.read (Elt F) (V c (Pipeline.arrRef spec0 w))

/-- The four input blocks at their literal types: the node states, and the chunk's gather indices, scatter indices and weights. -/
abbrev xs0 (c : Dev nD) (t : Fin (cfg0 (adm0 V)).N) : Vec F S10000x8 .f32 := iblk0 V c 0 t
abbrev gi0 (c : Dev nD) (t : Fin (cfg0 (adm0 V)).N) : Vec F S4096 .i32 := iblk0 V c 1 t
abbrev si0 (c : Dev nD) (t : Fin (cfg0 (adm0 V)).N) : Vec F S4096 .i32 := iblk0 V c 2 t
abbrev ws0 (c : Dev nD) (t : Fin (cfg0 (adm0 V)).N) : Vec F S4096 .f32 := iblk0 V c 3 t

/-! ## The body's two results, on the memrefs the pipeline calls it with -/

/-- The accumulator after the body at grid coordinates `i`, called with the two tables' whole memrefs and the inputs'
    staging buffers `s0 … s3`, from the values it reads and the accumulator `a8` it found. -/
def accOn0 (c : Dev nD) (i : grid0.Coords) (s0 : Fin 1) (s1 s2 s3 : Fin 2) (x1 x2 : Vec F S489 .i32) (x3 : Vec F S10000x8 .f32)
    (x4 x5 : Vec F S4096 .i32) (x6 : Vec F S4096 .f32) (a8 : Vec F S10000x8 .f32) : Vec F S10000x8 .f32 :=
  Body.acc8_0 c i (Memref.whole main_v40) (Memref.isWhole_whole _) (Memref.whole main_v43) (Memref.isWhole_whole _)
    (stage0_0 s0) (hstage0_0 s0) (stage0_1 s1) (hstage0_1 s1) (stage0_2 s2) (hstage0_2 s2) (stage0_3 s3) (hstage0_3 s3)
    x1 x2 x3 x4 x5 x6 a8

/-- The output block's buffer after the same call, having held `xi7`. -/
def outOn0 (c : Dev nD) (i : grid0.Coords) (s0 : Fin 1) (s1 s2 s3 : Fin 2) (x1 x2 : Vec F S489 .i32) (x3 : Vec F S10000x8 .f32)
    (x4 x5 : Vec F S4096 .i32) (x6 : Vec F S4096 .f32) (xi7 a8 : Vec F S10000x8 .f32) : Vec F S10000x8 .f32 :=
  Body.out7_0 c i (Memref.whole main_v40) (Memref.isWhole_whole _) (Memref.whole main_v43) (Memref.isWhole_whole _)
    (stage0_0 s0) (hstage0_0 s0) (stage0_1 s1) (hstage0_1 s1) (stage0_2 s2) (hstage0_2 s2) (stage0_3 s3) (hstage0_3 s3)
    x1 x2 x3 x4 x5 x6 xi7 a8

/-- Before the last point the body leaves the output block's buffer as it found it; at the last point it copies the
    updated accumulator into it; at the first point the accumulator is reset before it is read. -/
theorem outOn0_idle {c : Dev nD} {i : grid0.Coords} {s0 : Fin 1} {s1 s2 s3 : Fin 2} {x1 x2 : Vec F S489 .i32} {x3 : Vec F S10000x8 .f32}
    {x4 x5 : Vec F S4096 .i32} {x6 : Vec F S4096 .f32} {xi7 a8 : Vec F S10000x8 .f32} (h : ¬ k0_cond12 i = 1#1) :
    outOn0 c i s0 s1 s2 s3 x1 x2 x3 x4 x5 x6 xi7 a8 = xi7 :=
  Body.out7_0_idle _ _ _ _ _ _ _ _ _ _ _ _ _ _ _ _ _ _ _ _ _ _ h
theorem outOn0_last {c : Dev nD} {i : grid0.Coords} {s0 : Fin 1} {s1 s2 s3 : Fin 2} {x1 x2 : Vec F S489 .i32} {x3 : Vec F S10000x8 .f32}
    {x4 x5 : Vec F S4096 .i32} {x6 : Vec F S4096 .f32} {xi7 a8 : Vec F S10000x8 .f32} (h : k0_cond12 i = 1#1) :
    outOn0 c i s0 s1 s2 s3 x1 x2 x3 x4 x5 x6 xi7 a8 = accOn0 c i s0 s1 s2 s3 x1 x2 x3 x4 x5 x6 a8 :=
  Body.out7_0_last _ _ _ _ _ _ _ _ _ _ _ _ _ _ _ _ _ _ _ _ _ _ h
theorem accOn0_first {c : Dev nD} {i : grid0.Coords} {s0 : Fin 1} {s1 s2 s3 : Fin 2} {x1 x2 : Vec F S489 .i32} {x3 : Vec F S10000x8 .f32}
    {x4 x5 : Vec F S4096 .i32} {x6 : Vec F S4096 .f32} (a a' : Vec F S10000x8 .f32) (h : (i 0).val = 0) :
    accOn0 c i s0 s1 s2 s3 x1 x2 x3 x4 x5 x6 a = accOn0 c i s0 s1 s2 s3 x1 x2 x3 x4 x5 x6 a' :=
  AccEval.acc8_0_first _ _ _ _ _ _ _ _ _ _ _ _ _ _ _ _ _ _ _ _ _ _ h

/-! ## The accumulator between points -/

/-- Contents that nothing reads: some contents of a 10000 x 8 buffer. -/
def any0 : Vec F S10000x8 .f32 := fun _ => @Classical.arbitrary (Elt F .f32) (Elt.nonempty F .f32)

/-- The accumulator BEFORE point `t`: anything before point 0 (the body resets it there before reading it); before
    point `t + 1` the body's update at point `t` of what it held before point `t`; unchanged past the grid. -/
def accAt0 (c : Dev nD) : Nat → Vec F S10000x8 .f32
  | 0 => any0
  | t + 1 =>
    if h : t < 489 then
      accOn0 c (grid0.coords (pt0 V t h)) ((cfg0 (adm0 V)).slots (pt0 V t h) 0) ((cfg0 (adm0 V)).slots (pt0 V t h) 1) ((cfg0 (adm0 V)).slots (pt0 V t h) 2) ((cfg0 (adm0 V)).slots (pt0 V t h) 3)
        (tabA0 V) (tabB0 V) (xs0 V c (pt0 V t h)) (gi0 V c (pt0 V t h)) (si0 V c (pt0 V t h)) (ws0 V c (pt0 V t h)) (accAt0 c t)
    else accAt0 c t

/-! ## The invariant between points and the proof data -/

/-- Between points: the two tables held whole at the contents the pipeline runs at; the accumulator at anything before
    point 0 and at `accAt0 t` before a later point `t`; the one-hot scratch at anything; the core's other scoped
    buffers that are no staging buffer of this call, each at some contents; the generator register at some state. -/
def Phi0 (c : Dev nD) (t : Fin ((cfg0 (adm0 V)).N + 1)) : sProp 𝕄 :=
  iprop(Pipeline.prefHeld pre0 c (fun _ => fullShare) (adm0 V).1
    ∗ (if t.val = 0 then iprop(∃ d, owns (c : Thread nD τ) Body.m8_0 fullShare d)
        else owns (c : Thread nD τ) Body.m8_0 fullShare (accAt0 V c t.val))
    ∗ (∃ d, owns (c : Thread nD τ) Body.m9_0 fullShare d)
    ∗ Pipeline.scopedRestBut (Ix := Unit) (Name := ℕ) (U := UR sig nD τ) (Lvl := ℕ) (Val := Elt F) spec0 c [cc0_scratch0, cc0_scratch1]
    ∗ ∃ r, prngReg c r)

/-- The proof data of pipeline 0 on core `c`: the arrays as the region finds them (`V`); after the body at point `t`
    each input's buffer at its block, and the output's buffer at what the body leaves there having found anything
    (consulted at the last point only, where it is the updated accumulator whatever the buffer held); the invariant
    `Phi0`; nothing owed; full shares. -/
def dat0 (c : Dev nD) : Dat τ (Elt F) Unit ℕ (UR sig nD τ) ℕ (cfg0 (adm0 V)) c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outOn0 c (grid0.coords t) ((cfg0 (adm0 V)).slots t 0) ((cfg0 (adm0 V)).slots t 1) ((cfg0 (adm0 V)).slots t 2) ((cfg0 (adm0 V)).slots t 3)
        (tabA0 V) (tabB0 V) (xs0 V c t) (gi0 V c t) (si0 V c t) (ws0 V c t) any0 (accAt0 V c t.val)
  Φ t := Phi0 V c t
  q _ := fullShare
  owed _ := 0

/-- The proof data's arrays are the region-entry contents. -/
theorem A_eq0 (c : Dev nD) (w : Fin (cfg0 (adm0 V)).W) : (dat0 V c).A w = V c (Pipeline.arrRef spec0 w) := by
  dsimp only [dat0]

/-- Nothing is owed between points, every array is held at the full share, and the invariant is `Phi0`. -/
theorem owed0 (c : Dev nD) (t : Fin ((cfg0 (adm0 V)).N + 1)) : (dat0 V c).owed t = 0 := rfl
theorem share0 (c : Dev nD) (w : Fin (cfg0 (adm0 V)).W) : (dat0 V c).q w = fullShare := rfl
theorem Phi_eq0 (c : Dev nD) (t : Fin ((cfg0 (adm0 V)).N + 1)) : (dat0 V c).Φ t = Phi0 V c t := rfl

/-- What the body leaves, window by window. -/
theorem after_xs0 (c : Dev nD) (t : Fin (cfg0 (adm0 V)).N) : (dat0 V c).after 0 t = iblk0 V c 0 t := rfl
theorem after_gi0 (c : Dev nD) (t : Fin (cfg0 (adm0 V)).N) : (dat0 V c).after 1 t = iblk0 V c 1 t := rfl
theorem after_si0 (c : Dev nD) (t : Fin (cfg0 (adm0 V)).N) : (dat0 V c).after 2 t = iblk0 V c 2 t := rfl
theorem after_ws0 (c : Dev nD) (t : Fin (cfg0 (adm0 V)).N) : (dat0 V c).after 3 t = iblk0 V c 3 t := rfl
theorem after_out0 (c : Dev nD) (t : Fin (cfg0 (adm0 V)).N) :
    (dat0 V c).after 4 t = outOn0 c (grid0.coords t) ((cfg0 (adm0 V)).slots t 0) ((cfg0 (adm0 V)).slots t 1) ((cfg0 (adm0 V)).slots t 2) ((cfg0 (adm0 V)).slots t 3)
      (tabA0 V) (tabB0 V) (xs0 V c t) (gi0 V c t) (si0 V c t) (ws0 V c t) any0 (accAt0 V c t.val) := rfl

/-! ## What the body finds in the inputs' buffers -/

/-- Each input's current staging buffer holds its block at every point, fetched there or not: unfetched, the block
    index has not moved since the fetch, and the body leaves the block in place. No input block is cut and no input
    is idle anywhere. -/
theorem before_xs0 (c : Dev nD) (t : Fin (cfg0 (adm0 V)).N) (d) : (dat0 V c).before 0 t d = iblk0 V c 0 t :=
  ((dat0 V c).before_in_eq_fetched 0 rfl (fun _ => rfl) (fun _ _ _ => rfl)
    (fun t => by rw [after_xs0]; unfold Dat.blockOf iblk0; rw [A_eq0]; try rfl) t d).trans
    (by unfold Dat.fetched Dat.blockOf iblk0; rw [A_eq0]; try rfl)
theorem before_gi0 (c : Dev nD) (t : Fin (cfg0 (adm0 V)).N) (d) : (dat0 V c).before 1 t d = iblk0 V c 1 t :=
  ((dat0 V c).before_in_eq_fetched 1 rfl (fun _ => rfl) (fun _ _ _ => rfl)
    (fun t => by rw [after_gi0]; unfold Dat.blockOf iblk0; rw [A_eq0]; try rfl) t d).trans
    (by unfold Dat.fetched Dat.blockOf iblk0; rw [A_eq0]; try rfl)
theorem before_si0 (c : Dev nD) (t : Fin (cfg0 (adm0 V)).N) (d) : (dat0 V c).before 2 t d = iblk0 V c 2 t :=
  ((dat0 V c).before_in_eq_fetched 2 rfl (fun _ => rfl) (fun _ _ _ => rfl)
    (fun t => by rw [after_si0]; unfold Dat.blockOf iblk0; rw [A_eq0]; try rfl) t d).trans
    (by unfold Dat.fetched Dat.blockOf iblk0; rw [A_eq0]; try rfl)
theorem before_ws0 (c : Dev nD) (t : Fin (cfg0 (adm0 V)).N) (d) : (dat0 V c).before 3 t d = iblk0 V c 3 t :=
  ((dat0 V c).before_in_eq_fetched 3 rfl (fun _ => rfl) (fun _ _ _ => rfl)
    (fun t => by rw [after_ws0]; unfold Dat.blockOf iblk0; rw [A_eq0]; try rfl) t d).trans
    (by unfold Dat.fetched Dat.blockOf iblk0; rw [A_eq0]; try rfl)

/-! ## The schedule of the output window, at any table contents -/

/-- The grid's one coordinate of point `t` is `t`. -/
theorem coords_val0 (t : Fin grid0.N) : (grid0.coords t 0).val = t.val := by
  have hs : grid0.stride 0 = 1 := by decide
  have ht : t.val < 489 := Nat.lt_of_lt_of_eq t.isLt N_0
  show t.val / grid0.stride 0 % 489 = t.val
  rw [hs, Nat.div_one, Nat.mod_eq_of_lt ht]

/-- At the last point the body's store of the output block is taken. -/
theorem cond_last0 (i : grid0.Coords) (h : (i 0).val = 488) : k0_cond12 i = 1#1 := by
  show Scalar.cmpi .ne (Scalar.extui (Scalar.cmpi .eq (BitVec.ofNat 32 (i 0).val) 488#32)) 0#32 = 1#1
  rw [h]; first | rfl | decide

/-- The output block's index is constant. -/
theorem index_out0 (a : (pcfg0 (F := F)).Adm) (u : Fin (cfg0 a).N) : ((cfg0 a).win 4).index u = ![0, 0] := rfl

/-- The output block's index never moves, so it is written back at the last point and nowhere else. -/
theorem flush_out0 (a : (pcfg0 (F := F)).Adm) (t : Fin (cfg0 a).N) : ((cfg0 a).win 4).flush t = true ↔ t.val + 1 = 489 := by
  unfold Window.flush
  simp only [Bool.and_eq_true, Bool.or_eq_true, decide_eq_true_eq]
  constructor
  · rintro ⟨-, h | ⟨h, hne⟩⟩
    · exact h.trans (N0_eq a)
    · exact absurd ((index_out0 a _).trans (index_out0 a _).symm) hne
  · intro h; exact ⟨rfl, Or.inl (h.trans (N0_eq a).symm)⟩

/-- Where the body does not store the output block, the block is not written back. -/
theorem flush_idle0 (a : (pcfg0 (F := F)).Adm) (t : Fin (cfg0 a).N) (hc : ¬ k0_cond12 (grid0.coords t) = 1#1) :
    ((cfg0 a).win 4).flush t = false := by
  rw [Bool.eq_false_iff]
  intro h
  have h1 := (flush_out0 a t).mp h
  exact hc (cond_last0 _ (by rw [coords_val0]; omega))

/-- The output window is idle exactly where the body does not store the output block. -/
theorem idle_out0 (a : (pcfg0 (F := F)).Adm) (t : Fin (cfg0 a).N) :
    (cfg0 a).idle 4 ((cfg0 a).grid.coords t) = !(k0_cond12 (grid0.coords t) == 1#1) := rfl

/-! ## The accumulator's step and the output block at the last point -/

/-- The body's update at point `t` of what the accumulator held — `accAt0 t`, or at point 0 anything — is `accAt0 (t + 1)`. -/
theorem acc_step0 (c : Dev nD) (t : Fin (cfg0 (adm0 V)).N) (a8 : Vec F S10000x8 .f32) (h : t.val = 0 ∨ a8 = accAt0 V c t.val) :
    accOn0 c (grid0.coords t) ((cfg0 (adm0 V)).slots t 0) ((cfg0 (adm0 V)).slots t 1) ((cfg0 (adm0 V)).slots t 2) ((cfg0 (adm0 V)).slots t 3)
      (tabA0 V) (tabB0 V) (xs0 V c t) (gi0 V c t) (si0 V c t) (ws0 V c t) a8 = accAt0 V c (t.val + 1) := by
  have ht : t.val < 489 := Nat.lt_of_lt_of_eq t.isLt (N0_eq (adm0 V))
  rw [accAt0, dif_pos ht]
  show _ = accOn0 c (grid0.coords t) ((cfg0 (adm0 V)).slots t 0) ((cfg0 (adm0 V)).slots t 1) ((cfg0 (adm0 V)).slots t 2) ((cfg0 (adm0 V)).slots t 3)
      (tabA0 V) (tabB0 V) (xs0 V c t) (gi0 V c t) (si0 V c t) (ws0 V c t) (accAt0 V c t.val)
  rcases h with h | h
  · exact accOn0_first _ _ (by rw [coords_val0]; exact h)
  · rw [h]
/-- The output block's buffer after the body at point `t`: as found before the last point, the updated accumulator at the last. -/
theorem out_idle0 (c : Dev nD) (t : Fin (cfg0 (adm0 V)).N) (hc : ¬ k0_cond12 (grid0.coords t) = 1#1) (xi7 a8 : Vec F S10000x8 .f32) :
    outOn0 c (grid0.coords t) ((cfg0 (adm0 V)).slots t 0) ((cfg0 (adm0 V)).slots t 1) ((cfg0 (adm0 V)).slots t 2) ((cfg0 (adm0 V)).slots t 3)
      (tabA0 V) (tabB0 V) (xs0 V c t) (gi0 V c t) (si0 V c t) (ws0 V c t) xi7 a8 = xi7 :=
  outOn0_idle hc
theorem out_last0 (c : Dev nD) (t : Fin (cfg0 (adm0 V)).N) (hc : k0_cond12 (grid0.coords t) = 1#1) (xi7 a8 : Vec F S10000x8 .f32) :
    outOn0 c (grid0.coords t) ((cfg0 (adm0 V)).slots t 0) ((cfg0 (adm0 V)).slots t 1) ((cfg0 (adm0 V)).slots t 2) ((cfg0 (adm0 V)).slots t 3)
      (tabA0 V) (tabB0 V) (xs0 V c t) (gi0 V c t) (si0 V c t) (ws0 V c t) xi7 a8
      = accOn0 c (grid0.coords t) ((cfg0 (adm0 V)).slots t 0) ((cfg0 (adm0 V)).slots t 1) ((cfg0 (adm0 V)).slots t 2) ((cfg0 (adm0 V)).slots t 3)
          (tabA0 V) (tabB0 V) (xs0 V c t) (gi0 V c t) (si0 V c t) (ws0 V c t) a8 :=
  outOn0_last hc

/-- Before point 0 the accumulator holds anything, before a later point `t` it holds `accAt0 t`: either way contents
    whose update at `t` is `accAt0 (t + 1)`. -/
theorem acc_open0 (c : Dev nD) (t : Fin (cfg0 (adm0 V)).N) :
    (if t.castSucc.val = 0 then iprop(∃ d, owns (c : Thread nD τ) Body.m8_0 fullShare d)
        else owns (c : Thread nD τ) Body.m8_0 fullShare (accAt0 V c t.castSucc.val) : sProp 𝕄)
      ⊢ iprop(∃ a8, ⌜t.val = 0 ∨ a8 = accAt0 V c t.val⌝ ∗ owns (c : Thread nD τ) Body.m8_0 fullShare a8) := by
  have e : t.castSucc.val = t.val := rfl
  rw [e]
  split
  · next h =>
    iintro ⟨%d, H⟩; iexists d; isplitr
    · ipureintro; exact Or.inl h
    · iexact H
  · iintro H; iexists _; isplitr
    · ipureintro; exact Or.inr rfl
    · iexact H

/-- The two tables the pipeline holds, as the two whole memrefs the body reads them through. -/
theorem prefHeld_pair0 (c : Dev nD) (q : Fin 2 → PosShare TreeShare) (v : pre0.Contents (Elt F)) :
    (Pipeline.prefHeld pre0 c q v : sProp 𝕄)
      = iprop((((c : Thread nD τ).loc main_v40) ↦{q 0} (show Buf (Elt F) ((c : Thread nD τ).loc main_v40) from v 0))
          ∗ (((c : Thread nD τ).loc main_v43) ↦{q 1} (show Buf (Elt F) ((c : Thread nD τ).loc main_v43) from v 1))) := by
  unfold Pipeline.prefHeld
  rw [show (Finset.univ : Finset (Fin 2)) = insert 0 {1} from by decide, bigSep_insert (by decide), bigSep_singleton]
  rfl

theorem prefHeld_full0 (c : Dev nD) :
    (Pipeline.prefHeld pre0 c (fun _ => fullShare) (adm0 V).1 : sProp 𝕄)
      = iprop(owns (c : Thread nD τ) (Memref.whole main_v40) fullShare (tabA0 V) ∗ owns (c : Thread nD τ) (Memref.whole main_v43) fullShare (tabB0 V)) :=
  (prefHeld_pair0 c _ _).trans (congrArg₂ (fun a b : sProp 𝕄 => iprop(a ∗ b))
    (owns_whole (c : Thread nD τ) main_v40 fullShare (tabA0 V)).symm (owns_whole (c : Thread nD τ) main_v43 fullShare (tabB0 V)).symm)

/-! ## The body at a point -/

/-- The kernel body at grid coordinates `i` on the staging buffers `s0 … s4` of the five windows, the two tables and the
    two scratch buffers: what the pipeline calls at a point whose current buffers those are. -/
abbrev bodyOn0 (i : grid0.Coords) (s0 : Fin 1) (s1 s2 s3 : Fin 2) (s4 : Fin 1) : Prog (TpuEff nD τ sig (Elt F) Λ₀ .tc) PUnit :=
  cc0__mp_kernel i (Memref.whole main_v40) (Memref.isWhole_whole _) (Memref.whole main_v43) (Memref.isWhole_whole _)
    (stage0_0 s0) (hstage0_0 s0) (stage0_1 s1) (hstage0_1 s1) (stage0_2 s2) (hstage0_2 s2) (stage0_3 s3) (hstage0_3 s3)
    (stage0_4 s4) (hstage0_4 s4) (Memref.whole cc0_scratch0) (Memref.isWhole_whole _) (Memref.whole cc0_scratch1) (Memref.isWhole_whole _)

/-- The body's triple on any current buffers: the output window has one buffer, the one the triple is stated on. -/
theorem sound_on0 (c : Dev nD) (i : grid0.Coords) (s0 : Fin 1) (s1 s2 s3 : Fin 2) (s4 : Fin 1)
    (x1 x2 : Vec F S489 .i32) (x3 : Vec F S10000x8 .f32) (x4 x5 : Vec F S4096 .i32) (x6 : Vec F S4096 .f32)
    (xi7 a8 : Vec F S10000x8 .f32) (K : PUnit → sProp 𝕄) :
    iprop(owns (c : Thread nD τ) (Memref.whole main_v40) fullShare x1 ∗ owns (c : Thread nD τ) (Memref.whole main_v43) fullShare x2
        ∗ owns (c : Thread nD τ) (stage0_0 s0) fullShare x3 ∗ owns (c : Thread nD τ) (stage0_1 s1) fullShare x4
        ∗ owns (c : Thread nD τ) (stage0_2 s2) fullShare x5 ∗ owns (c : Thread nD τ) (stage0_3 s3) fullShare x6
        ∗ owns (c : Thread nD τ) (stage0_4 s4) fullShare xi7 ∗ owns (c : Thread nD τ) Body.m8_0 fullShare a8
        ∗ (∃ d, owns (c : Thread nD τ) Body.m9_0 fullShare d)
        ∗ (iprop(owns (c : Thread nD τ) (Memref.whole main_v40) fullShare x1 ∗ owns (c : Thread nD τ) (Memref.whole main_v43) fullShare x2
            ∗ owns (c : Thread nD τ) (stage0_0 s0) fullShare x3 ∗ owns (c : Thread nD τ) (stage0_1 s1) fullShare x4
            ∗ owns (c : Thread nD τ) (stage0_2 s2) fullShare x5 ∗ owns (c : Thread nD τ) (stage0_3 s3) fullShare x6
            ∗ owns (c : Thread nD τ) (stage0_4 s4) fullShare (outOn0 c i s0 s1 s2 s3 x1 x2 x3 x4 x5 x6 xi7 a8)
            ∗ owns (c : Thread nD τ) Body.m8_0 fullShare (accOn0 c i s0 s1 s2 s3 x1 x2 x3 x4 x5 x6 a8)
            ∗ (∃ d, owns (c : Thread nD τ) Body.m9_0 fullShare d)) -∗ K ⟨⟩))
      ⊢ wp frame (wpE (defs₀ (F := F)) Variants.none c none) Set.univ (bodyOn0 i s0 s1 s2 s3 s4) K := by
  obtain rfl : s4 = ⟨0, Nat.one_pos⟩ := Fin.ext (by have h := s4.isLt; omega)
  exact Body.sound_kernel0 c Set.univ i _ _ _ _ _ _ _ _ _ _ _ _ x1 x2 x3 x4 x5 x6 xi7 a8 K

/-- The body at a point before the last: the accumulator steps, the output block's buffer is handed back as found. -/
theorem sound_idle0 (c : Dev nD) (t : Fin (cfg0 (adm0 V)).N) (hc : ¬ k0_cond12 (grid0.coords t) = 1#1)
    (s4 : Fin 1) (xi7 a8 : Vec F S10000x8 .f32) (h : t.val = 0 ∨ a8 = accAt0 V c t.val) (K : PUnit → sProp 𝕄) :
    iprop(owns (c : Thread nD τ) (Memref.whole main_v40) fullShare (tabA0 V) ∗ owns (c : Thread nD τ) (Memref.whole main_v43) fullShare (tabB0 V)
        ∗ owns (c : Thread nD τ) (stage0_0 ((cfg0 (adm0 V)).slots t 0)) fullShare (xs0 V c t)
        ∗ owns (c : Thread nD τ) (stage0_1 ((cfg0 (adm0 V)).slots t 1)) fullShare (gi0 V c t)
        ∗ owns (c : Thread nD τ) (stage0_2 ((cfg0 (adm0 V)).slots t 2)) fullShare (si0 V c t)
        ∗ owns (c : Thread nD τ) (stage0_3 ((cfg0 (adm0 V)).slots t 3)) fullShare (ws0 V c t)
        ∗ owns (c : Thread nD τ) (stage0_4 s4) fullShare xi7 ∗ owns (c : Thread nD τ) Body.m8_0 fullShare a8
        ∗ (∃ d, owns (c : Thread nD τ) Body.m9_0 fullShare d)
        ∗ (iprop(owns (c : Thread nD τ) (Memref.whole main_v40) fullShare (tabA0 V) ∗ owns (c : Thread nD τ) (Memref.whole main_v43) fullShare (tabB0 V)
        ∗ owns (c : Thread nD τ) (stage0_0 ((cfg0 (adm0 V)).slots t 0)) fullShare (xs0 V c t)
        ∗ owns (c : Thread nD τ) (stage0_1 ((cfg0 (adm0 V)).slots t 1)) fullShare (gi0 V c t)
        ∗ owns (c : Thread nD τ) (stage0_2 ((cfg0 (adm0 V)).slots t 2)) fullShare (si0 V c t)
        ∗ owns (c : Thread nD τ) (stage0_3 ((cfg0 (adm0 V)).slots t 3)) fullShare (ws0 V c t)
            ∗ owns (c : Thread nD τ) (stage0_4 s4) fullShare xi7
            ∗ owns (c : Thread nD τ) Body.m8_0 fullShare (accAt0 V c (t.val + 1))
            ∗ (∃ d, owns (c : Thread nD τ) Body.m9_0 fullShare d)) -∗ K ⟨⟩))
      ⊢ wp frame (wpE (defs₀ (F := F)) Variants.none c none) Set.univ
          (bodyOn0 (grid0.coords t) ((cfg0 (adm0 V)).slots t 0) ((cfg0 (adm0 V)).slots t 1) ((cfg0 (adm0 V)).slots t 2) ((cfg0 (adm0 V)).slots t 3) s4) K := by
  have key := sound_on0 c (grid0.coords t) ((cfg0 (adm0 V)).slots t 0) ((cfg0 (adm0 V)).slots t 1) ((cfg0 (adm0 V)).slots t 2) ((cfg0 (adm0 V)).slots t 3) s4
    (tabA0 V) (tabB0 V) (xs0 V c t) (gi0 V c t) (si0 V c t) (ws0 V c t) xi7 a8 K
  rw [acc_step0 V c t a8 h, out_idle0 V c t hc xi7 a8] at key
  exact key

/-- The body at the last point: the accumulator steps and the output block's buffer receives it, whatever it held. -/
theorem sound_last0 (c : Dev nD) (t : Fin (cfg0 (adm0 V)).N) (hc : k0_cond12 (grid0.coords t) = 1#1)
    (s4 : Fin 1) (xi7 a8 : Vec F S10000x8 .f32) (h : t.val = 0 ∨ a8 = accAt0 V c t.val) (K : PUnit → sProp 𝕄) :
    iprop(owns (c : Thread nD τ) (Memref.whole main_v40) fullShare (tabA0 V) ∗ owns (c : Thread nD τ) (Memref.whole main_v43) fullShare (tabB0 V)
        ∗ owns (c : Thread nD τ) (stage0_0 ((cfg0 (adm0 V)).slots t 0)) fullShare (xs0 V c t)
        ∗ owns (c : Thread nD τ) (stage0_1 ((cfg0 (adm0 V)).slots t 1)) fullShare (gi0 V c t)
        ∗ owns (c : Thread nD τ) (stage0_2 ((cfg0 (adm0 V)).slots t 2)) fullShare (si0 V c t)
        ∗ owns (c : Thread nD τ) (stage0_3 ((cfg0 (adm0 V)).slots t 3)) fullShare (ws0 V c t)
        ∗ owns (c : Thread nD τ) (stage0_4 s4) fullShare xi7 ∗ owns (c : Thread nD τ) Body.m8_0 fullShare a8
        ∗ (∃ d, owns (c : Thread nD τ) Body.m9_0 fullShare d)
        ∗ (iprop(owns (c : Thread nD τ) (Memref.whole main_v40) fullShare (tabA0 V) ∗ owns (c : Thread nD τ) (Memref.whole main_v43) fullShare (tabB0 V)
        ∗ owns (c : Thread nD τ) (stage0_0 ((cfg0 (adm0 V)).slots t 0)) fullShare (xs0 V c t)
        ∗ owns (c : Thread nD τ) (stage0_1 ((cfg0 (adm0 V)).slots t 1)) fullShare (gi0 V c t)
        ∗ owns (c : Thread nD τ) (stage0_2 ((cfg0 (adm0 V)).slots t 2)) fullShare (si0 V c t)
        ∗ owns (c : Thread nD τ) (stage0_3 ((cfg0 (adm0 V)).slots t 3)) fullShare (ws0 V c t)
            ∗ owns (c : Thread nD τ) (stage0_4 s4) fullShare
                (outOn0 c (grid0.coords t) ((cfg0 (adm0 V)).slots t 0) ((cfg0 (adm0 V)).slots t 1) ((cfg0 (adm0 V)).slots t 2) ((cfg0 (adm0 V)).slots t 3)
                  (tabA0 V) (tabB0 V) (xs0 V c t) (gi0 V c t) (si0 V c t) (ws0 V c t) any0 (accAt0 V c t.val))
            ∗ owns (c : Thread nD τ) Body.m8_0 fullShare (accAt0 V c (t.val + 1))
            ∗ (∃ d, owns (c : Thread nD τ) Body.m9_0 fullShare d)) -∗ K ⟨⟩))
      ⊢ wp frame (wpE (defs₀ (F := F)) Variants.none c none) Set.univ
          (bodyOn0 (grid0.coords t) ((cfg0 (adm0 V)).slots t 0) ((cfg0 (adm0 V)).slots t 1) ((cfg0 (adm0 V)).slots t 2) ((cfg0 (adm0 V)).slots t 3) s4) K := by
  have key := sound_on0 c (grid0.coords t) ((cfg0 (adm0 V)).slots t 0) ((cfg0 (adm0 V)).slots t 1) ((cfg0 (adm0 V)).slots t 2) ((cfg0 (adm0 V)).slots t 3) s4
    (tabA0 V) (tabB0 V) (xs0 V c t) (gi0 V c t) (si0 V c t) (ws0 V c t) xi7 a8 K
  rw [out_last0 V c t hc xi7 a8, acc_step0 V c t a8 h] at key
  rw [out_last0 V c t hc any0 (accAt0 V c t.val), acc_step0 V c t _ (Or.inr rfl)]
  exact key

/-! ## The output window's post, case by case -/

/-- At the last point the output window is live: its buffer is left at what the proof data says. -/
theorem leaves_last0 (c : Dev nD) (t : Fin (cfg0 (adm0 V)).N) (hc : k0_cond12 (grid0.coords t) = 1#1) :
    ((dat0 V c).leavesExact 4 t : sProp 𝕄)
      = owns (c : Thread nD τ) (((cfg0 (adm0 V)).win 4).stage ((cfg0 (adm0 V)).slots t 4)) fullShare ((dat0 V c).after 4 t) := by
  have hi : (cfg0 (adm0 V)).idle 4 ((cfg0 (adm0 V)).grid.coords t) = false :=
    (idle_out0 (adm0 V) t).trans (by rw [hc] <;> rfl)
  unfold Dat.leavesExact
  rw [hi]

/-- Before the last point the output window is idle and not written back: its buffer is handed back as found. -/
theorem leaves_idle0 (c : Dev nD) (t : Fin (cfg0 (adm0 V)).N) (hc : ¬ k0_cond12 (grid0.coords t) = 1#1) :
    ((dat0 V c).leavesExact 4 t : sProp 𝕄)
      = iprop(∃ d, owns (c : Thread nD τ) (((cfg0 (adm0 V)).win 4).stage ((cfg0 (adm0 V)).slots t 4)) fullShare ((dat0 V c).before 4 t d)) := by
  have hi : (cfg0 (adm0 V)).idle 4 ((cfg0 (adm0 V)).grid.coords t) = true :=
    (idle_out0 (adm0 V) t).trans (by simp [hc])
  exact (dat0 V c).leavesExact_idle 4 t hi (flush_idle0 (adm0 V) t hc)

/-! ## The body obligation -/

/-- The current staging memref of window `w` at point `t`. -/
abbrev st0 (w : Fin (cfg0 (adm0 V)).W) (t : Fin (cfg0 (adm0 V)).N) := ((cfg0 (adm0 V)).win w).stage ((cfg0 (adm0 V)).slots t w)

/-- What the body is called with at point `t`, the windows one by one, -/
def bodyPre0 (c : Dev nD) (t : Fin (cfg0 (adm0 V)).N) : sProp 𝕄 :=
  iprop((dat0 V c).Φ t.castSucc ∗ (dat0 V c).owesAt () t.castSucc
    ∗ (∃ d, owns (c : Thread nD τ) (st0 V 0 t) fullShare ((dat0 V c).before 0 t d))
    ∗ (∃ d, owns (c : Thread nD τ) (st0 V 1 t) fullShare ((dat0 V c).before 1 t d))
    ∗ (∃ d, owns (c : Thread nD τ) (st0 V 2 t) fullShare ((dat0 V c).before 2 t d))
    ∗ (∃ d, owns (c : Thread nD τ) (st0 V 3 t) fullShare ((dat0 V c).before 3 t d))
    ∗ (∃ d, owns (c : Thread nD τ) (st0 V 4 t) fullShare ((dat0 V c).before 4 t d)))

/-- and what it returns: the inputs' buffers at their blocks, the output's as its window's state at the point says. -/
def bodyPost0 (c : Dev nD) (t : Fin (cfg0 (adm0 V)).N) : sProp 𝕄 :=
  iprop((dat0 V c).Φ t.succ ∗ (dat0 V c).owesAt () t.succ
    ∗ owns (c : Thread nD τ) (st0 V 0 t) fullShare ((dat0 V c).after 0 t)
    ∗ owns (c : Thread nD τ) (st0 V 1 t) fullShare ((dat0 V c).after 1 t)
    ∗ owns (c : Thread nD τ) (st0 V 2 t) fullShare ((dat0 V c).after 2 t)
    ∗ owns (c : Thread nD τ) (st0 V 3 t) fullShare ((dat0 V c).after 3 t)
    ∗ (dat0 V c).leavesExact 4 t)

/-- The body at any point: the inputs' buffers hold their blocks and the accumulator what the invariant says, so the
    body's triple applies; the rest of the invariant and the core's `owes` pass through unread. -/
theorem sound_body0 (c : Dev nD) (t : Fin (cfg0 (adm0 V)).N) :
    bodyPre0 V c t ⊢ wp frame (wpE (defs₀ (F := F)) Variants.none c none) Set.univ
      (bodyOn0 (grid0.coords t) ((cfg0 (adm0 V)).slots t 0) ((cfg0 (adm0 V)).slots t 1) ((cfg0 (adm0 V)).slots t 2)
        ((cfg0 (adm0 V)).slots t 3) ((cfg0 (adm0 V)).slots t 4))
      (fun _ => bodyPost0 V c t) := by
  unfold bodyPre0 bodyPost0
  simp only [before_xs0, before_gi0, before_si0, before_ws0]
  rw [show (dat0 V c).owesAt () t.succ = (dat0 V c).owesAt () t.castSucc from rfl,
    after_xs0, after_gi0, after_si0, after_ws0, Phi_eq0, Phi_eq0]
  unfold Phi0
  have hs : ¬ (t.succ).val = 0 := by rw [Fin.val_succ]; exact Nat.succ_ne_zero _
  rw [prefHeld_full0, if_neg hs, Fin.val_succ]
  by_cases hc : k0_cond12 (grid0.coords t) = 1#1
  · rw [leaves_last0 V c t hc, after_out0]
    iintro ⟨⟨⟨Ht1, Ht2⟩, Hacc, H9, Hrest, Hr⟩, Ho, ⟨%d0, H0⟩, ⟨%d1, H1⟩, ⟨%d2, H2⟩, ⟨%d3, H3⟩, ⟨%d4, H4⟩⟩
    ihave Hacc' := (acc_open0 V c t) $$ Hacc
    icases Hacc' with ⟨%a8, %h8, H8⟩
    iapply (sound_last0 V c t hc _ ((dat0 V c).before 4 t d4) a8 h8 _)
    isplitl [Ht1]; · iexact Ht1
    isplitl [Ht2]; · iexact Ht2
    isplitl [H0]; · iexact H0
    isplitl [H1]; · iexact H1
    isplitl [H2]; · iexact H2
    isplitl [H3]; · iexact H3
    isplitl [H4]; · iexact H4
    isplitl [H8]; · iexact H8
    isplitl [H9]; · iexact H9
    iintro ⟨Ht1, Ht2, H0, H1, H2, H3, H4, H8, H9⟩
    isplitl [Ht1 Ht2 H8 H9 Hrest Hr]
    · isplitl [Ht1 Ht2]
      · isplitl [Ht1]; · iexact Ht1
        iexact Ht2
      isplitl [H8]; · iexact H8
      isplitl [H9]; · iexact H9
      isplitl [Hrest]; · iexact Hrest
      iexact Hr
    isplitl [Ho]; · iexact Ho
    isplitl [H0]; · iexact H0
    isplitl [H1]; · iexact H1
    isplitl [H2]; · iexact H2
    isplitl [H3]; · iexact H3
    iexact H4
  · rw [leaves_idle0 V c t hc]
    iintro ⟨⟨⟨Ht1, Ht2⟩, Hacc, H9, Hrest, Hr⟩, Ho, ⟨%d0, H0⟩, ⟨%d1, H1⟩, ⟨%d2, H2⟩, ⟨%d3, H3⟩, ⟨%d4, H4⟩⟩
    ihave Hacc' := (acc_open0 V c t) $$ Hacc
    icases Hacc' with ⟨%a8, %h8, H8⟩
    iapply (sound_idle0 V c t hc _ ((dat0 V c).before 4 t d4) a8 h8 _)
    isplitl [Ht1]; · iexact Ht1
    isplitl [Ht2]; · iexact Ht2
    isplitl [H0]; · iexact H0
    isplitl [H1]; · iexact H1
    isplitl [H2]; · iexact H2
    isplitl [H3]; · iexact H3
    isplitl [H4]; · iexact H4
    isplitl [H8]; · iexact H8
    isplitl [H9]; · iexact H9
    iintro ⟨Ht1, Ht2, H0, H1, H2, H3, H4, H8, H9⟩
    isplitl [Ht1 Ht2 H8 H9 Hrest Hr]
    · isplitl [Ht1 Ht2]
      · isplitl [Ht1]; · iexact Ht1
        iexact Ht2
      isplitl [H8]; · iexact H8
      isplitl [H9]; · iexact H9
      isplitl [Hrest]; · iexact Hrest
      iexact Hr
    isplitl [Ho]; · iexact Ho
    isplitl [H0]; · iexact H0
    isplitl [H1]; · iexact H1
    isplitl [H2]; · iexact H2
    isplitl [H3]; · iexact H3
    iexists d4; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The arrays after the run -/

/-- The output's one block is the whole array: an index of the block is the same index of the array, -/
theorem emb_blk_out0 (t : Fin (cfg0 (adm0 V)).N) (j : S10000x8.Idx) : (((cfg0 (adm0 V)).win 4).blk t).view.emb j = j := by
  have h : ∀ a : Fin 2, ((((cfg0 (adm0 V)).win 4).blk t).view.emb j a).val = (j a).val := fun a =>
    match a with
    | ⟨0, _⟩ => by show 0 * 10000 + 1 * (j 0).val = (j 0).val; omega
    | ⟨1, _⟩ => by show 0 * 8 + 1 * (j 1).val = (j 1).val; omega
  exact funext fun a => Fin.ext (h a)

/-- so every index of the array lies in the block, -/
theorem mem_blk_out0 (t : Fin (cfg0 (adm0 V)).N) (i : S10000x8.Idx) : i ∈ (((cfg0 (adm0 V)).win 4).blk t).view.set :=
  Finset.mem_map.mpr ⟨i, Finset.mem_univ _, emb_blk_out0 V t i⟩

/-- and contents of the array read through the block are those contents. -/
theorem read_blk_out0 (t : Fin (cfg0 (adm0 V)).N) (G : Vec F S10000x8 .f32) :
    (((cfg0 (adm0 V)).win 4).blk t).view.read (Elt F) G = G := by
  funext j
  show G ((((cfg0 (adm0 V)).win 4).blk t).view.emb j) = G j
  exact congrArg G (emb_blk_out0 V t j)

/-- What the one point that writes the output back writes is the accumulator after the last point, read through the block. -/
theorem flushed_out0 (c : Dev nD) (t : Fin (cfg0 (adm0 V)).N) (hf : ((cfg0 (adm0 V)).win 4).flush t = true) :
    (dat0 V c).flushed 4 t = (((cfg0 (adm0 V)).win 4).blk t).view.read (Elt F) (accAt0 V c 489) := by
  have ht : t.val + 1 = 489 := (flush_out0 (adm0 V) t).mp hf
  have hc : k0_cond12 (grid0.coords t) = 1#1 := cond_last0 _ (by rw [coords_val0]; omega)
  rw [read_blk_out0]
  show ((cfg0 (adm0 V)).win 4).cut ((cfg0 (adm0 V)).grid.coords t) ((dat0 V c).after 4 t) = _
  rw [after_out0, out_last0 V c t hc any0 (accAt0 V c t.val), acc_step0 V c t _ (Or.inr rfl), ht]
  rfl

/-- The output array ends holding the accumulator after the last point. -/
theorem final0 (c : Dev nD) : (dat0 V c).arrAt 4 (cfg0 (adm0 V)).N = accAt0 V c 489 :=
  (dat0 V c).arrAt_eq_of_cover 4 (accAt0 V c 489) (fun t hf => flushed_out0 V c t hf)
    (fun i => ⟨pt0 V 488 (by decide), (flush_out0 (adm0 V) _).mpr rfl, mem_blk_out0 V _ i⟩)

/-- The input arrays are never written. -/
theorem final_in0 (c : Dev nD) (w : Fin (cfg0 (adm0 V)).W) (hw : w.val < 4) :
    (dat0 V c).arrAt w (cfg0 (adm0 V)).N = V c (Pipeline.arrRef spec0 w) := by
  have hin : ((cfg0 (adm0 V)).win w).isOut = false := by
    obtain ⟨n, hn⟩ := w
    have hn' : n < 4 := hw
    match n, hn, hn' with
    | 0, _, _ => rfl
    | 1, _, _ => rfl
    | 2, _, _ => rfl
    | 3, _, _ => rfl
    | n + 4, _, h => exact absurd h (by omega)
  rw [(dat0 V c).arrAt_in w hin, A_eq0]

end Cert.KernelIdeal.Frame

end
-- ==== Proof.RunK1.lean ====
/-
  The message-passing kernel's body at one grid point (custom_call 1), generic in the float instance.

  From the two table buffers, the node-state block, the chunk's gather indices, scatter indices and weights, the output
  block's buffer and the accumulator at given contents (the one-hot scratch at anything), the body runs to its end leaving
  the inputs as they were, the one-hot scratch at something, the accumulator at `acc8` of what it found and the output
  buffer at `out7`: the accumulator is reset at the first point and then updated tile by tile under the table words'
  guards; the output buffer is overwritten by the accumulator at the last point and untouched before.
-/
import proofs.«400082_j83537113907851_4_alg».proof.Proof.Gen.KernelIdeal.Skeleton
import proofs.«400082_j83537113907851_4_alg».proof.Proof.Gen.KernelIdeal.Launch
import Idealize.ShloMosaic.Lib.Pipeline.Frame
import Idealize.ShloMosaic.Lib.Pipeline.FrameBody
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output block's staging buffer, the accumulator and the one-hot scratch, as the body table calls the kernel. -/
abbrev m7_1 : Memref sig .tc .vmem S10000x8 .f32 := Memref.whole cc1_stg4_0
abbrev m8_1 : Memref sig .tc .vmem S10000x8 .f32 := Memref.whole cc1_scratch0
abbrev m9_1 : Memref sig .tc .vmem S1000x4096 .f32 := Memref.whole cc1_scratch1

set_option maxHeartbeats 4000000 in
/-- The body's run at a grid point: the raw contents it leaves in the output block's buffer (`F7`) and in the accumulator
    (`F8`) are what the run itself computes, with the proof that the body reaches its end there. -/
noncomputable def kernelRun1 (c : Dev nD) (i : grid1.Coords)
    (arg1 : Memref sig .tc .smem S489 .i32) (harg1 : arg1.IsWhole) (arg2 : Memref sig .tc .smem S489 .i32) (harg2 : arg2.IsWhole)
    (arg3 : Memref sig .tc .vmem S10000x8 .f32) (harg3 : arg3.IsWhole) (arg4 : Memref sig .tc .vmem S4096 .i32) (harg4 : arg4.IsWhole)
    (arg5 : Memref sig .tc .vmem S4096 .i32) (harg5 : arg5.IsWhole) (arg6 : Memref sig .tc .vmem S4096 .f32) (harg6 : arg6.IsWhole)
    (x1 x2 : Vec F S489 .i32) (x3 : Vec F S10000x8 .f32) (x4 x5 : Vec F S4096 .i32) (x6 : Vec F S4096 .f32) (xi7 a8 : Vec F S10000x8 .f32) :
    Σ' (F7 : (m7_1).view.ty.Contents (Elt F)), { F8 : (m8_1).view.ty.Contents (Elt F) //
      ∀ (E : Set ℕ) (K : PUnit → sProp 𝕄),
        iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) m7_1 fullShare xi7 ∗ owns (c : Thread nD τ) m8_1 fullShare a8 ∗ (∃ d, owns (c : Thread nD τ) m9_1 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ ((m7_1).view.loc (c : Thread nD τ) ↦[(m7_1).view.set]{fullShare} F7)
            ∗ ((m8_1).view.loc (c : Thread nD τ) ↦[(m8_1).view.set]{fullShare} F8)
            ∗ (∃ f, (m9_1).view.loc (c : Thread nD τ) ↦[(m9_1).view.set]{fullShare} f)) -∗ K ⟨⟩))
      ⊢ wp frame (wpE (defs₀ (F := F)) Variants.none c none) E
          (cc1__mp_kernel i arg1 harg1 arg2 harg2 arg3 harg3 arg4 harg4 arg5 harg5 arg6 harg6
            m7_1 (Memref.isWhole_whole _) m8_1 (Memref.isWhole_whole _) m9_1 (Memref.isWhole_whole _)) K } := by
  refine ⟨?_, ?_, fun E K => ?run⟩
  case run =>
    simp only [cc1__mp_kernel_eq_skeleton]; unfold cc1__mp_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := (Memref.isWhole_whole cc1_stg4_0).eq_unread hf7; obtain rfl := (Memref.isWhole_whole cc1_scratch0).eq_unread hf8
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexact H7
    isplitl [H8]; · iexact H8
    iexists _; iexact H9

end Cert.KernelIdeal.Body

end
-- ==== Proof.Run1.lean ====
/-
  The message-passing kernel's body at one grid point (custom_call 1), generic in the float instance.

  From the two table buffers, the node-state block, the chunk's gather indices, scatter indices and weights, the output
  block's buffer and the accumulator at given contents (the one-hot scratch at anything), the body runs to its end leaving
  the inputs as they were, the one-hot scratch at something, the accumulator at `acc8` of what it found and the output
  buffer at `out7`: the accumulator is reset at the first point and then updated tile by tile under the table words'
  guards; the output buffer is overwritten by the accumulator at the last point and untouched before.
-/
import proofs.«400082_j83537113907851_4_alg».proof.Proof.RunK1
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator after the body at grid point `i` (run on core `c` through the memrefs `arg1 … arg6`), from the two
    tables `x1 x2`, the node states `x3`, the chunk's gather indices `x4`, scatter indices `x5`, weights `x6`, and the
    accumulator `a8` the point found: what the run leaves in the accumulator's buffer, read back. -/
def acc8_1 (c : Dev nD) (i : grid1.Coords)
    (arg1 : Memref sig .tc .smem S489 .i32) (harg1 : arg1.IsWhole) (arg2 : Memref sig .tc .smem S489 .i32) (harg2 : arg2.IsWhole)
    (arg3 : Memref sig .tc .vmem S10000x8 .f32) (harg3 : arg3.IsWhole) (arg4 : Memref sig .tc .vmem S4096 .i32) (harg4 : arg4.IsWhole)
    (arg5 : Memref sig .tc .vmem S4096 .i32) (harg5 : arg5.IsWhole) (arg6 : Memref sig .tc .vmem S4096 .f32) (harg6 : arg6.IsWhole)
    (x1 x2 : Vec F S489 .i32) (x3 : Vec F S10000x8 .f32) (x4 x5 : Vec F S4096 .i32) (x6 : Vec F S4096 .f32) (a8 : Vec F S10000x8 .f32) : Vec F S10000x8 .f32 :=
  (m8_1).view.read (Elt F) (kernelRun1 c i arg1 harg1 arg2 harg2 arg3 harg3 arg4 harg4 arg5 harg5 arg6 harg6 x1 x2 x3 x4 x5 x6 a8 a8).2.1

/-- The output block's buffer after the body at grid point `i`, having held `xi7`. -/
def out7_1 (c : Dev nD) (i : grid1.Coords)
    (arg1 : Memref sig .tc .smem S489 .i32) (harg1 : arg1.IsWhole) (arg2 : Memref sig .tc .smem S489 .i32) (harg2 : arg2.IsWhole)
    (arg3 : Memref sig .tc .vmem S10000x8 .f32) (harg3 : arg3.IsWhole) (arg4 : Memref sig .tc .vmem S4096 .i32) (harg4 : arg4.IsWhole)
    (arg5 : Memref sig .tc .vmem S4096 .i32) (harg5 : arg5.IsWhole) (arg6 : Memref sig .tc .vmem S4096 .f32) (harg6 : arg6.IsWhole)
    (x1 x2 : Vec F S489 .i32) (x3 : Vec F S10000x8 .f32) (x4 x5 : Vec F S4096 .i32) (x6 : Vec F S4096 .f32) (xi7 a8 : Vec F S10000x8 .f32) : Vec F S10000x8 .f32 :=
  (m7_1).view.read (Elt F) (kernelRun1 c i arg1 harg1 arg2 harg2 arg3 harg3 arg4 harg4 arg5 harg5 arg6 harg6 x1 x2 x3 x4 x5 x6 xi7 a8).1

/-- What the run leaves in the accumulator does not look at what the output block's buffer held. -/
theorem F8_xi1 (c : Dev nD) (i : grid1.Coords)
    (arg1 : Memref sig .tc .smem S489 .i32) (harg1 : arg1.IsWhole) (arg2 : Memref sig .tc .smem S489 .i32) (harg2 : arg2.IsWhole)
    (arg3 : Memref sig .tc .vmem S10000x8 .f32) (harg3 : arg3.IsWhole) (arg4 : Memref sig .tc .vmem S4096 .i32) (harg4 : arg4.IsWhole)
    (arg5 : Memref sig .tc .vmem S4096 .i32) (harg5 : arg5.IsWhole) (arg6 : Memref sig .tc .vmem S4096 .f32) (harg6 : arg6.IsWhole)
    (x1 x2 : Vec F S489 .i32) (x3 : Vec F S10000x8 .f32) (x4 x5 : Vec F S4096 .i32) (x6 : Vec F S4096 .f32) (xi7 a8 : Vec F S10000x8 .f32) :
    (kernelRun1 c i arg1 harg1 arg2 harg2 arg3 harg3 arg4 harg4 arg5 harg5 arg6 harg6 x1 x2 x3 x4 x5 x6 xi7 a8).2.1 = (kernelRun1 c i arg1 harg1 arg2 harg2 arg3 harg3 arg4 harg4 arg5 harg5 arg6 harg6 x1 x2 x3 x4 x5 x6 a8 a8).2.1 := by
  unfold kernelRun1
  rfl

/-- The body's triple at any grid point. -/
theorem sound_kernel1 (c : Dev nD) (E : Set ℕ) (i : grid1.Coords)
    (arg1 : Memref sig .tc .smem S489 .i32) (harg1 : arg1.IsWhole) (arg2 : Memref sig .tc .smem S489 .i32) (harg2 : arg2.IsWhole)
    (arg3 : Memref sig .tc .vmem S10000x8 .f32) (harg3 : arg3.IsWhole) (arg4 : Memref sig .tc .vmem S4096 .i32) (harg4 : arg4.IsWhole)
    (arg5 : Memref sig .tc .vmem S4096 .i32) (harg5 : arg5.IsWhole) (arg6 : Memref sig .tc .vmem S4096 .f32) (harg6 : arg6.IsWhole)
    (x1 x2 : Vec F S489 .i32) (x3 : Vec F S10000x8 .f32) (x4 x5 : Vec F S4096 .i32) (x6 : Vec F S4096 .f32) (xi7 a8 : Vec F S10000x8 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) m7_1 fullShare xi7 ∗ owns (c : Thread nD τ) m8_1 fullShare a8 ∗ (∃ d, owns (c : Thread nD τ) m9_1 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) m7_1 fullShare (out7_1 c i arg1 harg1 arg2 harg2 arg3 harg3 arg4 harg4 arg5 harg5 arg6 harg6 x1 x2 x3 x4 x5 x6 xi7 a8)
            ∗ owns (c : Thread nD τ) m8_1 fullShare (acc8_1 c i arg1 harg1 arg2 harg2 arg3 harg3 arg4 harg4 arg5 harg5 arg6 harg6 x1 x2 x3 x4 x5 x6 a8)
            ∗ (∃ d, owns (c : Thread nD τ) m9_1 fullShare d)) -∗ K ⟨⟩))
      ⊢ wp frame (wpE (defs₀ (F := F)) Variants.none c none) E
          (cc1__mp_kernel i arg1 harg1 arg2 harg2 arg3 harg3 arg4 harg4 arg5 harg5 arg6 harg6
            m7_1 (Memref.isWhole_whole _) m8_1 (Memref.isWhole_whole _) m9_1 (Memref.isWhole_whole _)) K := by
  refine .trans ?_ ((kernelRun1 c i arg1 harg1 arg2 harg2 arg3 harg3 arg4 harg4 arg5 harg5 arg6 harg6 x1 x2 x3 x4 x5 x6 xi7 a8).2.2 E K)
  iintro ⟨H1, H2, H3, H4, H5, H6, H7, H8, H9, Hk⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H1, H2, H3, H4, H5, H6, H7, H8, H9⟩
  iapply Hk
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr; · ipureintro; rfl
    iexact H7
  isplitl [H8]
  · unfold owns; iexists _; isplitr; · ipureintro; exact congrArg ((m8_1).view.read (Elt F)) (F8_xi1 c i arg1 harg1 arg2 harg2 arg3 harg3 arg4 harg4 arg5 harg5 arg6 harg6 x1 x2 x3 x4 x5 x6 xi7 a8)
    iexact H8
  icases H9 with ⟨%f, H9⟩
  iexists _; unfold owns; iexists f; isplitr; · ipureintro; rfl
  iexact H9

/-- Before the last point the body leaves the output block's buffer as it found it. -/
theorem out7_1_idle (c : Dev nD) (i : grid1.Coords)
    (arg1 : Memref sig .tc .smem S489 .i32) (harg1 : arg1.IsWhole) (arg2 : Memref sig .tc .smem S489 .i32) (harg2 : arg2.IsWhole)
    (arg3 : Memref sig .tc .vmem S10000x8 .f32) (harg3 : arg3.IsWhole) (arg4 : Memref sig .tc .vmem S4096 .i32) (harg4 : arg4.IsWhole)
    (arg5 : Memref sig .tc .vmem S4096 .i32) (harg5 : arg5.IsWhole) (arg6 : Memref sig .tc .vmem S4096 .f32) (harg6 : arg6.IsWhole)
    (x1 x2 : Vec F S489 .i32) (x3 : Vec F S10000x8 .f32) (x4 x5 : Vec F S4096 .i32) (x6 : Vec F S4096 .f32) (xi7 a8 : Vec F S10000x8 .f32) (h : ¬ k1_cond12 i = 1#1) :
    out7_1 c i arg1 harg1 arg2 harg2 arg3 harg3 arg4 harg4 arg5 harg5 arg6 harg6 x1 x2 x3 x4 x5 x6 xi7 a8 = xi7 := by
  unfold out7_1 kernelRun1
  dsimp only
  rw [dif_neg h]
  exact (Memref.isWhole_whole cc1_stg4_0).read_unread xi7

set_option maxHeartbeats 2000000 in
/-- At the last point the body copies the updated accumulator into the output block's buffer. -/
theorem out7_1_last (c : Dev nD) (i : grid1.Coords)
    (arg1 : Memref sig .tc .smem S489 .i32) (harg1 : arg1.IsWhole) (arg2 : Memref sig .tc .smem S489 .i32) (harg2 : arg2.IsWhole)
    (arg3 : Memref sig .tc .vmem S10000x8 .f32) (harg3 : arg3.IsWhole) (arg4 : Memref sig .tc .vmem S4096 .i32) (harg4 : arg4.IsWhole)
    (arg5 : Memref sig .tc .vmem S4096 .i32) (harg5 : arg5.IsWhole) (arg6 : Memref sig .tc .vmem S4096 .f32) (harg6 : arg6.IsWhole)
    (x1 x2 : Vec F S489 .i32) (x3 : Vec F S10000x8 .f32) (x4 x5 : Vec F S4096 .i32) (x6 : Vec F S4096 .f32) (xi7 a8 : Vec F S10000x8 .f32) (h : k1_cond12 i = 1#1) :
    out7_1 c i arg1 harg1 arg2 harg2 arg3 harg3 arg4 harg4 arg5 harg5 arg6 harg6 x1 x2 x3 x4 x5 x6 xi7 a8 = acc8_1 c i arg1 harg1 arg2 harg2 arg3 harg3 arg4 harg4 arg5 harg5 arg6 harg6 x1 x2 x3 x4 x5 x6 a8 := by
  have hz : (![0, 0] : Fin S10000x8.rank → Nat) = fun _ => 0 := by
    funext a; match a with | ⟨0, _⟩ => rfl | ⟨1, _⟩ => rfl
  unfold out7_1 acc8_1 kernelRun1
  dsimp only
  rw [dif_pos h]
  rw [View.read_writes_eq_canon _ _ _ (fun y => ⟨_, List.mem_singleton_self _, View.mem_set_unit_zero hz Facts₀.inb_S10000x8_S10000x8_0_0 y⟩)]
  rw [View.canon_unit_zero hz]
  sl_unfold_words
  simp only [View.readAt_eq_ld, View.ld_unit_zero (S := S10000x8) hz]

end Cert.KernelIdeal.Body

end
-- ==== Proof.AccEval1.lean ====
/-
  The accumulator update of one grid point read tile by tile, generic in the float instance.

  The point first resets the accumulator (at the first grid point) or keeps what it found: the base. Then each of the ten
  node tiles is, under its own guard, overwritten by a value computed from the chunk and from the tile as loaded. The
  tiles are disjoint row ranges, so the tile loaded is the base's tile, and node 1000 t + r reads, after the point, tile
  t's new value at row r when tile t's guard holds and the base otherwise. What the point found enters only through the
  base; at the first grid point the base is zero, so what the accumulator held there does not matter.
-/
import proofs.«400082_j83537113907851_4_alg».proof.Proof.Run1
import proofs.«400082_j83537113907851_4_alg».proof.Proof.AccRead
import Idealize.ShloMosaic.Lib.ValueIdx

set_option maxRecDepth 16384

noncomputable section

namespace Cert.KernelIdeal.AccEval1

open Cert.KernelIdeal Cert.KernelIdeal.Gen
open Idealize.ShloMosaic Idealize.ShloMosaic.TcCoe
open Idealize.SL.Sem

variable {F : FTy → Type} [FloatOps F]

/-! ## What the point starts from, and a tile of it -/

/-- The accumulator as the tile updates find it: zero everywhere at the first grid point, what the point found at
    every later one. -/
def base (i : grid1.Coords) (a8 : Vec F S10000x8 .f32) : Vec F S10000x8 .f32 :=
  fun y => if Body.kernelRun1.sl.v2 i = 1#1 then k1_pay5 (F := F) y else a8 y

/-- At the first point what the point found does not enter. -/
theorem base_first (i : grid1.Coords) (a a' : Vec F S10000x8 .f32) (h : Body.kernelRun1.sl.v2 i = 1#1) :
    base i a = base i a' := by
  funext y; unfold base; rw [if_pos h, if_pos h]

/-- Rows [o, o + 1000) of an accumulator-shaped array, as a tile. -/
def tileOf (B : Vec F S10000x8 .f32) (o : Nat) (ho : o + 1000 ≤ 10000) : FVec F S1000x8 .f32 :=
  fun x => B (ValueIdx.ix2 (⟨o + (x 0).val, by have h : (x 0).val < 1000 := (x 0).isLt; omega⟩ : Fin 10000) (x 1))

theorem tileOf_apply (B : Vec F S10000x8 .f32) (o : Nat) (ho : o + 1000 ≤ 10000) (r : Fin 1000) (k : Fin 8)
    (n : Fin 10000) (hn : n.val = o + r.val) : tileOf B o ho (ValueIdx.ix2 r k) = B (ValueIdx.ix2 n k) := by
  have e : (⟨o + r.val, by omega⟩ : Fin 10000) = n := Fin.ext hn.symm
  show B (ValueIdx.ix2 (⟨o + r.val, _⟩ : Fin 10000) k) = _
  rw [e]

section Generic
variable {sig' : RefSig} {κ : Kind} {sp : Space} {Val : EltTy → Type}

/-- Entry (r, k) of the tile of rows [o, o + 1000) sits at row o + r, column k of the accumulator. -/
theorem tile_idx (o : Nat) (inb : ∀ a, (![o, 0] : Fin 2 → Nat) a + S1000x8.size a ≤ S10000x8.size a)
    (r : Fin 1000) (k : Fin 8) (n : Fin 10000) (hn : n.val = o + r.val) :
    (Rect.unit (s := S10000x8) ![o, 0] S1000x8.size inb).toLoadRect.idx (ValueIdx.ix2 r k) = ValueIdx.ix2 n k :=
  funext fun a => Fin.ext (by
    match a with
    | ⟨0, _⟩ => show o + 1 * r.val = n.val; omega
    | ⟨1, _⟩ => show 0 + 1 * k.val = k.val; omega)

/-- A load of that tile reads the contents at those places. -/
theorem readAt_tile (v : View sig' κ sp S10000x8 .f32) (f : v.ty.Contents Val) (o : Nat)
    (inb : ∀ a, (![o, 0] : Fin 2 → Nat) a + S1000x8.size a ≤ S10000x8.size a)
    (r : Fin 1000) (k : Fin 8) (n : Fin 10000) (hn : n.val = o + r.val) :
    v.readAt Val (Rect.unit (s := S10000x8) ![o, 0] S1000x8.size inb).toLoadRect f (ValueIdx.ix2 r k)
      = v.read Val f (ValueIdx.ix2 n k) :=
  congrArg (v.read Val f) (tile_idx o inb r k n hn)

/-- A choice made with the guard's evidence in hand between values that do not use it is the plain choice. -/
theorem dite_ite_congr {α : Type} (g : Prop) [Decidable g] {a a' b b' : α} (ha : a = a') (hb : b = b') :
    (if _hg : g then a else b) = if g then a' else b' := by
  subst ha hb; exact dite_eq_ite

end Generic

/-- The reset, read back: the whole accumulator overwritten under the guard, else what the point found. -/
theorem read_reset {sp : Space} (m : Memref sig .tc sp S10000x8 .f32) (hw : m.IsWhole) (g : Prop) [Decidable g]
    (inb : ∀ a, (![0, 0] : Fin 2 → Nat) a + S10000x8.size a ≤ S10000x8.size a)
    (P : S10000x8.Idx → Elt F .f32) (a8 : Vec F S10000x8 .f32) (y : S10000x8.Idx) :
    m.view.read (Elt F) (if _hc : g then m.view.writes (Elt F) (hw.unread a8) [⟨Rect.unit ![0, 0] S10000x8.size inb, P⟩]
        else hw.unread a8) y = if g then P y else a8 y := by
  by_cases hg : g
  · rw [dif_pos hg, if_pos hg]
    exact View.read_writes_cons_unit_of_mem m.view (hw.unread a8) inb P [] y y rfl
      (Fin.forall_fin_two.mpr ⟨(Nat.zero_add _).symm, (Nat.zero_add _).symm⟩)
  · rw [dif_neg hg, if_neg hg]
    exact congrFun (hw.read_unread a8) y

/-! ## The ten tile updates

Tile t of the accumulator is stored under its guard from a value computed from the chunk and from the tile as it was
loaded; the loaded tile is the base's tile, because the updates of the tiles before it write other rows. Read at node
1000 t + r: the later tiles' stores miss the row, tile t's store holds it when its guard holds, the earlier tiles'
stores miss it, and the reset is read last. -/

section Tiles
variable (c : Dev nD) (i : grid1.Coords)
  (arg1 : Memref sig .tc .smem S489 .i32) (harg1 : arg1.IsWhole) (arg2 : Memref sig .tc .smem S489 .i32) (harg2 : arg2.IsWhole)
  (arg3 : Memref sig .tc .vmem S10000x8 .f32) (harg3 : arg3.IsWhole) (arg4 : Memref sig .tc .vmem S4096 .i32) (harg4 : arg4.IsWhole)
  (arg5 : Memref sig .tc .vmem S4096 .i32) (harg5 : arg5.IsWhole) (arg6 : Memref sig .tc .vmem S4096 .f32) (harg6 : arg6.IsWhole)
  (x1 x2 : Vec F S489 .i32) (x3 : Vec F S10000x8 .f32) (x4 x5 : Vec F S4096 .i32) (x6 : Vec F S4096 .f32)

/-- The guard of tile t, as the run names it. -/
def guardW (t : Fin 10) : BitVec 1 :=
  match t with
  | ⟨0, _⟩ => Body.kernelRun1.sl.v191 c i arg1 harg1 arg2 harg2 x1 x2
  | ⟨1, _⟩ => Body.kernelRun1.sl.v196 c i arg1 harg1 arg2 harg2 x1 x2
  | ⟨2, _⟩ => Body.kernelRun1.sl.v201 c i arg1 harg1 arg2 harg2 x1 x2
  | ⟨3, _⟩ => Body.kernelRun1.sl.v206 c i arg1 harg1 arg2 harg2 x1 x2
  | ⟨4, _⟩ => Body.kernelRun1.sl.v211 c i arg1 harg1 arg2 harg2 x1 x2
  | ⟨5, _⟩ => Body.kernelRun1.sl.v216 c i arg1 harg1 arg2 harg2 x1 x2
  | ⟨6, _⟩ => Body.kernelRun1.sl.v221 c i arg1 harg1 arg2 harg2 x1 x2
  | ⟨7, _⟩ => Body.kernelRun1.sl.v226 c i arg1 harg1 arg2 harg2 x1 x2
  | ⟨8, _⟩ => Body.kernelRun1.sl.v231 c i arg1 harg1 arg2 harg2 x1 x2
  | ⟨9, _⟩ => Body.kernelRun1.sl.v236 c i arg1 harg1 arg2 harg2 x1 x2

/-- What tile t stores, as a function of the tile it loaded. -/
def upd (t : Fin 10) (ld : FVec F S1000x8 .f32) : FVec F S1000x8 .f32 :=
  match t with
  | ⟨0, _⟩ => k1_pay29 (Body.kernelRun1.sl.r_2 c arg6 harg6 x6) (Body.kernelRun1.sl.r_8 c arg3 harg3 arg4 harg4 x3 x4)
      (Body.kernelRun1.sl.v158 c arg4 harg4 x4)
      (View.readAt (Elt F) arg3.view (Rect.unit (s := S10000x8) ![8000, 0] S1000x8.size inb_S10000x8_S1000x8_8000_0).toLoadRect (harg3.unread x3))
      (Body.kernelRun1.sl.v175 c arg4 harg4 x4)
      (View.readAt (Elt F) arg3.view (Rect.unit (s := S10000x8) ![9000, 0] S1000x8.size inb_S10000x8_S1000x8_9000_0).toLoadRect (harg3.unread x3))
      (Body.kernelRun1.sl.v252 c arg4 harg4 arg5 harg5 x4 x5) ld
  | ⟨1, _⟩ => k1_pay31 (Body.kernelRun1.sl.r_12 c arg3 harg3 arg4 harg4 arg6 harg6 x3 x4 x6) (Body.kernelRun1.sl.v252_1 c arg5 harg5 x5) ld
  | ⟨2, _⟩ => k1_pay33 (Body.kernelRun1.sl.r_12 c arg3 harg3 arg4 harg4 arg6 harg6 x3 x4 x6) (Body.kernelRun1.sl.v252_2 c arg5 harg5 x5) ld
  | ⟨3, _⟩ => k1_pay35 (Body.kernelRun1.sl.r_12 c arg3 harg3 arg4 harg4 arg6 harg6 x3 x4 x6) (Body.kernelRun1.sl.v252_3 c arg5 harg5 x5) ld
  | ⟨4, _⟩ => k1_pay37 (Body.kernelRun1.sl.r_12 c arg3 harg3 arg4 harg4 arg6 harg6 x3 x4 x6) (Body.kernelRun1.sl.v252_4 c arg5 harg5 x5) ld
  | ⟨5, _⟩ => k1_pay39 (Body.kernelRun1.sl.r_12 c arg3 harg3 arg4 harg4 arg6 harg6 x3 x4 x6) (Body.kernelRun1.sl.v252_5 c arg5 harg5 x5) ld
  | ⟨6, _⟩ => k1_pay41 (Body.kernelRun1.sl.r_12 c arg3 harg3 arg4 harg4 arg6 harg6 x3 x4 x6) (Body.kernelRun1.sl.v252_6 c arg5 harg5 x5) ld
  | ⟨7, _⟩ => k1_pay43 (Body.kernelRun1.sl.r_12 c arg3 harg3 arg4 harg4 arg6 harg6 x3 x4 x6) (Body.kernelRun1.sl.v252_7 c arg5 harg5 x5) ld
  | ⟨8, _⟩ => k1_pay2 (Body.kernelRun1.sl.r_12 c arg3 harg3 arg4 harg4 arg6 harg6 x3 x4 x6) (Body.kernelRun1.sl.v252_8 c arg5 harg5 x5) ld
  | ⟨9, _⟩ => k1_pay4 (Body.kernelRun1.sl.r_12 c arg3 harg3 arg4 harg4 arg6 harg6 x3 x4 x6) (Body.kernelRun1.sl.v252_9 c arg5 harg5 x5) ld

/-- Tile 0's load is the base's tile 0. -/
theorem ld0 (a8 : Vec F S10000x8 .f32) :
    Body.kernelRun1.sl.v254 (F := F) c i a8 = tileOf (base i a8) 0 (by omega) := by
  funext x
  obtain ⟨r, k, rfl⟩ : ∃ (r : Fin 1000) (k : Fin 8), x = ValueIdx.ix2 r k := ⟨x 0, x 1, ValueIdx.eq_ix2 x⟩
  obtain ⟨n, hn⟩ : ∃ n : Fin 10000, n.val = 0 + r.val := ⟨⟨0 + r.val, by omega⟩, rfl⟩
  rw [tileOf_apply _ 0 _ r k n hn]
  unfold Body.kernelRun1.sl.v254
  refine (readAt_tile _ _ 0 _ r k n hn).trans ?_
  exact read_reset _ _ _ _ _ a8 _

/-- Tile 1's load is the base's tile 1. -/
theorem ld1 (a8 : Vec F S10000x8 .f32) :
    Body.kernelRun1.sl.v254_1 (F := F) c i arg1 harg1 arg2 harg2 arg3 harg3 arg4 harg4 arg5 harg5 arg6 harg6 x1 x2 x3 x4 x5 x6 a8 = tileOf (base i a8) 1000 (by omega) := by
  funext x
  obtain ⟨r, k, rfl⟩ : ∃ (r : Fin 1000) (k : Fin 8), x = ValueIdx.ix2 r k := ⟨x 0, x 1, ValueIdx.eq_ix2 x⟩
  obtain ⟨n, hn⟩ : ∃ n : Fin 10000, n.val = 1000 + r.val := ⟨⟨1000 + r.val, by omega⟩, rfl⟩
  rw [tileOf_apply _ 1000 _ r k n hn]
  unfold Body.kernelRun1.sl.v254_1
  refine (readAt_tile _ _ 1000 _ r k n hn).trans ?_
  refine (AccRead.read_dguarded_tile_of_not_mem _ _ _ 0 _ _ n k (by omega)).trans ?_
  exact read_reset _ _ _ _ _ a8 _

/-- Tile 2's load is the base's tile 2. -/
theorem ld2 (a8 : Vec F S10000x8 .f32) :
    Body.kernelRun1.sl.v254_2 (F := F) c i arg1 harg1 arg2 harg2 arg3 harg3 arg4 harg4 arg5 harg5 arg6 harg6 x1 x2 x3 x4 x5 x6 a8 = tileOf (base i a8) 2000 (by omega) := by
  funext x
  obtain ⟨r, k, rfl⟩ : ∃ (r : Fin 1000) (k : Fin 8), x = ValueIdx.ix2 r k := ⟨x 0, x 1, ValueIdx.eq_ix2 x⟩
  obtain ⟨n, hn⟩ : ∃ n : Fin 10000, n.val = 2000 + r.val := ⟨⟨2000 + r.val, by omega⟩, rfl⟩
  rw [tileOf_apply _ 2000 _ r k n hn]
  unfold Body.kernelRun1.sl.v254_2
  refine (readAt_tile _ _ 2000 _ r k n hn).trans ?_
  refine (AccRead.read_dguarded_tile_of_not_mem _ _ _ 1000 _ _ n k (by omega)).trans ?_
  refine (AccRead.read_dguarded_tile_of_not_mem _ _ _ 0 _ _ n k (by omega)).trans ?_
  exact read_reset _ _ _ _ _ a8 _

/-- Tile 3's load is the base's tile 3. -/
theorem ld3 (a8 : Vec F S10000x8 .f32) :
    Body.kernelRun1.sl.v254_3 (F := F) c i arg1 harg1 arg2 harg2 arg3 harg3 arg4 harg4 arg5 harg5 arg6 harg6 x1 x2 x3 x4 x5 x6 a8 = tileOf (base i a8) 3000 (by omega) := by
  funext x
  obtain ⟨r, k, rfl⟩ : ∃ (r : Fin 1000) (k : Fin 8), x = ValueIdx.ix2 r k := ⟨x 0, x 1, ValueIdx.eq_ix2 x⟩
  obtain ⟨n, hn⟩ : ∃ n : Fin 10000, n.val = 3000 + r.val := ⟨⟨3000 + r.val, by omega⟩, rfl⟩
  rw [tileOf_apply _ 3000 _ r k n hn]
  unfold Body.kernelRun1.sl.v254_3
  refine (readAt_tile _ _ 3000 _ r k n hn).trans ?_
  refine (AccRead.read_dguarded_tile_of_not_mem _ _ _ 2000 _ _ n k (by omega)).trans ?_
  refine (AccRead.read_dguarded_tile_of_not_mem _ _ _ 1000 _ _ n k (by omega)).trans ?_
  refine (AccRead.read_dguarded_tile_of_not_mem _ _ _ 0 _ _ n k (by omega)).trans ?_
  exact read_reset _ _ _ _ _ a8 _

/-- Tile 4's load is the base's tile 4. -/
theorem ld4 (a8 : Vec F S10000x8 .f32) :
    Body.kernelRun1.sl.v254_4 (F := F) c i arg1 harg1 arg2 harg2 arg3 harg3 arg4 harg4 arg5 harg5 arg6 harg6 x1 x2 x3 x4 x5 x6 a8 = tileOf (base i a8) 4000 (by omega) := by
  funext x
  obtain ⟨r, k, rfl⟩ : ∃ (r : Fin 1000) (k : Fin 8), x = ValueIdx.ix2 r k := ⟨x 0, x 1, ValueIdx.eq_ix2 x⟩
  obtain ⟨n, hn⟩ : ∃ n : Fin 10000, n.val = 4000 + r.val := ⟨⟨4000 + r.val, by omega⟩, rfl⟩
  rw [tileOf_apply _ 4000 _ r k n hn]
  unfold Body.kernelRun1.sl.v254_4
  refine (readAt_tile _ _ 4000 _ r k n hn).trans ?_
  refine (AccRead.read_dguarded_tile_of_not_mem _ _ _ 3000 _ _ n k (by omega)).trans ?_
  refine (AccRead.read_dguarded_tile_of_not_mem _ _ _ 2000 _ _ n k (by omega)).trans ?_
  refine (AccRead.read_dguarded_tile_of_not_mem _ _ _ 1000 _ _ n k (by omega)).trans ?_
  refine (AccRead.read_dguarded_tile_of_not_mem _ _ _ 0 _ _ n k (by omega)).trans ?_
  exact read_reset _ _ _ _ _ a8 _

/-- Tile 5's load is the base's tile 5. -/
theorem ld5 (a8 : Vec F S10000x8 .f32) :
    Body.kernelRun1.sl.v254_5 (F := F) c i arg1 harg1 arg2 harg2 arg3 harg3 arg4 harg4 arg5 harg5 arg6 harg6 x1 x2 x3 x4 x5 x6 a8 = tileOf (base i a8) 5000 (by omega) := by
  funext x
  obtain ⟨r, k, rfl⟩ : ∃ (r : Fin 1000) (k : Fin 8), x = ValueIdx.ix2 r k := ⟨x 0, x 1, ValueIdx.eq_ix2 x⟩
  obtain ⟨n, hn⟩ : ∃ n : Fin 10000, n.val = 5000 + r.val := ⟨⟨5000 + r.val, by omega⟩, rfl⟩
  rw [tileOf_apply _ 5000 _ r k n hn]
  unfold Body.kernelRun1.sl.v254_5
  refine (readAt_tile _ _ 5000 _ r k n hn).trans ?_
  refine (AccRead.read_dguarded_tile_of_not_mem _ _ _ 4000 _ _ n k (by omega)).trans ?_
  refine (AccRead.read_dguarded_tile_of_not_mem _ _ _ 3000 _ _ n k (by omega)).trans ?_
  refine (AccRead.read_dguarded_tile_of_not_mem _ _ _ 2000 _ _ n k (by omega)).trans ?_
  refine (AccRead.read_dguarded_tile_of_not_mem _ _ _ 1000 _ _ n k (by omega)).trans ?_
  refine (AccRead.read_dguarded_tile_of_not_mem _ _ _ 0 _ _ n k (by omega)).trans ?_
  exact read_reset _ _ _ _ _ a8 _

/-- Tile 6's load is the base's tile 6. -/
theorem ld6 (a8 : Vec F S10000x8 .f32) :
    Body.kernelRun1.sl.v254_6 (F := F) c i arg1 harg1 arg2 harg2 arg3 harg3 arg4 harg4 arg5 harg5 arg6 harg6 x1 x2 x3 x4 x5 x6 a8 = tileOf (base i a8) 6000 (by omega) := by
  funext x
  obtain ⟨r, k, rfl⟩ : ∃ (r : Fin 1000) (k : Fin 8), x = ValueIdx.ix2 r k := ⟨x 0, x 1, ValueIdx.eq_ix2 x⟩
  obtain ⟨n, hn⟩ : ∃ n : Fin 10000, n.val = 6000 + r.val := ⟨⟨6000 + r.val, by omega⟩, rfl⟩
  rw [tileOf_apply _ 6000 _ r k n hn]
  unfold Body.kernelRun1.sl.v254_6
  refine (readAt_tile _ _ 6000 _ r k n hn).trans ?_
  refine (AccRead.read_dguarded_tile_of_not_mem _ _ _ 5000 _ _ n k (by omega)).trans ?_
  refine (AccRead.read_dguarded_tile_of_not_mem _ _ _ 4000 _ _ n k (by omega)).trans ?_
  refine (AccRead.read_dguarded_tile_of_not_mem _ _ _ 3000 _ _ n k (by omega)).trans ?_
  refine (AccRead.read_dguarded_tile_of_not_mem _ _ _ 2000 _ _ n k (by omega)).trans ?_
  refine (AccRead.read_dguarded_tile_of_not_mem _ _ _ 1000 _ _ n k (by omega)).trans ?_
  refine (AccRead.read_dguarded_tile_of_not_mem _ _ _ 0 _ _ n k (by omega)).trans ?_
  exact read_reset _ _ _ _ _ a8 _

/-- Tile 7's load is the base's tile 7. -/
theorem ld7 (a8 : Vec F S10000x8 .f32) :
    Body.kernelRun1.sl.v254_7 (F := F) c i arg1 harg1 arg2 harg2 arg3 harg3 arg4 harg4 arg5 harg5 arg6 harg6 x1 x2 x3 x4 x5 x6 a8 = tileOf (base i a8) 7000 (by omega) := by
  funext x
  obtain ⟨r, k, rfl⟩ : ∃ (r : Fin 1000) (k : Fin 8), x = ValueIdx.ix2 r k := ⟨x 0, x 1, ValueIdx.eq_ix2 x⟩
  obtain ⟨n, hn⟩ : ∃ n : Fin 10000, n.val = 7000 + r.val := ⟨⟨7000 + r.val, by omega⟩, rfl⟩
  rw [tileOf_apply _ 7000 _ r k n hn]
  unfold Body.kernelRun1.sl.v254_7
  refine (readAt_tile _ _ 7000 _ r k n hn).trans ?_
  refine (AccRead.read_dguarded_tile_of_not_mem _ _ _ 6000 _ _ n k (by omega)).trans ?_
  refine (AccRead.read_dguarded_tile_of_not_mem _ _ _ 5000 _ _ n k (by omega)).trans ?_
  refine (AccRead.read_dguarded_tile_of_not_mem _ _ _ 4000 _ _ n k (by omega)).trans ?_
  refine (AccRead.read_dguarded_tile_of_not_mem _ _ _ 3000 _ _ n k (by omega)).trans ?_
  refine (AccRead.read_dguarded_tile_of_not_mem _ _ _ 2000 _ _ n k (by omega)).trans ?_
  refine (AccRead.read_dguarded_tile_of_not_mem _ _ _ 1000 _ _ n k (by omega)).trans ?_
  refine (AccRead.read_dguarded_tile_of_not_mem _ _ _ 0 _ _ n k (by omega)).trans ?_
  exact read_reset _ _ _ _ _ a8 _

/-- Tile 8's load is the base's tile 8. -/
theorem ld8 (a8 : Vec F S10000x8 .f32) :
    Body.kernelRun1.sl.v254_8 (F := F) c i arg1 harg1 arg2 harg2 arg3 harg3 arg4 harg4 arg5 harg5 arg6 harg6 x1 x2 x3 x4 x5 x6 a8 = tileOf (base i a8) 8000 (by omega) := by
  funext x
  obtain ⟨r, k, rfl⟩ : ∃ (r : Fin 1000) (k : Fin 8), x = ValueIdx.ix2 r k := ⟨x 0, x 1, ValueIdx.eq_ix2 x⟩
  obtain ⟨n, hn⟩ : ∃ n : Fin 10000, n.val = 8000 + r.val := ⟨⟨8000 + r.val, by omega⟩, rfl⟩
  rw [tileOf_apply _ 8000 _ r k n hn]
  unfold Body.kernelRun1.sl.v254_8
  refine (readAt_tile _ _ 8000 _ r k n hn).trans ?_
  refine (AccRead.read_dguarded_tile_of_not_mem _ _ _ 7000 _ _ n k (by omega)).trans ?_
  refine (AccRead.read_dguarded_tile_of_not_mem _ _ _ 6000 _ _ n k (by omega)).trans ?_
  refine (AccRead.read_dguarded_tile_of_not_mem _ _ _ 5000 _ _ n k (by omega)).trans ?_
  refine (AccRead.read_dguarded_tile_of_not_mem _ _ _ 4000 _ _ n k (by omega)).trans ?_
  refine (AccRead.read_dguarded_tile_of_not_mem _ _ _ 3000 _ _ n k (by omega)).trans ?_
  refine (AccRead.read_dguarded_tile_of_not_mem _ _ _ 2000 _ _ n k (by omega)).trans ?_
  refine (AccRead.read_dguarded_tile_of_not_mem _ _ _ 1000 _ _ n k (by omega)).trans ?_
  refine (AccRead.read_dguarded_tile_of_not_mem _ _ _ 0 _ _ n k (by omega)).trans ?_
  exact read_reset _ _ _ _ _ a8 _

/-- Tile 9's load is the base's tile 9. -/
theorem ld9 (a8 : Vec F S10000x8 .f32) :
    Body.kernelRun1.sl.v254_9 (F := F) c i arg1 harg1 arg2 harg2 arg3 harg3 arg4 harg4 arg5 harg5 arg6 harg6 x1 x2 x3 x4 x5 x6 a8 = tileOf (base i a8) 9000 (by omega) := by
  funext x
  obtain ⟨r, k, rfl⟩ : ∃ (r : Fin 1000) (k : Fin 8), x = ValueIdx.ix2 r k := ⟨x 0, x 1, ValueIdx.eq_ix2 x⟩
  obtain ⟨n, hn⟩ : ∃ n : Fin 10000, n.val = 9000 + r.val := ⟨⟨9000 + r.val, by omega⟩, rfl⟩
  rw [tileOf_apply _ 9000 _ r k n hn]
  unfold Body.kernelRun1.sl.v254_9
  refine (readAt_tile _ _ 9000 _ r k n hn).trans ?_
  refine (AccRead.read_dguarded_tile_of_not_mem _ _ _ 8000 _ _ n k (by omega)).trans ?_
  refine (AccRead.read_dguarded_tile_of_not_mem _ _ _ 7000 _ _ n k (by omega)).trans ?_
  refine (AccRead.read_dguarded_tile_of_not_mem _ _ _ 6000 _ _ n k (by omega)).trans ?_
  refine (AccRead.read_dguarded_tile_of_not_mem _ _ _ 5000 _ _ n k (by omega)).trans ?_
  refine (AccRead.read_dguarded_tile_of_not_mem _ _ _ 4000 _ _ n k (by omega)).trans ?_
  refine (AccRead.read_dguarded_tile_of_not_mem _ _ _ 3000 _ _ n k (by omega)).trans ?_
  refine (AccRead.read_dguarded_tile_of_not_mem _ _ _ 2000 _ _ n k (by omega)).trans ?_
  refine (AccRead.read_dguarded_tile_of_not_mem _ _ _ 1000 _ _ n k (by omega)).trans ?_
  refine (AccRead.read_dguarded_tile_of_not_mem _ _ _ 0 _ _ n k (by omega)).trans ?_
  exact read_reset _ _ _ _ _ a8 _

/-- Node 0 + r, column k after the point. -/
theorem acc_tile0 (xi7 a8 : Vec F S10000x8 .f32) (r : Fin 1000) (k : Fin 8) (n : Fin 10000) (hn : n.val = 0 + r.val) :
    (Body.m8_1).view.read (Elt F)
        (Body.kernelRun1 c i arg1 harg1 arg2 harg2 arg3 harg3 arg4 harg4 arg5 harg5 arg6 harg6 x1 x2 x3 x4 x5 x6 xi7 a8).2.1 (ValueIdx.ix2 n k)
      = if Body.kernelRun1.sl.v191 c i arg1 harg1 arg2 harg2 x1 x2 = 1#1 then
          upd c arg3 harg3 arg4 harg4 arg5 harg5 arg6 harg6 x3 x4 x5 x6 ⟨0, by omega⟩ (tileOf (base i a8) 0 (by omega)) (ValueIdx.ix2 r k)
        else base i a8 (ValueIdx.ix2 n k) := by
  unfold Body.kernelRun1
  dsimp only
  refine (AccRead.read_dguarded_tile_of_not_mem _ _ _ 9000 _ _ n k (by omega)).trans ?_
  refine (AccRead.read_dguarded_tile_of_not_mem _ _ _ 8000 _ _ n k (by omega)).trans ?_
  refine (AccRead.read_dguarded_tile_of_not_mem _ _ _ 7000 _ _ n k (by omega)).trans ?_
  refine (AccRead.read_dguarded_tile_of_not_mem _ _ _ 6000 _ _ n k (by omega)).trans ?_
  refine (AccRead.read_dguarded_tile_of_not_mem _ _ _ 5000 _ _ n k (by omega)).trans ?_
  refine (AccRead.read_dguarded_tile_of_not_mem _ _ _ 4000 _ _ n k (by omega)).trans ?_
  refine (AccRead.read_dguarded_tile_of_not_mem _ _ _ 3000 _ _ n k (by omega)).trans ?_
  refine (AccRead.read_dguarded_tile_of_not_mem _ _ _ 2000 _ _ n k (by omega)).trans ?_
  refine (AccRead.read_dguarded_tile_of_not_mem _ _ _ 1000 _ _ n k (by omega)).trans ?_
  refine (AccRead.read_dguarded_tile_of_mem _ _ _ 0 _ _ n k r hn).trans ?_
  refine dite_ite_congr _ ?_ ?_
  · rw [ld0]; rfl
  · exact read_reset _ _ _ _ _ a8 _

/-- Node 1000 + r, column k after the point. -/
theorem acc_tile1 (xi7 a8 : Vec F S10000x8 .f32) (r : Fin 1000) (k : Fin 8) (n : Fin 10000) (hn : n.val = 1000 + r.val) :
    (Body.m8_1).view.read (Elt F)
        (Body.kernelRun1 c i arg1 harg1 arg2 harg2 arg3 harg3 arg4 harg4 arg5 harg5 arg6 harg6 x1 x2 x3 x4 x5 x6 xi7 a8).2.1 (ValueIdx.ix2 n k)
      = if Body.kernelRun1.sl.v196 c i arg1 harg1 arg2 harg2 x1 x2 = 1#1 then
          upd c arg3 harg3 arg4 harg4 arg5 harg5 arg6 harg6 x3 x4 x5 x6 ⟨1, by omega⟩ (tileOf (base i a8) 1000 (by omega)) (ValueIdx.ix2 r k)
        else base i a8 (ValueIdx.ix2 n k) := by
  unfold Body.kernelRun1
  dsimp only
  refine (AccRead.read_dguarded_tile_of_not_mem _ _ _ 9000 _ _ n k (by omega)).trans ?_
  refine (AccRead.read_dguarded_tile_of_not_mem _ _ _ 8000 _ _ n k (by omega)).trans ?_
  refine (AccRead.read_dguarded_tile_of_not_mem _ _ _ 7000 _ _ n k (by omega)).trans ?_
  refine (AccRead.read_dguarded_tile_of_not_mem _ _ _ 6000 _ _ n k (by omega)).trans ?_
  refine (AccRead.read_dguarded_tile_of_not_mem _ _ _ 5000 _ _ n k (by omega)).trans ?_
  refine (AccRead.read_dguarded_tile_of_not_mem _ _ _ 4000 _ _ n k (by omega)).trans ?_
  refine (AccRead.read_dguarded_tile_of_not_mem _ _ _ 3000 _ _ n k (by omega)).trans ?_
  refine (AccRead.read_dguarded_tile_of_not_mem _ _ _ 2000 _ _ n k (by omega)).trans ?_
  refine (AccRead.read_dguarded_tile_of_mem _ _ _ 1000 _ _ n k r hn).trans ?_
  refine dite_ite_congr _ ?_ ?_
  · rw [ld1]; rfl
  · refine (AccRead.read_dguarded_tile_of_not_mem _ _ _ 0 _ _ n k (by omega)).trans ?_
    exact read_reset _ _ _ _ _ a8 _

/-- Node 2000 + r, column k after the point. -/
theorem acc_tile2 (xi7 a8 : Vec F S10000x8 .f32) (r : Fin 1000) (k : Fin 8) (n : Fin 10000) (hn : n.val = 2000 + r.val) :
    (Body.m8_1).view.read (Elt F)
        (Body.kernelRun1 c i arg1 harg1 arg2 harg2 arg3 harg3 arg4 harg4 arg5 harg5 arg6 harg6 x1 x2 x3 x4 x5 x6 xi7 a8).2.1 (ValueIdx.ix2 n k)
      = if Body.kernelRun1.sl.v201 c i arg1 harg1 arg2 harg2 x1 x2 = 1#1 then
          upd c arg3 harg3 arg4 harg4 arg5 harg5 arg6 harg6 x3 x4 x5 x6 ⟨2, by omega⟩ (tileOf (base i a8) 2000 (by omega)) (ValueIdx.ix2 r k)
        else base i a8 (ValueIdx.ix2 n k) := by
  unfold Body.kernelRun1
  dsimp only
  refine (AccRead.read_dguarded_tile_of_not_mem _ _ _ 9000 _ _ n k (by omega)).trans ?_
  refine (AccRead.read_dguarded_tile_of_not_mem _ _ _ 8000 _ _ n k (by omega)).trans ?_
  refine (AccRead.read_dguarded_tile_of_not_mem _ _ _ 7000 _ _ n k (by omega)).trans ?_
  refine (AccRead.read_dguarded_tile_of_not_mem _ _ _ 6000 _ _ n k (by omega)).trans ?_
  refine (AccRead.read_dguarded_tile_of_not_mem _ _ _ 5000 _ _ n k (by omega)).trans ?_
  refine (AccRead.read_dguarded_tile_of_not_mem _ _ _ 4000 _ _ n k (by omega)).trans ?_
  refine (AccRead.read_dguarded_tile_of_not_mem _ _ _ 3000 _ _ n k (by omega)).trans ?_
  refine (AccRead.read_dguarded_tile_of_mem _ _ _ 2000 _ _ n k r hn).trans ?_
  refine dite_ite_congr _ ?_ ?_
  · rw [ld2]; rfl
  · refine (AccRead.read_dguarded_tile_of_not_mem _ _ _ 1000 _ _ n k (by omega)).trans ?_
    refine (AccRead.read_dguarded_tile_of_not_mem _ _ _ 0 _ _ n k (by omega)).trans ?_
    exact read_reset _ _ _ _ _ a8 _

/-- Node 3000 + r, column k after the point. -/
theorem acc_tile3 (xi7 a8 : Vec F S10000x8 .f32) (r : Fin 1000) (k : Fin 8) (n : Fin 10000) (hn : n.val = 3000 + r.val) :
    (Body.m8_1).view.read (Elt F)
        (Body.kernelRun1 c i arg1 harg1 arg2 harg2 arg3 harg3 arg4 harg4 arg5 harg5 arg6 harg6 x1 x2 x3 x4 x5 x6 xi7 a8).2.1 (ValueIdx.ix2 n k)
      = if Body.kernelRun1.sl.v206 c i arg1 harg1 arg2 harg2 x1 x2 = 1#1 then
          upd c arg3 harg3 arg4 harg4 arg5 harg5 arg6 harg6 x3 x4 x5 x6 ⟨3, by omega⟩ (tileOf (base i a8) 3000 (by omega)) (ValueIdx.ix2 r k)
        else base i a8 (ValueIdx.ix2 n k) := by
  unfold Body.kernelRun1
  dsimp only
  refine (AccRead.read_dguarded_tile_of_not_mem _ _ _ 9000 _ _ n k (by omega)).trans ?_
  refine (AccRead.read_dguarded_tile_of_not_mem _ _ _ 8000 _ _ n k (by omega)).trans ?_
  refine (AccRead.read_dguarded_tile_of_not_mem _ _ _ 7000 _ _ n k (by omega)).trans ?_
  refine (AccRead.read_dguarded_tile_of_not_mem _ _ _ 6000 _ _ n k (by omega)).trans ?_
  refine (AccRead.read_dguarded_tile_of_not_mem _ _ _ 5000 _ _ n k (by omega)).trans ?_
  refine (AccRead.read_dguarded_tile_of_not_mem _ _ _ 4000 _ _ n k (by omega)).trans ?_
  refine (AccRead.read_dguarded_tile_of_mem _ _ _ 3000 _ _ n k r hn).trans ?_
  refine dite_ite_congr _ ?_ ?_
  · rw [ld3]; rfl
  · refine (AccRead.read_dguarded_tile_of_not_mem _ _ _ 2000 _ _ n k (by omega)).trans ?_
    refine (AccRead.read_dguarded_tile_of_not_mem _ _ _ 1000 _ _ n k (by omega)).trans ?_
    refine (AccRead.read_dguarded_tile_of_not_mem _ _ _ 0 _ _ n k (by omega)).trans ?_
    exact read_reset _ _ _ _ _ a8 _

/-- Node 4000 + r, column k after the point. -/
theorem acc_tile4 (xi7 a8 : Vec F S10000x8 .f32) (r : Fin 1000) (k : Fin 8) (n : Fin 10000) (hn : n.val = 4000 + r.val) :
    (Body.m8_1).view.read (Elt F)
        (Body.kernelRun1 c i arg1 harg1 arg2 harg2 arg3 harg3 arg4 harg4 arg5 harg5 arg6 harg6 x1 x2 x3 x4 x5 x6 xi7 a8).2.1 (ValueIdx.ix2 n k)
      = if Body.kernelRun1.sl.v211 c i arg1 harg1 arg2 harg2 x1 x2 = 1#1 then
          upd c arg3 harg3 arg4 harg4 arg5 harg5 arg6 harg6 x3 x4 x5 x6 ⟨4, by omega⟩ (tileOf (base i a8) 4000 (by omega)) (ValueIdx.ix2 r k)
        else base i a8 (ValueIdx.ix2 n k) := by
  unfold Body.kernelRun1
  dsimp only
  refine (AccRead.read_dguarded_tile_of_not_mem _ _ _ 9000 _ _ n k (by omega)).trans ?_
  refine (AccRead.read_dguarded_tile_of_not_mem _ _ _ 8000 _ _ n k (by omega)).trans ?_
  refine (AccRead.read_dguarded_tile_of_not_mem _ _ _ 7000 _ _ n k (by omega)).trans ?_
  refine (AccRead.read_dguarded_tile_of_not_mem _ _ _ 6000 _ _ n k (by omega)).trans ?_
  refine (AccRead.read_dguarded_tile_of_not_mem _ _ _ 5000 _ _ n k (by omega)).trans ?_
  refine (AccRead.read_dguarded_tile_of_mem _ _ _ 4000 _ _ n k r hn).trans ?_
  refine dite_ite_congr _ ?_ ?_
  · rw [ld4]; rfl
  · refine (AccRead.read_dguarded_tile_of_not_mem _ _ _ 3000 _ _ n k (by omega)).trans ?_
    refine (AccRead.read_dguarded_tile_of_not_mem _ _ _ 2000 _ _ n k (by omega)).trans ?_
    refine (AccRead.read_dguarded_tile_of_not_mem _ _ _ 1000 _ _ n k (by omega)).trans ?_
    refine (AccRead.read_dguarded_tile_of_not_mem _ _ _ 0 _ _ n k (by omega)).trans ?_
    exact read_reset _ _ _ _ _ a8 _

/-- Node 5000 + r, column k after the point. -/
theorem acc_tile5 (xi7 a8 : Vec F S10000x8 .f32) (r : Fin 1000) (k : Fin 8) (n : Fin 10000) (hn : n.val = 5000 + r.val) :
    (Body.m8_1).view.read (Elt F)
        (Body.kernelRun1 c i arg1 harg1 arg2 harg2 arg3 harg3 arg4 harg4 arg5 harg5 arg6 harg6 x1 x2 x3 x4 x5 x6 xi7 a8).2.1 (ValueIdx.ix2 n k)
      = if Body.kernelRun1.sl.v216 c i arg1 harg1 arg2 harg2 x1 x2 = 1#1 then
          upd c arg3 harg3 arg4 harg4 arg5 harg5 arg6 harg6 x3 x4 x5 x6 ⟨5, by omega⟩ (tileOf (base i a8) 5000 (by omega)) (ValueIdx.ix2 r k)
        else base i a8 (ValueIdx.ix2 n k) := by
  unfold Body.kernelRun1
  dsimp only
  refine (AccRead.read_dguarded_tile_of_not_mem _ _ _ 9000 _ _ n k (by omega)).trans ?_
  refine (AccRead.read_dguarded_tile_of_not_mem _ _ _ 8000 _ _ n k (by omega)).trans ?_
  refine (AccRead.read_dguarded_tile_of_not_mem _ _ _ 7000 _ _ n k (by omega)).trans ?_
  refine (AccRead.read_dguarded_tile_of_not_mem _ _ _ 6000 _ _ n k (by omega)).trans ?_
  refine (AccRead.read_dguarded_tile_of_mem _ _ _ 5000 _ _ n k r hn).trans ?_
  refine dite_ite_congr _ ?_ ?_
  · rw [ld5]; rfl
  · refine (AccRead.read_dguarded_tile_of_not_mem _ _ _ 4000 _ _ n k (by omega)).trans ?_
    refine (AccRead.read_dguarded_tile_of_not_mem _ _ _ 3000 _ _ n k (by omega)).trans ?_
    refine (AccRead.read_dguarded_tile_of_not_mem _ _ _ 2000 _ _ n k (by omega)).trans ?_
    refine (AccRead.read_dguarded_tile_of_not_mem _ _ _ 1000 _ _ n k (by omega)).trans ?_
    refine (AccRead.read_dguarded_tile_of_not_mem _ _ _ 0 _ _ n k (by omega)).trans ?_
    exact read_reset _ _ _ _ _ a8 _

/-- Node 6000 + r, column k after the point. -/
theorem acc_tile6 (xi7 a8 : Vec F S10000x8 .f32) (r : Fin 1000) (k : Fin 8) (n : Fin 10000) (hn : n.val = 6000 + r.val) :
    (Body.m8_1).view.read (Elt F)
        (Body.kernelRun1 c i arg1 harg1 arg2 harg2 arg3 harg3 arg4 harg4 arg5 harg5 arg6 harg6 x1 x2 x3 x4 x5 x6 xi7 a8).2.1 (ValueIdx.ix2 n k)
      = if Body.kernelRun1.sl.v221 c i arg1 harg1 arg2 harg2 x1 x2 = 1#1 then
          upd c arg3 harg3 arg4 harg4 arg5 harg5 arg6 harg6 x3 x4 x5 x6 ⟨6, by omega⟩ (tileOf (base i a8) 6000 (by omega)) (ValueIdx.ix2 r k)
        else base i a8 (ValueIdx.ix2 n k) := by
  unfold Body.kernelRun1
  dsimp only
  refine (AccRead.read_dguarded_tile_of_not_mem _ _ _ 9000 _ _ n k (by omega)).trans ?_
  refine (AccRead.read_dguarded_tile_of_not_mem _ _ _ 8000 _ _ n k (by omega)).trans ?_
  refine (AccRead.read_dguarded_tile_of_not_mem _ _ _ 7000 _ _ n k (by omega)).trans ?_
  refine (AccRead.read_dguarded_tile_of_mem _ _ _ 6000 _ _ n k r hn).trans ?_
  refine dite_ite_congr _ ?_ ?_
  · rw [ld6]; rfl
  · refine (AccRead.read_dguarded_tile_of_not_mem _ _ _ 5000 _ _ n k (by omega)).trans ?_
    refine (AccRead.read_dguarded_tile_of_not_mem _ _ _ 4000 _ _ n k (by omega)).trans ?_
    refine (AccRead.read_dguarded_tile_of_not_mem _ _ _ 3000 _ _ n k (by omega)).trans ?_
    refine (AccRead.read_dguarded_tile_of_not_mem _ _ _ 2000 _ _ n k (by omega)).trans ?_
    refine (AccRead.read_dguarded_tile_of_not_mem _ _ _ 1000 _ _ n k (by omega)).trans ?_
    refine (AccRead.read_dguarded_tile_of_not_mem _ _ _ 0 _ _ n k (by omega)).trans ?_
    exact read_reset _ _ _ _ _ a8 _

/-- Node 7000 + r, column k after the point. -/
theorem acc_tile7 (xi7 a8 : Vec F S10000x8 .f32) (r : Fin 1000) (k : Fin 8) (n : Fin 10000) (hn : n.val = 7000 + r.val) :
    (Body.m8_1).view.read (Elt F)
        (Body.kernelRun1 c i arg1 harg1 arg2 harg2 arg3 harg3 arg4 harg4 arg5 harg5 arg6 harg6 x1 x2 x3 x4 x5 x6 xi7 a8).2.1 (ValueIdx.ix2 n k)
      = if Body.kernelRun1.sl.v226 c i arg1 harg1 arg2 harg2 x1 x2 = 1#1 then
          upd c arg3 harg3 arg4 harg4 arg5 harg5 arg6 harg6 x3 x4 x5 x6 ⟨7, by omega⟩ (tileOf (base i a8) 7000 (by omega)) (ValueIdx.ix2 r k)
        else base i a8 (ValueIdx.ix2 n k) := by
  unfold Body.kernelRun1
  dsimp only
  refine (AccRead.read_dguarded_tile_of_not_mem _ _ _ 9000 _ _ n k (by omega)).trans ?_
  refine (AccRead.read_dguarded_tile_of_not_mem _ _ _ 8000 _ _ n k (by omega)).trans ?_
  refine (AccRead.read_dguarded_tile_of_mem _ _ _ 7000 _ _ n k r hn).trans ?_
  refine dite_ite_congr _ ?_ ?_
  · rw [ld7]; rfl
  · refine (AccRead.read_dguarded_tile_of_not_mem _ _ _ 6000 _ _ n k (by omega)).trans ?_
    refine (AccRead.read_dguarded_tile_of_not_mem _ _ _ 5000 _ _ n k (by omega)).trans ?_
    refine (AccRead.read_dguarded_tile_of_not_mem _ _ _ 4000 _ _ n k (by omega)).trans ?_
    refine (AccRead.read_dguarded_tile_of_not_mem _ _ _ 3000 _ _ n k (by omega)).trans ?_
    refine (AccRead.read_dguarded_tile_of_not_mem _ _ _ 2000 _ _ n k (by omega)).trans ?_
    refine (AccRead.read_dguarded_tile_of_not_mem _ _ _ 1000 _ _ n k (by omega)).trans ?_
    refine (AccRead.read_dguarded_tile_of_not_mem _ _ _ 0 _ _ n k (by omega)).trans ?_
    exact read_reset _ _ _ _ _ a8 _

/-- Node 8000 + r, column k after the point. -/
theorem acc_tile8 (xi7 a8 : Vec F S10000x8 .f32) (r : Fin 1000) (k : Fin 8) (n : Fin 10000) (hn : n.val = 8000 + r.val) :
    (Body.m8_1).view.read (Elt F)
        (Body.kernelRun1 c i arg1 harg1 arg2 harg2 arg3 harg3 arg4 harg4 arg5 harg5 arg6 harg6 x1 x2 x3 x4 x5 x6 xi7 a8).2.1 (ValueIdx.ix2 n k)
      = if Body.kernelRun1.sl.v231 c i arg1 harg1 arg2 harg2 x1 x2 = 1#1 then
          upd c arg3 harg3 arg4 harg4 arg5 harg5 arg6 harg6 x3 x4 x5 x6 ⟨8, by omega⟩ (tileOf (base i a8) 8000 (by omega)) (ValueIdx.ix2 r k)
        else base i a8 (ValueIdx.ix2 n k) := by
  unfold Body.kernelRun1
  dsimp only
  refine (AccRead.read_dguarded_tile_of_not_mem _ _ _ 9000 _ _ n k (by omega)).trans ?_
  refine (AccRead.read_dguarded_tile_of_mem _ _ _ 8000 _ _ n k r hn).trans ?_
  refine dite_ite_congr _ ?_ ?_
  · rw [ld8]; rfl
  · refine (AccRead.read_dguarded_tile_of_not_mem _ _ _ 7000 _ _ n k (by omega)).trans ?_
    refine (AccRead.read_dguarded_tile_of_not_mem _ _ _ 6000 _ _ n k (by omega)).trans ?_
    refine (AccRead.read_dguarded_tile_of_not_mem _ _ _ 5000 _ _ n k (by omega)).trans ?_
    refine (AccRead.read_dguarded_tile_of_not_mem _ _ _ 4000 _ _ n k (by omega)).trans ?_
    refine (AccRead.read_dguarded_tile_of_not_mem _ _ _ 3000 _ _ n k (by omega)).trans ?_
    refine (AccRead.read_dguarded_tile_of_not_mem _ _ _ 2000 _ _ n k (by omega)).trans ?_
    refine (AccRead.read_dguarded_tile_of_not_mem _ _ _ 1000 _ _ n k (by omega)).trans ?_
    refine (AccRead.read_dguarded_tile_of_not_mem _ _ _ 0 _ _ n k (by omega)).trans ?_
    exact read_reset _ _ _ _ _ a8 _

/-- Node 9000 + r, column k after the point. -/
theorem acc_tile9 (xi7 a8 : Vec F S10000x8 .f32) (r : Fin 1000) (k : Fin 8) (n : Fin 10000) (hn : n.val = 9000 + r.val) :
    (Body.m8_1).view.read (Elt F)
        (Body.kernelRun1 c i arg1 harg1 arg2 harg2 arg3 harg3 arg4 harg4 arg5 harg5 arg6 harg6 x1 x2 x3 x4 x5 x6 xi7 a8).2.1 (ValueIdx.ix2 n k)
      = if Body.kernelRun1.sl.v236 c i arg1 harg1 arg2 harg2 x1 x2 = 1#1 then
          upd c arg3 harg3 arg4 harg4 arg5 harg5 arg6 harg6 x3 x4 x5 x6 ⟨9, by omega⟩ (tileOf (base i a8) 9000 (by omega)) (ValueIdx.ix2 r k)
        else base i a8 (ValueIdx.ix2 n k) := by
  unfold Body.kernelRun1
  dsimp only
  refine (AccRead.read_dguarded_tile_of_mem _ _ _ 9000 _ _ n k r hn).trans ?_
  refine dite_ite_congr _ ?_ ?_
  · rw [ld9]; rfl
  · refine (AccRead.read_dguarded_tile_of_not_mem _ _ _ 8000 _ _ n k (by omega)).trans ?_
    refine (AccRead.read_dguarded_tile_of_not_mem _ _ _ 7000 _ _ n k (by omega)).trans ?_
    refine (AccRead.read_dguarded_tile_of_not_mem _ _ _ 6000 _ _ n k (by omega)).trans ?_
    refine (AccRead.read_dguarded_tile_of_not_mem _ _ _ 5000 _ _ n k (by omega)).trans ?_
    refine (AccRead.read_dguarded_tile_of_not_mem _ _ _ 4000 _ _ n k (by omega)).trans ?_
    refine (AccRead.read_dguarded_tile_of_not_mem _ _ _ 3000 _ _ n k (by omega)).trans ?_
    refine (AccRead.read_dguarded_tile_of_not_mem _ _ _ 2000 _ _ n k (by omega)).trans ?_
    refine (AccRead.read_dguarded_tile_of_not_mem _ _ _ 1000 _ _ n k (by omega)).trans ?_
    refine (AccRead.read_dguarded_tile_of_not_mem _ _ _ 0 _ _ n k (by omega)).trans ?_
    exact read_reset _ _ _ _ _ a8 _

/-- Every node at once: node 1000 t + r reads tile t's update of the base's tile under tile t's guard, else the base. -/
theorem acc_tile (t : Fin 10) (xi7 a8 : Vec F S10000x8 .f32) (r : Fin 1000) (k : Fin 8) (n : Fin 10000)
    (hn : n.val = 1000 * t.val + r.val) :
    (Body.m8_1).view.read (Elt F)
        (Body.kernelRun1 c i arg1 harg1 arg2 harg2 arg3 harg3 arg4 harg4 arg5 harg5 arg6 harg6 x1 x2 x3 x4 x5 x6 xi7 a8).2.1 (ValueIdx.ix2 n k)
      = if guardW c i arg1 harg1 arg2 harg2 x1 x2 t = 1#1 then
          upd c arg3 harg3 arg4 harg4 arg5 harg5 arg6 harg6 x3 x4 x5 x6 t (tileOf (base i a8) (1000 * t.val) (by have := t.isLt; omega)) (ValueIdx.ix2 r k)
        else base i a8 (ValueIdx.ix2 n k) := by
  match t with
  | ⟨0, _⟩ => exact acc_tile0 c i arg1 harg1 arg2 harg2 arg3 harg3 arg4 harg4 arg5 harg5 arg6 harg6 x1 x2 x3 x4 x5 x6 xi7 a8 r k n hn
  | ⟨1, _⟩ => exact acc_tile1 c i arg1 harg1 arg2 harg2 arg3 harg3 arg4 harg4 arg5 harg5 arg6 harg6 x1 x2 x3 x4 x5 x6 xi7 a8 r k n hn
  | ⟨2, _⟩ => exact acc_tile2 c i arg1 harg1 arg2 harg2 arg3 harg3 arg4 harg4 arg5 harg5 arg6 harg6 x1 x2 x3 x4 x5 x6 xi7 a8 r k n hn
  | ⟨3, _⟩ => exact acc_tile3 c i arg1 harg1 arg2 harg2 arg3 harg3 arg4 harg4 arg5 harg5 arg6 harg6 x1 x2 x3 x4 x5 x6 xi7 a8 r k n hn
  | ⟨4, _⟩ => exact acc_tile4 c i arg1 harg1 arg2 harg2 arg3 harg3 arg4 harg4 arg5 harg5 arg6 harg6 x1 x2 x3 x4 x5 x6 xi7 a8 r k n hn
  | ⟨5, _⟩ => exact acc_tile5 c i arg1 harg1 arg2 harg2 arg3 harg3 arg4 harg4 arg5 harg5 arg6 harg6 x1 x2 x3 x4 x5 x6 xi7 a8 r k n hn
  | ⟨6, _⟩ => exact acc_tile6 c i arg1 harg1 arg2 harg2 arg3 harg3 arg4 harg4 arg5 harg5 arg6 harg6 x1 x2 x3 x4 x5 x6 xi7 a8 r k n hn
  | ⟨7, _⟩ => exact acc_tile7 c i arg1 harg1 arg2 harg2 arg3 harg3 arg4 harg4 arg5 harg5 arg6 harg6 x1 x2 x3 x4 x5 x6 xi7 a8 r k n hn
  | ⟨8, _⟩ => exact acc_tile8 c i arg1 harg1 arg2 harg2 arg3 harg3 arg4 harg4 arg5 harg5 arg6 harg6 x1 x2 x3 x4 x5 x6 xi7 a8 r k n hn
  | ⟨9, _⟩ => exact acc_tile9 c i arg1 harg1 arg2 harg2 arg3 harg3 arg4 harg4 arg5 harg5 arg6 harg6 x1 x2 x3 x4 x5 x6 xi7 a8 r k n hn

/-- What the point found enters only through the base: at a point whose base is the same for two accumulators the
    whole result is the same. -/
theorem acc_congr_base (xi7 xi7' a a' : Vec F S10000x8 .f32) (h : base i a = base i a') :
    (Body.m8_1).view.read (Elt F) (Body.kernelRun1 c i arg1 harg1 arg2 harg2 arg3 harg3 arg4 harg4 arg5 harg5 arg6 harg6 x1 x2 x3 x4 x5 x6 xi7 a).2.1
      = (Body.m8_1).view.read (Elt F) (Body.kernelRun1 c i arg1 harg1 arg2 harg2 arg3 harg3 arg4 harg4 arg5 harg5 arg6 harg6 x1 x2 x3 x4 x5 x6 xi7' a').2.1 := by
  funext y
  obtain ⟨n, k, rfl⟩ : ∃ (n : Fin 10000) (k : Fin 8), y = ValueIdx.ix2 n k := ⟨y 0, y 1, ValueIdx.eq_ix2 y⟩
  have hn : n.val = 1000 * (⟨n.val / 1000, by have := n.isLt; omega⟩ : Fin 10).val + (⟨n.val % 1000, Nat.mod_lt _ (by omega)⟩ : Fin 1000).val :=
    (Nat.div_add_mod n.val 1000).symm
  rw [acc_tile c i arg1 harg1 arg2 harg2 arg3 harg3 arg4 harg4 arg5 harg5 arg6 harg6 x1 x2 x3 x4 x5 x6 _ xi7 a _ k n hn, acc_tile c i arg1 harg1 arg2 harg2 arg3 harg3 arg4 harg4 arg5 harg5 arg6 harg6 x1 x2 x3 x4 x5 x6 _ xi7' a' _ k n hn, h]

end Tiles

/-! ## The first grid point -/

/-- The reset's guard, as the run names it, is the grid coordinate being zero. -/
theorem first_eq (i : grid1.Coords) : Body.kernelRun1.sl.v2 i = 1#1 ↔ (i 0).val = 0 := by
  sl_unfold_run_names
  exact AccRead.first_iff (i 0).val (i 0).isLt

/-! ## The accumulator the point leaves -/

section Final
variable (c : Dev nD) (i : grid1.Coords)
  (arg1 : Memref sig .tc .smem S489 .i32) (harg1 : arg1.IsWhole) (arg2 : Memref sig .tc .smem S489 .i32) (harg2 : arg2.IsWhole)
  (arg3 : Memref sig .tc .vmem S10000x8 .f32) (harg3 : arg3.IsWhole) (arg4 : Memref sig .tc .vmem S4096 .i32) (harg4 : arg4.IsWhole)
  (arg5 : Memref sig .tc .vmem S4096 .i32) (harg5 : arg5.IsWhole) (arg6 : Memref sig .tc .vmem S4096 .f32) (harg6 : arg6.IsWhole)
  (x1 x2 : Vec F S489 .i32) (x3 : Vec F S10000x8 .f32) (x4 x5 : Vec F S4096 .i32) (x6 : Vec F S4096 .f32)

/-- Node 1000 t + r, column k of the accumulator the point leaves: tile t's update of the base's tile under tile t's
    guard, else the base. -/
theorem acc8_1_tile (a8 : Vec F S10000x8 .f32) (t : Fin 10) (r : Fin 1000) (k : Fin 8) (n : Fin 10000)
    (hn : n.val = 1000 * t.val + r.val) :
    Body.acc8_1 c i arg1 harg1 arg2 harg2 arg3 harg3 arg4 harg4 arg5 harg5 arg6 harg6 x1 x2 x3 x4 x5 x6 a8 (ValueIdx.ix2 n k)
      = if guardW c i arg1 harg1 arg2 harg2 x1 x2 t = 1#1 then
          upd c arg3 harg3 arg4 harg4 arg5 harg5 arg6 harg6 x3 x4 x5 x6 t (tileOf (base i a8) (1000 * t.val) (by have := t.isLt; omega)) (ValueIdx.ix2 r k)
        else base i a8 (ValueIdx.ix2 n k) := by
  show (Body.m8_1).view.read (Elt F) (Body.kernelRun1 c i arg1 harg1 arg2 harg2 arg3 harg3 arg4 harg4 arg5 harg5 arg6 harg6 x1 x2 x3 x4 x5 x6 a8 a8).2.1 (ValueIdx.ix2 n k) = _
  exact acc_tile c i arg1 harg1 arg2 harg2 arg3 harg3 arg4 harg4 arg5 harg5 arg6 harg6 x1 x2 x3 x4 x5 x6 t a8 a8 r k n hn

/-- At the first point the accumulator is reset before it is read: what it held does not matter. -/
theorem acc8_1_first (a a' : Vec F S10000x8 .f32) (h : (i 0).val = 0) :
    Body.acc8_1 c i arg1 harg1 arg2 harg2 arg3 harg3 arg4 harg4 arg5 harg5 arg6 harg6 x1 x2 x3 x4 x5 x6 a = Body.acc8_1 c i arg1 harg1 arg2 harg2 arg3 harg3 arg4 harg4 arg5 harg5 arg6 harg6 x1 x2 x3 x4 x5 x6 a' := by
  show (Body.m8_1).view.read (Elt F) (Body.kernelRun1 c i arg1 harg1 arg2 harg2 arg3 harg3 arg4 harg4 arg5 harg5 arg6 harg6 x1 x2 x3 x4 x5 x6 a a).2.1
    = (Body.m8_1).view.read (Elt F) (Body.kernelRun1 c i arg1 harg1 arg2 harg2 arg3 harg3 arg4 harg4 arg5 harg5 arg6 harg6 x1 x2 x3 x4 x5 x6 a' a').2.1
  exact acc_congr_base c i arg1 harg1 arg2 harg2 arg3 harg3 arg4 harg4 arg5 harg5 arg6 harg6 x1 x2 x3 x4 x5 x6 a a' a a' (base_first i a a' ((first_eq i).mpr h))

end Final

end Cert.KernelIdeal.AccEval1

end
-- ==== Proof.Dat1.lean ====
/-
  The second message pass (custom_call 1) as a pipeline on one core: its proof data at the contents `V` the region
  finds in the core's unscoped buffers, and the body obligation.

  The two prefetched tables are read off `V` and held whole through every point. The node states (window 0) are one
  block fetched once; the gather indices, scatter indices and weights (windows 1 to 3) move to a new block of 4096
  entries at every point; each input's buffer holds its block at every point, fetched there or not. The accumulator
  is a scoped buffer carried between points: before point `t + 1` it holds `accAt1 (t + 1)`, the body's update at
  point `t` of `accAt1 t`; before point 0 it holds anything, and the body resets it there before reading it. The
  output block (window 4) is written by the body at the last point only, where it receives the updated accumulator,
  and is written back only there: before, the body hands its buffer back as it found it. So the output array ends
  holding `accAt1 489`, and the input arrays are never written.
-/
import proofs.«400082_j83537113907851_4_alg».proof.Proof.Run1
import proofs.«400082_j83537113907851_4_alg».proof.Proof.AccEval1
import proofs.«400082_j83537113907851_4_alg».proof.Proof.Gen.KernelIdeal.Launch
import Idealize.ShloMosaic.Lib.Pipeline.Frame
import Idealize.ShloMosaic.Lib.Pipeline.FrameBody
import Idealize.ShloMosaic.Lib.Pipeline.Kit
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- core `c`'s unscoped buffers as the region finds them
variable (V : (c : Dev nD) → (b : Ref sig .tc) → Buf (Elt F) ((c : Thread nD τ).loc b))

/-! ## The tables, the grid's points, the windows' blocks -/

/-- The admissible table contents the region runs at: the two tables as core 0 (the only core) holds them at entry.
    The side condition on them is empty. -/
abbrev adm1 : (pcfg1 (F := F)).Adm :=
  ⟨fun | 0 => V 0 main_v75 | 1 => V 0 main_v78 | ⟨_ + 2, h⟩ => absurd h (Nat.not_lt.2 (Nat.le_add_left _ _)), trivial⟩

/-- The two tables at their literal type. -/
abbrev tabA1 : Vec F S489 .i32 := (adm1 V).1 0
abbrev tabB1 : Vec F S489 .i32 := (adm1 V).1 1

/-- The grid has 489 points at any table contents. -/
theorem N1_eq (a : (pcfg1 (F := F)).Adm) : (cfg1 a).N = 489 := N_1

/-- Point number `t` of the grid. -/
abbrev pt1 (t : Nat) (h : t < 489) : Fin (cfg1 (adm1 V)).N := ⟨t, Nat.lt_of_lt_of_eq h (N1_eq (adm1 V)).symm⟩

/-- Window `w`'s block at point `t`, read off its array as the region finds it (`V`). -/
def iblk1 (c : Dev nD) (w : Fin (cfg1 (adm1 V)).W) (t : Fin (cfg1 (adm1 V)).N) :
    (((cfg1 (adm1 V)).win w).xblock ((cfg1 (adm1 V)).grid.coords t)).Idx → Elt F ((cfg1 (adm1 V)).win w).elt :=
  (((cfg1 (adm1 V)).win w).blk t).view.read (Elt F) (V c (Pipeline.arrRef spec1 w))

/-- The four input blocks at their literal types: the node states, and the chunk's gather indices, scatter indices and weights. -/
abbrev xs1 (c : Dev nD) (t : Fin (cfg1 (adm1 V)).N) : Vec F S10000x8 .f32 := iblk1 V c 0 t
abbrev gi1 (c : Dev nD) (t : Fin (cfg1 (adm1 V)).N) : Vec F S4096 .i32 := iblk1 V c 1 t
abbrev si1 (c : Dev nD) (t : Fin (cfg1 (adm1 V)).N) : Vec F S4096 .i32 := iblk1 V c 2 t
abbrev ws1 (c : Dev nD) (t : Fin (cfg1 (adm1 V)).N) : Vec F S4096 .f32 := iblk1 V c 3 t

/-! ## The body's two results, on the memrefs the pipeline calls it with -/

/-- The accumulator after the body at grid coordinates `i`, called with the two tables' whole memrefs and the inputs'
    staging buffers `s0 … s3`, from the values it reads and the accumulator `a8` it found. -/
def accOn1 (c : Dev nD) (i : grid1.Coords) (s0 : Fin 1) (s1 s2 s3 : Fin 2) (x1 x2 : Vec F S489 .i32) (x3 : Vec F S10000x8 .f32)
    (x4 x5 : Vec F S4096 .i32) (x6 : Vec F S4096 .f32) (a8 : Vec F S10000x8 .f32) : Vec F S10000x8 .f32 :=
  Body.acc8_1 c i (Memref.whole main_v75) (Memref.isWhole_whole _) (Memref.whole main_v78) (Memref.isWhole_whole _)
    (stage1_0 s0) (hstage1_0 s0) (stage1_1 s1) (hstage1_1 s1) (stage1_2 s2) (hstage1_2 s2) (stage1_3 s3) (hstage1_3 s3)
    x1 x2 x3 x4 x5 x6 a8

/-- The output block's buffer after the same call, having held `xi7`. -/
def outOn1 (c : Dev nD) (i : grid1.Coords) (s0 : Fin 1) (s1 s2 s3 : Fin 2) (x1 x2 : Vec F S489 .i32) (x3 : Vec F S10000x8 .f32)
    (x4 x5 : Vec F S4096 .i32) (x6 : Vec F S4096 .f32) (xi7 a8 : Vec F S10000x8 .f32) : Vec F S10000x8 .f32 :=
  Body.out7_1 c i (Memref.whole main_v75) (Memref.isWhole_whole _) (Memref.whole main_v78) (Memref.isWhole_whole _)
    (stage1_0 s0) (hstage1_0 s0) (stage1_1 s1) (hstage1_1 s1) (stage1_2 s2) (hstage1_2 s2) (stage1_3 s3) (hstage1_3 s3)
    x1 x2 x3 x4 x5 x6 xi7 a8

/-- Before the last point the body leaves the output block's buffer as it found it; at the last point it copies the
    updated accumulator into it; at the first point the accumulator is reset before it is read. -/
theorem outOn1_idle {c : Dev nD} {i : grid1.Coords} {s0 : Fin 1} {s1 s2 s3 : Fin 2} {x1 x2 : Vec F S489 .i32} {x3 : Vec F S10000x8 .f32}
    {x4 x5 : Vec F S4096 .i32} {x6 : Vec F S4096 .f32} {xi7 a8 : Vec F S10000x8 .f32} (h : ¬ k1_cond12 i = 1#1) :
    outOn1 c i s0 s1 s2 s3 x1 x2 x3 x4 x5 x6 xi7 a8 = xi7 :=
  Body.out7_1_idle _ _ _ _ _ _ _ _ _ _ _ _ _ _ _ _ _ _ _ _ _ _ h
theorem outOn1_last {c : Dev nD} {i : grid1.Coords} {s0 : Fin 1} {s1 s2 s3 : Fin 2} {x1 x2 : Vec F S489 .i32} {x3 : Vec F S10000x8 .f32}
    {x4 x5 : Vec F S4096 .i32} {x6 : Vec F S4096 .f32} {xi7 a8 : Vec F S10000x8 .f32} (h : k1_cond12 i = 1#1) :
    outOn1 c i s0 s1 s2 s3 x1 x2 x3 x4 x5 x6 xi7 a8 = accOn1 c i s0 s1 s2 s3 x1 x2 x3 x4 x5 x6 a8 :=
  Body.out7_1_last _ _ _ _ _ _ _ _ _ _ _ _ _ _ _ _ _ _ _ _ _ _ h
theorem accOn1_first {c : Dev nD} {i : grid1.Coords} {s0 : Fin 1} {s1 s2 s3 : Fin 2} {x1 x2 : Vec F S489 .i32} {x3 : Vec F S10000x8 .f32}
    {x4 x5 : Vec F S4096 .i32} {x6 : Vec F S4096 .f32} (a a' : Vec F S10000x8 .f32) (h : (i 0).val = 0) :
    accOn1 c i s0 s1 s2 s3 x1 x2 x3 x4 x5 x6 a = accOn1 c i s0 s1 s2 s3 x1 x2 x3 x4 x5 x6 a' :=
  AccEval1.acc8_1_first _ _ _ _ _ _ _ _ _ _ _ _ _ _ _ _ _ _ _ _ _ _ h

/-! ## The accumulator between points -/

/-- Contents that nothing reads: some contents of a 10000 x 8 buffer. -/
def any1 : Vec F S10000x8 .f32 := fun _ => @Classical.arbitrary (Elt F .f32) (Elt.nonempty F .f32)

/-- The accumulator BEFORE point `t`: anything before point 0 (the body resets it there before reading it); before
    point `t + 1` the body's update at point `t` of what it held before point `t`; unchanged past the grid. -/
def accAt1 (c : Dev nD) : Nat → Vec F S10000x8 .f32
  | 0 => any1
  | t + 1 =>
    if h : t < 489 then
      accOn1 c (grid1.coords (pt1 V t h)) ((cfg1 (adm1 V)).slots (pt1 V t h) 0) ((cfg1 (adm1 V)).slots (pt1 V t h) 1) ((cfg1 (adm1 V)).slots (pt1 V t h) 2) ((cfg1 (adm1 V)).slots (pt1 V t h) 3)
        (tabA1 V) (tabB1 V) (xs1 V c (pt1 V t h)) (gi1 V c (pt1 V t h)) (si1 V c (pt1 V t h)) (ws1 V c (pt1 V t h)) (accAt1 c t)
    else accAt1 c t

/-! ## The invariant between points and the proof data -/

/-- Between points: the two tables held whole at the contents the pipeline runs at; the accumulator at anything before
    point 0 and at `accAt1 t` before a later point `t`; the one-hot scratch at anything; the core's other scoped
    buffers that are no staging buffer of this call, each at some contents; the generator register at some state. -/
def Phi1 (c : Dev nD) (t : Fin ((cfg1 (adm1 V)).N + 1)) : sProp 𝕄 :=
  iprop(Pipeline.prefHeld pre1 c (fun _ => fullShare) (adm1 V).1
    ∗ (if t.val = 0 then iprop(∃ d, owns (c : Thread nD τ) Body.m8_1 fullShare d)
        else owns (c : Thread nD τ) Body.m8_1 fullShare (accAt1 V c t.val))
    ∗ (∃ d, owns (c : Thread nD τ) Body.m9_1 fullShare d)
    ∗ Pipeline.scopedRestBut (Ix := Unit) (Name := ℕ) (U := UR sig nD τ) (Lvl := ℕ) (Val := Elt F) spec1 c [cc1_scratch0, cc1_scratch1]
    ∗ ∃ r, prngReg c r)

/-- The proof data of pipeline 1 on core `c`: the arrays as the region finds them (`V`); after the body at point `t`
    each input's buffer at its block, and the output's buffer at what the body leaves there having found anything
    (consulted at the last point only, where it is the updated accumulator whatever the buffer held); the invariant
    `Phi1`; nothing owed; full shares. -/
def dat1 (c : Dev nD) : Dat τ (Elt F) Unit ℕ (UR sig nD τ) ℕ (cfg1 (adm1 V)) c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outOn1 c (grid1.coords t) ((cfg1 (adm1 V)).slots t 0) ((cfg1 (adm1 V)).slots t 1) ((cfg1 (adm1 V)).slots t 2) ((cfg1 (adm1 V)).slots t 3)
        (tabA1 V) (tabB1 V) (xs1 V c t) (gi1 V c t) (si1 V c t) (ws1 V c t) any1 (accAt1 V c t.val)
  Φ t := Phi1 V c t
  q _ := fullShare
  owed _ := 0

/-- The proof data's arrays are the region-entry contents. -/
theorem A_eq1 (c : Dev nD) (w : Fin (cfg1 (adm1 V)).W) : (dat1 V c).A w = V c (Pipeline.arrRef spec1 w) := by
  dsimp only [dat1]

/-- Nothing is owed between points, every array is held at the full share, and the invariant is `Phi1`. -/
theorem owed1 (c : Dev nD) (t : Fin ((cfg1 (adm1 V)).N + 1)) : (dat1 V c).owed t = 0 := rfl
theorem share1 (c : Dev nD) (w : Fin (cfg1 (adm1 V)).W) : (dat1 V c).q w = fullShare := rfl
theorem Phi_eq1 (c : Dev nD) (t : Fin ((cfg1 (adm1 V)).N + 1)) : (dat1 V c).Φ t = Phi1 V c t := rfl

/-- What the body leaves, window by window. -/
theorem after_xs1 (c : Dev nD) (t : Fin (cfg1 (adm1 V)).N) : (dat1 V c).after 0 t = iblk1 V c 0 t := rfl
theorem after_gi1 (c : Dev nD) (t : Fin (cfg1 (adm1 V)).N) : (dat1 V c).after 1 t = iblk1 V c 1 t := rfl
theorem after_si1 (c : Dev nD) (t : Fin (cfg1 (adm1 V)).N) : (dat1 V c).after 2 t = iblk1 V c 2 t := rfl
theorem after_ws1 (c : Dev nD) (t : Fin (cfg1 (adm1 V)).N) : (dat1 V c).after 3 t = iblk1 V c 3 t := rfl
theorem after_out1 (c : Dev nD) (t : Fin (cfg1 (adm1 V)).N) :
    (dat1 V c).after 4 t = outOn1 c (grid1.coords t) ((cfg1 (adm1 V)).slots t 0) ((cfg1 (adm1 V)).slots t 1) ((cfg1 (adm1 V)).slots t 2) ((cfg1 (adm1 V)).slots t 3)
      (tabA1 V) (tabB1 V) (xs1 V c t) (gi1 V c t) (si1 V c t) (ws1 V c t) any1 (accAt1 V c t.val) := rfl

/-! ## What the body finds in the inputs' buffers -/

/-- Each input's current staging buffer holds its block at every point, fetched there or not: unfetched, the block
    index has not moved since the fetch, and the body leaves the block in place. No input block is cut and no input
    is idle anywhere. -/
theorem before_xs1 (c : Dev nD) (t : Fin (cfg1 (adm1 V)).N) (d) : (dat1 V c).before 0 t d = iblk1 V c 0 t :=
  ((dat1 V c).before_in_eq_fetched 0 rfl (fun _ => rfl) (fun _ _ _ => rfl)
    (fun t => by rw [after_xs1]; unfold Dat.blockOf iblk1; rw [A_eq1]; try rfl) t d).trans
    (by unfold Dat.fetched Dat.blockOf iblk1; rw [A_eq1]; try rfl)
theorem before_gi1 (c : Dev nD) (t : Fin (cfg1 (adm1 V)).N) (d) : (dat1 V c).before 1 t d = iblk1 V c 1 t :=
  ((dat1 V c).before_in_eq_fetched 1 rfl (fun _ => rfl) (fun _ _ _ => rfl)
    (fun t => by rw [after_gi1]; unfold Dat.blockOf iblk1; rw [A_eq1]; try rfl) t d).trans
    (by unfold Dat.fetched Dat.blockOf iblk1; rw [A_eq1]; try rfl)
theorem before_si1 (c : Dev nD) (t : Fin (cfg1 (adm1 V)).N) (d) : (dat1 V c).before 2 t d = iblk1 V c 2 t :=
  ((dat1 V c).before_in_eq_fetched 2 rfl (fun _ => rfl) (fun _ _ _ => rfl)
    (fun t => by rw [after_si1]; unfold Dat.blockOf iblk1; rw [A_eq1]; try rfl) t d).trans
    (by unfold Dat.fetched Dat.blockOf iblk1; rw [A_eq1]; try rfl)
theorem before_ws1 (c : Dev nD) (t : Fin (cfg1 (adm1 V)).N) (d) : (dat1 V c).before 3 t d = iblk1 V c 3 t :=
  ((dat1 V c).before_in_eq_fetched 3 rfl (fun _ => rfl) (fun _ _ _ => rfl)
    (fun t => by rw [after_ws1]; unfold Dat.blockOf iblk1; rw [A_eq1]; try rfl) t d).trans
    (by unfold Dat.fetched Dat.blockOf iblk1; rw [A_eq1]; try rfl)

/-! ## The schedule of the output window, at any table contents -/

/-- The grid's one coordinate of point `t` is `t`. -/
theorem coords_val1 (t : Fin grid1.N) : (grid1.coords t 0).val = t.val := by
  have hs : grid1.stride 0 = 1 := by decide
  have ht : t.val < 489 := Nat.lt_of_lt_of_eq t.isLt N_1
  show t.val / grid1.stride 0 % 489 = t.val
  rw [hs, Nat.div_one, Nat.mod_eq_of_lt ht]

/-- At the last point the body's store of the output block is taken. -/
theorem cond_last1 (i : grid1.Coords) (h : (i 0).val = 488) : k1_cond12 i = 1#1 := by
  show Scalar.cmpi .ne (Scalar.extui (Scalar.cmpi .eq (BitVec.ofNat 32 (i 0).val) 488#32)) 0#32 = 1#1
  rw [h]; first | rfl | decide

/-- The output block's index is constant. -/
theorem index_out1 (a : (pcfg1 (F := F)).Adm) (u : Fin (cfg1 a).N) : ((cfg1 a).win 4).index u = ![0, 0] := rfl

/-- The output block's index never moves, so it is written back at the last point and nowhere else. -/
theorem flush_out1 (a : (pcfg1 (F := F)).Adm) (t : Fin (cfg1 a).N) : ((cfg1 a).win 4).flush t = true ↔ t.val + 1 = 489 := by
  unfold Window.flush
  simp only [Bool.and_eq_true, Bool.or_eq_true, decide_eq_true_eq]
  constructor
  · rintro ⟨-, h | ⟨h, hne⟩⟩
    · exact h.trans (N1_eq a)
    · exact absurd ((index_out1 a _).trans (index_out1 a _).symm) hne
  · intro h; exact ⟨rfl, Or.inl (h.trans (N1_eq a).symm)⟩

/-- Where the body does not store the output block, the block is not written back. -/
theorem flush_idle1 (a : (pcfg1 (F := F)).Adm) (t : Fin (cfg1 a).N) (hc : ¬ k1_cond12 (grid1.coords t) = 1#1) :
    ((cfg1 a).win 4).flush t = false := by
  rw [Bool.eq_false_iff]
  intro h
  have h1 := (flush_out1 a t).mp h
  exact hc (cond_last1 _ (by rw [coords_val1]; omega))

/-- The output window is idle exactly where the body does not store the output block. -/
theorem idle_out1 (a : (pcfg1 (F := F)).Adm) (t : Fin (cfg1 a).N) :
    (cfg1 a).idle 4 ((cfg1 a).grid.coords t) = !(k1_cond12 (grid1.coords t) == 1#1) := rfl

/-! ## The accumulator's step and the output block at the last point -/

/-- The body's update at point `t` of what the accumulator held — `accAt1 t`, or at point 0 anything — is `accAt1 (t + 1)`. -/
theorem acc_step1 (c : Dev nD) (t : Fin (cfg1 (adm1 V)).N) (a8 : Vec F S10000x8 .f32) (h : t.val = 0 ∨ a8 = accAt1 V c t.val) :
    accOn1 c (grid1.coords t) ((cfg1 (adm1 V)).slots t 0) ((cfg1 (adm1 V)).slots t 1) ((cfg1 (adm1 V)).slots t 2) ((cfg1 (adm1 V)).slots t 3)
      (tabA1 V) (tabB1 V) (xs1 V c t) (gi1 V c t) (si1 V c t) (ws1 V c t) a8 = accAt1 V c (t.val + 1) := by
  have ht : t.val < 489 := Nat.lt_of_lt_of_eq t.isLt (N1_eq (adm1 V))
  rw [accAt1, dif_pos ht]
  show _ = accOn1 c (grid1.coords t) ((cfg1 (adm1 V)).slots t 0) ((cfg1 (adm1 V)).slots t 1) ((cfg1 (adm1 V)).slots t 2) ((cfg1 (adm1 V)).slots t 3)
      (tabA1 V) (tabB1 V) (xs1 V c t) (gi1 V c t) (si1 V c t) (ws1 V c t) (accAt1 V c t.val)
  rcases h with h | h
  · exact accOn1_first _ _ (by rw [coords_val1]; exact h)
  · rw [h]
/-- The output block's buffer after the body at point `t`: as found before the last point, the updated accumulator at the last. -/
theorem out_idle1 (c : Dev nD) (t : Fin (cfg1 (adm1 V)).N) (hc : ¬ k1_cond12 (grid1.coords t) = 1#1) (xi7 a8 : Vec F S10000x8 .f32) :
    outOn1 c (grid1.coords t) ((cfg1 (adm1 V)).slots t 0) ((cfg1 (adm1 V)).slots t 1) ((cfg1 (adm1 V)).slots t 2) ((cfg1 (adm1 V)).slots t 3)
      (tabA1 V) (tabB1 V) (xs1 V c t) (gi1 V c t) (si1 V c t) (ws1 V c t) xi7 a8 = xi7 :=
  outOn1_idle hc
theorem out_last1 (c : Dev nD) (t : Fin (cfg1 (adm1 V)).N) (hc : k1_cond12 (grid1.coords t) = 1#1) (xi7 a8 : Vec F S10000x8 .f32) :
    outOn1 c (grid1.coords t) ((cfg1 (adm1 V)).slots t 0) ((cfg1 (adm1 V)).slots t 1) ((cfg1 (adm1 V)).slots t 2) ((cfg1 (adm1 V)).slots t 3)
      (tabA1 V) (tabB1 V) (xs1 V c t) (gi1 V c t) (si1 V c t) (ws1 V c t) xi7 a8
      = accOn1 c (grid1.coords t) ((cfg1 (adm1 V)).slots t 0) ((cfg1 (adm1 V)).slots t 1) ((cfg1 (adm1 V)).slots t 2) ((cfg1 (adm1 V)).slots t 3)
          (tabA1 V) (tabB1 V) (xs1 V c t) (gi1 V c t) (si1 V c t) (ws1 V c t) a8 :=
  outOn1_last hc

/-- Before point 0 the accumulator holds anything, before a later point `t` it holds `accAt1 t`: either way contents
    whose update at `t` is `accAt1 (t + 1)`. -/
theorem acc_open1 (c : Dev nD) (t : Fin (cfg1 (adm1 V)).N) :
    (if t.castSucc.val = 0 then iprop(∃ d, owns (c : Thread nD τ) Body.m8_1 fullShare d)
        else owns (c : Thread nD τ) Body.m8_1 fullShare (accAt1 V c t.castSucc.val) : sProp 𝕄)
      ⊢ iprop(∃ a8, ⌜t.val = 0 ∨ a8 = accAt1 V c t.val⌝ ∗ owns (c : Thread nD τ) Body.m8_1 fullShare a8) := by
  have e : t.castSucc.val = t.val := rfl
  rw [e]
  split
  · next h =>
    iintro ⟨%d, H⟩; iexists d; isplitr
    · ipureintro; exact Or.inl h
    · iexact H
  · iintro H; iexists _; isplitr
    · ipureintro; exact Or.inr rfl
    · iexact H

/-- The two tables the pipeline holds, as the two whole memrefs the body reads them through. -/
theorem prefHeld_pair1 (c : Dev nD) (q : Fin 2 → PosShare TreeShare) (v : pre1.Contents (Elt F)) :
    (Pipeline.prefHeld pre1 c q v : sProp 𝕄)
      = iprop((((c : Thread nD τ).loc main_v75) ↦{q 0} (show Buf (Elt F) ((c : Thread nD τ).loc main_v75) from v 0))
          ∗ (((c : Thread nD τ).loc main_v78) ↦{q 1} (show Buf (Elt F) ((c : Thread nD τ).loc main_v78) from v 1))) := by
  unfold Pipeline.prefHeld
  rw [show (Finset.univ : Finset (Fin 2)) = insert 0 {1} from by decide, bigSep_insert (by decide), bigSep_singleton]
  rfl

theorem prefHeld_full1 (c : Dev nD) :
    (Pipeline.prefHeld pre1 c (fun _ => fullShare) (adm1 V).1 : sProp 𝕄)
      = iprop(owns (c : Thread nD τ) (Memref.whole main_v75) fullShare (tabA1 V) ∗ owns (c : Thread nD τ) (Memref.whole main_v78) fullShare (tabB1 V)) :=
  (prefHeld_pair1 c _ _).trans (congrArg₂ (fun a b : sProp 𝕄 => iprop(a ∗ b))
    (owns_whole (c : Thread nD τ) main_v75 fullShare (tabA1 V)).symm (owns_whole (c : Thread nD τ) main_v78 fullShare (tabB1 V)).symm)

/-! ## The body at a point -/

/-- The kernel body at grid coordinates `i` on the staging buffers `s0 … s4` of the five windows, the two tables and the
    two scratch buffers: what the pipeline calls at a point whose current buffers those are. -/
abbrev bodyOn1 (i : grid1.Coords) (s0 : Fin 1) (s1 s2 s3 : Fin 2) (s4 : Fin 1) : Prog (TpuEff nD τ sig (Elt F) Λ₀ .tc) PUnit :=
  cc1__mp_kernel i (Memref.whole main_v75) (Memref.isWhole_whole _) (Memref.whole main_v78) (Memref.isWhole_whole _)
    (stage1_0 s0) (hstage1_0 s0) (stage1_1 s1) (hstage1_1 s1) (stage1_2 s2) (hstage1_2 s2) (stage1_3 s3) (hstage1_3 s3)
    (stage1_4 s4) (hstage1_4 s4) (Memref.whole cc1_scratch0) (Memref.isWhole_whole _) (Memref.whole cc1_scratch1) (Memref.isWhole_whole _)

/-- The body's triple on any current buffers: the output window has one buffer, the one the triple is stated on. -/
theorem sound_on1 (c : Dev nD) (i : grid1.Coords) (s0 : Fin 1) (s1 s2 s3 : Fin 2) (s4 : Fin 1)
    (x1 x2 : Vec F S489 .i32) (x3 : Vec F S10000x8 .f32) (x4 x5 : Vec F S4096 .i32) (x6 : Vec F S4096 .f32)
    (xi7 a8 : Vec F S10000x8 .f32) (K : PUnit → sProp 𝕄) :
    iprop(owns (c : Thread nD τ) (Memref.whole main_v75) fullShare x1 ∗ owns (c : Thread nD τ) (Memref.whole main_v78) fullShare x2
        ∗ owns (c : Thread nD τ) (stage1_0 s0) fullShare x3 ∗ owns (c : Thread nD τ) (stage1_1 s1) fullShare x4
        ∗ owns (c : Thread nD τ) (stage1_2 s2) fullShare x5 ∗ owns (c : Thread nD τ) (stage1_3 s3) fullShare x6
        ∗ owns (c : Thread nD τ) (stage1_4 s4) fullShare xi7 ∗ owns (c : Thread nD τ) Body.m8_1 fullShare a8
        ∗ (∃ d, owns (c : Thread nD τ) Body.m9_1 fullShare d)
        ∗ (iprop(owns (c : Thread nD τ) (Memref.whole main_v75) fullShare x1 ∗ owns (c : Thread nD τ) (Memref.whole main_v78) fullShare x2
            ∗ owns (c : Thread nD τ) (stage1_0 s0) fullShare x3 ∗ owns (c : Thread nD τ) (stage1_1 s1) fullShare x4
            ∗ owns (c : Thread nD τ) (stage1_2 s2) fullShare x5 ∗ owns (c : Thread nD τ) (stage1_3 s3) fullShare x6
            ∗ owns (c : Thread nD τ) (stage1_4 s4) fullShare (outOn1 c i s0 s1 s2 s3 x1 x2 x3 x4 x5 x6 xi7 a8)
            ∗ owns (c : Thread nD τ) Body.m8_1 fullShare (accOn1 c i s0 s1 s2 s3 x1 x2 x3 x4 x5 x6 a8)
            ∗ (∃ d, owns (c : Thread nD τ) Body.m9_1 fullShare d)) -∗ K ⟨⟩))
      ⊢ wp frame (wpE (defs₀ (F := F)) Variants.none c none) Set.univ (bodyOn1 i s0 s1 s2 s3 s4) K := by
  obtain rfl : s4 = ⟨0, Nat.one_pos⟩ := Fin.ext (by have h := s4.isLt; omega)
  exact Body.sound_kernel1 c Set.univ i _ _ _ _ _ _ _ _ _ _ _ _ x1 x2 x3 x4 x5 x6 xi7 a8 K

/-- The body at a point before the last: the accumulator steps, the output block's buffer is handed back as found. -/
theorem sound_idle1 (c : Dev nD) (t : Fin (cfg1 (adm1 V)).N) (hc : ¬ k1_cond12 (grid1.coords t) = 1#1)
    (s4 : Fin 1) (xi7 a8 : Vec F S10000x8 .f32) (h : t.val = 0 ∨ a8 = accAt1 V c t.val) (K : PUnit → sProp 𝕄) :
    iprop(owns (c : Thread nD τ) (Memref.whole main_v75) fullShare (tabA1 V) ∗ owns (c : Thread nD τ) (Memref.whole main_v78) fullShare (tabB1 V)
        ∗ owns (c : Thread nD τ) (stage1_0 ((cfg1 (adm1 V)).slots t 0)) fullShare (xs1 V c t)
        ∗ owns (c : Thread nD τ) (stage1_1 ((cfg1 (adm1 V)).slots t 1)) fullShare (gi1 V c t)
        ∗ owns (c : Thread nD τ) (stage1_2 ((cfg1 (adm1 V)).slots t 2)) fullShare (si1 V c t)
        ∗ owns (c : Thread nD τ) (stage1_3 ((cfg1 (adm1 V)).slots t 3)) fullShare (ws1 V c t)
        ∗ owns (c : Thread nD τ) (stage1_4 s4) fullShare xi7 ∗ owns (c : Thread nD τ) Body.m8_1 fullShare a8
        ∗ (∃ d, owns (c : Thread nD τ) Body.m9_1 fullShare d)
        ∗ (iprop(owns (c : Thread nD τ) (Memref.whole main_v75) fullShare (tabA1 V) ∗ owns (c : Thread nD τ) (Memref.whole main_v78) fullShare (tabB1 V)
        ∗ owns (c : Thread nD τ) (stage1_0 ((cfg1 (adm1 V)).slots t 0)) fullShare (xs1 V c t)
        ∗ owns (c : Thread nD τ) (stage1_1 ((cfg1 (adm1 V)).slots t 1)) fullShare (gi1 V c t)
        ∗ owns (c : Thread nD τ) (stage1_2 ((cfg1 (adm1 V)).slots t 2)) fullShare (si1 V c t)
        ∗ owns (c : Thread nD τ) (stage1_3 ((cfg1 (adm1 V)).slots t 3)) fullShare (ws1 V c t)
            ∗ owns (c : Thread nD τ) (stage1_4 s4) fullShare xi7
            ∗ owns (c : Thread nD τ) Body.m8_1 fullShare (accAt1 V c (t.val + 1))
            ∗ (∃ d, owns (c : Thread nD τ) Body.m9_1 fullShare d)) -∗ K ⟨⟩))
      ⊢ wp frame (wpE (defs₀ (F := F)) Variants.none c none) Set.univ
          (bodyOn1 (grid1.coords t) ((cfg1 (adm1 V)).slots t 0) ((cfg1 (adm1 V)).slots t 1) ((cfg1 (adm1 V)).slots t 2) ((cfg1 (adm1 V)).slots t 3) s4) K := by
  have key := sound_on1 c (grid1.coords t) ((cfg1 (adm1 V)).slots t 0) ((cfg1 (adm1 V)).slots t 1) ((cfg1 (adm1 V)).slots t 2) ((cfg1 (adm1 V)).slots t 3) s4
    (tabA1 V) (tabB1 V) (xs1 V c t) (gi1 V c t) (si1 V c t) (ws1 V c t) xi7 a8 K
  rw [acc_step1 V c t a8 h, out_idle1 V c t hc xi7 a8] at key
  exact key

/-- The body at the last point: the accumulator steps and the output block's buffer receives it, whatever it held. -/
theorem sound_last1 (c : Dev nD) (t : Fin (cfg1 (adm1 V)).N) (hc : k1_cond12 (grid1.coords t) = 1#1)
    (s4 : Fin 1) (xi7 a8 : Vec F S10000x8 .f32) (h : t.val = 0 ∨ a8 = accAt1 V c t.val) (K : PUnit → sProp 𝕄) :
    iprop(owns (c : Thread nD τ) (Memref.whole main_v75) fullShare (tabA1 V) ∗ owns (c : Thread nD τ) (Memref.whole main_v78) fullShare (tabB1 V)
        ∗ owns (c : Thread nD τ) (stage1_0 ((cfg1 (adm1 V)).slots t 0)) fullShare (xs1 V c t)
        ∗ owns (c : Thread nD τ) (stage1_1 ((cfg1 (adm1 V)).slots t 1)) fullShare (gi1 V c t)
        ∗ owns (c : Thread nD τ) (stage1_2 ((cfg1 (adm1 V)).slots t 2)) fullShare (si1 V c t)
        ∗ owns (c : Thread nD τ) (stage1_3 ((cfg1 (adm1 V)).slots t 3)) fullShare (ws1 V c t)
        ∗ owns (c : Thread nD τ) (stage1_4 s4) fullShare xi7 ∗ owns (c : Thread nD τ) Body.m8_1 fullShare a8
        ∗ (∃ d, owns (c : Thread nD τ) Body.m9_1 fullShare d)
        ∗ (iprop(owns (c : Thread nD τ) (Memref.whole main_v75) fullShare (tabA1 V) ∗ owns (c : Thread nD τ) (Memref.whole main_v78) fullShare (tabB1 V)
        ∗ owns (c : Thread nD τ) (stage1_0 ((cfg1 (adm1 V)).slots t 0)) fullShare (xs1 V c t)
        ∗ owns (c : Thread nD τ) (stage1_1 ((cfg1 (adm1 V)).slots t 1)) fullShare (gi1 V c t)
        ∗ owns (c : Thread nD τ) (stage1_2 ((cfg1 (adm1 V)).slots t 2)) fullShare (si1 V c t)
        ∗ owns (c : Thread nD τ) (stage1_3 ((cfg1 (adm1 V)).slots t 3)) fullShare (ws1 V c t)
            ∗ owns (c : Thread nD τ) (stage1_4 s4) fullShare
                (outOn1 c (grid1.coords t) ((cfg1 (adm1 V)).slots t 0) ((cfg1 (adm1 V)).slots t 1) ((cfg1 (adm1 V)).slots t 2) ((cfg1 (adm1 V)).slots t 3)
                  (tabA1 V) (tabB1 V) (xs1 V c t) (gi1 V c t) (si1 V c t) (ws1 V c t) any1 (accAt1 V c t.val))
            ∗ owns (c : Thread nD τ) Body.m8_1 fullShare (accAt1 V c (t.val + 1))
            ∗ (∃ d, owns (c : Thread nD τ) Body.m9_1 fullShare d)) -∗ K ⟨⟩))
      ⊢ wp frame (wpE (defs₀ (F := F)) Variants.none c none) Set.univ
          (bodyOn1 (grid1.coords t) ((cfg1 (adm1 V)).slots t 0) ((cfg1 (adm1 V)).slots t 1) ((cfg1 (adm1 V)).slots t 2) ((cfg1 (adm1 V)).slots t 3) s4) K := by
  have key := sound_on1 c (grid1.coords t) ((cfg1 (adm1 V)).slots t 0) ((cfg1 (adm1 V)).slots t 1) ((cfg1 (adm1 V)).slots t 2) ((cfg1 (adm1 V)).slots t 3) s4
    (tabA1 V) (tabB1 V) (xs1 V c t) (gi1 V c t) (si1 V c t) (ws1 V c t) xi7 a8 K
  rw [out_last1 V c t hc xi7 a8, acc_step1 V c t a8 h] at key
  rw [out_last1 V c t hc any1 (accAt1 V c t.val), acc_step1 V c t _ (Or.inr rfl)]
  exact key

/-! ## The output window's post, case by case -/

/-- At the last point the output window is live: its buffer is left at what the proof data says. -/
theorem leaves_last1 (c : Dev nD) (t : Fin (cfg1 (adm1 V)).N) (hc : k1_cond12 (grid1.coords t) = 1#1) :
    ((dat1 V c).leavesExact 4 t : sProp 𝕄)
      = owns (c : Thread nD τ) (((cfg1 (adm1 V)).win 4).stage ((cfg1 (adm1 V)).slots t 4)) fullShare ((dat1 V c).after 4 t) := by
  have hi : (cfg1 (adm1 V)).idle 4 ((cfg1 (adm1 V)).grid.coords t) = false :=
    (idle_out1 (adm1 V) t).trans (by rw [hc] <;> rfl)
  unfold Dat.leavesExact
  rw [hi]

/-- Before the last point the output window is idle and not written back: its buffer is handed back as found. -/
theorem leaves_idle1 (c : Dev nD) (t : Fin (cfg1 (adm1 V)).N) (hc : ¬ k1_cond12 (grid1.coords t) = 1#1) :
    ((dat1 V c).leavesExact 4 t : sProp 𝕄)
      = iprop(∃ d, owns (c : Thread nD τ) (((cfg1 (adm1 V)).win 4).stage ((cfg1 (adm1 V)).slots t 4)) fullShare ((dat1 V c).before 4 t d)) := by
  have hi : (cfg1 (adm1 V)).idle 4 ((cfg1 (adm1 V)).grid.coords t) = true :=
    (idle_out1 (adm1 V) t).trans (by simp [hc])
  exact (dat1 V c).leavesExact_idle 4 t hi (flush_idle1 (adm1 V) t hc)

/-! ## The body obligation -/

/-- The current staging memref of window `w` at point `t`. -/
abbrev st1 (w : Fin (cfg1 (adm1 V)).W) (t : Fin (cfg1 (adm1 V)).N) := ((cfg1 (adm1 V)).win w).stage ((cfg1 (adm1 V)).slots t w)

/-- What the body is called with at point `t`, the windows one by one, -/
def bodyPre1 (c : Dev nD) (t : Fin (cfg1 (adm1 V)).N) : sProp 𝕄 :=
  iprop((dat1 V c).Φ t.castSucc ∗ (dat1 V c).owesAt () t.castSucc
    ∗ (∃ d, owns (c : Thread nD τ) (st1 V 0 t) fullShare ((dat1 V c).before 0 t d))
    ∗ (∃ d, owns (c : Thread nD τ) (st1 V 1 t) fullShare ((dat1 V c).before 1 t d))
    ∗ (∃ d, owns (c : Thread nD τ) (st1 V 2 t) fullShare ((dat1 V c).before 2 t d))
    ∗ (∃ d, owns (c : Thread nD τ) (st1 V 3 t) fullShare ((dat1 V c).before 3 t d))
    ∗ (∃ d, owns (c : Thread nD τ) (st1 V 4 t) fullShare ((dat1 V c).before 4 t d)))

/-- and what it returns: the inputs' buffers at their blocks, the output's as its window's state at the point says. -/
def bodyPost1 (c : Dev nD) (t : Fin (cfg1 (adm1 V)).N) : sProp 𝕄 :=
  iprop((dat1 V c).Φ t.succ ∗ (dat1 V c).owesAt () t.succ
    ∗ owns (c : Thread nD τ) (st1 V 0 t) fullShare ((dat1 V c).after 0 t)
    ∗ owns (c : Thread nD τ) (st1 V 1 t) fullShare ((dat1 V c).after 1 t)
    ∗ owns (c : Thread nD τ) (st1 V 2 t) fullShare ((dat1 V c).after 2 t)
    ∗ owns (c : Thread nD τ) (st1 V 3 t) fullShare ((dat1 V c).after 3 t)
    ∗ (dat1 V c).leavesExact 4 t)

/-- The body at any point: the inputs' buffers hold their blocks and the accumulator what the invariant says, so the
    body's triple applies; the rest of the invariant and the core's `owes` pass through unread. -/
theorem sound_body1 (c : Dev nD) (t : Fin (cfg1 (adm1 V)).N) :
    bodyPre1 V c t ⊢ wp frame (wpE (defs₀ (F := F)) Variants.none c none) Set.univ
      (bodyOn1 (grid1.coords t) ((cfg1 (adm1 V)).slots t 0) ((cfg1 (adm1 V)).slots t 1) ((cfg1 (adm1 V)).slots t 2)
        ((cfg1 (adm1 V)).slots t 3) ((cfg1 (adm1 V)).slots t 4))
      (fun _ => bodyPost1 V c t) := by
  unfold bodyPre1 bodyPost1
  simp only [before_xs1, before_gi1, before_si1, before_ws1]
  rw [show (dat1 V c).owesAt () t.succ = (dat1 V c).owesAt () t.castSucc from rfl,
    after_xs1, after_gi1, after_si1, after_ws1, Phi_eq1, Phi_eq1]
  unfold Phi1
  have hs : ¬ (t.succ).val = 0 := by rw [Fin.val_succ]; exact Nat.succ_ne_zero _
  rw [prefHeld_full1, if_neg hs, Fin.val_succ]
  by_cases hc : k1_cond12 (grid1.coords t) = 1#1
  · rw [leaves_last1 V c t hc, after_out1]
    iintro ⟨⟨⟨Ht1, Ht2⟩, Hacc, H9, Hrest, Hr⟩, Ho, ⟨%d0, H0⟩, ⟨%d1, H1⟩, ⟨%d2, H2⟩, ⟨%d3, H3⟩, ⟨%d4, H4⟩⟩
    ihave Hacc' := (acc_open1 V c t) $$ Hacc
    icases Hacc' with ⟨%a8, %h8, H8⟩
    iapply (sound_last1 V c t hc _ ((dat1 V c).before 4 t d4) a8 h8 _)
    isplitl [Ht1]; · iexact Ht1
    isplitl [Ht2]; · iexact Ht2
    isplitl [H0]; · iexact H0
    isplitl [H1]; · iexact H1
    isplitl [H2]; · iexact H2
    isplitl [H3]; · iexact H3
    isplitl [H4]; · iexact H4
    isplitl [H8]; · iexact H8
    isplitl [H9]; · iexact H9
    iintro ⟨Ht1, Ht2, H0, H1, H2, H3, H4, H8, H9⟩
    isplitl [Ht1 Ht2 H8 H9 Hrest Hr]
    · isplitl [Ht1 Ht2]
      · isplitl [Ht1]; · iexact Ht1
        iexact Ht2
      isplitl [H8]; · iexact H8
      isplitl [H9]; · iexact H9
      isplitl [Hrest]; · iexact Hrest
      iexact Hr
    isplitl [Ho]; · iexact Ho
    isplitl [H0]; · iexact H0
    isplitl [H1]; · iexact H1
    isplitl [H2]; · iexact H2
    isplitl [H3]; · iexact H3
    iexact H4
  · rw [leaves_idle1 V c t hc]
    iintro ⟨⟨⟨Ht1, Ht2⟩, Hacc, H9, Hrest, Hr⟩, Ho, ⟨%d0, H0⟩, ⟨%d1, H1⟩, ⟨%d2, H2⟩, ⟨%d3, H3⟩, ⟨%d4, H4⟩⟩
    ihave Hacc' := (acc_open1 V c t) $$ Hacc
    icases Hacc' with ⟨%a8, %h8, H8⟩
    iapply (sound_idle1 V c t hc _ ((dat1 V c).before 4 t d4) a8 h8 _)
    isplitl [Ht1]; · iexact Ht1
    isplitl [Ht2]; · iexact Ht2
    isplitl [H0]; · iexact H0
    isplitl [H1]; · iexact H1
    isplitl [H2]; · iexact H2
    isplitl [H3]; · iexact H3
    isplitl [H4]; · iexact H4
    isplitl [H8]; · iexact H8
    isplitl [H9]; · iexact H9
    iintro ⟨Ht1, Ht2, H0, H1, H2, H3, H4, H8, H9⟩
    isplitl [Ht1 Ht2 H8 H9 Hrest Hr]
    · isplitl [Ht1 Ht2]
      · isplitl [Ht1]; · iexact Ht1
        iexact Ht2
      isplitl [H8]; · iexact H8
      isplitl [H9]; · iexact H9
      isplitl [Hrest]; · iexact Hrest
      iexact Hr
    isplitl [Ho]; · iexact Ho
    isplitl [H0]; · iexact H0
    isplitl [H1]; · iexact H1
    isplitl [H2]; · iexact H2
    isplitl [H3]; · iexact H3
    iexists d4; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The arrays after the run -/

/-- The output's one block is the whole array: an index of the block is the same index of the array, -/
theorem emb_blk_out1 (t : Fin (cfg1 (adm1 V)).N) (j : S10000x8.Idx) : (((cfg1 (adm1 V)).win 4).blk t).view.emb j = j := by
  have h : ∀ a : Fin 2, ((((cfg1 (adm1 V)).win 4).blk t).view.emb j a).val = (j a).val := fun a =>
    match a with
    | ⟨0, _⟩ => by show 0 * 10000 + 1 * (j 0).val = (j 0).val; omega
    | ⟨1, _⟩ => by show 0 * 8 + 1 * (j 1).val = (j 1).val; omega
  exact funext fun a => Fin.ext (h a)

/-- so every index of the array lies in the block, -/
theorem mem_blk_out1 (t : Fin (cfg1 (adm1 V)).N) (i : S10000x8.Idx) : i ∈ (((cfg1 (adm1 V)).win 4).blk t).view.set :=
  Finset.mem_map.mpr ⟨i, Finset.mem_univ _, emb_blk_out1 V t i⟩

/-- and contents of the array read through the block are those contents. -/
theorem read_blk_out1 (t : Fin (cfg1 (adm1 V)).N) (G : Vec F S10000x8 .f32) :
    (((cfg1 (adm1 V)).win 4).blk t).view.read (Elt F) G = G := by
  funext j
  show G ((((cfg1 (adm1 V)).win 4).blk t).view.emb j) = G j
  exact congrArg G (emb_blk_out1 V t j)

/-- What the one point that writes the output back writes is the accumulator after the last point, read through the block. -/
theorem flushed_out1 (c : Dev nD) (t : Fin (cfg1 (adm1 V)).N) (hf : ((cfg1 (adm1 V)).win 4).flush t = true) :
    (dat1 V c).flushed 4 t = (((cfg1 (adm1 V)).win 4).blk t).view.read (Elt F) (accAt1 V c 489) := by
  have ht : t.val + 1 = 489 := (flush_out1 (adm1 V) t).mp hf
  have hc : k1_cond12 (grid1.coords t) = 1#1 := cond_last1 _ (by rw [coords_val1]; omega)
  rw [read_blk_out1]
  show ((cfg1 (adm1 V)).win 4).cut ((cfg1 (adm1 V)).grid.coords t) ((dat1 V c).after 4 t) = _
  rw [after_out1, out_last1 V c t hc any1 (accAt1 V c t.val), acc_step1 V c t _ (Or.inr rfl), ht]
  rfl

/-- The output array ends holding the accumulator after the last point. -/
theorem final1 (c : Dev nD) : (dat1 V c).arrAt 4 (cfg1 (adm1 V)).N = accAt1 V c 489 :=
  (dat1 V c).arrAt_eq_of_cover 4 (accAt1 V c 489) (fun t hf => flushed_out1 V c t hf)
    (fun i => ⟨pt1 V 488 (by decide), (flush_out1 (adm1 V) _).mpr rfl, mem_blk_out1 V _ i⟩)

/-- The input arrays are never written. -/
theorem final_in1 (c : Dev nD) (w : Fin (cfg1 (adm1 V)).W) (hw : w.val < 4) :
    (dat1 V c).arrAt w (cfg1 (adm1 V)).N = V c (Pipeline.arrRef spec1 w) := by
  have hin : ((cfg1 (adm1 V)).win w).isOut = false := by
    obtain ⟨n, hn⟩ := w
    have hn' : n < 4 := hw
    match n, hn, hn' with
    | 0, _, _ => rfl
    | 1, _, _ => rfl
    | 2, _, _ => rfl
    | 3, _, _ => rfl
    | n + 4, _, h => exact absurd h (by omega)
  rw [(dat1 V c).arrAt_in w hin, A_eq1]

end Cert.KernelIdeal.Frame

end
-- ==== Proof.Segs.lean ====
/-
  THE TWO KERNEL REGIONS OF @main AS SEGMENTS OF ITS RUN, THE FRAME, AND THE RUN READ AT THE RESULT BUFFER.

  Between two items of @main a core holds every unscoped buffer whole, at a valuation that is a fold from the launch
  memory: a host stretch moves it by the stretch's operations, a kernel region changes it at the one array the region
  writes (its accumulator's write-back) and nowhere else. Beside the buffers the core carries its generator register at
  some state and owes nothing.

  A region is entered by sorting its pipeline's arrays and its two prefetched tables out of the unscoped buffers (the
  tables are unscoped buffers that are no window's array), and left by putting them back: the input arrays and the tables
  as entered (nothing writes them), the output array at what the pipeline's write-backs leave. The tables stay inside the
  body's invariant all through the grid; the accumulator and the one-hot scratch are two of the core's scoped buffers,
  taken out of the scoped rest at the first point and forgotten back into it after the last.

  Region 1 is entered from the valuation region 0 left, moved on by one host stretch; so what region 1 leaves is defined
  after what region 0 leaves, and the two are then read as one family of "what the regions leave".
-/
import proofs.«400082_j83537113907851_4_alg».proof.Proof.Dat0
import proofs.«400082_j83537113907851_4_alg».proof.Proof.Dat1
import proofs.«400082_j83537113907851_4_alg».proof.Proof.Gen.KernelIdeal.Regions
import Idealize.ShloMosaic.Lib.Pipeline.Regions
import Idealize.ShloMosaic.Lib.Pipeline.RegionsLoop
import Idealize.ShloMosaic.Lib.Pipeline.Kit
import Idealize.ShloMosaic.Lib.Pipeline.Frame

-- decided memberships among the program's 209 references recurse past the default depth
set_option maxRecDepth 1348

noncomputable section

namespace Cert.KernelIdeal.Frame

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The valuations the regions are entered from, and what the regions leave -/

/-- Core `c`'s unscoped buffers when region 0 is entered: the launch memory moved on by the thirteen host stretches
    before it, read at the TensorCore's references. -/
abbrev Vin0 : (c : Dev nD) → (b : Ref sig .tc) → Buf (Elt F) ((c : Thread nD τ).loc b) := fun c b => Gen.V13 m c b

/-- What region 0 leaves in its output array: the entry contents with every write-back of the accumulator folded in. -/
def out0 (c : Dev nD) : Buf (Elt F) ((c : Thread nD τ).loc main_v80) :=
  (dat0 (Vin0 m) c).arrAt 4 (cfg0 (adm0 (Vin0 m))).N

/-- What the regions leave, as far as region 0 decides it: its output array at `out0`, any other buffer at a value that
    is never read. -/
def outsA : Gen.Outs (F := F) := fun _ r c =>
  if h : r = main_v80 then (by subst h; exact out0 m c) else Gen.V13 m c r

theorem outsA_v80 (J : ℕ) (c : Dev nD) : outsA m J main_v80 c = out0 m c := by
  unfold outsA; exact dif_pos rfl

/-- Core `c`'s unscoped buffers when region 1 is entered: region 0's exit valuation moved on by the host stretch
    between the two regions. -/
abbrev Vin1 : (c : Dev nD) → (b : Ref sig .tc) → Buf (Elt F) ((c : Thread nD τ).loc b) := fun c b => Gen.V15 m (outsA m) c b

/-- What region 1 leaves in its output array. -/
def out1 (c : Dev nD) : Buf (Elt F) ((c : Thread nD τ).loc main_v84) :=
  (dat1 (Vin1 m) c).arrAt 4 (cfg1 (adm1 (Vin1 m))).N

/-- What the regions leave: after region 0 its output array at `out0`, after region 1 its output array at `out1`;
    every other entry is a value that is never read. -/
def outsOf : Gen.Outs (F := F) := fun J r c =>
  if J = 14 then outsA m J r c
  else if h : r = main_v84 then (by subst h; exact out1 m c) else Gen.V13 m c r

theorem outsOf_14 (r : Ref sig .tc) (c : Dev nD) : outsOf m 14 r c = outsA m 14 r c := by
  unfold outsOf; exact if_pos rfl

theorem outsOf_16 (c : Dev nD) : outsOf m 16 main_v84 c = out1 m c := by
  unfold outsOf; rw [if_neg (show ¬ ((16 : ℕ) = 14) by decide)]; exact dif_pos rfl

/-- Region 0's exit valuation reads the family only at region 0's output array. -/
theorem V14_outsOf (c : Dev nD) : Gen.V14 m (outsOf m) c = Gen.V14 m (outsA m) c :=
  congrArg (Function.update (Gen.V13 m c) (Proc.devRef .tc main_v80 : DevRef τ sig)) (outsOf_14 m main_v80 c)

theorem V15_outsOf (c : Dev nD) : Gen.V15 m (outsOf m) c = Gen.V15 m (outsA m) c :=
  congrArg (StableHlo.after (hostOps1 (F := F))) (V14_outsOf m c)

/-! ## The proof data family -/

/-- The prefetched tables' contents, per pipeline: read off the valuation the pipeline's region is entered from. -/
def adm : (p : Fin 2) → (pcfgs (F := F) p).Adm
  | ⟨0, _⟩ => adm0 (Vin0 m)
  | ⟨1, _⟩ => adm1 (Vin1 m)

/-- Every pipeline's proof data, each at its region's entry contents — a literal `match`, so that the pinned
    configuration at a numeral reduces to the printed one. -/
def pdats : (p : Fin 2) → (c : Dev nD) → Dat τ (Elt F) Unit ℕ (UR sig nD τ) ℕ (Pipeline.pin (pcfgs (F := F)) (adm m) p) c
  | ⟨0, _⟩ => fun c => dat0 (Vin0 m) c
  | ⟨1, _⟩ => fun c => dat1 (Vin1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)

/-- There is one core. -/
theorem core_eq (c : Dev nD) : c = 0 := Subsingleton.elim _ _

/-! ## Region 0: the exit valuation at the arrays and off them -/

/-- The tables the pipeline runs at are the two table buffers as the valuation holds them on core 0, at any valuation. -/
theorem tables0_at (V : (c : Dev nD) → (b : Ref sig .tc) → Buf (Elt F) ((c : Thread nD τ).loc b)) :
    ((fun k => V 0 (pre0.ref k)) : pre0.Contents (Elt F)) = (adm0 V).1 := by
  funext k
  match k with
  | ⟨0, _⟩ => rfl
  | ⟨1, _⟩ => rfl

/-- Region 0's tables, read off its entry valuation on core `c`. -/
theorem tables0 (c : Dev nD) : ((fun k => Vin0 m c (pre0.ref k)) : pre0.Contents (Elt F)) = (adm0 (Vin0 m)).1 := by
  obtain rfl := core_eq c
  exact tables0_at (Vin0 m)

/-- At region 0's exit each of its arrays holds what the pipeline leaves: an input array what it held at entry, the
    output array the accumulator's write-backs. -/
theorem hF0 (c : Dev nD) : ∀ w : Fin 5,
    (dat0 (Vin0 m) c).arrAt w (cfg0 (adm0 (Vin0 m))).N = Gen.V14 m (outsOf m) c (Pipeline.arrRef spec0 w)
  | ⟨0, _⟩ => (((dat0 (Vin0 m) c).arrAt_in 0 rfl _).trans (A_eq0 (Vin0 m) c 0)).trans (Gen.V14_of m (outsOf m) c main_v79 (by decide)).symm
  | ⟨1, _⟩ => (((dat0 (Vin0 m) c).arrAt_in 1 rfl _).trans (A_eq0 (Vin0 m) c 1)).trans (Gen.V14_of m (outsOf m) c main_v22 (by decide)).symm
  | ⟨2, _⟩ => (((dat0 (Vin0 m) c).arrAt_in 2 rfl _).trans (A_eq0 (Vin0 m) c 2)).trans (Gen.V14_of m (outsOf m) c main_v29 (by decide)).symm
  | ⟨3, _⟩ => (((dat0 (Vin0 m) c).arrAt_in 3 rfl _).trans (A_eq0 (Vin0 m) c 3)).trans (Gen.V14_of m (outsOf m) c main_v36 (by decide)).symm
  | ⟨4, _⟩ => by
      have h : Gen.V14 m (outsOf m) c main_v80 = out0 m c :=
        (Function.update_self _ _ _).trans ((outsOf_14 m main_v80 c).trans (outsA_v80 m 14 c))
      exact h.symm

/-- Off region 0's arrays its exit valuation is its entry valuation. -/
theorem hrest0 (c : Dev nD) : ∀ b, b ∉ Finset.univ.image (Pipeline.arrRef spec0) → Gen.V14 m (outsOf m) c b = Vin0 m c b :=
  fun b hb => Gen.V14_of m (outsOf m) c b fun h =>
    hb (Finset.mem_image.mpr ⟨4, Finset.mem_univ _, (List.mem_singleton.mp h).symm⟩)

/-! ## Region 0: the unscoped buffers sorted out at entry and put back at exit -/

-- a library lemma stated over the pinned configuration unifies with the printed one only when unification may unfold
-- plain definitions in a metavariable's type
set_option backward.isDefEq.respectTransparency.types false in
/-- ENTRY: the core's unscoped buffers at the entry valuation are the pipeline's arrays at the proof data's entry
    contents, the two tables at the contents the pipeline runs at, and the unscoped buffers that are neither. -/
theorem entry0 (c : Dev nD) :
    (StableHlo.held (c : Thread nD τ) (Pipeline.ucRefs τ sig) (Gen.V13 m c) : sProp 𝕄)
      ⊢ iprop((pdats m 0 c).arrays ((pdats m 0 c).arrAt · 0)
          ∗ Pipeline.prefHeld (Ix := Unit) (Name := ℕ) (U := UR sig nD τ) (Lvl := ℕ) pre0 c (fun _ => fullShare) (adm0 (Vin0 m)).1
          ∗ Pipeline.unscopedRestP (Ix := Unit) (Name := ℕ) (U := UR sig nD τ) (Lvl := ℕ) pre0 spec0 c (Vin0 m c)) := by
  have h1 := Pipeline.arrays_of_unscopedBufs (p := 0) (pcfgs (F := F)) (adm m) (pdats m) (launch0 (F := F)).win (launch0 (F := F)).arr_whole c
    ((pdats m 0 c).share_full fun w => share0 (Vin0 m) c w) (Vin0 m c) fun w => A_eq0 (Vin0 m) c w
  have h2 := Pipeline.unscopedRest_split (Ix := Unit) (Name := ℕ) (U := UR sig nD τ) (Lvl := ℕ) (preFacts0) c (Vin0 m c)
  rw [tables0 m c] at h2
  exact ((Entails.of_eq (Pipeline.unscopedBufs_held (Ix := Unit) (Name := ℕ) (U := UR sig nD τ) (Lvl := ℕ) c (Gen.V13 m c)).symm).trans h1).trans
    (sep_mono .rfl (Entails.of_eq h2))

set_option backward.isDefEq.respectTransparency.types false in
/-- EXIT: the arrays at what the pipeline leaves, the tables and the rest as entered, are the core's unscoped buffers at
    the exit valuation. -/
theorem exit0 (c : Dev nD) :
    iprop((pdats m 0 c).arrays ((pdats m 0 c).arrAt · (Pipeline.pin (pcfgs (F := F)) (adm m) 0).N)
          ∗ Pipeline.prefHeld (Ix := Unit) (Name := ℕ) (U := UR sig nD τ) (Lvl := ℕ) pre0 c (fun _ => fullShare) (adm0 (Vin0 m)).1
          ∗ Pipeline.unscopedRestP (Ix := Unit) (Name := ℕ) (U := UR sig nD τ) (Lvl := ℕ) pre0 spec0 c (Vin0 m c))
      ⊢ (StableHlo.held (c : Thread nD τ) (Pipeline.ucRefs τ sig) (Gen.V14 m (outsOf m) c) : sProp 𝕄) := by
  have h1 := Pipeline.unscopedBufs_of_arrays (p := 0) (pcfgs (F := F)) (adm m) (Ix := Unit) (Name := ℕ) (U := UR sig nD τ) (Lvl := ℕ)
    (launch0 (F := F)).win (launch0 (F := F)).arr_whole c (pdats m) ((pdats m 0 c).share_full fun w => share0 (Vin0 m) c w)
    (Vin0 m c) (fun b => Gen.V14 m (outsOf m) c b) ((pdats m 0 c).arrAt · (Pipeline.pin (pcfgs (F := F)) (adm m) 0).N) (hF0 m c) (hrest0 m c)
  have h2 := Pipeline.unscopedRest_split (Ix := Unit) (Name := ℕ) (U := UR sig nD τ) (Lvl := ℕ) (preFacts0) c (Vin0 m c)
  rw [tables0 m c] at h2
  exact ((sep_mono .rfl (Entails.of_eq h2.symm)).trans h1).trans
    (Entails.of_eq (Pipeline.unscopedBufs_held (Ix := Unit) (Name := ℕ) (U := UR sig nD τ) (Lvl := ℕ) c (Gen.V14 m (outsOf m) c)))

/-- The core's scoped buffers that are no staging buffer of region 0: the accumulator, the one-hot scratch, the rest. -/
theorem scoped0 (c : Dev nD) :
    (Pipeline.scopedRest (Ix := Unit) (Name := ℕ) (U := UR sig nD τ) (Lvl := ℕ) (Val := Elt F) spec0 c : sProp 𝕄)
      = iprop(((∃ f : Buf (Elt F) ((c : Thread nD τ).loc cc0_scratch0), ((c : Thread nD τ).loc cc0_scratch0) ↦{fullShare} f)
            ∗ (∃ f : Buf (Elt F) ((c : Thread nD τ).loc cc0_scratch1), ((c : Thread nD τ).loc cc0_scratch1) ↦{fullShare} f))
          ∗ Pipeline.scopedRestBut (Ix := Unit) (Name := ℕ) (U := UR sig nD τ) (Lvl := ℕ) (Val := Elt F) spec0 c [cc0_scratch0, cc0_scratch1]) :=
  Pipeline.scopedRest_split_of_list spec0 c [cc0_scratch0, cc0_scratch1] (by decide) (by decide)

set_option backward.isDefEq.respectTransparency.types false in
/-- The invariant before the first point, from the generator register, the tables and the scoped rest. -/
theorem first0 (c : Dev nD) :
    iprop((∃ r, prngReg c r)
        ∗ Pipeline.prefHeld (Ix := Unit) (Name := ℕ) (U := UR sig nD τ) (Lvl := ℕ) pre0 c (fun _ => fullShare) (adm0 (Vin0 m)).1
        ∗ Pipeline.scopedRest (Ix := Unit) (Name := ℕ) (U := UR sig nD τ) (Lvl := ℕ) (Val := Elt F) spec0 c)
      ⊢ (Phi0 (Vin0 m) c 0 : sProp 𝕄) := by
  rw [scoped0 c]
  unfold Phi0
  rw [if_pos (Fin.val_zero _)]
  iintro ⟨Hp, Ht, ⟨H8, H9⟩, Hrest⟩
  isplitl [Ht]; · iexact Ht
  isplitl [H8]
  · icases H8 with ⟨%f, H8⟩; iexists f
    iapply (Entails.of_eq (owns_whole (c : Thread nD τ) cc0_scratch0 fullShare f).symm); iexact H8
  isplitl [H9]
  · icases H9 with ⟨%f, H9⟩; iexists f
    iapply (Entails.of_eq (owns_whole (c : Thread nD τ) cc0_scratch1 fullShare f).symm); iexact H9
  isplitl [Hrest]; · iexact Hrest
  iexact Hp

set_option backward.isDefEq.respectTransparency.types false in
/-- The invariant after the last point gives back the generator register, the tables and the scoped rest: the
    accumulator's named contents are forgotten. -/
theorem last0 (c : Dev nD) :
    (Phi0 (Vin0 m) c (Fin.last (cfg0 (adm0 (Vin0 m))).N) : sProp 𝕄)
      ⊢ iprop(((∃ r, prngReg c r)
          ∗ Pipeline.prefHeld (Ix := Unit) (Name := ℕ) (U := UR sig nD τ) (Lvl := ℕ) pre0 c (fun _ => fullShare) (adm0 (Vin0 m)).1)
        ∗ emp
        ∗ Pipeline.scopedRest (Ix := Unit) (Name := ℕ) (U := UR sig nD τ) (Lvl := ℕ) (Val := Elt F) spec0 c) := by
  have hN : (Fin.last (cfg0 (adm0 (Vin0 m))).N).val ≠ 0 := by rw [Fin.val_last, N0_eq]; decide
  rw [scoped0 c]
  unfold Phi0
  rw [if_neg hN]
  iintro ⟨Ht, H8, H9, Hrest, Hp⟩
  isplitl [Hp Ht]
  · isplitl [Hp]; · iexact Hp
    iexact Ht
  isplitr; · iempintro
  isplitl [H8 H9]
  · isplitl [H8]
    · iexists _
      iapply (Entails.of_eq (owns_whole (c : Thread nD τ) cc0_scratch0 fullShare _)); iexact H8
    · icases H9 with ⟨%f, H9⟩; iexists f
      iapply (Entails.of_eq (owns_whole (c : Thread nD τ) cc0_scratch1 fullShare f)); iexact H9
  iexact Hrest

/-! ## Region 0 as a segment -/

set_option backward.isDefEq.respectTransparency.types false in
/-- REGION 0 over the thread state: entered from every unscoped buffer at `V13`, left at `V14`. -/
def reg0 : Pipeline.RegionSeg (pcfgs (F := F)) (adm m) (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (Vin0 m) c).loose
  hwaits := Pipeline.hwaits_of_owed_zero _ _ _ _ L lv 0 fun c t => owed0 (Vin0 m) c t
  pre c := iprop(StableHlo.held (c : Thread nD τ) (Pipeline.ucRefs τ sig) (Gen.V13 m c) ∗ R c)
  post c := iprop(StableHlo.held (c : Thread nD τ) (Pipeline.ucRefs τ sig) (Gen.V14 m (outsOf m) c) ∗ R c)
  X c := iprop(∃ r, prngReg c r)
  Y c := iprop((∃ r, prngReg c r) ∗ Pipeline.prefHeld (Ix := Unit) (Name := ℕ) (U := UR sig nD τ) (Lvl := ℕ) pre0 c (fun _ => fullShare) (adm0 (Vin0 m)).1)
  Z c := Pipeline.unscopedRestP (Ix := Unit) (Name := ℕ) (U := UR sig nD τ) (Lvl := ℕ) pre0 spec0 c (Vin0 m c)
  hentry c := by
    rw [Pipeline.ownSems0_none]
    iintro ⟨⟨Hub, Hp, HO⟩, -, -⟩
    ihave H := (entry0 m c) $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (first0 m c).trans (Entails.of_eq (Phi_eq0 (Vin0 m) c 0).symm)
  hout c := by
    rw [Pipeline.ownSems0_none]
    exact (Entails.of_eq (Phi_eq0 (Vin0 m) c (Fin.last _))).trans (last0 m c)
  hexit c := by
    iintro ⟨Ha, HO, ⟨Hp, Ht⟩, Hrest⟩
    imodintro
    isplitl [Ha Ht Hrest]
    · iapply (exit0 m c)
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

/-! ## Region 1: the exit valuation at the arrays and off them -/

/-- Off region 1's output array its exit valuation is its entry valuation. -/
theorem V16_of' (c : Dev nD) (r : Ref sig .tc) (h : r ∉ ([main_v84] : List (Ref sig .tc))) : Gen.V16 m (outsOf m) c r = Vin1 m c r :=
  (Gen.V16_of m (outsOf m) c r h).trans (congrFun (V15_outsOf m c) _)

/-- The tables the pipeline runs at are the two table buffers as the valuation holds them on core 0, at any valuation. -/
theorem tables1_at (V : (c : Dev nD) → (b : Ref sig .tc) → Buf (Elt F) ((c : Thread nD τ).loc b)) :
    ((fun k => V 0 (pre1.ref k)) : pre1.Contents (Elt F)) = (adm1 V).1 := by
  funext k
  match k with
  | ⟨0, _⟩ => rfl
  | ⟨1, _⟩ => rfl

/-- Region 1's tables, read off its entry valuation on core `c`. -/
theorem tables1 (c : Dev nD) : ((fun k => Vin1 m c (pre1.ref k)) : pre1.Contents (Elt F)) = (adm1 (Vin1 m)).1 := by
  obtain rfl := core_eq c
  exact tables1_at (Vin1 m)

/-- At region 1's exit each of its arrays holds what the pipeline leaves: an input array what it held at entry, the
    output array the accumulator's write-backs. -/
theorem hF1 (c : Dev nD) : ∀ w : Fin 5,
    (dat1 (Vin1 m) c).arrAt w (cfg1 (adm1 (Vin1 m))).N = Gen.V16 m (outsOf m) c (Pipeline.arrRef spec1 w)
  | ⟨0, _⟩ => (((dat1 (Vin1 m) c).arrAt_in 0 rfl _).trans (A_eq1 (Vin1 m) c 0)).trans (V16_of' m c main_v83 (by decide)).symm
  | ⟨1, _⟩ => (((dat1 (Vin1 m) c).arrAt_in 1 rfl _).trans (A_eq1 (Vin1 m) c 1)).trans (V16_of' m c main_v57 (by decide)).symm
  | ⟨2, _⟩ => (((dat1 (Vin1 m) c).arrAt_in 2 rfl _).trans (A_eq1 (Vin1 m) c 2)).trans (V16_of' m c main_v64 (by decide)).symm
  | ⟨3, _⟩ => (((dat1 (Vin1 m) c).arrAt_in 3 rfl _).trans (A_eq1 (Vin1 m) c 3)).trans (V16_of' m c main_v71 (by decide)).symm
  | ⟨4, _⟩ => by
      have h : Gen.V16 m (outsOf m) c main_v84 = out1 m c :=
        (Function.update_self _ _ _).trans (outsOf_16 m c)
      exact h.symm

/-- Off region 1's arrays its exit valuation is its entry valuation. -/
theorem hrest1 (c : Dev nD) : ∀ b, b ∉ Finset.univ.image (Pipeline.arrRef spec1) → Gen.V16 m (outsOf m) c b = Vin1 m c b :=
  fun b hb => V16_of' m c b fun h =>
    hb (Finset.mem_image.mpr ⟨4, Finset.mem_univ _, (List.mem_singleton.mp h).symm⟩)

/-! ## Region 1: the unscoped buffers sorted out at entry and put back at exit -/

-- a library lemma stated over the pinned configuration unifies with the printed one only when unification may unfold
-- plain definitions in a metavariable's type
set_option backward.isDefEq.respectTransparency.types false in
/-- ENTRY: the core's unscoped buffers at the entry valuation are the pipeline's arrays at the proof data's entry
    contents, the two tables at the contents the pipeline runs at, and the unscoped buffers that are neither. -/
theorem entry1 (c : Dev nD) :
    (StableHlo.held (c : Thread nD τ) (Pipeline.ucRefs τ sig) (Gen.V15 m (outsA m) c) : sProp 𝕄)
      ⊢ iprop((pdats m 1 c).arrays ((pdats m 1 c).arrAt · 0)
          ∗ Pipeline.prefHeld (Ix := Unit) (Name := ℕ) (U := UR sig nD τ) (Lvl := ℕ) pre1 c (fun _ => fullShare) (adm1 (Vin1 m)).1
          ∗ Pipeline.unscopedRestP (Ix := Unit) (Name := ℕ) (U := UR sig nD τ) (Lvl := ℕ) pre1 spec1 c (Vin1 m c)) := by
  have h1 := Pipeline.arrays_of_unscopedBufs (p := 1) (pcfgs (F := F)) (adm m) (pdats m) (launch1 (F := F)).win (launch1 (F := F)).arr_whole c
    ((pdats m 1 c).share_full fun w => share1 (Vin1 m) c w) (Vin1 m c) fun w => A_eq1 (Vin1 m) c w
  have h2 := Pipeline.unscopedRest_split (Ix := Unit) (Name := ℕ) (U := UR sig nD τ) (Lvl := ℕ) (preFacts1) c (Vin1 m c)
  rw [tables1 m c] at h2
  exact ((Entails.of_eq (Pipeline.unscopedBufs_held (Ix := Unit) (Name := ℕ) (U := UR sig nD τ) (Lvl := ℕ) c (Gen.V15 m (outsA m) c)).symm).trans h1).trans
    (sep_mono .rfl (Entails.of_eq h2))

set_option backward.isDefEq.respectTransparency.types false in
/-- EXIT: the arrays at what the pipeline leaves, the tables and the rest as entered, are the core's unscoped buffers at
    the exit valuation. -/
theorem exit1 (c : Dev nD) :
    iprop((pdats m 1 c).arrays ((pdats m 1 c).arrAt · (Pipeline.pin (pcfgs (F := F)) (adm m) 1).N)
          ∗ Pipeline.prefHeld (Ix := Unit) (Name := ℕ) (U := UR sig nD τ) (Lvl := ℕ) pre1 c (fun _ => fullShare) (adm1 (Vin1 m)).1
          ∗ Pipeline.unscopedRestP (Ix := Unit) (Name := ℕ) (U := UR sig nD τ) (Lvl := ℕ) pre1 spec1 c (Vin1 m c))
      ⊢ (StableHlo.held (c : Thread nD τ) (Pipeline.ucRefs τ sig) (Gen.V16 m (outsOf m) c) : sProp 𝕄) := by
  have h1 := Pipeline.unscopedBufs_of_arrays (p := 1) (pcfgs (F := F)) (adm m) (Ix := Unit) (Name := ℕ) (U := UR sig nD τ) (Lvl := ℕ)
    (launch1 (F := F)).win (launch1 (F := F)).arr_whole c (pdats m) ((pdats m 1 c).share_full fun w => share1 (Vin1 m) c w)
    (Vin1 m c) (fun b => Gen.V16 m (outsOf m) c b) ((pdats m 1 c).arrAt · (Pipeline.pin (pcfgs (F := F)) (adm m) 1).N) (hF1 m c) (hrest1 m c)
  have h2 := Pipeline.unscopedRest_split (Ix := Unit) (Name := ℕ) (U := UR sig nD τ) (Lvl := ℕ) (preFacts1) c (Vin1 m c)
  rw [tables1 m c] at h2
  exact ((sep_mono .rfl (Entails.of_eq h2.symm)).trans h1).trans
    (Entails.of_eq (Pipeline.unscopedBufs_held (Ix := Unit) (Name := ℕ) (U := UR sig nD τ) (Lvl := ℕ) c (Gen.V16 m (outsOf m) c)))

/-- The core's scoped buffers that are no staging buffer of region 1: the accumulator, the one-hot scratch, the rest. -/
theorem scoped1 (c : Dev nD) :
    (Pipeline.scopedRest (Ix := Unit) (Name := ℕ) (U := UR sig nD τ) (Lvl := ℕ) (Val := Elt F) spec1 c : sProp 𝕄)
      = iprop(((∃ f : Buf (Elt F) ((c : Thread nD τ).loc cc1_scratch0), ((c : Thread nD τ).loc cc1_scratch0) ↦{fullShare} f)
            ∗ (∃ f : Buf (Elt F) ((c : Thread nD τ).loc cc1_scratch1), ((c : Thread nD τ).loc cc1_scratch1) ↦{fullShare} f))
          ∗ Pipeline.scopedRestBut (Ix := Unit) (Name := ℕ) (U := UR sig nD τ) (Lvl := ℕ) (Val := Elt F) spec1 c [cc1_scratch0, cc1_scratch1]) :=
  Pipeline.scopedRest_split_of_list spec1 c [cc1_scratch0, cc1_scratch1] (by decide) (by decide)

set_option backward.isDefEq.respectTransparency.types false in
/-- The invariant before the first point, from the generator register, the tables and the scoped rest. -/
theorem first1 (c : Dev nD) :
    iprop((∃ r, prngReg c r)
        ∗ Pipeline.prefHeld (Ix := Unit) (Name := ℕ) (U := UR sig nD τ) (Lvl := ℕ) pre1 c (fun _ => fullShare) (adm1 (Vin1 m)).1
        ∗ Pipeline.scopedRest (Ix := Unit) (Name := ℕ) (U := UR sig nD τ) (Lvl := ℕ) (Val := Elt F) spec1 c)
      ⊢ (Phi1 (Vin1 m) c 0 : sProp 𝕄) := by
  rw [scoped1 c]
  unfold Phi1
  rw [if_pos (Fin.val_zero _)]
  iintro ⟨Hp, Ht, ⟨H8, H9⟩, Hrest⟩
  isplitl [Ht]; · iexact Ht
  isplitl [H8]
  · icases H8 with ⟨%f, H8⟩; iexists f
    iapply (Entails.of_eq (owns_whole (c : Thread nD τ) cc1_scratch0 fullShare f).symm); iexact H8
  isplitl [H9]
  · icases H9 with ⟨%f, H9⟩; iexists f
    iapply (Entails.of_eq (owns_whole (c : Thread nD τ) cc1_scratch1 fullShare f).symm); iexact H9
  isplitl [Hrest]; · iexact Hrest
  iexact Hp

set_option backward.isDefEq.respectTransparency.types false in
/-- The invariant after the last point gives back the generator register, the tables and the scoped rest: the
    accumulator's named contents are forgotten. -/
theorem last1 (c : Dev nD) :
    (Phi1 (Vin1 m) c (Fin.last (cfg1 (adm1 (Vin1 m))).N) : sProp 𝕄)
      ⊢ iprop(((∃ r, prngReg c r)
          ∗ Pipeline.prefHeld (Ix := Unit) (Name := ℕ) (U := UR sig nD τ) (Lvl := ℕ) pre1 c (fun _ => fullShare) (adm1 (Vin1 m)).1)
        ∗ emp
        ∗ Pipeline.scopedRest (Ix := Unit) (Name := ℕ) (U := UR sig nD τ) (Lvl := ℕ) (Val := Elt F) spec1 c) := by
  have hN : (Fin.last (cfg1 (adm1 (Vin1 m))).N).val ≠ 0 := by rw [Fin.val_last, N1_eq]; decide
  rw [scoped1 c]
  unfold Phi1
  rw [if_neg hN]
  iintro ⟨Ht, H8, H9, Hrest, Hp⟩
  isplitl [Hp Ht]
  · isplitl [Hp]; · iexact Hp
    iexact Ht
  isplitr; · iempintro
  isplitl [H8 H9]
  · isplitl [H8]
    · iexists _
      iapply (Entails.of_eq (owns_whole (c : Thread nD τ) cc1_scratch0 fullShare _)); iexact H8
    · icases H9 with ⟨%f, H9⟩; iexists f
      iapply (Entails.of_eq (owns_whole (c : Thread nD τ) cc1_scratch1 fullShare f)); iexact H9
  iexact Hrest

/-! ## Region 1 as a segment -/

set_option backward.isDefEq.respectTransparency.types false in
/-- REGION 1 over the thread state: entered from every unscoped buffer at `V15`, left at `V16`. -/
def reg1 : Pipeline.RegionSeg (pcfgs (F := F)) (adm m) (pdats m) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (Vin1 m) c).loose
  hwaits := Pipeline.hwaits_of_owed_zero _ _ _ _ L lv 1 fun c t => owed1 (Vin1 m) c t
  pre c := iprop(StableHlo.held (c : Thread nD τ) (Pipeline.ucRefs τ sig) (Gen.V15 m (outsA m) c) ∗ R c)
  post c := iprop(StableHlo.held (c : Thread nD τ) (Pipeline.ucRefs τ sig) (Gen.V16 m (outsOf m) c) ∗ R c)
  X c := iprop(∃ r, prngReg c r)
  Y c := iprop((∃ r, prngReg c r) ∗ Pipeline.prefHeld (Ix := Unit) (Name := ℕ) (U := UR sig nD τ) (Lvl := ℕ) pre1 c (fun _ => fullShare) (adm1 (Vin1 m)).1)
  Z c := Pipeline.unscopedRestP (Ix := Unit) (Name := ℕ) (U := UR sig nD τ) (Lvl := ℕ) pre1 spec1 c (Vin1 m c)
  hentry c := by
    rw [Pipeline.ownSems0_none]
    iintro ⟨⟨Hub, Hp, HO⟩, -, -⟩
    ihave H := (entry1 m c) $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (first1 m c).trans (Entails.of_eq (Phi_eq1 (Vin1 m) c 0).symm)
  hout c := by
    rw [Pipeline.ownSems0_none]
    exact (Entails.of_eq (Phi_eq1 (Vin1 m) c (Fin.last _))).trans (last1 m c)
  hexit c := by
    iintro ⟨Ha, HO, ⟨Hp, Ht⟩, Hrest⟩
    imodintro
    isplitl [Ha Ht Hrest]
    · iapply (exit1 m c)
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

/-! ## The exit valuations at the output arrays -/

/-- Region 0's exit valuation holds, at region 0's output array, what the pipeline's write-backs leave there. -/
theorem V14_out (c : Dev nD) : Gen.V14 m (outsOf m) c main_v80 = out0 m c := (hF0 m c 4).symm

/-- Region 1's exit valuation holds, at region 1's output array, what the pipeline's write-backs leave there. -/
theorem V16_out (c : Dev nD) : Gen.V16 m (outsOf m) c main_v84 = out1 m c := (hF1 m c 4).symm

/-- The valuation region 1 is entered from, read in the full family of what the regions leave. -/
theorem V15_in (c : Dev nD) (b : Ref sig .tc) : Gen.V15 m (outsOf m) c b = Vin1 m c b := congrFun (V15_outsOf m c) _

/-! ## The chaining into region 1 -/

set_option backward.isDefEq.respectTransparency.types false in
/-- Region 1 is entered from what the host stretch after region 0 leaves: that valuation reads the family only at
    region 0's output array. -/
theorem pre1_of (c : Dev nD) :
    iprop(StableHlo.held (c : Thread nD τ) (Pipeline.ucRefs τ sig) (Gen.V15 m (outsOf m) c) ∗ R c) ⊢ (reg1 m).pre c := by
  rw [V15_outsOf m c]; exact .rfl

/-! ## The launch -/

/-- The launch element: the pipeline library's, at every pipeline's staging cells. -/
abbrev u₀ : UR sig nD τ :=
  initOf (Pipeline.cells (Pipeline.pin (pcfgs (F := F)) (adm m)) (cellOf_inj (adm m))) (Pipeline.launchToks (Pipeline.pin (pcfgs (F := F)) (adm m)) (cellOf_inj (adm m)))

/-- The launch element is the library's own; no core takes a ghost resource besides. -/
theorem hu₀ : (ownU (u₀ m) : sProp 𝕄)
    ⊢ |={Set.univ}=> iprop(BI.own (emb₁ (u₀ m)) ∗ bigSep Finset.univ fun _ : Dev nD => (iprop(emp) : sProp 𝕄)) := by
  iintro Hu; imodintro
  isplitl [Hu]
  · iapply (show (ownU (u₀ m) : sProp 𝕄) ⊢ BI.own (emb₁ (u₀ m)) from .rfl)
    iexact Hu
  iapply (show (BI.emp : sProp 𝕄) ⊢ bigSep Finset.univ (fun _ : Dev nD => (BI.emp : sProp 𝕄)) from by rw [BI.bigSep_emp_const])
  iempintro

/-- What rides beside the buffers ends owing nothing. -/
theorem hR (c : Dev nD) : R (F := F) c ⊢ (iprop(∃ W, owes (c : Thread nD τ) (0 : CellTallies nD τ sig Unit) W) : sProp 𝕄) := by
  iintro ⟨-, HO⟩; iexact HO

/-- What the launch deals a core, besides its unscoped buffers, makes what rides beside them: the generator register is
    at its launch state, and the core owes nothing. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

/-! ## The frame -/

set_option backward.isDefEq.respectTransparency.types false in
/-- THE FRAME: from any memory with zero counters every weakly fair execution of @main terminates, and every final memory
    holds each argument array as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Gen.frame_cond m (Ix := Unit) (U := UR sig nD τ) (Lvl := ℕ) (EP := emb₁) (ι := ()) (𝒱₀ := 𝒱₀) (L := L) (lv := lv) (hL := fun _ _ => rfl)
    (ρ := ρ) (outs := outsOf m) (a := adm m) (pdats := pdats m) (O₀ := 0) (G := fun _ => iprop(emp)) (u₀ := u₀ m) (hu₀ := hu₀ m)
    (E := fun _ c => R c)
    (hE0 := hE0 ρ)
    (hE2 := hR)
    (R0 := reg0 m) (hpre0 := fun c => .rfl) (hpost0 := fun c => .rfl)
    (R1 := reg1 m) (hpre1 := pre1_of m) (hpost1 := fun c => .rfl)

/-! ## The run, read at the result buffer -/

set_option backward.isDefEq.respectTransparency.types false in
/-- THE RUN WITH VALUES: the same launch, the last thread state read at the result buffer as well: every final memory
    holds the result buffer at the last valuation of the fold, and each argument array as launched. -/
theorem run_values (ρ : Dev nD → PrngReg) :
    θ_run defs (onTc (τ := τ) (main (F := F))) ⟨m, fun _ => 0, ρ⟩ (fun r => ∀ c : Dev nD,
      r.2.mem ((c.tc : Thread nD τ).loc main_v94) = Gen.V17 m (outsOf m) c main_v94
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) (adm m) (pdats m) () (cellOf_inj (adm m)) emb₁ defs₀ 𝒱₀ L lv m ρ main
    (Gen.segs m (outsOf m) 𝒱₀ L lv (fun _ c => R c) () (adm m) (pdats m) (reg0 m) (reg1 m))
    (fun c Q => by
      rewrite [main_chain c, Pipeline.Seg.run_eq_chain,
        show (Gen.segs m (outsOf m) 𝒱₀ L lv (fun _ c => R c) () (adm m) (pdats m) (reg0 m) (reg1 m) c).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          Prog.lift (.customCall (Pipeline.entry 0) ()),
          StableHlo.seq hostOps1,
          Prog.lift (.customCall (Pipeline.entry 1) ()),
          StableHlo.seq hostOps2 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp)) (u₀ := u₀ m) (hu₀ := hu₀ m)
    (T₀ := fun c => iprop(StableHlo.held (c : Thread nD τ) (Pipeline.ucRefs τ sig) (Gen.V0 m c) ∗ R c))
    (Tₙ := fun c => StableHlo.held (c : Thread nD τ) (Pipeline.ucRefs τ sig) (Gen.V17 m (outsOf m) c))
    (hch := fun c => ⟨.rfl, .rfl, .rfl, .rfl, .rfl, .rfl, .rfl, .rfl, .rfl, .rfl, .rfl, .rfl, .rfl, .rfl, .rfl,
      pre1_of m c, .rfl, sep_mono .rfl (hR c)⟩)
    (hinit := ?_)
    (QY := fun c s => s.mem ((c.tc : Thread nD τ).loc main_v94) = Gen.V17 m (outsOf m) c main_v94
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => ?_) (hQ := fun _ h => h)
  · -- the launch: the unscoped buffers are held at the launch valuation; the register and the dues ride beside them
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: the result buffer and each argument's buffer read off the last valuation
    unfold StableHlo.held
    iintro ⟨Hh, HSI⟩
    ihave Hr := (pointsTo_read_all (Pipeline.ucRefs τ sig) (fun b => ((c : Thread nD τ).1, b)) (Gen.V17 m (outsOf m) c) s') $$ [Hh HSI]
    · isplitl [Hh] <;> iassumption
    icases Hr with ⟨%h, HSI⟩
    imodintro
    isplitr
    · ipureintro
      exact ⟨h (Proc.devRef .tc main_v94) (Finset.mem_filter.mpr ⟨StableHlo.devRef_mem_tcRefs main_v94, by decide⟩),
        (h (Proc.devRef .tc main_arg0) (Finset.mem_filter.mpr ⟨StableHlo.devRef_mem_tcRefs main_arg0, by decide⟩)).trans (Gen.V17_main_arg0 m (outsOf m) c),
        (h (Proc.devRef .tc main_arg1) (Finset.mem_filter.mpr ⟨StableHlo.devRef_mem_tcRefs main_arg1, by decide⟩)).trans (Gen.V17_main_arg1 m (outsOf m) c),
        (h (Proc.devRef .tc main_arg2) (Finset.mem_filter.mpr ⟨StableHlo.devRef_mem_tcRefs main_arg2, by decide⟩)).trans (Gen.V17_main_arg2 m (outsOf m) c)⟩
    · iexact HSI

end Cert.KernelIdeal.Frame

end
-- ==== Proof.KSpec.lean ====
/-
  What one launch of the message-passing kernel leaves in its accumulator, as finite sums over literal index types
  (no program imported). The kernel walks the padded, scatter-sorted edge list in 489 chunks of 4096 positions. Per chunk:
    * the gather is a one-hot product over the ten node tiles: position p gathers  ∑ t r, [gS p = 1000 t + r] · vals (1000 t + r) b;
    * the message is that value times the weight `wS p`;
    * node tile `t` is visited only when `lo c ≤ t ≤ hi c` (the chunk's first and last scatter index, each divided by the
      tile size); a visited tile adds, at node n,  ∑ j, [sS (c, j) = n] · msg (c, j) b.
  `accFinal` is the sum of those contributions over the chunks, a skipped tile contributing 0.
-/
import Idealize.ShloMosaic.PureOps.Ideal

noncomputable section

open scoped BigOperators

namespace Cert.KSpec

/-- Position `j` of chunk `c` in the padded edge list of 489 · 4096 = 2002944 positions. -/
def pos (c : Fin 489) (j : Fin 4096) : Fin 2002944 := ⟨c.val * 4096 + j.val, by have := c.isLt; have := j.isLt; omega⟩

/-- The one-hot entry: 1 where the index word is the node's number, else 0. -/
def hot (wd : BitVec 32) (n : Nat) : EReal := if wd = BitVec.ofNat 32 n then 1 else 0

/-- Node `1000 t + r`: row `r` of node tile `t`. -/
def node (t : Fin 10) (r : Fin 1000) : Fin 10000 := ⟨1000 * t.val + r.val, by have := t.isLt; have := r.isLt; omega⟩

/-- What position `p` gathers for batch column `b`: the one-hot product summed over the ten node tiles. -/
def gathered (vals : Fin 10000 → Fin 8 → EReal) (gS : Fin 2002944 → BitVec 32) (p : Fin 2002944) (b : Fin 8) : EReal :=
  ∑ t : Fin 10, ∑ r : Fin 1000, hot (gS p) (node t r).val * vals (node t r) b

/-- The weighted message of position `p`. -/
def msg (vals : Fin 10000 → Fin 8 → EReal) (gS : Fin 2002944 → BitVec 32) (wS : Fin 2002944 → EReal) (p : Fin 2002944) (b : Fin 8) : EReal :=
  gathered vals gS p b * wS p

/-- What chunk `c` adds at node `n` when the node's tile is visited. -/
def part (vals : Fin 10000 → Fin 8 → EReal) (gS sS : Fin 2002944 → BitVec 32) (wS : Fin 2002944 → EReal) (c : Fin 489) (n : Fin 10000) (b : Fin 8) : EReal :=
  ∑ j : Fin 4096, hot (sS (pos c j)) n.val * msg vals gS wS (pos c j) b

/-- Tile `t` is visited in chunk `c`: the two table words, read signed, bracket it. -/
def visited (lo hi : Fin 489 → BitVec 32) (c : Fin 489) (t : Nat) : Prop := (lo c).toInt ≤ (t : Int) ∧ (t : Int) ≤ (hi c).toInt

instance (lo hi : Fin 489 → BitVec 32) (c : Fin 489) (t : Nat) : Decidable (visited lo hi c t) := by unfold visited; infer_instance

/-- The accumulator after the last chunk, at node `n`, batch column `b`. -/
def accFinal (vals : Fin 10000 → Fin 8 → EReal) (gS sS : Fin 2002944 → BitVec 32) (wS : Fin 2002944 → EReal) (lo hi : Fin 489 → BitVec 32)
    (n : Fin 10000) (b : Fin 8) : EReal :=
  ∑ c : Fin 489, if visited lo hi c (n.val / 1000) then part vals gS sS wS c n b else 0

end Cert.KSpec

end
-- ==== Proof.PayIdeal.lean ====
/-
  The pure values of the message-passing kernel's body, read entry by entry at the ideal values.

  One chunk of 4096 edge positions carries a gather index g j, a scatter index s j and a weight w j. For each of the
  ten node tiles t (1000 nodes each) the body forms the one-hot matrix H_t(r, j) = [index word of j names node 1000 t + r],
  multiplies it with a tile of node states or with the messages, and adds the products up:
    gathered (j, b) = (((0 + ∑ r, H_0(r, j) · x_0(r, b)) + ∑ r, H_1(r, j) · x_1(r, b)) + …) ,  msg (j, b) = gathered (j, b) · w j,
    acc_t (r, b)    ← acc_t (r, b) + ∑ j, H_t(r, j) · msg (j, b).
  Here each of those values is read at an index given by explicit coordinates: a one-hot entry is 1 or 0 by a word
  equality; a product into a zero accumulator is the finite sum over the contracted coordinate; the sums are kept in
  the program's own association.
-/
import proofs.«400082_j83537113907851_4_alg».proof.Proof.Gen.KernelIdeal.Skeleton
import proofs.«400082_j83537113907851_4_alg».proof.Proof.KSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayIdeal

open Idealize.ShloMosaic Idealize.ShloMosaic.ValueIdx
open scoped BigOperators

/-! ## Two layout readings: a column repeated along the rows, a vector stood up as a column -/

/-- An [a, 1] column broadcast to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ValueIdx.ix2 p c) = v (ValueIdx.ix2 p (0 : Fin 1)) := by
  refine broadcastTo_apply v h (ValueIdx.ix2 p c) (ValueIdx.ix2 p (0 : Fin 1)) fun ax => ?_
  match ax with
  | ⟨0, _⟩ =>
    show p.val = if a = 1 then 0 else p.val
    split
    · have := p.isLt; omega
    · rfl
  | ⟨1, _⟩ => rfl

/-- An [a] vector cast to an [a, 1] column reads, at (i, u), the vector's entry i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ValueIdx.ix2 i u) = x (ValueIdx.ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The one-hot entry: a word equality turned into 1 or 0 -/

/-- Two words compared for equality, the bit widened to a word and that word read as a signed integer:
    the extended real 1 when the words are equal, 0 when they are not. -/
theorem sitofp_extui_cmpi_eq (a b : BitVec 32) :
    FloatOps.sitofp (F := Ideal) .f32 ((IntOp.cmpi .eq a b).setWidth 32) = if a = b then (1 : EReal) else 0 := by
  show ((((IntOp.cmpi .eq a b).setWidth 32).toInt : ℝ) : EReal) = _
  have e0 : IntOp.cmpi .eq a b = BitVec.ofBool (a == b) := rfl
  by_cases h : a = b
  · have hb : (a == b) = true := beq_iff_eq.mpr h
    have t : ((BitVec.ofBool true).setWidth 32).toInt = 1 := by decide
    rw [e0, hb, if_pos h, t]; simp
  · have hb : (a == b) = false := beq_eq_false_iff_ne.mpr h
    have t : ((BitVec.ofBool false).setWidth 32).toInt = 0 := by decide
    rw [e0, hb, if_neg h, t]; simp

/-- The same at an index of two arrays of words. -/
theorem sitofp_extui_cmpi_eq_apply {s : Shape} (A B : IVec s 32) (hlt : 1 < 32) (i : s.Idx) :
    (sitofp (F := Ideal) .f32 (extui 32 (cmpi .eq A B) hlt)) i = if A i = B i then (1 : EReal) else 0 :=
  sitofp_extui_cmpi_eq (A i) (B i)

/-- One tile of the one-hot matrix. Row r of the tile carries the node number c + r (the row counter added to
    the tile's offset word c = n; the sum does not wrap in the use made of it, and the statement holds modulo 2^32
    in any case); column j carries the index word v j; the entry is 1 exactly when the two words agree. -/
theorem onehot_apply (c : BitVec 32) (n : Nat) (hc : c = BitVec.ofNat 32 n) (v : IVec S4096 32)
    (hi : S1000x1.Iotas .tc 32 [0]) (hs : S4096.ShapeCasts S1x4096)
    (hb1 : S1000x1.Broadcasts S1000x4096) (hb2 : S1x4096.Broadcasts S1000x4096) (hlt : 1 < 32)
    (r : Fin 1000) (j : Fin 4096) :
    (sitofp (F := Ideal) .f32 (extui 32 (cmpi .eq
        (broadcastTo S1000x4096 (addi (broadcast S1000x1 c) (iota .tc S1000x1 32 [0] hi)) hb1)
        (broadcastTo S1000x4096 (shapeCast S1x4096 v hs) hb2)) hlt)) (ValueIdx.ix2 r j)
      = Cert.KSpec.hot (v (ValueIdx.ix1 j)) (n + r.val) := by
  have e1 : broadcastTo S1000x4096 (addi (broadcast S1000x1 c) (iota .tc S1000x1 32 [0] hi)) hb1 (ValueIdx.ix2 r j)
      = BitVec.ofNat 32 (n + r.val) := by
    refine (broadcastTo_a1_ab_apply _ hb1 r j).trans ?_
    show IntOp.addi c (iota .tc S1000x1 32 [0] hi (ValueIdx.ix2 r (0 : Fin 1))) = _
    rw [iota_single_apply, hc]
    exact (BitVec.ofNat_add n r.val).symm
  have e2 : broadcastTo S1000x4096 (shapeCast S1x4096 v hs) hb2 (ValueIdx.ix2 r j) = v (ValueIdx.ix1 j) :=
    (broadcastTo_1b_ab_apply _ hb2 r j).trans (shapeCast_a_1a_apply v hs 0 j)
  rw [sitofp_extui_cmpi_eq_apply, e1, e2]
  unfold Cert.KSpec.hot
  by_cases h : v (ValueIdx.ix1 j) = BitVec.ofNat 32 (n + r.val)
  · rw [if_pos h, if_pos h.symm]
  · rw [if_neg h, if_neg (fun h' => h h'.symm)]

/-! ## The two products, each as a finite sum over the contracted coordinate

The gather contracts the ROWS of the one-hot tile against the rows of the node states' tile; the scatter contracts
the COLUMNS of the one-hot tile against the rows of the messages. For each product the operands' indices at an output
index and a contraction position are named coordinate by coordinate, and the contraction position is its one coordinate. -/

theorem lhs_gather_0 (i : S4096x8.Idx) (q : dot_S1000x4096_S1000x8_S4096x8_0_0_1_1_n_n.contr.Idx) :
    (dot_S1000x4096_S1000x8_S4096x8_0_0_1_1_n_n.lhsIdx i q 0).val = (q ⟨0, by decide⟩).val :=
  dot_S1000x4096_S1000x8_S4096x8_0_0_1_1_n_n.lhsIdx_val_of_single rfl i q
theorem lhs_gather_1 (i : S4096x8.Idx) (q : dot_S1000x4096_S1000x8_S4096x8_0_0_1_1_n_n.contr.Idx) :
    (dot_S1000x4096_S1000x8_S4096x8_0_0_1_1_n_n.lhsIdx i q 1).val = (i 0).val := by
  unfold DotDims.lhsIdx
  rw [dif_neg (show ¬(1 : Fin S1000x4096.rank) ∈ dot_S1000x4096_S1000x8_S4096x8_0_0_1_1_n_n.lhsBatch by decide),
    dif_pos (show (1 : Fin S1000x4096.rank) ∈ dot_S1000x4096_S1000x8_S4096x8_0_0_1_1_n_n.lhsNonContracting by decide)]
  rfl
theorem rhs_gather_0 (i : S4096x8.Idx) (q : dot_S1000x4096_S1000x8_S4096x8_0_0_1_1_n_n.contr.Idx) :
    (dot_S1000x4096_S1000x8_S4096x8_0_0_1_1_n_n.rhsIdx i q 0).val = (q ⟨0, by decide⟩).val :=
  dot_S1000x4096_S1000x8_S4096x8_0_0_1_1_n_n.rhsIdx_val_of_single rfl i q
theorem rhs_gather_1 (i : S4096x8.Idx) (q : dot_S1000x4096_S1000x8_S4096x8_0_0_1_1_n_n.contr.Idx) :
    (dot_S1000x4096_S1000x8_S4096x8_0_0_1_1_n_n.rhsIdx i q 1).val = (i 1).val := by
  unfold DotDims.rhsIdx
  rw [dif_neg (show ¬(1 : Fin S1000x8.rank) ∈ dot_S1000x4096_S1000x8_S4096x8_0_0_1_1_n_n.rhsBatch by decide),
    dif_pos (show (1 : Fin S1000x8.rank) ∈ dot_S1000x4096_S1000x8_S4096x8_0_0_1_1_n_n.rhsNonContracting by decide)]
  rfl

/-- The gather's product into a zero accumulator: position j, column b receives the sum over the tile's rows r of
    the one-hot entry (r, j) times the node state (r, b). -/
theorem gather_matmul_apply (A : FVec Ideal S1000x4096 .f32) (B : FVec Ideal S1000x8 .f32) (j : Fin 4096) (b : Fin 8) :
    matmul (F := Ideal) (φ₁ := .f32) (φ₂ := .f32) dot_S1000x4096_S1000x8_S4096x8_0_0_1_1_n_n none A B
        (constant (F := Ideal) S4096x8 .f32 0x00000000#32) (ValueIdx.ix2 j b)
      = ∑ r : Fin 1000, A (ValueIdx.ix2 r j) * B (ValueIdx.ix2 r b) := by
  refine (Ideal.matmul_constant_zero_apply (φ₁ := .f32) (φ₂ := .f32) dot_S1000x4096_S1000x8_S4096x8_0_0_1_1_n_n none A B (ValueIdx.ix2 j b)).trans ?_
  rw [← Equiv.sum_comp (contrEquiv1 dot_S1000x4096_S1000x8_S4096x8_0_0_1_1_n_n 1000 rfl rfl).symm]
  refine Finset.sum_congr rfl fun k _ => ?_
  have hk := contrEquiv1_symm_val dot_S1000x4096_S1000x8_S4096x8_0_0_1_1_n_n 1000 rfl rfl k
  have el : dot_S1000x4096_S1000x8_S4096x8_0_0_1_1_n_n.lhsIdx (ValueIdx.ix2 j b)
      ((contrEquiv1 dot_S1000x4096_S1000x8_S4096x8_0_0_1_1_n_n 1000 rfl rfl).symm k) = ValueIdx.ix2 k j :=
    funext fun a => Fin.ext (by
      match a with
      | ⟨0, _⟩ => exact (lhs_gather_0 _ _).trans hk
      | ⟨1, _⟩ => exact lhs_gather_1 _ _)
  have er : dot_S1000x4096_S1000x8_S4096x8_0_0_1_1_n_n.rhsIdx (ValueIdx.ix2 j b)
      ((contrEquiv1 dot_S1000x4096_S1000x8_S4096x8_0_0_1_1_n_n 1000 rfl rfl).symm k) = ValueIdx.ix2 k b :=
    funext fun a => Fin.ext (by
      match a with
      | ⟨0, _⟩ => exact (rhs_gather_0 _ _).trans hk
      | ⟨1, _⟩ => exact rhs_gather_1 _ _)
  rw [el, er]

theorem lhs_scatter_0 (i : S1000x8.Idx) (q : dot_S1000x4096_S4096x8_S1000x8_1_0_0_1_n_n.contr.Idx) :
    (dot_S1000x4096_S4096x8_S1000x8_1_0_0_1_n_n.lhsIdx i q 0).val = (i 0).val := by
  unfold DotDims.lhsIdx
  rw [dif_neg (show ¬(0 : Fin S1000x4096.rank) ∈ dot_S1000x4096_S4096x8_S1000x8_1_0_0_1_n_n.lhsBatch by decide),
    dif_pos (show (0 : Fin S1000x4096.rank) ∈ dot_S1000x4096_S4096x8_S1000x8_1_0_0_1_n_n.lhsNonContracting by decide)]
  rfl
theorem lhs_scatter_1 (i : S1000x8.Idx) (q : dot_S1000x4096_S4096x8_S1000x8_1_0_0_1_n_n.contr.Idx) :
    (dot_S1000x4096_S4096x8_S1000x8_1_0_0_1_n_n.lhsIdx i q 1).val = (q ⟨0, by decide⟩).val :=
  dot_S1000x4096_S4096x8_S1000x8_1_0_0_1_n_n.lhsIdx_val_of_single rfl i q
theorem rhs_scatter_0 (i : S1000x8.Idx) (q : dot_S1000x4096_S4096x8_S1000x8_1_0_0_1_n_n.contr.Idx) :
    (dot_S1000x4096_S4096x8_S1000x8_1_0_0_1_n_n.rhsIdx i q 0).val = (q ⟨0, by decide⟩).val :=
  dot_S1000x4096_S4096x8_S1000x8_1_0_0_1_n_n.rhsIdx_val_of_single rfl i q
theorem rhs_scatter_1 (i : S1000x8.Idx) (q : dot_S1000x4096_S4096x8_S1000x8_1_0_0_1_n_n.contr.Idx) :
    (dot_S1000x4096_S4096x8_S1000x8_1_0_0_1_n_n.rhsIdx i q 1).val = (i 1).val := by
  unfold DotDims.rhsIdx
  rw [dif_neg (show ¬(1 : Fin S4096x8.rank) ∈ dot_S1000x4096_S4096x8_S1000x8_1_0_0_1_n_n.rhsBatch by decide),
    dif_pos (show (1 : Fin S4096x8.rank) ∈ dot_S1000x4096_S4096x8_S1000x8_1_0_0_1_n_n.rhsNonContracting by decide)]
  rfl

/-- The scatter's product into a zero accumulator: row r of the tile, column b receives the sum over the chunk's
    positions j of the one-hot entry (r, j) times the message (j, b). -/
theorem scatter_matmul_apply (A : FVec Ideal S1000x4096 .f32) (M : FVec Ideal S4096x8 .f32) (r : Fin 1000) (b : Fin 8) :
    matmul (F := Ideal) (φ₁ := .f32) (φ₂ := .f32) dot_S1000x4096_S4096x8_S1000x8_1_0_0_1_n_n none A M
        (constant (F := Ideal) S1000x8 .f32 0x00000000#32) (ValueIdx.ix2 r b)
      = ∑ j : Fin 4096, A (ValueIdx.ix2 r j) * M (ValueIdx.ix2 j b) := by
  refine (Ideal.matmul_constant_zero_apply (φ₁ := .f32) (φ₂ := .f32) dot_S1000x4096_S4096x8_S1000x8_1_0_0_1_n_n none A M (ValueIdx.ix2 r b)).trans ?_
  rw [← Equiv.sum_comp (contrEquiv1 dot_S1000x4096_S4096x8_S1000x8_1_0_0_1_n_n 4096 rfl rfl).symm]
  refine Finset.sum_congr rfl fun k _ => ?_
  have hk := contrEquiv1_symm_val dot_S1000x4096_S4096x8_S1000x8_1_0_0_1_n_n 4096 rfl rfl k
  have el : dot_S1000x4096_S4096x8_S1000x8_1_0_0_1_n_n.lhsIdx (ValueIdx.ix2 r b)
      ((contrEquiv1 dot_S1000x4096_S4096x8_S1000x8_1_0_0_1_n_n 4096 rfl rfl).symm k) = ValueIdx.ix2 r k :=
    funext fun a => Fin.ext (by
      match a with
      | ⟨0, _⟩ => exact lhs_scatter_0 _ _
      | ⟨1, _⟩ => exact (lhs_scatter_1 _ _).trans hk)
  have er : dot_S1000x4096_S4096x8_S1000x8_1_0_0_1_n_n.rhsIdx (ValueIdx.ix2 r b)
      ((contrEquiv1 dot_S1000x4096_S4096x8_S1000x8_1_0_0_1_n_n 4096 rfl rfl).symm k) = ValueIdx.ix2 k b :=
    funext fun a => Fin.ext (by
      match a with
      | ⟨0, _⟩ => exact (rhs_scatter_0 _ _).trans hk
      | ⟨1, _⟩ => exact rhs_scatter_1 _ _)
  rw [el, er]

/-! ## The products as the kernel writes them: a node-state tile under its identity cast, added to a running value -/

/-- A running value plus the gather's product of a one-hot tile with a node-state tile (the latter under the
    identity shape cast the kernel puts on a loaded tile). -/
theorem addf_gather_apply (acc : FVec Ideal S4096x8 .f32) (A : FVec Ideal S1000x4096 .f32) (B : FVec Ideal S1000x8 .f32)
    (h : S1000x8.ShapeCasts S1000x8) (j : Fin 4096) (b : Fin 8) :
    addf (F := Ideal) acc (matmul (F := Ideal) dot_S1000x4096_S1000x8_S4096x8_0_0_1_1_n_n none A (shapeCast S1000x8 B h) (constant (F := Ideal) S4096x8 .f32 0x00000000#32)) (ValueIdx.ix2 j b)
      = acc (ValueIdx.ix2 j b) + ∑ r : Fin 1000, A (ValueIdx.ix2 r j) * B (ValueIdx.ix2 r b) := by
  rw [shapeCast_self]
  exact congrArg (acc (ValueIdx.ix2 j b) + ·) (gather_matmul_apply A B j b)

/-- The same with the node-state tile as it is. -/
theorem addf_gather_apply' (acc : FVec Ideal S4096x8 .f32) (A : FVec Ideal S1000x4096 .f32) (B : FVec Ideal S1000x8 .f32)
    (j : Fin 4096) (b : Fin 8) :
    addf (F := Ideal) acc (matmul (F := Ideal) dot_S1000x4096_S1000x8_S4096x8_0_0_1_1_n_n none A B (constant (F := Ideal) S4096x8 .f32 0x00000000#32)) (ValueIdx.ix2 j b)
      = acc (ValueIdx.ix2 j b) + ∑ r : Fin 1000, A (ValueIdx.ix2 r j) * B (ValueIdx.ix2 r b) :=
  congrArg (acc (ValueIdx.ix2 j b) + ·) (gather_matmul_apply A B j b)

/-- A value times the weight column: the [4096] weights stood up as a column and repeated along the 8 columns. -/
theorem mulf_weight_apply (X : FVec Ideal S4096x8 .f32) (w : FVec Ideal S4096 .f32)
    (hs : S4096.ShapeCasts S4096x1) (hb : S4096x1.Broadcasts S4096x8) (j : Fin 4096) (b : Fin 8) :
    mulf (F := Ideal) X (broadcastTo S4096x8 (shapeCast S4096x1 w hs) hb) (ValueIdx.ix2 j b) = X (ValueIdx.ix2 j b) * w (ValueIdx.ix1 j) := by
  show X (ValueIdx.ix2 j b) * broadcastTo S4096x8 (shapeCast S4096x1 w hs) hb (ValueIdx.ix2 j b) = _
  rw [broadcastTo_a1_ab_apply, shapeCast_a_a1_apply]

/-- An accumulator tile plus the scatter's product of a one-hot tile with the messages, under the identity cast
    the kernel puts on what it stores. -/
theorem update_apply (M : FVec Ideal S4096x8 .f32) (A : FVec Ideal S1000x4096 .f32) (acc : FVec Ideal S1000x8 .f32)
    (h : S1000x8.ShapeCasts S1000x8) (r : Fin 1000) (b : Fin 8) :
    shapeCast S1000x8 (addf (F := Ideal) acc (matmul (F := Ideal) dot_S1000x4096_S4096x8_S1000x8_1_0_0_1_n_n none A M (constant (F := Ideal) S1000x8 .f32 0x00000000#32))) h (ValueIdx.ix2 r b)
      = acc (ValueIdx.ix2 r b) + ∑ j : Fin 4096, A (ValueIdx.ix2 r j) * M (ValueIdx.ix2 j b) := by
  rw [shapeCast_self]
  exact congrArg (acc (ValueIdx.ix2 r b) + ·) (scatter_matmul_apply A M r b)

/-! ## The payloads that only re-cast a loaded value: identities -/

theorem pay6_eq (v3 : IVec S4096 32) : Gen.k0_pay6 (F := Ideal) v3 = v3 := by
  unfold Gen.k0_pay6; exact shapeCast_self _ _
theorem pay7_eq (v5 : IVec S4096 32) : Gen.k0_pay7 (F := Ideal) v5 = v5 := by
  unfold Gen.k0_pay7; exact shapeCast_self _ _
theorem pay8_eq (v7 : FVec Ideal S4096 .f32) : Gen.k0_pay8 (F := Ideal) v7 = v7 := by
  unfold Gen.k0_pay8; exact shapeCast_self _ _
theorem pay15_eq (v74 : FVec Ideal S1000x8 .f32) : Gen.k0_pay15 (F := Ideal) v74 = v74 := by
  unfold Gen.k0_pay15; exact shapeCast_self _ _
theorem pay25_eq (v154 : FVec Ideal S1000x4096 .f32) : Gen.k0_pay25 (F := Ideal) v154 = v154 := by
  unfold Gen.k0_pay25; exact shapeCast_self _ _

/-- The accumulator's initial value: zero everywhere. -/
theorem pay5_apply (i : S10000x8.Idx) : Gen.k0_pay5 (F := Ideal) i = 0 := by
  unfold Gen.k0_pay5
  refine (congrFun (shapeCast_self _ _) i).trans ?_
  exact Ideal.ofBits_zero_f32

/-! ## The one-hot tiles: tile t, row r, column j is 1 exactly when the index word of position j names node 1000 t + r -/
theorem pay9_apply (v3 : IVec S4096 32) (r : Fin 1000) (j : Fin 4096) :
    Gen.k0_pay9 (F := Ideal) v3 (ValueIdx.ix2 r j) = Cert.KSpec.hot (v3 (ValueIdx.ix1 j)) (1000 * 0 + r.val) := by
  unfold Gen.k0_pay9
  refine (congrFun (shapeCast_self _ _) (ValueIdx.ix2 r j)).trans ?_
  refine (onehot_apply 0#32 (1000 * 0) rfl (Gen.k0_pay6 v3) _ _ _ _ _ r j).trans ?_
  rw [pay6_eq]
theorem pay11_apply (v3 : IVec S4096 32) (r : Fin 1000) (j : Fin 4096) :
    Gen.k0_pay11 (F := Ideal) v3 (ValueIdx.ix2 r j) = Cert.KSpec.hot (v3 (ValueIdx.ix1 j)) (1000 * 1 + r.val) := by
  unfold Gen.k0_pay11
  refine (congrFun (shapeCast_self _ _) (ValueIdx.ix2 r j)).trans ?_
  refine (onehot_apply 1000#32 (1000 * 1) rfl (Gen.k0_pay6 v3) _ _ _ _ _ r j).trans ?_
  rw [pay6_eq]
theorem pay12_apply (v4 : IVec S4096 32) (r : Fin 1000) (j : Fin 4096) :
    Gen.k0_pay12 (F := Ideal) v4 (ValueIdx.ix2 r j) = Cert.KSpec.hot (v4 (ValueIdx.ix1 j)) (1000 * 2 + r.val) := by
  unfold Gen.k0_pay12
  refine (congrFun (shapeCast_self _ _) (ValueIdx.ix2 r j)).trans ?_
  exact onehot_apply 2000#32 (1000 * 2) rfl v4 _ _ _ _ _ r j
theorem pay14_apply (v4 : IVec S4096 32) (r : Fin 1000) (j : Fin 4096) :
    Gen.k0_pay14 (F := Ideal) v4 (ValueIdx.ix2 r j) = Cert.KSpec.hot (v4 (ValueIdx.ix1 j)) (1000 * 3 + r.val) := by
  unfold Gen.k0_pay14
  refine (congrFun (shapeCast_self _ _) (ValueIdx.ix2 r j)).trans ?_
  exact onehot_apply 3000#32 (1000 * 3) rfl v4 _ _ _ _ _ r j
theorem pay16_apply (v4 : IVec S4096 32) (r : Fin 1000) (j : Fin 4096) :
    Gen.k0_pay16 (F := Ideal) v4 (ValueIdx.ix2 r j) = Cert.KSpec.hot (v4 (ValueIdx.ix1 j)) (1000 * 4 + r.val) := by
  unfold Gen.k0_pay16
  refine (congrFun (shapeCast_self _ _) (ValueIdx.ix2 r j)).trans ?_
  exact onehot_apply 4000#32 (1000 * 4) rfl v4 _ _ _ _ _ r j
theorem pay17_apply (v4 : IVec S4096 32) (r : Fin 1000) (j : Fin 4096) :
    Gen.k0_pay17 (F := Ideal) v4 (ValueIdx.ix2 r j) = Cert.KSpec.hot (v4 (ValueIdx.ix1 j)) (1000 * 5 + r.val) := by
  unfold Gen.k0_pay17
  refine (congrFun (shapeCast_self _ _) (ValueIdx.ix2 r j)).trans ?_
  exact onehot_apply 5000#32 (1000 * 5) rfl v4 _ _ _ _ _ r j
/-- Tile 6 is stored from two carried pieces: the index row and the node-number matrix. -/
theorem pay21_apply (v4 : IVec S4096 32) (r : Fin 1000) (j : Fin 4096) :
    Gen.k0_pay21 (F := Ideal) (Gen.k0_pay19 v4) Gen.k0_pay20 (ValueIdx.ix2 r j) = Cert.KSpec.hot (v4 (ValueIdx.ix1 j)) (1000 * 6 + r.val) := by
  unfold Gen.k0_pay21 Gen.k0_pay19 Gen.k0_pay20
  refine (congrFun (shapeCast_self _ _) (ValueIdx.ix2 r j)).trans ?_
  exact onehot_apply 6000#32 (1000 * 6) rfl v4 _ _ _ _ _ r j
theorem pay22_apply (v4 : IVec S4096 32) (r : Fin 1000) (j : Fin 4096) :
    Gen.k0_pay22 (F := Ideal) v4 (ValueIdx.ix2 r j) = Cert.KSpec.hot (v4 (ValueIdx.ix1 j)) (1000 * 7 + r.val) := by
  unfold Gen.k0_pay22
  refine (congrFun (shapeCast_self _ _) (ValueIdx.ix2 r j)).trans ?_
  exact onehot_apply 7000#32 (1000 * 7) rfl v4 _ _ _ _ _ r j
/-- Tile 8 is carried before its identity cast … -/
theorem pay24_apply (v4 : IVec S4096 32) (r : Fin 1000) (j : Fin 4096) :
    Gen.k0_pay24 (F := Ideal) v4 (ValueIdx.ix2 r j) = Cert.KSpec.hot (v4 (ValueIdx.ix1 j)) (1000 * 8 + r.val) := by
  unfold Gen.k0_pay24
  exact onehot_apply 8000#32 (1000 * 8) rfl v4 _ _ _ _ _ r j
/-- … and stored under it. -/
theorem pay25_pay24_apply (v4 : IVec S4096 32) (r : Fin 1000) (j : Fin 4096) :
    Gen.k0_pay25 (F := Ideal) (Gen.k0_pay24 v4) (ValueIdx.ix2 r j) = Cert.KSpec.hot (v4 (ValueIdx.ix1 j)) (1000 * 8 + r.val) := by
  rw [pay25_eq]; exact pay24_apply v4 r j
theorem pay26_apply (v4 : IVec S4096 32) (r : Fin 1000) (j : Fin 4096) :
    Gen.k0_pay26 (F := Ideal) v4 (ValueIdx.ix2 r j) = Cert.KSpec.hot (v4 (ValueIdx.ix1 j)) (1000 * 9 + r.val) := by
  unfold Gen.k0_pay26
  refine (congrFun (shapeCast_self _ _) (ValueIdx.ix2 r j)).trans ?_
  exact onehot_apply 9000#32 (1000 * 9) rfl v4 _ _ _ _ _ r j
theorem pay28_apply (v6 : IVec S4096 32) (r : Fin 1000) (j : Fin 4096) :
    Gen.k0_pay28 (F := Ideal) v6 (ValueIdx.ix2 r j) = Cert.KSpec.hot (v6 (ValueIdx.ix1 j)) (1000 * 0 + r.val) := by
  unfold Gen.k0_pay28
  refine (congrFun (shapeCast_self _ _) (ValueIdx.ix2 r j)).trans ?_
  exact onehot_apply 0#32 (1000 * 0) rfl v6 _ _ _ _ _ r j
theorem pay30_apply (v6 : IVec S4096 32) (r : Fin 1000) (j : Fin 4096) :
    Gen.k0_pay30 (F := Ideal) v6 (ValueIdx.ix2 r j) = Cert.KSpec.hot (v6 (ValueIdx.ix1 j)) (1000 * 1 + r.val) := by
  unfold Gen.k0_pay30
  refine (congrFun (shapeCast_self _ _) (ValueIdx.ix2 r j)).trans ?_
  exact onehot_apply 1000#32 (1000 * 1) rfl v6 _ _ _ _ _ r j
theorem pay32_apply (v6 : IVec S4096 32) (r : Fin 1000) (j : Fin 4096) :
    Gen.k0_pay32 (F := Ideal) v6 (ValueIdx.ix2 r j) = Cert.KSpec.hot (v6 (ValueIdx.ix1 j)) (1000 * 2 + r.val) := by
  unfold Gen.k0_pay32
  refine (congrFun (shapeCast_self _ _) (ValueIdx.ix2 r j)).trans ?_
  exact onehot_apply 2000#32 (1000 * 2) rfl v6 _ _ _ _ _ r j
theorem pay34_apply (v6 : IVec S4096 32) (r : Fin 1000) (j : Fin 4096) :
    Gen.k0_pay34 (F := Ideal) v6 (ValueIdx.ix2 r j) = Cert.KSpec.hot (v6 (ValueIdx.ix1 j)) (1000 * 3 + r.val) := by
  unfold Gen.k0_pay34
  refine (congrFun (shapeCast_self _ _) (ValueIdx.ix2 r j)).trans ?_
  exact onehot_apply 3000#32 (1000 * 3) rfl v6 _ _ _ _ _ r j
theorem pay36_apply (v6 : IVec S4096 32) (r : Fin 1000) (j : Fin 4096) :
    Gen.k0_pay36 (F := Ideal) v6 (ValueIdx.ix2 r j) = Cert.KSpec.hot (v6 (ValueIdx.ix1 j)) (1000 * 4 + r.val) := by
  unfold Gen.k0_pay36
  refine (congrFun (shapeCast_self _ _) (ValueIdx.ix2 r j)).trans ?_
  exact onehot_apply 4000#32 (1000 * 4) rfl v6 _ _ _ _ _ r j
theorem pay38_apply (v6 : IVec S4096 32) (r : Fin 1000) (j : Fin 4096) :
    Gen.k0_pay38 (F := Ideal) v6 (ValueIdx.ix2 r j) = Cert.KSpec.hot (v6 (ValueIdx.ix1 j)) (1000 * 5 + r.val) := by
  unfold Gen.k0_pay38
  refine (congrFun (shapeCast_self _ _) (ValueIdx.ix2 r j)).trans ?_
  exact onehot_apply 5000#32 (1000 * 5) rfl v6 _ _ _ _ _ r j
theorem pay40_apply (v6 : IVec S4096 32) (r : Fin 1000) (j : Fin 4096) :
    Gen.k0_pay40 (F := Ideal) v6 (ValueIdx.ix2 r j) = Cert.KSpec.hot (v6 (ValueIdx.ix1 j)) (1000 * 6 + r.val) := by
  unfold Gen.k0_pay40
  refine (congrFun (shapeCast_self _ _) (ValueIdx.ix2 r j)).trans ?_
  exact onehot_apply 6000#32 (1000 * 6) rfl v6 _ _ _ _ _ r j
theorem pay42_apply (v6 : IVec S4096 32) (r : Fin 1000) (j : Fin 4096) :
    Gen.k0_pay42 (F := Ideal) v6 (ValueIdx.ix2 r j) = Cert.KSpec.hot (v6 (ValueIdx.ix1 j)) (1000 * 7 + r.val) := by
  unfold Gen.k0_pay42
  refine (congrFun (shapeCast_self _ _) (ValueIdx.ix2 r j)).trans ?_
  exact onehot_apply 7000#32 (1000 * 7) rfl v6 _ _ _ _ _ r j
theorem pay1_apply (v6 : IVec S4096 32) (r : Fin 1000) (j : Fin 4096) :
    Gen.k0_pay1 (F := Ideal) v6 (ValueIdx.ix2 r j) = Cert.KSpec.hot (v6 (ValueIdx.ix1 j)) (1000 * 8 + r.val) := by
  unfold Gen.k0_pay1
  refine (congrFun (shapeCast_self _ _) (ValueIdx.ix2 r j)).trans ?_
  exact onehot_apply 8000#32 (1000 * 8) rfl v6 _ _ _ _ _ r j
theorem pay3_apply (v6 : IVec S4096 32) (r : Fin 1000) (j : Fin 4096) :
    Gen.k0_pay3 (F := Ideal) v6 (ValueIdx.ix2 r j) = Cert.KSpec.hot (v6 (ValueIdx.ix1 j)) (1000 * 9 + r.val) := by
  unfold Gen.k0_pay3
  refine (congrFun (shapeCast_self _ _) (ValueIdx.ix2 r j)).trans ?_
  exact onehot_apply 9000#32 (1000 * 9) rfl v6 _ _ _ _ _ r j

/-! ## The gathered value: the ten tiles' products added up in the program's own order, then weighted -/

theorem pay10_apply (v22 : FVec Ideal S1000x4096 .f32) (v23 : FVec Ideal S1000x8 .f32) (j : Fin 4096) (b : Fin 8) :
    Gen.k0_pay10 (F := Ideal) v22 v23 (ValueIdx.ix2 j b) = 0 + ∑ r : Fin 1000, v22 (ValueIdx.ix2 r j) * v23 (ValueIdx.ix2 r b) := by
  unfold Gen.k0_pay10
  refine (addf_gather_apply _ v22 v23 _ j b).trans ?_
  exact congrArg (· + ∑ r : Fin 1000, v22 (ValueIdx.ix2 r j) * v23 (ValueIdx.ix2 r b)) Ideal.ofBits_zero_f32

theorem pay13_apply (v26 : FVec Ideal S4096x8 .f32) (v39 : FVec Ideal S1000x4096 .f32) (v40 : FVec Ideal S1000x8 .f32)
    (v56 : FVec Ideal S1000x4096 .f32) (v57 : FVec Ideal S1000x8 .f32) (j : Fin 4096) (b : Fin 8) :
    Gen.k0_pay13 (F := Ideal) v26 v39 v40 v56 v57 (ValueIdx.ix2 j b)
      = (v26 (ValueIdx.ix2 j b) + ∑ r : Fin 1000, v39 (ValueIdx.ix2 r j) * v40 (ValueIdx.ix2 r b)) + ∑ r : Fin 1000, v56 (ValueIdx.ix2 r j) * v57 (ValueIdx.ix2 r b) := by
  unfold Gen.k0_pay13
  refine (addf_gather_apply _ v56 v57 _ j b).trans ?_
  exact congrArg (· + ∑ r : Fin 1000, v56 (ValueIdx.ix2 r j) * v57 (ValueIdx.ix2 r b)) (addf_gather_apply v26 v39 v40 _ j b)

/-- Tiles 3, 4, 5; tile 3's product is written into the zero splat the kernel carries to it. -/
theorem pay18_apply (v60 : FVec Ideal S4096x8 .f32) (v73 : FVec Ideal S1000x4096 .f32) (v75 : FVec Ideal S1000x8 .f32)
    (v90 : FVec Ideal S1000x4096 .f32) (v91 : FVec Ideal S1000x8 .f32) (v107 : FVec Ideal S1000x4096 .f32) (v108 : FVec Ideal S1000x8 .f32)
    (j : Fin 4096) (b : Fin 8) :
    Gen.k0_pay18 (F := Ideal) v60 v73 v75 (constant (F := Ideal) S4096x8 .f32 0x00000000#32) v90 v91 v107 v108 (ValueIdx.ix2 j b)
      = ((v60 (ValueIdx.ix2 j b) + ∑ r : Fin 1000, v73 (ValueIdx.ix2 r j) * v75 (ValueIdx.ix2 r b)) + ∑ r : Fin 1000, v90 (ValueIdx.ix2 r j) * v91 (ValueIdx.ix2 r b))
          + ∑ r : Fin 1000, v107 (ValueIdx.ix2 r j) * v108 (ValueIdx.ix2 r b) := by
  unfold Gen.k0_pay18
  refine (addf_gather_apply _ v107 v108 _ j b).trans ?_
  refine congrArg (· + ∑ r : Fin 1000, v107 (ValueIdx.ix2 r j) * v108 (ValueIdx.ix2 r b)) ?_
  refine (addf_gather_apply _ v90 v91 _ j b).trans ?_
  exact congrArg (· + ∑ r : Fin 1000, v90 (ValueIdx.ix2 r j) * v91 (ValueIdx.ix2 r b)) (addf_gather_apply' v60 v73 v75 j b)

theorem pay23_apply (v111 : FVec Ideal S4096x8 .f32) (v124 : FVec Ideal S1000x4096 .f32) (v125 : FVec Ideal S1000x8 .f32)
    (v141 : FVec Ideal S1000x4096 .f32) (v142 : FVec Ideal S1000x8 .f32) (j : Fin 4096) (b : Fin 8) :
    Gen.k0_pay23 (F := Ideal) v111 v124 v125 v141 v142 (ValueIdx.ix2 j b)
      = (v111 (ValueIdx.ix2 j b) + ∑ r : Fin 1000, v124 (ValueIdx.ix2 r j) * v125 (ValueIdx.ix2 r b)) + ∑ r : Fin 1000, v141 (ValueIdx.ix2 r j) * v142 (ValueIdx.ix2 r b) := by
  unfold Gen.k0_pay23
  refine (addf_gather_apply _ v141 v142 _ j b).trans ?_
  exact congrArg (· + ∑ r : Fin 1000, v141 (ValueIdx.ix2 r j) * v142 (ValueIdx.ix2 r b)) (addf_gather_apply v111 v124 v125 _ j b)

/-- The message: tiles 8 and 9 added, and the sum weighted by the position's weight. -/
theorem pay27_apply (v8 : FVec Ideal S4096 .f32) (v145 : FVec Ideal S4096x8 .f32) (v158 : FVec Ideal S1000x4096 .f32)
    (v159 : FVec Ideal S1000x8 .f32) (v175 : FVec Ideal S1000x4096 .f32) (v176 : FVec Ideal S1000x8 .f32) (j : Fin 4096) (b : Fin 8) :
    Gen.k0_pay27 (F := Ideal) v8 v145 v158 v159 v175 v176 (ValueIdx.ix2 j b)
      = ((v145 (ValueIdx.ix2 j b) + ∑ r : Fin 1000, v158 (ValueIdx.ix2 r j) * v159 (ValueIdx.ix2 r b)) + ∑ r : Fin 1000, v175 (ValueIdx.ix2 r j) * v176 (ValueIdx.ix2 r b))
          * v8 (ValueIdx.ix1 j) := by
  unfold Gen.k0_pay27
  refine (mulf_weight_apply _ v8 _ _ j b).trans ?_
  refine congrArg (· * v8 (ValueIdx.ix1 j)) ?_
  refine (addf_gather_apply _ v175 v176 _ j b).trans ?_
  exact congrArg (· + ∑ r : Fin 1000, v175 (ValueIdx.ix2 r j) * v176 (ValueIdx.ix2 r b)) (addf_gather_apply v145 v158 v159 _ j b)

/-! ## The accumulator's update: a tile of it plus the one-hot tile's product with the messages -/

/-- Tile 0's update carries the message's own text. -/
theorem pay29_apply (v8 : FVec Ideal S4096 .f32) (v145 : FVec Ideal S4096x8 .f32) (v158 : FVec Ideal S1000x4096 .f32)
    (v159 : FVec Ideal S1000x8 .f32) (v175 : FVec Ideal S1000x4096 .f32) (v176 : FVec Ideal S1000x8 .f32)
    (v252 : FVec Ideal S1000x4096 .f32) (v254 : FVec Ideal S1000x8 .f32) (r : Fin 1000) (b : Fin 8) :
    Gen.k0_pay29 (F := Ideal) v8 v145 v158 v159 v175 v176 v252 v254 (ValueIdx.ix2 r b)
      = v254 (ValueIdx.ix2 r b) + ∑ j : Fin 4096, v252 (ValueIdx.ix2 r j) * Gen.k0_pay27 (F := Ideal) v8 v145 v158 v159 v175 v176 (ValueIdx.ix2 j b) := by
  unfold Gen.k0_pay29
  exact update_apply _ v252 v254 _ r b
theorem pay31_apply (v182 : FVec Ideal S4096x8 .f32) (v252 : FVec Ideal S1000x4096 .f32) (v254 : FVec Ideal S1000x8 .f32)
    (r : Fin 1000) (b : Fin 8) :
    Gen.k0_pay31 (F := Ideal) v182 v252 v254 (ValueIdx.ix2 r b) = v254 (ValueIdx.ix2 r b) + ∑ j : Fin 4096, v252 (ValueIdx.ix2 r j) * v182 (ValueIdx.ix2 j b) := by
  unfold Gen.k0_pay31
  exact update_apply v182 v252 v254 _ r b
theorem pay33_apply (v182 : FVec Ideal S4096x8 .f32) (v252 : FVec Ideal S1000x4096 .f32) (v254 : FVec Ideal S1000x8 .f32)
    (r : Fin 1000) (b : Fin 8) :
    Gen.k0_pay33 (F := Ideal) v182 v252 v254 (ValueIdx.ix2 r b) = v254 (ValueIdx.ix2 r b) + ∑ j : Fin 4096, v252 (ValueIdx.ix2 r j) * v182 (ValueIdx.ix2 j b) := by
  unfold Gen.k0_pay33
  exact update_apply v182 v252 v254 _ r b
theorem pay35_apply (v182 : FVec Ideal S4096x8 .f32) (v252 : FVec Ideal S1000x4096 .f32) (v254 : FVec Ideal S1000x8 .f32)
    (r : Fin 1000) (b : Fin 8) :
    Gen.k0_pay35 (F := Ideal) v182 v252 v254 (ValueIdx.ix2 r b) = v254 (ValueIdx.ix2 r b) + ∑ j : Fin 4096, v252 (ValueIdx.ix2 r j) * v182 (ValueIdx.ix2 j b) := by
  unfold Gen.k0_pay35
  exact update_apply v182 v252 v254 _ r b
theorem pay37_apply (v182 : FVec Ideal S4096x8 .f32) (v252 : FVec Ideal S1000x4096 .f32) (v254 : FVec Ideal S1000x8 .f32)
    (r : Fin 1000) (b : Fin 8) :
    Gen.k0_pay37 (F := Ideal) v182 v252 v254 (ValueIdx.ix2 r b) = v254 (ValueIdx.ix2 r b) + ∑ j : Fin 4096, v252 (ValueIdx.ix2 r j) * v182 (ValueIdx.ix2 j b) := by
  unfold Gen.k0_pay37
  exact update_apply v182 v252 v254 _ r b
theorem pay39_apply (v182 : FVec Ideal S4096x8 .f32) (v252 : FVec Ideal S1000x4096 .f32) (v254 : FVec Ideal S1000x8 .f32)
    (r : Fin 1000) (b : Fin 8) :
    Gen.k0_pay39 (F := Ideal) v182 v252 v254 (ValueIdx.ix2 r b) = v254 (ValueIdx.ix2 r b) + ∑ j : Fin 4096, v252 (ValueIdx.ix2 r j) * v182 (ValueIdx.ix2 j b) := by
  unfold Gen.k0_pay39
  exact update_apply v182 v252 v254 _ r b
theorem pay41_apply (v182 : FVec Ideal S4096x8 .f32) (v252 : FVec Ideal S1000x4096 .f32) (v254 : FVec Ideal S1000x8 .f32)
    (r : Fin 1000) (b : Fin 8) :
    Gen.k0_pay41 (F := Ideal) v182 v252 v254 (ValueIdx.ix2 r b) = v254 (ValueIdx.ix2 r b) + ∑ j : Fin 4096, v252 (ValueIdx.ix2 r j) * v182 (ValueIdx.ix2 j b) := by
  unfold Gen.k0_pay41
  exact update_apply v182 v252 v254 _ r b
theorem pay43_apply (v182 : FVec Ideal S4096x8 .f32) (v252 : FVec Ideal S1000x4096 .f32) (v254 : FVec Ideal S1000x8 .f32)
    (r : Fin 1000) (b : Fin 8) :
    Gen.k0_pay43 (F := Ideal) v182 v252 v254 (ValueIdx.ix2 r b) = v254 (ValueIdx.ix2 r b) + ∑ j : Fin 4096, v252 (ValueIdx.ix2 r j) * v182 (ValueIdx.ix2 j b) := by
  unfold Gen.k0_pay43
  exact update_apply v182 v252 v254 _ r b
theorem pay2_apply (v182 : FVec Ideal S4096x8 .f32) (v252 : FVec Ideal S1000x4096 .f32) (v254 : FVec Ideal S1000x8 .f32)
    (r : Fin 1000) (b : Fin 8) :
    Gen.k0_pay2 (F := Ideal) v182 v252 v254 (ValueIdx.ix2 r b) = v254 (ValueIdx.ix2 r b) + ∑ j : Fin 4096, v252 (ValueIdx.ix2 r j) * v182 (ValueIdx.ix2 j b) := by
  unfold Gen.k0_pay2
  exact update_apply v182 v252 v254 _ r b
theorem pay4_apply (v182 : FVec Ideal S4096x8 .f32) (v252 : FVec Ideal S1000x4096 .f32) (v254 : FVec Ideal S1000x8 .f32)
    (r : Fin 1000) (b : Fin 8) :
    Gen.k0_pay4 (F := Ideal) v182 v252 v254 (ValueIdx.ix2 r b) = v254 (ValueIdx.ix2 r b) + ∑ j : Fin 4096, v252 (ValueIdx.ix2 r j) * v182 (ValueIdx.ix2 j b) := by
  unfold Gen.k0_pay4
  exact update_apply v182 v252 v254 _ r b

/-! ## The message in closed form

With the ten one-hot tiles H t and the ten node-state tiles X t named, the gathered value at position j, column b is the
double sum over tiles and rows, and the message is that times the position's weight. The ten products are added in the
order 0, 1, …, 9 onto a zero, which is the sum over the tiles written out from the left. -/

/-- A sum over ten terms, written out from the left onto a zero. -/
theorem sum_ten (f : Fin 10 → EReal) :
    ∑ t : Fin 10, f t = (((((((((0 + f 0) + f 1) + f 2) + f 3) + f 4) + f 5) + f 6) + f 7) + f 8) + f 9 := by
  simp only [Fin.sum_univ_castSucc, Fin.sum_univ_zero]
  rfl

/-- The message of position j, column b: the one-hot gather over all ten tiles, weighted. -/
theorem msg_apply (g : IVec S4096 32) (w : FVec Ideal S4096 .f32)
    (H : Fin 10 → FVec Ideal S1000x4096 .f32) (X : Fin 10 → FVec Ideal S1000x8 .f32)
    (hH : ∀ (t : Fin 10) (r : Fin 1000) (j : Fin 4096), H t (ValueIdx.ix2 r j) = Cert.KSpec.hot (g (ValueIdx.ix1 j)) (1000 * t.val + r.val))
    (j : Fin 4096) (b : Fin 8) :
    Gen.k0_pay27 (F := Ideal) w
        (Gen.k0_pay23 (F := Ideal)
          (Gen.k0_pay18 (F := Ideal)
            (Gen.k0_pay13 (F := Ideal) (Gen.k0_pay10 (F := Ideal) (H 0) (X 0)) (H 1) (X 1) (H 2) (X 2))
            (H 3) (X 3) (constant (F := Ideal) S4096x8 .f32 0x00000000#32) (H 4) (X 4) (H 5) (X 5))
          (H 6) (X 6) (H 7) (X 7))
        (H 8) (X 8) (H 9) (X 9) (ValueIdx.ix2 j b)
      = (∑ t : Fin 10, ∑ r : Fin 1000, Cert.KSpec.hot (g (ValueIdx.ix1 j)) (1000 * t.val + r.val) * X t (ValueIdx.ix2 r b)) * w (ValueIdx.ix1 j) := by
  rw [pay27_apply, pay23_apply, pay18_apply, pay13_apply, pay10_apply, sum_ten]
  simp only [hH]

/-- A tile of the accumulator after its update, with the one-hot tile named: row r of tile t receives the messages of
    the positions whose scatter index names node 1000 t + r. -/
theorem update_hot_apply (s : IVec S4096 32) (t : Nat) (M : FVec Ideal S4096x8 .f32) (A : FVec Ideal S1000x4096 .f32)
    (acc : FVec Ideal S1000x8 .f32) (h : S1000x8.ShapeCasts S1000x8)
    (hA : ∀ (r : Fin 1000) (j : Fin 4096), A (ValueIdx.ix2 r j) = Cert.KSpec.hot (s (ValueIdx.ix1 j)) (1000 * t + r.val))
    (r : Fin 1000) (b : Fin 8) :
    shapeCast S1000x8 (addf (F := Ideal) acc (matmul (F := Ideal) dot_S1000x4096_S4096x8_S1000x8_1_0_0_1_n_n none A M (constant (F := Ideal) S1000x8 .f32 0x00000000#32))) h (ValueIdx.ix2 r b)
      = acc (ValueIdx.ix2 r b) + ∑ j : Fin 4096, Cert.KSpec.hot (s (ValueIdx.ix1 j)) (1000 * t + r.val) * M (ValueIdx.ix2 j b) := by
  rw [update_apply]
  simp only [hA]

end Cert.KernelIdeal.PayIdeal

end
-- ==== Proof.AccIdeal0.lean ====
/-
  The accumulator one grid point leaves, in closed form at the ideal values.

  With lo, hi the two table words of the point read signed, g, s, w the chunk's gather indices, scatter indices and
  weights and x the node states, node n (in tile t = n / 1000), column b ends at
      (0 at the first grid point, else what the point found)  +  [lo ≤ t ≤ hi] · ∑ j, [s j = n] · msg j b,
      msg j b = (∑ t', ∑ r', [g j = 1000 t' + r'] · x (1000 t' + r') b) · w j.
  The loads of whole input blocks read the blocks, a load of the one-hot scratch reads the tile last stored there, the
  tile guards are the bracket of the table words, and the tile's update is its loaded tile plus the one-hot product.
-/
import proofs.«400082_j83537113907851_4_alg».proof.Proof.AccEval0
import proofs.«400082_j83537113907851_4_alg».proof.Proof.PayIdeal
import proofs.«400082_j83537113907851_4_alg».proof.Proof.KSpec
import Idealize.ShloMosaic.Lib.ValueIdx

set_option maxRecDepth 16384

noncomputable section

open scoped BigOperators

namespace Cert.KernelIdeal.AccIdeal

open Cert.KernelIdeal Cert.KernelIdeal.Gen Cert.KernelIdeal.AccEval
open Idealize.ShloMosaic Idealize.ShloMosaic.TcCoe
open Idealize.SL.Sem

/-! ## Loads of whole input blocks -/

/-- A load of a whole [4096] block reads the block. -/
theorem load_whole1 {F : FTy → Type} [FloatOps F] {sp : Space} {e : EltTy} (m : Memref sig .tc sp S4096 e) (hm : m.IsWhole)
    (inb : ∀ a, (![0] : Fin 1 → Nat) a + S4096.size a ≤ S4096.size a) (x : Vec F S4096 e) :
    View.readAt (Elt F) m.view (Rect.unit (s := S4096) ![0] S4096.size inb).toLoadRect (hm.unread x) = x := by
  funext j
  have e1 : (Rect.unit (s := S4096) ![0] S4096.size inb).toLoadRect.idx j = j :=
    funext fun a => Fin.ext (by
      match a with
      | ⟨0, _⟩ => show 0 + 1 * (j 0).val = (j 0).val; omega)
  show m.view.read (Elt F) (hm.unread x) ((Rect.unit (s := S4096) ![0] S4096.size inb).toLoadRect.idx j) = x j
  rw [e1]; exact congrFun (hm.read_unread (Val := Elt F) x) j

/-- A load of rows [o, o + 1000) of the node states reads those rows. -/
theorem load_tile3 {sp : Space} (m : Memref sig .tc sp S10000x8 .f32) (hm : m.IsWhole) (x3 : FVec Ideal S10000x8 .f32) (o : Nat)
    (inb : ∀ a, (![o, 0] : Fin 2 → Nat) a + S1000x8.size a ≤ S10000x8.size a)
    (r : Fin 1000) (b : Fin 8) (n : Fin 10000) (hn : n.val = o + r.val) :
    View.readAt (Elt Ideal) m.view (Rect.unit (s := S10000x8) ![o, 0] S1000x8.size inb).toLoadRect (hm.unread x3) (ValueIdx.ix2 r b)
      = x3 (ValueIdx.ix2 n b) :=
  (readAt_tile (Val := Elt Ideal) m.view (hm.unread x3) o inb r b n hn).trans (congrFun (hm.read_unread (Val := Elt Ideal) x3) (ValueIdx.ix2 n b))

/-- The one word a point reads of a table is the table's entry at the point's coordinate. -/
theorem smem_word {F : FTy → Type} [FloatOps F] {sp : Space} (m : Memref sig .tc sp S489 .i32) (hm : m.IsWhole) (x : IVec S489 32)
    (i : grid0.Coords) (inb : ∀ a, (k0_off1 i) a + S1.size a ≤ S489.size a)
    (z : (Rect.unit (s := S489) (k0_off1 i) S1.size inb).toLoadRect.shape.Idx) :
    View.readAt (Elt F) m.view (Rect.unit (s := S489) (k0_off1 i) S1.size inb).toLoadRect (hm.unread x) z
      = x (ValueIdx.ix1 (show Fin 489 from i 0)) := by
  have e1 : (Rect.unit (s := S489) (k0_off1 i) S1.size inb).toLoadRect.idx z = ValueIdx.ix1 (show Fin 489 from i 0) :=
    funext fun a => Fin.ext (by
      match a with
      | ⟨0, _⟩ =>
        have hz : (z 0).val < 1 := (z 0).isLt
        have e0 : (k0_off1 i) 0 = (i 0).val := congrFun (Gen.k0_off1_eq i) 0
        show (k0_off1 i) 0 + 1 * (z 0).val = (i 0).val
        omega)
  show m.view.read (Elt F) (hm.unread x) ((Rect.unit (s := S489) (k0_off1 i) S1.size inb).toLoadRect.idx z) = _
  rw [e1]; exact congrFun (hm.read_unread (Val := Elt F) x) _

section Point
variable (c : Dev nD) (i : grid0.Coords)
  (arg1 : Memref sig .tc .smem S489 .i32) (harg1 : arg1.IsWhole) (arg2 : Memref sig .tc .smem S489 .i32) (harg2 : arg2.IsWhole)
  (arg3 : Memref sig .tc .vmem S10000x8 .f32) (harg3 : arg3.IsWhole) (arg4 : Memref sig .tc .vmem S4096 .i32) (harg4 : arg4.IsWhole)
  (arg5 : Memref sig .tc .vmem S4096 .i32) (harg5 : arg5.IsWhole) (arg6 : Memref sig .tc .vmem S4096 .f32) (harg6 : arg6.IsWhole)
  (x1 x2 : IVec S489 32) (x3 : FVec Ideal S10000x8 .f32) (x4 x5 : IVec S4096 32) (x6 : FVec Ideal S4096 .f32)

/-! ## The message -/

/-- The ten one-hot tiles of the gather, as the kernel stores them … -/
def Ht (t : Fin 10) : FVec Ideal S1000x4096 .f32 :=
  match t with
  | ⟨0, _⟩ => Gen.k0_pay9 x4
  | ⟨1, _⟩ => Gen.k0_pay11 x4
  | ⟨2, _⟩ => Gen.k0_pay12 x4
  | ⟨3, _⟩ => Gen.k0_pay14 x4
  | ⟨4, _⟩ => Gen.k0_pay16 x4
  | ⟨5, _⟩ => Gen.k0_pay17 x4
  | ⟨6, _⟩ => Gen.k0_pay21 (Gen.k0_pay19 x4) Gen.k0_pay20
  | ⟨7, _⟩ => Gen.k0_pay22 x4
  | ⟨8, _⟩ => Gen.k0_pay25 (Gen.k0_pay24 x4)
  | ⟨9, _⟩ => Gen.k0_pay26 x4

/-- … and the ten tiles of the node states, as it loads them. -/
def Xt (t : Fin 10) : FVec Ideal S1000x8 .f32 :=
  match t with
  | ⟨0, _⟩ => View.readAt (Elt Ideal) arg3.view (Rect.unit (s := S10000x8) ![0, 0] S1000x8.size inb_S10000x8_S1000x8_0_0).toLoadRect (harg3.unread x3)
  | ⟨1, _⟩ => View.readAt (Elt Ideal) arg3.view (Rect.unit (s := S10000x8) ![1000, 0] S1000x8.size inb_S10000x8_S1000x8_1000_0).toLoadRect (harg3.unread x3)
  | ⟨2, _⟩ => View.readAt (Elt Ideal) arg3.view (Rect.unit (s := S10000x8) ![2000, 0] S1000x8.size inb_S10000x8_S1000x8_2000_0).toLoadRect (harg3.unread x3)
  | ⟨3, _⟩ => View.readAt (Elt Ideal) arg3.view (Rect.unit (s := S10000x8) ![3000, 0] S1000x8.size inb_S10000x8_S1000x8_3000_0).toLoadRect (harg3.unread x3)
  | ⟨4, _⟩ => View.readAt (Elt Ideal) arg3.view (Rect.unit (s := S10000x8) ![4000, 0] S1000x8.size inb_S10000x8_S1000x8_4000_0).toLoadRect (harg3.unread x3)
  | ⟨5, _⟩ => View.readAt (Elt Ideal) arg3.view (Rect.unit (s := S10000x8) ![5000, 0] S1000x8.size inb_S10000x8_S1000x8_5000_0).toLoadRect (harg3.unread x3)
  | ⟨6, _⟩ => View.readAt (Elt Ideal) arg3.view (Rect.unit (s := S10000x8) ![6000, 0] S1000x8.size inb_S10000x8_S1000x8_6000_0).toLoadRect (harg3.unread x3)
  | ⟨7, _⟩ => View.readAt (Elt Ideal) arg3.view (Rect.unit (s := S10000x8) ![7000, 0] S1000x8.size inb_S10000x8_S1000x8_7000_0).toLoadRect (harg3.unread x3)
  | ⟨8, _⟩ => View.readAt (Elt Ideal) arg3.view (Rect.unit (s := S10000x8) ![8000, 0] S1000x8.size inb_S10000x8_S1000x8_8000_0).toLoadRect (harg3.unread x3)
  | ⟨9, _⟩ => View.readAt (Elt Ideal) arg3.view (Rect.unit (s := S10000x8) ![9000, 0] S1000x8.size inb_S10000x8_S1000x8_9000_0).toLoadRect (harg3.unread x3)

theorem Ht_apply (t : Fin 10) (r : Fin 1000) (j : Fin 4096) :
    Ht x4 t (ValueIdx.ix2 r j) = Cert.KSpec.hot (x4 (ValueIdx.ix1 j)) (1000 * t.val + r.val) := by
  match t with
  | ⟨0, _⟩ => exact PayIdeal.pay9_apply x4 r j
  | ⟨1, _⟩ => exact PayIdeal.pay11_apply x4 r j
  | ⟨2, _⟩ => exact PayIdeal.pay12_apply x4 r j
  | ⟨3, _⟩ => exact PayIdeal.pay14_apply x4 r j
  | ⟨4, _⟩ => exact PayIdeal.pay16_apply x4 r j
  | ⟨5, _⟩ => exact PayIdeal.pay17_apply x4 r j
  | ⟨6, _⟩ => exact PayIdeal.pay21_apply x4 r j
  | ⟨7, _⟩ => exact PayIdeal.pay22_apply x4 r j
  | ⟨8, _⟩ => exact PayIdeal.pay25_pay24_apply x4 r j
  | ⟨9, _⟩ => exact PayIdeal.pay26_apply x4 r j

theorem Xt_apply (t : Fin 10) (r : Fin 1000) (b : Fin 8) :
    Xt arg3 harg3 x3 t (ValueIdx.ix2 r b) = x3 (ValueIdx.ix2 (Cert.KSpec.node t r) b) := by
  match t with
  | ⟨0, _⟩ => exact load_tile3 arg3 harg3 x3 0 _ r b (Cert.KSpec.node ⟨0, by omega⟩ r) rfl
  | ⟨1, _⟩ => exact load_tile3 arg3 harg3 x3 1000 _ r b (Cert.KSpec.node ⟨1, by omega⟩ r) rfl
  | ⟨2, _⟩ => exact load_tile3 arg3 harg3 x3 2000 _ r b (Cert.KSpec.node ⟨2, by omega⟩ r) rfl
  | ⟨3, _⟩ => exact load_tile3 arg3 harg3 x3 3000 _ r b (Cert.KSpec.node ⟨3, by omega⟩ r) rfl
  | ⟨4, _⟩ => exact load_tile3 arg3 harg3 x3 4000 _ r b (Cert.KSpec.node ⟨4, by omega⟩ r) rfl
  | ⟨5, _⟩ => exact load_tile3 arg3 harg3 x3 5000 _ r b (Cert.KSpec.node ⟨5, by omega⟩ r) rfl
  | ⟨6, _⟩ => exact load_tile3 arg3 harg3 x3 6000 _ r b (Cert.KSpec.node ⟨6, by omega⟩ r) rfl
  | ⟨7, _⟩ => exact load_tile3 arg3 harg3 x3 7000 _ r b (Cert.KSpec.node ⟨7, by omega⟩ r) rfl
  | ⟨8, _⟩ => exact load_tile3 arg3 harg3 x3 8000 _ r b (Cert.KSpec.node ⟨8, by omega⟩ r) rfl
  | ⟨9, _⟩ => exact load_tile3 arg3 harg3 x3 9000 _ r b (Cert.KSpec.node ⟨9, by omega⟩ r) rfl

/-- The message of position j, column b. -/
def msgOf (j : Fin 4096) (b : Fin 8) : EReal :=
  (∑ t : Fin 10, ∑ r : Fin 1000, Cert.KSpec.hot (x4 (ValueIdx.ix1 j)) (Cert.KSpec.node t r).val * (x3 (ValueIdx.ix2 (Cert.KSpec.node t r) b) : EReal))
    * (x6 (ValueIdx.ix1 j) : EReal)

/-- The kernel's message over the stored one-hot tiles and the loaded node-state tiles. -/
theorem msg_core (j : Fin 4096) (b : Fin 8) :
    Gen.k0_pay27 (F := Ideal) x6
        (Gen.k0_pay23 (F := Ideal)
          (Gen.k0_pay18 (F := Ideal)
            (Gen.k0_pay13 (F := Ideal) (Gen.k0_pay10 (F := Ideal) (Ht x4 0) (Xt arg3 harg3 x3 0)) (Ht x4 1) (Xt arg3 harg3 x3 1)
              (Ht x4 2) (Xt arg3 harg3 x3 2))
            (Ht x4 3) (Xt arg3 harg3 x3 3) (constant (F := Ideal) S4096x8 .f32 0x00000000#32) (Ht x4 4) (Xt arg3 harg3 x3 4)
            (Ht x4 5) (Xt arg3 harg3 x3 5))
          (Ht x4 6) (Xt arg3 harg3 x3 6) (Ht x4 7) (Xt arg3 harg3 x3 7))
        (Ht x4 8) (Xt arg3 harg3 x3 8) (Ht x4 9) (Xt arg3 harg3 x3 9) (ValueIdx.ix2 j b)
      = msgOf x3 x4 x6 j b := by
  refine (PayIdeal.msg_apply x4 x6 (Ht x4) (Xt arg3 harg3 x3) (Ht_apply x4) j b).trans ?_
  unfold msgOf
  refine congrArg (· * (x6 (ValueIdx.ix1 j) : EReal)) (Finset.sum_congr rfl fun t _ => Finset.sum_congr rfl fun r _ => ?_)
  rw [Xt_apply]; rfl

/-- The message as the run names it for tiles 1 to 9 … -/
theorem msg_run (j : Fin 4096) (b : Fin 8) :
    Body.kernelRun0.sl.r_12 (F := Ideal) c arg3 harg3 arg4 harg4 arg6 harg6 x3 x4 x6 (ValueIdx.ix2 j b) = msgOf x3 x4 x6 j b := by
  sl_unfold_run_names
  rw [load_whole1 (F := Ideal) (e := .i32) arg4 harg4 _ x4, load_whole1 (F := Ideal) (e := .f32) arg6 harg6 _ x6]
  rw [PayIdeal.pay6_eq x4, PayIdeal.pay8_eq x6]
  rw [View.readCov_cons_toLoadRect, View.readCov_cons_toLoadRect, View.readCov_cons_toLoadRect, View.readCov_cons_toLoadRect, View.readCov_cons_toLoadRect,
    View.readCov_cons_toLoadRect, View.readCov_cons_toLoadRect, View.readCov_cons_toLoadRect, View.readCov_cons_toLoadRect, View.readCov_cons_toLoadRect]
  rw [PayIdeal.pay15_eq]
  exact msg_core arg3 harg3 x3 x4 x6 j b

/-- … and as tile 0's update carries it. -/
theorem msg0_run (j : Fin 4096) (b : Fin 8) :
    Gen.k0_pay27 (F := Ideal) (Body.kernelRun0.sl.r_2 c arg6 harg6 x6) (Body.kernelRun0.sl.r_8 c arg3 harg3 arg4 harg4 x3 x4)
        (Body.kernelRun0.sl.v158 c arg4 harg4 x4) (View.readAt (Elt Ideal) arg3.view (Rect.unit (s := S10000x8) ![8000, 0] S1000x8.size inb_S10000x8_S1000x8_8000_0).toLoadRect (harg3.unread x3))
        (Body.kernelRun0.sl.v175 c arg4 harg4 x4) (View.readAt (Elt Ideal) arg3.view (Rect.unit (s := S10000x8) ![9000, 0] S1000x8.size inb_S10000x8_S1000x8_9000_0).toLoadRect (harg3.unread x3)) (ValueIdx.ix2 j b)
      = msgOf x3 x4 x6 j b := by
  sl_unfold_run_names
  rw [load_whole1 (F := Ideal) (e := .i32) arg4 harg4 _ x4, load_whole1 (F := Ideal) (e := .f32) arg6 harg6 _ x6]
  rw [PayIdeal.pay6_eq x4, PayIdeal.pay8_eq x6]
  rw [View.readCov_cons_toLoadRect, View.readCov_cons_toLoadRect, View.readCov_cons_toLoadRect, View.readCov_cons_toLoadRect, View.readCov_cons_toLoadRect,
    View.readCov_cons_toLoadRect, View.readCov_cons_toLoadRect, View.readCov_cons_toLoadRect, View.readCov_cons_toLoadRect, View.readCov_cons_toLoadRect]
  rw [PayIdeal.pay15_eq]
  exact msg_core arg3 harg3 x3 x4 x6 j b

/-! ## The scatter's one-hot tiles, as the run loads them -/
theorem oh0 (r : Fin 1000) (j : Fin 4096) :
    Body.kernelRun0.sl.v252 (F := Ideal) c arg4 harg4 arg5 harg5 x4 x5 (ValueIdx.ix2 r j) = Cert.KSpec.hot (x5 (ValueIdx.ix1 j)) (1000 * 0 + r.val) := by
  sl_unfold_run_names
  rw [View.readCov_cons_toLoadRect, load_whole1 (F := Ideal) (e := .i32) arg5 harg5 _ x5, PayIdeal.pay7_eq]
  exact PayIdeal.pay28_apply x5 r j
theorem oh1 (r : Fin 1000) (j : Fin 4096) :
    Body.kernelRun0.sl.v252_1 (F := Ideal) c arg5 harg5 x5 (ValueIdx.ix2 r j) = Cert.KSpec.hot (x5 (ValueIdx.ix1 j)) (1000 * 1 + r.val) := by
  sl_unfold_run_names
  rw [View.readCov_cons_toLoadRect, load_whole1 (F := Ideal) (e := .i32) arg5 harg5 _ x5, PayIdeal.pay7_eq]
  exact PayIdeal.pay30_apply x5 r j
theorem oh2 (r : Fin 1000) (j : Fin 4096) :
    Body.kernelRun0.sl.v252_2 (F := Ideal) c arg5 harg5 x5 (ValueIdx.ix2 r j) = Cert.KSpec.hot (x5 (ValueIdx.ix1 j)) (1000 * 2 + r.val) := by
  sl_unfold_run_names
  rw [View.readCov_cons_toLoadRect, load_whole1 (F := Ideal) (e := .i32) arg5 harg5 _ x5, PayIdeal.pay7_eq]
  exact PayIdeal.pay32_apply x5 r j
theorem oh3 (r : Fin 1000) (j : Fin 4096) :
    Body.kernelRun0.sl.v252_3 (F := Ideal) c arg5 harg5 x5 (ValueIdx.ix2 r j) = Cert.KSpec.hot (x5 (ValueIdx.ix1 j)) (1000 * 3 + r.val) := by
  sl_unfold_run_names
  rw [View.readCov_cons_toLoadRect, load_whole1 (F := Ideal) (e := .i32) arg5 harg5 _ x5, PayIdeal.pay7_eq]
  exact PayIdeal.pay34_apply x5 r j
theorem oh4 (r : Fin 1000) (j : Fin 4096) :
    Body.kernelRun0.sl.v252_4 (F := Ideal) c arg5 harg5 x5 (ValueIdx.ix2 r j) = Cert.KSpec.hot (x5 (ValueIdx.ix1 j)) (1000 * 4 + r.val) := by
  sl_unfold_run_names
  rw [View.readCov_cons_toLoadRect, load_whole1 (F := Ideal) (e := .i32) arg5 harg5 _ x5, PayIdeal.pay7_eq]
  exact PayIdeal.pay36_apply x5 r j
theorem oh5 (r : Fin 1000) (j : Fin 4096) :
    Body.kernelRun0.sl.v252_5 (F := Ideal) c arg5 harg5 x5 (ValueIdx.ix2 r j) = Cert.KSpec.hot (x5 (ValueIdx.ix1 j)) (1000 * 5 + r.val) := by
  sl_unfold_run_names
  rw [View.readCov_cons_toLoadRect, load_whole1 (F := Ideal) (e := .i32) arg5 harg5 _ x5, PayIdeal.pay7_eq]
  exact PayIdeal.pay38_apply x5 r j
theorem oh6 (r : Fin 1000) (j : Fin 4096) :
    Body.kernelRun0.sl.v252_6 (F := Ideal) c arg5 harg5 x5 (ValueIdx.ix2 r j) = Cert.KSpec.hot (x5 (ValueIdx.ix1 j)) (1000 * 6 + r.val) := by
  sl_unfold_run_names
  rw [View.readCov_cons_toLoadRect, load_whole1 (F := Ideal) (e := .i32) arg5 harg5 _ x5, PayIdeal.pay7_eq]
  exact PayIdeal.pay40_apply x5 r j
theorem oh7 (r : Fin 1000) (j : Fin 4096) :
    Body.kernelRun0.sl.v252_7 (F := Ideal) c arg5 harg5 x5 (ValueIdx.ix2 r j) = Cert.KSpec.hot (x5 (ValueIdx.ix1 j)) (1000 * 7 + r.val) := by
  sl_unfold_run_names
  rw [View.readCov_cons_toLoadRect, load_whole1 (F := Ideal) (e := .i32) arg5 harg5 _ x5, PayIdeal.pay7_eq]
  exact PayIdeal.pay42_apply x5 r j
theorem oh8 (r : Fin 1000) (j : Fin 4096) :
    Body.kernelRun0.sl.v252_8 (F := Ideal) c arg5 harg5 x5 (ValueIdx.ix2 r j) = Cert.KSpec.hot (x5 (ValueIdx.ix1 j)) (1000 * 8 + r.val) := by
  sl_unfold_run_names
  rw [View.readCov_cons_toLoadRect, load_whole1 (F := Ideal) (e := .i32) arg5 harg5 _ x5, PayIdeal.pay7_eq]
  exact PayIdeal.pay1_apply x5 r j
theorem oh9 (r : Fin 1000) (j : Fin 4096) :
    Body.kernelRun0.sl.v252_9 (F := Ideal) c arg5 harg5 x5 (ValueIdx.ix2 r j) = Cert.KSpec.hot (x5 (ValueIdx.ix1 j)) (1000 * 9 + r.val) := by
  sl_unfold_run_names
  rw [View.readCov_cons_toLoadRect, load_whole1 (F := Ideal) (e := .i32) arg5 harg5 _ x5, PayIdeal.pay7_eq]
  exact PayIdeal.pay3_apply x5 r j

/-! ## A tile's update and its guard -/

/-- Tile t's stored value at row r, column b: the loaded tile there plus the messages of the positions that scatter to
    node 1000 t + r. -/
theorem upd_apply (t : Fin 10) (ld : FVec Ideal S1000x8 .f32) (r : Fin 1000) (b : Fin 8) :
    upd (F := Ideal) c arg3 harg3 arg4 harg4 arg5 harg5 arg6 harg6 x3 x4 x5 x6 t ld (ValueIdx.ix2 r b)
      = ld (ValueIdx.ix2 r b) + ∑ j : Fin 4096, Cert.KSpec.hot (x5 (ValueIdx.ix1 j)) (1000 * t.val + r.val) * msgOf x3 x4 x6 j b := by
  match t with
  | ⟨0, _⟩ =>
    refine (PayIdeal.pay29_apply _ _ _ _ _ _ _ ld r b).trans ?_
    refine congrArg (ld (ValueIdx.ix2 r b) + ·) (Finset.sum_congr rfl fun j _ => ?_)
    rw [msg0_run, oh0]
  | ⟨1, _⟩ =>
    refine (PayIdeal.pay31_apply _ _ ld r b).trans ?_
    refine congrArg (ld (ValueIdx.ix2 r b) + ·) (Finset.sum_congr rfl fun j _ => ?_)
    rw [msg_run, oh1]
  | ⟨2, _⟩ =>
    refine (PayIdeal.pay33_apply _ _ ld r b).trans ?_
    refine congrArg (ld (ValueIdx.ix2 r b) + ·) (Finset.sum_congr rfl fun j _ => ?_)
    rw [msg_run, oh2]
  | ⟨3, _⟩ =>
    refine (PayIdeal.pay35_apply _ _ ld r b).trans ?_
    refine congrArg (ld (ValueIdx.ix2 r b) + ·) (Finset.sum_congr rfl fun j _ => ?_)
    rw [msg_run, oh3]
  | ⟨4, _⟩ =>
    refine (PayIdeal.pay37_apply _ _ ld r b).trans ?_
    refine congrArg (ld (ValueIdx.ix2 r b) + ·) (Finset.sum_congr rfl fun j _ => ?_)
    rw [msg_run, oh4]
  | ⟨5, _⟩ =>
    refine (PayIdeal.pay39_apply _ _ ld r b).trans ?_
    refine congrArg (ld (ValueIdx.ix2 r b) + ·) (Finset.sum_congr rfl fun j _ => ?_)
    rw [msg_run, oh5]
  | ⟨6, _⟩ =>
    refine (PayIdeal.pay41_apply _ _ ld r b).trans ?_
    refine congrArg (ld (ValueIdx.ix2 r b) + ·) (Finset.sum_congr rfl fun j _ => ?_)
    rw [msg_run, oh6]
  | ⟨7, _⟩ =>
    refine (PayIdeal.pay43_apply _ _ ld r b).trans ?_
    refine congrArg (ld (ValueIdx.ix2 r b) + ·) (Finset.sum_congr rfl fun j _ => ?_)
    rw [msg_run, oh7]
  | ⟨8, _⟩ =>
    refine (PayIdeal.pay2_apply _ _ ld r b).trans ?_
    refine congrArg (ld (ValueIdx.ix2 r b) + ·) (Finset.sum_congr rfl fun j _ => ?_)
    rw [msg_run, oh8]
  | ⟨9, _⟩ =>
    refine (PayIdeal.pay4_apply _ _ ld r b).trans ?_
    refine congrArg (ld (ValueIdx.ix2 r b) + ·) (Finset.sum_congr rfl fun j _ => ?_)
    rw [msg_run, oh9]

/-- Tile t's guard is the bracket of the point's two table words. -/
theorem guardW_iff (t : Fin 10) :
    guardW (F := Ideal) c i arg1 harg1 arg2 harg2 x1 x2 t = 1#1
      ↔ (x1 (ValueIdx.ix1 (show Fin 489 from i 0))).toInt ≤ ((t.val : Nat) : Int)
          ∧ ((t.val : Nat) : Int) ≤ (x2 (ValueIdx.ix1 (show Fin 489 from i 0))).toInt := by
  match t with
  | ⟨0, _⟩ =>
    show Body.kernelRun0.sl.v191 (F := Ideal) c i arg1 harg1 arg2 harg2 x1 x2 = 1#1 ↔ _
    sl_unfold_run_names
    rw [smem_word, smem_word]
    exact AccRead.visit_iff _ _ 0#32 (0 : Int) (by decide)
  | ⟨1, _⟩ =>
    show Body.kernelRun0.sl.v196 (F := Ideal) c i arg1 harg1 arg2 harg2 x1 x2 = 1#1 ↔ _
    sl_unfold_run_names
    rw [smem_word, smem_word]
    exact AccRead.visit_iff _ _ 1#32 (1 : Int) (by decide)
  | ⟨2, _⟩ =>
    show Body.kernelRun0.sl.v201 (F := Ideal) c i arg1 harg1 arg2 harg2 x1 x2 = 1#1 ↔ _
    sl_unfold_run_names
    rw [smem_word, smem_word]
    exact AccRead.visit_iff _ _ 2#32 (2 : Int) (by decide)
  | ⟨3, _⟩ =>
    show Body.kernelRun0.sl.v206 (F := Ideal) c i arg1 harg1 arg2 harg2 x1 x2 = 1#1 ↔ _
    sl_unfold_run_names
    rw [smem_word, smem_word]
    exact AccRead.visit_iff _ _ 3#32 (3 : Int) (by decide)
  | ⟨4, _⟩ =>
    show Body.kernelRun0.sl.v211 (F := Ideal) c i arg1 harg1 arg2 harg2 x1 x2 = 1#1 ↔ _
    sl_unfold_run_names
    rw [smem_word, smem_word]
    exact AccRead.visit_iff _ _ 4#32 (4 : Int) (by decide)
  | ⟨5, _⟩ =>
    show Body.kernelRun0.sl.v216 (F := Ideal) c i arg1 harg1 arg2 harg2 x1 x2 = 1#1 ↔ _
    sl_unfold_run_names
    rw [smem_word, smem_word]
    exact AccRead.visit_iff _ _ 5#32 (5 : Int) (by decide)
  | ⟨6, _⟩ =>
    show Body.kernelRun0.sl.v221 (F := Ideal) c i arg1 harg1 arg2 harg2 x1 x2 = 1#1 ↔ _
    sl_unfold_run_names
    rw [smem_word, smem_word]
    exact AccRead.visit_iff _ _ 6#32 (6 : Int) (by decide)
  | ⟨7, _⟩ =>
    show Body.kernelRun0.sl.v226 (F := Ideal) c i arg1 harg1 arg2 harg2 x1 x2 = 1#1 ↔ _
    sl_unfold_run_names
    rw [smem_word, smem_word]
    exact AccRead.visit_iff _ _ 7#32 (7 : Int) (by decide)
  | ⟨8, _⟩ =>
    show Body.kernelRun0.sl.v231 (F := Ideal) c i arg1 harg1 arg2 harg2 x1 x2 = 1#1 ↔ _
    sl_unfold_run_names
    rw [smem_word, smem_word]
    exact AccRead.visit_iff _ _ 8#32 (8 : Int) (by decide)
  | ⟨9, _⟩ =>
    show Body.kernelRun0.sl.v236 (F := Ideal) c i arg1 harg1 arg2 harg2 x1 x2 = 1#1 ↔ _
    sl_unfold_run_names
    rw [smem_word, smem_word]
    exact AccRead.visit_iff _ _ 9#32 (9 : Int) (by decide)

/-- The base at the ideal values: zero at the first grid point, what the point found at a later one. -/
theorem base_apply (a8 : FVec Ideal S10000x8 .f32) (y : S10000x8.Idx) :
    base (F := Ideal) i a8 y = if (i 0).val = 0 then (0 : EReal) else (a8 y : EReal) := by
  unfold base
  exact if_congr (first_eq i) (PayIdeal.pay5_apply y) rfl

/-! ## The point in closed form -/

/-- One grid point: the base plus, when the node's tile is visited, the chunk's one-hot-scattered weighted messages. -/
theorem acc8_0_closed (a8 : FVec Ideal S10000x8 .f32) (n : Fin 10000) (b : Fin 8) :
    (Body.acc8_0 (F := Ideal) c i arg1 harg1 arg2 harg2 arg3 harg3 arg4 harg4 arg5 harg5 arg6 harg6 x1 x2 x3 x4 x5 x6 a8 (ValueIdx.ix2 n b) : EReal)
      = (if (i 0).val = 0 then (0 : EReal) else (a8 (ValueIdx.ix2 n b) : EReal))
        + (if (x1 (ValueIdx.ix1 (show Fin 489 from i 0))).toInt ≤ ((n.val / 1000 : Nat) : Int)
              ∧ ((n.val / 1000 : Nat) : Int) ≤ (x2 (ValueIdx.ix1 (show Fin 489 from i 0))).toInt
           then ∑ j : Fin 4096, Cert.KSpec.hot (x5 (ValueIdx.ix1 j)) n.val * msgOf x3 x4 x6 j b else 0) := by
  have hn : n.val = 1000 * (⟨n.val / 1000, by have := n.isLt; omega⟩ : Fin 10).val + (⟨n.val % 1000, Nat.mod_lt _ (by omega)⟩ : Fin 1000).val :=
    (Nat.div_add_mod n.val 1000).symm
  rw [acc8_0_tile (F := Ideal) c i arg1 harg1 arg2 harg2 arg3 harg3 arg4 harg4 arg5 harg5 arg6 harg6 x1 x2 x3 x4 x5 x6 a8 _ _ b n hn, upd_apply, tileOf_apply _ _ _ _ b n hn, base_apply]
  rw [← hn]
  by_cases hg : guardW (F := Ideal) c i arg1 harg1 arg2 harg2 x1 x2 ⟨n.val / 1000, by have := n.isLt; omega⟩ = 1#1
  · rw [if_pos hg, if_pos ((guardW_iff c i arg1 harg1 arg2 harg2 x1 x2 _).mp hg)]
  · rw [if_neg hg, if_neg (fun h => hg ((guardW_iff c i arg1 harg1 arg2 harg2 x1 x2 _).mpr h)), add_zero]

end Point

end Cert.KernelIdeal.AccIdeal

end
-- ==== Proof.Step0.lean ====
/-
  The accumulator of custom_call 0 at the ideal instance, in closed form.
  One grid point: the accumulator is reset at the first point, and every visited node tile then receives the chunk's
  one-hot-scattered weighted messages (`acc8_0_apply`). All 489 points: the sum of those contributions over the chunks
  (`accAt0_final`, KSpec.accFinal), each chunk's operands being the blocks of the launch's arrays at that point.
-/
import proofs.«400082_j83537113907851_4_alg».proof.Proof.Dat0
import proofs.«400082_j83537113907851_4_alg».proof.Proof.PayIdeal
import proofs.«400082_j83537113907851_4_alg».proof.Proof.AccIdeal0
import proofs.«400082_j83537113907851_4_alg».proof.Proof.KSpec
import Idealize.ShloMosaic.Lib.ValueIdx

noncomputable section

open scoped BigOperators

namespace Cert.KernelIdeal.Step

open Cert.KernelIdeal Cert.KernelIdeal.Gen
open Idealize.ShloMosaic Idealize.ShloMosaic.TcCoe Idealize.SL.Sem

/-- What one grid point adds at node `n`, batch column `b`, when the node's tile is visited: the chunk's positions that
    scatter to `n`, each with its gathered node state times its weight. -/
def contrib0 (x3 : Vec Ideal S10000x8 .f32) (x4 x5 : Vec Ideal S4096 .i32) (x6 : Vec Ideal S4096 .f32) (n : Fin 10000) (b : Fin 8) : EReal :=
  ∑ j : Fin 4096, Cert.KSpec.hot (x5 (ValueIdx.ix1 j)) n.val
    * ((∑ t : Fin 10, ∑ r : Fin 1000, Cert.KSpec.hot (x4 (ValueIdx.ix1 j)) (Cert.KSpec.node t r).val * (x3 (ValueIdx.ix2 (Cert.KSpec.node t r) b) : EReal))
        * (x6 (ValueIdx.ix1 j) : EReal))

/-- One grid point `i`, with the tables `x1 x2` (read at the point's own word, signed), the node states `x3`, the chunk's
    gather indices `x4`, scatter indices `x5` and weights `x6`, over the accumulator `a8` it found. -/
theorem acc8_0_apply (c : Dev nD) (i : grid0.Coords)
    (arg1 : Memref sig .tc .smem S489 .i32) (harg1 : arg1.IsWhole) (arg2 : Memref sig .tc .smem S489 .i32) (harg2 : arg2.IsWhole)
    (arg3 : Memref sig .tc .vmem S10000x8 .f32) (harg3 : arg3.IsWhole) (arg4 : Memref sig .tc .vmem S4096 .i32) (harg4 : arg4.IsWhole)
    (arg5 : Memref sig .tc .vmem S4096 .i32) (harg5 : arg5.IsWhole) (arg6 : Memref sig .tc .vmem S4096 .f32) (harg6 : arg6.IsWhole)
    (x1 x2 : Vec Ideal S489 .i32) (x3 : Vec Ideal S10000x8 .f32) (x4 x5 : Vec Ideal S4096 .i32)
    (x6 : Vec Ideal S4096 .f32) (a8 : Vec Ideal S10000x8 .f32) (n : Fin 10000) (b : Fin 8) :
    (Body.acc8_0 (F := Ideal) c i arg1 harg1 arg2 harg2 arg3 harg3 arg4 harg4 arg5 harg5 arg6 harg6 x1 x2 x3 x4 x5 x6 a8 (ValueIdx.ix2 n b) : EReal)
      = (if (i 0).val = 0 then (0 : EReal) else (a8 (ValueIdx.ix2 n b) : EReal))
        + (if (x1 (ValueIdx.ix1 (show Fin 489 from i 0))).toInt ≤ ((n.val / 1000 : Nat) : Int)
              ∧ ((n.val / 1000 : Nat) : Int) ≤ (x2 (ValueIdx.ix1 (show Fin 489 from i 0))).toInt
           then contrib0 x3 x4 x5 x6 n b else 0) := by
  unfold contrib0
  exact AccIdeal.acc8_0_closed c i arg1 harg1 arg2 harg2 arg3 harg3 arg4 harg4 arg5 harg5 arg6 harg6 x1 x2 x3 x4 x5 x6 a8 n b

variable (V : (c : Dev nD) → (b : Ref sig .tc) → Buf (Elt Ideal) ((c : Thread nD τ).loc b))

/-! ## The blocks of the launch's arrays, read at an index -/

/-- Window 0's one block is the whole array of node states. -/
theorem xs0_read (c : Dev nD) (p : Fin (cfg0 (Frame.adm0 (F := Ideal) V)).N) (j : S10000x8.Idx) :
    Frame.xs0 (F := Ideal) V c p j = V c main_v79 j := by
  have h : ∀ a : Fin 2, ((((cfg0 (Frame.adm0 (F := Ideal) V)).win 0).blk p).view.emb j a).val = (j a).val := fun a =>
    match a with
    | ⟨0, _⟩ => by show 0 * 10000 + 1 * (j 0).val = (j 0).val; omega
    | ⟨1, _⟩ => by show 0 * 8 + 1 * (j 1).val = (j 1).val; omega
  show V c main_v79 ((((cfg0 (Frame.adm0 (F := Ideal) V)).win 0).blk p).view.emb j) = V c main_v79 j
  exact congrArg (V c main_v79) (funext fun a => Fin.ext (h a))

/-- A grid coordinate's word is the coordinate. -/
theorem word_coord (i : grid0.Coords) : (BitVec.ofNat 32 (i 0).val).toNat = (i 0).val := by
  have h489 : (i 0).val < 489 := (i 0).isLt
  rw [BitVec.toNat_ofNat]
  exact Nat.mod_eq_of_lt (by omega)

/-- Entry `j` of the chunk's block of gather indices is entry `4096 t + j` of the array, `t` the point's coordinate. -/
theorem gi0_read (c : Dev nD) (p : Fin (cfg0 (Frame.adm0 (F := Ideal) V)).N) (j : Fin 4096) :
    Frame.gi0 (F := Ideal) V c p (ValueIdx.ix1 j)
      = V c main_v22 (ValueIdx.ix1 (Cert.KSpec.pos (show Fin 489 from grid0.coords p 0) j)) := by
  have h : ∀ a : Fin 1, ((((cfg0 (Frame.adm0 (F := Ideal) V)).win 1).blk p).view.emb (ValueIdx.ix1 j) a).val
      = ((ValueIdx.ix1 (Cert.KSpec.pos (show Fin 489 from grid0.coords p 0) j) : S2002944.Idx) a).val := fun a =>
    match a with
    | ⟨0, _⟩ => by
      show (BitVec.ofNat 32 (grid0.coords p 0).val).toNat * 4096 + 1 * j.val = (grid0.coords p 0).val * 4096 + j.val
      rw [word_coord]; omega
  show V c main_v22 ((((cfg0 (Frame.adm0 (F := Ideal) V)).win 1).blk p).view.emb (ValueIdx.ix1 j)) = _
  exact congrArg (V c main_v22) (funext fun a => Fin.ext (h a))

/-- Likewise the chunk's scatter indices, -/
theorem si0_read (c : Dev nD) (p : Fin (cfg0 (Frame.adm0 (F := Ideal) V)).N) (j : Fin 4096) :
    Frame.si0 (F := Ideal) V c p (ValueIdx.ix1 j)
      = V c main_v29 (ValueIdx.ix1 (Cert.KSpec.pos (show Fin 489 from grid0.coords p 0) j)) := by
  have h : ∀ a : Fin 1, ((((cfg0 (Frame.adm0 (F := Ideal) V)).win 2).blk p).view.emb (ValueIdx.ix1 j) a).val
      = ((ValueIdx.ix1 (Cert.KSpec.pos (show Fin 489 from grid0.coords p 0) j) : S2002944.Idx) a).val := fun a =>
    match a with
    | ⟨0, _⟩ => by
      show (BitVec.ofNat 32 (grid0.coords p 0).val).toNat * 4096 + 1 * j.val = (grid0.coords p 0).val * 4096 + j.val
      rw [word_coord]; omega
  show V c main_v29 ((((cfg0 (Frame.adm0 (F := Ideal) V)).win 2).blk p).view.emb (ValueIdx.ix1 j)) = _
  exact congrArg (V c main_v29) (funext fun a => Fin.ext (h a))

/-- and its weights. -/
theorem ws0_read (c : Dev nD) (p : Fin (cfg0 (Frame.adm0 (F := Ideal) V)).N) (j : Fin 4096) :
    Frame.ws0 (F := Ideal) V c p (ValueIdx.ix1 j)
      = V c main_v36 (ValueIdx.ix1 (Cert.KSpec.pos (show Fin 489 from grid0.coords p 0) j)) := by
  have h : ∀ a : Fin 1, ((((cfg0 (Frame.adm0 (F := Ideal) V)).win 3).blk p).view.emb (ValueIdx.ix1 j) a).val
      = ((ValueIdx.ix1 (Cert.KSpec.pos (show Fin 489 from grid0.coords p 0) j) : S2002944.Idx) a).val := fun a =>
    match a with
    | ⟨0, _⟩ => by
      show (BitVec.ofNat 32 (grid0.coords p 0).val).toNat * 4096 + 1 * j.val = (grid0.coords p 0).val * 4096 + j.val
      rw [word_coord]; omega
  show V c main_v36 ((((cfg0 (Frame.adm0 (F := Ideal) V)).win 3).blk p).view.emb (ValueIdx.ix1 j)) = _
  exact congrArg (V c main_v36) (funext fun a => Fin.ext (h a))

/-! ## One chunk's guarded contribution -/

/-- The launch's operands as the chunked accumulation reads them: node states, gather indices, scatter indices, weights,
    and the two tables of first and last tile per chunk. -/
abbrev valsOf (c : Dev nD) : Fin 10000 → Fin 8 → EReal := fun n b => (V c main_v79 (ValueIdx.ix2 n b) : EReal)
abbrev gOf (c : Dev nD) : Fin 2002944 → BitVec 32 := fun p => V c main_v22 (ValueIdx.ix1 p)
abbrev sOf (c : Dev nD) : Fin 2002944 → BitVec 32 := fun p => V c main_v29 (ValueIdx.ix1 p)
abbrev wOf (c : Dev nD) : Fin 2002944 → EReal := fun p => (V c main_v36 (ValueIdx.ix1 p) : EReal)
abbrev loOf : Fin 489 → BitVec 32 := fun k => V 0 main_v40 (ValueIdx.ix1 k)
abbrev hiOf : Fin 489 → BitVec 32 := fun k => V 0 main_v43 (ValueIdx.ix1 k)

/-- Chunk `k`'s guarded contribution at node `n`, batch column `b`; 0 past the last chunk. -/
def chunkTerm (c : Dev nD) (n : Fin 10000) (b : Fin 8) (k : Nat) : EReal :=
  if h : k < 489 then
    (if Cert.KSpec.visited (loOf V) (hiOf V) ⟨k, h⟩ (n.val / 1000)
      then Cert.KSpec.part (valsOf V c) (gOf V c) (sOf V c) (wOf V c) ⟨k, h⟩ n b else 0)
  else 0

/-- At grid coordinates `i`, on operands that are the blocks of the launch's arrays there, the point's guarded
    contribution is chunk `i 0`'s: the guard reads the tables at the point's own word, and the block entries are the
    chunk's positions. -/
theorem guard_term (c : Dev nD) (i : grid0.Coords)
    (x3 : Vec Ideal S10000x8 .f32) (x4 x5 : Vec Ideal S4096 .i32) (x6 : Vec Ideal S4096 .f32)
    (hx3 : ∀ (m : Fin 10000) (b : Fin 8), x3 (ValueIdx.ix2 m b) = V c main_v79 (ValueIdx.ix2 m b))
    (hx4 : ∀ j : Fin 4096, x4 (ValueIdx.ix1 j) = V c main_v22 (ValueIdx.ix1 (Cert.KSpec.pos (show Fin 489 from i 0) j)))
    (hx5 : ∀ j : Fin 4096, x5 (ValueIdx.ix1 j) = V c main_v29 (ValueIdx.ix1 (Cert.KSpec.pos (show Fin 489 from i 0) j)))
    (hx6 : ∀ j : Fin 4096, x6 (ValueIdx.ix1 j) = V c main_v36 (ValueIdx.ix1 (Cert.KSpec.pos (show Fin 489 from i 0) j)))
    (n : Fin 10000) (b : Fin 8) :
    (if (Frame.tabA0 (F := Ideal) V (ValueIdx.ix1 (show Fin 489 from i 0))).toInt ≤ ((n.val / 1000 : Nat) : Int)
          ∧ ((n.val / 1000 : Nat) : Int) ≤ (Frame.tabB0 (F := Ideal) V (ValueIdx.ix1 (show Fin 489 from i 0))).toInt
       then contrib0 x3 x4 x5 x6 n b else 0)
      = chunkTerm V c n b (i 0).val := by
  have h489 : (i 0).val < 489 := (i 0).isLt
  have hc : contrib0 x3 x4 x5 x6 n b
      = Cert.KSpec.part (valsOf V c) (gOf V c) (sOf V c) (wOf V c) ⟨(i 0).val, h489⟩ n b := by
    unfold contrib0 Cert.KSpec.part Cert.KSpec.msg Cert.KSpec.gathered
    simp only [hx3, hx4, hx5, hx6]
    rfl
  unfold chunkTerm
  rw [dif_pos h489]
  refine if_congr ?_ hc rfl
  exact Iff.rfl

/-- Grid point `t`'s guarded contribution, on the blocks of the launch's arrays at that point, is chunk `t`'s. -/
theorem point_term (c : Dev nD) (t : Nat) (h : t < 489) (n : Fin 10000) (b : Fin 8) :
    (if (Frame.tabA0 (F := Ideal) V (ValueIdx.ix1 (show Fin 489 from grid0.coords (Frame.pt0 (F := Ideal) V t h) 0))).toInt
            ≤ ((n.val / 1000 : Nat) : Int)
          ∧ ((n.val / 1000 : Nat) : Int)
            ≤ (Frame.tabB0 (F := Ideal) V (ValueIdx.ix1 (show Fin 489 from grid0.coords (Frame.pt0 (F := Ideal) V t h) 0))).toInt
       then contrib0 (Frame.xs0 (F := Ideal) V c (Frame.pt0 V t h)) (Frame.gi0 (F := Ideal) V c (Frame.pt0 V t h))
          (Frame.si0 (F := Ideal) V c (Frame.pt0 V t h)) (Frame.ws0 (F := Ideal) V c (Frame.pt0 V t h)) n b else 0)
      = chunkTerm V c n b t := by
  have hp : (grid0.coords (Frame.pt0 (F := Ideal) V t h) 0).val = t := Frame.coords_val0 _
  have key := guard_term V c (grid0.coords (Frame.pt0 (F := Ideal) V t h))
    (Frame.xs0 (F := Ideal) V c (Frame.pt0 V t h)) (Frame.gi0 (F := Ideal) V c (Frame.pt0 V t h))
    (Frame.si0 (F := Ideal) V c (Frame.pt0 V t h)) (Frame.ws0 (F := Ideal) V c (Frame.pt0 V t h))
    (fun m b => xs0_read V c (Frame.pt0 V t h) (ValueIdx.ix2 m b))
    (fun j => gi0_read V c (Frame.pt0 V t h) j) (fun j => si0_read V c (Frame.pt0 V t h) j)
    (fun j => ws0_read V c (Frame.pt0 V t h) j) n b
  rw [hp] at key
  exact key

/-! ## All 489 points -/

/-- Before point `T + 1` the accumulator holds the guarded contributions of chunks `0 … T`: the first point resets it
    and adds chunk 0's, every later point adds its own chunk's to what it found. -/
theorem accAt0_succ (c : Dev nD) (n : Fin 10000) (b : Fin 8) :
    ∀ T : Nat, T < 489 →
      (Frame.accAt0 (F := Ideal) V c (T + 1) (ValueIdx.ix2 n b) : EReal)
        = ∑ k ∈ Finset.range (T + 1), chunkTerm V c n b k := by
  intro T
  induction T with
  | zero =>
    intro h
    have hp : (grid0.coords (Frame.pt0 (F := Ideal) V 0 h) 0).val = 0 := Frame.coords_val0 _
    rw [Frame.accAt0, dif_pos h]
    delta Frame.accOn0
    rw [acc8_0_apply, if_pos hp, zero_add, Finset.sum_range_one]
    exact point_term V c 0 h n b
  | succ T ih =>
    intro h
    have hp : (grid0.coords (Frame.pt0 (F := Ideal) V (T + 1) h) 0).val = T + 1 := Frame.coords_val0 _
    have hne : ¬ (grid0.coords (Frame.pt0 (F := Ideal) V (T + 1) h) 0).val = 0 := by rw [hp]; omega
    rw [Frame.accAt0, dif_pos h]
    delta Frame.accOn0
    rw [acc8_0_apply, if_neg hne, ih (by omega), Finset.sum_range_succ _ (T + 1)]
    congr 1
    exact point_term V c (T + 1) h n b

/-- After the 489 grid points the accumulator holds, at node `n` and batch column `b`, the chunked one-hot
    accumulation of the launch's operands as the region found them. -/
theorem accAt0_final (c : Dev nD) (n : Fin 10000) (b : Fin 8) :
    (Frame.accAt0 (F := Ideal) V c 489 (ValueIdx.ix2 n b) : EReal)
      = Cert.KSpec.accFinal (fun n b => (V c main_v79 (ValueIdx.ix2 n b) : EReal)) (fun p => V c main_v22 (ValueIdx.ix1 p))
          (fun p => V c main_v29 (ValueIdx.ix1 p)) (fun p => (V c main_v36 (ValueIdx.ix1 p) : EReal))
          (fun k => V 0 main_v40 (ValueIdx.ix1 k)) (fun k => V 0 main_v43 (ValueIdx.ix1 k)) n b := by
  refine (accAt0_succ V c n b 488 (by omega)).trans ?_
  refine (Fin.sum_univ_eq_sum_range (fun k => chunkTerm V c n b k) 489).symm.trans ?_
  unfold Cert.KSpec.accFinal
  refine Finset.sum_congr rfl (fun k _ => ?_)
  show chunkTerm V c n b k.val = _
  unfold chunkTerm
  rw [dif_pos k.isLt]

end Cert.KernelIdeal.Step

end
-- ==== Proof.PayIdeal1.lean ====
/-
  The pure values of the message-passing kernel's body, read entry by entry at the ideal values.

  One chunk of 4096 edge positions carries a gather index g j, a scatter index s j and a weight w j. For each of the
  ten node tiles t (1000 nodes each) the body forms the one-hot matrix H_t(r, j) = [index word of j names node 1000 t + r],
  multiplies it with a tile of node states or with the messages, and adds the products up:
    gathered (j, b) = (((0 + ∑ r, H_0(r, j) · x_0(r, b)) + ∑ r, H_1(r, j) · x_1(r, b)) + …) ,  msg (j, b) = gathered (j, b) · w j,
    acc_t (r, b)    ← acc_t (r, b) + ∑ j, H_t(r, j) · msg (j, b).
  Here each of those values is read at an index given by explicit coordinates: a one-hot entry is 1 or 0 by a word
  equality; a product into a zero accumulator is the finite sum over the contracted coordinate; the sums are kept in
  the program's own association.
-/
import proofs.«400082_j83537113907851_4_alg».proof.Proof.Gen.KernelIdeal.Skeleton
import proofs.«400082_j83537113907851_4_alg».proof.Proof.KSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayIdeal1

open Idealize.ShloMosaic Idealize.ShloMosaic.ValueIdx
open scoped BigOperators

/-! ## Two layout readings: a column repeated along the rows, a vector stood up as a column -/

/-- An [a, 1] column broadcast to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ValueIdx.ix2 p c) = v (ValueIdx.ix2 p (0 : Fin 1)) := by
  refine broadcastTo_apply v h (ValueIdx.ix2 p c) (ValueIdx.ix2 p (0 : Fin 1)) fun ax => ?_
  match ax with
  | ⟨0, _⟩ =>
    show p.val = if a = 1 then 0 else p.val
    split
    · have := p.isLt; omega
    · rfl
  | ⟨1, _⟩ => rfl

/-- An [a] vector cast to an [a, 1] column reads, at (i, u), the vector's entry i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ValueIdx.ix2 i u) = x (ValueIdx.ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The one-hot entry: a word equality turned into 1 or 0 -/

/-- Two words compared for equality, the bit widened to a word and that word read as a signed integer:
    the extended real 1 when the words are equal, 0 when they are not. -/
theorem sitofp_extui_cmpi_eq (a b : BitVec 32) :
    FloatOps.sitofp (F := Ideal) .f32 ((IntOp.cmpi .eq a b).setWidth 32) = if a = b then (1 : EReal) else 0 := by
  show ((((IntOp.cmpi .eq a b).setWidth 32).toInt : ℝ) : EReal) = _
  have e0 : IntOp.cmpi .eq a b = BitVec.ofBool (a == b) := rfl
  by_cases h : a = b
  · have hb : (a == b) = true := beq_iff_eq.mpr h
    have t : ((BitVec.ofBool true).setWidth 32).toInt = 1 := by decide
    rw [e0, hb, if_pos h, t]; simp
  · have hb : (a == b) = false := beq_eq_false_iff_ne.mpr h
    have t : ((BitVec.ofBool false).setWidth 32).toInt = 0 := by decide
    rw [e0, hb, if_neg h, t]; simp

/-- The same at an index of two arrays of words. -/
theorem sitofp_extui_cmpi_eq_apply {s : Shape} (A B : IVec s 32) (hlt : 1 < 32) (i : s.Idx) :
    (sitofp (F := Ideal) .f32 (extui 32 (cmpi .eq A B) hlt)) i = if A i = B i then (1 : EReal) else 0 :=
  sitofp_extui_cmpi_eq (A i) (B i)

/-- One tile of the one-hot matrix. Row r of the tile carries the node number c + r (the row counter added to
    the tile's offset word c = n; the sum does not wrap in the use made of it, and the statement holds modulo 2^32
    in any case); column j carries the index word v j; the entry is 1 exactly when the two words agree. -/
theorem onehot_apply (c : BitVec 32) (n : Nat) (hc : c = BitVec.ofNat 32 n) (v : IVec S4096 32)
    (hi : S1000x1.Iotas .tc 32 [0]) (hs : S4096.ShapeCasts S1x4096)
    (hb1 : S1000x1.Broadcasts S1000x4096) (hb2 : S1x4096.Broadcasts S1000x4096) (hlt : 1 < 32)
    (r : Fin 1000) (j : Fin 4096) :
    (sitofp (F := Ideal) .f32 (extui 32 (cmpi .eq
        (broadcastTo S1000x4096 (addi (broadcast S1000x1 c) (iota .tc S1000x1 32 [0] hi)) hb1)
        (broadcastTo S1000x4096 (shapeCast S1x4096 v hs) hb2)) hlt)) (ValueIdx.ix2 r j)
      = Cert.KSpec.hot (v (ValueIdx.ix1 j)) (n + r.val) := by
  have e1 : broadcastTo S1000x4096 (addi (broadcast S1000x1 c) (iota .tc S1000x1 32 [0] hi)) hb1 (ValueIdx.ix2 r j)
      = BitVec.ofNat 32 (n + r.val) := by
    refine (broadcastTo_a1_ab_apply _ hb1 r j).trans ?_
    show IntOp.addi c (iota .tc S1000x1 32 [0] hi (ValueIdx.ix2 r (0 : Fin 1))) = _
    rw [iota_single_apply, hc]
    exact (BitVec.ofNat_add n r.val).symm
  have e2 : broadcastTo S1000x4096 (shapeCast S1x4096 v hs) hb2 (ValueIdx.ix2 r j) = v (ValueIdx.ix1 j) :=
    (broadcastTo_1b_ab_apply _ hb2 r j).trans (shapeCast_a_1a_apply v hs 0 j)
  rw [sitofp_extui_cmpi_eq_apply, e1, e2]
  unfold Cert.KSpec.hot
  by_cases h : v (ValueIdx.ix1 j) = BitVec.ofNat 32 (n + r.val)
  · rw [if_pos h, if_pos h.symm]
  · rw [if_neg h, if_neg (fun h' => h h'.symm)]

/-! ## The two products, each as a finite sum over the contracted coordinate

The gather contracts the ROWS of the one-hot tile against the rows of the node states' tile; the scatter contracts
the COLUMNS of the one-hot tile against the rows of the messages. For each product the operands' indices at an output
index and a contraction position are named coordinate by coordinate, and the contraction position is its one coordinate. -/

theorem lhs_gather_0 (i : S4096x8.Idx) (q : dot_S1000x4096_S1000x8_S4096x8_0_0_1_1_n_n.contr.Idx) :
    (dot_S1000x4096_S1000x8_S4096x8_0_0_1_1_n_n.lhsIdx i q 0).val = (q ⟨0, by decide⟩).val :=
  dot_S1000x4096_S1000x8_S4096x8_0_0_1_1_n_n.lhsIdx_val_of_single rfl i q
theorem lhs_gather_1 (i : S4096x8.Idx) (q : dot_S1000x4096_S1000x8_S4096x8_0_0_1_1_n_n.contr.Idx) :
    (dot_S1000x4096_S1000x8_S4096x8_0_0_1_1_n_n.lhsIdx i q 1).val = (i 0).val := by
  unfold DotDims.lhsIdx
  rw [dif_neg (show ¬(1 : Fin S1000x4096.rank) ∈ dot_S1000x4096_S1000x8_S4096x8_0_0_1_1_n_n.lhsBatch by decide),
    dif_pos (show (1 : Fin S1000x4096.rank) ∈ dot_S1000x4096_S1000x8_S4096x8_0_0_1_1_n_n.lhsNonContracting by decide)]
  rfl
theorem rhs_gather_0 (i : S4096x8.Idx) (q : dot_S1000x4096_S1000x8_S4096x8_0_0_1_1_n_n.contr.Idx) :
    (dot_S1000x4096_S1000x8_S4096x8_0_0_1_1_n_n.rhsIdx i q 0).val = (q ⟨0, by decide⟩).val :=
  dot_S1000x4096_S1000x8_S4096x8_0_0_1_1_n_n.rhsIdx_val_of_single rfl i q
theorem rhs_gather_1 (i : S4096x8.Idx) (q : dot_S1000x4096_S1000x8_S4096x8_0_0_1_1_n_n.contr.Idx) :
    (dot_S1000x4096_S1000x8_S4096x8_0_0_1_1_n_n.rhsIdx i q 1).val = (i 1).val := by
  unfold DotDims.rhsIdx
  rw [dif_neg (show ¬(1 : Fin S1000x8.rank) ∈ dot_S1000x4096_S1000x8_S4096x8_0_0_1_1_n_n.rhsBatch by decide),
    dif_pos (show (1 : Fin S1000x8.rank) ∈ dot_S1000x4096_S1000x8_S4096x8_0_0_1_1_n_n.rhsNonContracting by decide)]
  rfl

/-- The gather's product into a zero accumulator: position j, column b receives the sum over the tile's rows r of
    the one-hot entry (r, j) times the node state (r, b). -/
theorem gather_matmul_apply (A : FVec Ideal S1000x4096 .f32) (B : FVec Ideal S1000x8 .f32) (j : Fin 4096) (b : Fin 8) :
    matmul (F := Ideal) (φ₁ := .f32) (φ₂ := .f32) dot_S1000x4096_S1000x8_S4096x8_0_0_1_1_n_n none A B
        (constant (F := Ideal) S4096x8 .f32 0x00000000#32) (ValueIdx.ix2 j b)
      = ∑ r : Fin 1000, A (ValueIdx.ix2 r j) * B (ValueIdx.ix2 r b) := by
  refine (Ideal.matmul_constant_zero_apply (φ₁ := .f32) (φ₂ := .f32) dot_S1000x4096_S1000x8_S4096x8_0_0_1_1_n_n none A B (ValueIdx.ix2 j b)).trans ?_
  rw [← Equiv.sum_comp (contrEquiv1 dot_S1000x4096_S1000x8_S4096x8_0_0_1_1_n_n 1000 rfl rfl).symm]
  refine Finset.sum_congr rfl fun k _ => ?_
  have hk := contrEquiv1_symm_val dot_S1000x4096_S1000x8_S4096x8_0_0_1_1_n_n 1000 rfl rfl k
  have el : dot_S1000x4096_S1000x8_S4096x8_0_0_1_1_n_n.lhsIdx (ValueIdx.ix2 j b)
      ((contrEquiv1 dot_S1000x4096_S1000x8_S4096x8_0_0_1_1_n_n 1000 rfl rfl).symm k) = ValueIdx.ix2 k j :=
    funext fun a => Fin.ext (by
      match a with
      | ⟨0, _⟩ => exact (lhs_gather_0 _ _).trans hk
      | ⟨1, _⟩ => exact lhs_gather_1 _ _)
  have er : dot_S1000x4096_S1000x8_S4096x8_0_0_1_1_n_n.rhsIdx (ValueIdx.ix2 j b)
      ((contrEquiv1 dot_S1000x4096_S1000x8_S4096x8_0_0_1_1_n_n 1000 rfl rfl).symm k) = ValueIdx.ix2 k b :=
    funext fun a => Fin.ext (by
      match a with
      | ⟨0, _⟩ => exact (rhs_gather_0 _ _).trans hk
      | ⟨1, _⟩ => exact rhs_gather_1 _ _)
  rw [el, er]

theorem lhs_scatter_0 (i : S1000x8.Idx) (q : dot_S1000x4096_S4096x8_S1000x8_1_0_0_1_n_n.contr.Idx) :
    (dot_S1000x4096_S4096x8_S1000x8_1_0_0_1_n_n.lhsIdx i q 0).val = (i 0).val := by
  unfold DotDims.lhsIdx
  rw [dif_neg (show ¬(0 : Fin S1000x4096.rank) ∈ dot_S1000x4096_S4096x8_S1000x8_1_0_0_1_n_n.lhsBatch by decide),
    dif_pos (show (0 : Fin S1000x4096.rank) ∈ dot_S1000x4096_S4096x8_S1000x8_1_0_0_1_n_n.lhsNonContracting by decide)]
  rfl
theorem lhs_scatter_1 (i : S1000x8.Idx) (q : dot_S1000x4096_S4096x8_S1000x8_1_0_0_1_n_n.contr.Idx) :
    (dot_S1000x4096_S4096x8_S1000x8_1_0_0_1_n_n.lhsIdx i q 1).val = (q ⟨0, by decide⟩).val :=
  dot_S1000x4096_S4096x8_S1000x8_1_0_0_1_n_n.lhsIdx_val_of_single rfl i q
theorem rhs_scatter_0 (i : S1000x8.Idx) (q : dot_S1000x4096_S4096x8_S1000x8_1_0_0_1_n_n.contr.Idx) :
    (dot_S1000x4096_S4096x8_S1000x8_1_0_0_1_n_n.rhsIdx i q 0).val = (q ⟨0, by decide⟩).val :=
  dot_S1000x4096_S4096x8_S1000x8_1_0_0_1_n_n.rhsIdx_val_of_single rfl i q
theorem rhs_scatter_1 (i : S1000x8.Idx) (q : dot_S1000x4096_S4096x8_S1000x8_1_0_0_1_n_n.contr.Idx) :
    (dot_S1000x4096_S4096x8_S1000x8_1_0_0_1_n_n.rhsIdx i q 1).val = (i 1).val := by
  unfold DotDims.rhsIdx
  rw [dif_neg (show ¬(1 : Fin S4096x8.rank) ∈ dot_S1000x4096_S4096x8_S1000x8_1_0_0_1_n_n.rhsBatch by decide),
    dif_pos (show (1 : Fin S4096x8.rank) ∈ dot_S1000x4096_S4096x8_S1000x8_1_0_0_1_n_n.rhsNonContracting by decide)]
  rfl

/-- The scatter's product into a zero accumulator: row r of the tile, column b receives the sum over the chunk's
    positions j of the one-hot entry (r, j) times the message (j, b). -/
theorem scatter_matmul_apply (A : FVec Ideal S1000x4096 .f32) (M : FVec Ideal S4096x8 .f32) (r : Fin 1000) (b : Fin 8) :
    matmul (F := Ideal) (φ₁ := .f32) (φ₂ := .f32) dot_S1000x4096_S4096x8_S1000x8_1_0_0_1_n_n none A M
        (constant (F := Ideal) S1000x8 .f32 0x00000000#32) (ValueIdx.ix2 r b)
      = ∑ j : Fin 4096, A (ValueIdx.ix2 r j) * M (ValueIdx.ix2 j b) := by
  refine (Ideal.matmul_constant_zero_apply (φ₁ := .f32) (φ₂ := .f32) dot_S1000x4096_S4096x8_S1000x8_1_0_0_1_n_n none A M (ValueIdx.ix2 r b)).trans ?_
  rw [← Equiv.sum_comp (contrEquiv1 dot_S1000x4096_S4096x8_S1000x8_1_0_0_1_n_n 4096 rfl rfl).symm]
  refine Finset.sum_congr rfl fun k _ => ?_
  have hk := contrEquiv1_symm_val dot_S1000x4096_S4096x8_S1000x8_1_0_0_1_n_n 4096 rfl rfl k
  have el : dot_S1000x4096_S4096x8_S1000x8_1_0_0_1_n_n.lhsIdx (ValueIdx.ix2 r b)
      ((contrEquiv1 dot_S1000x4096_S4096x8_S1000x8_1_0_0_1_n_n 4096 rfl rfl).symm k) = ValueIdx.ix2 r k :=
    funext fun a => Fin.ext (by
      match a with
      | ⟨0, _⟩ => exact lhs_scatter_0 _ _
      | ⟨1, _⟩ => exact (lhs_scatter_1 _ _).trans hk)
  have er : dot_S1000x4096_S4096x8_S1000x8_1_0_0_1_n_n.rhsIdx (ValueIdx.ix2 r b)
      ((contrEquiv1 dot_S1000x4096_S4096x8_S1000x8_1_0_0_1_n_n 4096 rfl rfl).symm k) = ValueIdx.ix2 k b :=
    funext fun a => Fin.ext (by
      match a with
      | ⟨0, _⟩ => exact (rhs_scatter_0 _ _).trans hk
      | ⟨1, _⟩ => exact rhs_scatter_1 _ _)
  rw [el, er]

/-! ## The products as the kernel writes them: a node-state tile under its identity cast, added to a running value -/

/-- A running value plus the gather's product of a one-hot tile with a node-state tile (the latter under the
    identity shape cast the kernel puts on a loaded tile). -/
theorem addf_gather_apply (acc : FVec Ideal S4096x8 .f32) (A : FVec Ideal S1000x4096 .f32) (B : FVec Ideal S1000x8 .f32)
    (h : S1000x8.ShapeCasts S1000x8) (j : Fin 4096) (b : Fin 8) :
    addf (F := Ideal) acc (matmul (F := Ideal) dot_S1000x4096_S1000x8_S4096x8_0_0_1_1_n_n none A (shapeCast S1000x8 B h) (constant (F := Ideal) S4096x8 .f32 0x00000000#32)) (ValueIdx.ix2 j b)
      = acc (ValueIdx.ix2 j b) + ∑ r : Fin 1000, A (ValueIdx.ix2 r j) * B (ValueIdx.ix2 r b) := by
  rw [shapeCast_self]
  exact congrArg (acc (ValueIdx.ix2 j b) + ·) (gather_matmul_apply A B j b)

/-- The same with the node-state tile as it is. -/
theorem addf_gather_apply' (acc : FVec Ideal S4096x8 .f32) (A : FVec Ideal S1000x4096 .f32) (B : FVec Ideal S1000x8 .f32)
    (j : Fin 4096) (b : Fin 8) :
    addf (F := Ideal) acc (matmul (F := Ideal) dot_S1000x4096_S1000x8_S4096x8_0_0_1_1_n_n none A B (constant (F := Ideal) S4096x8 .f32 0x00000000#32)) (ValueIdx.ix2 j b)
      = acc (ValueIdx.ix2 j b) + ∑ r : Fin 1000, A (ValueIdx.ix2 r j) * B (ValueIdx.ix2 r b) :=
  congrArg (acc (ValueIdx.ix2 j b) + ·) (gather_matmul_apply A B j b)

/-- A value times the weight column: the [4096] weights stood up as a column and repeated along the 8 columns. -/
theorem mulf_weight_apply (X : FVec Ideal S4096x8 .f32) (w : FVec Ideal S4096 .f32)
    (hs : S4096.ShapeCasts S4096x1) (hb : S4096x1.Broadcasts S4096x8) (j : Fin 4096) (b : Fin 8) :
    mulf (F := Ideal) X (broadcastTo S4096x8 (shapeCast S4096x1 w hs) hb) (ValueIdx.ix2 j b) = X (ValueIdx.ix2 j b) * w (ValueIdx.ix1 j) := by
  show X (ValueIdx.ix2 j b) * broadcastTo S4096x8 (shapeCast S4096x1 w hs) hb (ValueIdx.ix2 j b) = _
  rw [broadcastTo_a1_ab_apply, shapeCast_a_a1_apply]

/-- An accumulator tile plus the scatter's product of a one-hot tile with the messages, under the identity cast
    the kernel puts on what it stores. -/
theorem update_apply (M : FVec Ideal S4096x8 .f32) (A : FVec Ideal S1000x4096 .f32) (acc : FVec Ideal S1000x8 .f32)
    (h : S1000x8.ShapeCasts S1000x8) (r : Fin 1000) (b : Fin 8) :
    shapeCast S1000x8 (addf (F := Ideal) acc (matmul (F := Ideal) dot_S1000x4096_S4096x8_S1000x8_1_0_0_1_n_n none A M (constant (F := Ideal) S1000x8 .f32 0x00000000#32))) h (ValueIdx.ix2 r b)
      = acc (ValueIdx.ix2 r b) + ∑ j : Fin 4096, A (ValueIdx.ix2 r j) * M (ValueIdx.ix2 j b) := by
  rw [shapeCast_self]
  exact congrArg (acc (ValueIdx.ix2 r b) + ·) (scatter_matmul_apply A M r b)

/-! ## The payloads that only re-cast a loaded value: identities -/

theorem pay6_eq (v3 : IVec S4096 32) : Gen.k1_pay6 (F := Ideal) v3 = v3 := by
  unfold Gen.k1_pay6; exact shapeCast_self _ _
theorem pay7_eq (v5 : IVec S4096 32) : Gen.k1_pay7 (F := Ideal) v5 = v5 := by
  unfold Gen.k1_pay7; exact shapeCast_self _ _
theorem pay8_eq (v7 : FVec Ideal S4096 .f32) : Gen.k1_pay8 (F := Ideal) v7 = v7 := by
  unfold Gen.k1_pay8; exact shapeCast_self _ _
theorem pay15_eq (v74 : FVec Ideal S1000x8 .f32) : Gen.k1_pay15 (F := Ideal) v74 = v74 := by
  unfold Gen.k1_pay15; exact shapeCast_self _ _
theorem pay25_eq (v154 : FVec Ideal S1000x4096 .f32) : Gen.k1_pay25 (F := Ideal) v154 = v154 := by
  unfold Gen.k1_pay25; exact shapeCast_self _ _

/-- The accumulator's initial value: zero everywhere. -/
theorem pay5_apply (i : S10000x8.Idx) : Gen.k1_pay5 (F := Ideal) i = 0 := by
  unfold Gen.k1_pay5
  refine (congrFun (shapeCast_self _ _) i).trans ?_
  exact Ideal.ofBits_zero_f32

/-! ## The one-hot tiles: tile t, row r, column j is 1 exactly when the index word of position j names node 1000 t + r -/
theorem pay9_apply (v3 : IVec S4096 32) (r : Fin 1000) (j : Fin 4096) :
    Gen.k1_pay9 (F := Ideal) v3 (ValueIdx.ix2 r j) = Cert.KSpec.hot (v3 (ValueIdx.ix1 j)) (1000 * 0 + r.val) := by
  unfold Gen.k1_pay9
  refine (congrFun (shapeCast_self _ _) (ValueIdx.ix2 r j)).trans ?_
  refine (onehot_apply 0#32 (1000 * 0) rfl (Gen.k1_pay6 v3) _ _ _ _ _ r j).trans ?_
  rw [pay6_eq]
theorem pay11_apply (v3 : IVec S4096 32) (r : Fin 1000) (j : Fin 4096) :
    Gen.k1_pay11 (F := Ideal) v3 (ValueIdx.ix2 r j) = Cert.KSpec.hot (v3 (ValueIdx.ix1 j)) (1000 * 1 + r.val) := by
  unfold Gen.k1_pay11
  refine (congrFun (shapeCast_self _ _) (ValueIdx.ix2 r j)).trans ?_
  refine (onehot_apply 1000#32 (1000 * 1) rfl (Gen.k1_pay6 v3) _ _ _ _ _ r j).trans ?_
  rw [pay6_eq]
theorem pay12_apply (v4 : IVec S4096 32) (r : Fin 1000) (j : Fin 4096) :
    Gen.k1_pay12 (F := Ideal) v4 (ValueIdx.ix2 r j) = Cert.KSpec.hot (v4 (ValueIdx.ix1 j)) (1000 * 2 + r.val) := by
  unfold Gen.k1_pay12
  refine (congrFun (shapeCast_self _ _) (ValueIdx.ix2 r j)).trans ?_
  exact onehot_apply 2000#32 (1000 * 2) rfl v4 _ _ _ _ _ r j
theorem pay14_apply (v4 : IVec S4096 32) (r : Fin 1000) (j : Fin 4096) :
    Gen.k1_pay14 (F := Ideal) v4 (ValueIdx.ix2 r j) = Cert.KSpec.hot (v4 (ValueIdx.ix1 j)) (1000 * 3 + r.val) := by
  unfold Gen.k1_pay14
  refine (congrFun (shapeCast_self _ _) (ValueIdx.ix2 r j)).trans ?_
  exact onehot_apply 3000#32 (1000 * 3) rfl v4 _ _ _ _ _ r j
theorem pay16_apply (v4 : IVec S4096 32) (r : Fin 1000) (j : Fin 4096) :
    Gen.k1_pay16 (F := Ideal) v4 (ValueIdx.ix2 r j) = Cert.KSpec.hot (v4 (ValueIdx.ix1 j)) (1000 * 4 + r.val) := by
  unfold Gen.k1_pay16
  refine (congrFun (shapeCast_self _ _) (ValueIdx.ix2 r j)).trans ?_
  exact onehot_apply 4000#32 (1000 * 4) rfl v4 _ _ _ _ _ r j
theorem pay17_apply (v4 : IVec S4096 32) (r : Fin 1000) (j : Fin 4096) :
    Gen.k1_pay17 (F := Ideal) v4 (ValueIdx.ix2 r j) = Cert.KSpec.hot (v4 (ValueIdx.ix1 j)) (1000 * 5 + r.val) := by
  unfold Gen.k1_pay17
  refine (congrFun (shapeCast_self _ _) (ValueIdx.ix2 r j)).trans ?_
  exact onehot_apply 5000#32 (1000 * 5) rfl v4 _ _ _ _ _ r j
/-- Tile 6 is stored from two carried pieces: the index row and the node-number matrix. -/
theorem pay21_apply (v4 : IVec S4096 32) (r : Fin 1000) (j : Fin 4096) :
    Gen.k1_pay21 (F := Ideal) (Gen.k1_pay19 v4) Gen.k1_pay20 (ValueIdx.ix2 r j) = Cert.KSpec.hot (v4 (ValueIdx.ix1 j)) (1000 * 6 + r.val) := by
  unfold Gen.k1_pay21 Gen.k1_pay19 Gen.k1_pay20
  refine (congrFun (shapeCast_self _ _) (ValueIdx.ix2 r j)).trans ?_
  exact onehot_apply 6000#32 (1000 * 6) rfl v4 _ _ _ _ _ r j
theorem pay22_apply (v4 : IVec S4096 32) (r : Fin 1000) (j : Fin 4096) :
    Gen.k1_pay22 (F := Ideal) v4 (ValueIdx.ix2 r j) = Cert.KSpec.hot (v4 (ValueIdx.ix1 j)) (1000 * 7 + r.val) := by
  unfold Gen.k1_pay22
  refine (congrFun (shapeCast_self _ _) (ValueIdx.ix2 r j)).trans ?_
  exact onehot_apply 7000#32 (1000 * 7) rfl v4 _ _ _ _ _ r j
/-- Tile 8 is carried before its identity cast … -/
theorem pay24_apply (v4 : IVec S4096 32) (r : Fin 1000) (j : Fin 4096) :
    Gen.k1_pay24 (F := Ideal) v4 (ValueIdx.ix2 r j) = Cert.KSpec.hot (v4 (ValueIdx.ix1 j)) (1000 * 8 + r.val) := by
  unfold Gen.k1_pay24
  exact onehot_apply 8000#32 (1000 * 8) rfl v4 _ _ _ _ _ r j
/-- … and stored under it. -/
theorem pay25_pay24_apply (v4 : IVec S4096 32) (r : Fin 1000) (j : Fin 4096) :
    Gen.k1_pay25 (F := Ideal) (Gen.k1_pay24 v4) (ValueIdx.ix2 r j) = Cert.KSpec.hot (v4 (ValueIdx.ix1 j)) (1000 * 8 + r.val) := by
  rw [pay25_eq]; exact pay24_apply v4 r j
theorem pay26_apply (v4 : IVec S4096 32) (r : Fin 1000) (j : Fin 4096) :
    Gen.k1_pay26 (F := Ideal) v4 (ValueIdx.ix2 r j) = Cert.KSpec.hot (v4 (ValueIdx.ix1 j)) (1000 * 9 + r.val) := by
  unfold Gen.k1_pay26
  refine (congrFun (shapeCast_self _ _) (ValueIdx.ix2 r j)).trans ?_
  exact onehot_apply 9000#32 (1000 * 9) rfl v4 _ _ _ _ _ r j
theorem pay28_apply (v6 : IVec S4096 32) (r : Fin 1000) (j : Fin 4096) :
    Gen.k1_pay28 (F := Ideal) v6 (ValueIdx.ix2 r j) = Cert.KSpec.hot (v6 (ValueIdx.ix1 j)) (1000 * 0 + r.val) := by
  unfold Gen.k1_pay28
  refine (congrFun (shapeCast_self _ _) (ValueIdx.ix2 r j)).trans ?_
  exact onehot_apply 0#32 (1000 * 0) rfl v6 _ _ _ _ _ r j
theorem pay30_apply (v6 : IVec S4096 32) (r : Fin 1000) (j : Fin 4096) :
    Gen.k1_pay30 (F := Ideal) v6 (ValueIdx.ix2 r j) = Cert.KSpec.hot (v6 (ValueIdx.ix1 j)) (1000 * 1 + r.val) := by
  unfold Gen.k1_pay30
  refine (congrFun (shapeCast_self _ _) (ValueIdx.ix2 r j)).trans ?_
  exact onehot_apply 1000#32 (1000 * 1) rfl v6 _ _ _ _ _ r j
theorem pay32_apply (v6 : IVec S4096 32) (r : Fin 1000) (j : Fin 4096) :
    Gen.k1_pay32 (F := Ideal) v6 (ValueIdx.ix2 r j) = Cert.KSpec.hot (v6 (ValueIdx.ix1 j)) (1000 * 2 + r.val) := by
  unfold Gen.k1_pay32
  refine (congrFun (shapeCast_self _ _) (ValueIdx.ix2 r j)).trans ?_
  exact onehot_apply 2000#32 (1000 * 2) rfl v6 _ _ _ _ _ r j
theorem pay34_apply (v6 : IVec S4096 32) (r : Fin 1000) (j : Fin 4096) :
    Gen.k1_pay34 (F := Ideal) v6 (ValueIdx.ix2 r j) = Cert.KSpec.hot (v6 (ValueIdx.ix1 j)) (1000 * 3 + r.val) := by
  unfold Gen.k1_pay34
  refine (congrFun (shapeCast_self _ _) (ValueIdx.ix2 r j)).trans ?_
  exact onehot_apply 3000#32 (1000 * 3) rfl v6 _ _ _ _ _ r j
theorem pay36_apply (v6 : IVec S4096 32) (r : Fin 1000) (j : Fin 4096) :
    Gen.k1_pay36 (F := Ideal) v6 (ValueIdx.ix2 r j) = Cert.KSpec.hot (v6 (ValueIdx.ix1 j)) (1000 * 4 + r.val) := by
  unfold Gen.k1_pay36
  refine (congrFun (shapeCast_self _ _) (ValueIdx.ix2 r j)).trans ?_
  exact onehot_apply 4000#32 (1000 * 4) rfl v6 _ _ _ _ _ r j
theorem pay38_apply (v6 : IVec S4096 32) (r : Fin 1000) (j : Fin 4096) :
    Gen.k1_pay38 (F := Ideal) v6 (ValueIdx.ix2 r j) = Cert.KSpec.hot (v6 (ValueIdx.ix1 j)) (1000 * 5 + r.val) := by
  unfold Gen.k1_pay38
  refine (congrFun (shapeCast_self _ _) (ValueIdx.ix2 r j)).trans ?_
  exact onehot_apply 5000#32 (1000 * 5) rfl v6 _ _ _ _ _ r j
theorem pay40_apply (v6 : IVec S4096 32) (r : Fin 1000) (j : Fin 4096) :
    Gen.k1_pay40 (F := Ideal) v6 (ValueIdx.ix2 r j) = Cert.KSpec.hot (v6 (ValueIdx.ix1 j)) (1000 * 6 + r.val) := by
  unfold Gen.k1_pay40
  refine (congrFun (shapeCast_self _ _) (ValueIdx.ix2 r j)).trans ?_
  exact onehot_apply 6000#32 (1000 * 6) rfl v6 _ _ _ _ _ r j
theorem pay42_apply (v6 : IVec S4096 32) (r : Fin 1000) (j : Fin 4096) :
    Gen.k1_pay42 (F := Ideal) v6 (ValueIdx.ix2 r j) = Cert.KSpec.hot (v6 (ValueIdx.ix1 j)) (1000 * 7 + r.val) := by
  unfold Gen.k1_pay42
  refine (congrFun (shapeCast_self _ _) (ValueIdx.ix2 r j)).trans ?_
  exact onehot_apply 7000#32 (1000 * 7) rfl v6 _ _ _ _ _ r j
theorem pay1_apply (v6 : IVec S4096 32) (r : Fin 1000) (j : Fin 4096) :
    Gen.k1_pay1 (F := Ideal) v6 (ValueIdx.ix2 r j) = Cert.KSpec.hot (v6 (ValueIdx.ix1 j)) (1000 * 8 + r.val) := by
  unfold Gen.k1_pay1
  refine (congrFun (shapeCast_self _ _) (ValueIdx.ix2 r j)).trans ?_
  exact onehot_apply 8000#32 (1000 * 8) rfl v6 _ _ _ _ _ r j
theorem pay3_apply (v6 : IVec S4096 32) (r : Fin 1000) (j : Fin 4096) :
    Gen.k1_pay3 (F := Ideal) v6 (ValueIdx.ix2 r j) = Cert.KSpec.hot (v6 (ValueIdx.ix1 j)) (1000 * 9 + r.val) := by
  unfold Gen.k1_pay3
  refine (congrFun (shapeCast_self _ _) (ValueIdx.ix2 r j)).trans ?_
  exact onehot_apply 9000#32 (1000 * 9) rfl v6 _ _ _ _ _ r j

/-! ## The gathered value: the ten tiles' products added up in the program's own order, then weighted -/

theorem pay10_apply (v22 : FVec Ideal S1000x4096 .f32) (v23 : FVec Ideal S1000x8 .f32) (j : Fin 4096) (b : Fin 8) :
    Gen.k1_pay10 (F := Ideal) v22 v23 (ValueIdx.ix2 j b) = 0 + ∑ r : Fin 1000, v22 (ValueIdx.ix2 r j) * v23 (ValueIdx.ix2 r b) := by
  unfold Gen.k1_pay10
  refine (addf_gather_apply _ v22 v23 _ j b).trans ?_
  exact congrArg (· + ∑ r : Fin 1000, v22 (ValueIdx.ix2 r j) * v23 (ValueIdx.ix2 r b)) Ideal.ofBits_zero_f32

theorem pay13_apply (v26 : FVec Ideal S4096x8 .f32) (v39 : FVec Ideal S1000x4096 .f32) (v40 : FVec Ideal S1000x8 .f32)
    (v56 : FVec Ideal S1000x4096 .f32) (v57 : FVec Ideal S1000x8 .f32) (j : Fin 4096) (b : Fin 8) :
    Gen.k1_pay13 (F := Ideal) v26 v39 v40 v56 v57 (ValueIdx.ix2 j b)
      = (v26 (ValueIdx.ix2 j b) + ∑ r : Fin 1000, v39 (ValueIdx.ix2 r j) * v40 (ValueIdx.ix2 r b)) + ∑ r : Fin 1000, v56 (ValueIdx.ix2 r j) * v57 (ValueIdx.ix2 r b) := by
  unfold Gen.k1_pay13
  refine (addf_gather_apply _ v56 v57 _ j b).trans ?_
  exact congrArg (· + ∑ r : Fin 1000, v56 (ValueIdx.ix2 r j) * v57 (ValueIdx.ix2 r b)) (addf_gather_apply v26 v39 v40 _ j b)

/-- Tiles 3, 4, 5; tile 3's product is written into the zero splat the kernel carries to it. -/
theorem pay18_apply (v60 : FVec Ideal S4096x8 .f32) (v73 : FVec Ideal S1000x4096 .f32) (v75 : FVec Ideal S1000x8 .f32)
    (v90 : FVec Ideal S1000x4096 .f32) (v91 : FVec Ideal S1000x8 .f32) (v107 : FVec Ideal S1000x4096 .f32) (v108 : FVec Ideal S1000x8 .f32)
    (j : Fin 4096) (b : Fin 8) :
    Gen.k1_pay18 (F := Ideal) v60 v73 v75 (constant (F := Ideal) S4096x8 .f32 0x00000000#32) v90 v91 v107 v108 (ValueIdx.ix2 j b)
      = ((v60 (ValueIdx.ix2 j b) + ∑ r : Fin 1000, v73 (ValueIdx.ix2 r j) * v75 (ValueIdx.ix2 r b)) + ∑ r : Fin 1000, v90 (ValueIdx.ix2 r j) * v91 (ValueIdx.ix2 r b))
          + ∑ r : Fin 1000, v107 (ValueIdx.ix2 r j) * v108 (ValueIdx.ix2 r b) := by
  unfold Gen.k1_pay18
  refine (addf_gather_apply _ v107 v108 _ j b).trans ?_
  refine congrArg (· + ∑ r : Fin 1000, v107 (ValueIdx.ix2 r j) * v108 (ValueIdx.ix2 r b)) ?_
  refine (addf_gather_apply _ v90 v91 _ j b).trans ?_
  exact congrArg (· + ∑ r : Fin 1000, v90 (ValueIdx.ix2 r j) * v91 (ValueIdx.ix2 r b)) (addf_gather_apply' v60 v73 v75 j b)

theorem pay23_apply (v111 : FVec Ideal S4096x8 .f32) (v124 : FVec Ideal S1000x4096 .f32) (v125 : FVec Ideal S1000x8 .f32)
    (v141 : FVec Ideal S1000x4096 .f32) (v142 : FVec Ideal S1000x8 .f32) (j : Fin 4096) (b : Fin 8) :
    Gen.k1_pay23 (F := Ideal) v111 v124 v125 v141 v142 (ValueIdx.ix2 j b)
      = (v111 (ValueIdx.ix2 j b) + ∑ r : Fin 1000, v124 (ValueIdx.ix2 r j) * v125 (ValueIdx.ix2 r b)) + ∑ r : Fin 1000, v141 (ValueIdx.ix2 r j) * v142 (ValueIdx.ix2 r b) := by
  unfold Gen.k1_pay23
  refine (addf_gather_apply _ v141 v142 _ j b).trans ?_
  exact congrArg (· + ∑ r : Fin 1000, v141 (ValueIdx.ix2 r j) * v142 (ValueIdx.ix2 r b)) (addf_gather_apply v111 v124 v125 _ j b)

/-- The message: tiles 8 and 9 added, and the sum weighted by the position's weight. -/
theorem pay27_apply (v8 : FVec Ideal S4096 .f32) (v145 : FVec Ideal S4096x8 .f32) (v158 : FVec Ideal S1000x4096 .f32)
    (v159 : FVec Ideal S1000x8 .f32) (v175 : FVec Ideal S1000x4096 .f32) (v176 : FVec Ideal S1000x8 .f32) (j : Fin 4096) (b : Fin 8) :
    Gen.k1_pay27 (F := Ideal) v8 v145 v158 v159 v175 v176 (ValueIdx.ix2 j b)
      = ((v145 (ValueIdx.ix2 j b) + ∑ r : Fin 1000, v158 (ValueIdx.ix2 r j) * v159 (ValueIdx.ix2 r b)) + ∑ r : Fin 1000, v175 (ValueIdx.ix2 r j) * v176 (ValueIdx.ix2 r b))
          * v8 (ValueIdx.ix1 j) := by
  unfold Gen.k1_pay27
  refine (mulf_weight_apply _ v8 _ _ j b).trans ?_
  refine congrArg (· * v8 (ValueIdx.ix1 j)) ?_
  refine (addf_gather_apply _ v175 v176 _ j b).trans ?_
  exact congrArg (· + ∑ r : Fin 1000, v175 (ValueIdx.ix2 r j) * v176 (ValueIdx.ix2 r b)) (addf_gather_apply v145 v158 v159 _ j b)

/-! ## The accumulator's update: a tile of it plus the one-hot tile's product with the messages -/

/-- Tile 0's update carries the message's own text. -/
theorem pay29_apply (v8 : FVec Ideal S4096 .f32) (v145 : FVec Ideal S4096x8 .f32) (v158 : FVec Ideal S1000x4096 .f32)
    (v159 : FVec Ideal S1000x8 .f32) (v175 : FVec Ideal S1000x4096 .f32) (v176 : FVec Ideal S1000x8 .f32)
    (v252 : FVec Ideal S1000x4096 .f32) (v254 : FVec Ideal S1000x8 .f32) (r : Fin 1000) (b : Fin 8) :
    Gen.k1_pay29 (F := Ideal) v8 v145 v158 v159 v175 v176 v252 v254 (ValueIdx.ix2 r b)
      = v254 (ValueIdx.ix2 r b) + ∑ j : Fin 4096, v252 (ValueIdx.ix2 r j) * Gen.k1_pay27 (F := Ideal) v8 v145 v158 v159 v175 v176 (ValueIdx.ix2 j b) := by
  unfold Gen.k1_pay29
  exact update_apply _ v252 v254 _ r b
theorem pay31_apply (v182 : FVec Ideal S4096x8 .f32) (v252 : FVec Ideal S1000x4096 .f32) (v254 : FVec Ideal S1000x8 .f32)
    (r : Fin 1000) (b : Fin 8) :
    Gen.k1_pay31 (F := Ideal) v182 v252 v254 (ValueIdx.ix2 r b) = v254 (ValueIdx.ix2 r b) + ∑ j : Fin 4096, v252 (ValueIdx.ix2 r j) * v182 (ValueIdx.ix2 j b) := by
  unfold Gen.k1_pay31
  exact update_apply v182 v252 v254 _ r b
theorem pay33_apply (v182 : FVec Ideal S4096x8 .f32) (v252 : FVec Ideal S1000x4096 .f32) (v254 : FVec Ideal S1000x8 .f32)
    (r : Fin 1000) (b : Fin 8) :
    Gen.k1_pay33 (F := Ideal) v182 v252 v254 (ValueIdx.ix2 r b) = v254 (ValueIdx.ix2 r b) + ∑ j : Fin 4096, v252 (ValueIdx.ix2 r j) * v182 (ValueIdx.ix2 j b) := by
  unfold Gen.k1_pay33
  exact update_apply v182 v252 v254 _ r b
theorem pay35_apply (v182 : FVec Ideal S4096x8 .f32) (v252 : FVec Ideal S1000x4096 .f32) (v254 : FVec Ideal S1000x8 .f32)
    (r : Fin 1000) (b : Fin 8) :
    Gen.k1_pay35 (F := Ideal) v182 v252 v254 (ValueIdx.ix2 r b) = v254 (ValueIdx.ix2 r b) + ∑ j : Fin 4096, v252 (ValueIdx.ix2 r j) * v182 (ValueIdx.ix2 j b) := by
  unfold Gen.k1_pay35
  exact update_apply v182 v252 v254 _ r b
theorem pay37_apply (v182 : FVec Ideal S4096x8 .f32) (v252 : FVec Ideal S1000x4096 .f32) (v254 : FVec Ideal S1000x8 .f32)
    (r : Fin 1000) (b : Fin 8) :
    Gen.k1_pay37 (F := Ideal) v182 v252 v254 (ValueIdx.ix2 r b) = v254 (ValueIdx.ix2 r b) + ∑ j : Fin 4096, v252 (ValueIdx.ix2 r j) * v182 (ValueIdx.ix2 j b) := by
  unfold Gen.k1_pay37
  exact update_apply v182 v252 v254 _ r b
theorem pay39_apply (v182 : FVec Ideal S4096x8 .f32) (v252 : FVec Ideal S1000x4096 .f32) (v254 : FVec Ideal S1000x8 .f32)
    (r : Fin 1000) (b : Fin 8) :
    Gen.k1_pay39 (F := Ideal) v182 v252 v254 (ValueIdx.ix2 r b) = v254 (ValueIdx.ix2 r b) + ∑ j : Fin 4096, v252 (ValueIdx.ix2 r j) * v182 (ValueIdx.ix2 j b) := by
  unfold Gen.k1_pay39
  exact update_apply v182 v252 v254 _ r b
theorem pay41_apply (v182 : FVec Ideal S4096x8 .f32) (v252 : FVec Ideal S1000x4096 .f32) (v254 : FVec Ideal S1000x8 .f32)
    (r : Fin 1000) (b : Fin 8) :
    Gen.k1_pay41 (F := Ideal) v182 v252 v254 (ValueIdx.ix2 r b) = v254 (ValueIdx.ix2 r b) + ∑ j : Fin 4096, v252 (ValueIdx.ix2 r j) * v182 (ValueIdx.ix2 j b) := by
  unfold Gen.k1_pay41
  exact update_apply v182 v252 v254 _ r b
theorem pay43_apply (v182 : FVec Ideal S4096x8 .f32) (v252 : FVec Ideal S1000x4096 .f32) (v254 : FVec Ideal S1000x8 .f32)
    (r : Fin 1000) (b : Fin 8) :
    Gen.k1_pay43 (F := Ideal) v182 v252 v254 (ValueIdx.ix2 r b) = v254 (ValueIdx.ix2 r b) + ∑ j : Fin 4096, v252 (ValueIdx.ix2 r j) * v182 (ValueIdx.ix2 j b) := by
  unfold Gen.k1_pay43
  exact update_apply v182 v252 v254 _ r b
theorem pay2_apply (v182 : FVec Ideal S4096x8 .f32) (v252 : FVec Ideal S1000x4096 .f32) (v254 : FVec Ideal S1000x8 .f32)
    (r : Fin 1000) (b : Fin 8) :
    Gen.k1_pay2 (F := Ideal) v182 v252 v254 (ValueIdx.ix2 r b) = v254 (ValueIdx.ix2 r b) + ∑ j : Fin 4096, v252 (ValueIdx.ix2 r j) * v182 (ValueIdx.ix2 j b) := by
  unfold Gen.k1_pay2
  exact update_apply v182 v252 v254 _ r b
theorem pay4_apply (v182 : FVec Ideal S4096x8 .f32) (v252 : FVec Ideal S1000x4096 .f32) (v254 : FVec Ideal S1000x8 .f32)
    (r : Fin 1000) (b : Fin 8) :
    Gen.k1_pay4 (F := Ideal) v182 v252 v254 (ValueIdx.ix2 r b) = v254 (ValueIdx.ix2 r b) + ∑ j : Fin 4096, v252 (ValueIdx.ix2 r j) * v182 (ValueIdx.ix2 j b) := by
  unfold Gen.k1_pay4
  exact update_apply v182 v252 v254 _ r b

/-! ## The message in closed form

With the ten one-hot tiles H t and the ten node-state tiles X t named, the gathered value at position j, column b is the
double sum over tiles and rows, and the message is that times the position's weight. The ten products are added in the
order 0, 1, …, 9 onto a zero, which is the sum over the tiles written out from the left. -/

/-- A sum over ten terms, written out from the left onto a zero. -/
theorem sum_ten (f : Fin 10 → EReal) :
    ∑ t : Fin 10, f t = (((((((((0 + f 0) + f 1) + f 2) + f 3) + f 4) + f 5) + f 6) + f 7) + f 8) + f 9 := by
  simp only [Fin.sum_univ_castSucc, Fin.sum_univ_zero]
  rfl

/-- The message of position j, column b: the one-hot gather over all ten tiles, weighted. -/
theorem msg_apply (g : IVec S4096 32) (w : FVec Ideal S4096 .f32)
    (H : Fin 10 → FVec Ideal S1000x4096 .f32) (X : Fin 10 → FVec Ideal S1000x8 .f32)
    (hH : ∀ (t : Fin 10) (r : Fin 1000) (j : Fin 4096), H t (ValueIdx.ix2 r j) = Cert.KSpec.hot (g (ValueIdx.ix1 j)) (1000 * t.val + r.val))
    (j : Fin 4096) (b : Fin 8) :
    Gen.k1_pay27 (F := Ideal) w
        (Gen.k1_pay23 (F := Ideal)
          (Gen.k1_pay18 (F := Ideal)
            (Gen.k1_pay13 (F := Ideal) (Gen.k1_pay10 (F := Ideal) (H 0) (X 0)) (H 1) (X 1) (H 2) (X 2))
            (H 3) (X 3) (constant (F := Ideal) S4096x8 .f32 0x00000000#32) (H 4) (X 4) (H 5) (X 5))
          (H 6) (X 6) (H 7) (X 7))
        (H 8) (X 8) (H 9) (X 9) (ValueIdx.ix2 j b)
      = (∑ t : Fin 10, ∑ r : Fin 1000, Cert.KSpec.hot (g (ValueIdx.ix1 j)) (1000 * t.val + r.val) * X t (ValueIdx.ix2 r b)) * w (ValueIdx.ix1 j) := by
  rw [pay27_apply, pay23_apply, pay18_apply, pay13_apply, pay10_apply, sum_ten]
  simp only [hH]

/-- A tile of the accumulator after its update, with the one-hot tile named: row r of tile t receives the messages of
    the positions whose scatter index names node 1000 t + r. -/
theorem update_hot_apply (s : IVec S4096 32) (t : Nat) (M : FVec Ideal S4096x8 .f32) (A : FVec Ideal S1000x4096 .f32)
    (acc : FVec Ideal S1000x8 .f32) (h : S1000x8.ShapeCasts S1000x8)
    (hA : ∀ (r : Fin 1000) (j : Fin 4096), A (ValueIdx.ix2 r j) = Cert.KSpec.hot (s (ValueIdx.ix1 j)) (1000 * t + r.val))
    (r : Fin 1000) (b : Fin 8) :
    shapeCast S1000x8 (addf (F := Ideal) acc (matmul (F := Ideal) dot_S1000x4096_S4096x8_S1000x8_1_0_0_1_n_n none A M (constant (F := Ideal) S1000x8 .f32 0x00000000#32))) h (ValueIdx.ix2 r b)
      = acc (ValueIdx.ix2 r b) + ∑ j : Fin 4096, Cert.KSpec.hot (s (ValueIdx.ix1 j)) (1000 * t + r.val) * M (ValueIdx.ix2 j b) := by
  rw [update_apply]
  simp only [hA]

end Cert.KernelIdeal.PayIdeal1

end
-- ==== Proof.AccIdeal1.lean ====
/-
  The accumulator one grid point leaves, in closed form at the ideal values.

  With lo, hi the two table words of the point read signed, g, s, w the chunk's gather indices, scatter indices and
  weights and x the node states, node n (in tile t = n / 1000), column b ends at
      (0 at the first grid point, else what the point found)  +  [lo ≤ t ≤ hi] · ∑ j, [s j = n] · msg j b,
      msg j b = (∑ t', ∑ r', [g j = 1000 t' + r'] · x (1000 t' + r') b) · w j.
  The loads of whole input blocks read the blocks, a load of the one-hot scratch reads the tile last stored there, the
  tile guards are the bracket of the table words, and the tile's update is its loaded tile plus the one-hot product.
-/
import proofs.«400082_j83537113907851_4_alg».proof.Proof.AccEval1
import proofs.«400082_j83537113907851_4_alg».proof.Proof.PayIdeal1
import proofs.«400082_j83537113907851_4_alg».proof.Proof.KSpec
import Idealize.ShloMosaic.Lib.ValueIdx

set_option maxRecDepth 16384

noncomputable section

open scoped BigOperators

namespace Cert.KernelIdeal.AccIdeal1

open Cert.KernelIdeal Cert.KernelIdeal.Gen Cert.KernelIdeal.AccEval1
open Idealize.ShloMosaic Idealize.ShloMosaic.TcCoe
open Idealize.SL.Sem

/-! ## Loads of whole input blocks -/

/-- A load of a whole [4096] block reads the block. -/
theorem load_whole1 {F : FTy → Type} [FloatOps F] {sp : Space} {e : EltTy} (m : Memref sig .tc sp S4096 e) (hm : m.IsWhole)
    (inb : ∀ a, (![0] : Fin 1 → Nat) a + S4096.size a ≤ S4096.size a) (x : Vec F S4096 e) :
    View.readAt (Elt F) m.view (Rect.unit (s := S4096) ![0] S4096.size inb).toLoadRect (hm.unread x) = x := by
  funext j
  have e1 : (Rect.unit (s := S4096) ![0] S4096.size inb).toLoadRect.idx j = j :=
    funext fun a => Fin.ext (by
      match a with
      | ⟨0, _⟩ => show 0 + 1 * (j 0).val = (j 0).val; omega)
  show m.view.read (Elt F) (hm.unread x) ((Rect.unit (s := S4096) ![0] S4096.size inb).toLoadRect.idx j) = x j
  rw [e1]; exact congrFun (hm.read_unread (Val := Elt F) x) j

/-- A load of rows [o, o + 1000) of the node states reads those rows. -/
theorem load_tile3 {sp : Space} (m : Memref sig .tc sp S10000x8 .f32) (hm : m.IsWhole) (x3 : FVec Ideal S10000x8 .f32) (o : Nat)
    (inb : ∀ a, (![o, 0] : Fin 2 → Nat) a + S1000x8.size a ≤ S10000x8.size a)
    (r : Fin 1000) (b : Fin 8) (n : Fin 10000) (hn : n.val = o + r.val) :
    View.readAt (Elt Ideal) m.view (Rect.unit (s := S10000x8) ![o, 0] S1000x8.size inb).toLoadRect (hm.unread x3) (ValueIdx.ix2 r b)
      = x3 (ValueIdx.ix2 n b) :=
  (readAt_tile (Val := Elt Ideal) m.view (hm.unread x3) o inb r b n hn).trans (congrFun (hm.read_unread (Val := Elt Ideal) x3) (ValueIdx.ix2 n b))

/-- The one word a point reads of a table is the table's entry at the point's coordinate. -/
theorem smem_word {F : FTy → Type} [FloatOps F] {sp : Space} (m : Memref sig .tc sp S489 .i32) (hm : m.IsWhole) (x : IVec S489 32)
    (i : grid1.Coords) (inb : ∀ a, (k1_off1 i) a + S1.size a ≤ S489.size a)
    (z : (Rect.unit (s := S489) (k1_off1 i) S1.size inb).toLoadRect.shape.Idx) :
    View.readAt (Elt F) m.view (Rect.unit (s := S489) (k1_off1 i) S1.size inb).toLoadRect (hm.unread x) z
      = x (ValueIdx.ix1 (show Fin 489 from i 0)) := by
  have e1 : (Rect.unit (s := S489) (k1_off1 i) S1.size inb).toLoadRect.idx z = ValueIdx.ix1 (show Fin 489 from i 0) :=
    funext fun a => Fin.ext (by
      match a with
      | ⟨0, _⟩ =>
        have hz : (z 0).val < 1 := (z 0).isLt
        have e0 : (k1_off1 i) 0 = (i 0).val := congrFun (Gen.k1_off1_eq i) 0
        show (k1_off1 i) 0 + 1 * (z 0).val = (i 0).val
        omega)
  show m.view.read (Elt F) (hm.unread x) ((Rect.unit (s := S489) (k1_off1 i) S1.size inb).toLoadRect.idx z) = _
  rw [e1]; exact congrFun (hm.read_unread (Val := Elt F) x) _

section Point
variable (c : Dev nD) (i : grid1.Coords)
  (arg1 : Memref sig .tc .smem S489 .i32) (harg1 : arg1.IsWhole) (arg2 : Memref sig .tc .smem S489 .i32) (harg2 : arg2.IsWhole)
  (arg3 : Memref sig .tc .vmem S10000x8 .f32) (harg3 : arg3.IsWhole) (arg4 : Memref sig .tc .vmem S4096 .i32) (harg4 : arg4.IsWhole)
  (arg5 : Memref sig .tc .vmem S4096 .i32) (harg5 : arg5.IsWhole) (arg6 : Memref sig .tc .vmem S4096 .f32) (harg6 : arg6.IsWhole)
  (x1 x2 : IVec S489 32) (x3 : FVec Ideal S10000x8 .f32) (x4 x5 : IVec S4096 32) (x6 : FVec Ideal S4096 .f32)

/-! ## The message -/

/-- The ten one-hot tiles of the gather, as the kernel stores them … -/
def Ht (t : Fin 10) : FVec Ideal S1000x4096 .f32 :=
  match t with
  | ⟨0, _⟩ => Gen.k1_pay9 x4
  | ⟨1, _⟩ => Gen.k1_pay11 x4
  | ⟨2, _⟩ => Gen.k1_pay12 x4
  | ⟨3, _⟩ => Gen.k1_pay14 x4
  | ⟨4, _⟩ => Gen.k1_pay16 x4
  | ⟨5, _⟩ => Gen.k1_pay17 x4
  | ⟨6, _⟩ => Gen.k1_pay21 (Gen.k1_pay19 x4) Gen.k1_pay20
  | ⟨7, _⟩ => Gen.k1_pay22 x4
  | ⟨8, _⟩ => Gen.k1_pay25 (Gen.k1_pay24 x4)
  | ⟨9, _⟩ => Gen.k1_pay26 x4

/-- … and the ten tiles of the node states, as it loads them. -/
def Xt (t : Fin 10) : FVec Ideal S1000x8 .f32 :=
  match t with
  | ⟨0, _⟩ => View.readAt (Elt Ideal) arg3.view (Rect.unit (s := S10000x8) ![0, 0] S1000x8.size inb_S10000x8_S1000x8_0_0).toLoadRect (harg3.unread x3)
  | ⟨1, _⟩ => View.readAt (Elt Ideal) arg3.view (Rect.unit (s := S10000x8) ![1000, 0] S1000x8.size inb_S10000x8_S1000x8_1000_0).toLoadRect (harg3.unread x3)
  | ⟨2, _⟩ => View.readAt (Elt Ideal) arg3.view (Rect.unit (s := S10000x8) ![2000, 0] S1000x8.size inb_S10000x8_S1000x8_2000_0).toLoadRect (harg3.unread x3)
  | ⟨3, _⟩ => View.readAt (Elt Ideal) arg3.view (Rect.unit (s := S10000x8) ![3000, 0] S1000x8.size inb_S10000x8_S1000x8_3000_0).toLoadRect (harg3.unread x3)
  | ⟨4, _⟩ => View.readAt (Elt Ideal) arg3.view (Rect.unit (s := S10000x8) ![4000, 0] S1000x8.size inb_S10000x8_S1000x8_4000_0).toLoadRect (harg3.unread x3)
  | ⟨5, _⟩ => View.readAt (Elt Ideal) arg3.view (Rect.unit (s := S10000x8) ![5000, 0] S1000x8.size inb_S10000x8_S1000x8_5000_0).toLoadRect (harg3.unread x3)
  | ⟨6, _⟩ => View.readAt (Elt Ideal) arg3.view (Rect.unit (s := S10000x8) ![6000, 0] S1000x8.size inb_S10000x8_S1000x8_6000_0).toLoadRect (harg3.unread x3)
  | ⟨7, _⟩ => View.readAt (Elt Ideal) arg3.view (Rect.unit (s := S10000x8) ![7000, 0] S1000x8.size inb_S10000x8_S1000x8_7000_0).toLoadRect (harg3.unread x3)
  | ⟨8, _⟩ => View.readAt (Elt Ideal) arg3.view (Rect.unit (s := S10000x8) ![8000, 0] S1000x8.size inb_S10000x8_S1000x8_8000_0).toLoadRect (harg3.unread x3)
  | ⟨9, _⟩ => View.readAt (Elt Ideal) arg3.view (Rect.unit (s := S10000x8) ![9000, 0] S1000x8.size inb_S10000x8_S1000x8_9000_0).toLoadRect (harg3.unread x3)

theorem Ht_apply (t : Fin 10) (r : Fin 1000) (j : Fin 4096) :
    Ht x4 t (ValueIdx.ix2 r j) = Cert.KSpec.hot (x4 (ValueIdx.ix1 j)) (1000 * t.val + r.val) := by
  match t with
  | ⟨0, _⟩ => exact PayIdeal1.pay9_apply x4 r j
  | ⟨1, _⟩ => exact PayIdeal1.pay11_apply x4 r j
  | ⟨2, _⟩ => exact PayIdeal1.pay12_apply x4 r j
  | ⟨3, _⟩ => exact PayIdeal1.pay14_apply x4 r j
  | ⟨4, _⟩ => exact PayIdeal1.pay16_apply x4 r j
  | ⟨5, _⟩ => exact PayIdeal1.pay17_apply x4 r j
  | ⟨6, _⟩ => exact PayIdeal1.pay21_apply x4 r j
  | ⟨7, _⟩ => exact PayIdeal1.pay22_apply x4 r j
  | ⟨8, _⟩ => exact PayIdeal1.pay25_pay24_apply x4 r j
  | ⟨9, _⟩ => exact PayIdeal1.pay26_apply x4 r j

theorem Xt_apply (t : Fin 10) (r : Fin 1000) (b : Fin 8) :
    Xt arg3 harg3 x3 t (ValueIdx.ix2 r b) = x3 (ValueIdx.ix2 (Cert.KSpec.node t r) b) := by
  match t with
  | ⟨0, _⟩ => exact load_tile3 arg3 harg3 x3 0 _ r b (Cert.KSpec.node ⟨0, by omega⟩ r) rfl
  | ⟨1, _⟩ => exact load_tile3 arg3 harg3 x3 1000 _ r b (Cert.KSpec.node ⟨1, by omega⟩ r) rfl
  | ⟨2, _⟩ => exact load_tile3 arg3 harg3 x3 2000 _ r b (Cert.KSpec.node ⟨2, by omega⟩ r) rfl
  | ⟨3, _⟩ => exact load_tile3 arg3 harg3 x3 3000 _ r b (Cert.KSpec.node ⟨3, by omega⟩ r) rfl
  | ⟨4, _⟩ => exact load_tile3 arg3 harg3 x3 4000 _ r b (Cert.KSpec.node ⟨4, by omega⟩ r) rfl
  | ⟨5, _⟩ => exact load_tile3 arg3 harg3 x3 5000 _ r b (Cert.KSpec.node ⟨5, by omega⟩ r) rfl
  | ⟨6, _⟩ => exact load_tile3 arg3 harg3 x3 6000 _ r b (Cert.KSpec.node ⟨6, by omega⟩ r) rfl
  | ⟨7, _⟩ => exact load_tile3 arg3 harg3 x3 7000 _ r b (Cert.KSpec.node ⟨7, by omega⟩ r) rfl
  | ⟨8, _⟩ => exact load_tile3 arg3 harg3 x3 8000 _ r b (Cert.KSpec.node ⟨8, by omega⟩ r) rfl
  | ⟨9, _⟩ => exact load_tile3 arg3 harg3 x3 9000 _ r b (Cert.KSpec.node ⟨9, by omega⟩ r) rfl

/-- The message of position j, column b. -/
def msgOf (j : Fin 4096) (b : Fin 8) : EReal :=
  (∑ t : Fin 10, ∑ r : Fin 1000, Cert.KSpec.hot (x4 (ValueIdx.ix1 j)) (Cert.KSpec.node t r).val * (x3 (ValueIdx.ix2 (Cert.KSpec.node t r) b) : EReal))
    * (x6 (ValueIdx.ix1 j) : EReal)

/-- The kernel's message over the stored one-hot tiles and the loaded node-state tiles. -/
theorem msg_core (j : Fin 4096) (b : Fin 8) :
    Gen.k1_pay27 (F := Ideal) x6
        (Gen.k1_pay23 (F := Ideal)
          (Gen.k1_pay18 (F := Ideal)
            (Gen.k1_pay13 (F := Ideal) (Gen.k1_pay10 (F := Ideal) (Ht x4 0) (Xt arg3 harg3 x3 0)) (Ht x4 1) (Xt arg3 harg3 x3 1)
              (Ht x4 2) (Xt arg3 harg3 x3 2))
            (Ht x4 3) (Xt arg3 harg3 x3 3) (constant (F := Ideal) S4096x8 .f32 0x00000000#32) (Ht x4 4) (Xt arg3 harg3 x3 4)
            (Ht x4 5) (Xt arg3 harg3 x3 5))
          (Ht x4 6) (Xt arg3 harg3 x3 6) (Ht x4 7) (Xt arg3 harg3 x3 7))
        (Ht x4 8) (Xt arg3 harg3 x3 8) (Ht x4 9) (Xt arg3 harg3 x3 9) (ValueIdx.ix2 j b)
      = msgOf x3 x4 x6 j b := by
  refine (PayIdeal1.msg_apply x4 x6 (Ht x4) (Xt arg3 harg3 x3) (Ht_apply x4) j b).trans ?_
  unfold msgOf
  refine congrArg (· * (x6 (ValueIdx.ix1 j) : EReal)) (Finset.sum_congr rfl fun t _ => Finset.sum_congr rfl fun r _ => ?_)
  rw [Xt_apply]; rfl

/-- The message as the run names it for tiles 1 to 9 … -/
theorem msg_run (j : Fin 4096) (b : Fin 8) :
    Body.kernelRun1.sl.r_12 (F := Ideal) c arg3 harg3 arg4 harg4 arg6 harg6 x3 x4 x6 (ValueIdx.ix2 j b) = msgOf x3 x4 x6 j b := by
  sl_unfold_run_names
  rw [load_whole1 (F := Ideal) (e := .i32) arg4 harg4 _ x4, load_whole1 (F := Ideal) (e := .f32) arg6 harg6 _ x6]
  rw [PayIdeal1.pay6_eq x4, PayIdeal1.pay8_eq x6]
  rw [View.readCov_cons_toLoadRect, View.readCov_cons_toLoadRect, View.readCov_cons_toLoadRect, View.readCov_cons_toLoadRect, View.readCov_cons_toLoadRect,
    View.readCov_cons_toLoadRect, View.readCov_cons_toLoadRect, View.readCov_cons_toLoadRect, View.readCov_cons_toLoadRect, View.readCov_cons_toLoadRect]
  rw [PayIdeal1.pay15_eq]
  exact msg_core arg3 harg3 x3 x4 x6 j b

/-- … and as tile 0's update carries it. -/
theorem msg0_run (j : Fin 4096) (b : Fin 8) :
    Gen.k1_pay27 (F := Ideal) (Body.kernelRun1.sl.r_2 c arg6 harg6 x6) (Body.kernelRun1.sl.r_8 c arg3 harg3 arg4 harg4 x3 x4)
        (Body.kernelRun1.sl.v158 c arg4 harg4 x4) (View.readAt (Elt Ideal) arg3.view (Rect.unit (s := S10000x8) ![8000, 0] S1000x8.size inb_S10000x8_S1000x8_8000_0).toLoadRect (harg3.unread x3))
        (Body.kernelRun1.sl.v175 c arg4 harg4 x4) (View.readAt (Elt Ideal) arg3.view (Rect.unit (s := S10000x8) ![9000, 0] S1000x8.size inb_S10000x8_S1000x8_9000_0).toLoadRect (harg3.unread x3)) (ValueIdx.ix2 j b)
      = msgOf x3 x4 x6 j b := by
  sl_unfold_run_names
  rw [load_whole1 (F := Ideal) (e := .i32) arg4 harg4 _ x4, load_whole1 (F := Ideal) (e := .f32) arg6 harg6 _ x6]
  rw [PayIdeal1.pay6_eq x4, PayIdeal1.pay8_eq x6]
  rw [View.readCov_cons_toLoadRect, View.readCov_cons_toLoadRect, View.readCov_cons_toLoadRect, View.readCov_cons_toLoadRect, View.readCov_cons_toLoadRect,
    View.readCov_cons_toLoadRect, View.readCov_cons_toLoadRect, View.readCov_cons_toLoadRect, View.readCov_cons_toLoadRect, View.readCov_cons_toLoadRect]
  rw [PayIdeal1.pay15_eq]
  exact msg_core arg3 harg3 x3 x4 x6 j b

/-! ## The scatter's one-hot tiles, as the run loads them -/
theorem oh0 (r : Fin 1000) (j : Fin 4096) :
    Body.kernelRun1.sl.v252 (F := Ideal) c arg4 harg4 arg5 harg5 x4 x5 (ValueIdx.ix2 r j) = Cert.KSpec.hot (x5 (ValueIdx.ix1 j)) (1000 * 0 + r.val) := by
  sl_unfold_run_names
  rw [View.readCov_cons_toLoadRect, load_whole1 (F := Ideal) (e := .i32) arg5 harg5 _ x5, PayIdeal1.pay7_eq]
  exact PayIdeal1.pay28_apply x5 r j
theorem oh1 (r : Fin 1000) (j : Fin 4096) :
    Body.kernelRun1.sl.v252_1 (F := Ideal) c arg5 harg5 x5 (ValueIdx.ix2 r j) = Cert.KSpec.hot (x5 (ValueIdx.ix1 j)) (1000 * 1 + r.val) := by
  sl_unfold_run_names
  rw [View.readCov_cons_toLoadRect, load_whole1 (F := Ideal) (e := .i32) arg5 harg5 _ x5, PayIdeal1.pay7_eq]
  exact PayIdeal1.pay30_apply x5 r j
theorem oh2 (r : Fin 1000) (j : Fin 4096) :
    Body.kernelRun1.sl.v252_2 (F := Ideal) c arg5 harg5 x5 (ValueIdx.ix2 r j) = Cert.KSpec.hot (x5 (ValueIdx.ix1 j)) (1000 * 2 + r.val) := by
  sl_unfold_run_names
  rw [View.readCov_cons_toLoadRect, load_whole1 (F := Ideal) (e := .i32) arg5 harg5 _ x5, PayIdeal1.pay7_eq]
  exact PayIdeal1.pay32_apply x5 r j
theorem oh3 (r : Fin 1000) (j : Fin 4096) :
    Body.kernelRun1.sl.v252_3 (F := Ideal) c arg5 harg5 x5 (ValueIdx.ix2 r j) = Cert.KSpec.hot (x5 (ValueIdx.ix1 j)) (1000 * 3 + r.val) := by
  sl_unfold_run_names
  rw [View.readCov_cons_toLoadRect, load_whole1 (F := Ideal) (e := .i32) arg5 harg5 _ x5, PayIdeal1.pay7_eq]
  exact PayIdeal1.pay34_apply x5 r j
theorem oh4 (r : Fin 1000) (j : Fin 4096) :
    Body.kernelRun1.sl.v252_4 (F := Ideal) c arg5 harg5 x5 (ValueIdx.ix2 r j) = Cert.KSpec.hot (x5 (ValueIdx.ix1 j)) (1000 * 4 + r.val) := by
  sl_unfold_run_names
  rw [View.readCov_cons_toLoadRect, load_whole1 (F := Ideal) (e := .i32) arg5 harg5 _ x5, PayIdeal1.pay7_eq]
  exact PayIdeal1.pay36_apply x5 r j
theorem oh5 (r : Fin 1000) (j : Fin 4096) :
    Body.kernelRun1.sl.v252_5 (F := Ideal) c arg5 harg5 x5 (ValueIdx.ix2 r j) = Cert.KSpec.hot (x5 (ValueIdx.ix1 j)) (1000 * 5 + r.val) := by
  sl_unfold_run_names
  rw [View.readCov_cons_toLoadRect, load_whole1 (F := Ideal) (e := .i32) arg5 harg5 _ x5, PayIdeal1.pay7_eq]
  exact PayIdeal1.pay38_apply x5 r j
theorem oh6 (r : Fin 1000) (j : Fin 4096) :
    Body.kernelRun1.sl.v252_6 (F := Ideal) c arg5 harg5 x5 (ValueIdx.ix2 r j) = Cert.KSpec.hot (x5 (ValueIdx.ix1 j)) (1000 * 6 + r.val) := by
  sl_unfold_run_names
  rw [View.readCov_cons_toLoadRect, load_whole1 (F := Ideal) (e := .i32) arg5 harg5 _ x5, PayIdeal1.pay7_eq]
  exact PayIdeal1.pay40_apply x5 r j
theorem oh7 (r : Fin 1000) (j : Fin 4096) :
    Body.kernelRun1.sl.v252_7 (F := Ideal) c arg5 harg5 x5 (ValueIdx.ix2 r j) = Cert.KSpec.hot (x5 (ValueIdx.ix1 j)) (1000 * 7 + r.val) := by
  sl_unfold_run_names
  rw [View.readCov_cons_toLoadRect, load_whole1 (F := Ideal) (e := .i32) arg5 harg5 _ x5, PayIdeal1.pay7_eq]
  exact PayIdeal1.pay42_apply x5 r j
theorem oh8 (r : Fin 1000) (j : Fin 4096) :
    Body.kernelRun1.sl.v252_8 (F := Ideal) c arg5 harg5 x5 (ValueIdx.ix2 r j) = Cert.KSpec.hot (x5 (ValueIdx.ix1 j)) (1000 * 8 + r.val) := by
  sl_unfold_run_names
  rw [View.readCov_cons_toLoadRect, load_whole1 (F := Ideal) (e := .i32) arg5 harg5 _ x5, PayIdeal1.pay7_eq]
  exact PayIdeal1.pay1_apply x5 r j
theorem oh9 (r : Fin 1000) (j : Fin 4096) :
    Body.kernelRun1.sl.v252_9 (F := Ideal) c arg5 harg5 x5 (ValueIdx.ix2 r j) = Cert.KSpec.hot (x5 (ValueIdx.ix1 j)) (1000 * 9 + r.val) := by
  sl_unfold_run_names
  rw [View.readCov_cons_toLoadRect, load_whole1 (F := Ideal) (e := .i32) arg5 harg5 _ x5, PayIdeal1.pay7_eq]
  exact PayIdeal1.pay3_apply x5 r j

/-! ## A tile's update and its guard -/

/-- Tile t's stored value at row r, column b: the loaded tile there plus the messages of the positions that scatter to
    node 1000 t + r. -/
theorem upd_apply (t : Fin 10) (ld : FVec Ideal S1000x8 .f32) (r : Fin 1000) (b : Fin 8) :
    upd (F := Ideal) c arg3 harg3 arg4 harg4 arg5 harg5 arg6 harg6 x3 x4 x5 x6 t ld (ValueIdx.ix2 r b)
      = ld (ValueIdx.ix2 r b) + ∑ j : Fin 4096, Cert.KSpec.hot (x5 (ValueIdx.ix1 j)) (1000 * t.val + r.val) * msgOf x3 x4 x6 j b := by
  match t with
  | ⟨0, _⟩ =>
    refine (PayIdeal1.pay29_apply _ _ _ _ _ _ _ ld r b).trans ?_
    refine congrArg (ld (ValueIdx.ix2 r b) + ·) (Finset.sum_congr rfl fun j _ => ?_)
    rw [msg0_run, oh0]
  | ⟨1, _⟩ =>
    refine (PayIdeal1.pay31_apply _ _ ld r b).trans ?_
    refine congrArg (ld (ValueIdx.ix2 r b) + ·) (Finset.sum_congr rfl fun j _ => ?_)
    rw [msg_run, oh1]
  | ⟨2, _⟩ =>
    refine (PayIdeal1.pay33_apply _ _ ld r b).trans ?_
    refine congrArg (ld (ValueIdx.ix2 r b) + ·) (Finset.sum_congr rfl fun j _ => ?_)
    rw [msg_run, oh2]
  | ⟨3, _⟩ =>
    refine (PayIdeal1.pay35_apply _ _ ld r b).trans ?_
    refine congrArg (ld (ValueIdx.ix2 r b) + ·) (Finset.sum_congr rfl fun j _ => ?_)
    rw [msg_run, oh3]
  | ⟨4, _⟩ =>
    refine (PayIdeal1.pay37_apply _ _ ld r b).trans ?_
    refine congrArg (ld (ValueIdx.ix2 r b) + ·) (Finset.sum_congr rfl fun j _ => ?_)
    rw [msg_run, oh4]
  | ⟨5, _⟩ =>
    refine (PayIdeal1.pay39_apply _ _ ld r b).trans ?_
    refine congrArg (ld (ValueIdx.ix2 r b) + ·) (Finset.sum_congr rfl fun j _ => ?_)
    rw [msg_run, oh5]
  | ⟨6, _⟩ =>
    refine (PayIdeal1.pay41_apply _ _ ld r b).trans ?_
    refine congrArg (ld (ValueIdx.ix2 r b) + ·) (Finset.sum_congr rfl fun j _ => ?_)
    rw [msg_run, oh6]
  | ⟨7, _⟩ =>
    refine (PayIdeal1.pay43_apply _ _ ld r b).trans ?_
    refine congrArg (ld (ValueIdx.ix2 r b) + ·) (Finset.sum_congr rfl fun j _ => ?_)
    rw [msg_run, oh7]
  | ⟨8, _⟩ =>
    refine (PayIdeal1.pay2_apply _ _ ld r b).trans ?_
    refine congrArg (ld (ValueIdx.ix2 r b) + ·) (Finset.sum_congr rfl fun j _ => ?_)
    rw [msg_run, oh8]
  | ⟨9, _⟩ =>
    refine (PayIdeal1.pay4_apply _ _ ld r b).trans ?_
    refine congrArg (ld (ValueIdx.ix2 r b) + ·) (Finset.sum_congr rfl fun j _ => ?_)
    rw [msg_run, oh9]

/-- Tile t's guard is the bracket of the point's two table words. -/
theorem guardW_iff (t : Fin 10) :
    guardW (F := Ideal) c i arg1 harg1 arg2 harg2 x1 x2 t = 1#1
      ↔ (x1 (ValueIdx.ix1 (show Fin 489 from i 0))).toInt ≤ ((t.val : Nat) : Int)
          ∧ ((t.val : Nat) : Int) ≤ (x2 (ValueIdx.ix1 (show Fin 489 from i 0))).toInt := by
  match t with
  | ⟨0, _⟩ =>
    show Body.kernelRun1.sl.v191 (F := Ideal) c i arg1 harg1 arg2 harg2 x1 x2 = 1#1 ↔ _
    sl_unfold_run_names
    rw [smem_word, smem_word]
    exact AccRead.visit_iff _ _ 0#32 (0 : Int) (by decide)
  | ⟨1, _⟩ =>
    show Body.kernelRun1.sl.v196 (F := Ideal) c i arg1 harg1 arg2 harg2 x1 x2 = 1#1 ↔ _
    sl_unfold_run_names
    rw [smem_word, smem_word]
    exact AccRead.visit_iff _ _ 1#32 (1 : Int) (by decide)
  | ⟨2, _⟩ =>
    show Body.kernelRun1.sl.v201 (F := Ideal) c i arg1 harg1 arg2 harg2 x1 x2 = 1#1 ↔ _
    sl_unfold_run_names
    rw [smem_word, smem_word]
    exact AccRead.visit_iff _ _ 2#32 (2 : Int) (by decide)
  | ⟨3, _⟩ =>
    show Body.kernelRun1.sl.v206 (F := Ideal) c i arg1 harg1 arg2 harg2 x1 x2 = 1#1 ↔ _
    sl_unfold_run_names
    rw [smem_word, smem_word]
    exact AccRead.visit_iff _ _ 3#32 (3 : Int) (by decide)
  | ⟨4, _⟩ =>
    show Body.kernelRun1.sl.v211 (F := Ideal) c i arg1 harg1 arg2 harg2 x1 x2 = 1#1 ↔ _
    sl_unfold_run_names
    rw [smem_word, smem_word]
    exact AccRead.visit_iff _ _ 4#32 (4 : Int) (by decide)
  | ⟨5, _⟩ =>
    show Body.kernelRun1.sl.v216 (F := Ideal) c i arg1 harg1 arg2 harg2 x1 x2 = 1#1 ↔ _
    sl_unfold_run_names
    rw [smem_word, smem_word]
    exact AccRead.visit_iff _ _ 5#32 (5 : Int) (by decide)
  | ⟨6, _⟩ =>
    show Body.kernelRun1.sl.v221 (F := Ideal) c i arg1 harg1 arg2 harg2 x1 x2 = 1#1 ↔ _
    sl_unfold_run_names
    rw [smem_word, smem_word]
    exact AccRead.visit_iff _ _ 6#32 (6 : Int) (by decide)
  | ⟨7, _⟩ =>
    show Body.kernelRun1.sl.v226 (F := Ideal) c i arg1 harg1 arg2 harg2 x1 x2 = 1#1 ↔ _
    sl_unfold_run_names
    rw [smem_word, smem_word]
    exact AccRead.visit_iff _ _ 7#32 (7 : Int) (by decide)
  | ⟨8, _⟩ =>
    show Body.kernelRun1.sl.v231 (F := Ideal) c i arg1 harg1 arg2 harg2 x1 x2 = 1#1 ↔ _
    sl_unfold_run_names
    rw [smem_word, smem_word]
    exact AccRead.visit_iff _ _ 8#32 (8 : Int) (by decide)
  | ⟨9, _⟩ =>
    show Body.kernelRun1.sl.v236 (F := Ideal) c i arg1 harg1 arg2 harg2 x1 x2 = 1#1 ↔ _
    sl_unfold_run_names
    rw [smem_word, smem_word]
    exact AccRead.visit_iff _ _ 9#32 (9 : Int) (by decide)

/-- The base at the ideal values: zero at the first grid point, what the point found at a later one. -/
theorem base_apply (a8 : FVec Ideal S10000x8 .f32) (y : S10000x8.Idx) :
    base (F := Ideal) i a8 y = if (i 0).val = 0 then (0 : EReal) else (a8 y : EReal) := by
  unfold base
  exact if_congr (first_eq i) (PayIdeal1.pay5_apply y) rfl

/-! ## The point in closed form -/

/-- One grid point: the base plus, when the node's tile is visited, the chunk's one-hot-scattered weighted messages. -/
theorem acc8_1_closed (a8 : FVec Ideal S10000x8 .f32) (n : Fin 10000) (b : Fin 8) :
    (Body.acc8_1 (F := Ideal) c i arg1 harg1 arg2 harg2 arg3 harg3 arg4 harg4 arg5 harg5 arg6 harg6 x1 x2 x3 x4 x5 x6 a8 (ValueIdx.ix2 n b) : EReal)
      = (if (i 0).val = 0 then (0 : EReal) else (a8 (ValueIdx.ix2 n b) : EReal))
        + (if (x1 (ValueIdx.ix1 (show Fin 489 from i 0))).toInt ≤ ((n.val / 1000 : Nat) : Int)
              ∧ ((n.val / 1000 : Nat) : Int) ≤ (x2 (ValueIdx.ix1 (show Fin 489 from i 0))).toInt
           then ∑ j : Fin 4096, Cert.KSpec.hot (x5 (ValueIdx.ix1 j)) n.val * msgOf x3 x4 x6 j b else 0) := by
  have hn : n.val = 1000 * (⟨n.val / 1000, by have := n.isLt; omega⟩ : Fin 10).val + (⟨n.val % 1000, Nat.mod_lt _ (by omega)⟩ : Fin 1000).val :=
    (Nat.div_add_mod n.val 1000).symm
  rw [acc8_1_tile (F := Ideal) c i arg1 harg1 arg2 harg2 arg3 harg3 arg4 harg4 arg5 harg5 arg6 harg6 x1 x2 x3 x4 x5 x6 a8 _ _ b n hn, upd_apply, tileOf_apply _ _ _ _ b n hn, base_apply]
  rw [← hn]
  by_cases hg : guardW (F := Ideal) c i arg1 harg1 arg2 harg2 x1 x2 ⟨n.val / 1000, by have := n.isLt; omega⟩ = 1#1
  · rw [if_pos hg, if_pos ((guardW_iff c i arg1 harg1 arg2 harg2 x1 x2 _).mp hg)]
  · rw [if_neg hg, if_neg (fun h => hg ((guardW_iff c i arg1 harg1 arg2 harg2 x1 x2 _).mpr h)), add_zero]

end Point

end Cert.KernelIdeal.AccIdeal1

end
-- ==== Proof.Step1.lean ====
/-
  The accumulator of custom_call 1 at the ideal instance, in closed form.
  One grid point: the accumulator is reset at the first point, and every visited node tile then receives the chunk's
  one-hot-scattered weighted messages (`acc8_1_apply`). All 489 points: the sum of those contributions over the chunks
  (`accAt1_final`, KSpec.accFinal), each chunk's operands being the blocks of the launch's arrays at that point.
-/
import proofs.«400082_j83537113907851_4_alg».proof.Proof.Dat1
import proofs.«400082_j83537113907851_4_alg».proof.Proof.PayIdeal1
import proofs.«400082_j83537113907851_4_alg».proof.Proof.AccIdeal1
import proofs.«400082_j83537113907851_4_alg».proof.Proof.KSpec
import Idealize.ShloMosaic.Lib.ValueIdx

noncomputable section

open scoped BigOperators

namespace Cert.KernelIdeal.Step1

open Cert.KernelIdeal Cert.KernelIdeal.Gen
open Idealize.ShloMosaic Idealize.ShloMosaic.TcCoe Idealize.SL.Sem

/-- What one grid point adds at node `n`, batch column `b`, when the node's tile is visited: the chunk's positions that
    scatter to `n`, each with its gathered node state times its weight. -/
def contrib1 (x3 : Vec Ideal S10000x8 .f32) (x4 x5 : Vec Ideal S4096 .i32) (x6 : Vec Ideal S4096 .f32) (n : Fin 10000) (b : Fin 8) : EReal :=
  ∑ j : Fin 4096, Cert.KSpec.hot (x5 (ValueIdx.ix1 j)) n.val
    * ((∑ t : Fin 10, ∑ r : Fin 1000, Cert.KSpec.hot (x4 (ValueIdx.ix1 j)) (Cert.KSpec.node t r).val * (x3 (ValueIdx.ix2 (Cert.KSpec.node t r) b) : EReal))
        * (x6 (ValueIdx.ix1 j) : EReal))

/-- One grid point `i`, with the tables `x1 x2` (read at the point's own word, signed), the node states `x3`, the chunk's
    gather indices `x4`, scatter indices `x5` and weights `x6`, over the accumulator `a8` it found. -/
theorem acc8_1_apply (c : Dev nD) (i : grid1.Coords)
    (arg1 : Memref sig .tc .smem S489 .i32) (harg1 : arg1.IsWhole) (arg2 : Memref sig .tc .smem S489 .i32) (harg2 : arg2.IsWhole)
    (arg3 : Memref sig .tc .vmem S10000x8 .f32) (harg3 : arg3.IsWhole) (arg4 : Memref sig .tc .vmem S4096 .i32) (harg4 : arg4.IsWhole)
    (arg5 : Memref sig .tc .vmem S4096 .i32) (harg5 : arg5.IsWhole) (arg6 : Memref sig .tc .vmem S4096 .f32) (harg6 : arg6.IsWhole)
    (x1 x2 : Vec Ideal S489 .i32) (x3 : Vec Ideal S10000x8 .f32) (x4 x5 : Vec Ideal S4096 .i32)
    (x6 : Vec Ideal S4096 .f32) (a8 : Vec Ideal S10000x8 .f32) (n : Fin 10000) (b : Fin 8) :
    (Body.acc8_1 (F := Ideal) c i arg1 harg1 arg2 harg2 arg3 harg3 arg4 harg4 arg5 harg5 arg6 harg6 x1 x2 x3 x4 x5 x6 a8 (ValueIdx.ix2 n b) : EReal)
      = (if (i 0).val = 0 then (0 : EReal) else (a8 (ValueIdx.ix2 n b) : EReal))
        + (if (x1 (ValueIdx.ix1 (show Fin 489 from i 0))).toInt ≤ ((n.val / 1000 : Nat) : Int)
              ∧ ((n.val / 1000 : Nat) : Int) ≤ (x2 (ValueIdx.ix1 (show Fin 489 from i 0))).toInt
           then contrib1 x3 x4 x5 x6 n b else 0) := by
  unfold contrib1
  exact AccIdeal1.acc8_1_closed c i arg1 harg1 arg2 harg2 arg3 harg3 arg4 harg4 arg5 harg5 arg6 harg6 x1 x2 x3 x4 x5 x6 a8 n b

variable (V : (c : Dev nD) → (b : Ref sig .tc) → Buf (Elt Ideal) ((c : Thread nD τ).loc b))

/-! ## The blocks of the launch's arrays, read at an index -/

/-- Window 0's one block is the whole array of node states. -/
theorem xs1_read (c : Dev nD) (p : Fin (cfg1 (Frame.adm1 (F := Ideal) V)).N) (j : S10000x8.Idx) :
    Frame.xs1 (F := Ideal) V c p j = V c main_v83 j := by
  have h : ∀ a : Fin 2, ((((cfg1 (Frame.adm1 (F := Ideal) V)).win 0).blk p).view.emb j a).val = (j a).val := fun a =>
    match a with
    | ⟨0, _⟩ => by show 0 * 10000 + 1 * (j 0).val = (j 0).val; omega
    | ⟨1, _⟩ => by show 0 * 8 + 1 * (j 1).val = (j 1).val; omega
  show V c main_v83 ((((cfg1 (Frame.adm1 (F := Ideal) V)).win 0).blk p).view.emb j) = V c main_v83 j
  exact congrArg (V c main_v83) (funext fun a => Fin.ext (h a))

/-- A grid coordinate's word is the coordinate. -/
theorem word_coord (i : grid1.Coords) : (BitVec.ofNat 32 (i 0).val).toNat = (i 0).val := by
  have h489 : (i 0).val < 489 := (i 0).isLt
  rw [BitVec.toNat_ofNat]
  exact Nat.mod_eq_of_lt (by omega)

/-- Entry `j` of the chunk's block of gather indices is entry `4096 t + j` of the array, `t` the point's coordinate. -/
theorem gi1_read (c : Dev nD) (p : Fin (cfg1 (Frame.adm1 (F := Ideal) V)).N) (j : Fin 4096) :
    Frame.gi1 (F := Ideal) V c p (ValueIdx.ix1 j)
      = V c main_v57 (ValueIdx.ix1 (Cert.KSpec.pos (show Fin 489 from grid1.coords p 0) j)) := by
  have h : ∀ a : Fin 1, ((((cfg1 (Frame.adm1 (F := Ideal) V)).win 1).blk p).view.emb (ValueIdx.ix1 j) a).val
      = ((ValueIdx.ix1 (Cert.KSpec.pos (show Fin 489 from grid1.coords p 0) j) : S2002944.Idx) a).val := fun a =>
    match a with
    | ⟨0, _⟩ => by
      show (BitVec.ofNat 32 (grid1.coords p 0).val).toNat * 4096 + 1 * j.val = (grid1.coords p 0).val * 4096 + j.val
      rw [word_coord]; omega
  show V c main_v57 ((((cfg1 (Frame.adm1 (F := Ideal) V)).win 1).blk p).view.emb (ValueIdx.ix1 j)) = _
  exact congrArg (V c main_v57) (funext fun a => Fin.ext (h a))

/-- Likewise the chunk's scatter indices, -/
theorem si1_read (c : Dev nD) (p : Fin (cfg1 (Frame.adm1 (F := Ideal) V)).N) (j : Fin 4096) :
    Frame.si1 (F := Ideal) V c p (ValueIdx.ix1 j)
      = V c main_v64 (ValueIdx.ix1 (Cert.KSpec.pos (show Fin 489 from grid1.coords p 0) j)) := by
  have h : ∀ a : Fin 1, ((((cfg1 (Frame.adm1 (F := Ideal) V)).win 2).blk p).view.emb (ValueIdx.ix1 j) a).val
      = ((ValueIdx.ix1 (Cert.KSpec.pos (show Fin 489 from grid1.coords p 0) j) : S2002944.Idx) a).val := fun a =>
    match a with
    | ⟨0, _⟩ => by
      show (BitVec.ofNat 32 (grid1.coords p 0).val).toNat * 4096 + 1 * j.val = (grid1.coords p 0).val * 4096 + j.val
      rw [word_coord]; omega
  show V c main_v64 ((((cfg1 (Frame.adm1 (F := Ideal) V)).win 2).blk p).view.emb (ValueIdx.ix1 j)) = _
  exact congrArg (V c main_v64) (funext fun a => Fin.ext (h a))

/-- and its weights. -/
theorem ws1_read (c : Dev nD) (p : Fin (cfg1 (Frame.adm1 (F := Ideal) V)).N) (j : Fin 4096) :
    Frame.ws1 (F := Ideal) V c p (ValueIdx.ix1 j)
      = V c main_v71 (ValueIdx.ix1 (Cert.KSpec.pos (show Fin 489 from grid1.coords p 0) j)) := by
  have h : ∀ a : Fin 1, ((((cfg1 (Frame.adm1 (F := Ideal) V)).win 3).blk p).view.emb (ValueIdx.ix1 j) a).val
      = ((ValueIdx.ix1 (Cert.KSpec.pos (show Fin 489 from grid1.coords p 0) j) : S2002944.Idx) a).val := fun a =>
    match a with
    | ⟨0, _⟩ => by
      show (BitVec.ofNat 32 (grid1.coords p 0).val).toNat * 4096 + 1 * j.val = (grid1.coords p 0).val * 4096 + j.val
      rw [word_coord]; omega
  show V c main_v71 ((((cfg1 (Frame.adm1 (F := Ideal) V)).win 3).blk p).view.emb (ValueIdx.ix1 j)) = _
  exact congrArg (V c main_v71) (funext fun a => Fin.ext (h a))

/-! ## One chunk's guarded contribution -/

/-- The launch's operands as the chunked accumulation reads them: node states, gather indices, scatter indices, weights,
    and the two tables of first and last tile per chunk. -/
abbrev valsOf (c : Dev nD) : Fin 10000 → Fin 8 → EReal := fun n b => (V c main_v83 (ValueIdx.ix2 n b) : EReal)
abbrev gOf (c : Dev nD) : Fin 2002944 → BitVec 32 := fun p => V c main_v57 (ValueIdx.ix1 p)
abbrev sOf (c : Dev nD) : Fin 2002944 → BitVec 32 := fun p => V c main_v64 (ValueIdx.ix1 p)
abbrev wOf (c : Dev nD) : Fin 2002944 → EReal := fun p => (V c main_v71 (ValueIdx.ix1 p) : EReal)
abbrev loOf : Fin 489 → BitVec 32 := fun k => V 0 main_v75 (ValueIdx.ix1 k)
abbrev hiOf : Fin 489 → BitVec 32 := fun k => V 0 main_v78 (ValueIdx.ix1 k)

/-- Chunk `k`'s guarded contribution at node `n`, batch column `b`; 0 past the last chunk. -/
def chunkTerm (c : Dev nD) (n : Fin 10000) (b : Fin 8) (k : Nat) : EReal :=
  if h : k < 489 then
    (if Cert.KSpec.visited (loOf V) (hiOf V) ⟨k, h⟩ (n.val / 1000)
      then Cert.KSpec.part (valsOf V c) (gOf V c) (sOf V c) (wOf V c) ⟨k, h⟩ n b else 0)
  else 0

/-- At grid coordinates `i`, on operands that are the blocks of the launch's arrays there, the point's guarded
    contribution is chunk `i 0`'s: the guard reads the tables at the point's own word, and the block entries are the
    chunk's positions. -/
theorem guard_term (c : Dev nD) (i : grid1.Coords)
    (x3 : Vec Ideal S10000x8 .f32) (x4 x5 : Vec Ideal S4096 .i32) (x6 : Vec Ideal S4096 .f32)
    (hx3 : ∀ (m : Fin 10000) (b : Fin 8), x3 (ValueIdx.ix2 m b) = V c main_v83 (ValueIdx.ix2 m b))
    (hx4 : ∀ j : Fin 4096, x4 (ValueIdx.ix1 j) = V c main_v57 (ValueIdx.ix1 (Cert.KSpec.pos (show Fin 489 from i 0) j)))
    (hx5 : ∀ j : Fin 4096, x5 (ValueIdx.ix1 j) = V c main_v64 (ValueIdx.ix1 (Cert.KSpec.pos (show Fin 489 from i 0) j)))
    (hx6 : ∀ j : Fin 4096, x6 (ValueIdx.ix1 j) = V c main_v71 (ValueIdx.ix1 (Cert.KSpec.pos (show Fin 489 from i 0) j)))
    (n : Fin 10000) (b : Fin 8) :
    (if (Frame.tabA1 (F := Ideal) V (ValueIdx.ix1 (show Fin 489 from i 0))).toInt ≤ ((n.val / 1000 : Nat) : Int)
          ∧ ((n.val / 1000 : Nat) : Int) ≤ (Frame.tabB1 (F := Ideal) V (ValueIdx.ix1 (show Fin 489 from i 0))).toInt
       then contrib1 x3 x4 x5 x6 n b else 0)
      = chunkTerm V c n b (i 0).val := by
  have h489 : (i 0).val < 489 := (i 0).isLt
  have hc : contrib1 x3 x4 x5 x6 n b
      = Cert.KSpec.part (valsOf V c) (gOf V c) (sOf V c) (wOf V c) ⟨(i 0).val, h489⟩ n b := by
    unfold contrib1 Cert.KSpec.part Cert.KSpec.msg Cert.KSpec.gathered
    simp only [hx3, hx4, hx5, hx6]
    rfl
  unfold chunkTerm
  rw [dif_pos h489]
  refine if_congr ?_ hc rfl
  exact Iff.rfl

/-- Grid point `t`'s guarded contribution, on the blocks of the launch's arrays at that point, is chunk `t`'s. -/
theorem point_term (c : Dev nD) (t : Nat) (h : t < 489) (n : Fin 10000) (b : Fin 8) :
    (if (Frame.tabA1 (F := Ideal) V (ValueIdx.ix1 (show Fin 489 from grid1.coords (Frame.pt1 (F := Ideal) V t h) 0))).toInt
            ≤ ((n.val / 1000 : Nat) : Int)
          ∧ ((n.val / 1000 : Nat) : Int)
            ≤ (Frame.tabB1 (F := Ideal) V (ValueIdx.ix1 (show Fin 489 from grid1.coords (Frame.pt1 (F := Ideal) V t h) 0))).toInt
       then contrib1 (Frame.xs1 (F := Ideal) V c (Frame.pt1 V t h)) (Frame.gi1 (F := Ideal) V c (Frame.pt1 V t h))
          (Frame.si1 (F := Ideal) V c (Frame.pt1 V t h)) (Frame.ws1 (F := Ideal) V c (Frame.pt1 V t h)) n b else 0)
      = chunkTerm V c n b t := by
  have hp : (grid1.coords (Frame.pt1 (F := Ideal) V t h) 0).val = t := Frame.coords_val1 _
  have key := guard_term V c (grid1.coords (Frame.pt1 (F := Ideal) V t h))
    (Frame.xs1 (F := Ideal) V c (Frame.pt1 V t h)) (Frame.gi1 (F := Ideal) V c (Frame.pt1 V t h))
    (Frame.si1 (F := Ideal) V c (Frame.pt1 V t h)) (Frame.ws1 (F := Ideal) V c (Frame.pt1 V t h))
    (fun m b => xs1_read V c (Frame.pt1 V t h) (ValueIdx.ix2 m b))
    (fun j => gi1_read V c (Frame.pt1 V t h) j) (fun j => si1_read V c (Frame.pt1 V t h) j)
    (fun j => ws1_read V c (Frame.pt1 V t h) j) n b
  rw [hp] at key
  exact key

/-! ## All 489 points -/

/-- Before point `T + 1` the accumulator holds the guarded contributions of chunks `0 … T`: the first point resets it
    and adds chunk 0's, every later point adds its own chunk's to what it found. -/
theorem accAt1_succ (c : Dev nD) (n : Fin 10000) (b : Fin 8) :
    ∀ T : Nat, T < 489 →
      (Frame.accAt1 (F := Ideal) V c (T + 1) (ValueIdx.ix2 n b) : EReal)
        = ∑ k ∈ Finset.range (T + 1), chunkTerm V c n b k := by
  intro T
  induction T with
  | zero =>
    intro h
    have hp : (grid1.coords (Frame.pt1 (F := Ideal) V 0 h) 0).val = 0 := Frame.coords_val1 _
    rw [Frame.accAt1, dif_pos h]
    delta Frame.accOn1
    rw [acc8_1_apply, if_pos hp, zero_add, Finset.sum_range_one]
    exact point_term V c 0 h n b
  | succ T ih =>
    intro h
    have hp : (grid1.coords (Frame.pt1 (F := Ideal) V (T + 1) h) 0).val = T + 1 := Frame.coords_val1 _
    have hne : ¬ (grid1.coords (Frame.pt1 (F := Ideal) V (T + 1) h) 0).val = 0 := by rw [hp]; omega
    rw [Frame.accAt1, dif_pos h]
    delta Frame.accOn1
    rw [acc8_1_apply, if_neg hne, ih (by omega), Finset.sum_range_succ _ (T + 1)]
    congr 1
    exact point_term V c (T + 1) h n b

/-- After the 489 grid points the accumulator holds, at node `n` and batch column `b`, the chunked one-hot
    accumulation of the launch's operands as the region found them. -/
theorem accAt1_final (c : Dev nD) (n : Fin 10000) (b : Fin 8) :
    (Frame.accAt1 (F := Ideal) V c 489 (ValueIdx.ix2 n b) : EReal)
      = Cert.KSpec.accFinal (fun n b => (V c main_v83 (ValueIdx.ix2 n b) : EReal)) (fun p => V c main_v57 (ValueIdx.ix1 p))
          (fun p => V c main_v64 (ValueIdx.ix1 p)) (fun p => (V c main_v71 (ValueIdx.ix1 p) : EReal))
          (fun k => V 0 main_v75 (ValueIdx.ix1 k)) (fun k => V 0 main_v78 (ValueIdx.ix1 k)) n b := by
  refine (accAt1_succ V c n b 488 (by omega)).trans ?_
  refine (Fin.sum_univ_eq_sum_range (fun k => chunkTerm V c n b k) 489).symm.trans ?_
  unfold Cert.KSpec.accFinal
  refine Finset.sum_congr rfl (fun k _ => ?_)
  show chunkTerm V c n b k.val = _
  unfold chunkTerm
  rw [dif_pos k.isLt]

end Cert.KernelIdeal.Step1

end
-- ==== Proof.Regroup.lean ====
/-
  The kernel's chunked, tile-pruned, one-hot accumulation over the padded and scatter-sorted edge list IS one message
  pass of the specification: sorting is a bijection of positions, the pad positions carry weight 0 and a scatter index no
  node has, a tile skipped in a chunk holds none of the chunk's scatter indices (the list is sorted, and the chunk's first
  and last index bracket the rest), and a one-hot product with a single hit is the hit.
-/
import proofs.«400082_j83537113907851_4_alg».proof.Proof.Spec
import proofs.«400082_j83537113907851_4_alg».proof.Proof.KSpec
import Mathlib.Algebra.BigOperators.Fin
import Mathlib.Data.Fintype.BigOperators

noncomputable section

open scoped BigOperators

namespace Cert.Regroup

open Cert.KSpec

/-- The padded edge list before sorting: position `q` below 2000000 is edge `q`; the 2944 pad positions gather node 0,
    scatter to the sentinel 10000 (no node) and weigh 0. -/
def gPad (gw : Fin 2000000 → BitVec 32) (q : Fin 2002944) : BitVec 32 := if h : q.val < 2000000 then gw ⟨q.val, h⟩ else 0#32
def sPad (sw : Fin 2000000 → BitVec 32) (q : Fin 2002944) : BitVec 32 := if h : q.val < 2000000 then sw ⟨q.val, h⟩ else 10000#32
def wPad (w : Fin 2000000 → EReal) (q : Fin 2002944) : EReal := if h : q.val < 2000000 then w ⟨q.val, h⟩ else 0

/-! ## Re-indexing finite sums -/

/-- A node number as a (tile, row) pair: `m ↦ (m / 1000, m % 1000)` inverts `(t, r) ↦ 1000 t + r`. -/
def nodeEquiv : Fin 10 × Fin 1000 ≃ Fin 10000 where
  toFun x := node x.1 x.2
  invFun m := (⟨m.val / 1000, by have := m.isLt; omega⟩, ⟨m.val % 1000, Nat.mod_lt _ (by omega)⟩)
  left_inv := by
    rintro ⟨⟨t, ht⟩, ⟨r, hr⟩⟩
    refine Prod.ext (Fin.ext ?_) (Fin.ext ?_)
    · show (1000 * t + r) / 1000 = t
      omega
    · show (1000 * t + r) % 1000 = r
      omega
  right_inv := by
    rintro ⟨m, hm⟩
    refine Fin.ext ?_
    show 1000 * (m / 1000) + m % 1000 = m
    omega

/-- A position as a (chunk, offset) pair: `p ↦ (p / 4096, p % 4096)` inverts `(c, j) ↦ 4096 c + j`. -/
def posEquiv : Fin 489 × Fin 4096 ≃ Fin 2002944 where
  toFun x := pos x.1 x.2
  invFun p := (⟨p.val / 4096, by have := p.isLt; omega⟩, ⟨p.val % 4096, Nat.mod_lt _ (by omega)⟩)
  left_inv := by
    rintro ⟨⟨c, hc⟩, ⟨j, hj⟩⟩
    refine Prod.ext (Fin.ext ?_) (Fin.ext ?_)
    · show (c * 4096 + j) / 4096 = c
      omega
    · show (c * 4096 + j) % 4096 = j
      omega
  right_inv := by
    rintro ⟨p, hp⟩
    refine Fin.ext ?_
    show p / 4096 * 4096 + p % 4096 = p
    omega

/-- A sum over the ten tiles of a thousand rows is the sum over the ten thousand nodes. -/
theorem sum_node {M : Type*} [AddCommMonoid M] (f : Fin 10000 → M) :
    ∑ t : Fin 10, ∑ r : Fin 1000, f (node t r) = ∑ m : Fin 10000, f m :=
  (Fintype.sum_prod_type' (fun t r => f (node t r))).symm.trans
    (Fintype.sum_equiv nodeEquiv (fun x => f (node x.1 x.2)) f (fun _ => rfl))

/-- A sum over the 489 chunks of 4096 positions is the sum over the 2002944 positions. -/
theorem sum_pos {M : Type*} [AddCommMonoid M] (F : Fin 2002944 → M) :
    ∑ c : Fin 489, ∑ j : Fin 4096, F (pos c j) = ∑ p : Fin 2002944, F p :=
  (Fintype.sum_prod_type' (fun c j => F (pos c j))).symm.trans
    (Fintype.sum_equiv posEquiv (fun x => F (pos x.1 x.2)) F (fun _ => rfl))

/-- A sum over `a + b` positions whose last `b` terms vanish is the sum of the first `a`. -/
theorem sum_pad {M : Type*} [AddCommMonoid M] (a b : ℕ) (F : Fin (a + b) → M) (A : Fin a → M)
    (hA : ∀ e : Fin a, F (Fin.castAdd b e) = A e) (h0 : ∀ i : Fin b, F (Fin.natAdd a i) = 0) :
    ∑ q, F q = ∑ e, A e := by
  rw [Fin.sum_univ_add]
  simp only [hA, h0, Finset.sum_const_zero, add_zero]

/-! ## The one-hot entry -/

/-- A number that fits in the word is its word's value. -/
theorem toNat_ofNat_lt (k : ℕ) (hk : k < 2 ^ 32) : (BitVec.ofNat 32 k).toNat = k := by
  rw [BitVec.toNat_ofNat]
  exact Nat.mod_eq_of_lt hk

/-- For a number that fits in the word, the one-hot entry tests the word's value. -/
theorem hot_eq (g : BitVec 32) (k : ℕ) (hk : k < 2 ^ 32) : hot g k = if g.toNat = k then 1 else 0 := by
  unfold hot
  by_cases h : g.toNat = k
  · have hg : g = BitVec.ofNat 32 k := BitVec.eq_of_toNat_eq (h.trans (toNat_ofNat_lt k hk).symm)
    rw [if_pos hg, if_pos h]
  · have hg : ¬ g = BitVec.ofNat 32 k := fun hg => h ((congrArg BitVec.toNat hg).trans (toNat_ofNat_lt k hk))
    rw [if_neg hg, if_neg h]

/-- The one-hot product over all nodes picks the value at the word's node. -/
theorem gather_eq (vals : Fin 10000 → Fin 8 → EReal) (g : BitVec 32) (hg : g.toNat < 10000) (b : Fin 8) :
    ∑ t : Fin 10, ∑ r : Fin 1000, hot g (node t r).val * vals (node t r) b = vals ⟨g.toNat, hg⟩ b := by
  rw [sum_node (fun m => hot g m.val * vals m b)]
  rw [Finset.sum_eq_single (⟨g.toNat, hg⟩ : Fin 10000)]
  · rw [hot_eq g _ (show g.toNat < 2 ^ 32 by omega), if_pos rfl, one_mul]
  · intro m _ hm
    have hm' : ¬ g.toNat = m.val := fun h => hm (Fin.ext h.symm)
    rw [hot_eq g _ (show m.val < 2 ^ 32 by have := m.isLt; omega), if_neg hm', zero_mul]
  · intro h
    exact absurd (Finset.mem_univ _) h

/-! ## Dropping the tile guard -/

/-- A small number's word, read signed, is the number. -/
theorem toInt_ofNat_small (k : ℕ) (hk : k ≤ 10) : (BitVec.ofNat 32 k).toInt = (k : ℤ) := by
  have e := toNat_ofNat_lt k (by omega)
  rw [BitVec.toInt_eq_toNat_cond, e]
  split <;> omega

/-- Every scatter word of the padded list is a node's number or the sentinel 10000. -/
theorem sPad_le (sw : Fin 2000000 → BitVec 32) (hsw : ∀ e, (sw e).toNat < 10000) (q : Fin 2002944) :
    (sPad sw q).toNat ≤ 10000 := by
  unfold sPad
  split
  · exact Nat.le_of_lt (hsw _)
  · exact Nat.le_of_eq (toNat_ofNat_lt 10000 (by omega))

/-- In a sorted list, a chunk whose first and last scatter index bracket tiles `lo … hi` scatters nothing to a node of
    another tile: every one-hot factor of that node is 0. -/
theorem part_eq_zero (vals : Fin 10000 → Fin 8 → EReal) (gS sS : Fin 2002944 → BitVec 32) (wS : Fin 2002944 → EReal)
    (lo hi : Fin 489 → BitVec 32)
    (hle : ∀ p, (sS p).toNat ≤ 10000)
    (hsorted : ∀ p p' : Fin 2002944, p ≤ p' → (sS p).toNat ≤ (sS p').toNat)
    (hlo : ∀ c : Fin 489, lo c = BitVec.ofNat 32 ((sS (pos c ⟨0, by decide⟩)).toNat / 1000))
    (hhi : ∀ c : Fin 489, hi c = BitVec.ofNat 32 ((sS (pos c ⟨4095, by decide⟩)).toNat / 1000))
    (c : Fin 489) (n : Fin 10000) (b : Fin 8) (hnv : ¬ visited lo hi c (n.val / 1000)) :
    part vals gS sS wS c n b = 0 := by
  unfold part
  refine Finset.sum_eq_zero (fun j _ => ?_)
  have hn := n.isLt
  have h0 : hot (sS (pos c j)) n.val = 0 := by
    rw [hot_eq _ _ (show n.val < 2 ^ 32 by omega), if_neg]
    intro heq
    apply hnv
    have h1 : (sS (pos c ⟨0, by decide⟩)).toNat ≤ (sS (pos c j)).toNat :=
      hsorted _ _ (by
        show c.val * 4096 + 0 ≤ c.val * 4096 + j.val
        omega)
    have h2 : (sS (pos c j)).toNat ≤ (sS (pos c ⟨4095, by decide⟩)).toNat :=
      hsorted _ _ (by
        show c.val * 4096 + j.val ≤ c.val * 4096 + 4095
        have := j.isLt
        omega)
    have h3 := hle (pos c ⟨0, by decide⟩)
    have h4 := hle (pos c ⟨4095, by decide⟩)
    have e1 := toInt_ofNat_small ((sS (pos c ⟨0, by decide⟩)).toNat / 1000) (by omega)
    have e2 := toInt_ofNat_small ((sS (pos c ⟨4095, by decide⟩)).toNat / 1000) (by omega)
    unfold visited
    rw [hlo c, hhi c, e1, e2]
    constructor <;> omega
  rw [h0, zero_mul]

/-! ## The unsorted padded list, position by position -/

theorem gPad_edge (gw : Fin 2000000 → BitVec 32) (e : Fin 2000000) : gPad gw (Fin.castAdd 2944 e) = gw e := by
  unfold gPad
  exact dif_pos (show (Fin.castAdd 2944 e).val < 2000000 from e.isLt)

theorem sPad_edge (sw : Fin 2000000 → BitVec 32) (e : Fin 2000000) : sPad sw (Fin.castAdd 2944 e) = sw e := by
  unfold sPad
  exact dif_pos (show (Fin.castAdd 2944 e).val < 2000000 from e.isLt)

theorem wPad_edge (w : Fin 2000000 → EReal) (e : Fin 2000000) : wPad w (Fin.castAdd 2944 e) = w e := by
  unfold wPad
  exact dif_pos (show (Fin.castAdd 2944 e).val < 2000000 from e.isLt)

theorem wPad_pad (w : Fin 2000000 → EReal) (i : Fin 2944) : wPad w (Fin.natAdd 2000000 i) = 0 := by
  unfold wPad
  refine dif_neg ?_
  show ¬ (2000000 + i.val < 2000000)
  omega

/-- What position `q` of the unsorted padded list contributes at node `n`, batch column `b`: its one-hot scatter factor
    times its gathered value times its weight. -/
def contrib (vals : Fin 10000 → Fin 8 → EReal) (gw sw : Fin 2000000 → BitVec 32) (w : Fin 2000000 → EReal)
    (n : Fin 10000) (b : Fin 8) (q : Fin 2002944) : EReal :=
  hot (sPad sw q) n.val * ((∑ t : Fin 10, ∑ r : Fin 1000, hot (gPad gw q) (node t r).val * vals (node t r) b) * wPad w q)

/-- An edge's position contributes the edge's message where the edge lands on the node, and 0 elsewhere. -/
theorem contrib_edge (vals : Fin 10000 → Fin 8 → EReal) (w : Fin 2000000 → EReal) (gw sw : Fin 2000000 → BitVec 32)
    (hgw : ∀ e, (gw e).toNat < 10000) (hsw : ∀ e, (sw e).toNat < 10000) (n : Fin 10000) (b : Fin 8) (e : Fin 2000000) :
    contrib vals gw sw w n b (Fin.castAdd 2944 e)
      = if Cert.Spec.nodeOf (sw e) = n then w e * vals (Cert.Spec.nodeOf (gw e)) b else 0 := by
  have hn := n.isLt
  unfold contrib
  rw [gPad_edge, sPad_edge, wPad_edge, gather_eq vals (gw e) (hgw e) b,
    hot_eq _ _ (show n.val < 2 ^ 32 by omega)]
  have hng : Cert.Spec.nodeOf (gw e) = ⟨(gw e).toNat, hgw e⟩ := Fin.ext (Nat.mod_eq_of_lt (hgw e))
  have hsv : (Cert.Spec.nodeOf (sw e)).val = (sw e).toNat := Nat.mod_eq_of_lt (hsw e)
  by_cases h : (sw e).toNat = n.val
  · have hns : Cert.Spec.nodeOf (sw e) = n := Fin.ext (hsv.trans h)
    rw [if_pos h, if_pos hns, one_mul, hng, mul_comm]
  · have hns : ¬ Cert.Spec.nodeOf (sw e) = n := fun hh => h (hsv.symm.trans (congrArg Fin.val hh))
    rw [if_neg h, if_neg hns, zero_mul]

/-- A pad position weighs 0 and contributes nothing. -/
theorem contrib_pad (vals : Fin 10000 → Fin 8 → EReal) (w : Fin 2000000 → EReal) (gw sw : Fin 2000000 → BitVec 32)
    (n : Fin 10000) (b : Fin 8) (i : Fin 2944) :
    contrib vals gw sw w n b (Fin.natAdd 2000000 i) = 0 := by
  unfold contrib
  rw [wPad_pad, mul_zero, mul_zero]

/-! ## The accumulator is one message pass -/

theorem accFinal_eq_pass
    (vals : Fin 10000 → Fin 8 → EReal) (w : Fin 2000000 → EReal) (gw sw : Fin 2000000 → BitVec 32)
    (hgw : ∀ e, (gw e).toNat < 10000) (hsw : ∀ e, (sw e).toNat < 10000)
    (gS sS : Fin 2002944 → BitVec 32) (wS : Fin 2002944 → EReal) (lo hi : Fin 489 → BitVec 32)
    (σ : Fin 2002944 → Fin 2002944) (hσ : Function.Bijective σ)
    (hg : ∀ p, gS p = gPad gw (σ p)) (hs : ∀ p, sS p = sPad sw (σ p)) (hw : ∀ p, wS p = wPad w (σ p))
    (hsorted : ∀ p p' : Fin 2002944, p ≤ p' → (sS p).toNat ≤ (sS p').toNat)
    (hlo : ∀ c : Fin 489, lo c = BitVec.ofNat 32 ((sS (pos c ⟨0, by decide⟩)).toNat / 1000))
    (hhi : ∀ c : Fin 489, hi c = BitVec.ofNat 32 ((sS (pos c ⟨4095, by decide⟩)).toNat / 1000))
    (n : Fin 10000) (b : Fin 8) :
    accFinal vals gS sS wS lo hi n b
      = Cert.Spec.pass w (fun e => Cert.Spec.nodeOf (gw e)) (fun e => Cert.Spec.nodeOf (sw e)) (fun b n => vals n b) b n := by
  have hle : ∀ p, (sS p).toNat ≤ 10000 := fun p => by
    rw [hs p]
    exact sPad_le sw hsw _
  calc accFinal vals gS sS wS lo hi n b
      = ∑ c : Fin 489, part vals gS sS wS c n b := by
        unfold accFinal
        refine Finset.sum_congr rfl (fun c _ => ?_)
        by_cases hv : visited lo hi c (n.val / 1000)
        · rw [if_pos hv]
        · rw [if_neg hv, part_eq_zero vals gS sS wS lo hi hle hsorted hlo hhi c n b hv]
    _ = ∑ p : Fin 2002944, hot (sS p) n.val * msg vals gS wS p b :=
        sum_pos (fun p => hot (sS p) n.val * msg vals gS wS p b)
    _ = ∑ p : Fin 2002944, contrib vals gw sw w n b (σ p) := by
        refine Finset.sum_congr rfl (fun p _ => ?_)
        unfold msg gathered contrib
        rw [hg p, hs p, hw p]
    _ = ∑ q : Fin 2002944, contrib vals gw sw w n b q := hσ.sum_comp (contrib vals gw sw w n b)
    _ = ∑ e : Fin 2000000, (if Cert.Spec.nodeOf (sw e) = n then w e * vals (Cert.Spec.nodeOf (gw e)) b else 0) :=
        sum_pad 2000000 2944 (contrib vals gw sw w n b) _ (contrib_edge vals w gw sw hgw hsw n b)
          (contrib_pad vals w gw sw n b)
    _ = Cert.Spec.pass w (fun e => Cert.Spec.nodeOf (gw e)) (fun e => Cert.Spec.nodeOf (sw e)) (fun b n => vals n b) b n := rfl

end Cert.Regroup

end
-- ==== Proof.HostChainLib.lean ====
/-
  A stable argsort of a vector of 32-bit keys under the signed order, followed by take-gathers at the permutation
  it returns: the facts a value proof needs, over any extent (no program is imported).

  * the argsort's result word at position `p` is the number of the source position `argPerm s p`;
  * `argPerm s` is a bijection of the positions, and the keys read through it are non-decreasing (signed);
  * an index vector whose words are position numbers is unchanged by the wrap-around normalisation
    `select (i < 0) (i + n) i`, and the gather at it reads the operand at those positions;
  * a vector padded behind by a second one reads the first below its extent and the second past it;
  * the floor division by 1000 of a non-negative word, as the select around the truncating quotient and the
    remainder, is the quotient of the values.
-/
import Idealize.ShloMosaic.Lib.SortFacts
import Idealize.ShloMosaic.Lib.ValueIdx
import Idealize.ShloMosaic.Lib.StableHlo.Predicate
import Idealize.ShloMosaic.Lib.Pipeline.Value

namespace Cert.SortTake

open Idealize.ShloMosaic Idealize.ShloMosaic.ValueIdx Idealize.ShloMosaic.StableHlo

/-- The rank-1 index at a coordinate, in the two spellings the library uses. -/
theorem ofFin_eq_ix1 {n : Nat} (p : Fin n) : (Shape.Idx.ofFin p : (⟨1, ![n]⟩ : Shape).Idx) = ix1 p := by
  funext d; match d with | ⟨0, _⟩ => rfl

/-- Row `p` of a one-column table, in the two spellings. -/
theorem ixP_eq_ix2 {n : Nat} (p : Fin n) : (Predicate.ixP p : (⟨2, ![n, 1]⟩ : Shape).Idx) = ix2 p (0 : Fin 1) := by
  funext d; match d with | ⟨0, _⟩ => rfl | ⟨1, _⟩ => rfl

theorem ofBool_beq_one (b : Bool) : (BitVec.ofBool b == 1#1) = b := by cases b <;> rfl

/-! ## The sorting permutation of a key vector -/

/-- Position `k`'s key sorts strictly before position `k'`'s: signed less-than on the words. -/
def keyBefore {n : Nat} (s : (⟨1, ![n]⟩ : Shape).Idx → BitVec 32) (k k' : Fin n) : Bool :=
  IntOp.cmpi .slt (s (ix1 k)) (s (ix1 k')) == 1#1

theorem keyBefore_iff {n : Nat} (s : (⟨1, ![n]⟩ : Shape).Idx → BitVec 32) (k k' : Fin n) :
    keyBefore s k k' = true ↔ (s (ix1 k)).toInt < (s (ix1 k')).toInt := by
  unfold keyBefore
  rw [show IntOp.cmpi .slt (s (ix1 k)) (s (ix1 k')) = BitVec.ofBool ((s (ix1 k)).slt (s (ix1 k'))) from rfl, ofBool_beq_one]
  exact BitVec.slt_iff_toInt_lt

theorem keyBefore_false_iff {n : Nat} (s : (⟨1, ![n]⟩ : Shape).Idx → BitVec 32) (k k' : Fin n) :
    keyBefore s k k' = false ↔ (s (ix1 k')).toInt ≤ (s (ix1 k)).toInt := by
  rw [← Bool.not_eq_true, keyBefore_iff]; omega

/-- The source position of sorted position `p` under the stable sort by the keys. -/
def argPerm {n : Nat} (s : (⟨1, ![n]⟩ : Shape).Idx → BitVec 32) : Fin n → Fin n := sortedFrom (keyBefore s)

theorem argPerm_bijective {n : Nat} (s : (⟨1, ![n]⟩ : Shape).Idx → BitVec 32) : Function.Bijective (argPerm s) :=
  ⟨sortedFrom_injective _, sortedFrom_surjective _⟩

/-- The keys read through the sorting permutation do not decrease. -/
theorem argPerm_mono {n : Nat} (s : (⟨1, ![n]⟩ : Shape).Idx → BitVec 32) (i j : Fin n) (hij : i ≤ j) :
    (s (ix1 (argPerm s i))).toInt ≤ (s (ix1 (argPerm s j))).toInt := by
  rcases lt_or_eq_of_le hij with h | rfl
  · have hno := sortedFrom_noInversion (keyBefore s) (keyBefore s)
      (fun a b hab => by rw [keyBefore_false_iff]; have := (keyBefore_iff s a b).mp hab; omega)
      (fun _ _ hab => hab)
      (fun a b c h₁ h₂ => by rw [keyBefore_false_iff] at h₁ h₂ ⊢; omega) i j h
    exact (keyBefore_false_iff s _ _).mp hno
  · exact le_refl _

/-- A two-operand sort of vectors reads its second operand through the stable sorting permutation of the pairs. -/
theorem sort2_snd_rank1 {n : Nat} {α β : Type} (cmp : α × β → α × β → BitVec 1) (x : (⟨1, ![n]⟩ : Shape).Idx → α)
    (y : (⟨1, ![n]⟩ : Shape).Idx → β) (j : (⟨1, ![n]⟩ : Shape).Idx) :
    (Host.sort2 ⟨1, ![n]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-- The argsort (a sort of the keys carrying the position numbers, compared on the keys alone) holds at `p` the
    number of the source position. -/
theorem argsort_apply {n : Nat} (cmp : BitVec 32 × BitVec 32 → BitVec 32 × BitVec 32 → BitVec 1)
    (hcmp : ∀ l r, cmp l r = IntOp.cmpi .slt l.1 r.1) (s : (⟨1, ![n]⟩ : Shape).Idx → BitVec 32) (p : Fin n) :
    (Host.sort2 ⟨1, ![n]⟩ 0 cmp s (iotaInDim ⟨1, ![n]⟩ 32 0)).2 (ix1 p) = BitVec.ofNat 32 (argPerm s p).val := by
  rw [sort2_snd_rank1]
  have e : (fun k k' : Fin n => cmp (s (Shape.Idx.ofFin k), iotaInDim ⟨1, ![n]⟩ 32 0 (Shape.Idx.ofFin k))
      (s (Shape.Idx.ofFin k'), iotaInDim ⟨1, ![n]⟩ 32 0 (Shape.Idx.ofFin k')) == 1#1) = keyBefore s := by
    funext k k'; rw [hcmp, ofFin_eq_ix1, ofFin_eq_ix1]; rfl
  rw [e]
  rfl

/-! ## The take at a vector of position numbers -/

/-- A position number below 2^31 is not negative. -/
theorem slt_ofNat_zero (k : Nat) (hk : k < 2 ^ 31) : IntOp.cmpi .slt (BitVec.ofNat 32 k) 0#32 = 0#1 := by
  have h : (BitVec.ofNat 32 k).slt 0#32 = false := by
    rw [← Bool.not_eq_true]; intro h
    have := BitVec.slt_iff_toInt_lt.mp h
    rw [Predicate.toInt_ofNat_small _ hk] at this
    have h0 : (0#32 : BitVec 32).toInt = 0 := by decide
    omega
  show BitVec.ofBool ((BitVec.ofNat 32 k).slt 0#32) = 0#1
  rw [h]; rfl

/-- The gather of `x` at the column of the normalised index vector `select (perm < 0) (perm + ext) perm`, where
    `perm`'s words are the numbers of the positions `σ p`: the normalisation and the clamp are the identity, and the
    result at `p` is `x` at `σ p`. -/
theorem take_perm_apply {α : Type} {n : Nat} (hn0 : 0 < n) (hn : n < 2 ^ 31)
    (d : GatherDims ⟨1, ![n]⟩ ⟨2, ![n, 1]⟩ ⟨1, ![n]⟩)
    (hcoll : d.collapsedSliceDims = [0]) (hob : d.operandBatchingDims = []) (hsim : d.startIndexMap = [0])
    (hivd : d.indexVectorDim = 1) (hb : (⟨1, ![n]⟩ : Shape).BroadcastsInDim ⟨2, ![n, 1]⟩ ![0])
    (x : (⟨1, ![n]⟩ : Shape).Idx → α) (perm zero ext : (⟨1, ![n]⟩ : Shape).Idx → BitVec 32) (σ : Fin n → Fin n)
    (hperm : ∀ p, perm (ix1 p) = BitVec.ofNat 32 (σ p).val) (hzero : ∀ p, zero (ix1 p) = 0#32) (p : Fin n) :
    Host.gather d x (broadcastInDim ⟨2, ![n, 1]⟩ ![0] hb (select (cmpi .slt perm zero) (addi perm ext) perm)) (ix1 p)
      = x (ix1 (σ p)) := by
  rw [← ofFin_eq_ix1 p, Predicate.gather_take d hcoll hob hsim hivd x _ p hn0, ← ofFin_eq_ix1 (σ p)]
  refine congrArg (fun q => x (Shape.Idx.ofFin q)) (Fin.ext ?_)
  show min _ (n - 1) = (σ p).val
  rw [Predicate.bcast_col1, ofFin_eq_ix1]
  show min (Scalar.select (IntOp.cmpi .slt (perm (ix1 p)) (zero (ix1 p))) (IntOp.addi (perm (ix1 p)) (ext (ix1 p)))
    (perm (ix1 p))).toInt.toNat (n - 1) = (σ p).val
  have hσ := (σ p).isLt
  rw [hperm, hzero, slt_ofNat_zero _ (by omega), select_zero, Predicate.toInt_ofNat_small _ (by omega), Int.toNat_natCast]
  exact Nat.min_eq_left (by omega)

/-! ## A vector padded behind -/

/-- The concatenation of a vector of `n₁` entries and one of `n₂` reads the first below `n₁` … -/
theorem pad_apply_left {α : Type} {n₁ n₂ n : Nat} (a : (⟨1, ![n₁]⟩ : Shape).Idx → α) (b : (⟨1, ![n₂]⟩ : Shape).Idx → α)
    (h : Shape.Concatenates [(⟨1, ![n₁]⟩ : Shape), ⟨1, ![n₂]⟩] ⟨1, ![n]⟩ 0) (q : Fin n) (hq : q.val < n₁) :
    concatenate ⟨1, ![n]⟩ 0 [⟨⟨1, ![n₁]⟩, a⟩, ⟨⟨1, ![n₂]⟩, b⟩] h (ix1 q) = a (ix1 ⟨q.val, hq⟩) :=
  concatenate_pair_apply_left 0 a b h (ix1 q) rfl (ix1 ⟨q.val, hq⟩) (fun b => by match b with | ⟨0, _⟩ => rfl)

/-- … and the second from `n₁` on. -/
theorem pad_apply_right {α : Type} {n₁ n₂ n : Nat} (a : (⟨1, ![n₁]⟩ : Shape).Idx → α) (b : (⟨1, ![n₂]⟩ : Shape).Idx → α)
    (h : Shape.Concatenates [(⟨1, ![n₁]⟩ : Shape), ⟨1, ![n₂]⟩] ⟨1, ![n]⟩ 0) (q : Fin n) (r : Fin n₂) (hq : r.val + n₁ = q.val) :
    concatenate ⟨1, ![n]⟩ 0 [⟨⟨1, ![n₁]⟩, a⟩, ⟨⟨1, ![n₂]⟩, b⟩] h (ix1 q) = b (ix1 r) :=
  concatenate_pair_apply_right 0 a b h (ix1 q) rfl rfl (ix1 r)
    (fun b hb => by match b with | ⟨0, _⟩ => exact absurd rfl hb) hq

/-! ## Floor division of a non-negative word by 1000 -/

/-- The integer sign of a word: 0, -1 or 1. -/
def sgn (w : BitVec 32) : BitVec 32 := if w = 0#32 then 0#32 else if w.msb then -1 else 1

theorem divsi_1000 (x : BitVec 32) (hx : x.toNat < 2 ^ 31) :
    IntOp.divsi .host x 1000#32 = BitVec.ofNat 32 (x.toNat / 1000) := by
  have hmsb : x.msb = false := by rw [BitVec.msb_eq_false_iff_two_mul_lt]; omega
  have hcorner : ¬ IntOp.SDivCorner x 1000#32 := by
    unfold IntOp.SDivCorner
    rintro (h | ⟨_, h⟩) <;> exact absurd h (by decide)
  unfold IntOp.divsi
  rw [if_neg hcorner]
  rw [BitVec.sdiv_eq, hmsb]
  show x / 1000#32 = _
  apply BitVec.eq_of_toNat_eq
  rw [BitVec.toNat_udiv]
  show x.toNat / 1000 = (BitVec.ofNat 32 (x.toNat / 1000)).toNat
  rw [BitVec.toNat_ofNat, Nat.mod_eq_of_lt (by omega)]

/-- The floor division by 1000 as it lowers — the truncating quotient, less one where the signs differ and the
    remainder is not zero — is, on a non-negative word, the quotient of the values. -/
theorem floordiv_1000 (x : BitVec 32) (hx : x.toNat < 2 ^ 31) :
    Scalar.select (IntOp.andi (IntOp.cmpi .ne (sgn x) (sgn 1000#32)) (IntOp.cmpi .ne (IntOp.remsi .host x 1000#32) 0#32))
      (IntOp.subi (IntOp.divsi .host x 1000#32) 1#32) (IntOp.divsi .host x 1000#32)
      = BitVec.ofNat 32 (x.toNat / 1000) := by
  have hc : IntOp.andi (IntOp.cmpi .ne (sgn x) (sgn 1000#32)) (IntOp.cmpi .ne (IntOp.remsi .host x 1000#32) 0#32) = 0#1 := by
    by_cases hx0 : x = 0#32
    · subst hx0
      have : IntOp.cmpi .ne (IntOp.remsi .host 0#32 1000#32) 0#32 = 0#1 := by decide
      rw [this]; unfold IntOp.andi; exact BitVec.and_zero
    · have hmsb : x.msb = false := by rw [BitVec.msb_eq_false_iff_two_mul_lt]; omega
      have h1 : sgn x = 1#32 := by unfold sgn; rw [if_neg hx0, hmsb]; rfl
      have h2 : sgn 1000#32 = 1#32 := by decide
      rw [h1, h2, show IntOp.cmpi .ne 1#32 1#32 = 0#1 from by decide]
      unfold IntOp.andi; exact BitVec.zero_and
  rw [hc, select_zero, divsi_1000 x hx]

attribute [irreducible] argPerm

end Cert.SortTake
-- ==== Proof.HostChain.lean ====
/-
  What @main's host operations leave in the buffers the two message-passing launches read.

  The edge table's two rows are the gather and the scatter index of the first pass, and exchange roles in the second.
  Each pass pads the three edge arrays to 489 · 4096 positions (gather index 0, scatter index 10000, weight 0 on the
  2944 pad positions), sorts the positions by scatter index with a stable signed sort, and reads the three padded
  arrays through the sorting permutation σ. So each sorted array at position p is the padded array at σ p, σ is a
  bijection of the positions, and the sorted scatter indices do not decrease. The two per-chunk tables are the first and
  the last scatter index of each chunk of 4096 positions, floor-divided by the tile size 1000. Beside these, the node
  states reshaped 8 × 10000, their tanh transposed 10000 × 8, and 1 − tanh² are read at an index.
-/
import proofs.«400082_j83537113907851_4_alg».proof.Proof.Gen.KernelIdeal.Regions
import proofs.«400082_j83537113907851_4_alg».proof.Proof.Spec
import proofs.«400082_j83537113907851_4_alg».proof.Proof.KSpec
import proofs.«400082_j83537113907851_4_alg».proof.Proof.Regroup
import proofs.«400082_j83537113907851_4_alg».proof.Proof.HostChainLib
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

set_option maxRecDepth 1348

noncomputable section

namespace Cert.KernelIdeal.HostChain

open Idealize.ShloMosaic Idealize.ShloMosaic.TcCoe Idealize.ShloMosaic.ValueIdx Idealize.ShloMosaic.StableHlo
open Cert.KernelIdeal Cert.KernelIdeal.Gen Cert.SortTake Cert.Regroup

/-! ## Layout readings over literal shapes -/

/-- Row `r` of the 2 × 2000000 table cut out and flattened reads the table's row. -/
theorem row0_apply (X : S2x2000000.Idx → BitVec 32) (h₁ : S2x2000000.Slices ![0, 0] S1x2000000)
    (h₂ : S1x2000000.ShapeCasts S2000000) (e : Fin 2000000) :
    shapeCast S2000000 (extractStridedSlice S1x2000000 ![0, 0] X h₁) h₂ (ValueIdx.ix1 e) = X (ValueIdx.ix2 (0 : Fin 2) e) :=
  (shapeCast_1a_a_apply _ h₂ e).trans (slice2_axis0_apply 0 X h₁ (0 : Fin 1) e (0 : Fin 2) rfl)

theorem row1_apply (X : S2x2000000.Idx → BitVec 32) (h₁ : S2x2000000.Slices ![1, 0] S1x2000000)
    (h₂ : S1x2000000.ShapeCasts S2000000) (e : Fin 2000000) :
    shapeCast S2000000 (extractStridedSlice S1x2000000 ![1, 0] X h₁) h₂ (ValueIdx.ix1 e) = X (ValueIdx.ix2 (1 : Fin 2) e) :=
  (shapeCast_1a_a_apply _ h₂ e).trans (slice2_axis0_apply 1 X h₁ (0 : Fin 1) e (1 : Fin 2) rfl)

/-- Column `o` of the sorted scatter indices laid out 489 × 4096, as a vector of 489 entries: entry `k` is position
    `4096 k + o` of the sorted array. -/
theorem chunk_col_apply (Y : S2002944.Idx → BitVec 32) (o : Nat) (ho : o < 4096) (h₁ : S2002944.ShapeCasts S489x4096)
    (h₂ : S489x4096.Slices ![0, o] S489x1) (h₃ : S489x1.ShapeCasts S489) (k : Fin 489) :
    shapeCast S489 (extractStridedSlice S489x1 ![0, o] (shapeCast S489x4096 Y h₁) h₂) h₃ (ValueIdx.ix1 k)
      = Y (ValueIdx.ix1 (Cert.KSpec.pos k ⟨o, ho⟩)) := by
  refine (shapeCast_apply _ h₃ (ValueIdx.ix1 k) (ValueIdx.ix2 k (0 : Fin 1)) ?_).trans ?_
  · rw [Shape.rowMajor_val_two, Shape.rowMajor_val_one]
    show k.val * 1 + 0 = k.val
    omega
  refine (slice2_axis1_apply o _ h₂ k (0 : Fin 1) ⟨o, ho⟩ rfl).trans ?_
  refine shapeCast_apply Y h₁ (ValueIdx.ix2 k ⟨o, ho⟩) (ValueIdx.ix1 (Cert.KSpec.pos k ⟨o, ho⟩)) ?_
  rw [Shape.rowMajor_val_two, Shape.rowMajor_val_one]
  rfl

/-- A padded scatter index is at most the sentinel 10000. -/
theorem sPad_toNat_le (sw : Fin 2000000 → BitVec 32) (hsw : ∀ e, (sw e).toNat < 10000) (q : Fin 2002944) :
    (sPad sw q).toNat ≤ 10000 := by
  unfold sPad
  split
  · exact le_of_lt (hsw _)
  · decide

/-- The padded scatter indices read through their own sorting permutation do not decrease, as natural numbers. -/
theorem sorted_through (sw : Fin 2000000 → BitVec 32) (hsw : ∀ e, (sw e).toNat < 10000) (S : S2002944.Idx → BitVec 32)
    (hS : ∀ q, S (ValueIdx.ix1 q) = sPad sw q) (p p' : Fin 2002944) (hp : p ≤ p') :
    (S (ValueIdx.ix1 (argPerm S p))).toNat ≤ (S (ValueIdx.ix1 (argPerm S p'))).toNat := by
  have h := argPerm_mono S p p' hp
  have b₁ := sPad_toNat_le sw hsw (argPerm S p)
  have b₂ := sPad_toNat_le sw hsw (argPerm S p')
  rw [← hS] at b₁ b₂
  rw [Predicate.toInt_eq_toNat_of_lt (a := S (ValueIdx.ix1 (argPerm S p))) (by omega),
    Predicate.toInt_eq_toNat_of_lt (a := S (ValueIdx.ix1 (argPerm S p'))) (by omega)] at h
  omega

/-! ## The floor division of a vector of 489 words by a scalar, as it lowers -/

/-- The lowered `floor_divide a c`: the truncating quotient, less one where the signs differ and the remainder is not 0. -/
def floorDivV (a : S489.Idx → BitVec 32) (c : S_.Idx → BitVec 32) : S489.Idx → BitVec 32 :=
  select
    (andi (cmpi .ne (signi a) (broadcastInDim S489 ![] bcast_S_S489 (signi c)))
      (cmpi .ne (Host.remsi a (broadcastInDim S489 ![] bcast_S_S489 c))
        (broadcastInDim S489 ![] bcast_S_S489 (constantI S_ 32 0#32))))
    (subi (Host.divsi a (broadcastInDim S489 ![] bcast_S_S489 c))
      (broadcastInDim S489 ![] bcast_S_S489 (constantI S_ 32 1#32)))
    (Host.divsi a (broadcastInDim S489 ![] bcast_S_S489 c))

/-- At a non-negative entry and the divisor 1000 it is the quotient of the values. -/
theorem floorDivV_apply (a : S489.Idx → BitVec 32) (c : S_.Idx → BitVec 32) (k : Fin 489) (hc : c ValueIdx.ix0 = 1000#32)
    (ha : (a (ValueIdx.ix1 k)).toNat < 2 ^ 31) : floorDivV a c (ValueIdx.ix1 k) = BitVec.ofNat 32 ((a (ValueIdx.ix1 k)).toNat / 1000) := by
  have hb : ∀ v : S_.Idx → BitVec 32, broadcastInDim S489 ![] bcast_S_S489 v (ValueIdx.ix1 k) = v ValueIdx.ix0 :=
    fun v => broadcastInDim_scalar_apply _ v _
  show Scalar.select
      (IntOp.andi (IntOp.cmpi .ne (sgn (a (ValueIdx.ix1 k))) (broadcastInDim S489 ![] bcast_S_S489 (signi c) (ValueIdx.ix1 k)))
        (IntOp.cmpi .ne (IntOp.remsi .host (a (ValueIdx.ix1 k)) (broadcastInDim S489 ![] bcast_S_S489 c (ValueIdx.ix1 k)))
          (broadcastInDim S489 ![] bcast_S_S489 (constantI S_ 32 0#32) (ValueIdx.ix1 k))))
      (IntOp.subi (IntOp.divsi .host (a (ValueIdx.ix1 k)) (broadcastInDim S489 ![] bcast_S_S489 c (ValueIdx.ix1 k)))
        (broadcastInDim S489 ![] bcast_S_S489 (constantI S_ 32 1#32) (ValueIdx.ix1 k)))
      (IntOp.divsi .host (a (ValueIdx.ix1 k)) (broadcastInDim S489 ![] bcast_S_S489 c (ValueIdx.ix1 k))) = _
  simp only [hb]
  have hs : signi c ValueIdx.ix0 = sgn (c ValueIdx.ix0) := rfl
  rw [hs, hc]
  exact floordiv_1000 _ ha

/-- The index column a take-gather reads: the index vector `P` with a negative word moved up by the extent
    (`select (P < 0) (P + 2002944) P`), as a 2002944 × 1 table. -/
abbrev normIdx (P : S2002944.Idx → BitVec 32) : S2002944x1.Idx → BitVec 32 :=
  broadcastInDim S2002944x1 ![0] bcast_S2002944_S2002944x1_0
    (select (cmpi .slt P (broadcastInDim S2002944 ![] bcast_S_S2002944 (constantI S_ 32 0#32)))
      (addi P (broadcastInDim S2002944 ![] bcast_S_S2002944 (constantI S_ 32 2002944#32))) P)

/-! ## The host stretches, each from an arbitrary valuation `W` of the buffers it reads -/

section Stretches

variable (W : Valuation τ sig (Elt Ideal))

theorem s0_v0 : (StableHlo.after (hostOps0 (F := Ideal)) W main_v0 : S8x10000.Idx → EReal)
    = shapeCast S8x10000 (W main_arg0 : S80000.Idx → EReal) shapeCasts_S80000_S8x10000 := by
  dsimp only [hostOps0]; after_results_simp <;> rfl

theorem s0_v1 : (StableHlo.after (hostOps0 (F := Ideal)) W main_v1 : S8x10000.Idx → EReal)
    = Host.tanh (F := Ideal) (φ := .f32) (shapeCast S8x10000 (W main_arg0 : S80000.Idx → EReal) shapeCasts_S80000_S8x10000) := by
  dsimp only [hostOps0]; after_results_simp <;> rfl

theorem s0_v4 : (StableHlo.after (hostOps0 (F := Ideal)) W main_v4 : S8x10000.Idx → EReal)
    = subf (F := Ideal) (φ := .f32) (broadcastInDim S8x10000 ![] bcast_S_S8x10000 (constant (F := Ideal) S_ .f32 0x3F800000#32))
        (mulf (F := Ideal) (φ := .f32) (Host.tanh (F := Ideal) (φ := .f32) (shapeCast S8x10000 (W main_arg0 : S80000.Idx → EReal) shapeCasts_S80000_S8x10000))
          (Host.tanh (F := Ideal) (φ := .f32) (shapeCast S8x10000 (W main_arg0 : S80000.Idx → EReal) shapeCasts_S80000_S8x10000))) := by
  dsimp only [hostOps0]; after_results_simp <;> rfl

theorem s0_v6 : (StableHlo.after (hostOps0 (F := Ideal)) W main_v6 : S2000000.Idx → BitVec 32)
    = shapeCast S2000000 (extractStridedSlice S1x2000000 ![0, 0] (W main_arg2 : S2x2000000.Idx → BitVec 32)
        slices_S2x2000000_S1x2000000_0_0) shapeCasts_S1x2000000_S2000000 := by
  dsimp only [hostOps0]; after_results_simp <;> rfl

theorem s0_v8 : (StableHlo.after (hostOps0 (F := Ideal)) W main_v8 : S2000000.Idx → BitVec 32)
    = shapeCast S2000000 (extractStridedSlice S1x2000000 ![1, 0] (W main_arg2 : S2x2000000.Idx → BitVec 32)
        slices_S2x2000000_S1x2000000_1_0) shapeCasts_S1x2000000_S2000000 := by
  dsimp only [hostOps0]; after_results_simp <;> rfl

theorem s0_v12 : (StableHlo.after (hostOps0 (F := Ideal)) W main_v12 : S2002944.Idx → BitVec 32)
    = concatenate S2002944 0
        [⟨S2000000, shapeCast S2000000 (extractStridedSlice S1x2000000 ![0, 0] (W main_arg2 : S2x2000000.Idx → BitVec 32)
            slices_S2x2000000_S1x2000000_0_0) shapeCasts_S1x2000000_S2000000⟩,
          ⟨S2944, broadcastInDim S2944 ![] bcast_S_S2944 (constantI S_ 32 0#32)⟩]
        concatenates_S2000000_S2944_S2002944_d0 := by
  dsimp only [hostOps0]; after_results_simp <;> rfl

theorem s0_v13 : (StableHlo.after (hostOps0 (F := Ideal)) W main_v13 : S2002944.Idx → BitVec 32)
    = concatenate S2002944 0
        [⟨S2000000, shapeCast S2000000 (extractStridedSlice S1x2000000 ![1, 0] (W main_arg2 : S2x2000000.Idx → BitVec 32)
            slices_S2x2000000_S1x2000000_1_0) shapeCasts_S1x2000000_S2000000⟩,
          ⟨S2944, broadcastInDim S2944 ![] bcast_S_S2944 (constantI S_ 32 10000#32)⟩]
        concatenates_S2000000_S2944_S2002944_d0 := by
  dsimp only [hostOps0]; after_results_simp <;> rfl

theorem s0_v14 : (StableHlo.after (hostOps0 (F := Ideal)) W main_v14 : S2002944.Idx → EReal)
    = concatenate S2002944 0
        [⟨S2000000, (W main_arg1 : S2000000.Idx → EReal)⟩,
          ⟨S2944, broadcastInDim S2944 ![] bcast_S_S2944 (constant (F := Ideal) S_ .f32 0x00000000#32)⟩]
        concatenates_S2000000_S2944_S2002944_d0 := by
  dsimp only [hostOps0]; after_results_simp <;> rfl

theorem s1_v15 : (StableHlo.after (hostOps0_1 (F := Ideal)) W main_v15 : S2002944.Idx → BitVec 32)
    = (Host.sort2 S2002944 0 comparator_i32_i32_d0 (W main_v13 : S2002944.Idx → BitVec 32) (iotaInDim S2002944 32 0)).2 := by
  dsimp only [hostOps0_1]; after_results_simp <;> rfl

theorem s2_v22 : (StableHlo.after (hostOps0_2 (F := Ideal)) W main_v22 : S2002944.Idx → BitVec 32)
    = Host.gather gather_S2002944_S2002944x1_S2002944_n_0_n_n_0_1_1 (W main_v12 : S2002944.Idx → BitVec 32)
      (normIdx (W main_v15 : S2002944.Idx → BitVec 32)) := by
  dsimp only [hostOps0_2]; after_results_simp <;> rfl

theorem s2_v29 : (StableHlo.after (hostOps0_2 (F := Ideal)) W main_v29 : S2002944.Idx → BitVec 32)
    = Host.gather gather_S2002944_S2002944x1_S2002944_n_0_n_n_0_1_1 (W main_v13 : S2002944.Idx → BitVec 32)
      (normIdx (W main_v15 : S2002944.Idx → BitVec 32)) := by
  dsimp only [hostOps0_2]; after_results_simp <;> rfl

theorem s2_v36 : (StableHlo.after (hostOps0_2 (F := Ideal)) W main_v36 : S2002944.Idx → EReal)
    = Host.gather gather_S2002944_S2002944x1_S2002944_n_0_n_n_0_1_1 (W main_v14 : S2002944.Idx → EReal)
      (normIdx (W main_v15 : S2002944.Idx → BitVec 32)) := by
  dsimp only [hostOps0_2]; after_results_simp <;> rfl

theorem s2_v37 : (StableHlo.after (hostOps0_2 (F := Ideal)) W main_v37 : S489x4096.Idx → BitVec 32)
    = shapeCast S489x4096 (StableHlo.after (hostOps0_2 (F := Ideal)) W main_v29 : S2002944.Idx → BitVec 32) shapeCasts_S2002944_S489x4096 := by
  dsimp only [hostOps0_2]; after_results_simp <;> rfl

theorem s2_v39 : (StableHlo.after (hostOps0_2 (F := Ideal)) W main_v39 : S489.Idx → BitVec 32)
    = shapeCast S489 (extractStridedSlice S489x1 ![0, 0]
        (shapeCast S489x4096 (StableHlo.after (hostOps0_2 (F := Ideal)) W main_v29 : S2002944.Idx → BitVec 32) shapeCasts_S2002944_S489x4096)
        slices_S489x4096_S489x1_0_0) shapeCasts_S489x1_S489 := by
  dsimp only [hostOps0_2]; after_results_simp <;> rfl

theorem s2_c8 : (StableHlo.after (hostOps0_2 (F := Ideal)) W main_c_8 : S_.Idx → BitVec 32) = constantI S_ 32 1000#32 := by
  dsimp only [hostOps0_2]; after_results_simp <;> rfl

theorem s3_v40 : (StableHlo.after (hostOps0_3 (F := Ideal)) W main_v40 : S489.Idx → BitVec 32)
    = floorDivV (W main_v39 : S489.Idx → BitVec 32) (W main_c_8 : S_.Idx → BitVec 32) := by
  dsimp only [hostOps0_3]; after_results_simp <;> rfl

theorem s4_v42 : (StableHlo.after (hostOps0_4 (F := Ideal)) W main_v42 : S489.Idx → BitVec 32)
    = shapeCast S489 (extractStridedSlice S489x1 ![0, 4095] (W main_v37 : S489x4096.Idx → BitVec 32)
        slices_S489x4096_S489x1_0_4095) shapeCasts_S489x1_S489 := by
  dsimp only [hostOps0_4]; after_results_simp <;> rfl

theorem s4_c9 : (StableHlo.after (hostOps0_4 (F := Ideal)) W main_c_9 : S_.Idx → BitVec 32) = constantI S_ 32 1000#32 := by
  dsimp only [hostOps0_4]; after_results_simp <;> rfl

theorem s5_v43 : (StableHlo.after (hostOps0_5 (F := Ideal)) W main_v43 : S489.Idx → BitVec 32)
    = floorDivV (W main_v42 : S489.Idx → BitVec 32) (W main_c_9 : S_.Idx → BitVec 32) := by
  dsimp only [hostOps0_5]; after_results_simp <;> rfl

theorem s6_v47 : (StableHlo.after (hostOps0_6 (F := Ideal)) W main_v47 : S2002944.Idx → BitVec 32)
    = concatenate S2002944 0
        [⟨S2000000, (W main_v8 : S2000000.Idx → BitVec 32)⟩,
          ⟨S2944, broadcastInDim S2944 ![] bcast_S_S2944 (constantI S_ 32 0#32)⟩]
        concatenates_S2000000_S2944_S2002944_d0 := by
  dsimp only [hostOps0_6]; after_results_simp <;> rfl

theorem s6_v48 : (StableHlo.after (hostOps0_6 (F := Ideal)) W main_v48 : S2002944.Idx → BitVec 32)
    = concatenate S2002944 0
        [⟨S2000000, (W main_v6 : S2000000.Idx → BitVec 32)⟩,
          ⟨S2944, broadcastInDim S2944 ![] bcast_S_S2944 (constantI S_ 32 10000#32)⟩]
        concatenates_S2000000_S2944_S2002944_d0 := by
  dsimp only [hostOps0_6]; after_results_simp <;> rfl

theorem s6_v49 : (StableHlo.after (hostOps0_6 (F := Ideal)) W main_v49 : S2002944.Idx → EReal)
    = concatenate S2002944 0
        [⟨S2000000, (W main_arg1 : S2000000.Idx → EReal)⟩,
          ⟨S2944, broadcastInDim S2944 ![] bcast_S_S2944 (constant (F := Ideal) S_ .f32 0x00000000#32)⟩]
        concatenates_S2000000_S2944_S2002944_d0 := by
  dsimp only [hostOps0_6]; after_results_simp <;> rfl

theorem s7_v50 : (StableHlo.after (hostOps0_7 (F := Ideal)) W main_v50 : S2002944.Idx → BitVec 32)
    = (Host.sort2 S2002944 0 comparator_i32_i32_d0 (W main_v48 : S2002944.Idx → BitVec 32) (iotaInDim S2002944 32 0)).2 := by
  dsimp only [hostOps0_7]; after_results_simp <;> rfl

theorem s8_v57 : (StableHlo.after (hostOps0_8 (F := Ideal)) W main_v57 : S2002944.Idx → BitVec 32)
    = Host.gather gather_S2002944_S2002944x1_S2002944_n_0_n_n_0_1_1 (W main_v47 : S2002944.Idx → BitVec 32)
      (normIdx (W main_v50 : S2002944.Idx → BitVec 32)) := by
  dsimp only [hostOps0_8]; after_results_simp <;> rfl

theorem s8_v64 : (StableHlo.after (hostOps0_8 (F := Ideal)) W main_v64 : S2002944.Idx → BitVec 32)
    = Host.gather gather_S2002944_S2002944x1_S2002944_n_0_n_n_0_1_1 (W main_v48 : S2002944.Idx → BitVec 32)
      (normIdx (W main_v50 : S2002944.Idx → BitVec 32)) := by
  dsimp only [hostOps0_8]; after_results_simp <;> rfl

theorem s8_v71 : (StableHlo.after (hostOps0_8 (F := Ideal)) W main_v71 : S2002944.Idx → EReal)
    = Host.gather gather_S2002944_S2002944x1_S2002944_n_0_n_n_0_1_1 (W main_v49 : S2002944.Idx → EReal)
      (normIdx (W main_v50 : S2002944.Idx → BitVec 32)) := by
  dsimp only [hostOps0_8]; after_results_simp <;> rfl

theorem s8_v72 : (StableHlo.after (hostOps0_8 (F := Ideal)) W main_v72 : S489x4096.Idx → BitVec 32)
    = shapeCast S489x4096 (StableHlo.after (hostOps0_8 (F := Ideal)) W main_v64 : S2002944.Idx → BitVec 32) shapeCasts_S2002944_S489x4096 := by
  dsimp only [hostOps0_8]; after_results_simp <;> rfl

theorem s8_v74 : (StableHlo.after (hostOps0_8 (F := Ideal)) W main_v74 : S489.Idx → BitVec 32)
    = shapeCast S489 (extractStridedSlice S489x1 ![0, 0]
        (shapeCast S489x4096 (StableHlo.after (hostOps0_8 (F := Ideal)) W main_v64 : S2002944.Idx → BitVec 32) shapeCasts_S2002944_S489x4096)
        slices_S489x4096_S489x1_0_0) shapeCasts_S489x1_S489 := by
  dsimp only [hostOps0_8]; after_results_simp <;> rfl

theorem s8_c19 : (StableHlo.after (hostOps0_8 (F := Ideal)) W main_c_19 : S_.Idx → BitVec 32) = constantI S_ 32 1000#32 := by
  dsimp only [hostOps0_8]; after_results_simp <;> rfl

theorem s9_v75 : (StableHlo.after (hostOps0_9 (F := Ideal)) W main_v75 : S489.Idx → BitVec 32)
    = floorDivV (W main_v74 : S489.Idx → BitVec 32) (W main_c_19 : S_.Idx → BitVec 32) := by
  dsimp only [hostOps0_9]; after_results_simp <;> rfl

theorem s10_v77 : (StableHlo.after (hostOps0_10 (F := Ideal)) W main_v77 : S489.Idx → BitVec 32)
    = shapeCast S489 (extractStridedSlice S489x1 ![0, 4095] (W main_v72 : S489x4096.Idx → BitVec 32)
        slices_S489x4096_S489x1_0_4095) shapeCasts_S489x1_S489 := by
  dsimp only [hostOps0_10]; after_results_simp <;> rfl

theorem s10_c20 : (StableHlo.after (hostOps0_10 (F := Ideal)) W main_c_20 : S_.Idx → BitVec 32) = constantI S_ 32 1000#32 := by
  dsimp only [hostOps0_10]; after_results_simp <;> rfl

theorem s11_v78 : (StableHlo.after (hostOps0_11 (F := Ideal)) W main_v78 : S489.Idx → BitVec 32)
    = floorDivV (W main_v77 : S489.Idx → BitVec 32) (W main_c_20 : S_.Idx → BitVec 32) := by
  dsimp only [hostOps0_11]; after_results_simp <;> rfl

theorem s12_v79 : (StableHlo.after (hostOps0_12 (F := Ideal)) W main_v79 : S10000x8.Idx → EReal)
    = transpose S10000x8 [1, 0] (W main_v1 : S8x10000.Idx → EReal) transposes_S8x10000_S10000x8_1_0 := by
  dsimp only [hostOps0_12]; after_results_simp <;> rfl

end Stretches

/-! ## The padded arrays -/

section Pads

variable (W : Valuation τ sig (Elt Ideal))

theorem s0_v6_apply (e : Fin 2000000) :
    (StableHlo.after (hostOps0 (F := Ideal)) W main_v6 : S2000000.Idx → BitVec 32) (ValueIdx.ix1 e)
      = (W main_arg2 : S2x2000000.Idx → BitVec 32) (ValueIdx.ix2 (0 : Fin 2) e) :=
  (congrFun (s0_v6 W) (ValueIdx.ix1 e)).trans (row0_apply _ _ _ e)

theorem s0_v8_apply (e : Fin 2000000) :
    (StableHlo.after (hostOps0 (F := Ideal)) W main_v8 : S2000000.Idx → BitVec 32) (ValueIdx.ix1 e)
      = (W main_arg2 : S2x2000000.Idx → BitVec 32) (ValueIdx.ix2 (1 : Fin 2) e) :=
  (congrFun (s0_v8 W) (ValueIdx.ix1 e)).trans (row1_apply _ _ _ e)

/-- A vector of 2000000 words padded by 2944 copies of a scalar constant reads as the padded edge array. -/
theorem padI_apply (a : S2000000.Idx → BitVec 32) (z : BitVec 32) (h : Shape.Concatenates [S2000000, S2944] S2002944 0)
    (hb : S_.BroadcastsInDim S2944 (![] : Fin 0 → Fin S2944.rank)) (q : Fin 2002944) :
    concatenate S2002944 0 [⟨S2000000, a⟩, ⟨S2944, broadcastInDim S2944 ![] hb (constantI S_ 32 z)⟩] h (ValueIdx.ix1 q)
      = if hq : q.val < 2000000 then a (ValueIdx.ix1 ⟨q.val, hq⟩) else z := by
  by_cases hq : q.val < 2000000
  · rw [dif_pos hq]; exact pad_apply_left a _ h q hq
  · rw [dif_neg hq]
    refine (pad_apply_right a _ h q ⟨q.val - 2000000, by have := q.isLt; omega⟩
      (by show q.val - 2000000 + 2000000 = q.val; omega)).trans ?_
    exact broadcastInDim_scalar_apply _ _ _

theorem padF_apply (a : S2000000.Idx → EReal) (h : Shape.Concatenates [S2000000, S2944] S2002944 0)
    (hb : S_.BroadcastsInDim S2944 (![] : Fin 0 → Fin S2944.rank)) (q : Fin 2002944) :
    concatenate S2002944 0 [⟨S2000000, a⟩, ⟨S2944, broadcastInDim S2944 ![] hb (constant (F := Ideal) S_ .f32 0x00000000#32)⟩] h (ValueIdx.ix1 q)
      = if hq : q.val < 2000000 then a (ValueIdx.ix1 ⟨q.val, hq⟩) else 0 := by
  by_cases hq : q.val < 2000000
  · rw [dif_pos hq]; exact pad_apply_left a _ h q hq
  · rw [dif_neg hq]
    refine (pad_apply_right a _ h q ⟨q.val - 2000000, by have := q.isLt; omega⟩
      (by show q.val - 2000000 + 2000000 = q.val; omega)).trans ?_
    exact (broadcastInDim_scalar_apply _ _ _).trans Ideal.ofBits_zero_f32

theorem s0_v12_apply (q : Fin 2002944) :
    (StableHlo.after (hostOps0 (F := Ideal)) W main_v12 : S2002944.Idx → BitVec 32) (ValueIdx.ix1 q)
      = gPad (fun e => (W main_arg2 : S2x2000000.Idx → BitVec 32) (ValueIdx.ix2 (0 : Fin 2) e)) q := by
  refine (congrFun (s0_v12 W) (ValueIdx.ix1 q)).trans ((padI_apply _ 0#32 _ _ q).trans ?_)
  unfold gPad
  split
  · exact row0_apply _ _ _ _
  · rfl

theorem s0_v13_apply (q : Fin 2002944) :
    (StableHlo.after (hostOps0 (F := Ideal)) W main_v13 : S2002944.Idx → BitVec 32) (ValueIdx.ix1 q)
      = sPad (fun e => (W main_arg2 : S2x2000000.Idx → BitVec 32) (ValueIdx.ix2 (1 : Fin 2) e)) q := by
  refine (congrFun (s0_v13 W) (ValueIdx.ix1 q)).trans ((padI_apply _ 10000#32 _ _ q).trans ?_)
  unfold sPad
  split
  · exact row1_apply _ _ _ _
  · rfl

theorem s0_v14_apply (q : Fin 2002944) :
    (StableHlo.after (hostOps0 (F := Ideal)) W main_v14 : S2002944.Idx → EReal) (ValueIdx.ix1 q)
      = wPad (Cert.Spec.wOf (W main_arg1 : S2000000.Idx → EReal)) q :=
  (congrFun (s0_v14 W) (ValueIdx.ix1 q)).trans (padF_apply _ _ _ q)

theorem s6_v47_apply (q : Fin 2002944) :
    (StableHlo.after (hostOps0_6 (F := Ideal)) W main_v47 : S2002944.Idx → BitVec 32) (ValueIdx.ix1 q)
      = gPad (fun e => (W main_v8 : S2000000.Idx → BitVec 32) (ValueIdx.ix1 e)) q :=
  (congrFun (s6_v47 W) (ValueIdx.ix1 q)).trans (padI_apply _ 0#32 _ _ q)

theorem s6_v48_apply (q : Fin 2002944) :
    (StableHlo.after (hostOps0_6 (F := Ideal)) W main_v48 : S2002944.Idx → BitVec 32) (ValueIdx.ix1 q)
      = sPad (fun e => (W main_v6 : S2000000.Idx → BitVec 32) (ValueIdx.ix1 e)) q :=
  (congrFun (s6_v48 W) (ValueIdx.ix1 q)).trans (padI_apply _ 10000#32 _ _ q)

theorem s6_v49_apply (q : Fin 2002944) :
    (StableHlo.after (hostOps0_6 (F := Ideal)) W main_v49 : S2002944.Idx → EReal) (ValueIdx.ix1 q)
      = wPad (Cert.Spec.wOf (W main_arg1 : S2000000.Idx → EReal)) q :=
  (congrFun (s6_v49 W) (ValueIdx.ix1 q)).trans (padF_apply _ _ _ q)

end Pads

/-! ## One pass's seven facts, from the readings of its stretches

`S` is the padded scatter index array and `P` the argsort's result; `G`, `Wt` the padded gather index and weight
arrays; `TG`, `TS`, `TW` the three arrays taken at the normalised `P`; `LO`, `HI` the two tables. -/

theorem pass_facts (gw sw : Fin 2000000 → BitVec 32) (w : Fin 2000000 → EReal) (hsw : ∀ e, (sw e).toNat < 10000)
    (G S P TG TS : S2002944.Idx → BitVec 32) (Wt TW : S2002944.Idx → EReal) (LO HI A0 A1 : S489.Idx → BitVec 32) (c0 c1 : S_.Idx → BitVec 32)
    (hG : ∀ q, G (ValueIdx.ix1 q) = gPad gw q) (hS : ∀ q, S (ValueIdx.ix1 q) = sPad sw q) (hW : ∀ q, Wt (ValueIdx.ix1 q) = wPad w q)
    (hP : P = (Host.sort2 S2002944 0 comparator_i32_i32_d0 S (iotaInDim S2002944 32 0)).2)
    (hTG : TG = Host.gather gather_S2002944_S2002944x1_S2002944_n_0_n_n_0_1_1 G (normIdx P))
    (hTS : TS = Host.gather gather_S2002944_S2002944x1_S2002944_n_0_n_n_0_1_1 S (normIdx P))
    (hTW : TW = Host.gather gather_S2002944_S2002944x1_S2002944_n_0_n_n_0_1_1 Wt (normIdx P))
    (hA0 : ∀ k, A0 (ValueIdx.ix1 k) = TS (ValueIdx.ix1 (Cert.KSpec.pos k ⟨0, by decide⟩)))
    (hA1 : ∀ k, A1 (ValueIdx.ix1 k) = TS (ValueIdx.ix1 (Cert.KSpec.pos k ⟨4095, by decide⟩)))
    (hc0 : c0 ValueIdx.ix0 = 1000#32) (hc1 : c1 ValueIdx.ix0 = 1000#32) (hLO : LO = floorDivV A0 c0) (hHI : HI = floorDivV A1 c1) :
    ∃ σ : Fin 2002944 → Fin 2002944, Function.Bijective σ
      ∧ (∀ p, TG (ValueIdx.ix1 p) = gPad gw (σ p)) ∧ (∀ p, TS (ValueIdx.ix1 p) = sPad sw (σ p)) ∧ (∀ p, TW (ValueIdx.ix1 p) = wPad w (σ p))
      ∧ (∀ p p' : Fin 2002944, p ≤ p' → (TS (ValueIdx.ix1 p)).toNat ≤ (TS (ValueIdx.ix1 p')).toNat)
      ∧ (∀ k : Fin 489, LO (ValueIdx.ix1 k) = BitVec.ofNat 32 ((TS (ValueIdx.ix1 (Cert.KSpec.pos k ⟨0, by decide⟩))).toNat / 1000))
      ∧ (∀ k : Fin 489, HI (ValueIdx.ix1 k) = BitVec.ofNat 32 ((TS (ValueIdx.ix1 (Cert.KSpec.pos k ⟨4095, by decide⟩))).toNat / 1000)) := by
  have hperm : ∀ p, P (ValueIdx.ix1 p) = BitVec.ofNat 32 (argPerm S p).val := fun p => by
    rw [hP]; exact argsort_apply comparator_i32_i32_d0 (fun _ _ => rfl) S p
  have hz : ∀ p : Fin 2002944, broadcastInDim S2002944 ![] bcast_S_S2002944 (constantI S_ 32 0#32) (ValueIdx.ix1 p) = 0#32 :=
    fun p => broadcastInDim_scalar_apply _ _ _
  have take : ∀ {α : Type} (x : S2002944.Idx → α) (p : Fin 2002944),
      Host.gather gather_S2002944_S2002944x1_S2002944_n_0_n_n_0_1_1 x (normIdx P) (ValueIdx.ix1 p) = x (ValueIdx.ix1 (argPerm S p)) :=
    fun x p => take_perm_apply (by decide) (by decide) gather_S2002944_S2002944x1_S2002944_n_0_n_n_0_1_1 rfl rfl rfl rfl
      bcast_S2002944_S2002944x1_0 x P _ _ (argPerm S) hperm hz p
  have hTS' : ∀ p, TS (ValueIdx.ix1 p) = S (ValueIdx.ix1 (argPerm S p)) := fun p => by rw [hTS]; exact take S p
  have hbound : ∀ p, (TS (ValueIdx.ix1 p)).toNat < 2 ^ 31 := fun p => by
    rw [hTS', hS]; have := sPad_toNat_le sw hsw (argPerm S p); omega
  refine ⟨argPerm S, argPerm_bijective S, fun p => ?_, fun p => ?_, fun p => ?_, fun p p' hp => ?_, fun k => ?_, fun k => ?_⟩
  · rw [hTG]; exact (take G p).trans (hG _)
  · exact (hTS' p).trans (hS _)
  · rw [hTW]; exact (take Wt p).trans (hW _)
  · rw [hTS', hTS']; exact sorted_through sw hsw S hS p p' hp
  · rw [hLO, floorDivV_apply A0 c0 k hc0 (by rw [hA0]; exact hbound _), hA0]
  · rw [hHI, floorDivV_apply A1 c1 k hc1 (by rw [hA1]; exact hbound _), hA1]

/-! ## The two passes and the node arrays, at the valuation the first launch is entered from -/

section AtLaunch

variable (m : (ℓ : Loc nD τ sig) → Buf (Elt Ideal) ℓ)

/-- The first pass: gather at the source row, scatter to the target row. -/
theorem phase1_facts (c : Dev nD) (h : Cert.Spec.InRange (m ((c : Thread nD τ).loc main_arg2) : S2x2000000.Idx → BitVec 32)) :
    ∃ σ : Fin 2002944 → Fin 2002944, Function.Bijective σ
      ∧ (∀ p, (V13 m c main_v22 : S2002944.Idx → BitVec 32) (ValueIdx.ix1 p) = gPad (fun e => (m ((c : Thread nD τ).loc main_arg2) : S2x2000000.Idx → BitVec 32) (ValueIdx.ix2 (0 : Fin 2) e)) (σ p))
      ∧ (∀ p, (V13 m c main_v29 : S2002944.Idx → BitVec 32) (ValueIdx.ix1 p) = sPad (fun e => (m ((c : Thread nD τ).loc main_arg2) : S2x2000000.Idx → BitVec 32) (ValueIdx.ix2 (1 : Fin 2) e)) (σ p))
      ∧ (∀ p, (V13 m c main_v36 : S2002944.Idx → EReal) (ValueIdx.ix1 p) = wPad (Cert.Spec.wOf (m ((c : Thread nD τ).loc main_arg1) : S2000000.Idx → EReal)) (σ p))
      ∧ (∀ p p' : Fin 2002944, p ≤ p' →
          ((V13 m c main_v29 : S2002944.Idx → BitVec 32) (ValueIdx.ix1 p)).toNat ≤ ((V13 m c main_v29 : S2002944.Idx → BitVec 32) (ValueIdx.ix1 p')).toNat)
      ∧ (∀ k : Fin 489, (V13 m c main_v40 : S489.Idx → BitVec 32) (ValueIdx.ix1 k)
          = BitVec.ofNat 32 (((V13 m c main_v29 : S2002944.Idx → BitVec 32) (ValueIdx.ix1 (Cert.KSpec.pos k ⟨0, by decide⟩))).toNat / 1000))
      ∧ (∀ k : Fin 489, (V13 m c main_v43 : S489.Idx → BitVec 32) (ValueIdx.ix1 k)
          = BitVec.ofNat 32 (((V13 m c main_v29 : S2002944.Idx → BitVec 32) (ValueIdx.ix1 (Cert.KSpec.pos k ⟨4095, by decide⟩))).toNat / 1000)) := by
  have e22 : V13 m c main_v22 = V3 m c main_v22 := (V13_of m c main_v22 (by decide)).trans <| (V12_of m c main_v22 (by decide)).trans <| (V11_of m c main_v22 (by decide)).trans <| (V10_of m c main_v22 (by decide)).trans <| (V9_of m c main_v22 (by decide)).trans <| (V8_of m c main_v22 (by decide)).trans <| (V7_of m c main_v22 (by decide)).trans <| (V6_of m c main_v22 (by decide)).trans <| (V5_of m c main_v22 (by decide)).trans <| (V4_of m c main_v22 (by decide))
  have e29 : V13 m c main_v29 = V3 m c main_v29 := (V13_of m c main_v29 (by decide)).trans <| (V12_of m c main_v29 (by decide)).trans <| (V11_of m c main_v29 (by decide)).trans <| (V10_of m c main_v29 (by decide)).trans <| (V9_of m c main_v29 (by decide)).trans <| (V8_of m c main_v29 (by decide)).trans <| (V7_of m c main_v29 (by decide)).trans <| (V6_of m c main_v29 (by decide)).trans <| (V5_of m c main_v29 (by decide)).trans <| (V4_of m c main_v29 (by decide))
  have e36 : V13 m c main_v36 = V3 m c main_v36 := (V13_of m c main_v36 (by decide)).trans <| (V12_of m c main_v36 (by decide)).trans <| (V11_of m c main_v36 (by decide)).trans <| (V10_of m c main_v36 (by decide)).trans <| (V9_of m c main_v36 (by decide)).trans <| (V8_of m c main_v36 (by decide)).trans <| (V7_of m c main_v36 (by decide)).trans <| (V6_of m c main_v36 (by decide)).trans <| (V5_of m c main_v36 (by decide)).trans <| (V4_of m c main_v36 (by decide))
  have e40 : V13 m c main_v40 = V4 m c main_v40 := (V13_of m c main_v40 (by decide)).trans <| (V12_of m c main_v40 (by decide)).trans <| (V11_of m c main_v40 (by decide)).trans <| (V10_of m c main_v40 (by decide)).trans <| (V9_of m c main_v40 (by decide)).trans <| (V8_of m c main_v40 (by decide)).trans <| (V7_of m c main_v40 (by decide)).trans <| (V6_of m c main_v40 (by decide)).trans <| (V5_of m c main_v40 (by decide))
  have e43 : V13 m c main_v43 = V6 m c main_v43 := (V13_of m c main_v43 (by decide)).trans <| (V12_of m c main_v43 (by decide)).trans <| (V11_of m c main_v43 (by decide)).trans <| (V10_of m c main_v43 (by decide)).trans <| (V9_of m c main_v43 (by decide)).trans <| (V8_of m c main_v43 (by decide)).trans <| (V7_of m c main_v43 (by decide))
  have e12 : V2 m c main_v12 = V1 m c main_v12 := V2_of m c main_v12 (by decide)
  have e13 : V2 m c main_v13 = V1 m c main_v13 := V2_of m c main_v13 (by decide)
  have e14 : V2 m c main_v14 = V1 m c main_v14 := V2_of m c main_v14 (by decide)
  have e37 : V4 m c main_v37 = V3 m c main_v37 := V4_of m c main_v37 (by decide)
  rw [e22, e29, e36, e40, e43]
  refine pass_facts _ _ _ (fun e => h.toNat_lt _) (V1 m c main_v12) (V1 m c main_v13) (V2 m c main_v15) _ _ (V1 m c main_v14) _ _ _
    (V3 m c main_v39) (V5 m c main_v42) (V3 m c main_c_8) (V5 m c main_c_9)
    (s0_v12_apply (V0 m c)) (s0_v13_apply (V0 m c)) (s0_v14_apply (V0 m c)) (s1_v15 (V1 m c))
    ((s2_v22 (V2 m c)).trans (by rw [e12])) ((s2_v29 (V2 m c)).trans (by rw [e13])) ((s2_v36 (V2 m c)).trans (by rw [e14]))
    (fun k => (congrFun (s2_v39 (V2 m c)) (ValueIdx.ix1 k)).trans (chunk_col_apply _ 0 (by decide) _ _ _ k))
    (fun k => (congrFun (s4_v42 (V4 m c)) (ValueIdx.ix1 k)).trans (by
      rw [e37, show V3 m c main_v37 = _ from s2_v37 (V2 m c)]; exact chunk_col_apply _ 4095 (by decide) _ _ _ k))
    (congrFun (s2_c8 (V2 m c)) ValueIdx.ix0) (congrFun (s4_c9 (V4 m c)) ValueIdx.ix0) (s3_v40 (V3 m c)) (s5_v43 (V5 m c))

/-- The second pass: gather at the target row, scatter to the source row. -/
theorem phase2_facts (c : Dev nD) (h : Cert.Spec.InRange (m ((c : Thread nD τ).loc main_arg2) : S2x2000000.Idx → BitVec 32)) :
    ∃ σ : Fin 2002944 → Fin 2002944, Function.Bijective σ
      ∧ (∀ p, (V13 m c main_v57 : S2002944.Idx → BitVec 32) (ValueIdx.ix1 p) = gPad (fun e => (m ((c : Thread nD τ).loc main_arg2) : S2x2000000.Idx → BitVec 32) (ValueIdx.ix2 (1 : Fin 2) e)) (σ p))
      ∧ (∀ p, (V13 m c main_v64 : S2002944.Idx → BitVec 32) (ValueIdx.ix1 p) = sPad (fun e => (m ((c : Thread nD τ).loc main_arg2) : S2x2000000.Idx → BitVec 32) (ValueIdx.ix2 (0 : Fin 2) e)) (σ p))
      ∧ (∀ p, (V13 m c main_v71 : S2002944.Idx → EReal) (ValueIdx.ix1 p) = wPad (Cert.Spec.wOf (m ((c : Thread nD τ).loc main_arg1) : S2000000.Idx → EReal)) (σ p))
      ∧ (∀ p p' : Fin 2002944, p ≤ p' →
          ((V13 m c main_v64 : S2002944.Idx → BitVec 32) (ValueIdx.ix1 p)).toNat ≤ ((V13 m c main_v64 : S2002944.Idx → BitVec 32) (ValueIdx.ix1 p')).toNat)
      ∧ (∀ k : Fin 489, (V13 m c main_v75 : S489.Idx → BitVec 32) (ValueIdx.ix1 k)
          = BitVec.ofNat 32 (((V13 m c main_v64 : S2002944.Idx → BitVec 32) (ValueIdx.ix1 (Cert.KSpec.pos k ⟨0, by decide⟩))).toNat / 1000))
      ∧ (∀ k : Fin 489, (V13 m c main_v78 : S489.Idx → BitVec 32) (ValueIdx.ix1 k)
          = BitVec.ofNat 32 (((V13 m c main_v64 : S2002944.Idx → BitVec 32) (ValueIdx.ix1 (Cert.KSpec.pos k ⟨4095, by decide⟩))).toNat / 1000)) := by
  have e57 : V13 m c main_v57 = V9 m c main_v57 := (V13_of m c main_v57 (by decide)).trans <| (V12_of m c main_v57 (by decide)).trans <| (V11_of m c main_v57 (by decide)).trans <| (V10_of m c main_v57 (by decide))
  have e64 : V13 m c main_v64 = V9 m c main_v64 := (V13_of m c main_v64 (by decide)).trans <| (V12_of m c main_v64 (by decide)).trans <| (V11_of m c main_v64 (by decide)).trans <| (V10_of m c main_v64 (by decide))
  have e71 : V13 m c main_v71 = V9 m c main_v71 := (V13_of m c main_v71 (by decide)).trans <| (V12_of m c main_v71 (by decide)).trans <| (V11_of m c main_v71 (by decide)).trans <| (V10_of m c main_v71 (by decide))
  have e75 : V13 m c main_v75 = V10 m c main_v75 := (V13_of m c main_v75 (by decide)).trans <| (V12_of m c main_v75 (by decide)).trans <| (V11_of m c main_v75 (by decide))
  have e78 : V13 m c main_v78 = V12 m c main_v78 := (V13_of m c main_v78 (by decide))
  have e47 : V8 m c main_v47 = V7 m c main_v47 := V8_of m c main_v47 (by decide)
  have e48 : V8 m c main_v48 = V7 m c main_v48 := V8_of m c main_v48 (by decide)
  have e49 : V8 m c main_v49 = V7 m c main_v49 := V8_of m c main_v49 (by decide)
  have e72 : V10 m c main_v72 = V9 m c main_v72 := V10_of m c main_v72 (by decide)
  have e6 : V6 m c main_v6 = V1 m c main_v6 := (V6_of m c main_v6 (by decide)).trans <| (V5_of m c main_v6 (by decide)).trans <| (V4_of m c main_v6 (by decide)).trans <| (V3_of m c main_v6 (by decide)).trans <| (V2_of m c main_v6 (by decide))
  have e8 : V6 m c main_v8 = V1 m c main_v8 := (V6_of m c main_v8 (by decide)).trans <| (V5_of m c main_v8 (by decide)).trans <| (V4_of m c main_v8 (by decide)).trans <| (V3_of m c main_v8 (by decide)).trans <| (V2_of m c main_v8 (by decide))
  have ea1 : V6 m c main_arg1 = V0 m c main_arg1 := (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide))
  have h47 : ∀ q, (V7 m c main_v47 : S2002944.Idx → BitVec 32) (ValueIdx.ix1 q) = gPad (fun e => (m ((c : Thread nD τ).loc main_arg2) : S2x2000000.Idx → BitVec 32) (ValueIdx.ix2 (1 : Fin 2) e)) q := fun q => by
    refine (s6_v47_apply (V6 m c) q).trans ?_
    rw [e8]; exact congrArg (fun f => gPad f q) (funext fun e => s0_v8_apply (V0 m c) e)
  have h48 : ∀ q, (V7 m c main_v48 : S2002944.Idx → BitVec 32) (ValueIdx.ix1 q) = sPad (fun e => (m ((c : Thread nD τ).loc main_arg2) : S2x2000000.Idx → BitVec 32) (ValueIdx.ix2 (0 : Fin 2) e)) q := fun q => by
    refine (s6_v48_apply (V6 m c) q).trans ?_
    rw [e6]; exact congrArg (fun f => sPad f q) (funext fun e => s0_v6_apply (V0 m c) e)
  have h49 : ∀ q, (V7 m c main_v49 : S2002944.Idx → EReal) (ValueIdx.ix1 q) = wPad (Cert.Spec.wOf (m ((c : Thread nD τ).loc main_arg1) : S2000000.Idx → EReal)) q := fun q => by
    exact (s6_v49_apply (V6 m c) q).trans
      (congrArg (fun a : S2000000.Idx → EReal => wPad (Cert.Spec.wOf a) q) ea1)
  rw [e57, e64, e71, e75, e78]
  refine pass_facts _ _ _ (fun e => h.toNat_lt _) (V7 m c main_v47) (V7 m c main_v48) (V8 m c main_v50) _ _ (V7 m c main_v49) _ _ _
    (V9 m c main_v74) (V11 m c main_v77) (V9 m c main_c_19) (V11 m c main_c_20)
    h47 h48 h49 (s7_v50 (V7 m c))
    ((s8_v57 (V8 m c)).trans (by rw [e47])) ((s8_v64 (V8 m c)).trans (by rw [e48])) ((s8_v71 (V8 m c)).trans (by rw [e49]))
    (fun k => (congrFun (s8_v74 (V8 m c)) (ValueIdx.ix1 k)).trans (chunk_col_apply _ 0 (by decide) _ _ _ k))
    (fun k => (congrFun (s10_v77 (V10 m c)) (ValueIdx.ix1 k)).trans (by
      rw [e72, show V9 m c main_v72 = _ from s8_v72 (V8 m c)]; exact chunk_col_apply _ 4095 (by decide) _ _ _ k))
    (congrFun (s8_c19 (V8 m c)) ValueIdx.ix0) (congrFun (s10_c20 (V10 m c)) ValueIdx.ix0) (s9_v75 (V9 m c)) (s11_v78 (V11 m c))

/-- The node states, 8 × 10000. -/
theorem v0_eq (c : Dev nD) (b : Fin 8) (n : Fin 10000) :
    (V13 m c main_v0 : S8x10000.Idx → EReal) (ValueIdx.ix2 b n) = Cert.Spec.xOf (m ((c : Thread nD τ).loc main_arg0) : S80000.Idx → EReal) b n := by
  have e : V13 m c main_v0 = V1 m c main_v0 := (V13_of m c main_v0 (by decide)).trans <| (V12_of m c main_v0 (by decide)).trans <| (V11_of m c main_v0 (by decide)).trans <| (V10_of m c main_v0 (by decide)).trans <| (V9_of m c main_v0 (by decide)).trans <| (V8_of m c main_v0 (by decide)).trans <| (V7_of m c main_v0 (by decide)).trans <| (V6_of m c main_v0 (by decide)).trans <| (V5_of m c main_v0 (by decide)).trans <| (V4_of m c main_v0 (by decide)).trans <| (V3_of m c main_v0 (by decide)).trans <| (V2_of m c main_v0 (by decide))
  rw [e]
  refine (congrFun (s0_v0 (V0 m c)) (ValueIdx.ix2 b n)).trans ?_
  refine shapeCast_apply _ _ (ValueIdx.ix2 b n) (ValueIdx.ix1 ⟨b.val * 10000 + n.val, by have := b.isLt; have := n.isLt; omega⟩) ?_
  rw [Shape.rowMajor_val_two, Shape.rowMajor_val_one]
  rfl

/-- Their tanh, transposed 10000 × 8. -/
theorem v79_eq (c : Dev nD) (n : Fin 10000) (b : Fin 8) :
    (V13 m c main_v79 : S10000x8.Idx → EReal) (ValueIdx.ix2 n b) = Cert.Spec.fxOf (m ((c : Thread nD τ).loc main_arg0) : S80000.Idx → EReal) b n := by
  have e : V12 m c main_v1 = V1 m c main_v1 := (V12_of m c main_v1 (by decide)).trans <| (V11_of m c main_v1 (by decide)).trans <| (V10_of m c main_v1 (by decide)).trans <| (V9_of m c main_v1 (by decide)).trans <| (V8_of m c main_v1 (by decide)).trans <| (V7_of m c main_v1 (by decide)).trans <| (V6_of m c main_v1 (by decide)).trans <| (V5_of m c main_v1 (by decide)).trans <| (V4_of m c main_v1 (by decide)).trans <| (V3_of m c main_v1 (by decide)).trans <| (V2_of m c main_v1 (by decide))
  refine (congrFun (s12_v79 (V12 m c)) (ValueIdx.ix2 n b)).trans ?_
  refine (transpose_ix2_apply _ _ n b).trans ?_
  rw [e]
  refine (congrFun (s0_v1 (V0 m c)) (ValueIdx.ix2 b n)).trans ?_
  show Ideal.tanh (shapeCast S8x10000 (m ((c : Thread nD τ).loc main_arg0) : S80000.Idx → EReal) shapeCasts_S80000_S8x10000 (ValueIdx.ix2 b n)) = _
  refine congrArg Ideal.tanh ?_
  refine shapeCast_apply _ _ (ValueIdx.ix2 b n) (ValueIdx.ix1 ⟨b.val * 10000 + n.val, by have := b.isLt; have := n.isLt; omega⟩) ?_
  rw [Shape.rowMajor_val_two, Shape.rowMajor_val_one]
  rfl

/-- 1 − tanh², 8 × 10000. -/
theorem v4_eq (c : Dev nD) (b : Fin 8) (n : Fin 10000) :
    (V13 m c main_v4 : S8x10000.Idx → EReal) (ValueIdx.ix2 b n)
      = Cert.Spec.one - Cert.Spec.fxOf (m ((c : Thread nD τ).loc main_arg0) : S80000.Idx → EReal) b n * Cert.Spec.fxOf (m ((c : Thread nD τ).loc main_arg0) : S80000.Idx → EReal) b n := by
  have e : V13 m c main_v4 = V1 m c main_v4 := (V13_of m c main_v4 (by decide)).trans <| (V12_of m c main_v4 (by decide)).trans <| (V11_of m c main_v4 (by decide)).trans <| (V10_of m c main_v4 (by decide)).trans <| (V9_of m c main_v4 (by decide)).trans <| (V8_of m c main_v4 (by decide)).trans <| (V7_of m c main_v4 (by decide)).trans <| (V6_of m c main_v4 (by decide)).trans <| (V5_of m c main_v4 (by decide)).trans <| (V4_of m c main_v4 (by decide)).trans <| (V3_of m c main_v4 (by decide)).trans <| (V2_of m c main_v4 (by decide))
  rw [e]
  refine (congrFun (s0_v4 (V0 m c)) (ValueIdx.ix2 b n)).trans ?_
  have hx : shapeCast S8x10000 (m ((c : Thread nD τ).loc main_arg0) : S80000.Idx → EReal) shapeCasts_S80000_S8x10000 (ValueIdx.ix2 b n) = Cert.Spec.xOf (m ((c : Thread nD τ).loc main_arg0) : S80000.Idx → EReal) b n := by
    refine shapeCast_apply _ _ (ValueIdx.ix2 b n) (ValueIdx.ix1 ⟨b.val * 10000 + n.val, by have := b.isLt; have := n.isLt; omega⟩) ?_
    rw [Shape.rowMajor_val_two, Shape.rowMajor_val_one]
    rfl
  show broadcastInDim S8x10000 ![] bcast_S_S8x10000 (constant (F := Ideal) S_ .f32 0x3F800000#32) (ValueIdx.ix2 b n)
      - Ideal.tanh (shapeCast S8x10000 (m ((c : Thread nD τ).loc main_arg0) : S80000.Idx → EReal) shapeCasts_S80000_S8x10000 (ValueIdx.ix2 b n))
        * Ideal.tanh (shapeCast S8x10000 (m ((c : Thread nD τ).loc main_arg0) : S80000.Idx → EReal) shapeCasts_S80000_S8x10000 (ValueIdx.ix2 b n)) = _
  rw [hx, broadcastInDim_scalar_apply]
  rfl

end AtLaunch

end Cert.KernelIdeal.HostChain

end
-- ==== Proof.KTail.lean ====
/-
  What the program computes after its two launches, read at an index.

  The first launch leaves a 10000 × 8 array `P` (node-major predictions), the second a 10000 × 8 array `Q` (node-major
  aggregates). Between and after them the program only re-lays and combines, elementwise:
    predT b n = P n b                                        (transpose to batch-major)
    errT  b n = x b n - P n b                                (x the batch-major node states)
    dxT   b n = (x b n - P n b) - g b n * Q n b              (g the batch-major derivative factor)
  The second launch is handed `errT` transposed back to node-major. The result stacks `predT`, `errT`, `dxT`, each
  flattened batch-major to length 80000 (position k is batch row k / 10000, node k % 10000), as the three rows of a
  3 × 80000 array. The first part reads the layout operations at an index; the second states the three arrays and their
  stack for any float instance and reads them at an index over the extended reals; the third identifies the buffers'
  contents between the program's items with them, one operation's result at a time, for any float instance; the last
  reads the buffers at an index over the extended reals.
-/
import proofs.«400082_j83537113907851_4_alg».proof.Proof.Gen.KernelIdeal.Regions
import proofs.«400082_j83537113907851_4_alg».proof.Proof.Spec
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.KTail

open Idealize.ShloMosaic Idealize.ShloMosaic.TcCoe Idealize.SL.Sem
open Idealize.ShloMosaic.ValueIdx (ix2 subf_apply mulf_apply transpose_ix2_apply)
open Cert.KernelIdeal.Gen
open Cert.Spec (rowOf colOf)

/-! ## The layout operations at an index -/

section Layout

variable {α : Type}

/-- An 8 × 10000 array flattened: position `k` holds the entry at row `k / 10000`, column `k % 10000`. -/
theorem flat_apply (y : S8x10000.Idx → α) (h : S8x10000.ShapeCasts S80000) (k : Fin 80000) :
    shapeCast S80000 y h (ValueIdx.ix1 k) = y (ix2 (rowOf k) (colOf k)) :=
  shapeCast_apply y h (ValueIdx.ix1 k) (ix2 (rowOf k) (colOf k)) (by
    rw [Shape.rowMajor_val_two, Shape.rowMajor_val_one]
    show k.val / 10000 * 10000 + k.val % 10000 = k.val
    omega)

/-- A vector of length 80000 as a 1 × 80000 row: column `k` holds the vector's entry `k`. -/
theorem row_apply (y : S80000.Idx → α) (h : S80000.BroadcastsInDim S1x80000 (![1] : Fin 1 → Fin S1x80000.rank))
    (u : Fin 1) (k : Fin 80000) : broadcastInDim S1x80000 ![1] h y (ix2 u k) = y (ValueIdx.ix1 k) :=
  broadcastInDim_apply _ h y (ix2 u k) (ValueIdx.ix1 k) (fun a => match a with
    | ⟨0, _⟩ => by show k.val = if (80000 : Nat) = 1 then 0 else k.val; rw [if_neg (by decide)])

/-- Three 1 × 80000 rows stacked: row 0 of the stack is the first piece. -/
theorem stack_row0 (u0 u1 u2 : S1x80000.Idx → α) (h : Shape.Concatenates [S1x80000, S1x80000, S1x80000] S3x80000 0)
    (k : Fin 80000) :
    concatenate S3x80000 0 [⟨S1x80000, u0⟩, ⟨S1x80000, u1⟩, ⟨S1x80000, u2⟩] h (ix2 (0 : Fin 3) k) = u0 (ix2 (0 : Fin 1) k) :=
  concatenate_apply_piece (0 : Fin S3x80000.rank) [⟨S1x80000, u0⟩, ⟨S1x80000, u1⟩, ⟨S1x80000, u2⟩] h (ix2 (0 : Fin 3) k)
    0 (by show (0 : ℕ) < 3; omega) S1x80000 u0 rfl rfl 0 rfl (ix2 (0 : Fin 1) k)
    (fun b => match b with
      | ⟨0, _⟩ => fun hb => absurd rfl hb
      | ⟨1, _⟩ => fun _ => rfl)
    rfl

/-- Row 1 of the stack is the second piece. -/
theorem stack_row1 (u0 u1 u2 : S1x80000.Idx → α) (h : Shape.Concatenates [S1x80000, S1x80000, S1x80000] S3x80000 0)
    (k : Fin 80000) :
    concatenate S3x80000 0 [⟨S1x80000, u0⟩, ⟨S1x80000, u1⟩, ⟨S1x80000, u2⟩] h (ix2 (1 : Fin 3) k) = u1 (ix2 (0 : Fin 1) k) :=
  concatenate_apply_piece (0 : Fin S3x80000.rank) [⟨S1x80000, u0⟩, ⟨S1x80000, u1⟩, ⟨S1x80000, u2⟩] h (ix2 (1 : Fin 3) k)
    1 (by show (1 : ℕ) < 3; omega) S1x80000 u1 rfl rfl 1 rfl (ix2 (0 : Fin 1) k)
    (fun b => match b with
      | ⟨0, _⟩ => fun hb => absurd rfl hb
      | ⟨1, _⟩ => fun _ => rfl)
    rfl

/-- Row 2 of the stack is the third piece. -/
theorem stack_row2 (u0 u1 u2 : S1x80000.Idx → α) (h : Shape.Concatenates [S1x80000, S1x80000, S1x80000] S3x80000 0)
    (k : Fin 80000) :
    concatenate S3x80000 0 [⟨S1x80000, u0⟩, ⟨S1x80000, u1⟩, ⟨S1x80000, u2⟩] h (ix2 (2 : Fin 3) k) = u2 (ix2 (0 : Fin 1) k) :=
  concatenate_apply_piece (0 : Fin S3x80000.rank) [⟨S1x80000, u0⟩, ⟨S1x80000, u1⟩, ⟨S1x80000, u2⟩] h (ix2 (2 : Fin 3) k)
    2 (by show (2 : ℕ) < 3; omega) S1x80000 u2 rfl rfl 2 rfl (ix2 (0 : Fin 1) k)
    (fun b => match b with
      | ⟨0, _⟩ => fun hb => absurd rfl hb
      | ⟨1, _⟩ => fun _ => rfl)
    rfl

end Layout

/-! ## The three batch-major arrays and their stack -/

section Arrays

variable {F : FTy → Type} [FloatOps F]

/-- The predictions batch-major: the node-major array transposed. -/
def predT (P : FVec F S10000x8 .f32) : FVec F S8x10000 .f32 :=
  transpose S8x10000 [1, 0] P transposes_S10000x8_S8x10000_1_0

/-- The errors batch-major: the states less the predictions. -/
def errT (x : FVec F S8x10000 .f32) (P : FVec F S10000x8 .f32) : FVec F S8x10000 .f32 :=
  subf x (predT P)

/-- The update direction batch-major: the errors less the factor times the aggregates. -/
def dxT (x g : FVec F S8x10000 .f32) (P Q : FVec F S10000x8 .f32) : FVec F S8x10000 .f32 :=
  subf (errT x P) (mulf g (transpose S8x10000 [1, 0] Q transposes_S10000x8_S8x10000_1_0))

/-- A batch-major array flattened and laid as a 1 × 80000 row. -/
def asRow (y : FVec F S8x10000 .f32) : FVec F S1x80000 .f32 :=
  broadcastInDim S1x80000 ![1] bcast_S80000_S1x80000_1 (shapeCast S80000 y shapeCasts_S8x10000_S80000)

/-- The result: the three rows stacked. -/
def stacked (x g : FVec F S8x10000 .f32) (P Q : FVec F S10000x8 .f32) : FVec F S3x80000 .f32 :=
  concatenate S3x80000 0 [⟨S1x80000, asRow (predT P)⟩, ⟨S1x80000, asRow (errT x P)⟩, ⟨S1x80000, asRow (dxT x g P Q)⟩]
    concatenates_S1x80000_S1x80000_S1x80000_S3x80000_d0

theorem predT_apply (P : FVec F S10000x8 .f32) (b : Fin 8) (n : Fin 10000) : predT P (ix2 b n) = P (ix2 n b) := by
  unfold predT
  exact transpose_ix2_apply P transposes_S10000x8_S8x10000_1_0 b n

theorem asRow_apply (y : FVec F S8x10000 .f32) (u : Fin 1) (k : Fin 80000) :
    asRow y (ix2 u k) = y (ix2 (rowOf k) (colOf k)) := by
  unfold asRow
  rw [row_apply, flat_apply]

end Arrays

theorem errT_apply (x : FVec Ideal S8x10000 .f32) (P : FVec Ideal S10000x8 .f32) (b : Fin 8) (n : Fin 10000) :
    errT x P (ix2 b n) = x (ix2 b n) - P (ix2 n b) := by
  unfold errT
  rw [subf_apply, predT_apply]

theorem dxT_apply (x g : FVec Ideal S8x10000 .f32) (P Q : FVec Ideal S10000x8 .f32) (b : Fin 8) (n : Fin 10000) :
    dxT x g P Q (ix2 b n) = (x (ix2 b n) - P (ix2 n b)) - g (ix2 b n) * Q (ix2 n b) := by
  unfold dxT
  rw [subf_apply, errT_apply, mulf_apply, transpose_ix2_apply]

theorem stacked_row0 (x g : FVec Ideal S8x10000 .f32) (P Q : FVec Ideal S10000x8 .f32) (k : Fin 80000) :
    stacked x g P Q (ix2 (0 : Fin 3) k) = P (ix2 (colOf k) (rowOf k)) := by
  unfold stacked
  rw [stack_row0, asRow_apply, predT_apply]

theorem stacked_row1 (x g : FVec Ideal S8x10000 .f32) (P Q : FVec Ideal S10000x8 .f32) (k : Fin 80000) :
    stacked x g P Q (ix2 (1 : Fin 3) k) = x (ix2 (rowOf k) (colOf k)) - P (ix2 (colOf k) (rowOf k)) := by
  unfold stacked
  rw [stack_row1, asRow_apply, errT_apply]

theorem stacked_row2 (x g : FVec Ideal S8x10000 .f32) (P Q : FVec Ideal S10000x8 .f32) (k : Fin 80000) :
    stacked x g P Q (ix2 (2 : Fin 3) k)
      = (x (ix2 (rowOf k) (colOf k)) - P (ix2 (colOf k) (rowOf k))) - g (ix2 (rowOf k) (colOf k)) * Q (ix2 (colOf k) (rowOf k)) := by
  unfold stacked
  rw [stack_row2, asRow_apply, dxT_apply]

/-! ## The operations between and after the launches, from any contents

Each lemma reads one result buffer after a stretch of operations started from arbitrary contents `V`, the operand
buffers' contents given by equations, so that it can be instantiated at the contents the launches leave. -/

section Stretches

variable {F : FTy → Type} [FloatOps F] (V : Valuation τ sig (Elt F))

/-- After the operations between the launches: the predictions batch-major, -/
theorem ops1_v81 {P : FVec F S10000x8 .f32} (h80 : (V main_v80 : FVec F S10000x8 .f32) = P) :
    (StableHlo.after hostOps1 V main_v81 : FVec F S8x10000 .f32) = predT P := by
  subst h80
  dsimp only [hostOps1]
  after_results
  rfl

/-- the errors batch-major, -/
theorem ops1_v82 {x : FVec F S8x10000 .f32} {P : FVec F S10000x8 .f32}
    (h0 : (V main_v0 : FVec F S8x10000 .f32) = x) (h80 : (V main_v80 : FVec F S10000x8 .f32) = P) :
    (StableHlo.after hostOps1 V main_v82 : FVec F S8x10000 .f32) = errT x P := by
  subst h0 h80
  dsimp only [hostOps1]
  after_results
  rfl

/-- and the errors node-major, the second launch's operand. -/
theorem ops1_v83 {x : FVec F S8x10000 .f32} {P : FVec F S10000x8 .f32}
    (h0 : (V main_v0 : FVec F S8x10000 .f32) = x) (h80 : (V main_v80 : FVec F S10000x8 .f32) = P) :
    (StableHlo.after hostOps1 V main_v83 : FVec F S10000x8 .f32)
      = transpose S10000x8 [1, 0] (errT x P) transposes_S8x10000_S10000x8_1_0 := by
  subst h0 h80
  dsimp only [hostOps1]
  after_results
  rfl

/-- After the closing operations: the three rows, -/
theorem ops2_v91 {p : FVec F S8x10000 .f32} (h81 : (V main_v81 : FVec F S8x10000 .f32) = p) :
    (StableHlo.after hostOps2 V main_v91 : FVec F S1x80000 .f32) = asRow p := by
  subst h81
  dsimp only [hostOps2]
  after_results
  rfl

theorem ops2_v92 {e : FVec F S8x10000 .f32} (h82 : (V main_v82 : FVec F S8x10000 .f32) = e) :
    (StableHlo.after hostOps2 V main_v92 : FVec F S1x80000 .f32) = asRow e := by
  subst h82
  dsimp only [hostOps2]
  after_results
  rfl

theorem ops2_v93 {e g : FVec F S8x10000 .f32} {Q : FVec F S10000x8 .f32}
    (h82 : (V main_v82 : FVec F S8x10000 .f32) = e) (h4 : (V main_v4 : FVec F S8x10000 .f32) = g)
    (h84 : (V main_v84 : FVec F S10000x8 .f32) = Q) :
    (StableHlo.after hostOps2 V main_v93 : FVec F S1x80000 .f32)
      = asRow (subf e (mulf g (transpose S8x10000 [1, 0] Q transposes_S10000x8_S8x10000_1_0))) := by
  subst h82 h4 h84
  dsimp only [hostOps2]
  after_results
  rfl

/-- and their stack: the last operation reads the three rows the operations before it wrote. -/
theorem ops2_v94 {r0 r1 r2 : FVec F S1x80000 .f32}
    (h91 : (StableHlo.after hostOps2 V main_v91 : FVec F S1x80000 .f32) = r0)
    (h92 : (StableHlo.after hostOps2 V main_v92 : FVec F S1x80000 .f32) = r1)
    (h93 : (StableHlo.after hostOps2 V main_v93 : FVec F S1x80000 .f32) = r2) :
    (StableHlo.after hostOps2 V main_v94 : FVec F S3x80000 .f32)
      = concatenate S3x80000 0 [⟨S1x80000, r0⟩, ⟨S1x80000, r1⟩, ⟨S1x80000, r2⟩]
          concatenates_S1x80000_S1x80000_S1x80000_S3x80000_d0 := by
  subst h91 h92 h93
  dsimp only [hostOps2]
  simp only [StableHlo.after_cons, StableHlo.after_nil]
  rw [StableHlo.nary_result]
  rw [StableHlo.nary_result_ne]; rotate_left; decide
  rw [StableHlo.nary_result_ne]; rotate_left; decide
  rw [StableHlo.nary_result_ne]; rotate_left; decide
  all_goals rfl

end Stretches

/-! ## The buffers between the program's items, for any float instance -/

section Buffers

variable {F : FTy → Type} [FloatOps F]
variable (m : (ℓ : Loc nD τ sig) → Buf (Elt F) ℓ) (outs : Gen.Outs (F := F)) (c : Dev nD)

/-- The first launch's result array holds what the launch left there; the states are untouched by it. -/
theorem V14_v80 : Gen.V14 m outs c main_v80 = outs 14 main_v80 c := Function.update_self _ _ _
theorem V14_v0 : Gen.V14 m outs c main_v0 = Gen.V13 m c main_v0 := Gen.V14_of m outs c main_v0 (by decide)

theorem v81_eq : (Gen.V15 m outs c main_v81 : FVec F S8x10000 .f32) = predT (F := F) (outs 14 main_v80 c) :=
  ops1_v81 (Gen.V14 m outs c) (V14_v80 m outs c)

theorem v82_eq : (Gen.V15 m outs c main_v82 : FVec F S8x10000 .f32)
    = errT (F := F) (Gen.V13 m c main_v0) (outs 14 main_v80 c) :=
  ops1_v82 (Gen.V14 m outs c) (V14_v0 m outs c) (V14_v80 m outs c)

theorem v83_eq : (Gen.V15 m outs c main_v83 : FVec F S10000x8 .f32)
    = transpose S10000x8 [1, 0] (errT (F := F) (Gen.V13 m c main_v0) (outs 14 main_v80 c)) transposes_S8x10000_S10000x8_1_0 :=
  ops1_v83 (Gen.V14 m outs c) (V14_v0 m outs c) (V14_v80 m outs c)

/-- The second launch changes only its own result array: what the operations between the launches wrote, and what was
    there before the first launch, is still there after it. -/
theorem V16_v84 : Gen.V16 m outs c main_v84 = outs 16 main_v84 c := Function.update_self _ _ _
theorem V16_v81 : (Gen.V16 m outs c main_v81 : FVec F S8x10000 .f32) = predT (F := F) (outs 14 main_v80 c) :=
  (Gen.V16_of m outs c main_v81 (by decide)).trans (v81_eq m outs c)
theorem V16_v82 : (Gen.V16 m outs c main_v82 : FVec F S8x10000 .f32)
    = errT (F := F) (Gen.V13 m c main_v0) (outs 14 main_v80 c) :=
  (Gen.V16_of m outs c main_v82 (by decide)).trans (v82_eq m outs c)
theorem V16_v4 : Gen.V16 m outs c main_v4 = Gen.V13 m c main_v4 :=
  (Gen.V16_of m outs c main_v4 (by decide)).trans
    ((Gen.V15_of m outs c main_v4 (by decide)).trans (Gen.V14_of m outs c main_v4 (by decide)))

theorem v91_eq : (Gen.V17 m outs c main_v91 : FVec F S1x80000 .f32) = asRow (predT (F := F) (outs 14 main_v80 c)) :=
  ops2_v91 (Gen.V16 m outs c) (V16_v81 m outs c)

theorem v92_eq : (Gen.V17 m outs c main_v92 : FVec F S1x80000 .f32)
    = asRow (errT (F := F) (Gen.V13 m c main_v0) (outs 14 main_v80 c)) :=
  ops2_v92 (Gen.V16 m outs c) (V16_v82 m outs c)

theorem v93_eq : (Gen.V17 m outs c main_v93 : FVec F S1x80000 .f32)
    = asRow (dxT (F := F) (Gen.V13 m c main_v0) (Gen.V13 m c main_v4) (outs 14 main_v80 c) (outs 16 main_v84 c)) :=
  ops2_v93 (Gen.V16 m outs c) (V16_v82 m outs c) (V16_v4 m outs c) (V16_v84 m outs c)

/-- The program's result array, whole. -/
theorem v94_eq : (Gen.V17 m outs c main_v94 : FVec F S3x80000 .f32)
    = stacked (F := F) (Gen.V13 m c main_v0) (Gen.V13 m c main_v4) (outs 14 main_v80 c) (outs 16 main_v84 c) :=
  ops2_v94 (Gen.V16 m outs c) (v91_eq m outs c) (v92_eq m outs c) (v93_eq m outs c)

end Buffers

/-! ## The buffers at an index, over the extended reals -/

section Reals

variable (m : (ℓ : Loc nD τ sig) → Buf (Elt Ideal) ℓ) (outs : Gen.Outs (F := Ideal)) (c : Dev nD)

/-- The states `x` and the factor `g` (batch-major, as the first launch finds them) and the two launches' results `P`,
    `Q` (node-major), as functions on the literal index types. -/
abbrev xT : S8x10000.Idx → EReal := Gen.V13 m c main_v0
abbrev gT : S8x10000.Idx → EReal := Gen.V13 m c main_v4
abbrev predN : S10000x8.Idx → EReal := outs 14 main_v80 c
abbrev aggrN : S10000x8.Idx → EReal := outs 16 main_v84 c

/-- The second launch's operand at node `n`, batch row `b`: the state less the prediction. -/
theorem v83_apply (n : Fin 10000) (b : Fin 8) :
    (Gen.V15 m outs c main_v83 : S10000x8.Idx → EReal) (ix2 n b) = xT m c (ix2 b n) - predN outs c (ix2 n b) := by
  rw [v83_eq m outs c, transpose_ix2_apply, errT_apply]

/-- Row 0 of the result at position `k`: the prediction of batch row `k / 10000` at node `k % 10000`. -/
theorem v94_row0 (k : Fin 80000) :
    (Gen.V17 m outs c main_v94 : S3x80000.Idx → EReal) (ix2 (0 : Fin 3) k) = predN outs c (ix2 (colOf k) (rowOf k)) := by
  rw [v94_eq m outs c, stacked_row0]

/-- Row 1: the error. -/
theorem v94_row1 (k : Fin 80000) :
    (Gen.V17 m outs c main_v94 : S3x80000.Idx → EReal) (ix2 (1 : Fin 3) k)
      = xT m c (ix2 (rowOf k) (colOf k)) - predN outs c (ix2 (colOf k) (rowOf k)) := by
  rw [v94_eq m outs c, stacked_row1]

/-- Row 2: the update direction. -/
theorem v94_row2 (k : Fin 80000) :
    (Gen.V17 m outs c main_v94 : S3x80000.Idx → EReal) (ix2 (2 : Fin 3) k)
      = (xT m c (ix2 (rowOf k) (colOf k)) - predN outs c (ix2 (colOf k) (rowOf k)))
        - gT m c (ix2 (rowOf k) (colOf k)) * aggrN outs c (ix2 (colOf k) (rowOf k)) := by
  rw [v94_eq m outs c, stacked_row2]

end Reals

end Cert.KernelIdeal.KTail

end
-- ==== Proof.KValue.lean ====
/-
  The kernel program's result, read at an index, is the specification's `result` (Spec.lean) of the arguments.

  Each of the two launches leaves, in its output array, its accumulator after the last chunk: the chunked one-hot
  accumulation of the padded, scatter-sorted edge list the host operations prepared. That accumulation is one message
  pass of the specification: the first with the activations gathered at the sources and added at the targets (the
  predictions), the second with the errors gathered at the targets and added at the sources. Between and after the
  launches the program only re-lays and combines elementwise, so the three stacked rows are the predictions, the
  errors and the update direction.
-/
import proofs.«400082_j83537113907851_4_alg».proof.Proof.Segs
import proofs.«400082_j83537113907851_4_alg».proof.Proof.Step0
import proofs.«400082_j83537113907851_4_alg».proof.Proof.Step1
import proofs.«400082_j83537113907851_4_alg».proof.Proof.HostChain
import proofs.«400082_j83537113907851_4_alg».proof.Proof.Regroup
import proofs.«400082_j83537113907851_4_alg».proof.Proof.KTail
import proofs.«400082_j83537113907851_4_alg».proof.Proof.Spec
import proofs.«400082_j83537113907851_4_alg».proof.Proof.KSpec
import Idealize.ShloMosaic.Lib.ValueIdx

set_option maxRecDepth 16384

noncomputable section

open scoped BigOperators

namespace Cert.KernelIdeal.KValue

open Idealize.ShloMosaic Idealize.ShloMosaic.TcCoe Idealize.SL.Sem
open Idealize.ShloMosaic.ValueIdx (ix2 eq_ix2)
open Cert.KernelIdeal Cert.KernelIdeal.Gen
open Cert.Spec (rowOf colOf)

variable (m : (ℓ : Loc nD τ sig) → Buf (Elt Ideal) ℓ) (c : Dev nD)

/-- The three argument arrays as the launch memory holds them, as functions on the literal index types. -/
abbrev A0 : S80000.Idx → EReal := m ((c : Thread nD τ).loc main_arg0)
abbrev A1 : S2000000.Idx → EReal := m ((c : Thread nD τ).loc main_arg1)
abbrev A2 : S2x2000000.Idx → BitVec 32 := m ((c : Thread nD τ).loc main_arg2)

/-! ## What the launches leave -/

/-- The first launch's output array is its accumulator after the last chunk, in closed form. -/
theorem out0_eq (n : Fin 10000) (b : Fin 8) :
    (Frame.out0 m c : S10000x8.Idx → EReal) (ix2 n b)
      = Cert.KSpec.accFinal (fun n b => (Frame.Vin0 m c main_v79 (ix2 n b) : EReal)) (fun p => Frame.Vin0 m c main_v22 (ValueIdx.ix1 p))
          (fun p => Frame.Vin0 m c main_v29 (ValueIdx.ix1 p)) (fun p => (Frame.Vin0 m c main_v36 (ValueIdx.ix1 p) : EReal))
          (fun k => Frame.Vin0 m 0 main_v40 (ValueIdx.ix1 k)) (fun k => Frame.Vin0 m 0 main_v43 (ValueIdx.ix1 k)) n b :=
  (congrFun (Frame.final0 (Frame.Vin0 m) c) (ix2 n b)).trans (Step.accAt0_final (Frame.Vin0 m) c n b)

/-- The second launch's output array likewise. -/
theorem out1_eq (n : Fin 10000) (b : Fin 8) :
    (Frame.out1 m c : S10000x8.Idx → EReal) (ix2 n b)
      = Cert.KSpec.accFinal (fun n b => (Frame.Vin1 m c main_v83 (ix2 n b) : EReal)) (fun p => Frame.Vin1 m c main_v57 (ValueIdx.ix1 p))
          (fun p => Frame.Vin1 m c main_v64 (ValueIdx.ix1 p)) (fun p => (Frame.Vin1 m c main_v71 (ValueIdx.ix1 p) : EReal))
          (fun k => Frame.Vin1 m 0 main_v75 (ValueIdx.ix1 k)) (fun k => Frame.Vin1 m 0 main_v78 (ValueIdx.ix1 k)) n b :=
  (congrFun (Frame.final1 (Frame.Vin1 m) c) (ix2 n b)).trans (Step1.accAt1_final (Frame.Vin1 m) c n b)

/-! ## The predictions -/

/-- The first launch's output at node n, batch row b: the prediction. -/
theorem pred_eq (h : Cert.Spec.InRange (A2 m c)) (n : Fin 10000) (b : Fin 8) :
    KTail.predN (Frame.outsOf m) c (ix2 n b)
      = Cert.Spec.pass (Cert.Spec.wOf (A1 m c)) (Cert.Spec.srcOf (A2 m c)) (Cert.Spec.tgtOf (A2 m c)) (Cert.Spec.fxOf (A0 m c)) b n := by
  obtain rfl : c = 0 := Subsingleton.elim _ _
  obtain ⟨σ, hσ, hg, hs, hw, hsorted, hlo, hhi⟩ := HostChain.phase1_facts m 0 h
  have e1 : KTail.predN (Frame.outsOf m) 0 = Frame.out0 m 0 :=
    (Frame.outsOf_14 m main_v80 0).trans (Frame.outsA_v80 m 14 0)
  have hreg := Cert.Regroup.accFinal_eq_pass
    (fun n b => ((Gen.V13 m 0 main_v79 : S10000x8.Idx → EReal) (ix2 n b)))
    (Cert.Spec.wOf (A1 m 0)) (fun e => A2 m 0 (ix2 (0 : Fin 2) e)) (fun e => A2 m 0 (ix2 (1 : Fin 2) e))
    (fun e => h.toNat_lt _) (fun e => h.toNat_lt _)
    (fun p => (Gen.V13 m 0 main_v22 : S2002944.Idx → BitVec 32) (ValueIdx.ix1 p))
    (fun p => (Gen.V13 m 0 main_v29 : S2002944.Idx → BitVec 32) (ValueIdx.ix1 p))
    (fun p => (Gen.V13 m 0 main_v36 : S2002944.Idx → EReal) (ValueIdx.ix1 p))
    (fun k => (Gen.V13 m 0 main_v40 : S489.Idx → BitVec 32) (ValueIdx.ix1 k))
    (fun k => (Gen.V13 m 0 main_v43 : S489.Idx → BitVec 32) (ValueIdx.ix1 k))
    σ hσ hg hs hw hsorted hlo hhi n b
  have hv : (fun (b : Fin 8) (n : Fin 10000) => ((Gen.V13 m 0 main_v79 : S10000x8.Idx → EReal) (ix2 n b)))
      = Cert.Spec.fxOf (A0 m 0) := funext fun b => funext fun n => HostChain.v79_eq m 0 n b
  rw [e1]
  refine (out0_eq m 0 n b).trans (hreg.trans ?_)
  exact congrArg (fun v => Cert.Spec.pass (Cert.Spec.wOf (A1 m 0)) (Cert.Spec.srcOf (A2 m 0)) (Cert.Spec.tgtOf (A2 m 0)) v b n) hv

/-! ## The errors -/

/-- The second launch's operand at node n, batch row b: the error. -/
theorem err_eq (h : Cert.Spec.InRange (A2 m c)) (n : Fin 10000) (b : Fin 8) :
    (Gen.V15 m (Frame.outsOf m) c main_v83 : S10000x8.Idx → EReal) (ix2 n b)
      = Cert.Spec.err (Cert.Spec.wOf (A1 m c)) (Cert.Spec.srcOf (A2 m c)) (Cert.Spec.tgtOf (A2 m c))
          (Cert.Spec.xOf (A0 m c)) (Cert.Spec.fxOf (A0 m c)) b n :=
  (KTail.v83_apply m (Frame.outsOf m) c n b).trans
    (congrArg₂ (fun u v : EReal => u - v) (HostChain.v0_eq m c b n) (pred_eq m c h n b))

/-! ## The aggregated back messages -/

/-- The second launch's output at node n, batch row b: the errors gathered at the targets, added at the sources. -/
theorem aggr_eq (h : Cert.Spec.InRange (A2 m c)) (n : Fin 10000) (b : Fin 8) :
    KTail.aggrN (Frame.outsOf m) c (ix2 n b)
      = Cert.Spec.pass (Cert.Spec.wOf (A1 m c)) (Cert.Spec.tgtOf (A2 m c)) (Cert.Spec.srcOf (A2 m c))
          (Cert.Spec.err (Cert.Spec.wOf (A1 m c)) (Cert.Spec.srcOf (A2 m c)) (Cert.Spec.tgtOf (A2 m c))
            (Cert.Spec.xOf (A0 m c)) (Cert.Spec.fxOf (A0 m c))) b n := by
  obtain rfl : c = 0 := Subsingleton.elim _ _
  obtain ⟨σ, hσ, hg, hs, hw, hsorted, hlo, hhi⟩ := HostChain.phase2_facts m 0 h
  have e1 : KTail.aggrN (Frame.outsOf m) 0 = Frame.out1 m 0 := Frame.outsOf_16 m 0
  -- the host operations between the launches, and the first launch, write none of the second launch's prepared arrays
  have e57 : Frame.Vin1 m 0 main_v57 = Gen.V13 m 0 main_v57 :=
    (Gen.V15_of m (Frame.outsA m) 0 main_v57 (by decide)).trans (Gen.V14_of m (Frame.outsA m) 0 main_v57 (by decide))
  have e64 : Frame.Vin1 m 0 main_v64 = Gen.V13 m 0 main_v64 :=
    (Gen.V15_of m (Frame.outsA m) 0 main_v64 (by decide)).trans (Gen.V14_of m (Frame.outsA m) 0 main_v64 (by decide))
  have e71 : Frame.Vin1 m 0 main_v71 = Gen.V13 m 0 main_v71 :=
    (Gen.V15_of m (Frame.outsA m) 0 main_v71 (by decide)).trans (Gen.V14_of m (Frame.outsA m) 0 main_v71 (by decide))
  have e75 : Frame.Vin1 m 0 main_v75 = Gen.V13 m 0 main_v75 :=
    (Gen.V15_of m (Frame.outsA m) 0 main_v75 (by decide)).trans (Gen.V14_of m (Frame.outsA m) 0 main_v75 (by decide))
  have e78 : Frame.Vin1 m 0 main_v78 = Gen.V13 m 0 main_v78 :=
    (Gen.V15_of m (Frame.outsA m) 0 main_v78 (by decide)).trans (Gen.V14_of m (Frame.outsA m) 0 main_v78 (by decide))
  have e83 : Frame.Vin1 m 0 main_v83 = Gen.V15 m (Frame.outsOf m) 0 main_v83 := (Frame.V15_in m 0 main_v83).symm
  have hacc := out1_eq m 0 n b
  rw [e57, e64, e71, e75, e78, e83] at hacc
  have hreg := Cert.Regroup.accFinal_eq_pass
    (fun n b => ((Gen.V15 m (Frame.outsOf m) 0 main_v83 : S10000x8.Idx → EReal) (ix2 n b)))
    (Cert.Spec.wOf (A1 m 0)) (fun e => A2 m 0 (ix2 (1 : Fin 2) e)) (fun e => A2 m 0 (ix2 (0 : Fin 2) e))
    (fun e => h.toNat_lt _) (fun e => h.toNat_lt _)
    (fun p => (Gen.V13 m 0 main_v57 : S2002944.Idx → BitVec 32) (ValueIdx.ix1 p))
    (fun p => (Gen.V13 m 0 main_v64 : S2002944.Idx → BitVec 32) (ValueIdx.ix1 p))
    (fun p => (Gen.V13 m 0 main_v71 : S2002944.Idx → EReal) (ValueIdx.ix1 p))
    (fun k => (Gen.V13 m 0 main_v75 : S489.Idx → BitVec 32) (ValueIdx.ix1 k))
    (fun k => (Gen.V13 m 0 main_v78 : S489.Idx → BitVec 32) (ValueIdx.ix1 k))
    σ hσ hg hs hw hsorted hlo hhi n b
  have hv : (fun (b : Fin 8) (n : Fin 10000) => ((Gen.V15 m (Frame.outsOf m) 0 main_v83 : S10000x8.Idx → EReal) (ix2 n b)))
      = Cert.Spec.err (Cert.Spec.wOf (A1 m 0)) (Cert.Spec.srcOf (A2 m 0)) (Cert.Spec.tgtOf (A2 m 0))
          (Cert.Spec.xOf (A0 m 0)) (Cert.Spec.fxOf (A0 m 0)) := funext fun b => funext fun n => err_eq m 0 h n b
  rw [e1]
  refine hacc.trans (hreg.trans ?_)
  exact congrArg (fun v => Cert.Spec.pass (Cert.Spec.wOf (A1 m 0)) (Cert.Spec.tgtOf (A2 m 0)) (Cert.Spec.srcOf (A2 m 0)) v b n) hv

/-! ## The result -/

/-- THE KERNEL PROGRAM'S VALUE: under the range hypothesis the result buffer holds the specification's stacked result. -/
theorem result_eq (m : (ℓ : Loc nD τ sig) → Buf (Elt Ideal) ℓ) (c : Dev nD)
    (h : Cert.Spec.InRange (m ((c.tc : Thread nD τ).loc main_arg2))) :
    Gen.V17 m (Frame.outsOf m) c main_v94
      = Cert.Spec.G (m ((c.tc : Thread nD τ).loc main_arg0)) (m ((c.tc : Thread nD τ).loc main_arg1)) (m ((c.tc : Thread nD τ).loc main_arg2)) := by
  show (Gen.V17 m (Frame.outsOf m) c main_v94 : S3x80000.Idx → EReal) = Cert.Spec.G (A0 m c) (A1 m c) (A2 m c)
  funext j
  obtain ⟨r, k, rfl⟩ : ∃ (r : Fin 3) (k : Fin 80000), j = ix2 r k := ⟨j 0, j 1, eq_ix2 (n0 := 3) (n1 := 80000) j⟩
  show (Gen.V17 m (Frame.outsOf m) c main_v94 : S3x80000.Idx → EReal) (ix2 r k)
    = Cert.Spec.result Cert.Spec.one (Cert.Spec.wOf (A1 m c)) (Cert.Spec.srcOf (A2 m c)) (Cert.Spec.tgtOf (A2 m c))
        (Cert.Spec.xOf (A0 m c)) (Cert.Spec.fxOf (A0 m c)) r k
  have hx := HostChain.v0_eq m c (rowOf k) (colOf k)
  have hp := pred_eq m c h (colOf k) (rowOf k)
  match r with
  | ⟨0, _⟩ => exact (KTail.v94_row0 m (Frame.outsOf m) c k).trans hp
  | ⟨1, _⟩ => exact (KTail.v94_row1 m (Frame.outsOf m) c k).trans (congrArg₂ (fun u v : EReal => u - v) hx hp)
  | ⟨2, _⟩ =>
    exact (KTail.v94_row2 m (Frame.outsOf m) c k).trans
      (congrArg₂ (fun u v : EReal => u - v) (congrArg₂ (fun u v : EReal => u - v) hx hp)
        (congrArg₂ (fun u v : EReal => u * v) (HostChain.v4_eq m c (rowOf k) (colOf k)) (aggr_eq m c h (colOf k) (rowOf k))))

end Cert.KernelIdeal.KValue

end
-- ==== Proof.BRunK0.lean ====
/-
  The message-passing kernel's body at one grid point (custom_call 0), generic in the float instance.

  From the two table buffers, the node-state block, the chunk's gather indices, scatter indices and weights, the output
  block's buffer and the accumulator at given contents (the one-hot scratch at anything), the body runs to its end leaving
  the inputs as they were, the one-hot scratch at something, the accumulator at `acc8` of what it found and the output
  buffer at `out7`: the accumulator is reset at the first point and then updated tile by tile under the table words'
  guards; the output buffer is overwritten by the accumulator at the last point and untouched before.
-/
import proofs.«400082_j83537113907851_4_alg».proof.Proof.Gen.Kernel.Skeleton
import proofs.«400082_j83537113907851_4_alg».proof.Proof.Gen.Kernel.Launch
import Idealize.ShloMosaic.Lib.Pipeline.Frame
import Idealize.ShloMosaic.Lib.Pipeline.FrameBody
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output block's staging buffer, the accumulator and the one-hot scratch, as the body table calls the kernel. -/
abbrev m7_0 : Memref sig .tc .vmem S10000x8 .f32 := Memref.whole cc0_stg4_0
abbrev m8_0 : Memref sig .tc .vmem S10000x8 .f32 := Memref.whole cc0_scratch0
abbrev m9_0 : Memref sig .tc .vmem S1000x4096 .f32 := Memref.whole cc0_scratch1

set_option maxHeartbeats 4000000 in
/-- The body's run at a grid point: the raw contents it leaves in the output block's buffer (`F7`) and in the accumulator
    (`F8`) are what the run itself computes, with the proof that the body reaches its end there. -/
noncomputable def kernelRun0 (c : Dev nD) (i : grid0.Coords)
    (arg1 : Memref sig .tc .smem S489 .i32) (harg1 : arg1.IsWhole) (arg2 : Memref sig .tc .smem S489 .i32) (harg2 : arg2.IsWhole)
    (arg3 : Memref sig .tc .vmem S10000x8 .f32) (harg3 : arg3.IsWhole) (arg4 : Memref sig .tc .vmem S4096 .i32) (harg4 : arg4.IsWhole)
    (arg5 : Memref sig .tc .vmem S4096 .i32) (harg5 : arg5.IsWhole) (arg6 : Memref sig .tc .vmem S4096 .f32) (harg6 : arg6.IsWhole)
    (x1 x2 : Vec F S489 .i32) (x3 : Vec F S10000x8 .f32) (x4 x5 : Vec F S4096 .i32) (x6 : Vec F S4096 .f32) (xi7 a8 : Vec F S10000x8 .f32) :
    Σ' (F7 : (m7_0).view.ty.Contents (Elt F)), { F8 : (m8_0).view.ty.Contents (Elt F) //
      ∀ (E : Set ℕ) (K : PUnit → sProp 𝕄),
        iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) m7_0 fullShare xi7 ∗ owns (c : Thread nD τ) m8_0 fullShare a8 ∗ (∃ d, owns (c : Thread nD τ) m9_0 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ ((m7_0).view.loc (c : Thread nD τ) ↦[(m7_0).view.set]{fullShare} F7)
            ∗ ((m8_0).view.loc (c : Thread nD τ) ↦[(m8_0).view.set]{fullShare} F8)
            ∗ (∃ f, (m9_0).view.loc (c : Thread nD τ) ↦[(m9_0).view.set]{fullShare} f)) -∗ K ⟨⟩))
      ⊢ wp frame (wpE (defs₀ (F := F)) Variants.none c none) E
          (cc0__mp_kernel i arg1 harg1 arg2 harg2 arg3 harg3 arg4 harg4 arg5 harg5 arg6 harg6
            m7_0 (Memref.isWhole_whole _) m8_0 (Memref.isWhole_whole _) m9_0 (Memref.isWhole_whole _)) K } := by
  refine ⟨?_, ?_, fun E K => ?run⟩
  case run =>
    simp only [cc0__mp_kernel_eq_skeleton]; unfold cc0__mp_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := (Memref.isWhole_whole cc0_stg4_0).eq_unread hf7; obtain rfl := (Memref.isWhole_whole cc0_scratch0).eq_unread hf8
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexact H7
    isplitl [H8]; · iexact H8
    iexists _; iexact H9

end Cert.Kernel.Body

end
-- ==== Proof.BRun0.lean ====
/-
  The message-passing kernel's body at one grid point (custom_call 0), generic in the float instance.

  From the two table buffers, the node-state block, the chunk's gather indices, scatter indices and weights, the output
  block's buffer and the accumulator at given contents (the one-hot scratch at anything), the body runs to its end leaving
  the inputs as they were, the one-hot scratch at something, the accumulator at `acc8` of what it found and the output
  buffer at `out7`: the accumulator is reset at the first point and then updated tile by tile under the table words'
  guards; the output buffer is overwritten by the accumulator at the last point and untouched before.
-/
import proofs.«400082_j83537113907851_4_alg».proof.Proof.BRunK0
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator after the body at grid point `i` (run on core `c` through the memrefs `arg1 … arg6`), from the two
    tables `x1 x2`, the node states `x3`, the chunk's gather indices `x4`, scatter indices `x5`, weights `x6`, and the
    accumulator `a8` the point found: what the run leaves in the accumulator's buffer, read back. -/
def acc8_0 (c : Dev nD) (i : grid0.Coords)
    (arg1 : Memref sig .tc .smem S489 .i32) (harg1 : arg1.IsWhole) (arg2 : Memref sig .tc .smem S489 .i32) (harg2 : arg2.IsWhole)
    (arg3 : Memref sig .tc .vmem S10000x8 .f32) (harg3 : arg3.IsWhole) (arg4 : Memref sig .tc .vmem S4096 .i32) (harg4 : arg4.IsWhole)
    (arg5 : Memref sig .tc .vmem S4096 .i32) (harg5 : arg5.IsWhole) (arg6 : Memref sig .tc .vmem S4096 .f32) (harg6 : arg6.IsWhole)
    (x1 x2 : Vec F S489 .i32) (x3 : Vec F S10000x8 .f32) (x4 x5 : Vec F S4096 .i32) (x6 : Vec F S4096 .f32) (a8 : Vec F S10000x8 .f32) : Vec F S10000x8 .f32 :=
  (m8_0).view.read (Elt F) (kernelRun0 c i arg1 harg1 arg2 harg2 arg3 harg3 arg4 harg4 arg5 harg5 arg6 harg6 x1 x2 x3 x4 x5 x6 a8 a8).2.1

/-- The output block's buffer after the body at grid point `i`, having held `xi7`. -/
def out7_0 (c : Dev nD) (i : grid0.Coords)
    (arg1 : Memref sig .tc .smem S489 .i32) (harg1 : arg1.IsWhole) (arg2 : Memref sig .tc .smem S489 .i32) (harg2 : arg2.IsWhole)
    (arg3 : Memref sig .tc .vmem S10000x8 .f32) (harg3 : arg3.IsWhole) (arg4 : Memref sig .tc .vmem S4096 .i32) (harg4 : arg4.IsWhole)
    (arg5 : Memref sig .tc .vmem S4096 .i32) (harg5 : arg5.IsWhole) (arg6 : Memref sig .tc .vmem S4096 .f32) (harg6 : arg6.IsWhole)
    (x1 x2 : Vec F S489 .i32) (x3 : Vec F S10000x8 .f32) (x4 x5 : Vec F S4096 .i32) (x6 : Vec F S4096 .f32) (xi7 a8 : Vec F S10000x8 .f32) : Vec F S10000x8 .f32 :=
  (m7_0).view.read (Elt F) (kernelRun0 c i arg1 harg1 arg2 harg2 arg3 harg3 arg4 harg4 arg5 harg5 arg6 harg6 x1 x2 x3 x4 x5 x6 xi7 a8).1

/-- What the run leaves in the accumulator does not look at what the output block's buffer held. -/
theorem F8_xi0 (c : Dev nD) (i : grid0.Coords)
    (arg1 : Memref sig .tc .smem S489 .i32) (harg1 : arg1.IsWhole) (arg2 : Memref sig .tc .smem S489 .i32) (harg2 : arg2.IsWhole)
    (arg3 : Memref sig .tc .vmem S10000x8 .f32) (harg3 : arg3.IsWhole) (arg4 : Memref sig .tc .vmem S4096 .i32) (harg4 : arg4.IsWhole)
    (arg5 : Memref sig .tc .vmem S4096 .i32) (harg5 : arg5.IsWhole) (arg6 : Memref sig .tc .vmem S4096 .f32) (harg6 : arg6.IsWhole)
    (x1 x2 : Vec F S489 .i32) (x3 : Vec F S10000x8 .f32) (x4 x5 : Vec F S4096 .i32) (x6 : Vec F S4096 .f32) (xi7 a8 : Vec F S10000x8 .f32) :
    (kernelRun0 c i arg1 harg1 arg2 harg2 arg3 harg3 arg4 harg4 arg5 harg5 arg6 harg6 x1 x2 x3 x4 x5 x6 xi7 a8).2.1 = (kernelRun0 c i arg1 harg1 arg2 harg2 arg3 harg3 arg4 harg4 arg5 harg5 arg6 harg6 x1 x2 x3 x4 x5 x6 a8 a8).2.1 := by
  unfold kernelRun0
  rfl

/-- The body's triple at any grid point. -/
theorem sound_kernel0 (c : Dev nD) (E : Set ℕ) (i : grid0.Coords)
    (arg1 : Memref sig .tc .smem S489 .i32) (harg1 : arg1.IsWhole) (arg2 : Memref sig .tc .smem S489 .i32) (harg2 : arg2.IsWhole)
    (arg3 : Memref sig .tc .vmem S10000x8 .f32) (harg3 : arg3.IsWhole) (arg4 : Memref sig .tc .vmem S4096 .i32) (harg4 : arg4.IsWhole)
    (arg5 : Memref sig .tc .vmem S4096 .i32) (harg5 : arg5.IsWhole) (arg6 : Memref sig .tc .vmem S4096 .f32) (harg6 : arg6.IsWhole)
    (x1 x2 : Vec F S489 .i32) (x3 : Vec F S10000x8 .f32) (x4 x5 : Vec F S4096 .i32) (x6 : Vec F S4096 .f32) (xi7 a8 : Vec F S10000x8 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) m7_0 fullShare xi7 ∗ owns (c : Thread nD τ) m8_0 fullShare a8 ∗ (∃ d, owns (c : Thread nD τ) m9_0 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) m7_0 fullShare (out7_0 c i arg1 harg1 arg2 harg2 arg3 harg3 arg4 harg4 arg5 harg5 arg6 harg6 x1 x2 x3 x4 x5 x6 xi7 a8)
            ∗ owns (c : Thread nD τ) m8_0 fullShare (acc8_0 c i arg1 harg1 arg2 harg2 arg3 harg3 arg4 harg4 arg5 harg5 arg6 harg6 x1 x2 x3 x4 x5 x6 a8)
            ∗ (∃ d, owns (c : Thread nD τ) m9_0 fullShare d)) -∗ K ⟨⟩))
      ⊢ wp frame (wpE (defs₀ (F := F)) Variants.none c none) E
          (cc0__mp_kernel i arg1 harg1 arg2 harg2 arg3 harg3 arg4 harg4 arg5 harg5 arg6 harg6
            m7_0 (Memref.isWhole_whole _) m8_0 (Memref.isWhole_whole _) m9_0 (Memref.isWhole_whole _)) K := by
  refine .trans ?_ ((kernelRun0 c i arg1 harg1 arg2 harg2 arg3 harg3 arg4 harg4 arg5 harg5 arg6 harg6 x1 x2 x3 x4 x5 x6 xi7 a8).2.2 E K)
  iintro ⟨H1, H2, H3, H4, H5, H6, H7, H8, H9, Hk⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H1, H2, H3, H4, H5, H6, H7, H8, H9⟩
  iapply Hk
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr; · ipureintro; rfl
    iexact H7
  isplitl [H8]
  · unfold owns; iexists _; isplitr; · ipureintro; exact congrArg ((m8_0).view.read (Elt F)) (F8_xi0 c i arg1 harg1 arg2 harg2 arg3 harg3 arg4 harg4 arg5 harg5 arg6 harg6 x1 x2 x3 x4 x5 x6 xi7 a8)
    iexact H8
  icases H9 with ⟨%f, H9⟩
  iexists _; unfold owns; iexists f; isplitr; · ipureintro; rfl
  iexact H9

/-- Before the last point the body leaves the output block's buffer as it found it. -/
theorem out7_0_idle (c : Dev nD) (i : grid0.Coords)
    (arg1 : Memref sig .tc .smem S489 .i32) (harg1 : arg1.IsWhole) (arg2 : Memref sig .tc .smem S489 .i32) (harg2 : arg2.IsWhole)
    (arg3 : Memref sig .tc .vmem S10000x8 .f32) (harg3 : arg3.IsWhole) (arg4 : Memref sig .tc .vmem S4096 .i32) (harg4 : arg4.IsWhole)
    (arg5 : Memref sig .tc .vmem S4096 .i32) (harg5 : arg5.IsWhole) (arg6 : Memref sig .tc .vmem S4096 .f32) (harg6 : arg6.IsWhole)
    (x1 x2 : Vec F S489 .i32) (x3 : Vec F S10000x8 .f32) (x4 x5 : Vec F S4096 .i32) (x6 : Vec F S4096 .f32) (xi7 a8 : Vec F S10000x8 .f32) (h : ¬ k0_cond12 i = 1#1) :
    out7_0 c i arg1 harg1 arg2 harg2 arg3 harg3 arg4 harg4 arg5 harg5 arg6 harg6 x1 x2 x3 x4 x5 x6 xi7 a8 = xi7 := by
  unfold out7_0 kernelRun0
  dsimp only
  rw [dif_neg h]
  exact (Memref.isWhole_whole cc0_stg4_0).read_unread xi7

set_option maxHeartbeats 2000000 in
/-- At the last point the body copies the updated accumulator into the output block's buffer. -/
theorem out7_0_last (c : Dev nD) (i : grid0.Coords)
    (arg1 : Memref sig .tc .smem S489 .i32) (harg1 : arg1.IsWhole) (arg2 : Memref sig .tc .smem S489 .i32) (harg2 : arg2.IsWhole)
    (arg3 : Memref sig .tc .vmem S10000x8 .f32) (harg3 : arg3.IsWhole) (arg4 : Memref sig .tc .vmem S4096 .i32) (harg4 : arg4.IsWhole)
    (arg5 : Memref sig .tc .vmem S4096 .i32) (harg5 : arg5.IsWhole) (arg6 : Memref sig .tc .vmem S4096 .f32) (harg6 : arg6.IsWhole)
    (x1 x2 : Vec F S489 .i32) (x3 : Vec F S10000x8 .f32) (x4 x5 : Vec F S4096 .i32) (x6 : Vec F S4096 .f32) (xi7 a8 : Vec F S10000x8 .f32) (h : k0_cond12 i = 1#1) :
    out7_0 c i arg1 harg1 arg2 harg2 arg3 harg3 arg4 harg4 arg5 harg5 arg6 harg6 x1 x2 x3 x4 x5 x6 xi7 a8 = acc8_0 c i arg1 harg1 arg2 harg2 arg3 harg3 arg4 harg4 arg5 harg5 arg6 harg6 x1 x2 x3 x4 x5 x6 a8 := by
  have hz : (![0, 0] : Fin S10000x8.rank → Nat) = fun _ => 0 := by
    funext a; match a with | ⟨0, _⟩ => rfl | ⟨1, _⟩ => rfl
  unfold out7_0 acc8_0 kernelRun0
  dsimp only
  rw [dif_pos h]
  rw [View.read_writes_eq_canon _ _ _ (fun y => ⟨_, List.mem_singleton_self _, View.mem_set_unit_zero hz Facts₀.inb_S10000x8_S10000x8_0_0 y⟩)]
  rw [View.canon_unit_zero hz]
  sl_unfold_words
  simp only [View.readAt_eq_ld, View.ld_unit_zero (S := S10000x8) hz]

end Cert.Kernel.Body

end
-- ==== Proof.BAccRead.lean ====
/-
  The accumulator's buffer read back at a node, one guarded tile store at a time.

  The accumulator holds 10000 rows of 8 columns. A tile store writes rows [o, o + 1000); under a guard it is made or
  not. Read at node n, column k: a row inside the tile reads the stored tile's row n - o when the guard holds and what
  was there when it does not; a row outside the tile reads what was there either way. The guard of tile t is the bracket
  lo ≤ t ≤ hi of the chunk's two table words read signed; the reset's guard is the grid coordinate being zero.
  Everything is stated for any view of the accumulator's shape and any contents.
-/
import proofs.«400082_j83537113907851_4_alg».proof.Kernel
import Idealize.ShloMosaic.Lib.WritesUnit
import Idealize.ShloMosaic.Lib.ValueIdx

noncomputable section

namespace Cert.Kernel.AccRead

open Idealize.ShloMosaic

/-! ## A tile of rows written into the accumulator, read back at a node -/

section Layer
variable {sig : RefSig} {κ : Kind} {sp : Space} {Val : EltTy → Type}
  (v : View sig κ sp S10000x8 .f32) (f : v.ty.Contents Val)

/-- Row o + r of the accumulator, after rows [o, o + 1000) were written, reads row r of what was written. -/
theorem read_tile_of_mem (o : Nat) (inb : ∀ a, (![o, 0] : Fin 2 → Nat) a + S1000x8.size a ≤ S10000x8.size a)
    (P : S1000x8.Idx → Val .f32) (n : Fin 10000) (k : Fin 8) (r : Fin 1000) (h : n.val = o + r.val) :
    v.read Val (v.writes Val f [⟨Rect.unit ![o, 0] S1000x8.size inb, P⟩]) (ValueIdx.ix2 n k) = P (ValueIdx.ix2 r k) :=
  View.read_writes_cons_rows_of_mem v f inb P [] (ValueIdx.ix2 n k) (ValueIdx.ix2 r k) rfl h rfl

/-- A row outside [o, o + 1000) reads what was there. -/
theorem read_tile_of_not_mem (o : Nat) (inb : ∀ a, (![o, 0] : Fin 2 → Nat) a + S1000x8.size a ≤ S10000x8.size a)
    (P : S1000x8.Idx → Val .f32) (n : Fin 10000) (k : Fin 8) (h : n.val < o ∨ o + 1000 ≤ n.val) :
    v.read Val (v.writes Val f [⟨Rect.unit ![o, 0] S1000x8.size inb, P⟩]) (ValueIdx.ix2 n k) = v.read Val f (ValueIdx.ix2 n k) :=
  View.read_writes_cons_rows_of_not_mem v f inb P [] (ValueIdx.ix2 n k) rfl rfl h

/-- The two readings under a guard: the tile is written only when the guard holds. -/
theorem read_guarded_tile_of_not_mem (g : Prop) [Decidable g] (o : Nat)
    (inb : ∀ a, (![o, 0] : Fin 2 → Nat) a + S1000x8.size a ≤ S10000x8.size a)
    (P : S1000x8.Idx → Val .f32) (n : Fin 10000) (k : Fin 8) (h : n.val < o ∨ o + 1000 ≤ n.val) :
    v.read Val (if g then v.writes Val f [⟨Rect.unit ![o, 0] S1000x8.size inb, P⟩] else f) (ValueIdx.ix2 n k)
      = v.read Val f (ValueIdx.ix2 n k) := by
  by_cases hg : g
  · rw [if_pos hg]; exact read_tile_of_not_mem v f o inb P n k h
  · rw [if_neg hg]

theorem read_guarded_tile_of_mem (g : Prop) [Decidable g] (o : Nat)
    (inb : ∀ a, (![o, 0] : Fin 2 → Nat) a + S1000x8.size a ≤ S10000x8.size a)
    (P : S1000x8.Idx → Val .f32) (n : Fin 10000) (k : Fin 8) (r : Fin 1000) (h : n.val = o + r.val) :
    v.read Val (if g then v.writes Val f [⟨Rect.unit ![o, 0] S1000x8.size inb, P⟩] else f) (ValueIdx.ix2 n k)
      = if g then P (ValueIdx.ix2 r k) else v.read Val f (ValueIdx.ix2 n k) := by
  by_cases hg : g
  · rw [if_pos hg, if_pos hg]; exact read_tile_of_mem v f o inb P n k r h
  · rw [if_neg hg, if_neg hg]

/-- The same when the written tile is given with the guard's evidence in hand. -/
theorem read_dguarded_tile_of_not_mem (g : Prop) [Decidable g] (o : Nat)
    (inb : ∀ a, (![o, 0] : Fin 2 → Nat) a + S1000x8.size a ≤ S10000x8.size a)
    (P : g → S1000x8.Idx → Val .f32) (n : Fin 10000) (k : Fin 8) (h : n.val < o ∨ o + 1000 ≤ n.val) :
    v.read Val (if hg : g then v.writes Val f [⟨Rect.unit ![o, 0] S1000x8.size inb, P hg⟩] else f) (ValueIdx.ix2 n k)
      = v.read Val f (ValueIdx.ix2 n k) := by
  by_cases hg : g
  · rw [dif_pos hg]; exact read_tile_of_not_mem v f o inb (P hg) n k h
  · rw [dif_neg hg]

theorem read_dguarded_tile_of_mem (g : Prop) [Decidable g] (o : Nat)
    (inb : ∀ a, (![o, 0] : Fin 2 → Nat) a + S1000x8.size a ≤ S10000x8.size a)
    (P : g → S1000x8.Idx → Val .f32) (n : Fin 10000) (k : Fin 8) (r : Fin 1000) (h : n.val = o + r.val) :
    v.read Val (if hg : g then v.writes Val f [⟨Rect.unit ![o, 0] S1000x8.size inb, P hg⟩] else f) (ValueIdx.ix2 n k)
      = if hg : g then P hg (ValueIdx.ix2 r k) else v.read Val f (ValueIdx.ix2 n k) := by
  by_cases hg : g
  · rw [dif_pos hg, dif_pos hg]; exact read_tile_of_mem v f o inb (P hg) n k r h
  · rw [dif_neg hg, dif_neg hg]

end Layer

/-! ## The guards -/

/-- The tile's guard as the kernel computes it — both signed comparisons hold — is the bracket lo ≤ t ≤ hi. -/
theorem visit_iff (lo hi w : BitVec 32) (t : Int) (hw : w.toInt = t) :
    Scalar.cmpi .ne (Scalar.extui (Scalar.andi (Scalar.cmpi .sle lo w) (Scalar.cmpi .sge hi w))) 0#32 = 1#1
      ↔ lo.toInt ≤ t ∧ t ≤ hi.toInt := by
  have key : ∀ p q : Bool, (BitVec.ofBool (((BitVec.ofBool p &&& BitVec.ofBool q).setWidth 32) != 0#32) = 1#1)
      ↔ (p = true ∧ q = true) := by decide
  show BitVec.ofBool (((BitVec.ofBool (lo.sle w) &&& BitVec.ofBool (w.sle hi)).setWidth 32) != 0#32) = 1#1 ↔ _
  rw [key, BitVec.sle_iff_toInt_le, BitVec.sle_iff_toInt_le, hw]

/-- The first point's test: the grid coordinate's word is zero exactly at coordinate 0. -/
theorem first_iff (c : Nat) (hc : c < 489) :
    Scalar.cmpi .ne (Scalar.extui (Scalar.cmpi .eq (BitVec.ofNat 32 c) 0#32)) 0#32 = 1#1 ↔ c = 0 := by
  have key : ∀ p : Bool, (BitVec.ofBool (((BitVec.ofBool p).setWidth 32) != 0#32) = 1#1) ↔ p = true := by decide
  show BitVec.ofBool (((BitVec.ofBool (BitVec.ofNat 32 c == 0#32)).setWidth 32) != 0#32) = 1#1 ↔ _
  rw [key, beq_iff_eq]
  constructor
  · intro h
    have := congrArg BitVec.toNat h
    rw [BitVec.toNat_ofNat, Nat.mod_eq_of_lt (by omega)] at this
    exact this
  · rintro rfl; rfl

end Cert.Kernel.AccRead

end
-- ==== Proof.BAccEval0.lean ====
/-
  The accumulator update of one grid point read tile by tile, generic in the float instance.

  The point first resets the accumulator (at the first grid point) or keeps what it found: the base. Then each of the ten
  node tiles is, under its own guard, overwritten by a value computed from the chunk and from the tile as loaded. The
  tiles are disjoint row ranges, so the tile loaded is the base's tile, and node 1000 t + r reads, after the point, tile
  t's new value at row r when tile t's guard holds and the base otherwise. What the point found enters only through the
  base; at the first grid point the base is zero, so what the accumulator held there does not matter.
-/
import proofs.«400082_j83537113907851_4_alg».proof.Proof.BRun0
import proofs.«400082_j83537113907851_4_alg».proof.Proof.BAccRead
import Idealize.ShloMosaic.Lib.ValueIdx

set_option maxRecDepth 16384

noncomputable section

namespace Cert.Kernel.AccEval

open Cert.Kernel Cert.Kernel.Gen
open Idealize.ShloMosaic Idealize.ShloMosaic.TcCoe
open Idealize.SL.Sem

variable {F : FTy → Type} [FloatOps F]

/-! ## What the point starts from, and a tile of it -/

/-- The accumulator as the tile updates find it: zero everywhere at the first grid point, what the point found at
    every later one. -/
def base (i : grid0.Coords) (a8 : Vec F S10000x8 .f32) : Vec F S10000x8 .f32 :=
  fun y => if Body.kernelRun0.sl.v2 i = 1#1 then k0_pay5 (F := F) y else a8 y

/-- At the first point what the point found does not enter. -/
theorem base_first (i : grid0.Coords) (a a' : Vec F S10000x8 .f32) (h : Body.kernelRun0.sl.v2 i = 1#1) :
    base i a = base i a' := by
  funext y; unfold base; rw [if_pos h, if_pos h]

/-- Rows [o, o + 1000) of an accumulator-shaped array, as a tile. -/
def tileOf (B : Vec F S10000x8 .f32) (o : Nat) (ho : o + 1000 ≤ 10000) : FVec F S1000x8 .f32 :=
  fun x => B (ValueIdx.ix2 (⟨o + (x 0).val, by have h : (x 0).val < 1000 := (x 0).isLt; omega⟩ : Fin 10000) (x 1))

theorem tileOf_apply (B : Vec F S10000x8 .f32) (o : Nat) (ho : o + 1000 ≤ 10000) (r : Fin 1000) (k : Fin 8)
    (n : Fin 10000) (hn : n.val = o + r.val) : tileOf B o ho (ValueIdx.ix2 r k) = B (ValueIdx.ix2 n k) := by
  have e : (⟨o + r.val, by omega⟩ : Fin 10000) = n := Fin.ext hn.symm
  show B (ValueIdx.ix2 (⟨o + r.val, _⟩ : Fin 10000) k) = _
  rw [e]

section Generic
variable {sig' : RefSig} {κ : Kind} {sp : Space} {Val : EltTy → Type}

/-- Entry (r, k) of the tile of rows [o, o + 1000) sits at row o + r, column k of the accumulator. -/
theorem tile_idx (o : Nat) (inb : ∀ a, (![o, 0] : Fin 2 → Nat) a + S1000x8.size a ≤ S10000x8.size a)
    (r : Fin 1000) (k : Fin 8) (n : Fin 10000) (hn : n.val = o + r.val) :
    (Rect.unit (s := S10000x8) ![o, 0] S1000x8.size inb).toLoadRect.idx (ValueIdx.ix2 r k) = ValueIdx.ix2 n k :=
  funext fun a => Fin.ext (by
    match a with
    | ⟨0, _⟩ => show o + 1 * r.val = n.val; omega
    | ⟨1, _⟩ => show 0 + 1 * k.val = k.val; omega)

/-- A load of that tile reads the contents at those places. -/
theorem readAt_tile (v : View sig' κ sp S10000x8 .f32) (f : v.ty.Contents Val) (o : Nat)
    (inb : ∀ a, (![o, 0] : Fin 2 → Nat) a + S1000x8.size a ≤ S10000x8.size a)
    (r : Fin 1000) (k : Fin 8) (n : Fin 10000) (hn : n.val = o + r.val) :
    v.readAt Val (Rect.unit (s := S10000x8) ![o, 0] S1000x8.size inb).toLoadRect f (ValueIdx.ix2 r k)
      = v.read Val f (ValueIdx.ix2 n k) :=
  congrArg (v.read Val f) (tile_idx o inb r k n hn)

/-- A choice made with the guard's evidence in hand between values that do not use it is the plain choice. -/
theorem dite_ite_congr {α : Type} (g : Prop) [Decidable g] {a a' b b' : α} (ha : a = a') (hb : b = b') :
    (if _hg : g then a else b) = if g then a' else b' := by
  subst ha hb; exact dite_eq_ite

end Generic

/-- The reset, read back: the whole accumulator overwritten under the guard, else what the point found. -/
theorem read_reset {sp : Space} (m : Memref sig .tc sp S10000x8 .f32) (hw : m.IsWhole) (g : Prop) [Decidable g]
    (inb : ∀ a, (![0, 0] : Fin 2 → Nat) a + S10000x8.size a ≤ S10000x8.size a)
    (P : S10000x8.Idx → Elt F .f32) (a8 : Vec F S10000x8 .f32) (y : S10000x8.Idx) :
    m.view.read (Elt F) (if _hc : g then m.view.writes (Elt F) (hw.unread a8) [⟨Rect.unit ![0, 0] S10000x8.size inb, P⟩]
        else hw.unread a8) y = if g then P y else a8 y := by
  by_cases hg : g
  · rw [dif_pos hg, if_pos hg]
    exact View.read_writes_cons_unit_of_mem m.view (hw.unread a8) inb P [] y y rfl
      (Fin.forall_fin_two.mpr ⟨(Nat.zero_add _).symm, (Nat.zero_add _).symm⟩)
  · rw [dif_neg hg, if_neg hg]
    exact congrFun (hw.read_unread a8) y

/-! ## The ten tile updates

Tile t of the accumulator is stored under its guard from a value computed from the chunk and from the tile as it was
loaded; the loaded tile is the base's tile, because the updates of the tiles before it write other rows. Read at node
1000 t + r: the later tiles' stores miss the row, tile t's store holds it when its guard holds, the earlier tiles'
stores miss it, and the reset is read last. -/

section Tiles
variable (c : Dev nD) (i : grid0.Coords)
  (arg1 : Memref sig .tc .smem S489 .i32) (harg1 : arg1.IsWhole) (arg2 : Memref sig .tc .smem S489 .i32) (harg2 : arg2.IsWhole)
  (arg3 : Memref sig .tc .vmem S10000x8 .f32) (harg3 : arg3.IsWhole) (arg4 : Memref sig .tc .vmem S4096 .i32) (harg4 : arg4.IsWhole)
  (arg5 : Memref sig .tc .vmem S4096 .i32) (harg5 : arg5.IsWhole) (arg6 : Memref sig .tc .vmem S4096 .f32) (harg6 : arg6.IsWhole)
  (x1 x2 : Vec F S489 .i32) (x3 : Vec F S10000x8 .f32) (x4 x5 : Vec F S4096 .i32) (x6 : Vec F S4096 .f32)

/-- The guard of tile t, as the run names it. -/
def guardW (t : Fin 10) : BitVec 1 :=
  match t with
  | ⟨0, _⟩ => Body.kernelRun0.sl.v191 c i arg1 harg1 arg2 harg2 x1 x2
  | ⟨1, _⟩ => Body.kernelRun0.sl.v196 c i arg1 harg1 arg2 harg2 x1 x2
  | ⟨2, _⟩ => Body.kernelRun0.sl.v201 c i arg1 harg1 arg2 harg2 x1 x2
  | ⟨3, _⟩ => Body.kernelRun0.sl.v206 c i arg1 harg1 arg2 harg2 x1 x2
  | ⟨4, _⟩ => Body.kernelRun0.sl.v211 c i arg1 harg1 arg2 harg2 x1 x2
  | ⟨5, _⟩ => Body.kernelRun0.sl.v216 c i arg1 harg1 arg2 harg2 x1 x2
  | ⟨6, _⟩ => Body.kernelRun0.sl.v221 c i arg1 harg1 arg2 harg2 x1 x2
  | ⟨7, _⟩ => Body.kernelRun0.sl.v226 c i arg1 harg1 arg2 harg2 x1 x2
  | ⟨8, _⟩ => Body.kernelRun0.sl.v231 c i arg1 harg1 arg2 harg2 x1 x2
  | ⟨9, _⟩ => Body.kernelRun0.sl.v236 c i arg1 harg1 arg2 harg2 x1 x2

/-- What tile t stores, as a function of the tile it loaded. -/
def upd (t : Fin 10) (ld : FVec F S1000x8 .f32) : FVec F S1000x8 .f32 :=
  match t with
  | ⟨0, _⟩ => k0_pay29 (Body.kernelRun0.sl.r_2 c arg6 harg6 x6) (Body.kernelRun0.sl.r_8 c arg3 harg3 arg4 harg4 x3 x4)
      (Body.kernelRun0.sl.v158 c arg4 harg4 x4)
      (View.readAt (Elt F) arg3.view (Rect.unit (s := S10000x8) ![8000, 0] S1000x8.size inb_S10000x8_S1000x8_8000_0).toLoadRect (harg3.unread x3))
      (Body.kernelRun0.sl.v175 c arg4 harg4 x4)
      (View.readAt (Elt F) arg3.view (Rect.unit (s := S10000x8) ![9000, 0] S1000x8.size inb_S10000x8_S1000x8_9000_0).toLoadRect (harg3.unread x3))
      (Body.kernelRun0.sl.v252 c arg4 harg4 arg5 harg5 x4 x5) ld
  | ⟨1, _⟩ => k0_pay31 (Body.kernelRun0.sl.r_12 c arg3 harg3 arg4 harg4 arg6 harg6 x3 x4 x6) (Body.kernelRun0.sl.v252_1 c arg5 harg5 x5) ld
  | ⟨2, _⟩ => k0_pay33 (Body.kernelRun0.sl.r_12 c arg3 harg3 arg4 harg4 arg6 harg6 x3 x4 x6) (Body.kernelRun0.sl.v252_2 c arg5 harg5 x5) ld
  | ⟨3, _⟩ => k0_pay35 (Body.kernelRun0.sl.r_12 c arg3 harg3 arg4 harg4 arg6 harg6 x3 x4 x6) (Body.kernelRun0.sl.v252_3 c arg5 harg5 x5) ld
  | ⟨4, _⟩ => k0_pay37 (Body.kernelRun0.sl.r_12 c arg3 harg3 arg4 harg4 arg6 harg6 x3 x4 x6) (Body.kernelRun0.sl.v252_4 c arg5 harg5 x5) ld
  | ⟨5, _⟩ => k0_pay39 (Body.kernelRun0.sl.r_12 c arg3 harg3 arg4 harg4 arg6 harg6 x3 x4 x6) (Body.kernelRun0.sl.v252_5 c arg5 harg5 x5) ld
  | ⟨6, _⟩ => k0_pay41 (Body.kernelRun0.sl.r_12 c arg3 harg3 arg4 harg4 arg6 harg6 x3 x4 x6) (Body.kernelRun0.sl.v252_6 c arg5 harg5 x5) ld
  | ⟨7, _⟩ => k0_pay43 (Body.kernelRun0.sl.r_12 c arg3 harg3 arg4 harg4 arg6 harg6 x3 x4 x6) (Body.kernelRun0.sl.v252_7 c arg5 harg5 x5) ld
  | ⟨8, _⟩ => k0_pay2 (Body.kernelRun0.sl.r_12 c arg3 harg3 arg4 harg4 arg6 harg6 x3 x4 x6) (Body.kernelRun0.sl.v252_8 c arg5 harg5 x5) ld
  | ⟨9, _⟩ => k0_pay4 (Body.kernelRun0.sl.r_12 c arg3 harg3 arg4 harg4 arg6 harg6 x3 x4 x6) (Body.kernelRun0.sl.v252_9 c arg5 harg5 x5) ld

/-- Tile 0's load is the base's tile 0. -/
theorem ld0 (a8 : Vec F S10000x8 .f32) :
    Body.kernelRun0.sl.v254 (F := F) c i a8 = tileOf (base i a8) 0 (by omega) := by
  funext x
  obtain ⟨r, k, rfl⟩ : ∃ (r : Fin 1000) (k : Fin 8), x = ValueIdx.ix2 r k := ⟨x 0, x 1, ValueIdx.eq_ix2 x⟩
  obtain ⟨n, hn⟩ : ∃ n : Fin 10000, n.val = 0 + r.val := ⟨⟨0 + r.val, by omega⟩, rfl⟩
  rw [tileOf_apply _ 0 _ r k n hn]
  unfold Body.kernelRun0.sl.v254
  refine (readAt_tile _ _ 0 _ r k n hn).trans ?_
  exact read_reset _ _ _ _ _ a8 _

/-- Tile 1's load is the base's tile 1. -/
theorem ld1 (a8 : Vec F S10000x8 .f32) :
    Body.kernelRun0.sl.v254_1 (F := F) c i arg1 harg1 arg2 harg2 arg3 harg3 arg4 harg4 arg5 harg5 arg6 harg6 x1 x2 x3 x4 x5 x6 a8 = tileOf (base i a8) 1000 (by omega) := by
  funext x
  obtain ⟨r, k, rfl⟩ : ∃ (r : Fin 1000) (k : Fin 8), x = ValueIdx.ix2 r k := ⟨x 0, x 1, ValueIdx.eq_ix2 x⟩
  obtain ⟨n, hn⟩ : ∃ n : Fin 10000, n.val = 1000 + r.val := ⟨⟨1000 + r.val, by omega⟩, rfl⟩
  rw [tileOf_apply _ 1000 _ r k n hn]
  unfold Body.kernelRun0.sl.v254_1
  refine (readAt_tile _ _ 1000 _ r k n hn).trans ?_
  refine (AccRead.read_dguarded_tile_of_not_mem _ _ _ 0 _ _ n k (by omega)).trans ?_
  exact read_reset _ _ _ _ _ a8 _

/-- Tile 2's load is the base's tile 2. -/
theorem ld2 (a8 : Vec F S10000x8 .f32) :
    Body.kernelRun0.sl.v254_2 (F := F) c i arg1 harg1 arg2 harg2 arg3 harg3 arg4 harg4 arg5 harg5 arg6 harg6 x1 x2 x3 x4 x5 x6 a8 = tileOf (base i a8) 2000 (by omega) := by
  funext x
  obtain ⟨r, k, rfl⟩ : ∃ (r : Fin 1000) (k : Fin 8), x = ValueIdx.ix2 r k := ⟨x 0, x 1, ValueIdx.eq_ix2 x⟩
  obtain ⟨n, hn⟩ : ∃ n : Fin 10000, n.val = 2000 + r.val := ⟨⟨2000 + r.val, by omega⟩, rfl⟩
  rw [tileOf_apply _ 2000 _ r k n hn]
  unfold Body.kernelRun0.sl.v254_2
  refine (readAt_tile _ _ 2000 _ r k n hn).trans ?_
  refine (AccRead.read_dguarded_tile_of_not_mem _ _ _ 1000 _ _ n k (by omega)).trans ?_
  refine (AccRead.read_dguarded_tile_of_not_mem _ _ _ 0 _ _ n k (by omega)).trans ?_
  exact read_reset _ _ _ _ _ a8 _

/-- Tile 3's load is the base's tile 3. -/
theorem ld3 (a8 : Vec F S10000x8 .f32) :
    Body.kernelRun0.sl.v254_3 (F := F) c i arg1 harg1 arg2 harg2 arg3 harg3 arg4 harg4 arg5 harg5 arg6 harg6 x1 x2 x3 x4 x5 x6 a8 = tileOf (base i a8) 3000 (by omega) := by
  funext x
  obtain ⟨r, k, rfl⟩ : ∃ (r : Fin 1000) (k : Fin 8), x = ValueIdx.ix2 r k := ⟨x 0, x 1, ValueIdx.eq_ix2 x⟩
  obtain ⟨n, hn⟩ : ∃ n : Fin 10000, n.val = 3000 + r.val := ⟨⟨3000 + r.val, by omega⟩, rfl⟩
  rw [tileOf_apply _ 3000 _ r k n hn]
  unfold Body.kernelRun0.sl.v254_3
  refine (readAt_tile _ _ 3000 _ r k n hn).trans ?_
  refine (AccRead.read_dguarded_tile_of_not_mem _ _ _ 2000 _ _ n k (by omega)).trans ?_
  refine (AccRead.read_dguarded_tile_of_not_mem _ _ _ 1000 _ _ n k (by omega)).trans ?_
  refine (AccRead.read_dguarded_tile_of_not_mem _ _ _ 0 _ _ n k (by omega)).trans ?_
  exact read_reset _ _ _ _ _ a8 _

/-- Tile 4's load is the base's tile 4. -/
theorem ld4 (a8 : Vec F S10000x8 .f32) :
    Body.kernelRun0.sl.v254_4 (F := F) c i arg1 harg1 arg2 harg2 arg3 harg3 arg4 harg4 arg5 harg5 arg6 harg6 x1 x2 x3 x4 x5 x6 a8 = tileOf (base i a8) 4000 (by omega) := by
  funext x
  obtain ⟨r, k, rfl⟩ : ∃ (r : Fin 1000) (k : Fin 8), x = ValueIdx.ix2 r k := ⟨x 0, x 1, ValueIdx.eq_ix2 x⟩
  obtain ⟨n, hn⟩ : ∃ n : Fin 10000, n.val = 4000 + r.val := ⟨⟨4000 + r.val, by omega⟩, rfl⟩
  rw [tileOf_apply _ 4000 _ r k n hn]
  unfold Body.kernelRun0.sl.v254_4
  refine (readAt_tile _ _ 4000 _ r k n hn).trans ?_
  refine (AccRead.read_dguarded_tile_of_not_mem _ _ _ 3000 _ _ n k (by omega)).trans ?_
  refine (AccRead.read_dguarded_tile_of_not_mem _ _ _ 2000 _ _ n k (by omega)).trans ?_
  refine (AccRead.read_dguarded_tile_of_not_mem _ _ _ 1000 _ _ n k (by omega)).trans ?_
  refine (AccRead.read_dguarded_tile_of_not_mem _ _ _ 0 _ _ n k (by omega)).trans ?_
  exact read_reset _ _ _ _ _ a8 _

/-- Tile 5's load is the base's tile 5. -/
theorem ld5 (a8 : Vec F S10000x8 .f32) :
    Body.kernelRun0.sl.v254_5 (F := F) c i arg1 harg1 arg2 harg2 arg3 harg3 arg4 harg4 arg5 harg5 arg6 harg6 x1 x2 x3 x4 x5 x6 a8 = tileOf (base i a8) 5000 (by omega) := by
  funext x
  obtain ⟨r, k, rfl⟩ : ∃ (r : Fin 1000) (k : Fin 8), x = ValueIdx.ix2 r k := ⟨x 0, x 1, ValueIdx.eq_ix2 x⟩
  obtain ⟨n, hn⟩ : ∃ n : Fin 10000, n.val = 5000 + r.val := ⟨⟨5000 + r.val, by omega⟩, rfl⟩
  rw [tileOf_apply _ 5000 _ r k n hn]
  unfold Body.kernelRun0.sl.v254_5
  refine (readAt_tile _ _ 5000 _ r k n hn).trans ?_
  refine (AccRead.read_dguarded_tile_of_not_mem _ _ _ 4000 _ _ n k (by omega)).trans ?_
  refine (AccRead.read_dguarded_tile_of_not_mem _ _ _ 3000 _ _ n k (by omega)).trans ?_
  refine (AccRead.read_dguarded_tile_of_not_mem _ _ _ 2000 _ _ n k (by omega)).trans ?_
  refine (AccRead.read_dguarded_tile_of_not_mem _ _ _ 1000 _ _ n k (by omega)).trans ?_
  refine (AccRead.read_dguarded_tile_of_not_mem _ _ _ 0 _ _ n k (by omega)).trans ?_
  exact read_reset _ _ _ _ _ a8 _

/-- Tile 6's load is the base's tile 6. -/
theorem ld6 (a8 : Vec F S10000x8 .f32) :
    Body.kernelRun0.sl.v254_6 (F := F) c i arg1 harg1 arg2 harg2 arg3 harg3 arg4 harg4 arg5 harg5 arg6 harg6 x1 x2 x3 x4 x5 x6 a8 = tileOf (base i a8) 6000 (by omega) := by
  funext x
  obtain ⟨r, k, rfl⟩ : ∃ (r : Fin 1000) (k : Fin 8), x = ValueIdx.ix2 r k := ⟨x 0, x 1, ValueIdx.eq_ix2 x⟩
  obtain ⟨n, hn⟩ : ∃ n : Fin 10000, n.val = 6000 + r.val := ⟨⟨6000 + r.val, by omega⟩, rfl⟩
  rw [tileOf_apply _ 6000 _ r k n hn]
  unfold Body.kernelRun0.sl.v254_6
  refine (readAt_tile _ _ 6000 _ r k n hn).trans ?_
  refine (AccRead.read_dguarded_tile_of_not_mem _ _ _ 5000 _ _ n k (by omega)).trans ?_
  refine (AccRead.read_dguarded_tile_of_not_mem _ _ _ 4000 _ _ n k (by omega)).trans ?_
  refine (AccRead.read_dguarded_tile_of_not_mem _ _ _ 3000 _ _ n k (by omega)).trans ?_
  refine (AccRead.read_dguarded_tile_of_not_mem _ _ _ 2000 _ _ n k (by omega)).trans ?_
  refine (AccRead.read_dguarded_tile_of_not_mem _ _ _ 1000 _ _ n k (by omega)).trans ?_
  refine (AccRead.read_dguarded_tile_of_not_mem _ _ _ 0 _ _ n k (by omega)).trans ?_
  exact read_reset _ _ _ _ _ a8 _

/-- Tile 7's load is the base's tile 7. -/
theorem ld7 (a8 : Vec F S10000x8 .f32) :
    Body.kernelRun0.sl.v254_7 (F := F) c i arg1 harg1 arg2 harg2 arg3 harg3 arg4 harg4 arg5 harg5 arg6 harg6 x1 x2 x3 x4 x5 x6 a8 = tileOf (base i a8) 7000 (by omega) := by
  funext x
  obtain ⟨r, k, rfl⟩ : ∃ (r : Fin 1000) (k : Fin 8), x = ValueIdx.ix2 r k := ⟨x 0, x 1, ValueIdx.eq_ix2 x⟩
  obtain ⟨n, hn⟩ : ∃ n : Fin 10000, n.val = 7000 + r.val := ⟨⟨7000 + r.val, by omega⟩, rfl⟩
  rw [tileOf_apply _ 7000 _ r k n hn]
  unfold Body.kernelRun0.sl.v254_7
  refine (readAt_tile _ _ 7000 _ r k n hn).trans ?_
  refine (AccRead.read_dguarded_tile_of_not_mem _ _ _ 6000 _ _ n k (by omega)).trans ?_
  refine (AccRead.read_dguarded_tile_of_not_mem _ _ _ 5000 _ _ n k (by omega)).trans ?_
  refine (AccRead.read_dguarded_tile_of_not_mem _ _ _ 4000 _ _ n k (by omega)).trans ?_
  refine (AccRead.read_dguarded_tile_of_not_mem _ _ _ 3000 _ _ n k (by omega)).trans ?_
  refine (AccRead.read_dguarded_tile_of_not_mem _ _ _ 2000 _ _ n k (by omega)).trans ?_
  refine (AccRead.read_dguarded_tile_of_not_mem _ _ _ 1000 _ _ n k (by omega)).trans ?_
  refine (AccRead.read_dguarded_tile_of_not_mem _ _ _ 0 _ _ n k (by omega)).trans ?_
  exact read_reset _ _ _ _ _ a8 _

/-- Tile 8's load is the base's tile 8. -/
theorem ld8 (a8 : Vec F S10000x8 .f32) :
    Body.kernelRun0.sl.v254_8 (F := F) c i arg1 harg1 arg2 harg2 arg3 harg3 arg4 harg4 arg5 harg5 arg6 harg6 x1 x2 x3 x4 x5 x6 a8 = tileOf (base i a8) 8000 (by omega) := by
  funext x
  obtain ⟨r, k, rfl⟩ : ∃ (r : Fin 1000) (k : Fin 8), x = ValueIdx.ix2 r k := ⟨x 0, x 1, ValueIdx.eq_ix2 x⟩
  obtain ⟨n, hn⟩ : ∃ n : Fin 10000, n.val = 8000 + r.val := ⟨⟨8000 + r.val, by omega⟩, rfl⟩
  rw [tileOf_apply _ 8000 _ r k n hn]
  unfold Body.kernelRun0.sl.v254_8
  refine (readAt_tile _ _ 8000 _ r k n hn).trans ?_
  refine (AccRead.read_dguarded_tile_of_not_mem _ _ _ 7000 _ _ n k (by omega)).trans ?_
  refine (AccRead.read_dguarded_tile_of_not_mem _ _ _ 6000 _ _ n k (by omega)).trans ?_
  refine (AccRead.read_dguarded_tile_of_not_mem _ _ _ 5000 _ _ n k (by omega)).trans ?_
  refine (AccRead.read_dguarded_tile_of_not_mem _ _ _ 4000 _ _ n k (by omega)).trans ?_
  refine (AccRead.read_dguarded_tile_of_not_mem _ _ _ 3000 _ _ n k (by omega)).trans ?_
  refine (AccRead.read_dguarded_tile_of_not_mem _ _ _ 2000 _ _ n k (by omega)).trans ?_
  refine (AccRead.read_dguarded_tile_of_not_mem _ _ _ 1000 _ _ n k (by omega)).trans ?_
  refine (AccRead.read_dguarded_tile_of_not_mem _ _ _ 0 _ _ n k (by omega)).trans ?_
  exact read_reset _ _ _ _ _ a8 _

/-- Tile 9's load is the base's tile 9. -/
theorem ld9 (a8 : Vec F S10000x8 .f32) :
    Body.kernelRun0.sl.v254_9 (F := F) c i arg1 harg1 arg2 harg2 arg3 harg3 arg4 harg4 arg5 harg5 arg6 harg6 x1 x2 x3 x4 x5 x6 a8 = tileOf (base i a8) 9000 (by omega) := by
  funext x
  obtain ⟨r, k, rfl⟩ : ∃ (r : Fin 1000) (k : Fin 8), x = ValueIdx.ix2 r k := ⟨x 0, x 1, ValueIdx.eq_ix2 x⟩
  obtain ⟨n, hn⟩ : ∃ n : Fin 10000, n.val = 9000 + r.val := ⟨⟨9000 + r.val, by omega⟩, rfl⟩
  rw [tileOf_apply _ 9000 _ r k n hn]
  unfold Body.kernelRun0.sl.v254_9
  refine (readAt_tile _ _ 9000 _ r k n hn).trans ?_
  refine (AccRead.read_dguarded_tile_of_not_mem _ _ _ 8000 _ _ n k (by omega)).trans ?_
  refine (AccRead.read_dguarded_tile_of_not_mem _ _ _ 7000 _ _ n k (by omega)).trans ?_
  refine (AccRead.read_dguarded_tile_of_not_mem _ _ _ 6000 _ _ n k (by omega)).trans ?_
  refine (AccRead.read_dguarded_tile_of_not_mem _ _ _ 5000 _ _ n k (by omega)).trans ?_
  refine (AccRead.read_dguarded_tile_of_not_mem _ _ _ 4000 _ _ n k (by omega)).trans ?_
  refine (AccRead.read_dguarded_tile_of_not_mem _ _ _ 3000 _ _ n k (by omega)).trans ?_
  refine (AccRead.read_dguarded_tile_of_not_mem _ _ _ 2000 _ _ n k (by omega)).trans ?_
  refine (AccRead.read_dguarded_tile_of_not_mem _ _ _ 1000 _ _ n k (by omega)).trans ?_
  refine (AccRead.read_dguarded_tile_of_not_mem _ _ _ 0 _ _ n k (by omega)).trans ?_
  exact read_reset _ _ _ _ _ a8 _

/-- Node 0 + r, column k after the point. -/
theorem acc_tile0 (xi7 a8 : Vec F S10000x8 .f32) (r : Fin 1000) (k : Fin 8) (n : Fin 10000) (hn : n.val = 0 + r.val) :
    (Body.m8_0).view.read (Elt F)
        (Body.kernelRun0 c i arg1 harg1 arg2 harg2 arg3 harg3 arg4 harg4 arg5 harg5 arg6 harg6 x1 x2 x3 x4 x5 x6 xi7 a8).2.1 (ValueIdx.ix2 n k)
      = if Body.kernelRun0.sl.v191 c i arg1 harg1 arg2 harg2 x1 x2 = 1#1 then
          upd c arg3 harg3 arg4 harg4 arg5 harg5 arg6 harg6 x3 x4 x5 x6 ⟨0, by omega⟩ (tileOf (base i a8) 0 (by omega)) (ValueIdx.ix2 r k)
        else base i a8 (ValueIdx.ix2 n k) := by
  unfold Body.kernelRun0
  dsimp only
  refine (AccRead.read_dguarded_tile_of_not_mem _ _ _ 9000 _ _ n k (by omega)).trans ?_
  refine (AccRead.read_dguarded_tile_of_not_mem _ _ _ 8000 _ _ n k (by omega)).trans ?_
  refine (AccRead.read_dguarded_tile_of_not_mem _ _ _ 7000 _ _ n k (by omega)).trans ?_
  refine (AccRead.read_dguarded_tile_of_not_mem _ _ _ 6000 _ _ n k (by omega)).trans ?_
  refine (AccRead.read_dguarded_tile_of_not_mem _ _ _ 5000 _ _ n k (by omega)).trans ?_
  refine (AccRead.read_dguarded_tile_of_not_mem _ _ _ 4000 _ _ n k (by omega)).trans ?_
  refine (AccRead.read_dguarded_tile_of_not_mem _ _ _ 3000 _ _ n k (by omega)).trans ?_
  refine (AccRead.read_dguarded_tile_of_not_mem _ _ _ 2000 _ _ n k (by omega)).trans ?_
  refine (AccRead.read_dguarded_tile_of_not_mem _ _ _ 1000 _ _ n k (by omega)).trans ?_
  refine (AccRead.read_dguarded_tile_of_mem _ _ _ 0 _ _ n k r hn).trans ?_
  refine dite_ite_congr _ ?_ ?_
  · rw [ld0]; rfl
  · exact read_reset _ _ _ _ _ a8 _

/-- Node 1000 + r, column k after the point. -/
theorem acc_tile1 (xi7 a8 : Vec F S10000x8 .f32) (r : Fin 1000) (k : Fin 8) (n : Fin 10000) (hn : n.val = 1000 + r.val) :
    (Body.m8_0).view.read (Elt F)
        (Body.kernelRun0 c i arg1 harg1 arg2 harg2 arg3 harg3 arg4 harg4 arg5 harg5 arg6 harg6 x1 x2 x3 x4 x5 x6 xi7 a8).2.1 (ValueIdx.ix2 n k)
      = if Body.kernelRun0.sl.v196 c i arg1 harg1 arg2 harg2 x1 x2 = 1#1 then
          upd c arg3 harg3 arg4 harg4 arg5 harg5 arg6 harg6 x3 x4 x5 x6 ⟨1, by omega⟩ (tileOf (base i a8) 1000 (by omega)) (ValueIdx.ix2 r k)
        else base i a8 (ValueIdx.ix2 n k) := by
  unfold Body.kernelRun0
  dsimp only
  refine (AccRead.read_dguarded_tile_of_not_mem _ _ _ 9000 _ _ n k (by omega)).trans ?_
  refine (AccRead.read_dguarded_tile_of_not_mem _ _ _ 8000 _ _ n k (by omega)).trans ?_
  refine (AccRead.read_dguarded_tile_of_not_mem _ _ _ 7000 _ _ n k (by omega)).trans ?_
  refine (AccRead.read_dguarded_tile_of_not_mem _ _ _ 6000 _ _ n k (by omega)).trans ?_
  refine (AccRead.read_dguarded_tile_of_not_mem _ _ _ 5000 _ _ n k (by omega)).trans ?_
  refine (AccRead.read_dguarded_tile_of_not_mem _ _ _ 4000 _ _ n k (by omega)).trans ?_
  refine (AccRead.read_dguarded_tile_of_not_mem _ _ _ 3000 _ _ n k (by omega)).trans ?_
  refine (AccRead.read_dguarded_tile_of_not_mem _ _ _ 2000 _ _ n k (by omega)).trans ?_
  refine (AccRead.read_dguarded_tile_of_mem _ _ _ 1000 _ _ n k r hn).trans ?_
  refine dite_ite_congr _ ?_ ?_
  · rw [ld1]; rfl
  · refine (AccRead.read_dguarded_tile_of_not_mem _ _ _ 0 _ _ n k (by omega)).trans ?_
    exact read_reset _ _ _ _ _ a8 _

/-- Node 2000 + r, column k after the point. -/
theorem acc_tile2 (xi7 a8 : Vec F S10000x8 .f32) (r : Fin 1000) (k : Fin 8) (n : Fin 10000) (hn : n.val = 2000 + r.val) :
    (Body.m8_0).view.read (Elt F)
        (Body.kernelRun0 c i arg1 harg1 arg2 harg2 arg3 harg3 arg4 harg4 arg5 harg5 arg6 harg6 x1 x2 x3 x4 x5 x6 xi7 a8).2.1 (ValueIdx.ix2 n k)
      = if Body.kernelRun0.sl.v201 c i arg1 harg1 arg2 harg2 x1 x2 = 1#1 then
          upd c arg3 harg3 arg4 harg4 arg5 harg5 arg6 harg6 x3 x4 x5 x6 ⟨2, by omega⟩ (tileOf (base i a8) 2000 (by omega)) (ValueIdx.ix2 r k)
        else base i a8 (ValueIdx.ix2 n k) := by
  unfold Body.kernelRun0
  dsimp only
  refine (AccRead.read_dguarded_tile_of_not_mem _ _ _ 9000 _ _ n k (by omega)).trans ?_
  refine (AccRead.read_dguarded_tile_of_not_mem _ _ _ 8000 _ _ n k (by omega)).trans ?_
  refine (AccRead.read_dguarded_tile_of_not_mem _ _ _ 7000 _ _ n k (by omega)).trans ?_
  refine (AccRead.read_dguarded_tile_of_not_mem _ _ _ 6000 _ _ n k (by omega)).trans ?_
  refine (AccRead.read_dguarded_tile_of_not_mem _ _ _ 5000 _ _ n k (by omega)).trans ?_
  refine (AccRead.read_dguarded_tile_of_not_mem _ _ _ 4000 _ _ n k (by omega)).trans ?_
  refine (AccRead.read_dguarded_tile_of_not_mem _ _ _ 3000 _ _ n k (by omega)).trans ?_
  refine (AccRead.read_dguarded_tile_of_mem _ _ _ 2000 _ _ n k r hn).trans ?_
  refine dite_ite_congr _ ?_ ?_
  · rw [ld2]; rfl
  · refine (AccRead.read_dguarded_tile_of_not_mem _ _ _ 1000 _ _ n k (by omega)).trans ?_
    refine (AccRead.read_dguarded_tile_of_not_mem _ _ _ 0 _ _ n k (by omega)).trans ?_
    exact read_reset _ _ _ _ _ a8 _

/-- Node 3000 + r, column k after the point. -/
theorem acc_tile3 (xi7 a8 : Vec F S10000x8 .f32) (r : Fin 1000) (k : Fin 8) (n : Fin 10000) (hn : n.val = 3000 + r.val) :
    (Body.m8_0).view.read (Elt F)
        (Body.kernelRun0 c i arg1 harg1 arg2 harg2 arg3 harg3 arg4 harg4 arg5 harg5 arg6 harg6 x1 x2 x3 x4 x5 x6 xi7 a8).2.1 (ValueIdx.ix2 n k)
      = if Body.kernelRun0.sl.v206 c i arg1 harg1 arg2 harg2 x1 x2 = 1#1 then
          upd c arg3 harg3 arg4 harg4 arg5 harg5 arg6 harg6 x3 x4 x5 x6 ⟨3, by omega⟩ (tileOf (base i a8) 3000 (by omega)) (ValueIdx.ix2 r k)
        else base i a8 (ValueIdx.ix2 n k) := by
  unfold Body.kernelRun0
  dsimp only
  refine (AccRead.read_dguarded_tile_of_not_mem _ _ _ 9000 _ _ n k (by omega)).trans ?_
  refine (AccRead.read_dguarded_tile_of_not_mem _ _ _ 8000 _ _ n k (by omega)).trans ?_
  refine (AccRead.read_dguarded_tile_of_not_mem _ _ _ 7000 _ _ n k (by omega)).trans ?_
  refine (AccRead.read_dguarded_tile_of_not_mem _ _ _ 6000 _ _ n k (by omega)).trans ?_
  refine (AccRead.read_dguarded_tile_of_not_mem _ _ _ 5000 _ _ n k (by omega)).trans ?_
  refine (AccRead.read_dguarded_tile_of_not_mem _ _ _ 4000 _ _ n k (by omega)).trans ?_
  refine (AccRead.read_dguarded_tile_of_mem _ _ _ 3000 _ _ n k r hn).trans ?_
  refine dite_ite_congr _ ?_ ?_
  · rw [ld3]; rfl
  · refine (AccRead.read_dguarded_tile_of_not_mem _ _ _ 2000 _ _ n k (by omega)).trans ?_
    refine (AccRead.read_dguarded_tile_of_not_mem _ _ _ 1000 _ _ n k (by omega)).trans ?_
    refine (AccRead.read_dguarded_tile_of_not_mem _ _ _ 0 _ _ n k (by omega)).trans ?_
    exact read_reset _ _ _ _ _ a8 _

/-- Node 4000 + r, column k after the point. -/
theorem acc_tile4 (xi7 a8 : Vec F S10000x8 .f32) (r : Fin 1000) (k : Fin 8) (n : Fin 10000) (hn : n.val = 4000 + r.val) :
    (Body.m8_0).view.read (Elt F)
        (Body.kernelRun0 c i arg1 harg1 arg2 harg2 arg3 harg3 arg4 harg4 arg5 harg5 arg6 harg6 x1 x2 x3 x4 x5 x6 xi7 a8).2.1 (ValueIdx.ix2 n k)
      = if Body.kernelRun0.sl.v211 c i arg1 harg1 arg2 harg2 x1 x2 = 1#1 then
          upd c arg3 harg3 arg4 harg4 arg5 harg5 arg6 harg6 x3 x4 x5 x6 ⟨4, by omega⟩ (tileOf (base i a8) 4000 (by omega)) (ValueIdx.ix2 r k)
        else base i a8 (ValueIdx.ix2 n k) := by
  unfold Body.kernelRun0
  dsimp only
  refine (AccRead.read_dguarded_tile_of_not_mem _ _ _ 9000 _ _ n k (by omega)).trans ?_
  refine (AccRead.read_dguarded_tile_of_not_mem _ _ _ 8000 _ _ n k (by omega)).trans ?_
  refine (AccRead.read_dguarded_tile_of_not_mem _ _ _ 7000 _ _ n k (by omega)).trans ?_
  refine (AccRead.read_dguarded_tile_of_not_mem _ _ _ 6000 _ _ n k (by omega)).trans ?_
  refine (AccRead.read_dguarded_tile_of_not_mem _ _ _ 5000 _ _ n k (by omega)).trans ?_
  refine (AccRead.read_dguarded_tile_of_mem _ _ _ 4000 _ _ n k r hn).trans ?_
  refine dite_ite_congr _ ?_ ?_
  · rw [ld4]; rfl
  · refine (AccRead.read_dguarded_tile_of_not_mem _ _ _ 3000 _ _ n k (by omega)).trans ?_
    refine (AccRead.read_dguarded_tile_of_not_mem _ _ _ 2000 _ _ n k (by omega)).trans ?_
    refine (AccRead.read_dguarded_tile_of_not_mem _ _ _ 1000 _ _ n k (by omega)).trans ?_
    refine (AccRead.read_dguarded_tile_of_not_mem _ _ _ 0 _ _ n k (by omega)).trans ?_
    exact read_reset _ _ _ _ _ a8 _

/-- Node 5000 + r, column k after the point. -/
theorem acc_tile5 (xi7 a8 : Vec F S10000x8 .f32) (r : Fin 1000) (k : Fin 8) (n : Fin 10000) (hn : n.val = 5000 + r.val) :
    (Body.m8_0).view.read (Elt F)
        (Body.kernelRun0 c i arg1 harg1 arg2 harg2 arg3 harg3 arg4 harg4 arg5 harg5 arg6 harg6 x1 x2 x3 x4 x5 x6 xi7 a8).2.1 (ValueIdx.ix2 n k)
      = if Body.kernelRun0.sl.v216 c i arg1 harg1 arg2 harg2 x1 x2 = 1#1 then
          upd c arg3 harg3 arg4 harg4 arg5 harg5 arg6 harg6 x3 x4 x5 x6 ⟨5, by omega⟩ (tileOf (base i a8) 5000 (by omega)) (ValueIdx.ix2 r k)
        else base i a8 (ValueIdx.ix2 n k) := by
  unfold Body.kernelRun0
  dsimp only
  refine (AccRead.read_dguarded_tile_of_not_mem _ _ _ 9000 _ _ n k (by omega)).trans ?_
  refine (AccRead.read_dguarded_tile_of_not_mem _ _ _ 8000 _ _ n k (by omega)).trans ?_
  refine (AccRead.read_dguarded_tile_of_not_mem _ _ _ 7000 _ _ n k (by omega)).trans ?_
  refine (AccRead.read_dguarded_tile_of_not_mem _ _ _ 6000 _ _ n k (by omega)).trans ?_
  refine (AccRead.read_dguarded_tile_of_mem _ _ _ 5000 _ _ n k r hn).trans ?_
  refine dite_ite_congr _ ?_ ?_
  · rw [ld5]; rfl
  · refine (AccRead.read_dguarded_tile_of_not_mem _ _ _ 4000 _ _ n k (by omega)).trans ?_
    refine (AccRead.read_dguarded_tile_of_not_mem _ _ _ 3000 _ _ n k (by omega)).trans ?_
    refine (AccRead.read_dguarded_tile_of_not_mem _ _ _ 2000 _ _ n k (by omega)).trans ?_
    refine (AccRead.read_dguarded_tile_of_not_mem _ _ _ 1000 _ _ n k (by omega)).trans ?_
    refine (AccRead.read_dguarded_tile_of_not_mem _ _ _ 0 _ _ n k (by omega)).trans ?_
    exact read_reset _ _ _ _ _ a8 _

/-- Node 6000 + r, column k after the point. -/
theorem acc_tile6 (xi7 a8 : Vec F S10000x8 .f32) (r : Fin 1000) (k : Fin 8) (n : Fin 10000) (hn : n.val = 6000 + r.val) :
    (Body.m8_0).view.read (Elt F)
        (Body.kernelRun0 c i arg1 harg1 arg2 harg2 arg3 harg3 arg4 harg4 arg5 harg5 arg6 harg6 x1 x2 x3 x4 x5 x6 xi7 a8).2.1 (ValueIdx.ix2 n k)
      = if Body.kernelRun0.sl.v221 c i arg1 harg1 arg2 harg2 x1 x2 = 1#1 then
          upd c arg3 harg3 arg4 harg4 arg5 harg5 arg6 harg6 x3 x4 x5 x6 ⟨6, by omega⟩ (tileOf (base i a8) 6000 (by omega)) (ValueIdx.ix2 r k)
        else base i a8 (ValueIdx.ix2 n k) := by
  unfold Body.kernelRun0
  dsimp only
  refine (AccRead.read_dguarded_tile_of_not_mem _ _ _ 9000 _ _ n k (by omega)).trans ?_
  refine (AccRead.read_dguarded_tile_of_not_mem _ _ _ 8000 _ _ n k (by omega)).trans ?_
  refine (AccRead.read_dguarded_tile_of_not_mem _ _ _ 7000 _ _ n k (by omega)).trans ?_
  refine (AccRead.read_dguarded_tile_of_mem _ _ _ 6000 _ _ n k r hn).trans ?_
  refine dite_ite_congr _ ?_ ?_
  · rw [ld6]; rfl
  · refine (AccRead.read_dguarded_tile_of_not_mem _ _ _ 5000 _ _ n k (by omega)).trans ?_
    refine (AccRead.read_dguarded_tile_of_not_mem _ _ _ 4000 _ _ n k (by omega)).trans ?_
    refine (AccRead.read_dguarded_tile_of_not_mem _ _ _ 3000 _ _ n k (by omega)).trans ?_
    refine (AccRead.read_dguarded_tile_of_not_mem _ _ _ 2000 _ _ n k (by omega)).trans ?_
    refine (AccRead.read_dguarded_tile_of_not_mem _ _ _ 1000 _ _ n k (by omega)).trans ?_
    refine (AccRead.read_dguarded_tile_of_not_mem _ _ _ 0 _ _ n k (by omega)).trans ?_
    exact read_reset _ _ _ _ _ a8 _

/-- Node 7000 + r, column k after the point. -/
theorem acc_tile7 (xi7 a8 : Vec F S10000x8 .f32) (r : Fin 1000) (k : Fin 8) (n : Fin 10000) (hn : n.val = 7000 + r.val) :
    (Body.m8_0).view.read (Elt F)
        (Body.kernelRun0 c i arg1 harg1 arg2 harg2 arg3 harg3 arg4 harg4 arg5 harg5 arg6 harg6 x1 x2 x3 x4 x5 x6 xi7 a8).2.1 (ValueIdx.ix2 n k)
      = if Body.kernelRun0.sl.v226 c i arg1 harg1 arg2 harg2 x1 x2 = 1#1 then
          upd c arg3 harg3 arg4 harg4 arg5 harg5 arg6 harg6 x3 x4 x5 x6 ⟨7, by omega⟩ (tileOf (base i a8) 7000 (by omega)) (ValueIdx.ix2 r k)
        else base i a8 (ValueIdx.ix2 n k) := by
  unfold Body.kernelRun0
  dsimp only
  refine (AccRead.read_dguarded_tile_of_not_mem _ _ _ 9000 _ _ n k (by omega)).trans ?_
  refine (AccRead.read_dguarded_tile_of_not_mem _ _ _ 8000 _ _ n k (by omega)).trans ?_
  refine (AccRead.read_dguarded_tile_of_mem _ _ _ 7000 _ _ n k r hn).trans ?_
  refine dite_ite_congr _ ?_ ?_
  · rw [ld7]; rfl
  · refine (AccRead.read_dguarded_tile_of_not_mem _ _ _ 6000 _ _ n k (by omega)).trans ?_
    refine (AccRead.read_dguarded_tile_of_not_mem _ _ _ 5000 _ _ n k (by omega)).trans ?_
    refine (AccRead.read_dguarded_tile_of_not_mem _ _ _ 4000 _ _ n k (by omega)).trans ?_
    refine (AccRead.read_dguarded_tile_of_not_mem _ _ _ 3000 _ _ n k (by omega)).trans ?_
    refine (AccRead.read_dguarded_tile_of_not_mem _ _ _ 2000 _ _ n k (by omega)).trans ?_
    refine (AccRead.read_dguarded_tile_of_not_mem _ _ _ 1000 _ _ n k (by omega)).trans ?_
    refine (AccRead.read_dguarded_tile_of_not_mem _ _ _ 0 _ _ n k (by omega)).trans ?_
    exact read_reset _ _ _ _ _ a8 _

/-- Node 8000 + r, column k after the point. -/
theorem acc_tile8 (xi7 a8 : Vec F S10000x8 .f32) (r : Fin 1000) (k : Fin 8) (n : Fin 10000) (hn : n.val = 8000 + r.val) :
    (Body.m8_0).view.read (Elt F)
        (Body.kernelRun0 c i arg1 harg1 arg2 harg2 arg3 harg3 arg4 harg4 arg5 harg5 arg6 harg6 x1 x2 x3 x4 x5 x6 xi7 a8).2.1 (ValueIdx.ix2 n k)
      = if Body.kernelRun0.sl.v231 c i arg1 harg1 arg2 harg2 x1 x2 = 1#1 then
          upd c arg3 harg3 arg4 harg4 arg5 harg5 arg6 harg6 x3 x4 x5 x6 ⟨8, by omega⟩ (tileOf (base i a8) 8000 (by omega)) (ValueIdx.ix2 r k)
        else base i a8 (ValueIdx.ix2 n k) := by
  unfold Body.kernelRun0
  dsimp only
  refine (AccRead.read_dguarded_tile_of_not_mem _ _ _ 9000 _ _ n k (by omega)).trans ?_
  refine (AccRead.read_dguarded_tile_of_mem _ _ _ 8000 _ _ n k r hn).trans ?_
  refine dite_ite_congr _ ?_ ?_
  · rw [ld8]; rfl
  · refine (AccRead.read_dguarded_tile_of_not_mem _ _ _ 7000 _ _ n k (by omega)).trans ?_
    refine (AccRead.read_dguarded_tile_of_not_mem _ _ _ 6000 _ _ n k (by omega)).trans ?_
    refine (AccRead.read_dguarded_tile_of_not_mem _ _ _ 5000 _ _ n k (by omega)).trans ?_
    refine (AccRead.read_dguarded_tile_of_not_mem _ _ _ 4000 _ _ n k (by omega)).trans ?_
    refine (AccRead.read_dguarded_tile_of_not_mem _ _ _ 3000 _ _ n k (by omega)).trans ?_
    refine (AccRead.read_dguarded_tile_of_not_mem _ _ _ 2000 _ _ n k (by omega)).trans ?_
    refine (AccRead.read_dguarded_tile_of_not_mem _ _ _ 1000 _ _ n k (by omega)).trans ?_
    refine (AccRead.read_dguarded_tile_of_not_mem _ _ _ 0 _ _ n k (by omega)).trans ?_
    exact read_reset _ _ _ _ _ a8 _

/-- Node 9000 + r, column k after the point. -/
theorem acc_tile9 (xi7 a8 : Vec F S10000x8 .f32) (r : Fin 1000) (k : Fin 8) (n : Fin 10000) (hn : n.val = 9000 + r.val) :
    (Body.m8_0).view.read (Elt F)
        (Body.kernelRun0 c i arg1 harg1 arg2 harg2 arg3 harg3 arg4 harg4 arg5 harg5 arg6 harg6 x1 x2 x3 x4 x5 x6 xi7 a8).2.1 (ValueIdx.ix2 n k)
      = if Body.kernelRun0.sl.v236 c i arg1 harg1 arg2 harg2 x1 x2 = 1#1 then
          upd c arg3 harg3 arg4 harg4 arg5 harg5 arg6 harg6 x3 x4 x5 x6 ⟨9, by omega⟩ (tileOf (base i a8) 9000 (by omega)) (ValueIdx.ix2 r k)
        else base i a8 (ValueIdx.ix2 n k) := by
  unfold Body.kernelRun0
  dsimp only
  refine (AccRead.read_dguarded_tile_of_mem _ _ _ 9000 _ _ n k r hn).trans ?_
  refine dite_ite_congr _ ?_ ?_
  · rw [ld9]; rfl
  · refine (AccRead.read_dguarded_tile_of_not_mem _ _ _ 8000 _ _ n k (by omega)).trans ?_
    refine (AccRead.read_dguarded_tile_of_not_mem _ _ _ 7000 _ _ n k (by omega)).trans ?_
    refine (AccRead.read_dguarded_tile_of_not_mem _ _ _ 6000 _ _ n k (by omega)).trans ?_
    refine (AccRead.read_dguarded_tile_of_not_mem _ _ _ 5000 _ _ n k (by omega)).trans ?_
    refine (AccRead.read_dguarded_tile_of_not_mem _ _ _ 4000 _ _ n k (by omega)).trans ?_
    refine (AccRead.read_dguarded_tile_of_not_mem _ _ _ 3000 _ _ n k (by omega)).trans ?_
    refine (AccRead.read_dguarded_tile_of_not_mem _ _ _ 2000 _ _ n k (by omega)).trans ?_
    refine (AccRead.read_dguarded_tile_of_not_mem _ _ _ 1000 _ _ n k (by omega)).trans ?_
    refine (AccRead.read_dguarded_tile_of_not_mem _ _ _ 0 _ _ n k (by omega)).trans ?_
    exact read_reset _ _ _ _ _ a8 _

/-- Every node at once: node 1000 t + r reads tile t's update of the base's tile under tile t's guard, else the base. -/
theorem acc_tile (t : Fin 10) (xi7 a8 : Vec F S10000x8 .f32) (r : Fin 1000) (k : Fin 8) (n : Fin 10000)
    (hn : n.val = 1000 * t.val + r.val) :
    (Body.m8_0).view.read (Elt F)
        (Body.kernelRun0 c i arg1 harg1 arg2 harg2 arg3 harg3 arg4 harg4 arg5 harg5 arg6 harg6 x1 x2 x3 x4 x5 x6 xi7 a8).2.1 (ValueIdx.ix2 n k)
      = if guardW c i arg1 harg1 arg2 harg2 x1 x2 t = 1#1 then
          upd c arg3 harg3 arg4 harg4 arg5 harg5 arg6 harg6 x3 x4 x5 x6 t (tileOf (base i a8) (1000 * t.val) (by have := t.isLt; omega)) (ValueIdx.ix2 r k)
        else base i a8 (ValueIdx.ix2 n k) := by
  match t with
  | ⟨0, _⟩ => exact acc_tile0 c i arg1 harg1 arg2 harg2 arg3 harg3 arg4 harg4 arg5 harg5 arg6 harg6 x1 x2 x3 x4 x5 x6 xi7 a8 r k n hn
  | ⟨1, _⟩ => exact acc_tile1 c i arg1 harg1 arg2 harg2 arg3 harg3 arg4 harg4 arg5 harg5 arg6 harg6 x1 x2 x3 x4 x5 x6 xi7 a8 r k n hn
  | ⟨2, _⟩ => exact acc_tile2 c i arg1 harg1 arg2 harg2 arg3 harg3 arg4 harg4 arg5 harg5 arg6 harg6 x1 x2 x3 x4 x5 x6 xi7 a8 r k n hn
  | ⟨3, _⟩ => exact acc_tile3 c i arg1 harg1 arg2 harg2 arg3 harg3 arg4 harg4 arg5 harg5 arg6 harg6 x1 x2 x3 x4 x5 x6 xi7 a8 r k n hn
  | ⟨4, _⟩ => exact acc_tile4 c i arg1 harg1 arg2 harg2 arg3 harg3 arg4 harg4 arg5 harg5 arg6 harg6 x1 x2 x3 x4 x5 x6 xi7 a8 r k n hn
  | ⟨5, _⟩ => exact acc_tile5 c i arg1 harg1 arg2 harg2 arg3 harg3 arg4 harg4 arg5 harg5 arg6 harg6 x1 x2 x3 x4 x5 x6 xi7 a8 r k n hn
  | ⟨6, _⟩ => exact acc_tile6 c i arg1 harg1 arg2 harg2 arg3 harg3 arg4 harg4 arg5 harg5 arg6 harg6 x1 x2 x3 x4 x5 x6 xi7 a8 r k n hn
  | ⟨7, _⟩ => exact acc_tile7 c i arg1 harg1 arg2 harg2 arg3 harg3 arg4 harg4 arg5 harg5 arg6 harg6 x1 x2 x3 x4 x5 x6 xi7 a8 r k n hn
  | ⟨8, _⟩ => exact acc_tile8 c i arg1 harg1 arg2 harg2 arg3 harg3 arg4 harg4 arg5 harg5 arg6 harg6 x1 x2 x3 x4 x5 x6 xi7 a8 r k n hn
  | ⟨9, _⟩ => exact acc_tile9 c i arg1 harg1 arg2 harg2 arg3 harg3 arg4 harg4 arg5 harg5 arg6 harg6 x1 x2 x3 x4 x5 x6 xi7 a8 r k n hn

/-- What the point found enters only through the base: at a point whose base is the same for two accumulators the
    whole result is the same. -/
theorem acc_congr_base (xi7 xi7' a a' : Vec F S10000x8 .f32) (h : base i a = base i a') :
    (Body.m8_0).view.read (Elt F) (Body.kernelRun0 c i arg1 harg1 arg2 harg2 arg3 harg3 arg4 harg4 arg5 harg5 arg6 harg6 x1 x2 x3 x4 x5 x6 xi7 a).2.1
      = (Body.m8_0).view.read (Elt F) (Body.kernelRun0 c i arg1 harg1 arg2 harg2 arg3 harg3 arg4 harg4 arg5 harg5 arg6 harg6 x1 x2 x3 x4 x5 x6 xi7' a').2.1 := by
  funext y
  obtain ⟨n, k, rfl⟩ : ∃ (n : Fin 10000) (k : Fin 8), y = ValueIdx.ix2 n k := ⟨y 0, y 1, ValueIdx.eq_ix2 y⟩
  have hn : n.val = 1000 * (⟨n.val / 1000, by have := n.isLt; omega⟩ : Fin 10).val + (⟨n.val % 1000, Nat.mod_lt _ (by omega)⟩ : Fin 1000).val :=
    (Nat.div_add_mod n.val 1000).symm
  rw [acc_tile c i arg1 harg1 arg2 harg2 arg3 harg3 arg4 harg4 arg5 harg5 arg6 harg6 x1 x2 x3 x4 x5 x6 _ xi7 a _ k n hn, acc_tile c i arg1 harg1 arg2 harg2 arg3 harg3 arg4 harg4 arg5 harg5 arg6 harg6 x1 x2 x3 x4 x5 x6 _ xi7' a' _ k n hn, h]

end Tiles

/-! ## The first grid point -/

/-- The reset's guard, as the run names it, is the grid coordinate being zero. -/
theorem first_eq (i : grid0.Coords) : Body.kernelRun0.sl.v2 i = 1#1 ↔ (i 0).val = 0 := by
  sl_unfold_run_names
  exact AccRead.first_iff (i 0).val (i 0).isLt

/-! ## The accumulator the point leaves -/

section Final
variable (c : Dev nD) (i : grid0.Coords)
  (arg1 : Memref sig .tc .smem S489 .i32) (harg1 : arg1.IsWhole) (arg2 : Memref sig .tc .smem S489 .i32) (harg2 : arg2.IsWhole)
  (arg3 : Memref sig .tc .vmem S10000x8 .f32) (harg3 : arg3.IsWhole) (arg4 : Memref sig .tc .vmem S4096 .i32) (harg4 : arg4.IsWhole)
  (arg5 : Memref sig .tc .vmem S4096 .i32) (harg5 : arg5.IsWhole) (arg6 : Memref sig .tc .vmem S4096 .f32) (harg6 : arg6.IsWhole)
  (x1 x2 : Vec F S489 .i32) (x3 : Vec F S10000x8 .f32) (x4 x5 : Vec F S4096 .i32) (x6 : Vec F S4096 .f32)

/-- Node 1000 t + r, column k of the accumulator the point leaves: tile t's update of the base's tile under tile t's
    guard, else the base. -/
theorem acc8_0_tile (a8 : Vec F S10000x8 .f32) (t : Fin 10) (r : Fin 1000) (k : Fin 8) (n : Fin 10000)
    (hn : n.val = 1000 * t.val + r.val) :
    Body.acc8_0 c i arg1 harg1 arg2 harg2 arg3 harg3 arg4 harg4 arg5 harg5 arg6 harg6 x1 x2 x3 x4 x5 x6 a8 (ValueIdx.ix2 n k)
      = if guardW c i arg1 harg1 arg2 harg2 x1 x2 t = 1#1 then
          upd c arg3 harg3 arg4 harg4 arg5 harg5 arg6 harg6 x3 x4 x5 x6 t (tileOf (base i a8) (1000 * t.val) (by have := t.isLt; omega)) (ValueIdx.ix2 r k)
        else base i a8 (ValueIdx.ix2 n k) := by
  show (Body.m8_0).view.read (Elt F) (Body.kernelRun0 c i arg1 harg1 arg2 harg2 arg3 harg3 arg4 harg4 arg5 harg5 arg6 harg6 x1 x2 x3 x4 x5 x6 a8 a8).2.1 (ValueIdx.ix2 n k) = _
  exact acc_tile c i arg1 harg1 arg2 harg2 arg3 harg3 arg4 harg4 arg5 harg5 arg6 harg6 x1 x2 x3 x4 x5 x6 t a8 a8 r k n hn

/-- At the first point the accumulator is reset before it is read: what it held does not matter. -/
theorem acc8_0_first (a a' : Vec F S10000x8 .f32) (h : (i 0).val = 0) :
    Body.acc8_0 c i arg1 harg1 arg2 harg2 arg3 harg3 arg4 harg4 arg5 harg5 arg6 harg6 x1 x2 x3 x4 x5 x6 a = Body.acc8_0 c i arg1 harg1 arg2 harg2 arg3 harg3 arg4 harg4 arg5 harg5 arg6 harg6 x1 x2 x3 x4 x5 x6 a' := by
  show (Body.m8_0).view.read (Elt F) (Body.kernelRun0 c i arg1 harg1 arg2 harg2 arg3 harg3 arg4 harg4 arg5 harg5 arg6 harg6 x1 x2 x3 x4 x5 x6 a a).2.1
    = (Body.m8_0).view.read (Elt F) (Body.kernelRun0 c i arg1 harg1 arg2 harg2 arg3 harg3 arg4 harg4 arg5 harg5 arg6 harg6 x1 x2 x3 x4 x5 x6 a' a').2.1
  exact acc_congr_base c i arg1 harg1 arg2 harg2 arg3 harg3 arg4 harg4 arg5 harg5 arg6 harg6 x1 x2 x3 x4 x5 x6 a a' a a' (base_first i a a' ((first_eq i).mpr h))

end Final

end Cert.Kernel.AccEval

end
-- ==== Proof.BDat0.lean ====
/-
  The first message pass (custom_call 0) as a pipeline on one core: its proof data at the contents `V` the region
  finds in the core's unscoped buffers, and the body obligation.

  The two prefetched tables are read off `V` and held whole through every point. The node states (window 0) are one
  block fetched once; the gather indices, scatter indices and weights (windows 1 to 3) move to a new block of 4096
  entries at every point; each input's buffer holds its block at every point, fetched there or not. The accumulator
  is a scoped buffer carried between points: before point `t + 1` it holds `accAt0 (t + 1)`, the body's update at
  point `t` of `accAt0 t`; before point 0 it holds anything, and the body resets it there before reading it. The
  output block (window 4) is written by the body at the last point only, where it receives the updated accumulator,
  and is written back only there: before, the body hands its buffer back as it found it. So the output array ends
  holding `accAt0 489`, and the input arrays are never written.
-/
import proofs.«400082_j83537113907851_4_alg».proof.Proof.BRun0
import proofs.«400082_j83537113907851_4_alg».proof.Proof.BAccEval0
import proofs.«400082_j83537113907851_4_alg».proof.Proof.Gen.Kernel.Launch
import Idealize.ShloMosaic.Lib.Pipeline.Frame
import Idealize.ShloMosaic.Lib.Pipeline.FrameBody
import Idealize.ShloMosaic.Lib.Pipeline.Kit
import Idealize.ShloMosaic.Lib.Pipeline.Value

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- core `c`'s unscoped buffers as the region finds them
variable (V : (c : Dev nD) → (b : Ref sig .tc) → Buf (Elt F) ((c : Thread nD τ).loc b))

/-! ## The tables, the grid's points, the windows' blocks -/

/-- The admissible table contents the region runs at: the two tables as core 0 (the only core) holds them at entry.
    The side condition on them is empty. -/
abbrev adm0 : (pcfg0 (F := F)).Adm :=
  ⟨fun | 0 => V 0 main_v40 | 1 => V 0 main_v43 | ⟨_ + 2, h⟩ => absurd h (Nat.not_lt.2 (Nat.le_add_left _ _)), trivial⟩

/-- The two tables at their literal type. -/
abbrev tabA0 : Vec F S489 .i32 := (adm0 V).1 0
abbrev tabB0 : Vec F S489 .i32 := (adm0 V).1 1

/-- The grid has 489 points at any table contents. -/
theorem N0_eq (a : (pcfg0 (F := F)).Adm) : (cfg0 a).N = 489 := N_0

/-- Point number `t` of the grid. -/
abbrev pt0 (t : Nat) (h : t < 489) : Fin (cfg0 (adm0 V)).N := ⟨t, Nat.lt_of_lt_of_eq h (N0_eq (adm0 V)).symm⟩

/-- Window `w`'s block at point `t`, read off its array as the region finds it (`V`). -/
def iblk0 (c : Dev nD) (w : Fin (cfg0 (adm0 V)).W) (t : Fin (cfg0 (adm0 V)).N) :
    (((cfg0 (adm0 V)).win w).xblock ((cfg0 (adm0 V)).grid.coords t)).Idx → Elt F ((cfg0 (adm0 V)).win w).elt :=
  (((cfg0 (adm0 V)).win w).blk t).view.read (Elt F) (V c (Pipeline.arrRef spec0 w))

/-- The four input blocks at their literal types: the node states, and the chunk's gather indices, scatter indices and weights. -/
abbrev xs0 (c : Dev nD) (t : Fin (cfg0 (adm0 V)).N) : Vec F S10000x8 .f32 := iblk0 V c 0 t
abbrev gi0 (c : Dev nD) (t : Fin (cfg0 (adm0 V)).N) : Vec F S4096 .i32 := iblk0 V c 1 t
abbrev si0 (c : Dev nD) (t : Fin (cfg0 (adm0 V)).N) : Vec F S4096 .i32 := iblk0 V c 2 t
abbrev ws0 (c : Dev nD) (t : Fin (cfg0 (adm0 V)).N) : Vec F S4096 .f32 := iblk0 V c 3 t

/-! ## The body's two results, on the memrefs the pipeline calls it with -/

/-- The accumulator after the body at grid coordinates `i`, called with the two tables' whole memrefs and the inputs'
    staging buffers `s0 … s3`, from the values it reads and the accumulator `a8` it found. -/
def accOn0 (c : Dev nD) (i : grid0.Coords) (s0 : Fin 1) (s1 s2 s3 : Fin 2) (x1 x2 : Vec F S489 .i32) (x3 : Vec F S10000x8 .f32)
    (x4 x5 : Vec F S4096 .i32) (x6 : Vec F S4096 .f32) (a8 : Vec F S10000x8 .f32) : Vec F S10000x8 .f32 :=
  Body.acc8_0 c i (Memref.whole main_v40) (Memref.isWhole_whole _) (Memref.whole main_v43) (Memref.isWhole_whole _)
    (stage0_0 s0) (hstage0_0 s0) (stage0_1 s1) (hstage0_1 s1) (stage0_2 s2) (hstage0_2 s2) (stage0_3 s3) (hstage0_3 s3)
    x1 x2 x3 x4 x5 x6 a8

/-- The output block's buffer after the same call, having held `xi7`. -/
def outOn0 (c : Dev nD) (i : grid0.Coords) (s0 : Fin 1) (s1 s2 s3 : Fin 2) (x1 x2 : Vec F S489 .i32) (x3 : Vec F S10000x8 .f32)
    (x4 x5 : Vec F S4096 .i32) (x6 : Vec F S4096 .f32) (xi7 a8 : Vec F S10000x8 .f32) : Vec F S10000x8 .f32 :=
  Body.out7_0 c i (Memref.whole main_v40) (Memref.isWhole_whole _) (Memref.whole main_v43) (Memref.isWhole_whole _)
    (stage0_0 s0) (hstage0_0 s0) (stage0_1 s1) (hstage0_1 s1) (stage0_2 s2) (hstage0_2 s2) (stage0_3 s3) (hstage0_3 s3)
    x1 x2 x3 x4 x5 x6 xi7 a8

/-- Before the last point the body leaves the output block's buffer as it found it; at the last point it copies the
    updated accumulator into it; at the first point the accumulator is reset before it is read. -/
theorem outOn0_idle {c : Dev nD} {i : grid0.Coords} {s0 : Fin 1} {s1 s2 s3 : Fin 2} {x1 x2 : Vec F S489 .i32} {x3 : Vec F S10000x8 .f32}
    {x4 x5 : Vec F S4096 .i32} {x6 : Vec F S4096 .f32} {xi7 a8 : Vec F S10000x8 .f32} (h : ¬ k0_cond12 i = 1#1) :
    outOn0 c i s0 s1 s2 s3 x1 x2 x3 x4 x5 x6 xi7 a8 = xi7 :=
  Body.out7_0_idle _ _ _ _ _ _ _ _ _ _ _ _ _ _ _ _ _ _ _ _ _ _ h
theorem outOn0_last {c : Dev nD} {i : grid0.Coords} {s0 : Fin 1} {s1 s2 s3 : Fin 2} {x1 x2 : Vec F S489 .i32} {x3 : Vec F S10000x8 .f32}
    {x4 x5 : Vec F S4096 .i32} {x6 : Vec F S4096 .f32} {xi7 a8 : Vec F S10000x8 .f32} (h : k0_cond12 i = 1#1) :
    outOn0 c i s0 s1 s2 s3 x1 x2 x3 x4 x5 x6 xi7 a8 = accOn0 c i s0 s1 s2 s3 x1 x2 x3 x4 x5 x6 a8 :=
  Body.out7_0_last _ _ _ _ _ _ _ _ _ _ _ _ _ _ _ _ _ _ _ _ _ _ h
theorem accOn0_first {c : Dev nD} {i : grid0.Coords} {s0 : Fin 1} {s1 s2 s3 : Fin 2} {x1 x2 : Vec F S489 .i32} {x3 : Vec F S10000x8 .f32}
    {x4 x5 : Vec F S4096 .i32} {x6 : Vec F S4096 .f32} (a a' : Vec F S10000x8 .f32) (h : (i 0).val = 0) :
    accOn0 c i s0 s1 s2 s3 x1 x2 x3 x4 x5 x6 a = accOn0 c i s0 s1 s2 s3 x1 x2 x3 x4 x5 x6 a' :=
  AccEval.acc8_0_first _ _ _ _ _ _ _ _ _ _ _ _ _ _ _ _ _ _ _ _ _ _ h

/-! ## The accumulator between points -/

/-- Contents that nothing reads: some contents of a 10000 x 8 buffer. -/
def any0 : Vec F S10000x8 .f32 := fun _ => @Classical.arbitrary (Elt F .f32) (Elt.nonempty F .f32)

/-- The accumulator BEFORE point `t`: anything before point 0 (the body resets it there before reading it); before
    point `t + 1` the body's update at point `t` of what it held before point `t`; unchanged past the grid. -/
def accAt0 (c : Dev nD) : Nat → Vec F S10000x8 .f32
  | 0 => any0
  | t + 1 =>
    if h : t < 489 then
      accOn0 c (grid0.coords (pt0 V t h)) ((cfg0 (adm0 V)).slots (pt0 V t h) 0) ((cfg0 (adm0 V)).slots (pt0 V t h) 1) ((cfg0 (adm0 V)).slots (pt0 V t h) 2) ((cfg0 (adm0 V)).slots (pt0 V t h) 3)
        (tabA0 V) (tabB0 V) (xs0 V c (pt0 V t h)) (gi0 V c (pt0 V t h)) (si0 V c (pt0 V t h)) (ws0 V c (pt0 V t h)) (accAt0 c t)
    else accAt0 c t

/-! ## The invariant between points and the proof data -/

/-- Between points: the two tables held whole at the contents the pipeline runs at; the accumulator at anything before
    point 0 and at `accAt0 t` before a later point `t`; the one-hot scratch at anything; the core's other scoped
    buffers that are no staging buffer of this call, each at some contents; the generator register at some state. -/
def Phi0 (c : Dev nD) (t : Fin ((cfg0 (adm0 V)).N + 1)) : sProp 𝕄 :=
  iprop(Pipeline.prefHeld pre0 c (fun _ => fullShare) (adm0 V).1
    ∗ (if t.val = 0 then iprop(∃ d, owns (c : Thread nD τ) Body.m8_0 fullShare d)
        else owns (c : Thread nD τ) Body.m8_0 fullShare (accAt0 V c t.val))
    ∗ (∃ d, owns (c : Thread nD τ) Body.m9_0 fullShare d)
    ∗ Pipeline.scopedRestBut (Ix := Unit) (Name := ℕ) (U := UR sig nD τ) (Lvl := ℕ) (Val := Elt F) spec0 c [cc0_scratch0, cc0_scratch1]
    ∗ ∃ r, prngReg c r)

/-- The proof data of pipeline 0 on core `c`: the arrays as the region finds them (`V`); after the body at point `t`
    each input's buffer at its block, and the output's buffer at what the body leaves there having found anything
    (consulted at the last point only, where it is the updated accumulator whatever the buffer held); the invariant
    `Phi0`; nothing owed; full shares. -/
def dat0 (c : Dev nD) : Dat τ (Elt F) Unit ℕ (UR sig nD τ) ℕ (cfg0 (adm0 V)) c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outOn0 c (grid0.coords t) ((cfg0 (adm0 V)).slots t 0) ((cfg0 (adm0 V)).slots t 1) ((cfg0 (adm0 V)).slots t 2) ((cfg0 (adm0 V)).slots t 3)
        (tabA0 V) (tabB0 V) (xs0 V c t) (gi0 V c t) (si0 V c t) (ws0 V c t) any0 (accAt0 V c t.val)
  Φ t := Phi0 V c t
  q _ := fullShare
  owed _ := 0

/-- The proof data's arrays are the region-entry contents. -/
theorem A_eq0 (c : Dev nD) (w : Fin (cfg0 (adm0 V)).W) : (dat0 V c).A w = V c (Pipeline.arrRef spec0 w) := by
  dsimp only [dat0]

/-- Nothing is owed between points, every array is held at the full share, and the invariant is `Phi0`. -/
theorem owed0 (c : Dev nD) (t : Fin ((cfg0 (adm0 V)).N + 1)) : (dat0 V c).owed t = 0 := rfl
theorem share0 (c : Dev nD) (w : Fin (cfg0 (adm0 V)).W) : (dat0 V c).q w = fullShare := rfl
theorem Phi_eq0 (c : Dev nD) (t : Fin ((cfg0 (adm0 V)).N + 1)) : (dat0 V c).Φ t = Phi0 V c t := rfl

/-- What the body leaves, window by window. -/
theorem after_xs0 (c : Dev nD) (t : Fin (cfg0 (adm0 V)).N) : (dat0 V c).after 0 t = iblk0 V c 0 t := rfl
theorem after_gi0 (c : Dev nD) (t : Fin (cfg0 (adm0 V)).N) : (dat0 V c).after 1 t = iblk0 V c 1 t := rfl
theorem after_si0 (c : Dev nD) (t : Fin (cfg0 (adm0 V)).N) : (dat0 V c).after 2 t = iblk0 V c 2 t := rfl
theorem after_ws0 (c : Dev nD) (t : Fin (cfg0 (adm0 V)).N) : (dat0 V c).after 3 t = iblk0 V c 3 t := rfl
theorem after_out0 (c : Dev nD) (t : Fin (cfg0 (adm0 V)).N) :
    (dat0 V c).after 4 t = outOn0 c (grid0.coords t) ((cfg0 (adm0 V)).slots t 0) ((cfg0 (adm0 V)).slots t 1) ((cfg0 (adm0 V)).slots t 2) ((cfg0 (adm0 V)).slots t 3)
      (tabA0 V) (tabB0 V) (xs0 V c t) (gi0 V c t) (si0 V c t) (ws0 V c t) any0 (accAt0 V c t.val) := rfl

/-! ## What the body finds in the inputs' buffers -/

/-- Each input's current staging buffer holds its block at every point, fetched there or not: unfetched, the block
    index has not moved since the fetch, and the body leaves the block in place. No input block is cut and no input
    is idle anywhere. -/
theorem before_xs0 (c : Dev nD) (t : Fin (cfg0 (adm0 V)).N) (d) : (dat0 V c).before 0 t d = iblk0 V c 0 t :=
  ((dat0 V c).before_in_eq_fetched 0 rfl (fun _ => rfl) (fun _ _ _ => rfl)
    (fun t => by rw [after_xs0]; unfold Dat.blockOf iblk0; rw [A_eq0]; try rfl) t d).trans
    (by unfold Dat.fetched Dat.blockOf iblk0; rw [A_eq0]; try rfl)
theorem before_gi0 (c : Dev nD) (t : Fin (cfg0 (adm0 V)).N) (d) : (dat0 V c).before 1 t d = iblk0 V c 1 t :=
  ((dat0 V c).before_in_eq_fetched 1 rfl (fun _ => rfl) (fun _ _ _ => rfl)
    (fun t => by rw [after_gi0]; unfold Dat.blockOf iblk0; rw [A_eq0]; try rfl) t d).trans
    (by unfold Dat.fetched Dat.blockOf iblk0; rw [A_eq0]; try rfl)
theorem before_si0 (c : Dev nD) (t : Fin (cfg0 (adm0 V)).N) (d) : (dat0 V c).before 2 t d = iblk0 V c 2 t :=
  ((dat0 V c).before_in_eq_fetched 2 rfl (fun _ => rfl) (fun _ _ _ => rfl)
    (fun t => by rw [after_si0]; unfold Dat.blockOf iblk0; rw [A_eq0]; try rfl) t d).trans
    (by unfold Dat.fetched Dat.blockOf iblk0; rw [A_eq0]; try rfl)
theorem before_ws0 (c : Dev nD) (t : Fin (cfg0 (adm0 V)).N) (d) : (dat0 V c).before 3 t d = iblk0 V c 3 t :=
  ((dat0 V c).before_in_eq_fetched 3 rfl (fun _ => rfl) (fun _ _ _ => rfl)
    (fun t => by rw [after_ws0]; unfold Dat.blockOf iblk0; rw [A_eq0]; try rfl) t d).trans
    (by unfold Dat.fetched Dat.blockOf iblk0; rw [A_eq0]; try rfl)

/-! ## The schedule of the output window, at any table contents -/

/-- The grid's one coordinate of point `t` is `t`. -/
theorem coords_val0 (t : Fin grid0.N) : (grid0.coords t 0).val = t.val := by
  have hs : grid0.stride 0 = 1 := by decide
  have ht : t.val < 489 := Nat.lt_of_lt_of_eq t.isLt N_0
  show t.val / grid0.stride 0 % 489 = t.val
  rw [hs, Nat.div_one, Nat.mod_eq_of_lt ht]

/-- At the last point the body's store of the output block is taken. -/
theorem cond_last0 (i : grid0.Coords) (h : (i 0).val = 488) : k0_cond12 i = 1#1 := by
  show Scalar.cmpi .ne (Scalar.extui (Scalar.cmpi .eq (BitVec.ofNat 32 (i 0).val) 488#32)) 0#32 = 1#1
  rw [h]; first | rfl | decide

/-- The output block's index is constant. -/
theorem index_out0 (a : (pcfg0 (F := F)).Adm) (u : Fin (cfg0 a).N) : ((cfg0 a).win 4).index u = ![0, 0] := rfl

/-- The output block's index never moves, so it is written back at the last point and nowhere else. -/
theorem flush_out0 (a : (pcfg0 (F := F)).Adm) (t : Fin (cfg0 a).N) : ((cfg0 a).win 4).flush t = true ↔ t.val + 1 = 489 := by
  unfold Window.flush
  simp only [Bool.and_eq_true, Bool.or_eq_true, decide_eq_true_eq]
  constructor
  · rintro ⟨-, h | ⟨h, hne⟩⟩
    · exact h.trans (N0_eq a)
    · exact absurd ((index_out0 a _).trans (index_out0 a _).symm) hne
  · intro h; exact ⟨rfl, Or.inl (h.trans (N0_eq a).symm)⟩

/-- Where the body does not store the output block, the block is not written back. -/
theorem flush_idle0 (a : (pcfg0 (F := F)).Adm) (t : Fin (cfg0 a).N) (hc : ¬ k0_cond12 (grid0.coords t) = 1#1) :
    ((cfg0 a).win 4).flush t = false := by
  rw [Bool.eq_false_iff]
  intro h
  have h1 := (flush_out0 a t).mp h
  exact hc (cond_last0 _ (by rw [coords_val0]; omega))

/-- The output window is idle exactly where the body does not store the output block. -/
theorem idle_out0 (a : (pcfg0 (F := F)).Adm) (t : Fin (cfg0 a).N) :
    (cfg0 a).idle 4 ((cfg0 a).grid.coords t) = !(k0_cond12 (grid0.coords t) == 1#1) := rfl

/-! ## The accumulator's step and the output block at the last point -/

/-- The body's update at point `t` of what the accumulator held — `accAt0 t`, or at point 0 anything — is `accAt0 (t + 1)`. -/
theorem acc_step0 (c : Dev nD) (t : Fin (cfg0 (adm0 V)).N) (a8 : Vec F S10000x8 .f32) (h : t.val = 0 ∨ a8 = accAt0 V c t.val) :
    accOn0 c (grid0.coords t) ((cfg0 (adm0 V)).slots t 0) ((cfg0 (adm0 V)).slots t 1) ((cfg0 (adm0 V)).slots t 2) ((cfg0 (adm0 V)).slots t 3)
      (tabA0 V) (tabB0 V) (xs0 V c t) (gi0 V c t) (si0 V c t) (ws0 V c t) a8 = accAt0 V c (t.val + 1) := by
  have ht : t.val < 489 := Nat.lt_of_lt_of_eq t.isLt (N0_eq (adm0 V))
  rw [accAt0, dif_pos ht]
  show _ = accOn0 c (grid0.coords t) ((cfg0 (adm0 V)).slots t 0) ((cfg0 (adm0 V)).slots t 1) ((cfg0 (adm0 V)).slots t 2) ((cfg0 (adm0 V)).slots t 3)
      (tabA0 V) (tabB0 V) (xs0 V c t) (gi0 V c t) (si0 V c t) (ws0 V c t) (accAt0 V c t.val)
  rcases h with h | h
  · exact accOn0_first _ _ (by rw [coords_val0]; exact h)
  · rw [h]
/-- The output block's buffer after the body at point `t`: as found before the last point, the updated accumulator at the last. -/
theorem out_idle0 (c : Dev nD) (t : Fin (cfg0 (adm0 V)).N) (hc : ¬ k0_cond12 (grid0.coords t) = 1#1) (xi7 a8 : Vec F S10000x8 .f32) :
    outOn0 c (grid0.coords t) ((cfg0 (adm0 V)).slots t 0) ((cfg0 (adm0 V)).slots t 1) ((cfg0 (adm0 V)).slots t 2) ((cfg0 (adm0 V)).slots t 3)
      (tabA0 V) (tabB0 V) (xs0 V c t) (gi0 V c t) (si0 V c t) (ws0 V c t) xi7 a8 = xi7 :=
  outOn0_idle hc
theorem out_last0 (c : Dev nD) (t : Fin (cfg0 (adm0 V)).N) (hc : k0_cond12 (grid0.coords t) = 1#1) (xi7 a8 : Vec F S10000x8 .f32) :
    outOn0 c (grid0.coords t) ((cfg0 (adm0 V)).slots t 0) ((cfg0 (adm0 V)).slots t 1) ((cfg0 (adm0 V)).slots t 2) ((cfg0 (adm0 V)).slots t 3)
      (tabA0 V) (tabB0 V) (xs0 V c t) (gi0 V c t) (si0 V c t) (ws0 V c t) xi7 a8
      = accOn0 c (grid0.coords t) ((cfg0 (adm0 V)).slots t 0) ((cfg0 (adm0 V)).slots t 1) ((cfg0 (adm0 V)).slots t 2) ((cfg0 (adm0 V)).slots t 3)
          (tabA0 V) (tabB0 V) (xs0 V c t) (gi0 V c t) (si0 V c t) (ws0 V c t) a8 :=
  outOn0_last hc

/-- Before point 0 the accumulator holds anything, before a later point `t` it holds `accAt0 t`: either way contents
    whose update at `t` is `accAt0 (t + 1)`. -/
theorem acc_open0 (c : Dev nD) (t : Fin (cfg0 (adm0 V)).N) :
    (if t.castSucc.val = 0 then iprop(∃ d, owns (c : Thread nD τ) Body.m8_0 fullShare d)
        else owns (c : Thread nD τ) Body.m8_0 fullShare (accAt0 V c t.castSucc.val) : sProp 𝕄)
      ⊢ iprop(∃ a8, ⌜t.val = 0 ∨ a8 = accAt0 V c t.val⌝ ∗ owns (c : Thread nD τ) Body.m8_0 fullShare a8) := by
  have e : t.castSucc.val = t.val := rfl
  rw [e]
  split
  · next h =>
    iintro ⟨%d, H⟩; iexists d; isplitr
    · ipureintro; exact Or.inl h
    · iexact H
  · iintro H; iexists _; isplitr
    · ipureintro; exact Or.inr rfl
    · iexact H

/-- The two tables the pipeline holds, as the two whole memrefs the body reads them through. -/
theorem prefHeld_pair0 (c : Dev nD) (q : Fin 2 → PosShare TreeShare) (v : pre0.Contents (Elt F)) :
    (Pipeline.prefHeld pre0 c q v : sProp 𝕄)
      = iprop((((c : Thread nD τ).loc main_v40) ↦{q 0} (show Buf (Elt F) ((c : Thread nD τ).loc main_v40) from v 0))
          ∗ (((c : Thread nD τ).loc main_v43) ↦{q 1} (show Buf (Elt F) ((c : Thread nD τ).loc main_v43) from v 1))) := by
  unfold Pipeline.prefHeld
  rw [show (Finset.univ : Finset (Fin 2)) = insert 0 {1} from by decide, bigSep_insert (by decide), bigSep_singleton]
  rfl

theorem prefHeld_full0 (c : Dev nD) :
    (Pipeline.prefHeld pre0 c (fun _ => fullShare) (adm0 V).1 : sProp 𝕄)
      = iprop(owns (c : Thread nD τ) (Memref.whole main_v40) fullShare (tabA0 V) ∗ owns (c : Thread nD τ) (Memref.whole main_v43) fullShare (tabB0 V)) :=
  (prefHeld_pair0 c _ _).trans (congrArg₂ (fun a b : sProp 𝕄 => iprop(a ∗ b))
    (owns_whole (c : Thread nD τ) main_v40 fullShare (tabA0 V)).symm (owns_whole (c : Thread nD τ) main_v43 fullShare (tabB0 V)).symm)

/-! ## The body at a point -/

/-- The kernel body at grid coordinates `i` on the staging buffers `s0 … s4` of the five windows, the two tables and the
    two scratch buffers: what the pipeline calls at a point whose current buffers those are. -/
abbrev bodyOn0 (i : grid0.Coords) (s0 : Fin 1) (s1 s2 s3 : Fin 2) (s4 : Fin 1) : Prog (TpuEff nD τ sig (Elt F) Λ₀ .tc) PUnit :=
  cc0__mp_kernel i (Memref.whole main_v40) (Memref.isWhole_whole _) (Memref.whole main_v43) (Memref.isWhole_whole _)
    (stage0_0 s0) (hstage0_0 s0) (stage0_1 s1) (hstage0_1 s1) (stage0_2 s2) (hstage0_2 s2) (stage0_3 s3) (hstage0_3 s3)
    (stage0_4 s4) (hstage0_4 s4) (Memref.whole cc0_scratch0) (Memref.isWhole_whole _) (Memref.whole cc0_scratch1) (Memref.isWhole_whole _)

/-- The body's triple on any current buffers: the output window has one buffer, the one the triple is stated on. -/
theorem sound_on0 (c : Dev nD) (i : grid0.Coords) (s0 : Fin 1) (s1 s2 s3 : Fin 2) (s4 : Fin 1)
    (x1 x2 : Vec F S489 .i32) (x3 : Vec F S10000x8 .f32) (x4 x5 : Vec F S4096 .i32) (x6 : Vec F S4096 .f32)
    (xi7 a8 : Vec F S10000x8 .f32) (K : PUnit → sProp 𝕄) :
    iprop(owns (c : Thread nD τ) (Memref.whole main_v40) fullShare x1 ∗ owns (c : Thread nD τ) (Memref.whole main_v43) fullShare x2
        ∗ owns (c : Thread nD τ) (stage0_0 s0) fullShare x3 ∗ owns (c : Thread nD τ) (stage0_1 s1) fullShare x4
        ∗ owns (c : Thread nD τ) (stage0_2 s2) fullShare x5 ∗ owns (c : Thread nD τ) (stage0_3 s3) fullShare x6
        ∗ owns (c : Thread nD τ) (stage0_4 s4) fullShare xi7 ∗ owns (c : Thread nD τ) Body.m8_0 fullShare a8
        ∗ (∃ d, owns (c : Thread nD τ) Body.m9_0 fullShare d)
        ∗ (iprop(owns (c : Thread nD τ) (Memref.whole main_v40) fullShare x1 ∗ owns (c : Thread nD τ) (Memref.whole main_v43) fullShare x2
            ∗ owns (c : Thread nD τ) (stage0_0 s0) fullShare x3 ∗ owns (c : Thread nD τ) (stage0_1 s1) fullShare x4
            ∗ owns (c : Thread nD τ) (stage0_2 s2) fullShare x5 ∗ owns (c : Thread nD τ) (stage0_3 s3) fullShare x6
            ∗ owns (c : Thread nD τ) (stage0_4 s4) fullShare (outOn0 c i s0 s1 s2 s3 x1 x2 x3 x4 x5 x6 xi7 a8)
            ∗ owns (c : Thread nD τ) Body.m8_0 fullShare (accOn0 c i s0 s1 s2 s3 x1 x2 x3 x4 x5 x6 a8)
            ∗ (∃ d, owns (c : Thread nD τ) Body.m9_0 fullShare d)) -∗ K ⟨⟩))
      ⊢ wp frame (wpE (defs₀ (F := F)) Variants.none c none) Set.univ (bodyOn0 i s0 s1 s2 s3 s4) K := by
  obtain rfl : s4 = ⟨0, Nat.one_pos⟩ := Fin.ext (by have h := s4.isLt; omega)
  exact Body.sound_kernel0 c Set.univ i _ _ _ _ _ _ _ _ _ _ _ _ x1 x2 x3 x4 x5 x6 xi7 a8 K

/-- The body at a point before the last: the accumulator steps, the output block's buffer is handed back as found. -/
theorem sound_idle0 (c : Dev nD) (t : Fin (cfg0 (adm0 V)).N) (hc : ¬ k0_cond12 (grid0.coords t) = 1#1)
    (s4 : Fin 1) (xi7 a8 : Vec F S10000x8 .f32) (h : t.val = 0 ∨ a8 = accAt0 V c t.val) (K : PUnit → sProp 𝕄) :
    iprop(owns (c : Thread nD τ) (Memref.whole main_v40) fullShare (tabA0 V) ∗ owns (c : Thread nD τ) (Memref.whole main_v43) fullShare (tabB0 V)
        ∗ owns (c : Thread nD τ) (stage0_0 ((cfg0 (adm0 V)).slots t 0)) fullShare (xs0 V c t)
        ∗ owns (c : Thread nD τ) (stage0_1 ((cfg0 (adm0 V)).slots t 1)) fullShare (gi0 V c t)
        ∗ owns (c : Thread nD τ) (stage0_2 ((cfg0 (adm0 V)).slots t 2)) fullShare (si0 V c t)
        ∗ owns (c : Thread nD τ) (stage0_3 ((cfg0 (adm0 V)).slots t 3)) fullShare (ws0 V c t)
        ∗ owns (c : Thread nD τ) (stage0_4 s4) fullShare xi7 ∗ owns (c : Thread nD τ) Body.m8_0 fullShare a8
        ∗ (∃ d, owns (c : Thread nD τ) Body.m9_0 fullShare d)
        ∗ (iprop(owns (c : Thread nD τ) (Memref.whole main_v40) fullShare (tabA0 V) ∗ owns (c : Thread nD τ) (Memref.whole main_v43) fullShare (tabB0 V)
        ∗ owns (c : Thread nD τ) (stage0_0 ((cfg0 (adm0 V)).slots t 0)) fullShare (xs0 V c t)
        ∗ owns (c : Thread nD τ) (stage0_1 ((cfg0 (adm0 V)).slots t 1)) fullShare (gi0 V c t)
        ∗ owns (c : Thread nD τ) (stage0_2 ((cfg0 (adm0 V)).slots t 2)) fullShare (si0 V c t)
        ∗ owns (c : Thread nD τ) (stage0_3 ((cfg0 (adm0 V)).slots t 3)) fullShare (ws0 V c t)
            ∗ owns (c : Thread nD τ) (stage0_4 s4) fullShare xi7
            ∗ owns (c : Thread nD τ) Body.m8_0 fullShare (accAt0 V c (t.val + 1))
            ∗ (∃ d, owns (c : Thread nD τ) Body.m9_0 fullShare d)) -∗ K ⟨⟩))
      ⊢ wp frame (wpE (defs₀ (F := F)) Variants.none c none) Set.univ
          (bodyOn0 (grid0.coords t) ((cfg0 (adm0 V)).slots t 0) ((cfg0 (adm0 V)).slots t 1) ((cfg0 (adm0 V)).slots t 2) ((cfg0 (adm0 V)).slots t 3) s4) K := by
  have key := sound_on0 c (grid0.coords t) ((cfg0 (adm0 V)).slots t 0) ((cfg0 (adm0 V)).slots t 1) ((cfg0 (adm0 V)).slots t 2) ((cfg0 (adm0 V)).slots t 3) s4
    (tabA0 V) (tabB0 V) (xs0 V c t) (gi0 V c t) (si0 V c t) (ws0 V c t) xi7 a8 K
  rw [acc_step0 V c t a8 h, out_idle0 V c t hc xi7 a8] at key
  exact key

/-- The body at the last point: the accumulator steps and the output block's buffer receives it, whatever it held. -/
theorem sound_last0 (c : Dev nD) (t : Fin (cfg0 (adm0 V)).N) (hc : k0_cond12 (grid0.coords t) = 1#1)
    (s4 : Fin 1) (xi7 a8 : Vec F S10000x8 .f32) (h : t.val = 0 ∨ a8 = accAt0 V c t.val) (K : PUnit → sProp 𝕄) :
    iprop(owns (c : Thread nD τ) (Memref.whole main_v40) fullShare (tabA0 V) ∗ owns (c : Thread nD τ) (Memref.whole main_v43) fullShare (tabB0 V)
        ∗ owns (c : Thread nD τ) (stage0_0 ((cfg0 (adm0 V)).slots t 0)) fullShare (xs0 V c t)
        ∗ owns (c : Thread nD τ) (stage0_1 ((cfg0 (adm0 V)).slots t 1)) fullShare (gi0 V c t)
        ∗ owns (c : Thread nD τ) (stage0_2 ((cfg0 (adm0 V)).slots t 2)) fullShare (si0 V c t)
        ∗ owns (c : Thread nD τ) (stage0_3 ((cfg0 (adm0 V)).slots t 3)) fullShare (ws0 V c t)
        ∗ owns (c : Thread nD τ) (stage0_4 s4) fullShare xi7 ∗ owns (c : Thread nD τ) Body.m8_0 fullShare a8
        ∗ (∃ d, owns (c : Thread nD τ) Body.m9_0 fullShare d)
        ∗ (iprop(owns (c : Thread nD τ) (Memref.whole main_v40) fullShare (tabA0 V) ∗ owns (c : Thread nD τ) (Memref.whole main_v43) fullShare (tabB0 V)
        ∗ owns (c : Thread nD τ) (stage0_0 ((cfg0 (adm0 V)).slots t 0)) fullShare (xs0 V c t)
        ∗ owns (c : Thread nD τ) (stage0_1 ((cfg0 (adm0 V)).slots t 1)) fullShare (gi0 V c t)
        ∗ owns (c : Thread nD τ) (stage0_2 ((cfg0 (adm0 V)).slots t 2)) fullShare (si0 V c t)
        ∗ owns (c : Thread nD τ) (stage0_3 ((cfg0 (adm0 V)).slots t 3)) fullShare (ws0 V c t)
            ∗ owns (c : Thread nD τ) (stage0_4 s4) fullShare
                (outOn0 c (grid0.coords t) ((cfg0 (adm0 V)).slots t 0) ((cfg0 (adm0 V)).slots t 1) ((cfg0 (adm0 V)).slots t 2) ((cfg0 (adm0 V)).slots t 3)
                  (tabA0 V) (tabB0 V) (xs0 V c t) (gi0 V c t) (si0 V c t) (ws0 V c t) any0 (accAt0 V c t.val))
            ∗ owns (c : Thread nD τ) Body.m8_0 fullShare (accAt0 V c (t.val + 1))
            ∗ (∃ d, owns (c : Thread nD τ) Body.m9_0 fullShare d)) -∗ K ⟨⟩))
      ⊢ wp frame (wpE (defs₀ (F := F)) Variants.none c none) Set.univ
          (bodyOn0 (grid0.coords t) ((cfg0 (adm0 V)).slots t 0) ((cfg0 (adm0 V)).slots t 1) ((cfg0 (adm0 V)).slots t 2) ((cfg0 (adm0 V)).slots t 3) s4) K := by
  have key := sound_on0 c (grid0.coords t) ((cfg0 (adm0 V)).slots t 0) ((cfg0 (adm0 V)).slots t 1) ((cfg0 (adm0 V)).slots t 2) ((cfg0 (adm0 V)).slots t 3) s4
    (tabA0 V) (tabB0 V) (xs0 V c t) (gi0 V c t) (si0 V c t) (ws0 V c t) xi7 a8 K
  rw [out_last0 V c t hc xi7 a8, acc_step0 V c t a8 h] at key
  rw [out_last0 V c t hc any0 (accAt0 V c t.val), acc_step0 V c t _ (Or.inr rfl)]
  exact key

/-! ## The output window's post, case by case -/

/-- At the last point the output window is live: its buffer is left at what the proof data says. -/
theorem leaves_last0 (c : Dev nD) (t : Fin (cfg0 (adm0 V)).N) (hc : k0_cond12 (grid0.coords t) = 1#1) :
    ((dat0 V c).leavesExact 4 t : sProp 𝕄)
      = owns (c : Thread nD τ) (((cfg0 (adm0 V)).win 4).stage ((cfg0 (adm0 V)).slots t 4)) fullShare ((dat0 V c).after 4 t) := by
  have hi : (cfg0 (adm0 V)).idle 4 ((cfg0 (adm0 V)).grid.coords t) = false :=
    (idle_out0 (adm0 V) t).trans (by rw [hc] <;> rfl)
  unfold Dat.leavesExact
  rw [hi]

/-- Before the last point the output window is idle and not written back: its buffer is handed back as found. -/
theorem leaves_idle0 (c : Dev nD) (t : Fin (cfg0 (adm0 V)).N) (hc : ¬ k0_cond12 (grid0.coords t) = 1#1) :
    ((dat0 V c).leavesExact 4 t : sProp 𝕄)
      = iprop(∃ d, owns (c : Thread nD τ) (((cfg0 (adm0 V)).win 4).stage ((cfg0 (adm0 V)).slots t 4)) fullShare ((dat0 V c).before 4 t d)) := by
  have hi : (cfg0 (adm0 V)).idle 4 ((cfg0 (adm0 V)).grid.coords t) = true :=
    (idle_out0 (adm0 V) t).trans (by simp [hc])
  exact (dat0 V c).leavesExact_idle 4 t hi (flush_idle0 (adm0 V) t hc)

/-! ## The body obligation -/

/-- The current staging memref of window `w` at point `t`. -/
abbrev st0 (w : Fin (cfg0 (adm0 V)).W) (t : Fin (cfg0 (adm0 V)).N) := ((cfg0 (adm0 V)).win w).stage ((cfg0 (adm0 V)).slots t w)

/-- What the body is called with at point `t`, the windows one by one, -/
def bodyPre0 (c : Dev nD) (t : Fin (cfg0 (adm0 V)).N) : sProp 𝕄 :=
  iprop((dat0 V c).Φ t.castSucc ∗ (dat0 V c).owesAt () t.castSucc
    ∗ (∃ d, owns (c : Thread nD τ) (st0 V 0 t) fullShare ((dat0 V c).before 0 t d))
    ∗ (∃ d, owns (c : Thread nD τ) (st0 V 1 t) fullShare ((dat0 V c).before 1 t d))
    ∗ (∃ d, owns (c : Thread nD τ) (st0 V 2 t) fullShare ((dat0 V c).before 2 t d))
    ∗ (∃ d, owns (c : Thread nD τ) (st0 V 3 t) fullShare ((dat0 V c).before 3 t d))
    ∗ (∃ d, owns (c : Thread nD τ) (st0 V 4 t) fullShare ((dat0 V c).before 4 t d)))

/-- and what it returns: the inputs' buffers at their blocks, the output's as its window's state at the point says. -/
def bodyPost0 (c : Dev nD) (t : Fin (cfg0 (adm0 V)).N) : sProp 𝕄 :=
  iprop((dat0 V c).Φ t.succ ∗ (dat0 V c).owesAt () t.succ
    ∗ owns (c : Thread nD τ) (st0 V 0 t) fullShare ((dat0 V c).after 0 t)
    ∗ owns (c : Thread nD τ) (st0 V 1 t) fullShare ((dat0 V c).after 1 t)
    ∗ owns (c : Thread nD τ) (st0 V 2 t) fullShare ((dat0 V c).after 2 t)
    ∗ owns (c : Thread nD τ) (st0 V 3 t) fullShare ((dat0 V c).after 3 t)
    ∗ (dat0 V c).leavesExact 4 t)

/-- The body at any point: the inputs' buffers hold their blocks and the accumulator what the invariant says, so the
    body's triple applies; the rest of the invariant and the core's `owes` pass through unread. -/
theorem sound_body0 (c : Dev nD) (t : Fin (cfg0 (adm0 V)).N) :
    bodyPre0 V c t ⊢ wp frame (wpE (defs₀ (F := F)) Variants.none c none) Set.univ
      (bodyOn0 (grid0.coords t) ((cfg0 (adm0 V)).slots t 0) ((cfg0 (adm0 V)).slots t 1) ((cfg0 (adm0 V)).slots t 2)
        ((cfg0 (adm0 V)).slots t 3) ((cfg0 (adm0 V)).slots t 4))
      (fun _ => bodyPost0 V c t) := by
  unfold bodyPre0 bodyPost0
  simp only [before_xs0, before_gi0, before_si0, before_ws0]
  rw [show (dat0 V c).owesAt () t.succ = (dat0 V c).owesAt () t.castSucc from rfl,
    after_xs0, after_gi0, after_si0, after_ws0, Phi_eq0, Phi_eq0]
  unfold Phi0
  have hs : ¬ (t.succ).val = 0 := by rw [Fin.val_succ]; exact Nat.succ_ne_zero _
  rw [prefHeld_full0, if_neg hs, Fin.val_succ]
  by_cases hc : k0_cond12 (grid0.coords t) = 1#1
  · rw [leaves_last0 V c t hc, after_out0]
    iintro ⟨⟨⟨Ht1, Ht2⟩, Hacc, H9, Hrest, Hr⟩, Ho, ⟨%d0, H0⟩, ⟨%d1, H1⟩, ⟨%d2, H2⟩, ⟨%d3, H3⟩, ⟨%d4, H4⟩⟩
    ihave Hacc' := (acc_open0 V c t) $$ Hacc
    icases Hacc' with ⟨%a8, %h8, H8⟩
    iapply (sound_last0 V c t hc _ ((dat0 V c).before 4 t d4) a8 h8 _)
    isplitl [Ht1]; · iexact Ht1
    isplitl [Ht2]; · iexact Ht2
    isplitl [H0]; · iexact H0
    isplitl [H1]; · iexact H1
    isplitl [H2]; · iexact H2
    isplitl [H3]; · iexact H3
    isplitl [H4]; · iexact H4
    isplitl [H8]; · iexact H8
    isplitl [H9]; · iexact H9
    iintro ⟨Ht1, Ht2, H0, H1, H2, H3, H4, H8, H9⟩
    isplitl [Ht1 Ht2 H8 H9 Hrest Hr]
    · isplitl [Ht1 Ht2]
      · isplitl [Ht1]; · iexact Ht1
        iexact Ht2
      isplitl [H8]; · iexact H8
      isplitl [H9]; · iexact H9
      isplitl [Hrest]; · iexact Hrest
      iexact Hr
    isplitl [Ho]; · iexact Ho
    isplitl [H0]; · iexact H0
    isplitl [H1]; · iexact H1
    isplitl [H2]; · iexact H2
    isplitl [H3]; · iexact H3
    iexact H4
  · rw [leaves_idle0 V c t hc]
    iintro ⟨⟨⟨Ht1, Ht2⟩, Hacc, H9, Hrest, Hr⟩, Ho, ⟨%d0, H0⟩, ⟨%d1, H1⟩, ⟨%d2, H2⟩, ⟨%d3, H3⟩, ⟨%d4, H4⟩⟩
    ihave Hacc' := (acc_open0 V c t) $$ Hacc
    icases Hacc' with ⟨%a8, %h8, H8⟩
    iapply (sound_idle0 V c t hc _ ((dat0 V c).before 4 t d4) a8 h8 _)
    isplitl [Ht1]; · iexact Ht1
    isplitl [Ht2]; · iexact Ht2
    isplitl [H0]; · iexact H0
    isplitl [H1]; · iexact H1
    isplitl [H2]; · iexact H2
    isplitl [H3]; · iexact H3
    isplitl [H4]; · iexact H4
    isplitl [H8]; · iexact H8
    isplitl [H9]; · iexact H9
    iintro ⟨Ht1, Ht2, H0, H1, H2, H3, H4, H8, H9⟩
    isplitl [Ht1 Ht2 H8 H9 Hrest Hr]
    · isplitl [Ht1 Ht2]
      · isplitl [Ht1]; · iexact Ht1
        iexact Ht2
      isplitl [H8]; · iexact H8
      isplitl [H9]; · iexact H9
      isplitl [Hrest]; · iexact Hrest
      iexact Hr
    isplitl [Ho]; · iexact Ho
    isplitl [H0]; · iexact H0
    isplitl [H1]; · iexact H1
    isplitl [H2]; · iexact H2
    isplitl [H3]; · iexact H3
    iexists d4; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The arrays after the run -/

/-- The output's one block is the whole array: an index of the block is the same index of the array, -/
theorem emb_blk_out0 (t : Fin (cfg0 (adm0 V)).N) (j : S10000x8.Idx) : (((cfg0 (adm0 V)).win 4).blk t).view.emb j = j := by
  have h : ∀ a : Fin 2, ((((cfg0 (adm0 V)).win 4).blk t).view.emb j a).val = (j a).val := fun a =>
    match a with
    | ⟨0, _⟩ => by show 0 * 10000 + 1 * (j 0).val = (j 0).val; omega
    | ⟨1, _⟩ => by show 0 * 8 + 1 * (j 1).val = (j 1).val; omega
  exact funext fun a => Fin.ext (h a)

/-- so every index of the array lies in the block, -/
theorem mem_blk_out0 (t : Fin (cfg0 (adm0 V)).N) (i : S10000x8.Idx) : i ∈ (((cfg0 (adm0 V)).win 4).blk t).view.set :=
  Finset.mem_map.mpr ⟨i, Finset.mem_univ _, emb_blk_out0 V t i⟩

/-- and contents of the array read through the block are those contents. -/
theorem read_blk_out0 (t : Fin (cfg0 (adm0 V)).N) (G : Vec F S10000x8 .f32) :
    (((cfg0 (adm0 V)).win 4).blk t).view.read (Elt F) G = G := by
  funext j
  show G ((((cfg0 (adm0 V)).win 4).blk t).view.emb j) = G j
  exact congrArg G (emb_blk_out0 V t j)

/-- What the one point that writes the output back writes is the accumulator after the last point, read through the block. -/
theorem flushed_out0 (c : Dev nD) (t : Fin (cfg0 (adm0 V)).N) (hf : ((cfg0 (adm0 V)).win 4).flush t = true) :
    (dat0 V c).flushed 4 t = (((cfg0 (adm0 V)).win 4).blk t).view.read (Elt F) (accAt0 V c 489) := by
  have ht : t.val + 1 = 489 := (flush_out0 (adm0 V) t).mp hf
  have hc : k0_cond12 (grid0.coords t) = 1#1 := cond_last0 _ (by rw [coords_val0]; omega)
  rw [read_blk_out0]
  show ((cfg0 (adm0 V)).win 4).cut ((cfg0 (adm0 V)).grid.coords t) ((dat0 V c).after 4 t) = _
  rw [after_out0, out_last0 V c t hc any0 (accAt0 V c t.val), acc_step0 V c t _ (Or.inr rfl), ht]
  rfl

/-- The output array ends holding the accumulator after the last point. -/
theorem final0 (c : Dev nD) : (dat0 V c).arrAt 4 (cfg0 (adm0 V)).N = accAt0 V c 489 :=
  (dat0 V c).arrAt_eq_of_cover 4 (accAt0 V c 489) (fun t hf => flushed_out0 V c t hf)
    (fun i => ⟨pt0 V 488 (by decide), (flush_out0 (adm0 V) _).mpr rfl, mem_blk_out0 V _ i⟩)

/-- The input arrays are never written. -/
theorem final_in0 (c : Dev nD) (w : Fin (cfg0 (adm0 V)).W) (hw : w.val < 4) :
    (dat0 V c).arrAt w (cfg0 (adm0 V)).N = V c (Pipeline.arrRef spec0 w) := by
  have hin : ((cfg0 (adm0 V)).win w).isOut = false := by
    obtain ⟨n, hn⟩ := w
    have hn' : n < 4 := hw
    match n, hn, hn' with
    | 0, _, _ => rfl
    | 1, _, _ => rfl
    | 2, _, _ => rfl
    | 3, _, _ => rfl
    | n + 4, _, h => exact absurd h (by omega)
  rw [(dat0 V c).arrAt_in w hin, A_eq0]

end Cert.Kernel.Frame

end
-- ==== Proof.BRunK1.lean ====
/-
  The message-passing kernel's body at one grid point (custom_call 1), generic in the float instance.

  From the two table buffers, the node-state block, the chunk's gather indices, scatter indices and weights, the output
  block's buffer and the accumulator at given contents (the one-hot scratch at anything), the body runs to its end leaving
  the inputs as they were, the one-hot scratch at something, the accumulator at `acc8` of what it found and the output
  buffer at `out7`: the accumulator is reset at the first point and then updated tile by tile under the table words'
  guards; the output buffer is overwritten by the accumulator at the last point and untouched before.
-/
import proofs.«400082_j83537113907851_4_alg».proof.Proof.Gen.Kernel.Skeleton
import proofs.«400082_j83537113907851_4_alg».proof.Proof.Gen.Kernel.Launch
import Idealize.ShloMosaic.Lib.Pipeline.Frame
import Idealize.ShloMosaic.Lib.Pipeline.FrameBody
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output block's staging buffer, the accumulator and the one-hot scratch, as the body table calls the kernel. -/
abbrev m7_1 : Memref sig .tc .vmem S10000x8 .f32 := Memref.whole cc1_stg4_0
abbrev m8_1 : Memref sig .tc .vmem S10000x8 .f32 := Memref.whole cc1_scratch0
abbrev m9_1 : Memref sig .tc .vmem S1000x4096 .f32 := Memref.whole cc1_scratch1

set_option maxHeartbeats 4000000 in
/-- The body's run at a grid point: the raw contents it leaves in the output block's buffer (`F7`) and in the accumulator
    (`F8`) are what the run itself computes, with the proof that the body reaches its end there. -/
noncomputable def kernelRun1 (c : Dev nD) (i : grid1.Coords)
    (arg1 : Memref sig .tc .smem S489 .i32) (harg1 : arg1.IsWhole) (arg2 : Memref sig .tc .smem S489 .i32) (harg2 : arg2.IsWhole)
    (arg3 : Memref sig .tc .vmem S10000x8 .f32) (harg3 : arg3.IsWhole) (arg4 : Memref sig .tc .vmem S4096 .i32) (harg4 : arg4.IsWhole)
    (arg5 : Memref sig .tc .vmem S4096 .i32) (harg5 : arg5.IsWhole) (arg6 : Memref sig .tc .vmem S4096 .f32) (harg6 : arg6.IsWhole)
    (x1 x2 : Vec F S489 .i32) (x3 : Vec F S10000x8 .f32) (x4 x5 : Vec F S4096 .i32) (x6 : Vec F S4096 .f32) (xi7 a8 : Vec F S10000x8 .f32) :
    Σ' (F7 : (m7_1).view.ty.Contents (Elt F)), { F8 : (m8_1).view.ty.Contents (Elt F) //
      ∀ (E : Set ℕ) (K : PUnit → sProp 𝕄),
        iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) m7_1 fullShare xi7 ∗ owns (c : Thread nD τ) m8_1 fullShare a8 ∗ (∃ d, owns (c : Thread nD τ) m9_1 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ ((m7_1).view.loc (c : Thread nD τ) ↦[(m7_1).view.set]{fullShare} F7)
            ∗ ((m8_1).view.loc (c : Thread nD τ) ↦[(m8_1).view.set]{fullShare} F8)
            ∗ (∃ f, (m9_1).view.loc (c : Thread nD τ) ↦[(m9_1).view.set]{fullShare} f)) -∗ K ⟨⟩))
      ⊢ wp frame (wpE (defs₀ (F := F)) Variants.none c none) E
          (cc1__mp_kernel i arg1 harg1 arg2 harg2 arg3 harg3 arg4 harg4 arg5 harg5 arg6 harg6
            m7_1 (Memref.isWhole_whole _) m8_1 (Memref.isWhole_whole _) m9_1 (Memref.isWhole_whole _)) K } := by
  refine ⟨?_, ?_, fun E K => ?run⟩
  case run =>
    simp only [cc1__mp_kernel_eq_skeleton]; unfold cc1__mp_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := (Memref.isWhole_whole cc1_stg4_0).eq_unread hf7; obtain rfl := (Memref.isWhole_whole cc1_scratch0).eq_unread hf8
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexact H7
    isplitl [H8]; · iexact H8
    iexists _; iexact H9

end Cert.Kernel.Body

end
-- ==== Proof.BRun1.lean ====
/-
  The message-passing kernel's body at one grid point (custom_call 1), generic in the float instance.

  From the two table buffers, the node-state block, the chunk's gather indices, scatter indices and weights, the output
  block's buffer and the accumulator at given contents (the one-hot scratch at anything), the body runs to its end leaving
  the inputs as they were, the one-hot scratch at something, the accumulator at `acc8` of what it found and the output
  buffer at `out7`: the accumulator is reset at the first point and then updated tile by tile under the table words'
  guards; the output buffer is overwritten by the accumulator at the last point and untouched before.
-/
import proofs.«400082_j83537113907851_4_alg».proof.Proof.BRunK1
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator after the body at grid point `i` (run on core `c` through the memrefs `arg1 … arg6`), from the two
    tables `x1 x2`, the node states `x3`, the chunk's gather indices `x4`, scatter indices `x5`, weights `x6`, and the
    accumulator `a8` the point found: what the run leaves in the accumulator's buffer, read back. -/
def acc8_1 (c : Dev nD) (i : grid1.Coords)
    (arg1 : Memref sig .tc .smem S489 .i32) (harg1 : arg1.IsWhole) (arg2 : Memref sig .tc .smem S489 .i32) (harg2 : arg2.IsWhole)
    (arg3 : Memref sig .tc .vmem S10000x8 .f32) (harg3 : arg3.IsWhole) (arg4 : Memref sig .tc .vmem S4096 .i32) (harg4 : arg4.IsWhole)
    (arg5 : Memref sig .tc .vmem S4096 .i32) (harg5 : arg5.IsWhole) (arg6 : Memref sig .tc .vmem S4096 .f32) (harg6 : arg6.IsWhole)
    (x1 x2 : Vec F S489 .i32) (x3 : Vec F S10000x8 .f32) (x4 x5 : Vec F S4096 .i32) (x6 : Vec F S4096 .f32) (a8 : Vec F S10000x8 .f32) : Vec F S10000x8 .f32 :=
  (m8_1).view.read (Elt F) (kernelRun1 c i arg1 harg1 arg2 harg2 arg3 harg3 arg4 harg4 arg5 harg5 arg6 harg6 x1 x2 x3 x4 x5 x6 a8 a8).2.1

/-- The output block's buffer after the body at grid point `i`, having held `xi7`. -/
def out7_1 (c : Dev nD) (i : grid1.Coords)
    (arg1 : Memref sig .tc .smem S489 .i32) (harg1 : arg1.IsWhole) (arg2 : Memref sig .tc .smem S489 .i32) (harg2 : arg2.IsWhole)
    (arg3 : Memref sig .tc .vmem S10000x8 .f32) (harg3 : arg3.IsWhole) (arg4 : Memref sig .tc .vmem S4096 .i32) (harg4 : arg4.IsWhole)
    (arg5 : Memref sig .tc .vmem S4096 .i32) (harg5 : arg5.IsWhole) (arg6 : Memref sig .tc .vmem S4096 .f32) (harg6 : arg6.IsWhole)
    (x1 x2 : Vec F S489 .i32) (x3 : Vec F S10000x8 .f32) (x4 x5 : Vec F S4096 .i32) (x6 : Vec F S4096 .f32) (xi7 a8 : Vec F S10000x8 .f32) : Vec F S10000x8 .f32 :=
  (m7_1).view.read (Elt F) (kernelRun1 c i arg1 harg1 arg2 harg2 arg3 harg3 arg4 harg4 arg5 harg5 arg6 harg6 x1 x2 x3 x4 x5 x6 xi7 a8).1

/-- What the run leaves in the accumulator does not look at what the output block's buffer held. -/
theorem F8_xi1 (c : Dev nD) (i : grid1.Coords)
    (arg1 : Memref sig .tc .smem S489 .i32) (harg1 : arg1.IsWhole) (arg2 : Memref sig .tc .smem S489 .i32) (harg2 : arg2.IsWhole)
    (arg3 : Memref sig .tc .vmem S10000x8 .f32) (harg3 : arg3.IsWhole) (arg4 : Memref sig .tc .vmem S4096 .i32) (harg4 : arg4.IsWhole)
    (arg5 : Memref sig .tc .vmem S4096 .i32) (harg5 : arg5.IsWhole) (arg6 : Memref sig .tc .vmem S4096 .f32) (harg6 : arg6.IsWhole)
    (x1 x2 : Vec F S489 .i32) (x3 : Vec F S10000x8 .f32) (x4 x5 : Vec F S4096 .i32) (x6 : Vec F S4096 .f32) (xi7 a8 : Vec F S10000x8 .f32) :
    (kernelRun1 c i arg1 harg1 arg2 harg2 arg3 harg3 arg4 harg4 arg5 harg5 arg6 harg6 x1 x2 x3 x4 x5 x6 xi7 a8).2.1 = (kernelRun1 c i arg1 harg1 arg2 harg2 arg3 harg3 arg4 harg4 arg5 harg5 arg6 harg6 x1 x2 x3 x4 x5 x6 a8 a8).2.1 := by
  unfold kernelRun1
  rfl

/-- The body's triple at any grid point. -/
theorem sound_kernel1 (c : Dev nD) (E : Set ℕ) (i : grid1.Coords)
    (arg1 : Memref sig .tc .smem S489 .i32) (harg1 : arg1.IsWhole) (arg2 : Memref sig .tc .smem S489 .i32) (harg2 : arg2.IsWhole)
    (arg3 : Memref sig .tc .vmem S10000x8 .f32) (harg3 : arg3.IsWhole) (arg4 : Memref sig .tc .vmem S4096 .i32) (harg4 : arg4.IsWhole)
    (arg5 : Memref sig .tc .vmem S4096 .i32) (harg5 : arg5.IsWhole) (arg6 : Memref sig .tc .vmem S4096 .f32) (harg6 : arg6.IsWhole)
    (x1 x2 : Vec F S489 .i32) (x3 : Vec F S10000x8 .f32) (x4 x5 : Vec F S4096 .i32) (x6 : Vec F S4096 .f32) (xi7 a8 : Vec F S10000x8 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) m7_1 fullShare xi7 ∗ owns (c : Thread nD τ) m8_1 fullShare a8 ∗ (∃ d, owns (c : Thread nD τ) m9_1 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) m7_1 fullShare (out7_1 c i arg1 harg1 arg2 harg2 arg3 harg3 arg4 harg4 arg5 harg5 arg6 harg6 x1 x2 x3 x4 x5 x6 xi7 a8)
            ∗ owns (c : Thread nD τ) m8_1 fullShare (acc8_1 c i arg1 harg1 arg2 harg2 arg3 harg3 arg4 harg4 arg5 harg5 arg6 harg6 x1 x2 x3 x4 x5 x6 a8)
            ∗ (∃ d, owns (c : Thread nD τ) m9_1 fullShare d)) -∗ K ⟨⟩))
      ⊢ wp frame (wpE (defs₀ (F := F)) Variants.none c none) E
          (cc1__mp_kernel i arg1 harg1 arg2 harg2 arg3 harg3 arg4 harg4 arg5 harg5 arg6 harg6
            m7_1 (Memref.isWhole_whole _) m8_1 (Memref.isWhole_whole _) m9_1 (Memref.isWhole_whole _)) K := by
  refine .trans ?_ ((kernelRun1 c i arg1 harg1 arg2 harg2 arg3 harg3 arg4 harg4 arg5 harg5 arg6 harg6 x1 x2 x3 x4 x5 x6 xi7 a8).2.2 E K)
  iintro ⟨H1, H2, H3, H4, H5, H6, H7, H8, H9, Hk⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H1, H2, H3, H4, H5, H6, H7, H8, H9⟩
  iapply Hk
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr; · ipureintro; rfl
    iexact H7
  isplitl [H8]
  · unfold owns; iexists _; isplitr; · ipureintro; exact congrArg ((m8_1).view.read (Elt F)) (F8_xi1 c i arg1 harg1 arg2 harg2 arg3 harg3 arg4 harg4 arg5 harg5 arg6 harg6 x1 x2 x3 x4 x5 x6 xi7 a8)
    iexact H8
  icases H9 with ⟨%f, H9⟩
  iexists _; unfold owns; iexists f; isplitr; · ipureintro; rfl
  iexact H9

/-- Before the last point the body leaves the output block's buffer as it found it. -/
theorem out7_1_idle (c : Dev nD) (i : grid1.Coords)
    (arg1 : Memref sig .tc .smem S489 .i32) (harg1 : arg1.IsWhole) (arg2 : Memref sig .tc .smem S489 .i32) (harg2 : arg2.IsWhole)
    (arg3 : Memref sig .tc .vmem S10000x8 .f32) (harg3 : arg3.IsWhole) (arg4 : Memref sig .tc .vmem S4096 .i32) (harg4 : arg4.IsWhole)
    (arg5 : Memref sig .tc .vmem S4096 .i32) (harg5 : arg5.IsWhole) (arg6 : Memref sig .tc .vmem S4096 .f32) (harg6 : arg6.IsWhole)
    (x1 x2 : Vec F S489 .i32) (x3 : Vec F S10000x8 .f32) (x4 x5 : Vec F S4096 .i32) (x6 : Vec F S4096 .f32) (xi7 a8 : Vec F S10000x8 .f32) (h : ¬ k1_cond12 i = 1#1) :
    out7_1 c i arg1 harg1 arg2 harg2 arg3 harg3 arg4 harg4 arg5 harg5 arg6 harg6 x1 x2 x3 x4 x5 x6 xi7 a8 = xi7 := by
  unfold out7_1 kernelRun1
  dsimp only
  rw [dif_neg h]
  exact (Memref.isWhole_whole cc1_stg4_0).read_unread xi7

set_option maxHeartbeats 2000000 in
/-- At the last point the body copies the updated accumulator into the output block's buffer. -/
theorem out7_1_last (c : Dev nD) (i : grid1.Coords)
    (arg1 : Memref sig .tc .smem S489 .i32) (harg1 : arg1.IsWhole) (arg2 : Memref sig .tc .smem S489 .i32) (harg2 : arg2.IsWhole)
    (arg3 : Memref sig .tc .vmem S10000x8 .f32) (harg3 : arg3.IsWhole) (arg4 : Memref sig .tc .vmem S4096 .i32) (harg4 : arg4.IsWhole)
    (arg5 : Memref sig .tc .vmem S4096 .i32) (harg5 : arg5.IsWhole) (arg6 : Memref sig .tc .vmem S4096 .f32) (harg6 : arg6.IsWhole)
    (x1 x2 : Vec F S489 .i32) (x3 : Vec F S10000x8 .f32) (x4 x5 : Vec F S4096 .i32) (x6 : Vec F S4096 .f32) (xi7 a8 : Vec F S10000x8 .f32) (h : k1_cond12 i = 1#1) :
    out7_1 c i arg1 harg1 arg2 harg2 arg3 harg3 arg4 harg4 arg5 harg5 arg6 harg6 x1 x2 x3 x4 x5 x6 xi7 a8 = acc8_1 c i arg1 harg1 arg2 harg2 arg3 harg3 arg4 harg4 arg5 harg5 arg6 harg6 x1 x2 x3 x4 x5 x6 a8 := by
  have hz : (![0, 0] : Fin S10000x8.rank → Nat) = fun _ => 0 := by
    funext a; match a with | ⟨0, _⟩ => rfl | ⟨1, _⟩ => rfl
  unfold out7_1 acc8_1 kernelRun1
  dsimp only
  rw [dif_pos h]
  rw [View.read_writes_eq_canon _ _ _ (fun y => ⟨_, List.mem_singleton_self _, View.mem_set_unit_zero hz Facts₀.inb_S10000x8_S10000x8_0_0 y⟩)]
  rw [View.canon_unit_zero hz]
  sl_unfold_words
  simp only [View.readAt_eq_ld, View.ld_unit_zero (S := S10000x8) hz]

end Cert.Kernel.Body

end
-- ==== Proof.BAccEval1.lean ====
/-
  The accumulator update of one grid point read tile by tile, generic in the float instance.

  The point first resets the accumulator (at the first grid point) or keeps what it found: the base. Then each of the ten
  node tiles is, under its own guard, overwritten by a value computed from the chunk and from the tile as loaded. The
  tiles are disjoint row ranges, so the tile loaded is the base's tile, and node 1000 t + r reads, after the point, tile
  t's new value at row r when tile t's guard holds and the base otherwise. What the point found enters only through the
  base; at the first grid point the base is zero, so what the accumulator held there does not matter.
-/
import proofs.«400082_j83537113907851_4_alg».proof.Proof.BRun1
import proofs.«400082_j83537113907851_4_alg».proof.Proof.BAccRead
import Idealize.ShloMosaic.Lib.ValueIdx

set_option maxRecDepth 16384

noncomputable section

namespace Cert.Kernel.AccEval1

open Cert.Kernel Cert.Kernel.Gen
open Idealize.ShloMosaic Idealize.ShloMosaic.TcCoe
open Idealize.SL.Sem

variable {F : FTy → Type} [FloatOps F]

/-! ## What the point starts from, and a tile of it -/

/-- The accumulator as the tile updates find it: zero everywhere at the first grid point, what the point found at
    every later one. -/
def base (i : grid1.Coords) (a8 : Vec F S10000x8 .f32) : Vec F S10000x8 .f32 :=
  fun y => if Body.kernelRun1.sl.v2 i = 1#1 then k1_pay5 (F := F) y else a8 y

/-- At the first point what the point found does not enter. -/
theorem base_first (i : grid1.Coords) (a a' : Vec F S10000x8 .f32) (h : Body.kernelRun1.sl.v2 i = 1#1) :
    base i a = base i a' := by
  funext y; unfold base; rw [if_pos h, if_pos h]

/-- Rows [o, o + 1000) of an accumulator-shaped array, as a tile. -/
def tileOf (B : Vec F S10000x8 .f32) (o : Nat) (ho : o + 1000 ≤ 10000) : FVec F S1000x8 .f32 :=
  fun x => B (ValueIdx.ix2 (⟨o + (x 0).val, by have h : (x 0).val < 1000 := (x 0).isLt; omega⟩ : Fin 10000) (x 1))

theorem tileOf_apply (B : Vec F S10000x8 .f32) (o : Nat) (ho : o + 1000 ≤ 10000) (r : Fin 1000) (k : Fin 8)
    (n : Fin 10000) (hn : n.val = o + r.val) : tileOf B o ho (ValueIdx.ix2 r k) = B (ValueIdx.ix2 n k) := by
  have e : (⟨o + r.val, by omega⟩ : Fin 10000) = n := Fin.ext hn.symm
  show B (ValueIdx.ix2 (⟨o + r.val, _⟩ : Fin 10000) k) = _
  rw [e]

section Generic
variable {sig' : RefSig} {κ : Kind} {sp : Space} {Val : EltTy → Type}

/-- Entry (r, k) of the tile of rows [o, o + 1000) sits at row o + r, column k of the accumulator. -/
theorem tile_idx (o : Nat) (inb : ∀ a, (![o, 0] : Fin 2 → Nat) a + S1000x8.size a ≤ S10000x8.size a)
    (r : Fin 1000) (k : Fin 8) (n : Fin 10000) (hn : n.val = o + r.val) :
    (Rect.unit (s := S10000x8) ![o, 0] S1000x8.size inb).toLoadRect.idx (ValueIdx.ix2 r k) = ValueIdx.ix2 n k :=
  funext fun a => Fin.ext (by
    match a with
    | ⟨0, _⟩ => show o + 1 * r.val = n.val; omega
    | ⟨1, _⟩ => show 0 + 1 * k.val = k.val; omega)

/-- A load of that tile reads the contents at those places. -/
theorem readAt_tile (v : View sig' κ sp S10000x8 .f32) (f : v.ty.Contents Val) (o : Nat)
    (inb : ∀ a, (![o, 0] : Fin 2 → Nat) a + S1000x8.size a ≤ S10000x8.size a)
    (r : Fin 1000) (k : Fin 8) (n : Fin 10000) (hn : n.val = o + r.val) :
    v.readAt Val (Rect.unit (s := S10000x8) ![o, 0] S1000x8.size inb).toLoadRect f (ValueIdx.ix2 r k)
      = v.read Val f (ValueIdx.ix2 n k) :=
  congrArg (v.read Val f) (tile_idx o inb r k n hn)

/-- A choice made with the guard's evidence in hand between values that do not use it is the plain choice. -/
theorem dite_ite_congr {α : Type} (g : Prop) [Decidable g] {a a' b b' : α} (ha : a = a') (hb : b = b') :
    (if _hg : g then a else b) = if g then a' else b' := by
  subst ha hb; exact dite_eq_ite

end Generic

/-- The reset, read back: the whole accumulator overwritten under the guard, else what the point found. -/
theorem read_reset {sp : Space} (m : Memref sig .tc sp S10000x8 .f32) (hw : m.IsWhole) (g : Prop) [Decidable g]
    (inb : ∀ a, (![0, 0] : Fin 2 → Nat) a + S10000x8.size a ≤ S10000x8.size a)
    (P : S10000x8.Idx → Elt F .f32) (a8 : Vec F S10000x8 .f32) (y : S10000x8.Idx) :
    m.view.read (Elt F) (if _hc : g then m.view.writes (Elt F) (hw.unread a8) [⟨Rect.unit ![0, 0] S10000x8.size inb, P⟩]
        else hw.unread a8) y = if g then P y else a8 y := by
  by_cases hg : g
  · rw [dif_pos hg, if_pos hg]
    exact View.read_writes_cons_unit_of_mem m.view (hw.unread a8) inb P [] y y rfl
      (Fin.forall_fin_two.mpr ⟨(Nat.zero_add _).symm, (Nat.zero_add _).symm⟩)
  · rw [dif_neg hg, if_neg hg]
    exact congrFun (hw.read_unread a8) y

/-! ## The ten tile updates

Tile t of the accumulator is stored under its guard from a value computed from the chunk and from the tile as it was
loaded; the loaded tile is the base's tile, because the updates of the tiles before it write other rows. Read at node
1000 t + r: the later tiles' stores miss the row, tile t's store holds it when its guard holds, the earlier tiles'
stores miss it, and the reset is read last. -/

section Tiles
variable (c : Dev nD) (i : grid1.Coords)
  (arg1 : Memref sig .tc .smem S489 .i32) (harg1 : arg1.IsWhole) (arg2 : Memref sig .tc .smem S489 .i32) (harg2 : arg2.IsWhole)
  (arg3 : Memref sig .tc .vmem S10000x8 .f32) (harg3 : arg3.IsWhole) (arg4 : Memref sig .tc .vmem S4096 .i32) (harg4 : arg4.IsWhole)
  (arg5 : Memref sig .tc .vmem S4096 .i32) (harg5 : arg5.IsWhole) (arg6 : Memref sig .tc .vmem S4096 .f32) (harg6 : arg6.IsWhole)
  (x1 x2 : Vec F S489 .i32) (x3 : Vec F S10000x8 .f32) (x4 x5 : Vec F S4096 .i32) (x6 : Vec F S4096 .f32)

/-- The guard of tile t, as the run names it. -/
def guardW (t : Fin 10) : BitVec 1 :=
  match t with
  | ⟨0, _⟩ => Body.kernelRun1.sl.v191 c i arg1 harg1 arg2 harg2 x1 x2
  | ⟨1, _⟩ => Body.kernelRun1.sl.v196 c i arg1 harg1 arg2 harg2 x1 x2
  | ⟨2, _⟩ => Body.kernelRun1.sl.v201 c i arg1 harg1 arg2 harg2 x1 x2
  | ⟨3, _⟩ => Body.kernelRun1.sl.v206 c i arg1 harg1 arg2 harg2 x1 x2
  | ⟨4, _⟩ => Body.kernelRun1.sl.v211 c i arg1 harg1 arg2 harg2 x1 x2
  | ⟨5, _⟩ => Body.kernelRun1.sl.v216 c i arg1 harg1 arg2 harg2 x1 x2
  | ⟨6, _⟩ => Body.kernelRun1.sl.v221 c i arg1 harg1 arg2 harg2 x1 x2
  | ⟨7, _⟩ => Body.kernelRun1.sl.v226 c i arg1 harg1 arg2 harg2 x1 x2
  | ⟨8, _⟩ => Body.kernelRun1.sl.v231 c i arg1 harg1 arg2 harg2 x1 x2
  | ⟨9, _⟩ => Body.kernelRun1.sl.v236 c i arg1 harg1 arg2 harg2 x1 x2

/-- What tile t stores, as a function of the tile it loaded. -/
def upd (t : Fin 10) (ld : FVec F S1000x8 .f32) : FVec F S1000x8 .f32 :=
  match t with
  | ⟨0, _⟩ => k1_pay29 (Body.kernelRun1.sl.r_2 c arg6 harg6 x6) (Body.kernelRun1.sl.r_8 c arg3 harg3 arg4 harg4 x3 x4)
      (Body.kernelRun1.sl.v158 c arg4 harg4 x4)
      (View.readAt (Elt F) arg3.view (Rect.unit (s := S10000x8) ![8000, 0] S1000x8.size inb_S10000x8_S1000x8_8000_0).toLoadRect (harg3.unread x3))
      (Body.kernelRun1.sl.v175 c arg4 harg4 x4)
      (View.readAt (Elt F) arg3.view (Rect.unit (s := S10000x8) ![9000, 0] S1000x8.size inb_S10000x8_S1000x8_9000_0).toLoadRect (harg3.unread x3))
      (Body.kernelRun1.sl.v252 c arg4 harg4 arg5 harg5 x4 x5) ld
  | ⟨1, _⟩ => k1_pay31 (Body.kernelRun1.sl.r_12 c arg3 harg3 arg4 harg4 arg6 harg6 x3 x4 x6) (Body.kernelRun1.sl.v252_1 c arg5 harg5 x5) ld
  | ⟨2, _⟩ => k1_pay33 (Body.kernelRun1.sl.r_12 c arg3 harg3 arg4 harg4 arg6 harg6 x3 x4 x6) (Body.kernelRun1.sl.v252_2 c arg5 harg5 x5) ld
  | ⟨3, _⟩ => k1_pay35 (Body.kernelRun1.sl.r_12 c arg3 harg3 arg4 harg4 arg6 harg6 x3 x4 x6) (Body.kernelRun1.sl.v252_3 c arg5 harg5 x5) ld
  | ⟨4, _⟩ => k1_pay37 (Body.kernelRun1.sl.r_12 c arg3 harg3 arg4 harg4 arg6 harg6 x3 x4 x6) (Body.kernelRun1.sl.v252_4 c arg5 harg5 x5) ld
  | ⟨5, _⟩ => k1_pay39 (Body.kernelRun1.sl.r_12 c arg3 harg3 arg4 harg4 arg6 harg6 x3 x4 x6) (Body.kernelRun1.sl.v252_5 c arg5 harg5 x5) ld
  | ⟨6, _⟩ => k1_pay41 (Body.kernelRun1.sl.r_12 c arg3 harg3 arg4 harg4 arg6 harg6 x3 x4 x6) (Body.kernelRun1.sl.v252_6 c arg5 harg5 x5) ld
  | ⟨7, _⟩ => k1_pay43 (Body.kernelRun1.sl.r_12 c arg3 harg3 arg4 harg4 arg6 harg6 x3 x4 x6) (Body.kernelRun1.sl.v252_7 c arg5 harg5 x5) ld
  | ⟨8, _⟩ => k1_pay2 (Body.kernelRun1.sl.r_12 c arg3 harg3 arg4 harg4 arg6 harg6 x3 x4 x6) (Body.kernelRun1.sl.v252_8 c arg5 harg5 x5) ld
  | ⟨9, _⟩ => k1_pay4 (Body.kernelRun1.sl.r_12 c arg3 harg3 arg4 harg4 arg6 harg6 x3 x4 x6) (Body.kernelRun1.sl.v252_9 c arg5 harg5 x5) ld

/-- Tile 0's load is the base's tile 0. -/
theorem ld0 (a8 : Vec F S10000x8 .f32) :
    Body.kernelRun1.sl.v254 (F := F) c i a8 = tileOf (base i a8) 0 (by omega) := by
  funext x
  obtain ⟨r, k, rfl⟩ : ∃ (r : Fin 1000) (k : Fin 8), x = ValueIdx.ix2 r k := ⟨x 0, x 1, ValueIdx.eq_ix2 x⟩
  obtain ⟨n, hn⟩ : ∃ n : Fin 10000, n.val = 0 + r.val := ⟨⟨0 + r.val, by omega⟩, rfl⟩
  rw [tileOf_apply _ 0 _ r k n hn]
  unfold Body.kernelRun1.sl.v254
  refine (readAt_tile _ _ 0 _ r k n hn).trans ?_
  exact read_reset _ _ _ _ _ a8 _

/-- Tile 1's load is the base's tile 1. -/
theorem ld1 (a8 : Vec F S10000x8 .f32) :
    Body.kernelRun1.sl.v254_1 (F := F) c i arg1 harg1 arg2 harg2 arg3 harg3 arg4 harg4 arg5 harg5 arg6 harg6 x1 x2 x3 x4 x5 x6 a8 = tileOf (base i a8) 1000 (by omega) := by
  funext x
  obtain ⟨r, k, rfl⟩ : ∃ (r : Fin 1000) (k : Fin 8), x = ValueIdx.ix2 r k := ⟨x 0, x 1, ValueIdx.eq_ix2 x⟩
  obtain ⟨n, hn⟩ : ∃ n : Fin 10000, n.val = 1000 + r.val := ⟨⟨1000 + r.val, by omega⟩, rfl⟩
  rw [tileOf_apply _ 1000 _ r k n hn]
  unfold Body.kernelRun1.sl.v254_1
  refine (readAt_tile _ _ 1000 _ r k n hn).trans ?_
  refine (AccRead.read_dguarded_tile_of_not_mem _ _ _ 0 _ _ n k (by omega)).trans ?_
  exact read_reset _ _ _ _ _ a8 _

/-- Tile 2's load is the base's tile 2. -/
theorem ld2 (a8 : Vec F S10000x8 .f32) :
    Body.kernelRun1.sl.v254_2 (F := F) c i arg1 harg1 arg2 harg2 arg3 harg3 arg4 harg4 arg5 harg5 arg6 harg6 x1 x2 x3 x4 x5 x6 a8 = tileOf (base i a8) 2000 (by omega) := by
  funext x
  obtain ⟨r, k, rfl⟩ : ∃ (r : Fin 1000) (k : Fin 8), x = ValueIdx.ix2 r k := ⟨x 0, x 1, ValueIdx.eq_ix2 x⟩
  obtain ⟨n, hn⟩ : ∃ n : Fin 10000, n.val = 2000 + r.val := ⟨⟨2000 + r.val, by omega⟩, rfl⟩
  rw [tileOf_apply _ 2000 _ r k n hn]
  unfold Body.kernelRun1.sl.v254_2
  refine (readAt_tile _ _ 2000 _ r k n hn).trans ?_
  refine (AccRead.read_dguarded_tile_of_not_mem _ _ _ 1000 _ _ n k (by omega)).trans ?_
  refine (AccRead.read_dguarded_tile_of_not_mem _ _ _ 0 _ _ n k (by omega)).trans ?_
  exact read_reset _ _ _ _ _ a8 _

/-- Tile 3's load is the base's tile 3. -/
theorem ld3 (a8 : Vec F S10000x8 .f32) :
    Body.kernelRun1.sl.v254_3 (F := F) c i arg1 harg1 arg2 harg2 arg3 harg3 arg4 harg4 arg5 harg5 arg6 harg6 x1 x2 x3 x4 x5 x6 a8 = tileOf (base i a8) 3000 (by omega) := by
  funext x
  obtain ⟨r, k, rfl⟩ : ∃ (r : Fin 1000) (k : Fin 8), x = ValueIdx.ix2 r k := ⟨x 0, x 1, ValueIdx.eq_ix2 x⟩
  obtain ⟨n, hn⟩ : ∃ n : Fin 10000, n.val = 3000 + r.val := ⟨⟨3000 + r.val, by omega⟩, rfl⟩
  rw [tileOf_apply _ 3000 _ r k n hn]
  unfold Body.kernelRun1.sl.v254_3
  refine (readAt_tile _ _ 3000 _ r k n hn).trans ?_
  refine (AccRead.read_dguarded_tile_of_not_mem _ _ _ 2000 _ _ n k (by omega)).trans ?_
  refine (AccRead.read_dguarded_tile_of_not_mem _ _ _ 1000 _ _ n k (by omega)).trans ?_
  refine (AccRead.read_dguarded_tile_of_not_mem _ _ _ 0 _ _ n k (by omega)).trans ?_
  exact read_reset _ _ _ _ _ a8 _

/-- Tile 4's load is the base's tile 4. -/
theorem ld4 (a8 : Vec F S10000x8 .f32) :
    Body.kernelRun1.sl.v254_4 (F := F) c i arg1 harg1 arg2 harg2 arg3 harg3 arg4 harg4 arg5 harg5 arg6 harg6 x1 x2 x3 x4 x5 x6 a8 = tileOf (base i a8) 4000 (by omega) := by
  funext x
  obtain ⟨r, k, rfl⟩ : ∃ (r : Fin 1000) (k : Fin 8), x = ValueIdx.ix2 r k := ⟨x 0, x 1, ValueIdx.eq_ix2 x⟩
  obtain ⟨n, hn⟩ : ∃ n : Fin 10000, n.val = 4000 + r.val := ⟨⟨4000 + r.val, by omega⟩, rfl⟩
  rw [tileOf_apply _ 4000 _ r k n hn]
  unfold Body.kernelRun1.sl.v254_4
  refine (readAt_tile _ _ 4000 _ r k n hn).trans ?_
  refine (AccRead.read_dguarded_tile_of_not_mem _ _ _ 3000 _ _ n k (by omega)).trans ?_
  refine (AccRead.read_dguarded_tile_of_not_mem _ _ _ 2000 _ _ n k (by omega)).trans ?_
  refine (AccRead.read_dguarded_tile_of_not_mem _ _ _ 1000 _ _ n k (by omega)).trans ?_
  refine (AccRead.read_dguarded_tile_of_not_mem _ _ _ 0 _ _ n k (by omega)).trans ?_
  exact read_reset _ _ _ _ _ a8 _

/-- Tile 5's load is the base's tile 5. -/
theorem ld5 (a8 : Vec F S10000x8 .f32) :
    Body.kernelRun1.sl.v254_5 (F := F) c i arg1 harg1 arg2 harg2 arg3 harg3 arg4 harg4 arg5 harg5 arg6 harg6 x1 x2 x3 x4 x5 x6 a8 = tileOf (base i a8) 5000 (by omega) := by
  funext x
  obtain ⟨r, k, rfl⟩ : ∃ (r : Fin 1000) (k : Fin 8), x = ValueIdx.ix2 r k := ⟨x 0, x 1, ValueIdx.eq_ix2 x⟩
  obtain ⟨n, hn⟩ : ∃ n : Fin 10000, n.val = 5000 + r.val := ⟨⟨5000 + r.val, by omega⟩, rfl⟩
  rw [tileOf_apply _ 5000 _ r k n hn]
  unfold Body.kernelRun1.sl.v254_5
  refine (readAt_tile _ _ 5000 _ r k n hn).trans ?_
  refine (AccRead.read_dguarded_tile_of_not_mem _ _ _ 4000 _ _ n k (by omega)).trans ?_
  refine (AccRead.read_dguarded_tile_of_not_mem _ _ _ 3000 _ _ n k (by omega)).trans ?_
  refine (AccRead.read_dguarded_tile_of_not_mem _ _ _ 2000 _ _ n k (by omega)).trans ?_
  refine (AccRead.read_dguarded_tile_of_not_mem _ _ _ 1000 _ _ n k (by omega)).trans ?_
  refine (AccRead.read_dguarded_tile_of_not_mem _ _ _ 0 _ _ n k (by omega)).trans ?_
  exact read_reset _ _ _ _ _ a8 _

/-- Tile 6's load is the base's tile 6. -/
theorem ld6 (a8 : Vec F S10000x8 .f32) :
    Body.kernelRun1.sl.v254_6 (F := F) c i arg1 harg1 arg2 harg2 arg3 harg3 arg4 harg4 arg5 harg5 arg6 harg6 x1 x2 x3 x4 x5 x6 a8 = tileOf (base i a8) 6000 (by omega) := by
  funext x
  obtain ⟨r, k, rfl⟩ : ∃ (r : Fin 1000) (k : Fin 8), x = ValueIdx.ix2 r k := ⟨x 0, x 1, ValueIdx.eq_ix2 x⟩
  obtain ⟨n, hn⟩ : ∃ n : Fin 10000, n.val = 6000 + r.val := ⟨⟨6000 + r.val, by omega⟩, rfl⟩
  rw [tileOf_apply _ 6000 _ r k n hn]
  unfold Body.kernelRun1.sl.v254_6
  refine (readAt_tile _ _ 6000 _ r k n hn).trans ?_
  refine (AccRead.read_dguarded_tile_of_not_mem _ _ _ 5000 _ _ n k (by omega)).trans ?_
  refine (AccRead.read_dguarded_tile_of_not_mem _ _ _ 4000 _ _ n k (by omega)).trans ?_
  refine (AccRead.read_dguarded_tile_of_not_mem _ _ _ 3000 _ _ n k (by omega)).trans ?_
  refine (AccRead.read_dguarded_tile_of_not_mem _ _ _ 2000 _ _ n k (by omega)).trans ?_
  refine (AccRead.read_dguarded_tile_of_not_mem _ _ _ 1000 _ _ n k (by omega)).trans ?_
  refine (AccRead.read_dguarded_tile_of_not_mem _ _ _ 0 _ _ n k (by omega)).trans ?_
  exact read_reset _ _ _ _ _ a8 _

/-- Tile 7's load is the base's tile 7. -/
theorem ld7 (a8 : Vec F S10000x8 .f32) :
    Body.kernelRun1.sl.v254_7 (F := F) c i arg1 harg1 arg2 harg2 arg3 harg3 arg4 harg4 arg5 harg5 arg6 harg6 x1 x2 x3 x4 x5 x6 a8 = tileOf (base i a8) 7000 (by omega) := by
  funext x
  obtain ⟨r, k, rfl⟩ : ∃ (r : Fin 1000) (k : Fin 8), x = ValueIdx.ix2 r k := ⟨x 0, x 1, ValueIdx.eq_ix2 x⟩
  obtain ⟨n, hn⟩ : ∃ n : Fin 10000, n.val = 7000 + r.val := ⟨⟨7000 + r.val, by omega⟩, rfl⟩
  rw [tileOf_apply _ 7000 _ r k n hn]
  unfold Body.kernelRun1.sl.v254_7
  refine (readAt_tile _ _ 7000 _ r k n hn).trans ?_
  refine (AccRead.read_dguarded_tile_of_not_mem _ _ _ 6000 _ _ n k (by omega)).trans ?_
  refine (AccRead.read_dguarded_tile_of_not_mem _ _ _ 5000 _ _ n k (by omega)).trans ?_
  refine (AccRead.read_dguarded_tile_of_not_mem _ _ _ 4000 _ _ n k (by omega)).trans ?_
  refine (AccRead.read_dguarded_tile_of_not_mem _ _ _ 3000 _ _ n k (by omega)).trans ?_
  refine (AccRead.read_dguarded_tile_of_not_mem _ _ _ 2000 _ _ n k (by omega)).trans ?_
  refine (AccRead.read_dguarded_tile_of_not_mem _ _ _ 1000 _ _ n k (by omega)).trans ?_
  refine (AccRead.read_dguarded_tile_of_not_mem _ _ _ 0 _ _ n k (by omega)).trans ?_
  exact read_reset _ _ _ _ _ a8 _

/-- Tile 8's load is the base's tile 8. -/
theorem ld8 (a8 : Vec F S10000x8 .f32) :
    Body.kernelRun1.sl.v254_8 (F := F) c i arg1 harg1 arg2 harg2 arg3 harg3 arg4 harg4 arg5 harg5 arg6 harg6 x1 x2 x3 x4 x5 x6 a8 = tileOf (base i a8) 8000 (by omega) := by
  funext x
  obtain ⟨r, k, rfl⟩ : ∃ (r : Fin 1000) (k : Fin 8), x = ValueIdx.ix2 r k := ⟨x 0, x 1, ValueIdx.eq_ix2 x⟩
  obtain ⟨n, hn⟩ : ∃ n : Fin 10000, n.val = 8000 + r.val := ⟨⟨8000 + r.val, by omega⟩, rfl⟩
  rw [tileOf_apply _ 8000 _ r k n hn]
  unfold Body.kernelRun1.sl.v254_8
  refine (readAt_tile _ _ 8000 _ r k n hn).trans ?_
  refine (AccRead.read_dguarded_tile_of_not_mem _ _ _ 7000 _ _ n k (by omega)).trans ?_
  refine (AccRead.read_dguarded_tile_of_not_mem _ _ _ 6000 _ _ n k (by omega)).trans ?_
  refine (AccRead.read_dguarded_tile_of_not_mem _ _ _ 5000 _ _ n k (by omega)).trans ?_
  refine (AccRead.read_dguarded_tile_of_not_mem _ _ _ 4000 _ _ n k (by omega)).trans ?_
  refine (AccRead.read_dguarded_tile_of_not_mem _ _ _ 3000 _ _ n k (by omega)).trans ?_
  refine (AccRead.read_dguarded_tile_of_not_mem _ _ _ 2000 _ _ n k (by omega)).trans ?_
  refine (AccRead.read_dguarded_tile_of_not_mem _ _ _ 1000 _ _ n k (by omega)).trans ?_
  refine (AccRead.read_dguarded_tile_of_not_mem _ _ _ 0 _ _ n k (by omega)).trans ?_
  exact read_reset _ _ _ _ _ a8 _

/-- Tile 9's load is the base's tile 9. -/
theorem ld9 (a8 : Vec F S10000x8 .f32) :
    Body.kernelRun1.sl.v254_9 (F := F) c i arg1 harg1 arg2 harg2 arg3 harg3 arg4 harg4 arg5 harg5 arg6 harg6 x1 x2 x3 x4 x5 x6 a8 = tileOf (base i a8) 9000 (by omega) := by
  funext x
  obtain ⟨r, k, rfl⟩ : ∃ (r : Fin 1000) (k : Fin 8), x = ValueIdx.ix2 r k := ⟨x 0, x 1, ValueIdx.eq_ix2 x⟩
  obtain ⟨n, hn⟩ : ∃ n : Fin 10000, n.val = 9000 + r.val := ⟨⟨9000 + r.val, by omega⟩, rfl⟩
  rw [tileOf_apply _ 9000 _ r k n hn]
  unfold Body.kernelRun1.sl.v254_9
  refine (readAt_tile _ _ 9000 _ r k n hn).trans ?_
  refine (AccRead.read_dguarded_tile_of_not_mem _ _ _ 8000 _ _ n k (by omega)).trans ?_
  refine (AccRead.read_dguarded_tile_of_not_mem _ _ _ 7000 _ _ n k (by omega)).trans ?_
  refine (AccRead.read_dguarded_tile_of_not_mem _ _ _ 6000 _ _ n k (by omega)).trans ?_
  refine (AccRead.read_dguarded_tile_of_not_mem _ _ _ 5000 _ _ n k (by omega)).trans ?_
  refine (AccRead.read_dguarded_tile_of_not_mem _ _ _ 4000 _ _ n k (by omega)).trans ?_
  refine (AccRead.read_dguarded_tile_of_not_mem _ _ _ 3000 _ _ n k (by omega)).trans ?_
  refine (AccRead.read_dguarded_tile_of_not_mem _ _ _ 2000 _ _ n k (by omega)).trans ?_
  refine (AccRead.read_dguarded_tile_of_not_mem _ _ _ 1000 _ _ n k (by omega)).trans ?_
  refine (AccRead.read_dguarded_tile_of_not_mem _ _ _ 0 _ _ n k (by omega)).trans ?_
  exact read_reset _ _ _ _ _ a8 _

/-- Node 0 + r, column k after the point. -/
theorem acc_tile0 (xi7 a8 : Vec F S10000x8 .f32) (r : Fin 1000) (k : Fin 8) (n : Fin 10000) (hn : n.val = 0 + r.val) :
    (Body.m8_1).view.read (Elt F)
        (Body.kernelRun1 c i arg1 harg1 arg2 harg2 arg3 harg3 arg4 harg4 arg5 harg5 arg6 harg6 x1 x2 x3 x4 x5 x6 xi7 a8).2.1 (ValueIdx.ix2 n k)
      = if Body.kernelRun1.sl.v191 c i arg1 harg1 arg2 harg2 x1 x2 = 1#1 then
          upd c arg3 harg3 arg4 harg4 arg5 harg5 arg6 harg6 x3 x4 x5 x6 ⟨0, by omega⟩ (tileOf (base i a8) 0 (by omega)) (ValueIdx.ix2 r k)
        else base i a8 (ValueIdx.ix2 n k) := by
  unfold Body.kernelRun1
  dsimp only
  refine (AccRead.read_dguarded_tile_of_not_mem _ _ _ 9000 _ _ n k (by omega)).trans ?_
  refine (AccRead.read_dguarded_tile_of_not_mem _ _ _ 8000 _ _ n k (by omega)).trans ?_
  refine (AccRead.read_dguarded_tile_of_not_mem _ _ _ 7000 _ _ n k (by omega)).trans ?_
  refine (AccRead.read_dguarded_tile_of_not_mem _ _ _ 6000 _ _ n k (by omega)).trans ?_
  refine (AccRead.read_dguarded_tile_of_not_mem _ _ _ 5000 _ _ n k (by omega)).trans ?_
  refine (AccRead.read_dguarded_tile_of_not_mem _ _ _ 4000 _ _ n k (by omega)).trans ?_
  refine (AccRead.read_dguarded_tile_of_not_mem _ _ _ 3000 _ _ n k (by omega)).trans ?_
  refine (AccRead.read_dguarded_tile_of_not_mem _ _ _ 2000 _ _ n k (by omega)).trans ?_
  refine (AccRead.read_dguarded_tile_of_not_mem _ _ _ 1000 _ _ n k (by omega)).trans ?_
  refine (AccRead.read_dguarded_tile_of_mem _ _ _ 0 _ _ n k r hn).trans ?_
  refine dite_ite_congr _ ?_ ?_
  · rw [ld0]; rfl
  · exact read_reset _ _ _ _ _ a8 _

/-- Node 1000 + r, column k after the point. -/
theorem acc_tile1 (xi7 a8 : Vec F S10000x8 .f32) (r : Fin 1000) (k : Fin 8) (n : Fin 10000) (hn : n.val = 1000 + r.val) :
    (Body.m8_1).view.read (Elt F)
        (Body.kernelRun1 c i arg1 harg1 arg2 harg2 arg3 harg3 arg4 harg4 arg5 harg5 arg6 harg6 x1 x2 x3 x4 x5 x6 xi7 a8).2.1 (ValueIdx.ix2 n k)
      = if Body.kernelRun1.sl.v196 c i arg1 harg1 arg2 harg2 x1 x2 = 1#1 then
          upd c arg3 harg3 arg4 harg4 arg5 harg5 arg6 harg6 x3 x4 x5 x6 ⟨1, by omega⟩ (tileOf (base i a8) 1000 (by omega)) (ValueIdx.ix2 r k)
        else base i a8 (ValueIdx.ix2 n k) := by
  unfold Body.kernelRun1
  dsimp only
  refine (AccRead.read_dguarded_tile_of_not_mem _ _ _ 9000 _ _ n k (by omega)).trans ?_
  refine (AccRead.read_dguarded_tile_of_not_mem _ _ _ 8000 _ _ n k (by omega)).trans ?_
  refine (AccRead.read_dguarded_tile_of_not_mem _ _ _ 7000 _ _ n k (by omega)).trans ?_
  refine (AccRead.read_dguarded_tile_of_not_mem _ _ _ 6000 _ _ n k (by omega)).trans ?_
  refine (AccRead.read_dguarded_tile_of_not_mem _ _ _ 5000 _ _ n k (by omega)).trans ?_
  refine (AccRead.read_dguarded_tile_of_not_mem _ _ _ 4000 _ _ n k (by omega)).trans ?_
  refine (AccRead.read_dguarded_tile_of_not_mem _ _ _ 3000 _ _ n k (by omega)).trans ?_
  refine (AccRead.read_dguarded_tile_of_not_mem _ _ _ 2000 _ _ n k (by omega)).trans ?_
  refine (AccRead.read_dguarded_tile_of_mem _ _ _ 1000 _ _ n k r hn).trans ?_
  refine dite_ite_congr _ ?_ ?_
  · rw [ld1]; rfl
  · refine (AccRead.read_dguarded_tile_of_not_mem _ _ _ 0 _ _ n k (by omega)).trans ?_
    exact read_reset _ _ _ _ _ a8 _

/-- Node 2000 + r, column k after the point. -/
theorem acc_tile2 (xi7 a8 : Vec F S10000x8 .f32) (r : Fin 1000) (k : Fin 8) (n : Fin 10000) (hn : n.val = 2000 + r.val) :
    (Body.m8_1).view.read (Elt F)
        (Body.kernelRun1 c i arg1 harg1 arg2 harg2 arg3 harg3 arg4 harg4 arg5 harg5 arg6 harg6 x1 x2 x3 x4 x5 x6 xi7 a8).2.1 (ValueIdx.ix2 n k)
      = if Body.kernelRun1.sl.v201 c i arg1 harg1 arg2 harg2 x1 x2 = 1#1 then
          upd c arg3 harg3 arg4 harg4 arg5 harg5 arg6 harg6 x3 x4 x5 x6 ⟨2, by omega⟩ (tileOf (base i a8) 2000 (by omega)) (ValueIdx.ix2 r k)
        else base i a8 (ValueIdx.ix2 n k) := by
  unfold Body.kernelRun1
  dsimp only
  refine (AccRead.read_dguarded_tile_of_not_mem _ _ _ 9000 _ _ n k (by omega)).trans ?_
  refine (AccRead.read_dguarded_tile_of_not_mem _ _ _ 8000 _ _ n k (by omega)).trans ?_
  refine (AccRead.read_dguarded_tile_of_not_mem _ _ _ 7000 _ _ n k (by omega)).trans ?_
  refine (AccRead.read_dguarded_tile_of_not_mem _ _ _ 6000 _ _ n k (by omega)).trans ?_
  refine (AccRead.read_dguarded_tile_of_not_mem _ _ _ 5000 _ _ n k (by omega)).trans ?_
  refine (AccRead.read_dguarded_tile_of_not_mem _ _ _ 4000 _ _ n k (by omega)).trans ?_
  refine (AccRead.read_dguarded_tile_of_not_mem _ _ _ 3000 _ _ n k (by omega)).trans ?_
  refine (AccRead.read_dguarded_tile_of_mem _ _ _ 2000 _ _ n k r hn).trans ?_
  refine dite_ite_congr _ ?_ ?_
  · rw [ld2]; rfl
  · refine (AccRead.read_dguarded_tile_of_not_mem _ _ _ 1000 _ _ n k (by omega)).trans ?_
    refine (AccRead.read_dguarded_tile_of_not_mem _ _ _ 0 _ _ n k (by omega)).trans ?_
    exact read_reset _ _ _ _ _ a8 _

/-- Node 3000 + r, column k after the point. -/
theorem acc_tile3 (xi7 a8 : Vec F S10000x8 .f32) (r : Fin 1000) (k : Fin 8) (n : Fin 10000) (hn : n.val = 3000 + r.val) :
    (Body.m8_1).view.read (Elt F)
        (Body.kernelRun1 c i arg1 harg1 arg2 harg2 arg3 harg3 arg4 harg4 arg5 harg5 arg6 harg6 x1 x2 x3 x4 x5 x6 xi7 a8).2.1 (ValueIdx.ix2 n k)
      = if Body.kernelRun1.sl.v206 c i arg1 harg1 arg2 harg2 x1 x2 = 1#1 then
          upd c arg3 harg3 arg4 harg4 arg5 harg5 arg6 harg6 x3 x4 x5 x6 ⟨3, by omega⟩ (tileOf (base i a8) 3000 (by omega)) (ValueIdx.ix2 r k)
        else base i a8 (ValueIdx.ix2 n k) := by
  unfold Body.kernelRun1
  dsimp only
  refine (AccRead.read_dguarded_tile_of_not_mem _ _ _ 9000 _ _ n k (by omega)).trans ?_
  refine (AccRead.read_dguarded_tile_of_not_mem _ _ _ 8000 _ _ n k (by omega)).trans ?_
  refine (AccRead.read_dguarded_tile_of_not_mem _ _ _ 7000 _ _ n k (by omega)).trans ?_
  refine (AccRead.read_dguarded_tile_of_not_mem _ _ _ 6000 _ _ n k (by omega)).trans ?_
  refine (AccRead.read_dguarded_tile_of_not_mem _ _ _ 5000 _ _ n k (by omega)).trans ?_
  refine (AccRead.read_dguarded_tile_of_not_mem _ _ _ 4000 _ _ n k (by omega)).trans ?_
  refine (AccRead.read_dguarded_tile_of_mem _ _ _ 3000 _ _ n k r hn).trans ?_
  refine dite_ite_congr _ ?_ ?_
  · rw [ld3]; rfl
  · refine (AccRead.read_dguarded_tile_of_not_mem _ _ _ 2000 _ _ n k (by omega)).trans ?_
    refine (AccRead.read_dguarded_tile_of_not_mem _ _ _ 1000 _ _ n k (by omega)).trans ?_
    refine (AccRead.read_dguarded_tile_of_not_mem _ _ _ 0 _ _ n k (by omega)).trans ?_
    exact read_reset _ _ _ _ _ a8 _

/-- Node 4000 + r, column k after the point. -/
theorem acc_tile4 (xi7 a8 : Vec F S10000x8 .f32) (r : Fin 1000) (k : Fin 8) (n : Fin 10000) (hn : n.val = 4000 + r.val) :
    (Body.m8_1).view.read (Elt F)
        (Body.kernelRun1 c i arg1 harg1 arg2 harg2 arg3 harg3 arg4 harg4 arg5 harg5 arg6 harg6 x1 x2 x3 x4 x5 x6 xi7 a8).2.1 (ValueIdx.ix2 n k)
      = if Body.kernelRun1.sl.v211 c i arg1 harg1 arg2 harg2 x1 x2 = 1#1 then
          upd c arg3 harg3 arg4 harg4 arg5 harg5 arg6 harg6 x3 x4 x5 x6 ⟨4, by omega⟩ (tileOf (base i a8) 4000 (by omega)) (ValueIdx.ix2 r k)
        else base i a8 (ValueIdx.ix2 n k) := by
  unfold Body.kernelRun1
  dsimp only
  refine (AccRead.read_dguarded_tile_of_not_mem _ _ _ 9000 _ _ n k (by omega)).trans ?_
  refine (AccRead.read_dguarded_tile_of_not_mem _ _ _ 8000 _ _ n k (by omega)).trans ?_
  refine (AccRead.read_dguarded_tile_of_not_mem _ _ _ 7000 _ _ n k (by omega)).trans ?_
  refine (AccRead.read_dguarded_tile_of_not_mem _ _ _ 6000 _ _ n k (by omega)).trans ?_
  refine (AccRead.read_dguarded_tile_of_not_mem _ _ _ 5000 _ _ n k (by omega)).trans ?_
  refine (AccRead.read_dguarded_tile_of_mem _ _ _ 4000 _ _ n k r hn).trans ?_
  refine dite_ite_congr _ ?_ ?_
  · rw [ld4]; rfl
  · refine (AccRead.read_dguarded_tile_of_not_mem _ _ _ 3000 _ _ n k (by omega)).trans ?_
    refine (AccRead.read_dguarded_tile_of_not_mem _ _ _ 2000 _ _ n k (by omega)).trans ?_
    refine (AccRead.read_dguarded_tile_of_not_mem _ _ _ 1000 _ _ n k (by omega)).trans ?_
    refine (AccRead.read_dguarded_tile_of_not_mem _ _ _ 0 _ _ n k (by omega)).trans ?_
    exact read_reset _ _ _ _ _ a8 _

/-- Node 5000 + r, column k after the point. -/
theorem acc_tile5 (xi7 a8 : Vec F S10000x8 .f32) (r : Fin 1000) (k : Fin 8) (n : Fin 10000) (hn : n.val = 5000 + r.val) :
    (Body.m8_1).view.read (Elt F)
        (Body.kernelRun1 c i arg1 harg1 arg2 harg2 arg3 harg3 arg4 harg4 arg5 harg5 arg6 harg6 x1 x2 x3 x4 x5 x6 xi7 a8).2.1 (ValueIdx.ix2 n k)
      = if Body.kernelRun1.sl.v216 c i arg1 harg1 arg2 harg2 x1 x2 = 1#1 then
          upd c arg3 harg3 arg4 harg4 arg5 harg5 arg6 harg6 x3 x4 x5 x6 ⟨5, by omega⟩ (tileOf (base i a8) 5000 (by omega)) (ValueIdx.ix2 r k)
        else base i a8 (ValueIdx.ix2 n k) := by
  unfold Body.kernelRun1
  dsimp only
  refine (AccRead.read_dguarded_tile_of_not_mem _ _ _ 9000 _ _ n k (by omega)).trans ?_
  refine (AccRead.read_dguarded_tile_of_not_mem _ _ _ 8000 _ _ n k (by omega)).trans ?_
  refine (AccRead.read_dguarded_tile_of_not_mem _ _ _ 7000 _ _ n k (by omega)).trans ?_
  refine (AccRead.read_dguarded_tile_of_not_mem _ _ _ 6000 _ _ n k (by omega)).trans ?_
  refine (AccRead.read_dguarded_tile_of_mem _ _ _ 5000 _ _ n k r hn).trans ?_
  refine dite_ite_congr _ ?_ ?_
  · rw [ld5]; rfl
  · refine (AccRead.read_dguarded_tile_of_not_mem _ _ _ 4000 _ _ n k (by omega)).trans ?_
    refine (AccRead.read_dguarded_tile_of_not_mem _ _ _ 3000 _ _ n k (by omega)).trans ?_
    refine (AccRead.read_dguarded_tile_of_not_mem _ _ _ 2000 _ _ n k (by omega)).trans ?_
    refine (AccRead.read_dguarded_tile_of_not_mem _ _ _ 1000 _ _ n k (by omega)).trans ?_
    refine (AccRead.read_dguarded_tile_of_not_mem _ _ _ 0 _ _ n k (by omega)).trans ?_
    exact read_reset _ _ _ _ _ a8 _

/-- Node 6000 + r, column k after the point. -/
theorem acc_tile6 (xi7 a8 : Vec F S10000x8 .f32) (r : Fin 1000) (k : Fin 8) (n : Fin 10000) (hn : n.val = 6000 + r.val) :
    (Body.m8_1).view.read (Elt F)
        (Body.kernelRun1 c i arg1 harg1 arg2 harg2 arg3 harg3 arg4 harg4 arg5 harg5 arg6 harg6 x1 x2 x3 x4 x5 x6 xi7 a8).2.1 (ValueIdx.ix2 n k)
      = if Body.kernelRun1.sl.v221 c i arg1 harg1 arg2 harg2 x1 x2 = 1#1 then
          upd c arg3 harg3 arg4 harg4 arg5 harg5 arg6 harg6 x3 x4 x5 x6 ⟨6, by omega⟩ (tileOf (base i a8) 6000 (by omega)) (ValueIdx.ix2 r k)
        else base i a8 (ValueIdx.ix2 n k) := by
  unfold Body.kernelRun1
  dsimp only
  refine (AccRead.read_dguarded_tile_of_not_mem _ _ _ 9000 _ _ n k (by omega)).trans ?_
  refine (AccRead.read_dguarded_tile_of_not_mem _ _ _ 8000 _ _ n k (by omega)).trans ?_
  refine (AccRead.read_dguarded_tile_of_not_mem _ _ _ 7000 _ _ n k (by omega)).trans ?_
  refine (AccRead.read_dguarded_tile_of_mem _ _ _ 6000 _ _ n k r hn).trans ?_
  refine dite_ite_congr _ ?_ ?_
  · rw [ld6]; rfl
  · refine (AccRead.read_dguarded_tile_of_not_mem _ _ _ 5000 _ _ n k (by omega)).trans ?_
    refine (AccRead.read_dguarded_tile_of_not_mem _ _ _ 4000 _ _ n k (by omega)).trans ?_
    refine (AccRead.read_dguarded_tile_of_not_mem _ _ _ 3000 _ _ n k (by omega)).trans ?_
    refine (AccRead.read_dguarded_tile_of_not_mem _ _ _ 2000 _ _ n k (by omega)).trans ?_
    refine (AccRead.read_dguarded_tile_of_not_mem _ _ _ 1000 _ _ n k (by omega)).trans ?_
    refine (AccRead.read_dguarded_tile_of_not_mem _ _ _ 0 _ _ n k (by omega)).trans ?_
    exact read_reset _ _ _ _ _ a8 _

/-- Node 7000 + r, column k after the point. -/
theorem acc_tile7 (xi7 a8 : Vec F S10000x8 .f32) (r : Fin 1000) (k : Fin 8) (n : Fin 10000) (hn : n.val = 7000 + r.val) :
    (Body.m8_1).view.read (Elt F)
        (Body.kernelRun1 c i arg1 harg1 arg2 harg2 arg3 harg3 arg4 harg4 arg5 harg5 arg6 harg6 x1 x2 x3 x4 x5 x6 xi7 a8).2.1 (ValueIdx.ix2 n k)
      = if Body.kernelRun1.sl.v226 c i arg1 harg1 arg2 harg2 x1 x2 = 1#1 then
          upd c arg3 harg3 arg4 harg4 arg5 harg5 arg6 harg6 x3 x4 x5 x6 ⟨7, by omega⟩ (tileOf (base i a8) 7000 (by omega)) (ValueIdx.ix2 r k)
        else base i a8 (ValueIdx.ix2 n k) := by
  unfold Body.kernelRun1
  dsimp only
  refine (AccRead.read_dguarded_tile_of_not_mem _ _ _ 9000 _ _ n k (by omega)).trans ?_
  refine (AccRead.read_dguarded_tile_of_not_mem _ _ _ 8000 _ _ n k (by omega)).trans ?_
  refine (AccRead.read_dguarded_tile_of_mem _ _ _ 7000 _ _ n k r hn).trans ?_
  refine dite_ite_congr _ ?_ ?_
  · rw [ld7]; rfl
  · refine (AccRead.read_dguarded_tile_of_not_mem _ _ _ 6000 _ _ n k (by omega)).trans ?_
    refine (AccRead.read_dguarded_tile_of_not_mem _ _ _ 5000 _ _ n k (by omega)).trans ?_
    refine (AccRead.read_dguarded_tile_of_not_mem _ _ _ 4000 _ _ n k (by omega)).trans ?_
    refine (AccRead.read_dguarded_tile_of_not_mem _ _ _ 3000 _ _ n k (by omega)).trans ?_
    refine (AccRead.read_dguarded_tile_of_not_mem _ _ _ 2000 _ _ n k (by omega)).trans ?_
    refine (AccRead.read_dguarded_tile_of_not_mem _ _ _ 1000 _ _ n k (by omega)).trans ?_
    refine (AccRead.read_dguarded_tile_of_not_mem _ _ _ 0 _ _ n k (by omega)).trans ?_
    exact read_reset _ _ _ _ _ a8 _

/-- Node 8000 + r, column k after the point. -/
theorem acc_tile8 (xi7 a8 : Vec F S10000x8 .f32) (r : Fin 1000) (k : Fin 8) (n : Fin 10000) (hn : n.val = 8000 + r.val) :
    (Body.m8_1).view.read (Elt F)
        (Body.kernelRun1 c i arg1 harg1 arg2 harg2 arg3 harg3 arg4 harg4 arg5 harg5 arg6 harg6 x1 x2 x3 x4 x5 x6 xi7 a8).2.1 (ValueIdx.ix2 n k)
      = if Body.kernelRun1.sl.v231 c i arg1 harg1 arg2 harg2 x1 x2 = 1#1 then
          upd c arg3 harg3 arg4 harg4 arg5 harg5 arg6 harg6 x3 x4 x5 x6 ⟨8, by omega⟩ (tileOf (base i a8) 8000 (by omega)) (ValueIdx.ix2 r k)
        else base i a8 (ValueIdx.ix2 n k) := by
  unfold Body.kernelRun1
  dsimp only
  refine (AccRead.read_dguarded_tile_of_not_mem _ _ _ 9000 _ _ n k (by omega)).trans ?_
  refine (AccRead.read_dguarded_tile_of_mem _ _ _ 8000 _ _ n k r hn).trans ?_
  refine dite_ite_congr _ ?_ ?_
  · rw [ld8]; rfl
  · refine (AccRead.read_dguarded_tile_of_not_mem _ _ _ 7000 _ _ n k (by omega)).trans ?_
    refine (AccRead.read_dguarded_tile_of_not_mem _ _ _ 6000 _ _ n k (by omega)).trans ?_
    refine (AccRead.read_dguarded_tile_of_not_mem _ _ _ 5000 _ _ n k (by omega)).trans ?_
    refine (AccRead.read_dguarded_tile_of_not_mem _ _ _ 4000 _ _ n k (by omega)).trans ?_
    refine (AccRead.read_dguarded_tile_of_not_mem _ _ _ 3000 _ _ n k (by omega)).trans ?_
    refine (AccRead.read_dguarded_tile_of_not_mem _ _ _ 2000 _ _ n k (by omega)).trans ?_
    refine (AccRead.read_dguarded_tile_of_not_mem _ _ _ 1000 _ _ n k (by omega)).trans ?_
    refine (AccRead.read_dguarded_tile_of_not_mem _ _ _ 0 _ _ n k (by omega)).trans ?_
    exact read_reset _ _ _ _ _ a8 _

/-- Node 9000 + r, column k after the point. -/
theorem acc_tile9 (xi7 a8 : Vec F S10000x8 .f32) (r : Fin 1000) (k : Fin 8) (n : Fin 10000) (hn : n.val = 9000 + r.val) :
    (Body.m8_1).view.read (Elt F)
        (Body.kernelRun1 c i arg1 harg1 arg2 harg2 arg3 harg3 arg4 harg4 arg5 harg5 arg6 harg6 x1 x2 x3 x4 x5 x6 xi7 a8).2.1 (ValueIdx.ix2 n k)
      = if Body.kernelRun1.sl.v236 c i arg1 harg1 arg2 harg2 x1 x2 = 1#1 then
          upd c arg3 harg3 arg4 harg4 arg5 harg5 arg6 harg6 x3 x4 x5 x6 ⟨9, by omega⟩ (tileOf (base i a8) 9000 (by omega)) (ValueIdx.ix2 r k)
        else base i a8 (ValueIdx.ix2 n k) := by
  unfold Body.kernelRun1
  dsimp only
  refine (AccRead.read_dguarded_tile_of_mem _ _ _ 9000 _ _ n k r hn).trans ?_
  refine dite_ite_congr _ ?_ ?_
  · rw [ld9]; rfl
  · refine (AccRead.read_dguarded_tile_of_not_mem _ _ _ 8000 _ _ n k (by omega)).trans ?_
    refine (AccRead.read_dguarded_tile_of_not_mem _ _ _ 7000 _ _ n k (by omega)).trans ?_
    refine (AccRead.read_dguarded_tile_of_not_mem _ _ _ 6000 _ _ n k (by omega)).trans ?_
    refine (AccRead.read_dguarded_tile_of_not_mem _ _ _ 5000 _ _ n k (by omega)).trans ?_
    refine (AccRead.read_dguarded_tile_of_not_mem _ _ _ 4000 _ _ n k (by omega)).trans ?_
    refine (AccRead.read_dguarded_tile_of_not_mem _ _ _ 3000 _ _ n k (by omega)).trans ?_
    refine (AccRead.read_dguarded_tile_of_not_mem _ _ _ 2000 _ _ n k (by omega)).trans ?_
    refine (AccRead.read_dguarded_tile_of_not_mem _ _ _ 1000 _ _ n k (by omega)).trans ?_
    refine (AccRead.read_dguarded_tile_of_not_mem _ _ _ 0 _ _ n k (by omega)).trans ?_
    exact read_reset _ _ _ _ _ a8 _

/-- Every node at once: node 1000 t + r reads tile t's update of the base's tile under tile t's guard, else the base. -/
theorem acc_tile (t : Fin 10) (xi7 a8 : Vec F S10000x8 .f32) (r : Fin 1000) (k : Fin 8) (n : Fin 10000)
    (hn : n.val = 1000 * t.val + r.val) :
    (Body.m8_1).view.read (Elt F)
        (Body.kernelRun1 c i arg1 harg1 arg2 harg2 arg3 harg3 arg4 harg4 arg5 harg5 arg6 harg6 x1 x2 x3 x4 x5 x6 xi7 a8).2.1 (ValueIdx.ix2 n k)
      = if guardW c i arg1 harg1 arg2 harg2 x1 x2 t = 1#1 then
          upd c arg3 harg3 arg4 harg4 arg5 harg5 arg6 harg6 x3 x4 x5 x6 t (tileOf (base i a8) (1000 * t.val) (by have := t.isLt; omega)) (ValueIdx.ix2 r k)
        else base i a8 (ValueIdx.ix2 n k) := by
  match t with
  | ⟨0, _⟩ => exact acc_tile0 c i arg1 harg1 arg2 harg2 arg3 harg3 arg4 harg4 arg5 harg5 arg6 harg6 x1 x2 x3 x4 x5 x6 xi7 a8 r k n hn
  | ⟨1, _⟩ => exact acc_tile1 c i arg1 harg1 arg2 harg2 arg3 harg3 arg4 harg4 arg5 harg5 arg6 harg6 x1 x2 x3 x4 x5 x6 xi7 a8 r k n hn
  | ⟨2, _⟩ => exact acc_tile2 c i arg1 harg1 arg2 harg2 arg3 harg3 arg4 harg4 arg5 harg5 arg6 harg6 x1 x2 x3 x4 x5 x6 xi7 a8 r k n hn
  | ⟨3, _⟩ => exact acc_tile3 c i arg1 harg1 arg2 harg2 arg3 harg3 arg4 harg4 arg5 harg5 arg6 harg6 x1 x2 x3 x4 x5 x6 xi7 a8 r k n hn
  | ⟨4, _⟩ => exact acc_tile4 c i arg1 harg1 arg2 harg2 arg3 harg3 arg4 harg4 arg5 harg5 arg6 harg6 x1 x2 x3 x4 x5 x6 xi7 a8 r k n hn
  | ⟨5, _⟩ => exact acc_tile5 c i arg1 harg1 arg2 harg2 arg3 harg3 arg4 harg4 arg5 harg5 arg6 harg6 x1 x2 x3 x4 x5 x6 xi7 a8 r k n hn
  | ⟨6, _⟩ => exact acc_tile6 c i arg1 harg1 arg2 harg2 arg3 harg3 arg4 harg4 arg5 harg5 arg6 harg6 x1 x2 x3 x4 x5 x6 xi7 a8 r k n hn
  | ⟨7, _⟩ => exact acc_tile7 c i arg1 harg1 arg2 harg2 arg3 harg3 arg4 harg4 arg5 harg5 arg6 harg6 x1 x2 x3 x4 x5 x6 xi7 a8 r k n hn
  | ⟨8, _⟩ => exact acc_tile8 c i arg1 harg1 arg2 harg2 arg3 harg3 arg4 harg4 arg5 harg5 arg6 harg6 x1 x2 x3 x4 x5 x6 xi7 a8 r k n hn
  | ⟨9, _⟩ => exact acc_tile9 c i arg1 harg1 arg2 harg2 arg3 harg3 arg4 harg4 arg5 harg5 arg6 harg6 x1 x2 x3 x4 x5 x6 xi7 a8 r k n hn

/-- What the point found enters only through the base: at a point whose base is the same for two accumulators the
    whole result is the same. -/
theorem acc_congr_base (xi7 xi7' a a' : Vec F S10000x8 .f32) (h : base i a = base i a') :
    (Body.m8_1).view.read (Elt F) (Body.kernelRun1 c i arg1 harg1 arg2 harg2 arg3 harg3 arg4 harg4 arg5 harg5 arg6 harg6 x1 x2 x3 x4 x5 x6 xi7 a).2.1
      = (Body.m8_1).view.read (Elt F) (Body.kernelRun1 c i arg1 harg1 arg2 harg2 arg3 harg3 arg4 harg4 arg5 harg5 arg6 harg6 x1 x2 x3 x4 x5 x6 xi7' a').2.1 := by
  funext y
  obtain ⟨n, k, rfl⟩ : ∃ (n : Fin 10000) (k : Fin 8), y = ValueIdx.ix2 n k := ⟨y 0, y 1, ValueIdx.eq_ix2 y⟩
  have hn : n.val = 1000 * (⟨n.val / 1000, by have := n.isLt; omega⟩ : Fin 10).val + (⟨n.val % 1000, Nat.mod_lt _ (by omega)⟩ : Fin 1000).val :=
    (Nat.div_add_mod n.val 1000).symm
  rw [acc_tile c i arg1 harg1 arg2 harg2 arg3 harg3 arg4 harg4 arg5 harg5 arg6 harg6 x1 x2 x3 x4 x5 x6 _ xi7 a _ k n hn, acc_tile c i arg1 harg1 arg2 harg2 arg3 harg3 arg4 harg4 arg5 harg5 arg6 harg6 x1 x2 x3 x4 x5 x6 _ xi7' a' _ k n hn, h]

end Tiles

/-! ## The first grid point -/

/-- The reset's guard, as the run names it, is the grid coordinate being zero. -/
theorem first_eq (i : grid1.Coords) : Body.kernelRun1.sl.v2 i = 1#1 ↔ (i 0).val = 0 := by
  sl_unfold_run_names
  exact AccRead.first_iff (i 0).val (i 0).isLt

/-! ## The accumulator the point leaves -/

section Final
variable (c : Dev nD) (i : grid1.Coords)
  (arg1 : Memref sig .tc .smem S489 .i32) (harg1 : arg1.IsWhole) (arg2 : Memref sig .tc .smem S489 .i32) (harg2 : arg2.IsWhole)
  (arg3 : Memref sig .tc .vmem S10000x8 .f32) (harg3 : arg3.IsWhole) (arg4 : Memref sig .tc .vmem S4096 .i32) (harg4 : arg4.IsWhole)
  (arg5 : Memref sig .tc .vmem S4096 .i32) (harg5 : arg5.IsWhole) (arg6 : Memref sig .tc .vmem S4096 .f32) (harg6 : arg6.IsWhole)
  (x1 x2 : Vec F S489 .i32) (x3 : Vec F S10000x8 .f32) (x4 x5 : Vec F S4096 .i32) (x6 : Vec F S4096 .f32)

/-- Node 1000 t + r, column k of the accumulator the point leaves: tile t's update of the base's tile under tile t's
    guard, else the base. -/
theorem acc8_1_tile (a8 : Vec F S10000x8 .f32) (t : Fin 10) (r : Fin 1000) (k : Fin 8) (n : Fin 10000)
    (hn : n.val = 1000 * t.val + r.val) :
    Body.acc8_1 c i arg1 harg1 arg2 harg2 arg3 harg3 arg4 harg4 arg5 harg5 arg6 harg6 x1 x2 x3 x4 x5 x6 a8 (ValueIdx.ix2 n k)
      = if guardW c i arg1 harg1 arg2 harg2 x1 x2 t = 1#1 then
          upd c arg3 harg3 arg4 harg4 arg5 harg5 arg6 harg6 x3 x4 x5 x6 t (tileOf (base i a8) (1000 * t.val) (by have := t.isLt; omega)) (ValueIdx.ix2 r k)
        else base i a8 (ValueIdx.ix2 n k) := by
  show (Body.m8_1).view.read (Elt F) (Body.kernelRun1 c i arg1 harg1 arg2 harg2 arg3 harg3 arg4 harg4 arg5 harg5 arg6 harg6 x1 x2 x3 x4 x5 x6 a8 a8).2.1 (ValueIdx.ix2 n k) = _
  exact acc_tile c i arg1 harg1 arg2 harg2 arg3 harg3 arg4 harg4 arg5 harg5 arg6 harg6 x1 x2 x3 x4 x5 x6 t a8 a8 r k n hn

/-- At the first point the accumulator is reset before it is read: what it held does not matter. -/
theorem acc8_1_first (a a' : Vec F S10000x8 .f32) (h : (i 0).val = 0) :
    Body.acc8_1 c i arg1 harg1 arg2 harg2 arg3 harg3 arg4 harg4 arg5 harg5 arg6 harg6 x1 x2 x3 x4 x5 x6 a = Body.acc8_1 c i arg1 harg1 arg2 harg2 arg3 harg3 arg4 harg4 arg5 harg5 arg6 harg6 x1 x2 x3 x4 x5 x6 a' := by
  show (Body.m8_1).view.read (Elt F) (Body.kernelRun1 c i arg1 harg1 arg2 harg2 arg3 harg3 arg4 harg4 arg5 harg5 arg6 harg6 x1 x2 x3 x4 x5 x6 a a).2.1
    = (Body.m8_1).view.read (Elt F) (Body.kernelRun1 c i arg1 harg1 arg2 harg2 arg3 harg3 arg4 harg4 arg5 harg5 arg6 harg6 x1 x2 x3 x4 x5 x6 a' a').2.1
  exact acc_congr_base c i arg1 harg1 arg2 harg2 arg3 harg3 arg4 harg4 arg5 harg5 arg6 harg6 x1 x2 x3 x4 x5 x6 a a' a a' (base_first i a a' ((first_eq i).mpr h))

end Final

end Cert.Kernel.AccEval1

end
-- ==== Proof.BDat1.lean ====
/-
  The second message pass (custom_call 1) as a pipeline on one core: its proof data at the contents `V` the region
  finds in the core's unscoped buffers, and the body obligation.

  The two prefetched tables are read off `V` and held whole through every point. The node states (window 0) are one
  block fetched once; the gather indices, scatter indices and weights (windows 1 to 3) move to a new block of 4096
  entries at every point; each input's buffer holds its block at every point, fetched there or not. The accumulator
  is a scoped buffer carried between points: before point `t + 1` it holds `accAt1 (t + 1)`, the body's update at
  point `t` of `accAt1 t`; before point 0 it holds anything, and the body resets it there before reading it. The
  output block (window 4) is written by the body at the last point only, where it receives the updated accumulator,
  and is written back only there: before, the body hands its buffer back as it found it. So the output array ends
  holding `accAt1 489`, and the input arrays are never written.
-/
import proofs.«400082_j83537113907851_4_alg».proof.Proof.BRun1
import proofs.«400082_j83537113907851_4_alg».proof.Proof.BAccEval1
import proofs.«400082_j83537113907851_4_alg».proof.Proof.Gen.Kernel.Launch
import Idealize.ShloMosaic.Lib.Pipeline.Frame
import Idealize.ShloMosaic.Lib.Pipeline.FrameBody
import Idealize.ShloMosaic.Lib.Pipeline.Kit
import Idealize.ShloMosaic.Lib.Pipeline.Value

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- core `c`'s unscoped buffers as the region finds them
variable (V : (c : Dev nD) → (b : Ref sig .tc) → Buf (Elt F) ((c : Thread nD τ).loc b))

/-! ## The tables, the grid's points, the windows' blocks -/

/-- The admissible table contents the region runs at: the two tables as core 0 (the only core) holds them at entry.
    The side condition on them is empty. -/
abbrev adm1 : (pcfg1 (F := F)).Adm :=
  ⟨fun | 0 => V 0 main_v75 | 1 => V 0 main_v78 | ⟨_ + 2, h⟩ => absurd h (Nat.not_lt.2 (Nat.le_add_left _ _)), trivial⟩

/-- The two tables at their literal type. -/
abbrev tabA1 : Vec F S489 .i32 := (adm1 V).1 0
abbrev tabB1 : Vec F S489 .i32 := (adm1 V).1 1

/-- The grid has 489 points at any table contents. -/
theorem N1_eq (a : (pcfg1 (F := F)).Adm) : (cfg1 a).N = 489 := N_1

/-- Point number `t` of the grid. -/
abbrev pt1 (t : Nat) (h : t < 489) : Fin (cfg1 (adm1 V)).N := ⟨t, Nat.lt_of_lt_of_eq h (N1_eq (adm1 V)).symm⟩

/-- Window `w`'s block at point `t`, read off its array as the region finds it (`V`). -/
def iblk1 (c : Dev nD) (w : Fin (cfg1 (adm1 V)).W) (t : Fin (cfg1 (adm1 V)).N) :
    (((cfg1 (adm1 V)).win w).xblock ((cfg1 (adm1 V)).grid.coords t)).Idx → Elt F ((cfg1 (adm1 V)).win w).elt :=
  (((cfg1 (adm1 V)).win w).blk t).view.read (Elt F) (V c (Pipeline.arrRef spec1 w))

/-- The four input blocks at their literal types: the node states, and the chunk's gather indices, scatter indices and weights. -/
abbrev xs1 (c : Dev nD) (t : Fin (cfg1 (adm1 V)).N) : Vec F S10000x8 .f32 := iblk1 V c 0 t
abbrev gi1 (c : Dev nD) (t : Fin (cfg1 (adm1 V)).N) : Vec F S4096 .i32 := iblk1 V c 1 t
abbrev si1 (c : Dev nD) (t : Fin (cfg1 (adm1 V)).N) : Vec F S4096 .i32 := iblk1 V c 2 t
abbrev ws1 (c : Dev nD) (t : Fin (cfg1 (adm1 V)).N) : Vec F S4096 .f32 := iblk1 V c 3 t

/-! ## The body's two results, on the memrefs the pipeline calls it with -/

/-- The accumulator after the body at grid coordinates `i`, called with the two tables' whole memrefs and the inputs'
    staging buffers `s0 … s3`, from the values it reads and the accumulator `a8` it found. -/
def accOn1 (c : Dev nD) (i : grid1.Coords) (s0 : Fin 1) (s1 s2 s3 : Fin 2) (x1 x2 : Vec F S489 .i32) (x3 : Vec F S10000x8 .f32)
    (x4 x5 : Vec F S4096 .i32) (x6 : Vec F S4096 .f32) (a8 : Vec F S10000x8 .f32) : Vec F S10000x8 .f32 :=
  Body.acc8_1 c i (Memref.whole main_v75) (Memref.isWhole_whole _) (Memref.whole main_v78) (Memref.isWhole_whole _)
    (stage1_0 s0) (hstage1_0 s0) (stage1_1 s1) (hstage1_1 s1) (stage1_2 s2) (hstage1_2 s2) (stage1_3 s3) (hstage1_3 s3)
    x1 x2 x3 x4 x5 x6 a8

/-- The output block's buffer after the same call, having held `xi7`. -/
def outOn1 (c : Dev nD) (i : grid1.Coords) (s0 : Fin 1) (s1 s2 s3 : Fin 2) (x1 x2 : Vec F S489 .i32) (x3 : Vec F S10000x8 .f32)
    (x4 x5 : Vec F S4096 .i32) (x6 : Vec F S4096 .f32) (xi7 a8 : Vec F S10000x8 .f32) : Vec F S10000x8 .f32 :=
  Body.out7_1 c i (Memref.whole main_v75) (Memref.isWhole_whole _) (Memref.whole main_v78) (Memref.isWhole_whole _)
    (stage1_0 s0) (hstage1_0 s0) (stage1_1 s1) (hstage1_1 s1) (stage1_2 s2) (hstage1_2 s2) (stage1_3 s3) (hstage1_3 s3)
    x1 x2 x3 x4 x5 x6 xi7 a8

/-- Before the last point the body leaves the output block's buffer as it found it; at the last point it copies the
    updated accumulator into it; at the first point the accumulator is reset before it is read. -/
theorem outOn1_idle {c : Dev nD} {i : grid1.Coords} {s0 : Fin 1} {s1 s2 s3 : Fin 2} {x1 x2 : Vec F S489 .i32} {x3 : Vec F S10000x8 .f32}
    {x4 x5 : Vec F S4096 .i32} {x6 : Vec F S4096 .f32} {xi7 a8 : Vec F S10000x8 .f32} (h : ¬ k1_cond12 i = 1#1) :
    outOn1 c i s0 s1 s2 s3 x1 x2 x3 x4 x5 x6 xi7 a8 = xi7 :=
  Body.out7_1_idle _ _ _ _ _ _ _ _ _ _ _ _ _ _ _ _ _ _ _ _ _ _ h
theorem outOn1_last {c : Dev nD} {i : grid1.Coords} {s0 : Fin 1} {s1 s2 s3 : Fin 2} {x1 x2 : Vec F S489 .i32} {x3 : Vec F S10000x8 .f32}
    {x4 x5 : Vec F S4096 .i32} {x6 : Vec F S4096 .f32} {xi7 a8 : Vec F S10000x8 .f32} (h : k1_cond12 i = 1#1) :
    outOn1 c i s0 s1 s2 s3 x1 x2 x3 x4 x5 x6 xi7 a8 = accOn1 c i s0 s1 s2 s3 x1 x2 x3 x4 x5 x6 a8 :=
  Body.out7_1_last _ _ _ _ _ _ _ _ _ _ _ _ _ _ _ _ _ _ _ _ _ _ h
theorem accOn1_first {c : Dev nD} {i : grid1.Coords} {s0 : Fin 1} {s1 s2 s3 : Fin 2} {x1 x2 : Vec F S489 .i32} {x3 : Vec F S10000x8 .f32}
    {x4 x5 : Vec F S4096 .i32} {x6 : Vec F S4096 .f32} (a a' : Vec F S10000x8 .f32) (h : (i 0).val = 0) :
    accOn1 c i s0 s1 s2 s3 x1 x2 x3 x4 x5 x6 a = accOn1 c i s0 s1 s2 s3 x1 x2 x3 x4 x5 x6 a' :=
  AccEval1.acc8_1_first _ _ _ _ _ _ _ _ _ _ _ _ _ _ _ _ _ _ _ _ _ _ h

/-! ## The accumulator between points -/

/-- Contents that nothing reads: some contents of a 10000 x 8 buffer. -/
def any1 : Vec F S10000x8 .f32 := fun _ => @Classical.arbitrary (Elt F .f32) (Elt.nonempty F .f32)

/-- The accumulator BEFORE point `t`: anything before point 0 (the body resets it there before reading it); before
    point `t + 1` the body's update at point `t` of what it held before point `t`; unchanged past the grid. -/
def accAt1 (c : Dev nD) : Nat → Vec F S10000x8 .f32
  | 0 => any1
  | t + 1 =>
    if h : t < 489 then
      accOn1 c (grid1.coords (pt1 V t h)) ((cfg1 (adm1 V)).slots (pt1 V t h) 0) ((cfg1 (adm1 V)).slots (pt1 V t h) 1) ((cfg1 (adm1 V)).slots (pt1 V t h) 2) ((cfg1 (adm1 V)).slots (pt1 V t h) 3)
        (tabA1 V) (tabB1 V) (xs1 V c (pt1 V t h)) (gi1 V c (pt1 V t h)) (si1 V c (pt1 V t h)) (ws1 V c (pt1 V t h)) (accAt1 c t)
    else accAt1 c t

/-! ## The invariant between points and the proof data -/

/-- Between points: the two tables held whole at the contents the pipeline runs at; the accumulator at anything before
    point 0 and at `accAt1 t` before a later point `t`; the one-hot scratch at anything; the core's other scoped
    buffers that are no staging buffer of this call, each at some contents; the generator register at some state. -/
def Phi1 (c : Dev nD) (t : Fin ((cfg1 (adm1 V)).N + 1)) : sProp 𝕄 :=
  iprop(Pipeline.prefHeld pre1 c (fun _ => fullShare) (adm1 V).1
    ∗ (if t.val = 0 then iprop(∃ d, owns (c : Thread nD τ) Body.m8_1 fullShare d)
        else owns (c : Thread nD τ) Body.m8_1 fullShare (accAt1 V c t.val))
    ∗ (∃ d, owns (c : Thread nD τ) Body.m9_1 fullShare d)
    ∗ Pipeline.scopedRestBut (Ix := Unit) (Name := ℕ) (U := UR sig nD τ) (Lvl := ℕ) (Val := Elt F) spec1 c [cc1_scratch0, cc1_scratch1]
    ∗ ∃ r, prngReg c r)

/-- The proof data of pipeline 1 on core `c`: the arrays as the region finds them (`V`); after the body at point `t`
    each input's buffer at its block, and the output's buffer at what the body leaves there having found anything
    (consulted at the last point only, where it is the updated accumulator whatever the buffer held); the invariant
    `Phi1`; nothing owed; full shares. -/
def dat1 (c : Dev nD) : Dat τ (Elt F) Unit ℕ (UR sig nD τ) ℕ (cfg1 (adm1 V)) c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outOn1 c (grid1.coords t) ((cfg1 (adm1 V)).slots t 0) ((cfg1 (adm1 V)).slots t 1) ((cfg1 (adm1 V)).slots t 2) ((cfg1 (adm1 V)).slots t 3)
        (tabA1 V) (tabB1 V) (xs1 V c t) (gi1 V c t) (si1 V c t) (ws1 V c t) any1 (accAt1 V c t.val)
  Φ t := Phi1 V c t
  q _ := fullShare
  owed _ := 0

/-- The proof data's arrays are the region-entry contents. -/
theorem A_eq1 (c : Dev nD) (w : Fin (cfg1 (adm1 V)).W) : (dat1 V c).A w = V c (Pipeline.arrRef spec1 w) := by
  dsimp only [dat1]

/-- Nothing is owed between points, every array is held at the full share, and the invariant is `Phi1`. -/
theorem owed1 (c : Dev nD) (t : Fin ((cfg1 (adm1 V)).N + 1)) : (dat1 V c).owed t = 0 := rfl
theorem share1 (c : Dev nD) (w : Fin (cfg1 (adm1 V)).W) : (dat1 V c).q w = fullShare := rfl
theorem Phi_eq1 (c : Dev nD) (t : Fin ((cfg1 (adm1 V)).N + 1)) : (dat1 V c).Φ t = Phi1 V c t := rfl

/-- What the body leaves, window by window. -/
theorem after_xs1 (c : Dev nD) (t : Fin (cfg1 (adm1 V)).N) : (dat1 V c).after 0 t = iblk1 V c 0 t := rfl
theorem after_gi1 (c : Dev nD) (t : Fin (cfg1 (adm1 V)).N) : (dat1 V c).after 1 t = iblk1 V c 1 t := rfl
theorem after_si1 (c : Dev nD) (t : Fin (cfg1 (adm1 V)).N) : (dat1 V c).after 2 t = iblk1 V c 2 t := rfl
theorem after_ws1 (c : Dev nD) (t : Fin (cfg1 (adm1 V)).N) : (dat1 V c).after 3 t = iblk1 V c 3 t := rfl
theorem after_out1 (c : Dev nD) (t : Fin (cfg1 (adm1 V)).N) :
    (dat1 V c).after 4 t = outOn1 c (grid1.coords t) ((cfg1 (adm1 V)).slots t 0) ((cfg1 (adm1 V)).slots t 1) ((cfg1 (adm1 V)).slots t 2) ((cfg1 (adm1 V)).slots t 3)
      (tabA1 V) (tabB1 V) (xs1 V c t) (gi1 V c t) (si1 V c t) (ws1 V c t) any1 (accAt1 V c t.val) := rfl

/-! ## What the body finds in the inputs' buffers -/

/-- Each input's current staging buffer holds its block at every point, fetched there or not: unfetched, the block
    index has not moved since the fetch, and the body leaves the block in place. No input block is cut and no input
    is idle anywhere. -/
theorem before_xs1 (c : Dev nD) (t : Fin (cfg1 (adm1 V)).N) (d) : (dat1 V c).before 0 t d = iblk1 V c 0 t :=
  ((dat1 V c).before_in_eq_fetched 0 rfl (fun _ => rfl) (fun _ _ _ => rfl)
    (fun t => by rw [after_xs1]; unfold Dat.blockOf iblk1; rw [A_eq1]; try rfl) t d).trans
    (by unfold Dat.fetched Dat.blockOf iblk1; rw [A_eq1]; try rfl)
theorem before_gi1 (c : Dev nD) (t : Fin (cfg1 (adm1 V)).N) (d) : (dat1 V c).before 1 t d = iblk1 V c 1 t :=
  ((dat1 V c).before_in_eq_fetched 1 rfl (fun _ => rfl) (fun _ _ _ => rfl)
    (fun t => by rw [after_gi1]; unfold Dat.blockOf iblk1; rw [A_eq1]; try rfl) t d).trans
    (by unfold Dat.fetched Dat.blockOf iblk1; rw [A_eq1]; try rfl)
theorem before_si1 (c : Dev nD) (t : Fin (cfg1 (adm1 V)).N) (d) : (dat1 V c).before 2 t d = iblk1 V c 2 t :=
  ((dat1 V c).before_in_eq_fetched 2 rfl (fun _ => rfl) (fun _ _ _ => rfl)
    (fun t => by rw [after_si1]; unfold Dat.blockOf iblk1; rw [A_eq1]; try rfl) t d).trans
    (by unfold Dat.fetched Dat.blockOf iblk1; rw [A_eq1]; try rfl)
theorem before_ws1 (c : Dev nD) (t : Fin (cfg1 (adm1 V)).N) (d) : (dat1 V c).before 3 t d = iblk1 V c 3 t :=
  ((dat1 V c).before_in_eq_fetched 3 rfl (fun _ => rfl) (fun _ _ _ => rfl)
    (fun t => by rw [after_ws1]; unfold Dat.blockOf iblk1; rw [A_eq1]; try rfl) t d).trans
    (by unfold Dat.fetched Dat.blockOf iblk1; rw [A_eq1]; try rfl)

/-! ## The schedule of the output window, at any table contents -/

/-- The grid's one coordinate of point `t` is `t`. -/
theorem coords_val1 (t : Fin grid1.N) : (grid1.coords t 0).val = t.val := by
  have hs : grid1.stride 0 = 1 := by decide
  have ht : t.val < 489 := Nat.lt_of_lt_of_eq t.isLt N_1
  show t.val / grid1.stride 0 % 489 = t.val
  rw [hs, Nat.div_one, Nat.mod_eq_of_lt ht]

/-- At the last point the body's store of the output block is taken. -/
theorem cond_last1 (i : grid1.Coords) (h : (i 0).val = 488) : k1_cond12 i = 1#1 := by
  show Scalar.cmpi .ne (Scalar.extui (Scalar.cmpi .eq (BitVec.ofNat 32 (i 0).val) 488#32)) 0#32 = 1#1
  rw [h]; first | rfl | decide

/-- The output block's index is constant. -/
theorem index_out1 (a : (pcfg1 (F := F)).Adm) (u : Fin (cfg1 a).N) : ((cfg1 a).win 4).index u = ![0, 0] := rfl

/-- The output block's index never moves, so it is written back at the last point and nowhere else. -/
theorem flush_out1 (a : (pcfg1 (F := F)).Adm) (t : Fin (cfg1 a).N) : ((cfg1 a).win 4).flush t = true ↔ t.val + 1 = 489 := by
  unfold Window.flush
  simp only [Bool.and_eq_true, Bool.or_eq_true, decide_eq_true_eq]
  constructor
  · rintro ⟨-, h | ⟨h, hne⟩⟩
    · exact h.trans (N1_eq a)
    · exact absurd ((index_out1 a _).trans (index_out1 a _).symm) hne
  · intro h; exact ⟨rfl, Or.inl (h.trans (N1_eq a).symm)⟩

/-- Where the body does not store the output block, the block is not written back. -/
theorem flush_idle1 (a : (pcfg1 (F := F)).Adm) (t : Fin (cfg1 a).N) (hc : ¬ k1_cond12 (grid1.coords t) = 1#1) :
    ((cfg1 a).win 4).flush t = false := by
  rw [Bool.eq_false_iff]
  intro h
  have h1 := (flush_out1 a t).mp h
  exact hc (cond_last1 _ (by rw [coords_val1]; omega))

/-- The output window is idle exactly where the body does not store the output block. -/
theorem idle_out1 (a : (pcfg1 (F := F)).Adm) (t : Fin (cfg1 a).N) :
    (cfg1 a).idle 4 ((cfg1 a).grid.coords t) = !(k1_cond12 (grid1.coords t) == 1#1) := rfl

/-! ## The accumulator's step and the output block at the last point -/

/-- The body's update at point `t` of what the accumulator held — `accAt1 t`, or at point 0 anything — is `accAt1 (t + 1)`. -/
theorem acc_step1 (c : Dev nD) (t : Fin (cfg1 (adm1 V)).N) (a8 : Vec F S10000x8 .f32) (h : t.val = 0 ∨ a8 = accAt1 V c t.val) :
    accOn1 c (grid1.coords t) ((cfg1 (adm1 V)).slots t 0) ((cfg1 (adm1 V)).slots t 1) ((cfg1 (adm1 V)).slots t 2) ((cfg1 (adm1 V)).slots t 3)
      (tabA1 V) (tabB1 V) (xs1 V c t) (gi1 V c t) (si1 V c t) (ws1 V c t) a8 = accAt1 V c (t.val + 1) := by
  have ht : t.val < 489 := Nat.lt_of_lt_of_eq t.isLt (N1_eq (adm1 V))
  rw [accAt1, dif_pos ht]
  show _ = accOn1 c (grid1.coords t) ((cfg1 (adm1 V)).slots t 0) ((cfg1 (adm1 V)).slots t 1) ((cfg1 (adm1 V)).slots t 2) ((cfg1 (adm1 V)).slots t 3)
      (tabA1 V) (tabB1 V) (xs1 V c t) (gi1 V c t) (si1 V c t) (ws1 V c t) (accAt1 V c t.val)
  rcases h with h | h
  · exact accOn1_first _ _ (by rw [coords_val1]; exact h)
  · rw [h]
/-- The output block's buffer after the body at point `t`: as found before the last point, the updated accumulator at the last. -/
theorem out_idle1 (c : Dev nD) (t : Fin (cfg1 (adm1 V)).N) (hc : ¬ k1_cond12 (grid1.coords t) = 1#1) (xi7 a8 : Vec F S10000x8 .f32) :
    outOn1 c (grid1.coords t) ((cfg1 (adm1 V)).slots t 0) ((cfg1 (adm1 V)).slots t 1) ((cfg1 (adm1 V)).slots t 2) ((cfg1 (adm1 V)).slots t 3)
      (tabA1 V) (tabB1 V) (xs1 V c t) (gi1 V c t) (si1 V c t) (ws1 V c t) xi7 a8 = xi7 :=
  outOn1_idle hc
theorem out_last1 (c : Dev nD) (t : Fin (cfg1 (adm1 V)).N) (hc : k1_cond12 (grid1.coords t) = 1#1) (xi7 a8 : Vec F S10000x8 .f32) :
    outOn1 c (grid1.coords t) ((cfg1 (adm1 V)).slots t 0) ((cfg1 (adm1 V)).slots t 1) ((cfg1 (adm1 V)).slots t 2) ((cfg1 (adm1 V)).slots t 3)
      (tabA1 V) (tabB1 V) (xs1 V c t) (gi1 V c t) (si1 V c t) (ws1 V c t) xi7 a8
      = accOn1 c (grid1.coords t) ((cfg1 (adm1 V)).slots t 0) ((cfg1 (adm1 V)).slots t 1) ((cfg1 (adm1 V)).slots t 2) ((cfg1 (adm1 V)).slots t 3)
          (tabA1 V) (tabB1 V) (xs1 V c t) (gi1 V c t) (si1 V c t) (ws1 V c t) a8 :=
  outOn1_last hc

/-- Before point 0 the accumulator holds anything, before a later point `t` it holds `accAt1 t`: either way contents
    whose update at `t` is `accAt1 (t + 1)`. -/
theorem acc_open1 (c : Dev nD) (t : Fin (cfg1 (adm1 V)).N) :
    (if t.castSucc.val = 0 then iprop(∃ d, owns (c : Thread nD τ) Body.m8_1 fullShare d)
        else owns (c : Thread nD τ) Body.m8_1 fullShare (accAt1 V c t.castSucc.val) : sProp 𝕄)
      ⊢ iprop(∃ a8, ⌜t.val = 0 ∨ a8 = accAt1 V c t.val⌝ ∗ owns (c : Thread nD τ) Body.m8_1 fullShare a8) := by
  have e : t.castSucc.val = t.val := rfl
  rw [e]
  split
  · next h =>
    iintro ⟨%d, H⟩; iexists d; isplitr
    · ipureintro; exact Or.inl h
    · iexact H
  · iintro H; iexists _; isplitr
    · ipureintro; exact Or.inr rfl
    · iexact H

/-- The two tables the pipeline holds, as the two whole memrefs the body reads them through. -/
theorem prefHeld_pair1 (c : Dev nD) (q : Fin 2 → PosShare TreeShare) (v : pre1.Contents (Elt F)) :
    (Pipeline.prefHeld pre1 c q v : sProp 𝕄)
      = iprop((((c : Thread nD τ).loc main_v75) ↦{q 0} (show Buf (Elt F) ((c : Thread nD τ).loc main_v75) from v 0))
          ∗ (((c : Thread nD τ).loc main_v78) ↦{q 1} (show Buf (Elt F) ((c : Thread nD τ).loc main_v78) from v 1))) := by
  unfold Pipeline.prefHeld
  rw [show (Finset.univ : Finset (Fin 2)) = insert 0 {1} from by decide, bigSep_insert (by decide), bigSep_singleton]
  rfl

theorem prefHeld_full1 (c : Dev nD) :
    (Pipeline.prefHeld pre1 c (fun _ => fullShare) (adm1 V).1 : sProp 𝕄)
      = iprop(owns (c : Thread nD τ) (Memref.whole main_v75) fullShare (tabA1 V) ∗ owns (c : Thread nD τ) (Memref.whole main_v78) fullShare (tabB1 V)) :=
  (prefHeld_pair1 c _ _).trans (congrArg₂ (fun a b : sProp 𝕄 => iprop(a ∗ b))
    (owns_whole (c : Thread nD τ) main_v75 fullShare (tabA1 V)).symm (owns_whole (c : Thread nD τ) main_v78 fullShare (tabB1 V)).symm)

/-! ## The body at a point -/

/-- The kernel body at grid coordinates `i` on the staging buffers `s0 … s4` of the five windows, the two tables and the
    two scratch buffers: what the pipeline calls at a point whose current buffers those are. -/
abbrev bodyOn1 (i : grid1.Coords) (s0 : Fin 1) (s1 s2 s3 : Fin 2) (s4 : Fin 1) : Prog (TpuEff nD τ sig (Elt F) Λ₀ .tc) PUnit :=
  cc1__mp_kernel i (Memref.whole main_v75) (Memref.isWhole_whole _) (Memref.whole main_v78) (Memref.isWhole_whole _)
    (stage1_0 s0) (hstage1_0 s0) (stage1_1 s1) (hstage1_1 s1) (stage1_2 s2) (hstage1_2 s2) (stage1_3 s3) (hstage1_3 s3)
    (stage1_4 s4) (hstage1_4 s4) (Memref.whole cc1_scratch0) (Memref.isWhole_whole _) (Memref.whole cc1_scratch1) (Memref.isWhole_whole _)

/-- The body's triple on any current buffers: the output window has one buffer, the one the triple is stated on. -/
theorem sound_on1 (c : Dev nD) (i : grid1.Coords) (s0 : Fin 1) (s1 s2 s3 : Fin 2) (s4 : Fin 1)
    (x1 x2 : Vec F S489 .i32) (x3 : Vec F S10000x8 .f32) (x4 x5 : Vec F S4096 .i32) (x6 : Vec F S4096 .f32)
    (xi7 a8 : Vec F S10000x8 .f32) (K : PUnit → sProp 𝕄) :
    iprop(owns (c : Thread nD τ) (Memref.whole main_v75) fullShare x1 ∗ owns (c : Thread nD τ) (Memref.whole main_v78) fullShare x2
        ∗ owns (c : Thread nD τ) (stage1_0 s0) fullShare x3 ∗ owns (c : Thread nD τ) (stage1_1 s1) fullShare x4
        ∗ owns (c : Thread nD τ) (stage1_2 s2) fullShare x5 ∗ owns (c : Thread nD τ) (stage1_3 s3) fullShare x6
        ∗ owns (c : Thread nD τ) (stage1_4 s4) fullShare xi7 ∗ owns (c : Thread nD τ) Body.m8_1 fullShare a8
        ∗ (∃ d, owns (c : Thread nD τ) Body.m9_1 fullShare d)
        ∗ (iprop(owns (c : Thread nD τ) (Memref.whole main_v75) fullShare x1 ∗ owns (c : Thread nD τ) (Memref.whole main_v78) fullShare x2
            ∗ owns (c : Thread nD τ) (stage1_0 s0) fullShare x3 ∗ owns (c : Thread nD τ) (stage1_1 s1) fullShare x4
            ∗ owns (c : Thread nD τ) (stage1_2 s2) fullShare x5 ∗ owns (c : Thread nD τ) (stage1_3 s3) fullShare x6
            ∗ owns (c : Thread nD τ) (stage1_4 s4) fullShare (outOn1 c i s0 s1 s2 s3 x1 x2 x3 x4 x5 x6 xi7 a8)
            ∗ owns (c : Thread nD τ) Body.m8_1 fullShare (accOn1 c i s0 s1 s2 s3 x1 x2 x3 x4 x5 x6 a8)
            ∗ (∃ d, owns (c : Thread nD τ) Body.m9_1 fullShare d)) -∗ K ⟨⟩))
      ⊢ wp frame (wpE (defs₀ (F := F)) Variants.none c none) Set.univ (bodyOn1 i s0 s1 s2 s3 s4) K := by
  obtain rfl : s4 = ⟨0, Nat.one_pos⟩ := Fin.ext (by have h := s4.isLt; omega)
  exact Body.sound_kernel1 c Set.univ i _ _ _ _ _ _ _ _ _ _ _ _ x1 x2 x3 x4 x5 x6 xi7 a8 K

/-- The body at a point before the last: the accumulator steps, the output block's buffer is handed back as found. -/
theorem sound_idle1 (c : Dev nD) (t : Fin (cfg1 (adm1 V)).N) (hc : ¬ k1_cond12 (grid1.coords t) = 1#1)
    (s4 : Fin 1) (xi7 a8 : Vec F S10000x8 .f32) (h : t.val = 0 ∨ a8 = accAt1 V c t.val) (K : PUnit → sProp 𝕄) :
    iprop(owns (c : Thread nD τ) (Memref.whole main_v75) fullShare (tabA1 V) ∗ owns (c : Thread nD τ) (Memref.whole main_v78) fullShare (tabB1 V)
        ∗ owns (c : Thread nD τ) (stage1_0 ((cfg1 (adm1 V)).slots t 0)) fullShare (xs1 V c t)
        ∗ owns (c : Thread nD τ) (stage1_1 ((cfg1 (adm1 V)).slots t 1)) fullShare (gi1 V c t)
        ∗ owns (c : Thread nD τ) (stage1_2 ((cfg1 (adm1 V)).slots t 2)) fullShare (si1 V c t)
        ∗ owns (c : Thread nD τ) (stage1_3 ((cfg1 (adm1 V)).slots t 3)) fullShare (ws1 V c t)
        ∗ owns (c : Thread nD τ) (stage1_4 s4) fullShare xi7 ∗ owns (c : Thread nD τ) Body.m8_1 fullShare a8
        ∗ (∃ d, owns (c : Thread nD τ) Body.m9_1 fullShare d)
        ∗ (iprop(owns (c : Thread nD τ) (Memref.whole main_v75) fullShare (tabA1 V) ∗ owns (c : Thread nD τ) (Memref.whole main_v78) fullShare (tabB1 V)
        ∗ owns (c : Thread nD τ) (stage1_0 ((cfg1 (adm1 V)).slots t 0)) fullShare (xs1 V c t)
        ∗ owns (c : Thread nD τ) (stage1_1 ((cfg1 (adm1 V)).slots t 1)) fullShare (gi1 V c t)
        ∗ owns (c : Thread nD τ) (stage1_2 ((cfg1 (adm1 V)).slots t 2)) fullShare (si1 V c t)
        ∗ owns (c : Thread nD τ) (stage1_3 ((cfg1 (adm1 V)).slots t 3)) fullShare (ws1 V c t)
            ∗ owns (c : Thread nD τ) (stage1_4 s4) fullShare xi7
            ∗ owns (c : Thread nD τ) Body.m8_1 fullShare (accAt1 V c (t.val + 1))
            ∗ (∃ d, owns (c : Thread nD τ) Body.m9_1 fullShare d)) -∗ K ⟨⟩))
      ⊢ wp frame (wpE (defs₀ (F := F)) Variants.none c none) Set.univ
          (bodyOn1 (grid1.coords t) ((cfg1 (adm1 V)).slots t 0) ((cfg1 (adm1 V)).slots t 1) ((cfg1 (adm1 V)).slots t 2) ((cfg1 (adm1 V)).slots t 3) s4) K := by
  have key := sound_on1 c (grid1.coords t) ((cfg1 (adm1 V)).slots t 0) ((cfg1 (adm1 V)).slots t 1) ((cfg1 (adm1 V)).slots t 2) ((cfg1 (adm1 V)).slots t 3) s4
    (tabA1 V) (tabB1 V) (xs1 V c t) (gi1 V c t) (si1 V c t) (ws1 V c t) xi7 a8 K
  rw [acc_step1 V c t a8 h, out_idle1 V c t hc xi7 a8] at key
  exact key

/-- The body at the last point: the accumulator steps and the output block's buffer receives it, whatever it held. -/
theorem sound_last1 (c : Dev nD) (t : Fin (cfg1 (adm1 V)).N) (hc : k1_cond12 (grid1.coords t) = 1#1)
    (s4 : Fin 1) (xi7 a8 : Vec F S10000x8 .f32) (h : t.val = 0 ∨ a8 = accAt1 V c t.val) (K : PUnit → sProp 𝕄) :
    iprop(owns (c : Thread nD τ) (Memref.whole main_v75) fullShare (tabA1 V) ∗ owns (c : Thread nD τ) (Memref.whole main_v78) fullShare (tabB1 V)
        ∗ owns (c : Thread nD τ) (stage1_0 ((cfg1 (adm1 V)).slots t 0)) fullShare (xs1 V c t)
        ∗ owns (c : Thread nD τ) (stage1_1 ((cfg1 (adm1 V)).slots t 1)) fullShare (gi1 V c t)
        ∗ owns (c : Thread nD τ) (stage1_2 ((cfg1 (adm1 V)).slots t 2)) fullShare (si1 V c t)
        ∗ owns (c : Thread nD τ) (stage1_3 ((cfg1 (adm1 V)).slots t 3)) fullShare (ws1 V c t)
        ∗ owns (c : Thread nD τ) (stage1_4 s4) fullShare xi7 ∗ owns (c : Thread nD τ) Body.m8_1 fullShare a8
        ∗ (∃ d, owns (c : Thread nD τ) Body.m9_1 fullShare d)
        ∗ (iprop(owns (c : Thread nD τ) (Memref.whole main_v75) fullShare (tabA1 V) ∗ owns (c : Thread nD τ) (Memref.whole main_v78) fullShare (tabB1 V)
        ∗ owns (c : Thread nD τ) (stage1_0 ((cfg1 (adm1 V)).slots t 0)) fullShare (xs1 V c t)
        ∗ owns (c : Thread nD τ) (stage1_1 ((cfg1 (adm1 V)).slots t 1)) fullShare (gi1 V c t)
        ∗ owns (c : Thread nD τ) (stage1_2 ((cfg1 (adm1 V)).slots t 2)) fullShare (si1 V c t)
        ∗ owns (c : Thread nD τ) (stage1_3 ((cfg1 (adm1 V)).slots t 3)) fullShare (ws1 V c t)
            ∗ owns (c : Thread nD τ) (stage1_4 s4) fullShare
                (outOn1 c (grid1.coords t) ((cfg1 (adm1 V)).slots t 0) ((cfg1 (adm1 V)).slots t 1) ((cfg1 (adm1 V)).slots t 2) ((cfg1 (adm1 V)).slots t 3)
                  (tabA1 V) (tabB1 V) (xs1 V c t) (gi1 V c t) (si1 V c t) (ws1 V c t) any1 (accAt1 V c t.val))
            ∗ owns (c : Thread nD τ) Body.m8_1 fullShare (accAt1 V c (t.val + 1))
            ∗ (∃ d, owns (c : Thread nD τ) Body.m9_1 fullShare d)) -∗ K ⟨⟩))
      ⊢ wp frame (wpE (defs₀ (F := F)) Variants.none c none) Set.univ
          (bodyOn1 (grid1.coords t) ((cfg1 (adm1 V)).slots t 0) ((cfg1 (adm1 V)).slots t 1) ((cfg1 (adm1 V)).slots t 2) ((cfg1 (adm1 V)).slots t 3) s4) K := by
  have key := sound_on1 c (grid1.coords t) ((cfg1 (adm1 V)).slots t 0) ((cfg1 (adm1 V)).slots t 1) ((cfg1 (adm1 V)).slots t 2) ((cfg1 (adm1 V)).slots t 3) s4
    (tabA1 V) (tabB1 V) (xs1 V c t) (gi1 V c t) (si1 V c t) (ws1 V c t) xi7 a8 K
  rw [out_last1 V c t hc xi7 a8, acc_step1 V c t a8 h] at key
  rw [out_last1 V c t hc any1 (accAt1 V c t.val), acc_step1 V c t _ (Or.inr rfl)]
  exact key

/-! ## The output window's post, case by case -/

/-- At the last point the output window is live: its buffer is left at what the proof data says. -/
theorem leaves_last1 (c : Dev nD) (t : Fin (cfg1 (adm1 V)).N) (hc : k1_cond12 (grid1.coords t) = 1#1) :
    ((dat1 V c).leavesExact 4 t : sProp 𝕄)
      = owns (c : Thread nD τ) (((cfg1 (adm1 V)).win 4).stage ((cfg1 (adm1 V)).slots t 4)) fullShare ((dat1 V c).after 4 t) := by
  have hi : (cfg1 (adm1 V)).idle 4 ((cfg1 (adm1 V)).grid.coords t) = false :=
    (idle_out1 (adm1 V) t).trans (by rw [hc] <;> rfl)
  unfold Dat.leavesExact
  rw [hi]

/-- Before the last point the output window is idle and not written back: its buffer is handed back as found. -/
theorem leaves_idle1 (c : Dev nD) (t : Fin (cfg1 (adm1 V)).N) (hc : ¬ k1_cond12 (grid1.coords t) = 1#1) :
    ((dat1 V c).leavesExact 4 t : sProp 𝕄)
      = iprop(∃ d, owns (c : Thread nD τ) (((cfg1 (adm1 V)).win 4).stage ((cfg1 (adm1 V)).slots t 4)) fullShare ((dat1 V c).before 4 t d)) := by
  have hi : (cfg1 (adm1 V)).idle 4 ((cfg1 (adm1 V)).grid.coords t) = true :=
    (idle_out1 (adm1 V) t).trans (by simp [hc])
  exact (dat1 V c).leavesExact_idle 4 t hi (flush_idle1 (adm1 V) t hc)

/-! ## The body obligation -/

/-- The current staging memref of window `w` at point `t`. -/
abbrev st1 (w : Fin (cfg1 (adm1 V)).W) (t : Fin (cfg1 (adm1 V)).N) := ((cfg1 (adm1 V)).win w).stage ((cfg1 (adm1 V)).slots t w)

/-- What the body is called with at point `t`, the windows one by one, -/
def bodyPre1 (c : Dev nD) (t : Fin (cfg1 (adm1 V)).N) : sProp 𝕄 :=
  iprop((dat1 V c).Φ t.castSucc ∗ (dat1 V c).owesAt () t.castSucc
    ∗ (∃ d, owns (c : Thread nD τ) (st1 V 0 t) fullShare ((dat1 V c).before 0 t d))
    ∗ (∃ d, owns (c : Thread nD τ) (st1 V 1 t) fullShare ((dat1 V c).before 1 t d))
    ∗ (∃ d, owns (c : Thread nD τ) (st1 V 2 t) fullShare ((dat1 V c).before 2 t d))
    ∗ (∃ d, owns (c : Thread nD τ) (st1 V 3 t) fullShare ((dat1 V c).before 3 t d))
    ∗ (∃ d, owns (c : Thread nD τ) (st1 V 4 t) fullShare ((dat1 V c).before 4 t d)))

/-- and what it returns: the inputs' buffers at their blocks, the output's as its window's state at the point says. -/
def bodyPost1 (c : Dev nD) (t : Fin (cfg1 (adm1 V)).N) : sProp 𝕄 :=
  iprop((dat1 V c).Φ t.succ ∗ (dat1 V c).owesAt () t.succ
    ∗ owns (c : Thread nD τ) (st1 V 0 t) fullShare ((dat1 V c).after 0 t)
    ∗ owns (c : Thread nD τ) (st1 V 1 t) fullShare ((dat1 V c).after 1 t)
    ∗ owns (c : Thread nD τ) (st1 V 2 t) fullShare ((dat1 V c).after 2 t)
    ∗ owns (c : Thread nD τ) (st1 V 3 t) fullShare ((dat1 V c).after 3 t)
    ∗ (dat1 V c).leavesExact 4 t)

/-- The body at any point: the inputs' buffers hold their blocks and the accumulator what the invariant says, so the
    body's triple applies; the rest of the invariant and the core's `owes` pass through unread. -/
theorem sound_body1 (c : Dev nD) (t : Fin (cfg1 (adm1 V)).N) :
    bodyPre1 V c t ⊢ wp frame (wpE (defs₀ (F := F)) Variants.none c none) Set.univ
      (bodyOn1 (grid1.coords t) ((cfg1 (adm1 V)).slots t 0) ((cfg1 (adm1 V)).slots t 1) ((cfg1 (adm1 V)).slots t 2)
        ((cfg1 (adm1 V)).slots t 3) ((cfg1 (adm1 V)).slots t 4))
      (fun _ => bodyPost1 V c t) := by
  unfold bodyPre1 bodyPost1
  simp only [before_xs1, before_gi1, before_si1, before_ws1]
  rw [show (dat1 V c).owesAt () t.succ = (dat1 V c).owesAt () t.castSucc from rfl,
    after_xs1, after_gi1, after_si1, after_ws1, Phi_eq1, Phi_eq1]
  unfold Phi1
  have hs : ¬ (t.succ).val = 0 := by rw [Fin.val_succ]; exact Nat.succ_ne_zero _
  rw [prefHeld_full1, if_neg hs, Fin.val_succ]
  by_cases hc : k1_cond12 (grid1.coords t) = 1#1
  · rw [leaves_last1 V c t hc, after_out1]
    iintro ⟨⟨⟨Ht1, Ht2⟩, Hacc, H9, Hrest, Hr⟩, Ho, ⟨%d0, H0⟩, ⟨%d1, H1⟩, ⟨%d2, H2⟩, ⟨%d3, H3⟩, ⟨%d4, H4⟩⟩
    ihave Hacc' := (acc_open1 V c t) $$ Hacc
    icases Hacc' with ⟨%a8, %h8, H8⟩
    iapply (sound_last1 V c t hc _ ((dat1 V c).before 4 t d4) a8 h8 _)
    isplitl [Ht1]; · iexact Ht1
    isplitl [Ht2]; · iexact Ht2
    isplitl [H0]; · iexact H0
    isplitl [H1]; · iexact H1
    isplitl [H2]; · iexact H2
    isplitl [H3]; · iexact H3
    isplitl [H4]; · iexact H4
    isplitl [H8]; · iexact H8
    isplitl [H9]; · iexact H9
    iintro ⟨Ht1, Ht2, H0, H1, H2, H3, H4, H8, H9⟩
    isplitl [Ht1 Ht2 H8 H9 Hrest Hr]
    · isplitl [Ht1 Ht2]
      · isplitl [Ht1]; · iexact Ht1
        iexact Ht2
      isplitl [H8]; · iexact H8
      isplitl [H9]; · iexact H9
      isplitl [Hrest]; · iexact Hrest
      iexact Hr
    isplitl [Ho]; · iexact Ho
    isplitl [H0]; · iexact H0
    isplitl [H1]; · iexact H1
    isplitl [H2]; · iexact H2
    isplitl [H3]; · iexact H3
    iexact H4
  · rw [leaves_idle1 V c t hc]
    iintro ⟨⟨⟨Ht1, Ht2⟩, Hacc, H9, Hrest, Hr⟩, Ho, ⟨%d0, H0⟩, ⟨%d1, H1⟩, ⟨%d2, H2⟩, ⟨%d3, H3⟩, ⟨%d4, H4⟩⟩
    ihave Hacc' := (acc_open1 V c t) $$ Hacc
    icases Hacc' with ⟨%a8, %h8, H8⟩
    iapply (sound_idle1 V c t hc _ ((dat1 V c).before 4 t d4) a8 h8 _)
    isplitl [Ht1]; · iexact Ht1
    isplitl [Ht2]; · iexact Ht2
    isplitl [H0]; · iexact H0
    isplitl [H1]; · iexact H1
    isplitl [H2]; · iexact H2
    isplitl [H3]; · iexact H3
    isplitl [H4]; · iexact H4
    isplitl [H8]; · iexact H8
    isplitl [H9]; · iexact H9
    iintro ⟨Ht1, Ht2, H0, H1, H2, H3, H4, H8, H9⟩
    isplitl [Ht1 Ht2 H8 H9 Hrest Hr]
    · isplitl [Ht1 Ht2]
      · isplitl [Ht1]; · iexact Ht1
        iexact Ht2
      isplitl [H8]; · iexact H8
      isplitl [H9]; · iexact H9
      isplitl [Hrest]; · iexact Hrest
      iexact Hr
    isplitl [Ho]; · iexact Ho
    isplitl [H0]; · iexact H0
    isplitl [H1]; · iexact H1
    isplitl [H2]; · iexact H2
    isplitl [H3]; · iexact H3
    iexists d4; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The arrays after the run -/

/-- The output's one block is the whole array: an index of the block is the same index of the array, -/
theorem emb_blk_out1 (t : Fin (cfg1 (adm1 V)).N) (j : S10000x8.Idx) : (((cfg1 (adm1 V)).win 4).blk t).view.emb j = j := by
  have h : ∀ a : Fin 2, ((((cfg1 (adm1 V)).win 4).blk t).view.emb j a).val = (j a).val := fun a =>
    match a with
    | ⟨0, _⟩ => by show 0 * 10000 + 1 * (j 0).val = (j 0).val; omega
    | ⟨1, _⟩ => by show 0 * 8 + 1 * (j 1).val = (j 1).val; omega
  exact funext fun a => Fin.ext (h a)

/-- so every index of the array lies in the block, -/
theorem mem_blk_out1 (t : Fin (cfg1 (adm1 V)).N) (i : S10000x8.Idx) : i ∈ (((cfg1 (adm1 V)).win 4).blk t).view.set :=
  Finset.mem_map.mpr ⟨i, Finset.mem_univ _, emb_blk_out1 V t i⟩

/-- and contents of the array read through the block are those contents. -/
theorem read_blk_out1 (t : Fin (cfg1 (adm1 V)).N) (G : Vec F S10000x8 .f32) :
    (((cfg1 (adm1 V)).win 4).blk t).view.read (Elt F) G = G := by
  funext j
  show G ((((cfg1 (adm1 V)).win 4).blk t).view.emb j) = G j
  exact congrArg G (emb_blk_out1 V t j)

/-- What the one point that writes the output back writes is the accumulator after the last point, read through the block. -/
theorem flushed_out1 (c : Dev nD) (t : Fin (cfg1 (adm1 V)).N) (hf : ((cfg1 (adm1 V)).win 4).flush t = true) :
    (dat1 V c).flushed 4 t = (((cfg1 (adm1 V)).win 4).blk t).view.read (Elt F) (accAt1 V c 489) := by
  have ht : t.val + 1 = 489 := (flush_out1 (adm1 V) t).mp hf
  have hc : k1_cond12 (grid1.coords t) = 1#1 := cond_last1 _ (by rw [coords_val1]; omega)
  rw [read_blk_out1]
  show ((cfg1 (adm1 V)).win 4).cut ((cfg1 (adm1 V)).grid.coords t) ((dat1 V c).after 4 t) = _
  rw [after_out1, out_last1 V c t hc any1 (accAt1 V c t.val), acc_step1 V c t _ (Or.inr rfl), ht]
  rfl

/-- The output array ends holding the accumulator after the last point. -/
theorem final1 (c : Dev nD) : (dat1 V c).arrAt 4 (cfg1 (adm1 V)).N = accAt1 V c 489 :=
  (dat1 V c).arrAt_eq_of_cover 4 (accAt1 V c 489) (fun t hf => flushed_out1 V c t hf)
    (fun i => ⟨pt1 V 488 (by decide), (flush_out1 (adm1 V) _).mpr rfl, mem_blk_out1 V _ i⟩)

/-- The input arrays are never written. -/
theorem final_in1 (c : Dev nD) (w : Fin (cfg1 (adm1 V)).W) (hw : w.val < 4) :
    (dat1 V c).arrAt w (cfg1 (adm1 V)).N = V c (Pipeline.arrRef spec1 w) := by
  have hin : ((cfg1 (adm1 V)).win w).isOut = false := by
    obtain ⟨n, hn⟩ := w
    have hn' : n < 4 := hw
    match n, hn, hn' with
    | 0, _, _ => rfl
    | 1, _, _ => rfl
    | 2, _, _ => rfl
    | 3, _, _ => rfl
    | n + 4, _, h => exact absurd h (by omega)
  rw [(dat1 V c).arrAt_in w hin, A_eq1]

end Cert.Kernel.Frame

end
-- ==== Proof.BSegs.lean ====
/-
  THE TWO KERNEL REGIONS OF @main AS SEGMENTS OF ITS RUN, THE FRAME, AND THE RUN READ AT THE RESULT BUFFER.

  Between two items of @main a core holds every unscoped buffer whole, at a valuation that is a fold from the launch
  memory: a host stretch moves it by the stretch's operations, a kernel region changes it at the one array the region
  writes (its accumulator's write-back) and nowhere else. Beside the buffers the core carries its generator register at
  some state and owes nothing.

  A region is entered by sorting its pipeline's arrays and its two prefetched tables out of the unscoped buffers (the
  tables are unscoped buffers that are no window's array), and left by putting them back: the input arrays and the tables
  as entered (nothing writes them), the output array at what the pipeline's write-backs leave. The tables stay inside the
  body's invariant all through the grid; the accumulator and the one-hot scratch are two of the core's scoped buffers,
  taken out of the scoped rest at the first point and forgotten back into it after the last.

  Region 1 is entered from the valuation region 0 left, moved on by one host stretch; so what region 1 leaves is defined
  after what region 0 leaves, and the two are then read as one family of "what the regions leave".
-/
import proofs.«400082_j83537113907851_4_alg».proof.Proof.BDat0
import proofs.«400082_j83537113907851_4_alg».proof.Proof.BDat1
import proofs.«400082_j83537113907851_4_alg».proof.Proof.Gen.Kernel.Regions
import Idealize.ShloMosaic.Lib.Pipeline.Regions
import Idealize.ShloMosaic.Lib.Pipeline.RegionsLoop
import Idealize.ShloMosaic.Lib.Pipeline.Kit
import Idealize.ShloMosaic.Lib.Pipeline.Frame

-- decided memberships among the program's 209 references recurse past the default depth
set_option maxRecDepth 1348

noncomputable section

namespace Cert.Kernel.Frame

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ)

/-! ## The valuations the regions are entered from, and what the regions leave -/

/-- Core `c`'s unscoped buffers when region 0 is entered: the launch memory moved on by the thirteen host stretches
    before it, read at the TensorCore's references. -/
abbrev Vin0 : (c : Dev nD) → (b : Ref sig .tc) → Buf (Elt F) ((c : Thread nD τ).loc b) := fun c b => Gen.V13 m c b

/-- What region 0 leaves in its output array: the entry contents with every write-back of the accumulator folded in. -/
def out0 (c : Dev nD) : Buf (Elt F) ((c : Thread nD τ).loc main_v80) :=
  (dat0 (Vin0 m) c).arrAt 4 (cfg0 (adm0 (Vin0 m))).N

/-- What the regions leave, as far as region 0 decides it: its output array at `out0`, any other buffer at a value that
    is never read. -/
def outsA : Gen.Outs (F := F) := fun _ r c =>
  if h : r = main_v80 then (by subst h; exact out0 m c) else Gen.V13 m c r

theorem outsA_v80 (J : ℕ) (c : Dev nD) : outsA m J main_v80 c = out0 m c := by
  unfold outsA; exact dif_pos rfl

/-- Core `c`'s unscoped buffers when region 1 is entered: region 0's exit valuation moved on by the host stretch
    between the two regions. -/
abbrev Vin1 : (c : Dev nD) → (b : Ref sig .tc) → Buf (Elt F) ((c : Thread nD τ).loc b) := fun c b => Gen.V15 m (outsA m) c b

/-- What region 1 leaves in its output array. -/
def out1 (c : Dev nD) : Buf (Elt F) ((c : Thread nD τ).loc main_v84) :=
  (dat1 (Vin1 m) c).arrAt 4 (cfg1 (adm1 (Vin1 m))).N

/-- What the regions leave: after region 0 its output array at `out0`, after region 1 its output array at `out1`;
    every other entry is a value that is never read. -/
def outsOf : Gen.Outs (F := F) := fun J r c =>
  if J = 14 then outsA m J r c
  else if h : r = main_v84 then (by subst h; exact out1 m c) else Gen.V13 m c r

theorem outsOf_14 (r : Ref sig .tc) (c : Dev nD) : outsOf m 14 r c = outsA m 14 r c := by
  unfold outsOf; exact if_pos rfl

theorem outsOf_16 (c : Dev nD) : outsOf m 16 main_v84 c = out1 m c := by
  unfold outsOf; rw [if_neg (show ¬ ((16 : ℕ) = 14) by decide)]; exact dif_pos rfl

/-- Region 0's exit valuation reads the family only at region 0's output array. -/
theorem V14_outsOf (c : Dev nD) : Gen.V14 m (outsOf m) c = Gen.V14 m (outsA m) c :=
  congrArg (Function.update (Gen.V13 m c) (Proc.devRef .tc main_v80 : DevRef τ sig)) (outsOf_14 m main_v80 c)

theorem V15_outsOf (c : Dev nD) : Gen.V15 m (outsOf m) c = Gen.V15 m (outsA m) c :=
  congrArg (StableHlo.after (hostOps1 (F := F))) (V14_outsOf m c)

/-! ## The proof data family -/

/-- The prefetched tables' contents, per pipeline: read off the valuation the pipeline's region is entered from. -/
def adm : (p : Fin 2) → (pcfgs (F := F) p).Adm
  | ⟨0, _⟩ => adm0 (Vin0 m)
  | ⟨1, _⟩ => adm1 (Vin1 m)

/-- Every pipeline's proof data, each at its region's entry contents — a literal `match`, so that the pinned
    configuration at a numeral reduces to the printed one. -/
def pdats : (p : Fin 2) → (c : Dev nD) → Dat τ (Elt F) Unit ℕ (UR sig nD τ) ℕ (Pipeline.pin (pcfgs (F := F)) (adm m) p) c
  | ⟨0, _⟩ => fun c => dat0 (Vin0 m) c
  | ⟨1, _⟩ => fun c => dat1 (Vin1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)

/-- There is one core. -/
theorem core_eq (c : Dev nD) : c = 0 := Subsingleton.elim _ _

/-! ## Region 0: the exit valuation at the arrays and off them -/

/-- The tables the pipeline runs at are the two table buffers as the valuation holds them on core 0, at any valuation. -/
theorem tables0_at (V : (c : Dev nD) → (b : Ref sig .tc) → Buf (Elt F) ((c : Thread nD τ).loc b)) :
    ((fun k => V 0 (pre0.ref k)) : pre0.Contents (Elt F)) = (adm0 V).1 := by
  funext k
  match k with
  | ⟨0, _⟩ => rfl
  | ⟨1, _⟩ => rfl

/-- Region 0's tables, read off its entry valuation on core `c`. -/
theorem tables0 (c : Dev nD) : ((fun k => Vin0 m c (pre0.ref k)) : pre0.Contents (Elt F)) = (adm0 (Vin0 m)).1 := by
  obtain rfl := core_eq c
  exact tables0_at (Vin0 m)

/-- At region 0's exit each of its arrays holds what the pipeline leaves: an input array what it held at entry, the
    output array the accumulator's write-backs. -/
theorem hF0 (c : Dev nD) : ∀ w : Fin 5,
    (dat0 (Vin0 m) c).arrAt w (cfg0 (adm0 (Vin0 m))).N = Gen.V14 m (outsOf m) c (Pipeline.arrRef spec0 w)
  | ⟨0, _⟩ => (((dat0 (Vin0 m) c).arrAt_in 0 rfl _).trans (A_eq0 (Vin0 m) c 0)).trans (Gen.V14_of m (outsOf m) c main_v79 (by decide)).symm
  | ⟨1, _⟩ => (((dat0 (Vin0 m) c).arrAt_in 1 rfl _).trans (A_eq0 (Vin0 m) c 1)).trans (Gen.V14_of m (outsOf m) c main_v22 (by decide)).symm
  | ⟨2, _⟩ => (((dat0 (Vin0 m) c).arrAt_in 2 rfl _).trans (A_eq0 (Vin0 m) c 2)).trans (Gen.V14_of m (outsOf m) c main_v29 (by decide)).symm
  | ⟨3, _⟩ => (((dat0 (Vin0 m) c).arrAt_in 3 rfl _).trans (A_eq0 (Vin0 m) c 3)).trans (Gen.V14_of m (outsOf m) c main_v36 (by decide)).symm
  | ⟨4, _⟩ => by
      have h : Gen.V14 m (outsOf m) c main_v80 = out0 m c :=
        (Function.update_self _ _ _).trans ((outsOf_14 m main_v80 c).trans (outsA_v80 m 14 c))
      exact h.symm

/-- Off region 0's arrays its exit valuation is its entry valuation. -/
theorem hrest0 (c : Dev nD) : ∀ b, b ∉ Finset.univ.image (Pipeline.arrRef spec0) → Gen.V14 m (outsOf m) c b = Vin0 m c b :=
  fun b hb => Gen.V14_of m (outsOf m) c b fun h =>
    hb (Finset.mem_image.mpr ⟨4, Finset.mem_univ _, (List.mem_singleton.mp h).symm⟩)

/-! ## Region 0: the unscoped buffers sorted out at entry and put back at exit -/

-- a library lemma stated over the pinned configuration unifies with the printed one only when unification may unfold
-- plain definitions in a metavariable's type
set_option backward.isDefEq.respectTransparency.types false in
/-- ENTRY: the core's unscoped buffers at the entry valuation are the pipeline's arrays at the proof data's entry
    contents, the two tables at the contents the pipeline runs at, and the unscoped buffers that are neither. -/
theorem entry0 (c : Dev nD) :
    (StableHlo.held (c : Thread nD τ) (Pipeline.ucRefs τ sig) (Gen.V13 m c) : sProp 𝕄)
      ⊢ iprop((pdats m 0 c).arrays ((pdats m 0 c).arrAt · 0)
          ∗ Pipeline.prefHeld (Ix := Unit) (Name := ℕ) (U := UR sig nD τ) (Lvl := ℕ) pre0 c (fun _ => fullShare) (adm0 (Vin0 m)).1
          ∗ Pipeline.unscopedRestP (Ix := Unit) (Name := ℕ) (U := UR sig nD τ) (Lvl := ℕ) pre0 spec0 c (Vin0 m c)) := by
  have h1 := Pipeline.arrays_of_unscopedBufs (p := 0) (pcfgs (F := F)) (adm m) (pdats m) (launch0 (F := F)).win (launch0 (F := F)).arr_whole c
    ((pdats m 0 c).share_full fun w => share0 (Vin0 m) c w) (Vin0 m c) fun w => A_eq0 (Vin0 m) c w
  have h2 := Pipeline.unscopedRest_split (Ix := Unit) (Name := ℕ) (U := UR sig nD τ) (Lvl := ℕ) (preFacts0) c (Vin0 m c)
  rw [tables0 m c] at h2
  exact ((Entails.of_eq (Pipeline.unscopedBufs_held (Ix := Unit) (Name := ℕ) (U := UR sig nD τ) (Lvl := ℕ) c (Gen.V13 m c)).symm).trans h1).trans
    (sep_mono .rfl (Entails.of_eq h2))

set_option backward.isDefEq.respectTransparency.types false in
/-- EXIT: the arrays at what the pipeline leaves, the tables and the rest as entered, are the core's unscoped buffers at
    the exit valuation. -/
theorem exit0 (c : Dev nD) :
    iprop((pdats m 0 c).arrays ((pdats m 0 c).arrAt · (Pipeline.pin (pcfgs (F := F)) (adm m) 0).N)
          ∗ Pipeline.prefHeld (Ix := Unit) (Name := ℕ) (U := UR sig nD τ) (Lvl := ℕ) pre0 c (fun _ => fullShare) (adm0 (Vin0 m)).1
          ∗ Pipeline.unscopedRestP (Ix := Unit) (Name := ℕ) (U := UR sig nD τ) (Lvl := ℕ) pre0 spec0 c (Vin0 m c))
      ⊢ (StableHlo.held (c : Thread nD τ) (Pipeline.ucRefs τ sig) (Gen.V14 m (outsOf m) c) : sProp 𝕄) := by
  have h1 := Pipeline.unscopedBufs_of_arrays (p := 0) (pcfgs (F := F)) (adm m) (Ix := Unit) (Name := ℕ) (U := UR sig nD τ) (Lvl := ℕ)
    (launch0 (F := F)).win (launch0 (F := F)).arr_whole c (pdats m) ((pdats m 0 c).share_full fun w => share0 (Vin0 m) c w)
    (Vin0 m c) (fun b => Gen.V14 m (outsOf m) c b) ((pdats m 0 c).arrAt · (Pipeline.pin (pcfgs (F := F)) (adm m) 0).N) (hF0 m c) (hrest0 m c)
  have h2 := Pipeline.unscopedRest_split (Ix := Unit) (Name := ℕ) (U := UR sig nD τ) (Lvl := ℕ) (preFacts0) c (Vin0 m c)
  rw [tables0 m c] at h2
  exact ((sep_mono .rfl (Entails.of_eq h2.symm)).trans h1).trans
    (Entails.of_eq (Pipeline.unscopedBufs_held (Ix := Unit) (Name := ℕ) (U := UR sig nD τ) (Lvl := ℕ) c (Gen.V14 m (outsOf m) c)))

/-- The core's scoped buffers that are no staging buffer of region 0: the accumulator, the one-hot scratch, the rest. -/
theorem scoped0 (c : Dev nD) :
    (Pipeline.scopedRest (Ix := Unit) (Name := ℕ) (U := UR sig nD τ) (Lvl := ℕ) (Val := Elt F) spec0 c : sProp 𝕄)
      = iprop(((∃ f : Buf (Elt F) ((c : Thread nD τ).loc cc0_scratch0), ((c : Thread nD τ).loc cc0_scratch0) ↦{fullShare} f)
            ∗ (∃ f : Buf (Elt F) ((c : Thread nD τ).loc cc0_scratch1), ((c : Thread nD τ).loc cc0_scratch1) ↦{fullShare} f))
          ∗ Pipeline.scopedRestBut (Ix := Unit) (Name := ℕ) (U := UR sig nD τ) (Lvl := ℕ) (Val := Elt F) spec0 c [cc0_scratch0, cc0_scratch1]) :=
  Pipeline.scopedRest_split_of_list spec0 c [cc0_scratch0, cc0_scratch1] (by decide) (by decide)

set_option backward.isDefEq.respectTransparency.types false in
/-- The invariant before the first point, from the generator register, the tables and the scoped rest. -/
theorem first0 (c : Dev nD) :
    iprop((∃ r, prngReg c r)
        ∗ Pipeline.prefHeld (Ix := Unit) (Name := ℕ) (U := UR sig nD τ) (Lvl := ℕ) pre0 c (fun _ => fullShare) (adm0 (Vin0 m)).1
        ∗ Pipeline.scopedRest (Ix := Unit) (Name := ℕ) (U := UR sig nD τ) (Lvl := ℕ) (Val := Elt F) spec0 c)
      ⊢ (Phi0 (Vin0 m) c 0 : sProp 𝕄) := by
  rw [scoped0 c]
  unfold Phi0
  rw [if_pos (Fin.val_zero _)]
  iintro ⟨Hp, Ht, ⟨H8, H9⟩, Hrest⟩
  isplitl [Ht]; · iexact Ht
  isplitl [H8]
  · icases H8 with ⟨%f, H8⟩; iexists f
    iapply (Entails.of_eq (owns_whole (c : Thread nD τ) cc0_scratch0 fullShare f).symm); iexact H8
  isplitl [H9]
  · icases H9 with ⟨%f, H9⟩; iexists f
    iapply (Entails.of_eq (owns_whole (c : Thread nD τ) cc0_scratch1 fullShare f).symm); iexact H9
  isplitl [Hrest]; · iexact Hrest
  iexact Hp

set_option backward.isDefEq.respectTransparency.types false in
/-- The invariant after the last point gives back the generator register, the tables and the scoped rest: the
    accumulator's named contents are forgotten. -/
theorem last0 (c : Dev nD) :
    (Phi0 (Vin0 m) c (Fin.last (cfg0 (adm0 (Vin0 m))).N) : sProp 𝕄)
      ⊢ iprop(((∃ r, prngReg c r)
          ∗ Pipeline.prefHeld (Ix := Unit) (Name := ℕ) (U := UR sig nD τ) (Lvl := ℕ) pre0 c (fun _ => fullShare) (adm0 (Vin0 m)).1)
        ∗ emp
        ∗ Pipeline.scopedRest (Ix := Unit) (Name := ℕ) (U := UR sig nD τ) (Lvl := ℕ) (Val := Elt F) spec0 c) := by
  have hN : (Fin.last (cfg0 (adm0 (Vin0 m))).N).val ≠ 0 := by rw [Fin.val_last, N0_eq]; decide
  rw [scoped0 c]
  unfold Phi0
  rw [if_neg hN]
  iintro ⟨Ht, H8, H9, Hrest, Hp⟩
  isplitl [Hp Ht]
  · isplitl [Hp]; · iexact Hp
    iexact Ht
  isplitr; · iempintro
  isplitl [H8 H9]
  · isplitl [H8]
    · iexists _
      iapply (Entails.of_eq (owns_whole (c : Thread nD τ) cc0_scratch0 fullShare _)); iexact H8
    · icases H9 with ⟨%f, H9⟩; iexists f
      iapply (Entails.of_eq (owns_whole (c : Thread nD τ) cc0_scratch1 fullShare f)); iexact H9
  iexact Hrest

/-! ## Region 0 as a segment -/

set_option backward.isDefEq.respectTransparency.types false in
/-- REGION 0 over the thread state: entered from every unscoped buffer at `V13`, left at `V14`. -/
def reg0 : Pipeline.RegionSeg (pcfgs (F := F)) (adm m) (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (Vin0 m) c).loose
  hwaits := Pipeline.hwaits_of_owed_zero _ _ _ _ L lv 0 fun c t => owed0 (Vin0 m) c t
  pre c := iprop(StableHlo.held (c : Thread nD τ) (Pipeline.ucRefs τ sig) (Gen.V13 m c) ∗ R c)
  post c := iprop(StableHlo.held (c : Thread nD τ) (Pipeline.ucRefs τ sig) (Gen.V14 m (outsOf m) c) ∗ R c)
  X c := iprop(∃ r, prngReg c r)
  Y c := iprop((∃ r, prngReg c r) ∗ Pipeline.prefHeld (Ix := Unit) (Name := ℕ) (U := UR sig nD τ) (Lvl := ℕ) pre0 c (fun _ => fullShare) (adm0 (Vin0 m)).1)
  Z c := Pipeline.unscopedRestP (Ix := Unit) (Name := ℕ) (U := UR sig nD τ) (Lvl := ℕ) pre0 spec0 c (Vin0 m c)
  hentry c := by
    rw [Pipeline.ownSems0_none]
    iintro ⟨⟨Hub, Hp, HO⟩, -, -⟩
    ihave H := (entry0 m c) $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (first0 m c).trans (Entails.of_eq (Phi_eq0 (Vin0 m) c 0).symm)
  hout c := by
    rw [Pipeline.ownSems0_none]
    exact (Entails.of_eq (Phi_eq0 (Vin0 m) c (Fin.last _))).trans (last0 m c)
  hexit c := by
    iintro ⟨Ha, HO, ⟨Hp, Ht⟩, Hrest⟩
    imodintro
    isplitl [Ha Ht Hrest]
    · iapply (exit0 m c)
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

/-! ## Region 1: the exit valuation at the arrays and off them -/

/-- Off region 1's output array its exit valuation is its entry valuation. -/
theorem V16_of' (c : Dev nD) (r : Ref sig .tc) (h : r ∉ ([main_v84] : List (Ref sig .tc))) : Gen.V16 m (outsOf m) c r = Vin1 m c r :=
  (Gen.V16_of m (outsOf m) c r h).trans (congrFun (V15_outsOf m c) _)

/-- The tables the pipeline runs at are the two table buffers as the valuation holds them on core 0, at any valuation. -/
theorem tables1_at (V : (c : Dev nD) → (b : Ref sig .tc) → Buf (Elt F) ((c : Thread nD τ).loc b)) :
    ((fun k => V 0 (pre1.ref k)) : pre1.Contents (Elt F)) = (adm1 V).1 := by
  funext k
  match k with
  | ⟨0, _⟩ => rfl
  | ⟨1, _⟩ => rfl

/-- Region 1's tables, read off its entry valuation on core `c`. -/
theorem tables1 (c : Dev nD) : ((fun k => Vin1 m c (pre1.ref k)) : pre1.Contents (Elt F)) = (adm1 (Vin1 m)).1 := by
  obtain rfl := core_eq c
  exact tables1_at (Vin1 m)

/-- At region 1's exit each of its arrays holds what the pipeline leaves: an input array what it held at entry, the
    output array the accumulator's write-backs. -/
theorem hF1 (c : Dev nD) : ∀ w : Fin 5,
    (dat1 (Vin1 m) c).arrAt w (cfg1 (adm1 (Vin1 m))).N = Gen.V16 m (outsOf m) c (Pipeline.arrRef spec1 w)
  | ⟨0, _⟩ => (((dat1 (Vin1 m) c).arrAt_in 0 rfl _).trans (A_eq1 (Vin1 m) c 0)).trans (V16_of' m c main_v83 (by decide)).symm
  | ⟨1, _⟩ => (((dat1 (Vin1 m) c).arrAt_in 1 rfl _).trans (A_eq1 (Vin1 m) c 1)).trans (V16_of' m c main_v57 (by decide)).symm
  | ⟨2, _⟩ => (((dat1 (Vin1 m) c).arrAt_in 2 rfl _).trans (A_eq1 (Vin1 m) c 2)).trans (V16_of' m c main_v64 (by decide)).symm
  | ⟨3, _⟩ => (((dat1 (Vin1 m) c).arrAt_in 3 rfl _).trans (A_eq1 (Vin1 m) c 3)).trans (V16_of' m c main_v71 (by decide)).symm
  | ⟨4, _⟩ => by
      have h : Gen.V16 m (outsOf m) c main_v84 = out1 m c :=
        (Function.update_self _ _ _).trans (outsOf_16 m c)
      exact h.symm

/-- Off region 1's arrays its exit valuation is its entry valuation. -/
theorem hrest1 (c : Dev nD) : ∀ b, b ∉ Finset.univ.image (Pipeline.arrRef spec1) → Gen.V16 m (outsOf m) c b = Vin1 m c b :=
  fun b hb => V16_of' m c b fun h =>
    hb (Finset.mem_image.mpr ⟨4, Finset.mem_univ _, (List.mem_singleton.mp h).symm⟩)

/-! ## Region 1: the unscoped buffers sorted out at entry and put back at exit -/

-- a library lemma stated over the pinned configuration unifies with the printed one only when unification may unfold
-- plain definitions in a metavariable's type
set_option backward.isDefEq.respectTransparency.types false in
/-- ENTRY: the core's unscoped buffers at the entry valuation are the pipeline's arrays at the proof data's entry
    contents, the two tables at the contents the pipeline runs at, and the unscoped buffers that are neither. -/
theorem entry1 (c : Dev nD) :
    (StableHlo.held (c : Thread nD τ) (Pipeline.ucRefs τ sig) (Gen.V15 m (outsA m) c) : sProp 𝕄)
      ⊢ iprop((pdats m 1 c).arrays ((pdats m 1 c).arrAt · 0)
          ∗ Pipeline.prefHeld (Ix := Unit) (Name := ℕ) (U := UR sig nD τ) (Lvl := ℕ) pre1 c (fun _ => fullShare) (adm1 (Vin1 m)).1
          ∗ Pipeline.unscopedRestP (Ix := Unit) (Name := ℕ) (U := UR sig nD τ) (Lvl := ℕ) pre1 spec1 c (Vin1 m c)) := by
  have h1 := Pipeline.arrays_of_unscopedBufs (p := 1) (pcfgs (F := F)) (adm m) (pdats m) (launch1 (F := F)).win (launch1 (F := F)).arr_whole c
    ((pdats m 1 c).share_full fun w => share1 (Vin1 m) c w) (Vin1 m c) fun w => A_eq1 (Vin1 m) c w
  have h2 := Pipeline.unscopedRest_split (Ix := Unit) (Name := ℕ) (U := UR sig nD τ) (Lvl := ℕ) (preFacts1) c (Vin1 m c)
  rw [tables1 m c] at h2
  exact ((Entails.of_eq (Pipeline.unscopedBufs_held (Ix := Unit) (Name := ℕ) (U := UR sig nD τ) (Lvl := ℕ) c (Gen.V15 m (outsA m) c)).symm).trans h1).trans
    (sep_mono .rfl (Entails.of_eq h2))

set_option backward.isDefEq.respectTransparency.types false in
/-- EXIT: the arrays at what the pipeline leaves, the tables and the rest as entered, are the core's unscoped buffers at
    the exit valuation. -/
theorem exit1 (c : Dev nD) :
    iprop((pdats m 1 c).arrays ((pdats m 1 c).arrAt · (Pipeline.pin (pcfgs (F := F)) (adm m) 1).N)
          ∗ Pipeline.prefHeld (Ix := Unit) (Name := ℕ) (U := UR sig nD τ) (Lvl := ℕ) pre1 c (fun _ => fullShare) (adm1 (Vin1 m)).1
          ∗ Pipeline.unscopedRestP (Ix := Unit) (Name := ℕ) (U := UR sig nD τ) (Lvl := ℕ) pre1 spec1 c (Vin1 m c))
      ⊢ (StableHlo.held (c : Thread nD τ) (Pipeline.ucRefs τ sig) (Gen.V16 m (outsOf m) c) : sProp 𝕄) := by
  have h1 := Pipeline.unscopedBufs_of_arrays (p := 1) (pcfgs (F := F)) (adm m) (Ix := Unit) (Name := ℕ) (U := UR sig nD τ) (Lvl := ℕ)
    (launch1 (F := F)).win (launch1 (F := F)).arr_whole c (pdats m) ((pdats m 1 c).share_full fun w => share1 (Vin1 m) c w)
    (Vin1 m c) (fun b => Gen.V16 m (outsOf m) c b) ((pdats m 1 c).arrAt · (Pipeline.pin (pcfgs (F := F)) (adm m) 1).N) (hF1 m c) (hrest1 m c)
  have h2 := Pipeline.unscopedRest_split (Ix := Unit) (Name := ℕ) (U := UR sig nD τ) (Lvl := ℕ) (preFacts1) c (Vin1 m c)
  rw [tables1 m c] at h2
  exact ((sep_mono .rfl (Entails.of_eq h2.symm)).trans h1).trans
    (Entails.of_eq (Pipeline.unscopedBufs_held (Ix := Unit) (Name := ℕ) (U := UR sig nD τ) (Lvl := ℕ) c (Gen.V16 m (outsOf m) c)))

/-- The core's scoped buffers that are no staging buffer of region 1: the accumulator, the one-hot scratch, the rest. -/
theorem scoped1 (c : Dev nD) :
    (Pipeline.scopedRest (Ix := Unit) (Name := ℕ) (U := UR sig nD τ) (Lvl := ℕ) (Val := Elt F) spec1 c : sProp 𝕄)
      = iprop(((∃ f : Buf (Elt F) ((c : Thread nD τ).loc cc1_scratch0), ((c : Thread nD τ).loc cc1_scratch0) ↦{fullShare} f)
            ∗ (∃ f : Buf (Elt F) ((c : Thread nD τ).loc cc1_scratch1), ((c : Thread nD τ).loc cc1_scratch1) ↦{fullShare} f))
          ∗ Pipeline.scopedRestBut (Ix := Unit) (Name := ℕ) (U := UR sig nD τ) (Lvl := ℕ) (Val := Elt F) spec1 c [cc1_scratch0, cc1_scratch1]) :=
  Pipeline.scopedRest_split_of_list spec1 c [cc1_scratch0, cc1_scratch1] (by decide) (by decide)

set_option backward.isDefEq.respectTransparency.types false in
/-- The invariant before the first point, from the generator register, the tables and the scoped rest. -/
theorem first1 (c : Dev nD) :
    iprop((∃ r, prngReg c r)
        ∗ Pipeline.prefHeld (Ix := Unit) (Name := ℕ) (U := UR sig nD τ) (Lvl := ℕ) pre1 c (fun _ => fullShare) (adm1 (Vin1 m)).1
        ∗ Pipeline.scopedRest (Ix := Unit) (Name := ℕ) (U := UR sig nD τ) (Lvl := ℕ) (Val := Elt F) spec1 c)
      ⊢ (Phi1 (Vin1 m) c 0 : sProp 𝕄) := by
  rw [scoped1 c]
  unfold Phi1
  rw [if_pos (Fin.val_zero _)]
  iintro ⟨Hp, Ht, ⟨H8, H9⟩, Hrest⟩
  isplitl [Ht]; · iexact Ht
  isplitl [H8]
  · icases H8 with ⟨%f, H8⟩; iexists f
    iapply (Entails.of_eq (owns_whole (c : Thread nD τ) cc1_scratch0 fullShare f).symm); iexact H8
  isplitl [H9]
  · icases H9 with ⟨%f, H9⟩; iexists f
    iapply (Entails.of_eq (owns_whole (c : Thread nD τ) cc1_scratch1 fullShare f).symm); iexact H9
  isplitl [Hrest]; · iexact Hrest
  iexact Hp

set_option backward.isDefEq.respectTransparency.types false in
/-- The invariant after the last point gives back the generator register, the tables and the scoped rest: the
    accumulator's named contents are forgotten. -/
theorem last1 (c : Dev nD) :
    (Phi1 (Vin1 m) c (Fin.last (cfg1 (adm1 (Vin1 m))).N) : sProp 𝕄)
      ⊢ iprop(((∃ r, prngReg c r)
          ∗ Pipeline.prefHeld (Ix := Unit) (Name := ℕ) (U := UR sig nD τ) (Lvl := ℕ) pre1 c (fun _ => fullShare) (adm1 (Vin1 m)).1)
        ∗ emp
        ∗ Pipeline.scopedRest (Ix := Unit) (Name := ℕ) (U := UR sig nD τ) (Lvl := ℕ) (Val := Elt F) spec1 c) := by
  have hN : (Fin.last (cfg1 (adm1 (Vin1 m))).N).val ≠ 0 := by rw [Fin.val_last, N1_eq]; decide
  rw [scoped1 c]
  unfold Phi1
  rw [if_neg hN]
  iintro ⟨Ht, H8, H9, Hrest, Hp⟩
  isplitl [Hp Ht]
  · isplitl [Hp]; · iexact Hp
    iexact Ht
  isplitr; · iempintro
  isplitl [H8 H9]
  · isplitl [H8]
    · iexists _
      iapply (Entails.of_eq (owns_whole (c : Thread nD τ) cc1_scratch0 fullShare _)); iexact H8
    · icases H9 with ⟨%f, H9⟩; iexists f
      iapply (Entails.of_eq (owns_whole (c : Thread nD τ) cc1_scratch1 fullShare f)); iexact H9
  iexact Hrest

/-! ## Region 1 as a segment -/

set_option backward.isDefEq.respectTransparency.types false in
/-- REGION 1 over the thread state: entered from every unscoped buffer at `V15`, left at `V16`. -/
def reg1 : Pipeline.RegionSeg (pcfgs (F := F)) (adm m) (pdats m) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (Vin1 m) c).loose
  hwaits := Pipeline.hwaits_of_owed_zero _ _ _ _ L lv 1 fun c t => owed1 (Vin1 m) c t
  pre c := iprop(StableHlo.held (c : Thread nD τ) (Pipeline.ucRefs τ sig) (Gen.V15 m (outsA m) c) ∗ R c)
  post c := iprop(StableHlo.held (c : Thread nD τ) (Pipeline.ucRefs τ sig) (Gen.V16 m (outsOf m) c) ∗ R c)
  X c := iprop(∃ r, prngReg c r)
  Y c := iprop((∃ r, prngReg c r) ∗ Pipeline.prefHeld (Ix := Unit) (Name := ℕ) (U := UR sig nD τ) (Lvl := ℕ) pre1 c (fun _ => fullShare) (adm1 (Vin1 m)).1)
  Z c := Pipeline.unscopedRestP (Ix := Unit) (Name := ℕ) (U := UR sig nD τ) (Lvl := ℕ) pre1 spec1 c (Vin1 m c)
  hentry c := by
    rw [Pipeline.ownSems0_none]
    iintro ⟨⟨Hub, Hp, HO⟩, -, -⟩
    ihave H := (entry1 m c) $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (first1 m c).trans (Entails.of_eq (Phi_eq1 (Vin1 m) c 0).symm)
  hout c := by
    rw [Pipeline.ownSems0_none]
    exact (Entails.of_eq (Phi_eq1 (Vin1 m) c (Fin.last _))).trans (last1 m c)
  hexit c := by
    iintro ⟨Ha, HO, ⟨Hp, Ht⟩, Hrest⟩
    imodintro
    isplitl [Ha Ht Hrest]
    · iapply (exit1 m c)
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

/-! ## The exit valuations at the output arrays -/

/-- Region 0's exit valuation holds, at region 0's output array, what the pipeline's write-backs leave there. -/
theorem V14_out (c : Dev nD) : Gen.V14 m (outsOf m) c main_v80 = out0 m c := (hF0 m c 4).symm

/-- Region 1's exit valuation holds, at region 1's output array, what the pipeline's write-backs leave there. -/
theorem V16_out (c : Dev nD) : Gen.V16 m (outsOf m) c main_v84 = out1 m c := (hF1 m c 4).symm

/-- The valuation region 1 is entered from, read in the full family of what the regions leave. -/
theorem V15_in (c : Dev nD) (b : Ref sig .tc) : Gen.V15 m (outsOf m) c b = Vin1 m c b := congrFun (V15_outsOf m c) _

/-! ## The chaining into region 1 -/

set_option backward.isDefEq.respectTransparency.types false in
/-- Region 1 is entered from what the host stretch after region 0 leaves: that valuation reads the family only at
    region 0's output array. -/
theorem pre1_of (c : Dev nD) :
    iprop(StableHlo.held (c : Thread nD τ) (Pipeline.ucRefs τ sig) (Gen.V15 m (outsOf m) c) ∗ R c) ⊢ (reg1 m).pre c := by
  rw [V15_outsOf m c]; exact .rfl

/-! ## The launch -/

/-- The launch element: the pipeline library's, at every pipeline's staging cells. -/
abbrev u₀ : UR sig nD τ :=
  initOf (Pipeline.cells (Pipeline.pin (pcfgs (F := F)) (adm m)) (cellOf_inj (adm m))) (Pipeline.launchToks (Pipeline.pin (pcfgs (F := F)) (adm m)) (cellOf_inj (adm m)))

/-- The launch element is the library's own; no core takes a ghost resource besides. -/
theorem hu₀ : (ownU (u₀ m) : sProp 𝕄)
    ⊢ |={Set.univ}=> iprop(BI.own (emb₁ (u₀ m)) ∗ bigSep Finset.univ fun _ : Dev nD => (iprop(emp) : sProp 𝕄)) := by
  iintro Hu; imodintro
  isplitl [Hu]
  · iapply (show (ownU (u₀ m) : sProp 𝕄) ⊢ BI.own (emb₁ (u₀ m)) from .rfl)
    iexact Hu
  iapply (show (BI.emp : sProp 𝕄) ⊢ bigSep Finset.univ (fun _ : Dev nD => (BI.emp : sProp 𝕄)) from by rw [BI.bigSep_emp_const])
  iempintro

/-- What rides beside the buffers ends owing nothing. -/
theorem hR (c : Dev nD) : R (F := F) c ⊢ (iprop(∃ W, owes (c : Thread nD τ) (0 : CellTallies nD τ sig Unit) W) : sProp 𝕄) := by
  iintro ⟨-, HO⟩; iexact HO

/-- What the launch deals a core, besides its unscoped buffers, makes what rides beside them: the generator register is
    at its launch state, and the core owes nothing. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

/-! ## The frame -/

set_option backward.isDefEq.respectTransparency.types false in
/-- THE FRAME: from any memory with zero counters every weakly fair execution of @main terminates, and every final memory
    holds each argument array as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Gen.frame_cond m (Ix := Unit) (U := UR sig nD τ) (Lvl := ℕ) (EP := emb₁) (ι := ()) (𝒱₀ := 𝒱₀) (L := L) (lv := lv) (hL := fun _ _ => rfl)
    (ρ := ρ) (outs := outsOf m) (a := adm m) (pdats := pdats m) (O₀ := 0) (G := fun _ => iprop(emp)) (u₀ := u₀ m) (hu₀ := hu₀ m)
    (E := fun _ c => R c)
    (hE0 := hE0 ρ)
    (hE2 := hR)
    (R0 := reg0 m) (hpre0 := fun c => .rfl) (hpost0 := fun c => .rfl)
    (R1 := reg1 m) (hpre1 := pre1_of m) (hpost1 := fun c => .rfl)

/-! ## The run, read at the result buffer -/

set_option backward.isDefEq.respectTransparency.types false in
/-- THE RUN WITH VALUES: the same launch, the last thread state read at the result buffer as well: every final memory
    holds the result buffer at the last valuation of the fold, and each argument array as launched. -/
theorem run_values (ρ : Dev nD → PrngReg) :
    θ_run defs (onTc (τ := τ) (main (F := F))) ⟨m, fun _ => 0, ρ⟩ (fun r => ∀ c : Dev nD,
      r.2.mem ((c.tc : Thread nD τ).loc main_v94) = Gen.V17 m (outsOf m) c main_v94
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) (adm m) (pdats m) () (cellOf_inj (adm m)) emb₁ defs₀ 𝒱₀ L lv m ρ main
    (Gen.segs m (outsOf m) 𝒱₀ L lv (fun _ c => R c) () (adm m) (pdats m) (reg0 m) (reg1 m))
    (fun c Q => by
      rewrite [main_chain c, Pipeline.Seg.run_eq_chain,
        show (Gen.segs m (outsOf m) 𝒱₀ L lv (fun _ c => R c) () (adm m) (pdats m) (reg0 m) (reg1 m) c).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          Prog.lift (.customCall (Pipeline.entry 0) ()),
          StableHlo.seq hostOps1,
          Prog.lift (.customCall (Pipeline.entry 1) ()),
          StableHlo.seq hostOps2 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp)) (u₀ := u₀ m) (hu₀ := hu₀ m)
    (T₀ := fun c => iprop(StableHlo.held (c : Thread nD τ) (Pipeline.ucRefs τ sig) (Gen.V0 m c) ∗ R c))
    (Tₙ := fun c => StableHlo.held (c : Thread nD τ) (Pipeline.ucRefs τ sig) (Gen.V17 m (outsOf m) c))
    (hch := fun c => ⟨.rfl, .rfl, .rfl, .rfl, .rfl, .rfl, .rfl, .rfl, .rfl, .rfl, .rfl, .rfl, .rfl, .rfl, .rfl,
      pre1_of m c, .rfl, sep_mono .rfl (hR c)⟩)
    (hinit := ?_)
    (QY := fun c s => s.mem ((c.tc : Thread nD τ).loc main_v94) = Gen.V17 m (outsOf m) c main_v94
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => ?_) (hQ := fun _ h => h)
  · -- the launch: the unscoped buffers are held at the launch valuation; the register and the dues ride beside them
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: the result buffer and each argument's buffer read off the last valuation
    unfold StableHlo.held
    iintro ⟨Hh, HSI⟩
    ihave Hr := (pointsTo_read_all (Pipeline.ucRefs τ sig) (fun b => ((c : Thread nD τ).1, b)) (Gen.V17 m (outsOf m) c) s') $$ [Hh HSI]
    · isplitl [Hh] <;> iassumption
    icases Hr with ⟨%h, HSI⟩
    imodintro
    isplitr
    · ipureintro
      exact ⟨h (Proc.devRef .tc main_v94) (Finset.mem_filter.mpr ⟨StableHlo.devRef_mem_tcRefs main_v94, by decide⟩),
        (h (Proc.devRef .tc main_arg0) (Finset.mem_filter.mpr ⟨StableHlo.devRef_mem_tcRefs main_arg0, by decide⟩)).trans (Gen.V17_main_arg0 m (outsOf m) c),
        (h (Proc.devRef .tc main_arg1) (Finset.mem_filter.mpr ⟨StableHlo.devRef_mem_tcRefs main_arg1, by decide⟩)).trans (Gen.V17_main_arg1 m (outsOf m) c),
        (h (Proc.devRef .tc main_arg2) (Finset.mem_filter.mpr ⟨StableHlo.devRef_mem_tcRefs main_arg2, by decide⟩)).trans (Gen.V17_main_arg2 m (outsOf m) c)⟩
    · iexact HSI

end Cert.Kernel.Frame

end
-- ==== Proof.lean ====
/-
  The certificate's five claims, assembled.

  Both idealized programs compute the specification's `G` (Spec.lean) of the three argument arrays: two message passes
  over the edge list — gather at one end of each edge, weigh, add at the other end — and the elementwise prediction error
  and update direction, stacked as three rows. The kernel program does each pass with a launch that walks the padded,
  scatter-sorted edge list chunk by chunk with one-hot products (its accumulator after the last chunk is the pass:
  Regroup.lean); the reference does it with a host gather and scatter-add. The precondition keeps every edge endpoint
  inside the node range, where the reference's clamped gather and the kernel's one-hot gather read the same node.
  The three frames are the programs' runs with the results dropped.
-/
import proofs.«400082_j83537113907851_4_alg».proof.Defs
import proofs.«400082_j83537113907851_4_alg».proof.Proof.Gen.Kernel
import proofs.«400082_j83537113907851_4_alg».proof.Proof.Gen.KernelIdeal
import proofs.«400082_j83537113907851_4_alg».proof.Proof.Gen.ReferenceIdeal
import proofs.«400082_j83537113907851_4_alg».proof.Proof.Gen.Pre_finite_inputs
import proofs.«400082_j83537113907851_4_alg».proof.Proof.Gen.ReferenceIdeal.Run
import proofs.«400082_j83537113907851_4_alg».proof.Proof.RefValue
import proofs.«400082_j83537113907851_4_alg».proof.Proof.PreDecode
import proofs.«400082_j83537113907851_4_alg».proof.Proof.KValue
import proofs.«400082_j83537113907851_4_alg».proof.Proof.BSegs
import Idealize.ShloMosaic.Adequacy
import Idealize.ShloMosaic.Init

noncomputable section

namespace Cert.Proof

open Idealize.ShloMosaic Idealize.SL.Sem

attribute [local instance] Cert.Kernel.Gen.facts Cert.KernelIdeal.Gen.facts Cert.ReferenceIdeal.Gen.facts Cert.Pre_finite_inputs.Gen.facts

theorem frame_k : Cert.frame_Kernel := fun m ρ _ => Cert.Kernel.Frame.frame m ρ
theorem frame_ki : Cert.frame_KernelIdeal := fun m ρ _ => Cert.KernelIdeal.Frame.frame m ρ
theorem frame_ri : Cert.frame_ReferenceIdeal := fun m ρ _ =>
  (θ_run Cert.ReferenceIdeal.defs _ _).mono (fun _ h c => (h c).2) (Cert.ReferenceIdeal.Value.run (F := Ideal) m ρ)

theorem algebraic : Cert.algebraic_KernelIdeal_ReferenceIdeal := by
  intro m ρ m' ρ' hpre hagree
  have hr : ∀ c : Dev Cert.KernelIdeal.nD, Cert.Spec.InRange (m ((c.tc : Thread Cert.KernelIdeal.nD Cert.KernelIdeal.τ).loc Cert.KernelIdeal.main_arg2)) :=
    fun c => Cert.PreDecode.inRange_of_pre _ _ _ (hpre c)
  refine ⟨fun c => Cert.Spec.G (m ((c.tc : Thread _ _).loc Cert.KernelIdeal.main_arg0)) (m ((c.tc : Thread _ _).loc Cert.KernelIdeal.main_arg1)) (m ((c.tc : Thread _ _).loc Cert.KernelIdeal.main_arg2)), ?_, ?_⟩
  · exact (θ_run Cert.KernelIdeal.defs _ _).mono (fun _ h c => ⟨(h c).1.trans (Cert.KernelIdeal.KValue.result_eq m c (hr c)), (h c).2⟩)
      (Cert.KernelIdeal.Frame.run_values (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v46_eq, (hagree c).1, (hagree c).2.1, (hagree c).2.2]
    exact Cert.ReferenceIdeal.RefValue.ref_eq _ _ _ (hr c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
